-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v180)) (v1 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v180) = v0 c
          ∧ r.2.mem ((c.tc : Thread Cert.KernelIdeal.nD Cert.KernelIdeal.τ).loc Cert.KernelIdeal.main_v185) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_v252) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S3x64x64 : Shape := ⟨3, ![3, 64, 64]⟩
abbrev S3x64 : Shape := ⟨2, ![3, 64]⟩
abbrev S192x192 : Shape := ⟨2, ![192, 192]⟩
abbrev S192 : Shape := ⟨1, ![192]⟩
abbrev S192x10 : Shape := ⟨2, ![192, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S192x10 : S_.BroadcastsInDim S192x10 (![] : Fin 0 → Fin S192x10.rank)
  reducesTo_S192x10_S_d0_1 : S192x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S192 .f32) (main_arg10 : FVec F S192x10 .f32) (main_arg11 : FVec F S10 .f32) (main_v33 : IVec S_ 1) : IVec S_ 1 :=
  let main_v34 : FVec F S192 .f32 := Host.absf main_arg9
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S192x10 .f32 := Host.absf main_arg10
  let main_cst_14 : FVec F S_ .f32 := constant S_ .f32 0x7F800000#32
  let main_v40 : FVec F S192x10 .f32 := broadcastInDim S192x10 ![] bcast_S_S192x10 main_cst_14
  let main_v41 : IVec S192x10 1 := cmpf .olt main_v39 main_v40
  let main_c_15 : IVec S_ 1 := constantI S_ 1 1#1
  let main_v42 : IVec S_ 1 := (fun x v => Host.reduce IntOp.andi x v reducesTo_S192x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S3x64 .f32) (main_arg7 : FVec F S3x64 .f32) (main_arg8 : FVec F S192x192 .f32) (main_arg9 : FVec F S192 .f32) (main_arg10 : FVec F S192x10 .f32) (main_arg11 : FVec F S10 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S192x192 .f32 := Host.absf main_arg8
  let main_cst_10 : FVec F S_ .f32 := constant S_ .f32 0x7F800000#32
  let main_v30 : FVec F S192x192 .f32 := broadcastInDim S192x192 ![] bcast_S_S192x192 main_cst_10
  let main_v31 : IVec S192x192 1 := cmpf .olt main_v29 main_v30
  let main_c_11 : IVec S_ 1 := constantI S_ 1 1#1
  let main_v32 : IVec S_ 1 := (fun x v => Host.reduce IntOp.andi x v reducesTo_S192x192_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S2x1200000 32) (main_arg2 : IVec S100000 32) (main_arg3 : FVec F S3x64x64 .f32) (main_arg4 : FVec F S3x64 .f32) (main_arg5 : FVec F S3x64 .f32) (main_arg6 : FVec F S3x64 .f32) (main_arg7 : FVec F S3x64 .f32) (main_arg8 : FVec F S192x192 .f32) (main_arg9 : FVec F S192 .f32) (main_arg10 : FVec F S192x10 .f32) (main_arg11 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S3x64x64 : Shape := ⟨3, ![3, 64, 64]⟩
abbrev S3x64 : Shape := ⟨2, ![3, 64]⟩
abbrev S192x192 : Shape := ⟨2, ![192, 192]⟩
abbrev S192 : Shape := ⟨1, ![192]⟩
abbrev S192x10 : Shape := ⟨2, ![192, 10]⟩
abbrev S10 : Shape := ⟨1, ![10]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x1 : Shape := ⟨2, ![100000, 1]⟩
abbrev S256x1 : Shape := ⟨2, ![256, 1]⟩
abbrev S1x64x64 : Shape := ⟨3, ![1, 64, 64]⟩
abbrev S64x64 : Shape := ⟨2, ![64, 64]⟩
abbrev S5000x64 : Shape := ⟨2, ![5000, 64]⟩
abbrev S1300000x64 : Shape := ⟨2, ![1300000, 64]⟩
abbrev S1x64 : Shape := ⟨2, ![1, 64]⟩
abbrev S64 : Shape := ⟨1, ![64]⟩
abbrev S256x64 : Shape := ⟨2, ![256, 64]⟩
abbrev S5000x1 : Shape := ⟨2, ![5000, 1]⟩
abbrev S5000x256 : Shape := ⟨2, ![5000, 256]⟩
abbrev S100000x192 : Shape := ⟨2, ![100000, 192]⟩
abbrev S256x192 : Shape := ⟨2, ![256, 192]⟩
abbrev S5000x192 : Shape := ⟨2, ![5000, 192]⟩
abbrev S1x192 : Shape := ⟨2, ![1, 192]⟩
abbrev S1x10 : Shape := ⟨2, ![1, 10]⟩
abbrev S256x10 : Shape := ⟨2, ![256, 10]⟩
abbrev S256 : Shape := ⟨1, ![256]⟩

abbrev nBuf : Space → Nat
  | .hbm => 235
  | .vmem => 121
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S3x64, .f32⟩
  | 8 => ⟨S192x192, .f32⟩
  | 9 => ⟨S192, .f32⟩
  | 10 => ⟨S192x10, .f32⟩
  | 11 => ⟨S10, .f32⟩
  | 12 => ⟨S100000, .i32⟩
  | 13 => ⟨S1x1200000, .i32⟩
  | 14 => ⟨S1200000, .i32⟩
  | 15 => ⟨S1300000, .i32⟩
  | 16 => ⟨S1x1200000, .i32⟩
  | 17 => ⟨S1200000, .i32⟩
  | 18 => ⟨S1300000, .i32⟩
  | 19 => ⟨S_, .f32⟩
  | 20 => ⟨S1300000, .f32⟩
  | 21 => ⟨S_, .f32⟩
  | 22 => ⟨S100000, .f32⟩
  | 23 => ⟨S1300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1300000, .i32⟩
  | 35 => ⟨S1300000, .i1⟩
  | 36 => ⟨S_, .i32⟩
  | 37 => ⟨S1300000, .i32⟩
  | 38 => ⟨S1300000, .i32⟩
  | 39 => ⟨S1300000, .i32⟩
  | 40 => ⟨S1300000x1, .i32⟩
  | 41 => ⟨S1300000, .f32⟩
  | 42 => ⟨S_, .i32⟩
  | 43 => ⟨S1300000, .i32⟩
  | 44 => ⟨S1300000, .i1⟩
  | 45 => ⟨S_, .i32⟩
  | 46 => ⟨S1300000, .i32⟩
  | 47 => ⟨S1300000, .i32⟩
  | 48 => ⟨S1300000, .i32⟩
  | 49 => ⟨S1300000x1, .i32⟩
  | 50 => ⟨S1300000, .f32⟩
  | 51 => ⟨S1300000, .f32⟩
  | 52 => ⟨S_, .f32⟩
  | 53 => ⟨S100000x1, .f32⟩
  | 54 => ⟨S_, .f32⟩
  | 55 => ⟨S256x1, .f32⟩
  | 56 => ⟨S100000x1, .i32⟩
  | 57 => ⟨S256x1, .f32⟩
  | 58 => ⟨S_, .f32⟩
  | 59 => ⟨S256x1, .f32⟩
  | 60 => ⟨S256x1, .f32⟩
  | 61 => ⟨S100000x1, .i32⟩
  | 62 => ⟨S1x64x64, .f32⟩
  | 63 => ⟨S64x64, .f32⟩
  | 64 => ⟨S100000x64, .f32⟩
  | 65 => ⟨S_, .i32⟩
  | 66 => ⟨S1300000, .i32⟩
  | 67 => ⟨S1300000, .i1⟩
  | 68 => ⟨S_, .i32⟩
  | 69 => ⟨S1300000, .i32⟩
  | 70 => ⟨S1300000, .i32⟩
  | 71 => ⟨S1300000, .i32⟩
  | 72 => ⟨S1300000x1, .i32⟩
  | 73 => ⟨S1300000x64, .f32⟩
  | 74 => ⟨S1300000x1, .f32⟩
  | 75 => ⟨S1300000x64, .f32⟩
  | 76 => ⟨S1300000x64, .f32⟩
  | 77 => ⟨S_, .f32⟩
  | 78 => ⟨S100000x64, .f32⟩
  | 79 => ⟨S1300000x1, .i32⟩
  | 80 => ⟨S100000x64, .f32⟩
  | 81 => ⟨S1x64, .f32⟩
  | 82 => ⟨S64, .f32⟩
  | 83 => ⟨S1x64, .f32⟩
  | 84 => ⟨S100000x64, .f32⟩
  | 85 => ⟨S100000x64, .f32⟩
  | 86 => ⟨S256x64, .f32⟩
  | 87 => ⟨S_, .i32⟩
  | 88 => ⟨S100000, .i32⟩
  | 89 => ⟨S100000, .i1⟩
  | 90 => ⟨S_, .i32⟩
  | 91 => ⟨S100000, .i32⟩
  | 92 => ⟨S100000, .i32⟩
  | 93 => ⟨S100000, .i32⟩
  | 94 => ⟨S100000x1, .i32⟩
  | 95 => ⟨S100000x64, .f32⟩
  | 96 => ⟨S1x64, .f32⟩
  | 97 => ⟨S64, .f32⟩
  | 98 => ⟨S1x64, .f32⟩
  | 99 => ⟨S100000x64, .f32⟩
  | 100 => ⟨S100000x64, .f32⟩
  | 101 => ⟨S256x64, .f32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S100000x64, .f32⟩
  | 111 => ⟨S1x64, .f32⟩
  | 112 => ⟨S64, .f32⟩
  | 113 => ⟨S1x64, .f32⟩
  | 114 => ⟨S1x64, .f32⟩
  | 115 => ⟨S64, .f32⟩
  | 116 => ⟨S1x64, .f32⟩
  | 117 => ⟨S100000x64, .f32⟩
  | 118 => ⟨S1x64x64, .f32⟩
  | 119 => ⟨S64x64, .f32⟩
  | 120 => ⟨S100000x64, .f32⟩
  | 121 => ⟨S_, .i32⟩
  | 122 => ⟨S1300000, .i32⟩
  | 123 => ⟨S1300000, .i1⟩
  | 124 => ⟨S_, .i32⟩
  | 125 => ⟨S1300000, .i32⟩
  | 126 => ⟨S1300000, .i32⟩
  | 127 => ⟨S1300000, .i32⟩
  | _ => ⟨S100000x64, .f32⟩

abbrev hbmTy0_1 (i : Nat) : BufTy := match i % 128 with
  | 0 => ⟨S1300000x1, .i32⟩
  | 1 => ⟨S1300000x64, .f32⟩
  | 2 => ⟨S1300000x1, .f32⟩
  | 3 => ⟨S1300000x64, .f32⟩
  | 4 => ⟨S1300000x64, .f32⟩
  | 5 => ⟨S_, .f32⟩
  | 6 => ⟨S100000x64, .f32⟩
  | 7 => ⟨S1300000x1, .i32⟩
  | 8 => ⟨S100000x64, .f32⟩
  | 9 => ⟨S1x64, .f32⟩
  | 10 => ⟨S64, .f32⟩
  | 11 => ⟨S1x64, .f32⟩
  | 12 => ⟨S100000x64, .f32⟩
  | 13 => ⟨S100000x64, .f32⟩
  | 14 => ⟨S256x64, .f32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x64, .f32⟩
  | 24 => ⟨S1x64, .f32⟩
  | 25 => ⟨S64, .f32⟩
  | 26 => ⟨S1x64, .f32⟩
  | 27 => ⟨S100000x64, .f32⟩
  | 28 => ⟨S100000x64, .f32⟩
  | 29 => ⟨S256x64, .f32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S100000x64, .f32⟩
  | 39 => ⟨S1x64, .f32⟩
  | 40 => ⟨S64, .f32⟩
  | 41 => ⟨S1x64, .f32⟩
  | 42 => ⟨S1x64, .f32⟩
  | 43 => ⟨S64, .f32⟩
  | 44 => ⟨S1x64, .f32⟩
  | 45 => ⟨S100000x64, .f32⟩
  | 46 => ⟨S1x64x64, .f32⟩
  | 47 => ⟨S64x64, .f32⟩
  | 48 => ⟨S100000x64, .f32⟩
  | 49 => ⟨S_, .i32⟩
  | 50 => ⟨S1300000, .i32⟩
  | 51 => ⟨S1300000, .i1⟩
  | 52 => ⟨S_, .i32⟩
  | 53 => ⟨S1300000, .i32⟩
  | 54 => ⟨S1300000, .i32⟩
  | 55 => ⟨S1300000, .i32⟩
  | 56 => ⟨S1300000x1, .i32⟩
  | 57 => ⟨S1300000x64, .f32⟩
  | 58 => ⟨S1300000x1, .f32⟩
  | 59 => ⟨S1300000x64, .f32⟩
  | 60 => ⟨S1300000x64, .f32⟩
  | 61 => ⟨S_, .f32⟩
  | 62 => ⟨S100000x64, .f32⟩
  | 63 => ⟨S1300000x1, .i32⟩
  | 64 => ⟨S100000x64, .f32⟩
  | 65 => ⟨S1x64, .f32⟩
  | 66 => ⟨S64, .f32⟩
  | 67 => ⟨S1x64, .f32⟩
  | 68 => ⟨S100000x64, .f32⟩
  | 69 => ⟨S100000x64, .f32⟩
  | 70 => ⟨S256x64, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x64, .f32⟩
  | 80 => ⟨S1x64, .f32⟩
  | 81 => ⟨S64, .f32⟩
  | 82 => ⟨S1x64, .f32⟩
  | 83 => ⟨S100000x64, .f32⟩
  | 84 => ⟨S100000x64, .f32⟩
  | 85 => ⟨S256x64, .f32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S100000x64, .f32⟩
  | 95 => ⟨S1x64, .f32⟩
  | 96 => ⟨S64, .f32⟩
  | 97 => ⟨S1x64, .f32⟩
  | 98 => ⟨S1x64, .f32⟩
  | 99 => ⟨S64, .f32⟩
  | 100 => ⟨S1x64, .f32⟩
  | 101 => ⟨S100000x64, .f32⟩
  | 102 => ⟨S100000x192, .f32⟩
  | 103 => ⟨S256x192, .f32⟩
  | 104 => ⟨S1x192, .f32⟩
  | 105 => ⟨S1x10, .f32⟩
  | 106 => ⟨S256x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .i32⟩
  | .local _ .vmem, ⟨8, _⟩ => ⟨S5000x1, .i32⟩
  | .local _ .vmem, ⟨9, _⟩ => ⟨S256x1, .f32⟩
  | .local _ .vmem, ⟨10, _⟩ => ⟨S256x64, .f32⟩
  | .local _ .vmem, ⟨11, _⟩ => ⟨S256x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .i32⟩
  | .local _ .vmem, ⟨24, _⟩ => ⟨S5000x1, .i32⟩
  | .local _ .vmem, ⟨25, _⟩ => ⟨S256x1, .f32⟩
  | .local _ .vmem, ⟨26, _⟩ => ⟨S256x64, .f32⟩
  | .local _ .vmem, ⟨27, _⟩ => ⟨S256x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x1, .i32⟩
  | .local _ .vmem, ⟨44, _⟩ => ⟨S5000x1, .i32⟩
  | .local _ .vmem, ⟨45, _⟩ => ⟨S256x1, .f32⟩
  | .local _ .vmem, ⟨46, _⟩ => ⟨S256x64, .f32⟩
  | .local _ .vmem, ⟨47, _⟩ => ⟨S256x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S1x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x1, .i32⟩
  | .local _ .vmem, ⟨60, _⟩ => ⟨S5000x1, .i32⟩
  | .local _ .vmem, ⟨61, _⟩ => ⟨S256x1, .f32⟩
  | .local _ .vmem, ⟨62, _⟩ => ⟨S256x64, .f32⟩
  | .local _ .vmem, ⟨63, _⟩ => ⟨S256x64, .f32⟩
  | .local _ .vmem, ⟨64, _⟩ => ⟨S5000x64, .f32⟩
  | .local _ .vmem, ⟨65, _⟩ => ⟨S5000x64, .f32⟩
  | .local _ .vmem, ⟨66, _⟩ => ⟨S5000x64, .f32⟩
  | .local _ .vmem, ⟨67, _⟩ => ⟨S5000x64, .f32⟩
  | .local _ .vmem, ⟨68, _⟩ => ⟨S1x64, .f32⟩
  | .local _ .vmem, ⟨69, _⟩ => ⟨S1x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S64x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S5000x1, .i32⟩
  | .local _ .vmem, ⟨80, _⟩ => ⟨S5000x1, .i32⟩
  | .local _ .vmem, ⟨81, _⟩ => ⟨S256x1, .f32⟩
  | .local _ .vmem, ⟨82, _⟩ => ⟨S256x64, .f32⟩
  | .local _ .vmem, ⟨83, _⟩ => ⟨S256x64, .f32⟩
  | .local _ .vmem, ⟨84, _⟩ => ⟨S5000x64, .f32⟩
  | .local _ .vmem, ⟨85, _⟩ => ⟨S5000x64, .f32⟩
  | .local _ .vmem, ⟨86, _⟩ => ⟨S5000x64, .f32⟩
  | .local _ .vmem, ⟨87, _⟩ => ⟨S5000x64, .f32⟩
  | .local _ .vmem, ⟨88, _⟩ => ⟨S1x64, .f32⟩
  | .local _ .vmem, ⟨89, _⟩ => ⟨S5000x64, .f32⟩
  | .local _ .vmem, ⟨90, _⟩ => ⟨S5000x64, .f32⟩
  | .local _ .vmem, ⟨91, _⟩ => ⟨S5000x64, .f32⟩
  | .local _ .vmem, ⟨92, _⟩ => ⟨S5000x64, .f32⟩
  | .local _ .vmem, ⟨93, _⟩ => ⟨S5000x64, .f32⟩
  | .local _ .vmem, ⟨94, _⟩ => ⟨S5000x64, .f32⟩
  | .local _ .vmem, ⟨95, _⟩ => ⟨S5000x1, .i32⟩
  | .local _ .vmem, ⟨96, _⟩ => ⟨S5000x1, .i32⟩
  | .local _ .vmem, ⟨97, _⟩ => ⟨S256x1, .f32⟩
  | .local _ .vmem, ⟨98, _⟩ => ⟨S256x64, .f32⟩
  | .local _ .vmem, ⟨99, _⟩ => ⟨S256x64, .f32⟩
  | .local _ .vmem, ⟨100, _⟩ => ⟨S5000x64, .f32⟩
  | .local _ .vmem, ⟨101, _⟩ => ⟨S5000x64, .f32⟩
  | .local _ .vmem, ⟨102, _⟩ => ⟨S5000x64, .f32⟩
  | .local _ .vmem, ⟨103, _⟩ => ⟨S5000x64, .f32⟩
  | .local _ .vmem, ⟨104, _⟩ => ⟨S1x64, .f32⟩
  | .local _ .vmem, ⟨105, _⟩ => ⟨S1x64, .f32⟩
  | .local _ .vmem, ⟨106, _⟩ => ⟨S5000x64, .f32⟩
  | .local _ .vmem, ⟨107, _⟩ => ⟨S5000x64, .f32⟩
  | .local _ .vmem, ⟨108, _⟩ => ⟨S5000x192, .f32⟩
  | .local _ .vmem, ⟨109, _⟩ => ⟨S5000x192, .f32⟩
  | .local _ .vmem, ⟨110, _⟩ => ⟨S5000x1, .i32⟩
  | .local _ .vmem, ⟨111, _⟩ => ⟨S5000x1, .i32⟩
  | .local _ .vmem, ⟨112, _⟩ => ⟨S256x1, .f32⟩
  | .local _ .vmem, ⟨113, _⟩ => ⟨S256x192, .f32⟩
  | .local _ .vmem, ⟨114, _⟩ => ⟨S256x192, .f32⟩
  | .local _ .vmem, ⟨115, _⟩ => ⟨S256x192, .f32⟩
  | .local _ .vmem, ⟨116, _⟩ => ⟨S192x192, .f32⟩
  | .local _ .vmem, ⟨117, _⟩ => ⟨S1x192, .f32⟩
  | .local _ .vmem, ⟨118, _⟩ => ⟨S192x10, .f32⟩
  | .local _ .vmem, ⟨119, _⟩ => ⟨S1x10, .f32⟩
  | .local _ .vmem, ⟨120, _⟩ => ⟨S256x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | _, _ => false

abbrev semScoped : Fin 0 → Bool
  | ⟨_, h⟩ => absurd h (Nat.not_lt_zero _)

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  ofTc nBuf bufTy 0 114 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_c_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69_0 : Ref sig .tc := ⟨.hbm, 99, rfl⟩
abbrev main_v69_1 : Ref sig .tc := ⟨.hbm, 100, rfl⟩
abbrev main_v70 : Ref sig .tc := ⟨.hbm, 101, rfl⟩
abbrev main_c_14 : Ref sig .tc := ⟨.hbm, 102, rfl⟩
abbrev main_v71 : Ref sig .tc := ⟨.hbm, 103, rfl⟩
abbrev main_v72 : Ref sig .tc := ⟨.hbm, 104, rfl⟩
abbrev main_c_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_16 : Ref sig .tc := ⟨.hbm, 121, rfl⟩
abbrev main_v88 : Ref sig .tc := ⟨.hbm, 122, rfl⟩
abbrev main_v89 : Ref sig .tc := ⟨.hbm, 123, rfl⟩
abbrev main_c_17 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_18 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_19 : Ref sig .tc := ⟨.hbm, 143, rfl⟩
abbrev main_v107 : Ref sig .tc := ⟨.hbm, 144, rfl⟩
abbrev main_v108 : Ref sig .tc := ⟨.hbm, 145, rfl⟩
abbrev main_c_20 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117_0 : Ref sig .tc := ⟨.hbm, 155, rfl⟩
abbrev main_v117_1 : Ref sig .tc := ⟨.hbm, 156, rfl⟩
abbrev main_v118 : Ref sig .tc := ⟨.hbm, 157, rfl⟩
abbrev main_c_21 : Ref sig .tc := ⟨.hbm, 158, rfl⟩
abbrev main_v119 : Ref sig .tc := ⟨.hbm, 159, rfl⟩
abbrev main_v120 : Ref sig .tc := ⟨.hbm, 160, rfl⟩
abbrev main_c_22 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_c_23 : Ref sig .tc := ⟨.hbm, 177, rfl⟩
abbrev main_v136 : Ref sig .tc := ⟨.hbm, 178, rfl⟩
abbrev main_v137 : Ref sig .tc := ⟨.hbm, 179, rfl⟩
abbrev main_c_24 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_25 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_c_26 : Ref sig .tc := ⟨.hbm, 199, rfl⟩
abbrev main_v155 : Ref sig .tc := ⟨.hbm, 200, rfl⟩
abbrev main_v156 : Ref sig .tc := ⟨.hbm, 201, rfl⟩
abbrev main_c_27 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165_0 : Ref sig .tc := ⟨.hbm, 211, rfl⟩
abbrev main_v165_1 : Ref sig .tc := ⟨.hbm, 212, rfl⟩
abbrev main_v166 : Ref sig .tc := ⟨.hbm, 213, rfl⟩
abbrev main_c_28 : Ref sig .tc := ⟨.hbm, 214, rfl⟩
abbrev main_v167 : Ref sig .tc := ⟨.hbm, 215, rfl⟩
abbrev main_v168 : Ref sig .tc := ⟨.hbm, 216, rfl⟩
abbrev main_c_29 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg3_0 : Ref sig .tc := ⟨.vmem, 46, rfl⟩
abbrev cc6_scratch0 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg3_1 : Ref sig .tc := ⟨.vmem, 54, rfl⟩
abbrev cc7_stg4_0 : Ref sig .tc := ⟨.vmem, 55, rfl⟩
abbrev cc7_stg4_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg1_1 : Ref sig .tc := ⟨.vmem, 60, rfl⟩
abbrev cc8_stg2_0 : Ref sig .tc := ⟨.vmem, 61, rfl⟩
abbrev cc8_stg3_0 : Ref sig .tc := ⟨.vmem, 62, rfl⟩
abbrev cc8_scratch0 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg1_1 : Ref sig .tc := ⟨.vmem, 67, rfl⟩
abbrev cc9_stg2_0 : Ref sig .tc := ⟨.vmem, 68, rfl⟩
abbrev cc9_stg3_0 : Ref sig .tc := ⟨.vmem, 69, rfl⟩
abbrev cc9_stg4_0 : Ref sig .tc := ⟨.vmem, 70, rfl⟩
abbrev cc9_stg4_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg2_0 : Ref sig .tc := ⟨.vmem, 75, rfl⟩
abbrev cc10_stg2_1 : Ref sig .tc := ⟨.vmem, 76, rfl⟩
abbrev cc11_stg0_0 : Ref sig .tc := ⟨.vmem, 77, rfl⟩
abbrev cc11_stg0_1 : Ref sig .tc := ⟨.vmem, 78, rfl⟩
abbrev cc11_stg1_0 : Ref sig .tc := ⟨.vmem, 79, rfl⟩
abbrev cc11_stg1_1 : Ref sig .tc := ⟨.vmem, 80, rfl⟩
abbrev cc11_stg2_0 : Ref sig .tc := ⟨.vmem, 81, rfl⟩
abbrev cc11_stg3_0 : Ref sig .tc := ⟨.vmem, 82, rfl⟩
abbrev cc11_scratch0 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg1_1 : Ref sig .tc := ⟨.vmem, 87, rfl⟩
abbrev cc12_stg2_0 : Ref sig .tc := ⟨.vmem, 88, rfl⟩
abbrev cc12_stg3_0 : Ref sig .tc := ⟨.vmem, 89, rfl⟩
abbrev cc12_stg3_1 : Ref sig .tc := ⟨.vmem, 90, rfl⟩
abbrev cc12_stg4_0 : Ref sig .tc := ⟨.vmem, 91, rfl⟩
abbrev cc12_stg4_1 : Ref sig .tc := ⟨.vmem, 92, rfl⟩
abbrev cc13_stg0_0 : Ref sig .tc := ⟨.vmem, 93, rfl⟩
abbrev cc13_stg0_1 : Ref sig .tc := ⟨.vmem, 94, rfl⟩
abbrev cc13_stg1_0 : Ref sig .tc := ⟨.vmem, 95, rfl⟩
abbrev cc13_stg1_1 : Ref sig .tc := ⟨.vmem, 96, rfl⟩
abbrev cc13_stg2_0 : Ref sig .tc := ⟨.vmem, 97, rfl⟩
abbrev cc13_stg3_0 : Ref sig .tc := ⟨.vmem, 98, rfl⟩
abbrev cc13_scratch0 : Ref sig .tc := ⟨.vmem, 99, rfl⟩
abbrev cc14_stg0_0 : Ref sig .tc := ⟨.vmem, 100, rfl⟩
abbrev cc14_stg0_1 : Ref sig .tc := ⟨.vmem, 101, rfl⟩
abbrev cc14_stg1_0 : Ref sig .tc := ⟨.vmem, 102, rfl⟩
abbrev cc14_stg1_1 : Ref sig .tc := ⟨.vmem, 103, rfl⟩
abbrev cc14_stg2_0 : Ref sig .tc := ⟨.vmem, 104, rfl⟩
abbrev cc14_stg3_0 : Ref sig .tc := ⟨.vmem, 105, rfl⟩
abbrev cc14_stg4_0 : Ref sig .tc := ⟨.vmem, 106, rfl⟩
abbrev cc14_stg4_1 : Ref sig .tc := ⟨.vmem, 107, rfl⟩
abbrev cc15_stg0_0 : Ref sig .tc := ⟨.vmem, 108, rfl⟩
abbrev cc15_stg0_1 : Ref sig .tc := ⟨.vmem, 109, rfl⟩
abbrev cc15_stg1_0 : Ref sig .tc := ⟨.vmem, 110, rfl⟩
abbrev cc15_stg1_1 : Ref sig .tc := ⟨.vmem, 111, rfl⟩
abbrev cc15_stg2_0 : Ref sig .tc := ⟨.vmem, 112, rfl⟩
abbrev cc15_stg3_0 : Ref sig .tc := ⟨.vmem, 113, rfl⟩
abbrev cc15_scratch0 : Ref sig .tc := ⟨.vmem, 114, rfl⟩
abbrev cc16_stg0_0 : Ref sig .tc := ⟨.vmem, 115, rfl⟩
abbrev cc16_stg1_0 : Ref sig .tc := ⟨.vmem, 116, rfl⟩
abbrev cc16_stg2_0 : Ref sig .tc := ⟨.vmem, 117, rfl⟩
abbrev cc16_stg3_0 : Ref sig .tc := ⟨.vmem, 118, rfl⟩
abbrev cc16_stg4_0 : Ref sig .tc := ⟨.vmem, 119, rfl⟩
abbrev cc16_stg5_0 : Ref sig .tc := ⟨.vmem, 120, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem3_0 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem3_0 : DmaSem sig := 50
abbrev cc7_sem3_1 : DmaSem sig := 51
abbrev cc7_sem4_0 : DmaSem sig := 52
abbrev cc7_sem4_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem3_0 : DmaSem sig := 59
abbrev cc9_sem0_0 : DmaSem sig := 60
abbrev cc9_sem0_1 : DmaSem sig := 61
abbrev cc9_sem1_0 : DmaSem sig := 62
abbrev cc9_sem1_1 : DmaSem sig := 63
abbrev cc9_sem2_0 : DmaSem sig := 64
abbrev cc9_sem3_0 : DmaSem sig := 65
abbrev cc9_sem4_0 : DmaSem sig := 66
abbrev cc9_sem4_1 : DmaSem sig := 67
abbrev cc10_sem0_0 : DmaSem sig := 68
abbrev cc10_sem0_1 : DmaSem sig := 69
abbrev cc10_sem1_0 : DmaSem sig := 70
abbrev cc10_sem2_0 : DmaSem sig := 71
abbrev cc10_sem2_1 : DmaSem sig := 72
abbrev cc11_sem0_0 : DmaSem sig := 73
abbrev cc11_sem0_1 : DmaSem sig := 74
abbrev cc11_sem1_0 : DmaSem sig := 75
abbrev cc11_sem1_1 : DmaSem sig := 76
abbrev cc11_sem2_0 : DmaSem sig := 77
abbrev cc11_sem3_0 : DmaSem sig := 78
abbrev cc12_sem0_0 : DmaSem sig := 79
abbrev cc12_sem0_1 : DmaSem sig := 80
abbrev cc12_sem1_0 : DmaSem sig := 81
abbrev cc12_sem1_1 : DmaSem sig := 82
abbrev cc12_sem2_0 : DmaSem sig := 83
abbrev cc12_sem3_0 : DmaSem sig := 84
abbrev cc12_sem3_1 : DmaSem sig := 85
abbrev cc12_sem4_0 : DmaSem sig := 86
abbrev cc12_sem4_1 : DmaSem sig := 87
abbrev cc13_sem0_0 : DmaSem sig := 88
abbrev cc13_sem0_1 : DmaSem sig := 89
abbrev cc13_sem1_0 : DmaSem sig := 90
abbrev cc13_sem1_1 : DmaSem sig := 91
abbrev cc13_sem2_0 : DmaSem sig := 92
abbrev cc13_sem3_0 : DmaSem sig := 93
abbrev cc14_sem0_0 : DmaSem sig := 94
abbrev cc14_sem0_1 : DmaSem sig := 95
abbrev cc14_sem1_0 : DmaSem sig := 96
abbrev cc14_sem1_1 : DmaSem sig := 97
abbrev cc14_sem2_0 : DmaSem sig := 98
abbrev cc14_sem3_0 : DmaSem sig := 99
abbrev cc14_sem4_0 : DmaSem sig := 100
abbrev cc14_sem4_1 : DmaSem sig := 101
abbrev cc15_sem0_0 : DmaSem sig := 102
abbrev cc15_sem0_1 : DmaSem sig := 103
abbrev cc15_sem1_0 : DmaSem sig := 104
abbrev cc15_sem1_1 : DmaSem sig := 105
abbrev cc15_sem2_0 : DmaSem sig := 106
abbrev cc15_sem3_0 : DmaSem sig := 107
abbrev cc16_sem0_0 : DmaSem sig := 108
abbrev cc16_sem1_0 : DmaSem sig := 109
abbrev cc16_sem2_0 : DmaSem sig := 110
abbrev cc16_sem3_0 : DmaSem sig := 111
abbrev cc16_sem4_0 : DmaSem sig := 112
abbrev cc16_sem5_0 : DmaSem sig := 113

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def k8_cond2 (i : grid8.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S256x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![20], ![false]⟩

def k11_cond2 (i : grid11.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x1 .i32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S256x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S256x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S5000x64 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![20], ![false]⟩

def k13_cond2 (i : grid13.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x1 .i32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S256x1 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S256x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x64 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 2 → Memref sig .tc .vmem S5000x64 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev grid15 : Pipeline.Grid := ⟨1, ![20], ![false]⟩

def k15_cond2 (i : grid15.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S5000x192 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S5000x1 .i32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S256x1 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S256x192 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 1 → Memref sig .tc .vmem S256x192 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![false]

abbrev stage16_1 : Fin 1 → Memref sig .tc .vmem S192x192 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x192 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S192x10 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x10 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S256x10 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S100000x1 : S_.BroadcastsInDim S100000x1 (![] : Fin 0 → Fin S100000x1.rank)
  bcast_S_S256x1 : S_.BroadcastsInDim S256x1 (![] : Fin 0 → Fin S256x1.rank)
  bcast_S100000_S100000x1_0 : S100000.BroadcastsInDim S100000x1 (![0] : Fin 1 → Fin S100000x1.rank)
  shapeCasts_S100000_S100000x1 : S100000.ShapeCasts S100000x1
  slices_S3x64x64_S1x64x64_0_0_0 : S3x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S5000x64_S5000x64 : S5000x64.ShapeCasts S5000x64
  iota_S5000x256_d1_w32 : S5000x256.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  natLt_1_32 : 1 < 32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x64 : S256x1.Broadcasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x64_S100000x192_d1 : Shape.Concatenates [S100000x64, S100000x64, S100000x64] S100000x192 1
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  broadcasts_S256x1_S256x192 : S256x1.Broadcasts S256x192
  shapeCasts_S192_S1x192 : S192.ShapeCasts S1x192
  shapeCasts_S10_S1x10 : S10.ShapeCasts S1x10
  inb_S192x192_S192x192_0_0 : ∀ a, (![0, 0] : Fin 2 → Nat) a + S192x192.size a ≤ S192x192.size a
  h_S192x192 : 0 < S192x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S256x192 : S1x192.Broadcasts S256x192
  inb_S192x10_S192x10_0_0 : ∀ a, (![0, 0] : Fin 2 → Nat) a + S192x10.size a ≤ S192x10.size a
  h_S192x10 : 0 < S192x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  inb_S256x10_S256x10_0_0 : ∀ a, (![0, 0] : Fin 2 → Nat) a + S256x10.size a ≤ S256x10.size a
  h_S256x10 : 0 < S256x10.numel
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  scatter_S256x1_S100000x1_S100000x1_1_0_0_1_wf : ScatterDims.WF S256x1 S100000x1 S100000x1 [1] [0] [0] 1
  dot_S5000x64_S64x64_S5000x64_1_0_0_1_n_n_wf : DotDims.WF S5000x64 S64x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S5000x256_S5000x64_S256x64_0_0_1_1_n_n_wf : DotDims.WF S5000x256 S5000x64 S256x64 [0] [0] [1] [1] [] []
  gather_S256x64_S100000x1_S100000x64_1_0_n_n_0_1_164_wf : GatherDims.WF S256x64 S100000x1 S100000x64 [1] [0] [] [0] [] 1 ![1, 64]
  dot_S5000x256_S5000x192_S256x192_0_0_1_1_n_n_wf : DotDims.WF S5000x256 S5000x192 S256x192 [0] [0] [1] [1] [] []
  dot_S256x192_S192x192_S256x192_1_0_0_1_n_n_wf : DotDims.WF S256x192 S192x192 S256x192 [1] [0] [0] [1] [] []
  dot_S256x192_S192x10_S256x10_1_0_0_1_n_n_wf : DotDims.WF S256x192 S192x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .i32 = 32 ∨ (Rect.block (s := S100000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x1.size a ≤ S256x1.size a
  hwx3_2 : ∀ i : grid3.Coords, EltTy.bits .f32 = 32 ∨ (Rect.block (s := S256x1) S256x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x64.size a ≤ S256x64.size a
  hwx3_3 : ∀ i : grid3.Coords, EltTy.bits .f32 = 32 ∨ (Rect.block (s := S256x64) S256x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x1.size a ≤ S256x1.size a
  hwx6_2 : ∀ i : grid6.Coords, EltTy.bits .f32 = 32 ∨ (Rect.block (s := S256x1) S256x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x64.size a ≤ S256x64.size a
  hwx6_3 : ∀ i : grid6.Coords, EltTy.bits .f32 = 32 ∨ (Rect.block (s := S256x64) S256x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S100000x64.size a
  hwx7_4 : ∀ i : grid7.Coords, EltTy.bits .f32 = 32 ∨ (Rect.block (s := S100000x64) S5000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S100000x1.size a
  hwx8_1 : ∀ i : grid8.Coords, EltTy.bits .i32 = 32 ∨ (Rect.block (s := S100000x1) S5000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x1.size a ≤ S256x1.size a
  hwx8_2 : ∀ i : grid8.Coords, EltTy.bits .f32 = 32 ∨ (Rect.block (s := S256x1) S256x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x64.size a ≤ S256x64.size a
  hwx8_3 : ∀ i : grid8.Coords, EltTy.bits .f32 = 32 ∨ (Rect.block (s := S256x64) S256x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x64.size a ≤ S100000x64.size a
  hwx9_4 : ∀ i : grid9.Coords, EltTy.bits .f32 = 32 ∨ (Rect.block (s := S100000x64) S5000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x64.size a ≤ S100000x64.size a
  hwx10_2 : ∀ i : grid10.Coords, EltTy.bits .f32 = 32 ∨ (Rect.block (s := S100000x64) S5000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x1.size a ≤ S100000x1.size a
  hwx11_1 : ∀ i : grid11.Coords, EltTy.bits .i32 = 32 ∨ (Rect.block (s := S100000x1) S5000x1.size (cc11_transform_1 i) (hinb11_1 i)).WholeWords (EltTy.packing .i32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S256x1.size a ≤ S256x1.size a
  hwx11_2 : ∀ i : grid11.Coords, EltTy.bits .f32 = 32 ∨ (Rect.block (s := S256x1) S256x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S256x64.size a ≤ S256x64.size a
  hwx11_3 : ∀ i : grid11.Coords, EltTy.bits .f32 = 32 ∨ (Rect.block (s := S256x64) S256x64.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S100000x64.size a
  hwx12_0 : ∀ i : grid12.Coords, EltTy.bits .f32 = 32 ∨ (Rect.block (s := S100000x64) S5000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x64.size a ≤ S100000x64.size a
  hwx12_1 : ∀ i : grid12.Coords, EltTy.bits .f32 = 32 ∨ (Rect.block (s := S100000x64) S5000x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x64.size a ≤ S100000x64.size a
  hwx12_3 : ∀ i : grid12.Coords, EltTy.bits .f32 = 32 ∨ (Rect.block (s := S100000x64) S5000x64.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x64.size a ≤ S100000x64.size a
  hwx12_4 : ∀ i : grid12.Coords, EltTy.bits .f32 = 32 ∨ (Rect.block (s := S100000x64) S5000x64.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S100000x64.size a
  hwx13_0 : ∀ i : grid13.Coords, EltTy.bits .f32 = 32 ∨ (Rect.block (s := S100000x64) S5000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x1.size a ≤ S100000x1.size a
  hwx13_1 : ∀ i : grid13.Coords, EltTy.bits .i32 = 32 ∨ (Rect.block (s := S100000x1) S5000x1.size (cc13_transform_1 i) (hinb13_1 i)).WholeWords (EltTy.packing .i32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S256x1.size a ≤ S256x1.size a
  hwx13_2 : ∀ i : grid13.Coords, EltTy.bits .f32 = 32 ∨ (Rect.block (s := S256x1) S256x1.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S256x64.size a ≤ S256x64.size a
  hwx13_3 : ∀ i : grid13.Coords, EltTy.bits .f32 = 32 ∨ (Rect.block (s := S256x64) S256x64.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S100000x64.size a
  hwx14_0 : ∀ i : grid14.Coords, EltTy.bits .f32 = 32 ∨ (Rect.block (s := S100000x64) S5000x64.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x64.size a ≤ S100000x64.size a
  hwx14_1 : ∀ i : grid14.Coords, EltTy.bits .f32 = 32 ∨ (Rect.block (s := S100000x64) S5000x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S5000x64.size a ≤ S100000x64.size a
  hwx14_4 : ∀ i : grid14.Coords, EltTy.bits .f32 = 32 ∨ (Rect.block (s := S100000x64) S5000x64.size (cc14_transform_4 i) (hinb14_4 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x192.size a ≤ S100000x192.size a
  hwx15_0 : ∀ i : grid15.Coords, EltTy.bits .f32 = 32 ∨ (Rect.block (s := S100000x192) S5000x192.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S5000x1.size a ≤ S100000x1.size a
  hwx15_1 : ∀ i : grid15.Coords, EltTy.bits .i32 = 32 ∨ (Rect.block (s := S100000x1) S5000x1.size (cc15_transform_1 i) (hinb15_1 i)).WholeWords (EltTy.packing .i32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S256x1.size a ≤ S256x1.size a
  hwx15_2 : ∀ i : grid15.Coords, EltTy.bits .f32 = 32 ∨ (Rect.block (s := S256x1) S256x1.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S256x192.size a ≤ S256x192.size a
  hwx15_3 : ∀ i : grid15.Coords, EltTy.bits .f32 = 32 ∨ (Rect.block (s := S256x192) S256x192.size (cc15_transform_3 i) (hinb15_3 i)).WholeWords (EltTy.packing .f32)
  hrank16 : 0 < grid16.rank
  hstage16_0 : ∀ j, (stage16_0 j).IsWhole
  nbuf16_0 : grid16.bufCount reads16_0 true = 1
  hreads16_0 : ∀ i i' : grid16.Coords, (∀ a, reads16_0 a = true → i a = i' a) → cc16_transform_0 i = cc16_transform_0 i'
  hinb16_0 : ∀ (i : grid16.Coords) a, (cc16_transform_0 i a + 1) * S256x192.size a ≤ S256x192.size a
  hwx16_0 : ∀ i : grid16.Coords, EltTy.bits .f32 = 32 ∨ (Rect.block (s := S256x192) S256x192.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S192x192.size a ≤ S192x192.size a
  hwx16_1 : ∀ i : grid16.Coords, EltTy.bits .f32 = 32 ∨ (Rect.block (s := S192x192) S192x192.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x192.size a ≤ S1x192.size a
  hwx16_2 : ∀ i : grid16.Coords, EltTy.bits .f32 = 32 ∨ (Rect.block (s := S1x192) S1x192.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S192x10.size a ≤ S192x10.size a
  hwx16_3 : ∀ i : grid16.Coords, EltTy.bits .f32 = 32 ∨ (Rect.block (s := S192x10) S192x10.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x10.size a ≤ S1x10.size a
  hwx16_4 : ∀ i : grid16.Coords, EltTy.bits .f32 = 32 ∨ (Rect.block (s := S1x10) S1x10.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S256x10.size a ≤ S256x10.size a
  hwx16_5 : ∀ i : grid16.Coords, EltTy.bits .f32 = 32 ∨ (Rect.block (s := S256x10) S256x10.size (cc16_transform_5 i) (hinb16_5 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def gather_S256x64_S100000x1_S100000x64_1_0_n_n_0_1_164 : GatherDims S256x64 S100000x1 S100000x64 where
  offsetDims := [1]
  collapsedSliceDims := [0]
  operandBatchingDims := []
  startIndicesBatchingDims := []
  startIndexMap := [0]
  indexVectorDim := 1
  sliceSizes := ![1, 64]
  wf := gather_S256x64_S100000x1_S100000x64_1_0_n_n_0_1_164_wf
def dot_S5000x256_S5000x192_S256x192_0_0_1_1_n_n : DotDims S5000x256 S5000x192 S256x192 where
  lhsContracting := [0]
  rhsContracting := [0]
  lhsNonContracting := [1]
  rhsNonContracting := [1]
  lhsBatch := []
  rhsBatch := []
  wf := dot_S5000x256_S5000x192_S256x192_0_0_1_1_n_n_wf
def dot_S256x192_S192x192_S256x192_1_0_0_1_n_n : DotDims S256x192 S192x192 S256x192 where
  lhsContracting := [1]
  rhsContracting := [0]
  lhsNonContracting := [0]
  rhsNonContracting := [1]
  lhsBatch := []
  rhsBatch := []
  wf := dot_S256x192_S192x192_S256x192_1_0_0_1_n_n_wf
def dot_S256x192_S192x10_S256x10_1_0_0_1_n_n : DotDims S256x192 S192x10 S256x10 where
  lhsContracting := [1]
  rhsContracting := [0]
  lhsNonContracting := [0]
  rhsNonContracting := [1]
  lhsBatch := []
  rhsBatch := []
  wf := dot_S256x192_S192x10_S256x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S256x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v69_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v69_1) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S256x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S256x64.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v69_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v84) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v105) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v36) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v35) S256x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v106) S256x64.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v105) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v113) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v116) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v117_0) S5000x64.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v117_1) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v117_1) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v36) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v35) S256x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v118) S256x64.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v117_0) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v125) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v128) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v131) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v132) S5000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v132) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v134) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v135) S5000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v153) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v36) S5000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v35) S256x1.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v154) S256x64.size cc11_transform_3 reads11_3 true true 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev idle11 : Fin 4 → grid11.Coords → Bool := fun | 0 => fun _ => false | 1 => fun _ => false | 2 => fun _ => false | 3 => fun i => !(k11_cond2 i == 1#1) | ⟨_ + 4, h⟩ => absurd h (Nat.not_lt.2 (Nat.le_add_left _ _))

abbrev win12_0 : Pipeline.Window sig grid12 :=
  Pipeline.Window.ofSpec (Memref.whole main_v153) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v161) S5000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v164) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v165_0) S5000x64.size cc12_transform_3 reads12_3 true false 2 stage12_3 sem12_3
    hrank12 hreads12_3 hinb12_3 nbuf12_3 (Memref.isWhole_whole _) hwx12_3 hstage12_3

abbrev win12_4 : Pipeline.Window sig grid12 :=
  Pipeline.Window.ofSpec (Memref.whole main_v165_1) S5000x64.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v165_1) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v36) S5000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v35) S256x1.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v166) S256x64.size cc13_transform_3 reads13_3 true true 1 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev idle13 : Fin 4 → grid13.Coords → Bool := fun | 0 => fun _ => false | 1 => fun _ => false | 2 => fun _ => false | 3 => fun i => !(k13_cond2 i == 1#1) | ⟨_ + 4, h⟩ => absurd h (Nat.not_lt.2 (Nat.le_add_left _ _))

abbrev win14_0 : Pipeline.Window sig grid14 :=
  Pipeline.Window.ofSpec (Memref.whole main_v165_0) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v173) S5000x64.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v176) S1x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v179) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v180) S5000x64.size cc14_transform_4 reads14_4 true false 2 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

abbrev win15_0 : Pipeline.Window sig grid15 :=
  Pipeline.Window.ofSpec (Memref.whole main_v181) S5000x192.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v36) S5000x1.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v35) S256x1.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v182) S256x192.size cc15_transform_3 reads15_3 true true 1 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev idle15 : Fin 4 → grid15.Coords → Bool := fun | 0 => fun _ => false | 1 => fun _ => false | 2 => fun _ => false | 3 => fun i => !(k15_cond2 i == 1#1) | ⟨_ + 4, h⟩ => absurd h (Nat.not_lt.2 (Nat.le_add_left _ _))

abbrev win16_0 : Pipeline.Window sig grid16 :=
  Pipeline.Window.ofSpec (Memref.whole main_v182) S256x192.size cc16_transform_0 reads16_0 false true 1 stage16_0 sem16_0
    hrank16 hreads16_0 hinb16_0 nbuf16_0 (Memref.isWhole_whole _) hwx16_0 hstage16_0

abbrev win16_1 : Pipeline.Window sig grid16 :=
  Pipeline.Window.ofSpec (Memref.whole main_arg8) S192x192.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v183) S1x192.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_arg10) S192x10.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v184) S1x10.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v185) S256x10.size cc16_transform_5 reads16_5 true true 1 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S3x64x64 : Shape := ⟨3, ![3, 64, 64]⟩
abbrev S3x64 : Shape := ⟨2, ![3, 64]⟩
abbrev S192x192 : Shape := ⟨2, ![192, 192]⟩
abbrev S192 : Shape := ⟨1, ![192]⟩
abbrev S192x10 : Shape := ⟨2, ![192, 10]⟩
abbrev S10 : Shape := ⟨1, ![10]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x1 : Shape := ⟨2, ![100000, 1]⟩
abbrev S256x1 : Shape := ⟨2, ![256, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1300000x64 : Shape := ⟨2, ![1300000, 64]⟩
abbrev S256x64 : Shape := ⟨2, ![256, 64]⟩
abbrev S100000x192 : Shape := ⟨2, ![100000, 192]⟩
abbrev S256x192 : Shape := ⟨2, ![256, 192]⟩
abbrev S1x192 : Shape := ⟨2, ![1, 192]⟩
abbrev S256x10 : Shape := ⟨2, ![256, 10]⟩
abbrev S1x10 : Shape := ⟨2, ![1, 10]⟩
abbrev S256 : Shape := ⟨1, ![256]⟩

abbrev nBuf : Space → Nat
  | .hbm => 331
  | .vmem => 0
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S3x64, .f32⟩
  | 8 => ⟨S192x192, .f32⟩
  | 9 => ⟨S192, .f32⟩
  | 10 => ⟨S192x10, .f32⟩
  | 11 => ⟨S10, .f32⟩
  | 12 => ⟨S100000, .i32⟩
  | 13 => ⟨S1x1200000, .i32⟩
  | 14 => ⟨S1200000, .i32⟩
  | 15 => ⟨S1300000, .i32⟩
  | 16 => ⟨S1x1200000, .i32⟩
  | 17 => ⟨S1200000, .i32⟩
  | 18 => ⟨S1300000, .i32⟩
  | 19 => ⟨S_, .f32⟩
  | 20 => ⟨S1300000, .f32⟩
  | 21 => ⟨S_, .f32⟩
  | 22 => ⟨S100000, .f32⟩
  | 23 => ⟨S1300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1300000, .i32⟩
  | 35 => ⟨S1300000, .i1⟩
  | 36 => ⟨S_, .i32⟩
  | 37 => ⟨S1300000, .i32⟩
  | 38 => ⟨S1300000, .i32⟩
  | 39 => ⟨S1300000, .i32⟩
  | 40 => ⟨S1300000x1, .i32⟩
  | 41 => ⟨S1300000, .f32⟩
  | 42 => ⟨S_, .i32⟩
  | 43 => ⟨S1300000, .i32⟩
  | 44 => ⟨S1300000, .i1⟩
  | 45 => ⟨S_, .i32⟩
  | 46 => ⟨S1300000, .i32⟩
  | 47 => ⟨S1300000, .i32⟩
  | 48 => ⟨S1300000, .i32⟩
  | 49 => ⟨S1300000x1, .i32⟩
  | 50 => ⟨S1300000, .f32⟩
  | 51 => ⟨S1300000, .f32⟩
  | 52 => ⟨S_, .f32⟩
  | 53 => ⟨S100000x1, .f32⟩
  | 54 => ⟨S_, .f32⟩
  | 55 => ⟨S256x1, .f32⟩
  | 56 => ⟨S100000x1, .i32⟩
  | 57 => ⟨S256x1, .f32⟩
  | 58 => ⟨S_, .f32⟩
  | 59 => ⟨S256x1, .f32⟩
  | 60 => ⟨S256x1, .f32⟩
  | 61 => ⟨S1x64x64, .f32⟩
  | 62 => ⟨S64x64, .f32⟩
  | 63 => ⟨S1x64, .f32⟩
  | 64 => ⟨S64, .f32⟩
  | 65 => ⟨S100000x64, .f32⟩
  | 66 => ⟨S_, .i32⟩
  | 67 => ⟨S1300000, .i32⟩
  | 68 => ⟨S1300000, .i1⟩
  | 69 => ⟨S_, .i32⟩
  | 70 => ⟨S1300000, .i32⟩
  | 71 => ⟨S1300000, .i32⟩
  | 72 => ⟨S1300000, .i32⟩
  | 73 => ⟨S1300000x1, .i32⟩
  | 74 => ⟨S1300000x64, .f32⟩
  | 75 => ⟨S1300000x1, .f32⟩
  | 76 => ⟨S1300000x64, .f32⟩
  | 77 => ⟨S1300000x64, .f32⟩
  | 78 => ⟨S_, .f32⟩
  | 79 => ⟨S100000x64, .f32⟩
  | 80 => ⟨S1300000x1, .i32⟩
  | 81 => ⟨S100000x64, .f32⟩
  | 82 => ⟨S1x64, .f32⟩
  | 83 => ⟨S100000x64, .f32⟩
  | 84 => ⟨S100000x64, .f32⟩
  | 85 => ⟨S1x64, .f32⟩
  | 86 => ⟨S64, .f32⟩
  | 87 => ⟨S1x64, .f32⟩
  | 88 => ⟨S64, .f32⟩
  | 89 => ⟨S1x64, .f32⟩
  | 90 => ⟨S64, .f32⟩
  | 91 => ⟨S_, .f32⟩
  | 92 => ⟨S256x64, .f32⟩
  | 93 => ⟨S100000x1, .i32⟩
  | 94 => ⟨S256x64, .f32⟩
  | 95 => ⟨S256x64, .f32⟩
  | 96 => ⟨S256x64, .f32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x64, .f32⟩
  | 106 => ⟨S1x64, .f32⟩
  | 107 => ⟨S100000x64, .f32⟩
  | 108 => ⟨S100000x64, .f32⟩
  | 109 => ⟨S100000x64, .f32⟩
  | 110 => ⟨S100000x64, .f32⟩
  | 111 => ⟨S_, .f32⟩
  | 112 => ⟨S256x64, .f32⟩
  | 113 => ⟨S100000x1, .i32⟩
  | 114 => ⟨S256x64, .f32⟩
  | 115 => ⟨S256x64, .f32⟩
  | 116 => ⟨S256x64, .f32⟩
  | 117 => ⟨S1x64, .f32⟩
  | 118 => ⟨S100000x64, .f32⟩
  | 119 => ⟨S100000x64, .f32⟩
  | 120 => ⟨S_, .i32⟩
  | 121 => ⟨S100000, .i32⟩
  | 122 => ⟨S100000, .i1⟩
  | 123 => ⟨S_, .i32⟩
  | 124 => ⟨S100000, .i32⟩
  | 125 => ⟨S100000, .i32⟩
  | 126 => ⟨S100000, .i32⟩
  | 127 => ⟨S100000x1, .i32⟩
  | _ => ⟨S100000x64, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S1x64x64, .f32⟩
  | 13 => ⟨S64x64, .f32⟩
  | 14 => ⟨S1x64, .f32⟩
  | 15 => ⟨S64, .f32⟩
  | 16 => ⟨S100000x64, .f32⟩
  | 17 => ⟨S_, .i32⟩
  | 18 => ⟨S1300000, .i32⟩
  | 19 => ⟨S1300000, .i1⟩
  | 20 => ⟨S_, .i32⟩
  | 21 => ⟨S1300000, .i32⟩
  | 22 => ⟨S1300000, .i32⟩
  | 23 => ⟨S1300000, .i32⟩
  | 24 => ⟨S1300000x1, .i32⟩
  | 25 => ⟨S1300000x64, .f32⟩
  | 26 => ⟨S1300000x1, .f32⟩
  | 27 => ⟨S1300000x64, .f32⟩
  | 28 => ⟨S1300000x64, .f32⟩
  | 29 => ⟨S_, .f32⟩
  | 30 => ⟨S100000x64, .f32⟩
  | 31 => ⟨S1300000x1, .i32⟩
  | 32 => ⟨S100000x64, .f32⟩
  | 33 => ⟨S1x64, .f32⟩
  | 34 => ⟨S100000x64, .f32⟩
  | 35 => ⟨S100000x64, .f32⟩
  | 36 => ⟨S1x64, .f32⟩
  | 37 => ⟨S64, .f32⟩
  | 38 => ⟨S1x64, .f32⟩
  | 39 => ⟨S64, .f32⟩
  | 40 => ⟨S1x64, .f32⟩
  | 41 => ⟨S64, .f32⟩
  | 42 => ⟨S_, .f32⟩
  | 43 => ⟨S256x64, .f32⟩
  | 44 => ⟨S100000x1, .i32⟩
  | 45 => ⟨S256x64, .f32⟩
  | 46 => ⟨S256x64, .f32⟩
  | 47 => ⟨S256x64, .f32⟩
  | 48 => ⟨S_, .i32⟩
  | 49 => ⟨S100000, .i32⟩
  | 50 => ⟨S100000, .i1⟩
  | 51 => ⟨S_, .i32⟩
  | 52 => ⟨S100000, .i32⟩
  | 53 => ⟨S100000, .i32⟩
  | 54 => ⟨S100000, .i32⟩
  | 55 => ⟨S100000x1, .i32⟩
  | 56 => ⟨S100000x64, .f32⟩
  | 57 => ⟨S1x64, .f32⟩
  | 58 => ⟨S100000x64, .f32⟩
  | 59 => ⟨S100000x64, .f32⟩
  | 60 => ⟨S100000x64, .f32⟩
  | 61 => ⟨S100000x64, .f32⟩
  | 62 => ⟨S_, .f32⟩
  | 63 => ⟨S256x64, .f32⟩
  | 64 => ⟨S100000x1, .i32⟩
  | 65 => ⟨S256x64, .f32⟩
  | 66 => ⟨S256x64, .f32⟩
  | 67 => ⟨S256x64, .f32⟩
  | 68 => ⟨S1x64, .f32⟩
  | 69 => ⟨S100000x64, .f32⟩
  | 70 => ⟨S100000x64, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S1x64x64, .f32⟩
  | 92 => ⟨S64x64, .f32⟩
  | 93 => ⟨S1x64, .f32⟩
  | 94 => ⟨S64, .f32⟩
  | 95 => ⟨S100000x64, .f32⟩
  | 96 => ⟨S_, .i32⟩
  | 97 => ⟨S1300000, .i32⟩
  | 98 => ⟨S1300000, .i1⟩
  | 99 => ⟨S_, .i32⟩
  | 100 => ⟨S1300000, .i32⟩
  | 101 => ⟨S1300000, .i32⟩
  | 102 => ⟨S1300000, .i32⟩
  | 103 => ⟨S1300000x1, .i32⟩
  | 104 => ⟨S1300000x64, .f32⟩
  | 105 => ⟨S1300000x1, .f32⟩
  | 106 => ⟨S1300000x64, .f32⟩
  | 107 => ⟨S1300000x64, .f32⟩
  | 108 => ⟨S_, .f32⟩
  | 109 => ⟨S100000x64, .f32⟩
  | 110 => ⟨S1300000x1, .i32⟩
  | 111 => ⟨S100000x64, .f32⟩
  | 112 => ⟨S1x64, .f32⟩
  | 113 => ⟨S100000x64, .f32⟩
  | 114 => ⟨S100000x64, .f32⟩
  | 115 => ⟨S1x64, .f32⟩
  | 116 => ⟨S64, .f32⟩
  | 117 => ⟨S1x64, .f32⟩
  | 118 => ⟨S64, .f32⟩
  | 119 => ⟨S1x64, .f32⟩
  | 120 => ⟨S64, .f32⟩
  | 121 => ⟨S_, .f32⟩
  | 122 => ⟨S256x64, .f32⟩
  | 123 => ⟨S100000x1, .i32⟩
  | 124 => ⟨S256x64, .f32⟩
  | 125 => ⟨S256x64, .f32⟩
  | 126 => ⟨S256x64, .f32⟩
  | 127 => ⟨S_, .i32⟩
  | _ => ⟨S100000x64, .f32⟩

abbrev hbmTy0_2 (i : Nat) : BufTy := match i % 128 with
  | 0 => ⟨S100000, .i32⟩
  | 1 => ⟨S100000, .i1⟩
  | 2 => ⟨S_, .i32⟩
  | 3 => ⟨S100000, .i32⟩
  | 4 => ⟨S100000, .i32⟩
  | 5 => ⟨S100000, .i32⟩
  | 6 => ⟨S100000x1, .i32⟩
  | 7 => ⟨S100000x64, .f32⟩
  | 8 => ⟨S1x64, .f32⟩
  | 9 => ⟨S100000x64, .f32⟩
  | 10 => ⟨S100000x64, .f32⟩
  | 11 => ⟨S100000x64, .f32⟩
  | 12 => ⟨S100000x64, .f32⟩
  | 13 => ⟨S_, .f32⟩
  | 14 => ⟨S256x64, .f32⟩
  | 15 => ⟨S100000x1, .i32⟩
  | 16 => ⟨S256x64, .f32⟩
  | 17 => ⟨S256x64, .f32⟩
  | 18 => ⟨S256x64, .f32⟩
  | 19 => ⟨S1x64, .f32⟩
  | 20 => ⟨S100000x64, .f32⟩
  | 21 => ⟨S100000x64, .f32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000x64, .f32⟩
  | 31 => ⟨S_, .f32⟩
  | 32 => ⟨S100000x64, .f32⟩
  | 33 => ⟨S100000x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S100000x192, .f32⟩
  | 43 => ⟨S_, .f32⟩
  | 44 => ⟨S256x192, .f32⟩
  | 45 => ⟨S100000x1, .i32⟩
  | 46 => ⟨S256x192, .f32⟩
  | 47 => ⟨S256x192, .f32⟩
  | 48 => ⟨S256x192, .f32⟩
  | 49 => ⟨S256x192, .f32⟩
  | 50 => ⟨S1x192, .f32⟩
  | 51 => ⟨S256x192, .f32⟩
  | 52 => ⟨S256x192, .f32⟩
  | 53 => ⟨S_, .f32⟩
  | 54 => ⟨S256x192, .f32⟩
  | 55 => ⟨S256x192, .f32⟩
  | 56 => ⟨S256x10, .f32⟩
  | 57 => ⟨S1x10, .f32⟩
  | 58 => ⟨S256x10, .f32⟩
  | 59 => ⟨S256x10, .f32⟩
  | 60 => ⟨S_, .f32⟩
  | 61 => ⟨S256, .f32⟩
  | 62 => ⟨S_, .f32⟩
  | 63 => ⟨S256, .f32⟩
  | 64 => ⟨S256, .f32⟩
  | 65 => ⟨S256x1, .f32⟩
  | 66 => ⟨S256x10, .f32⟩
  | 67 => ⟨S256x10, .f32⟩
  | 68 => ⟨S256x10, .f32⟩
  | 69 => ⟨S_, .f32⟩
  | 70 => ⟨S256, .f32⟩
  | 71 => ⟨S256x1, .f32⟩
  | 72 => ⟨S256x1, .f32⟩
  | 73 => ⟨S256x10, .f32⟩
  | 74 => ⟨S256x10, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_16 : Ref sig .tc := ⟨.hbm, 120, rfl⟩
abbrev main_v88 : Ref sig .tc := ⟨.hbm, 121, rfl⟩
abbrev main_v89 : Ref sig .tc := ⟨.hbm, 122, rfl⟩
abbrev main_c_17 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_call1_cst : Ref sig .tc := ⟨.hbm, 137, rfl⟩
abbrev main_call1_v0 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_c_19 : Ref sig .tc := ⟨.hbm, 145, rfl⟩
abbrev main_v108 : Ref sig .tc := ⟨.hbm, 146, rfl⟩
abbrev main_v109 : Ref sig .tc := ⟨.hbm, 147, rfl⟩
abbrev main_c_20 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_21 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_22 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_c_23 : Ref sig .tc := ⟨.hbm, 176, rfl⟩
abbrev main_v135 : Ref sig .tc := ⟨.hbm, 177, rfl⟩
abbrev main_v136 : Ref sig .tc := ⟨.hbm, 178, rfl⟩
abbrev main_c_24 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_25 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_c_26 : Ref sig .tc := ⟨.hbm, 199, rfl⟩
abbrev main_v155 : Ref sig .tc := ⟨.hbm, 200, rfl⟩
abbrev main_v156 : Ref sig .tc := ⟨.hbm, 201, rfl⟩
abbrev main_c_27 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_cst_28 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_call2_cst : Ref sig .tc := ⟨.hbm, 216, rfl⟩
abbrev main_call2_v0 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_c_29 : Ref sig .tc := ⟨.hbm, 224, rfl⟩
abbrev main_v175 : Ref sig .tc := ⟨.hbm, 225, rfl⟩
abbrev main_v176 : Ref sig .tc := ⟨.hbm, 226, rfl⟩
abbrev main_c_30 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_cst_31 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_cst_32 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_c_33 : Ref sig .tc := ⟨.hbm, 255, rfl⟩
abbrev main_v202 : Ref sig .tc := ⟨.hbm, 256, rfl⟩
abbrev main_v203 : Ref sig .tc := ⟨.hbm, 257, rfl⟩
abbrev main_c_34 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_cst_35 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_c_36 : Ref sig .tc := ⟨.hbm, 278, rfl⟩
abbrev main_v222 : Ref sig .tc := ⟨.hbm, 279, rfl⟩
abbrev main_v223 : Ref sig .tc := ⟨.hbm, 280, rfl⟩
abbrev main_c_37 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_cst_38 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_call3_cst : Ref sig .tc := ⟨.hbm, 295, rfl⟩
abbrev main_call3_v0 : Ref sig .tc := ⟨.hbm, 296, rfl⟩
abbrev main_v236 : Ref sig .tc := ⟨.hbm, 297, rfl⟩
abbrev main_v237 : Ref sig .tc := ⟨.hbm, 298, rfl⟩
abbrev main_cst_39 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_call4_cst : Ref sig .tc := ⟨.hbm, 309, rfl⟩
abbrev main_call4_v0 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_call5_cst : Ref sig .tc := ⟨.hbm, 316, rfl⟩
abbrev main_call5_v0 : Ref sig .tc := ⟨.hbm, 317, rfl⟩
abbrev main_call5_cst_0 : Ref sig .tc := ⟨.hbm, 318, rfl⟩
abbrev main_call5_v1 : Ref sig .tc := ⟨.hbm, 319, rfl⟩
abbrev main_call5_v2 : Ref sig .tc := ⟨.hbm, 320, rfl⟩
abbrev main_call5_v3 : Ref sig .tc := ⟨.hbm, 321, rfl⟩
abbrev main_call5_v4 : Ref sig .tc := ⟨.hbm, 322, rfl⟩
abbrev main_call5_v5 : Ref sig .tc := ⟨.hbm, 323, rfl⟩
abbrev main_call5_v6 : Ref sig .tc := ⟨.hbm, 324, rfl⟩
abbrev main_call5_cst_1 : Ref sig .tc := ⟨.hbm, 325, rfl⟩
abbrev main_call5_v7 : Ref sig .tc := ⟨.hbm, 326, rfl⟩
abbrev main_call5_v8 : Ref sig .tc := ⟨.hbm, 327, rfl⟩
abbrev main_call5_v9 : Ref sig .tc := ⟨.hbm, 328, rfl⟩
abbrev main_call5_v10 : Ref sig .tc := ⟨.hbm, 329, rfl⟩
abbrev main_v252 : Ref sig .tc := ⟨.hbm, 330, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S100000x1 : S_.BroadcastsInDim S100000x1 (![] : Fin 0 → Fin S100000x1.rank)
  bcast_S_S256x1 : S_.BroadcastsInDim S256x1 (![] : Fin 0 → Fin S256x1.rank)
  bcast_S100000_S100000x1_0 : S100000.BroadcastsInDim S100000x1 (![0] : Fin 1 → Fin S100000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S256x1_S256x64_0_1 : S256x1.BroadcastsInDim S256x64 (![0, 1] : Fin 2 → Fin S256x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x64_S100000x192_d1 : Shape.Concatenates [S100000x64, S100000x64, S100000x64] S100000x192 1
  bcast_S_S256x192 : S_.BroadcastsInDim S256x192 (![] : Fin 0 → Fin S256x192.rank)
  bcast_S256x1_S256x192_0_1 : S256x1.BroadcastsInDim S256x192 (![0, 1] : Fin 2 → Fin S256x192.rank)
  bcast_S192_S1x192_1 : S192.BroadcastsInDim S1x192 (![1] : Fin 1 → Fin S1x192.rank)
  bcast_S1x192_S256x192_0_1 : S1x192.BroadcastsInDim S256x192 (![0, 1] : Fin 2 → Fin S256x192.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x10_0_1 : S256x1.BroadcastsInDim S256x10 (![0, 1] : Fin 2 → Fin S256x10.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  scatter_S256x1_S100000x1_S100000x1_1_0_0_1_wf : ScatterDims.WF S256x1 S100000x1 S100000x1 [1] [0] [0] 1
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  scatter_S256x64_S100000x1_S100000x64_1_0_0_1_wf : ScatterDims.WF S256x64 S100000x1 S100000x64 [1] [0] [0] 1
  gather_S256x64_S100000x1_S100000x64_1_0_n_n_0_1_164_wf : GatherDims.WF S256x64 S100000x1 S100000x64 [1] [0] [] [0] [] 1 ![1, 64]
  scatter_S256x192_S100000x1_S100000x192_1_0_0_1_wf : ScatterDims.WF S256x192 S100000x1 S100000x192 [1] [0] [0] 1
  dot_S256x192_S192x192_S256x192_1_0_0_1_n_n_wf : DotDims.WF S256x192 S192x192 S256x192 [1] [0] [0] [1] [] []
  dot_S256x192_S192x10_S256x10_1_0_0_1_n_n_wf : DotDims.WF S256x192 S192x10 S256x10 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def gather_S256x64_S100000x1_S100000x64_1_0_n_n_0_1_164 : GatherDims S256x64 S100000x1 S100000x64 where
  offsetDims := [1]
  collapsedSliceDims := [0]
  operandBatchingDims := []
  startIndicesBatchingDims := []
  startIndexMap := [0]
  indexVectorDim := 1
  sliceSizes := ![1, 64]
  wf := gather_S256x64_S100000x1_S100000x64_1_0_n_n_0_1_164_wf
def scatter_S256x192_S100000x1_S100000x192_1_0_0_1 : ScatterDims S256x192 S100000x1 S100000x192 where
  updateWindowDims := [1]
  insertedWindowDims := [0]
  scatterDimsToOperandDims := [0]
  indexVectorDim := 1
  wf := scatter_S256x192_S100000x1_S100000x192_1_0_0_1_wf
def dot_S256x192_S192x192_S256x192_1_0_0_1_n_n : DotDims S256x192 S192x192 S256x192 where
  lhsContracting := [1]
  rhsContracting := [0]
  lhsNonContracting := [0]
  rhsNonContracting := [1]
  lhsBatch := []
  rhsBatch := []
  wf := dot_S256x192_S192x192_S256x192_1_0_0_1_n_n_wf
def dot_S256x192_S192x10_S256x10_1_0_0_1_n_n : DotDims S256x192 S192x10 S256x10 where
  lhsContracting := [1]
  rhsContracting := [0]
  lhsNonContracting := [0]
  rhsNonContracting := [1]
  lhsBatch := []
  rhsBatch := []
  wf := dot_S256x192_S192x10_S256x10_1_0_0_1_n_n_wf

class Facts : Prop extends Facts₀ where

variable [Facts]
-- ==== Proof.Kernel.Reg0.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right factor, one block for the whole grid) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's buffer read or written whole -/

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S5000x64 := Rect.unit (s := S5000x64) ![0, 0] S5000x64.size inb_S5000x64_S5000x64_0_0

/-! ## What the body leaves in the output window's buffer -/

/-- Window 2's staging buffer after the body, from the two input blocks: the product block, stored whole. -/
def out0_2 (x0 : Vec F S5000x64 .f32) (x1 : Vec F S64x64 .f32) : Vec F S5000x64 .f32 :=
  View.canon [⟨r0_2, k0_pay1 (View.ld x0 r0_0) (View.ld x1 r0_1)⟩]

/-- The one store tiles the buffer, so it covers it. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The body on whole staging memrefs, the inputs' at contents `x0`, `x1` and the output's at anything, runs to the
    continuation holding the inputs' as they were and the output's at `out0_2 x0 x1`; the output's old contents are
    read and not used. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`, at the region-entry contents `V`: after the body at point `t` each input's
    buffer holds its block and the output's holds `out0_2` of the two input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- The invariant at the first point is the class invariant itself. -/
theorem hin0 (c : Dev nD) : Pipeline.ΦA spec0 c ⊢ (dat0 V c).Φ 0 := by
  rw [show (dat0 V c).Φ 0 = Pipeline.ΦA spec0 c from rfl]

/-- And at the last point. -/
theorem hout0 (c : Dev nD) : (dat0 V c).Φ (Fin.last cfg0.N) ⊢ Pipeline.ΦA spec0 c := by
  rw [show (dat0 V c).Φ (Fin.last cfg0.N) = Pipeline.ΦA spec0 c from rfl]

end

end Cert.Kernel.Hand

end
-- ==== Proof.Kernel.Reg1Runs.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents (`hA`) and whose body leaves the block in place (`hafter`): unfetched,
    the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents (`hA`) and whose body leaves the block in place (`hafter`): unfetched,
    the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents (`hA`) and whose body leaves the block in place (`hafter`): unfetched,
    the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

/-- The condition of the body's first conditional, from the grid coordinates: the point is the first of the grid. -/
abbrev cond1_0 (i : grid1.Coords) : Prop := (Scalar.cmpi .ne (Scalar.extui (Scalar.cmpi .eq (BitVec.ofNat 32 (i 0).val) 0#32)) 0#32) = 1#1
/-- It holds at the points ≡ 0 (mod 20): decided over the grid. -/
theorem hcond1_0 : ∀ t : Fin cfg1.N, cond1_0 (grid1.coords t) ↔ t.val % 20 = 0 :=
  (by decide +kernel : ∀ t : Fin grid1.N, cond1_0 (grid1.coords t) ↔ t.val % 20 = 0)

/-- The condition of the body's second conditional, from the grid coordinates: the point is the last of the grid. -/
abbrev cond1_1 (i : grid1.Coords) : Prop := k1_cond2 i = 1#1
/-- It holds at the points ≡ 19 (mod 20): decided over the grid. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first point the output is idle (nothing is stored into it) and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At the middle points likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last point the output is live: the body stores into it. -/
theorem liveAt1_3_C : ∀ t : Fin cfg1.N, ¬cond1_0 (grid1.coords t) → cond1_1 (grid1.coords t) → cfg1.idle 3 (grid1.coords t) = false := by decide +kernel

/-! ## The staging memrefs and the scratch -/

/-- One staging buffer of the output window, through which its contents are stated. -/
abbrev VO1_3 : View sig .tc .vmem S256x64 .f32 := (Memref.whole cc1_stg3_0 : Memref sig .tc .vmem S256x64 .f32).view
/-- Each window's current staging memref at point `t`, as the pipeline passes it, and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x64 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S256x64 .f32 := Memref.whole cc1_scratch0
/-- The scratch the kernel carries between points, as a view. -/
abbrev VS1_0 : View sig .tc .vmem S256x64 .f32 := scM1_0.view

/-- The region invariant with the scratch operand as a memref owned at some contents, the other scoped buffers
    unopened beside it, and the generator register at some state. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.Kernel.Reg1RunA.lean ====
import proofs.«422469_j24000277250640_1_alg».proof.Proof.Kernel.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun1_A (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond1_0 i) (hcl : ¬cond1_1 i)
    (xd : Vec F S5000x64 .f32) (xb : Vec F S5000x1 .i32) (xn : Vec F S256x1 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__reduce_div_kernel i arg1 harg1 arg2 harg2 arg3 harg3 arg4 harg4 arg5 harg5) K } := by
  refine ⟨[], ?_, fun xi E K => ?run⟩
  case run =>
    simp only [cc1__reduce_div_kernel_eq_skeleton]; unfold cc1__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg1RunB.lean ====
import proofs.«422469_j24000277250640_1_alg».proof.Proof.Kernel.Reg1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun1_B (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : ¬cond1_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__reduce_div_kernel i arg1 harg1 arg2 harg2 arg3 harg3 arg4 harg4 arg5 harg5) K } := by
  refine ⟨[], ?_, fun xi E K => ?run⟩
  case run =>
    simp only [cc1__reduce_div_kernel_eq_skeleton]; unfold cc1__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg1RunC.lean ====
import proofs.«422469_j24000277250640_1_alg».proof.Proof.Kernel.Reg1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun1_C (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : cond1_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__reduce_div_kernel i arg1 harg1 arg2 harg2 arg3 harg3 arg4 harg4 arg5 harg5) K } := by
  refine ⟨?_, ?_, fun E K => ?run⟩
  case run =>
    simp only [cc1__reduce_div_kernel_eq_skeleton]; unfold cc1__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.Kernel.Hand

end
-- ==== Proof.Kernel.Reg1.lean ====
import proofs.«422469_j24000277250640_1_alg».proof.Proof.Kernel.Reg1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out1_A_3 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond1_0 i) (hcl : ¬cond1_1 i)
    (xd : Vec F S5000x64 .f32) (xb : Vec F S5000x1 .i32) (xn : Vec F S256x1 .f32) : Vec F S256x64 .f32 :=
  VO1_3.read (Elt F) (VO1_3.writes (Elt F) VO1_3.junk (kernelRun1_A c i arg1 harg1 arg2 harg2 arg3 harg3 arg4 harg4 arg5 harg5 hcz hcl xd xb xn).1)

/-- The pieces stored into the carried scratch tile it, so they cover it. -/
theorem scover1_A_0 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond1_0 i) (hcl : ¬cond1_1 i)
    (xd : Vec F S5000x64 .f32) (xb : Vec F S5000x1 .i32) (xn : Vec F S256x1 .f32) (y : S256x64.Idx) :
    ∃ pc ∈ (kernelRun1_A c i arg1 harg1 arg2 harg2 arg3 harg3 arg4 harg4 arg5 harg5 hcz hcl xd xb xn).2.1, y ∈ pc.1.set :=
  View.cover_of_tiledL (kernelRun1_A c i arg1 harg1 arg2 harg2 arg3 harg3 arg4 harg4 arg5 harg5 hcz hcl xd xb xn).2.1 S256x64.size (by sl_kernel_rfl) y

/-- What this case leaves in the carried scratch: its pieces read back over junk. -/
def sout1_A_0 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond1_0 i) (hcl : ¬cond1_1 i)
    (xd : Vec F S5000x64 .f32) (xb : Vec F S5000x1 .i32) (xn : Vec F S256x1 .f32) : Vec F S256x64 .f32 :=
  VS1_0.read (Elt F) (VS1_0.writes (Elt F) VS1_0.junk (kernelRun1_A c i arg1 harg1 arg2 harg2 arg3 harg3 arg4 harg4 arg5 harg5 hcz hcl xd xb xn).2.1)

/-- Nothing is stored into the output window here (it is idle and not written back): no pieces, a placeholder
    that nothing consults. -/
def out1_B_3 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : ¬cond1_1 i)
    (xd : Vec F S5000x64 .f32) (xb : Vec F S5000x1 .i32) (xn : Vec F S256x1 .f32) (xs : Vec F S256x64 .f32) : Vec F S256x64 .f32 :=
  VO1_3.read (Elt F) (VO1_3.writes (Elt F) VO1_3.junk (kernelRun1_B c i arg1 harg1 arg2 harg2 arg3 harg3 arg4 harg4 arg5 harg5 hcz hcl xd xb xn xs).1)

/-- The pieces stored into the carried scratch tile it, so they cover it. -/
theorem scover1_B_0 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : ¬cond1_1 i)
    (xd : Vec F S5000x64 .f32) (xb : Vec F S5000x1 .i32) (xn : Vec F S256x1 .f32) (xs : Vec F S256x64 .f32) (y : S256x64.Idx) :
    ∃ pc ∈ (kernelRun1_B c i arg1 harg1 arg2 harg2 arg3 harg3 arg4 harg4 arg5 harg5 hcz hcl xd xb xn xs).2.1, y ∈ pc.1.set :=
  View.cover_of_tiledL (kernelRun1_B c i arg1 harg1 arg2 harg2 arg3 harg3 arg4 harg4 arg5 harg5 hcz hcl xd xb xn xs).2.1 S256x64.size (by sl_kernel_rfl) y

/-- What this case leaves in the carried scratch: its pieces read back over junk. -/
def sout1_B_0 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : ¬cond1_1 i)
    (xd : Vec F S5000x64 .f32) (xb : Vec F S5000x1 .i32) (xn : Vec F S256x1 .f32) (xs : Vec F S256x64 .f32) : Vec F S256x64 .f32 :=
  VS1_0.read (Elt F) (VS1_0.writes (Elt F) VS1_0.junk (kernelRun1_B c i arg1 harg1 arg2 harg2 arg3 harg3 arg4 harg4 arg5 harg5 hcz hcl xd xb xn xs).2.1)

/-- The pieces stored into the output window tile its block, so they cover it. -/
theorem cover1_C_3 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : cond1_1 i)
    (xd : Vec F S5000x64 .f32) (xb : Vec F S5000x1 .i32) (xn : Vec F S256x1 .f32) (xs : Vec F S256x64 .f32) (y : S256x64.Idx) :
    ∃ pc ∈ (kernelRun1_C c i arg1 harg1 arg2 harg2 arg3 harg3 arg4 harg4 arg5 harg5 hcz hcl xd xb xn xs).1, y ∈ pc.1.set :=
  View.cover_of_tiledL (kernelRun1_C c i arg1 harg1 arg2 harg2 arg3 harg3 arg4 harg4 arg5 harg5 hcz hcl xd xb xn xs).1 S256x64.size (by sl_kernel_rfl) y

/-- What this case leaves in the output's staging buffer: its pieces read back over junk. -/
def out1_C_3 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : cond1_1 i)
    (xd : Vec F S5000x64 .f32) (xb : Vec F S5000x1 .i32) (xn : Vec F S256x1 .f32) (xs : Vec F S256x64 .f32) : Vec F S256x64 .f32 :=
  VO1_3.read (Elt F) (VO1_3.writes (Elt F) VO1_3.junk (kernelRun1_C c i arg1 harg1 arg2 harg2 arg3 harg3 arg4 harg4 arg5 harg5 hcz hcl xd xb xn xs).1)

/-- The pieces stored into the carried scratch tile it, so they cover it. -/
theorem scover1_C_0 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : cond1_1 i)
    (xd : Vec F S5000x64 .f32) (xb : Vec F S5000x1 .i32) (xn : Vec F S256x1 .f32) (xs : Vec F S256x64 .f32) (y : S256x64.Idx) :
    ∃ pc ∈ (kernelRun1_C c i arg1 harg1 arg2 harg2 arg3 harg3 arg4 harg4 arg5 harg5 hcz hcl xd xb xn xs).2.1, y ∈ pc.1.set :=
  View.cover_of_tiledL (kernelRun1_C c i arg1 harg1 arg2 harg2 arg3 harg3 arg4 harg4 arg5 harg5 hcz hcl xd xb xn xs).2.1 S256x64.size (by sl_kernel_rfl) y

/-- What this case leaves in the carried scratch: its pieces read back over junk. -/
def sout1_C_0 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : cond1_1 i)
    (xd : Vec F S5000x64 .f32) (xb : Vec F S5000x1 .i32) (xn : Vec F S256x1 .f32) (xs : Vec F S256x64 .f32) : Vec F S256x64 .f32 :=
  VS1_0.read (Elt F) (VS1_0.writes (Elt F) VS1_0.junk (kernelRun1_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt1 (c : Dev nD) : (n : ℕ) → n < cfg1.N → Vec F S256x64 .f32 × Vec F S256x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if hz : (n + 1) % 20 = 0 then
      if hl : (n + 1) % 20 = 19 then
        False.elim (by have hN : n + 1 < 20 := lt_of_lt_of_eq hn (show cfg1.N = 20 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr hz) (fun h => hl ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr hz) (fun h => hl ((hcond1_1 ⟨n + 1, hn⟩).mp h)) (iblk1 V c 0 ⟨n + 1, hn⟩) (iblk1 V c 1 ⟨n + 1, hn⟩) (iblk1 V c 2 ⟨n + 1, hn⟩))
    else
      if hl : (n + 1) % 20 = 19 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => hz ((hcond1_0 ⟨n + 1, hn⟩).mp h)) ((hcond1_1 ⟨n + 1, hn⟩).mpr hl) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => hz ((hcond1_0 ⟨n + 1, hn⟩).mp h)) ((hcond1_1 ⟨n + 1, hn⟩).mpr hl) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => hz ((hcond1_0 ⟨n + 1, hn⟩).mp h)) (fun h => hl ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => hz ((hcond1_0 ⟨n + 1, hn⟩).mp h)) (fun h => hl ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at the first point. -/
theorem outsAt1_A (c : Dev nD) (t : Fin cfg1.N) (hz : t.val % 20 = 0) (hl : ¬t.val % 20 = 19) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr hz) (fun h => hl ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr hz) (fun h => hl ((hcond1_1 t).mp h)) (iblk1 V c 0 t) (iblk1 V c 1 t) (iblk1 V c 2 t)) := by
  obtain ⟨n, hn⟩ := t
  cases n with
  | zero => exact rfl
  | succ n => exact (dif_pos hz).trans ((dif_neg hl).trans rfl)

/-- `outsAt1` at a middle point: over what the point before left in the scratch. -/
theorem outsAt1_B (c : Dev nD) (t : Fin cfg1.N) (hz : ¬t.val % 20 = 0) (hl : ¬t.val % 20 = 19) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => hz ((hcond1_0 t).mp h)) (fun h => hl ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => hz ((hcond1_0 t).mp h)) (fun h => hl ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt1` at the last point: over what the point before left in the scratch. -/
theorem outsAt1_C (c : Dev nD) (t : Fin cfg1.N) (hz : ¬t.val % 20 = 0) (hl : t.val % 20 = 19) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => hz ((hcond1_0 t).mp h)) ((hcond1_1 t).mpr hl) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => hz ((hcond1_0 t).mp h)) ((hcond1_1 t).mpr hl) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut1 (c : Dev nD) : sProp 𝕄 :=
  Pipeline.scopedRestBut (Ix := Unit) (Name := ℕ) (U := UR sig nD τ) (Lvl := ℕ) (Val := Elt F) spec1 c [cc1_scratch0]

/-- The region invariant before position `n`: before the first point the class's (every scratch at anything);
    afterwards the carried scratch at what the point before left in it, the other scoped buffers unopened, and the
    random-number register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS1_zero (c : Dev nD) (n : ℕ) (h : n ≤ cfg1.N) (hfirst : n = 0) : PhiS1 V c n h = Pipeline.ΦA spec1 c := by
  subst hfirst; rfl

/-- After point `n` (before point `n + 1`): the carried scratch at that point's contents. -/
theorem PhiS1_succ (c : Dev nD) (n : ℕ) (hn : n < cfg1.N) :
    PhiS1 V c (n + 1) hn = iprop(iprop(owns (c : Thread nD τ) scM1_0 fullShare ((outsAt1 V c n hn).2) ∗ restBut1 (F := F) c) ∗ (∃ r, prngReg c r)) := rfl

/-- Before a point that is not the first: the carried scratch at what the point before left. -/
theorem PhiS1_pos (c : Dev nD) (n : ℕ) (h : n ≤ cfg1.N) (hfirst : n ≠ 0) :
    PhiS1 V c n h = iprop(iprop(owns (c : Thread nD τ) scM1_0 fullShare ((outsAt1 V c (n - 1) (by omega)).2) ∗ restBut1 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  by_cases hz : t.val % 20 = 0
  · by_cases hl : t.val % 20 = 19
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr hz) (fun h => hl ((hcond1_1 t).mp h))) (noFlush1_3_A t ((hcond1_0 t).mpr hz) (fun h => hl ((hcond1_1 t).mp h)))]
      rw [outsAt1_A V c t hz hl]
      unfold sout1_A_0; (try dsimp only)
      by_cases hfirst : t.val = 0
      · rw [PhiS1_castSucc V c t, PhiS1_zero V c _ _ hfirst, PhiA1_eq]
        iintro ⟨⟨⟨HS, Hr⟩, Hg⟩, Ho, ⟨%dd, Hd⟩, ⟨%db, Hb⟩, ⟨%dn, Hn⟩, ⟨%dq, Hq⟩⟩
        iapply ((kernelRun1_A c (grid1.coords t) _ _ _ _ _ _ _ _ _ _ ((hcond1_0 t).mpr hz) (fun h => hl ((hcond1_1 t).mp h)) (iblk1 V c 0 t) (iblk1 V c 1 t) (iblk1 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover1_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS1_castSucc V c t, PhiS1_pos V c _ _ hfirst]
        iintro ⟨⟨⟨HS, Hr⟩, Hg⟩, Ho, ⟨%dd, Hd⟩, ⟨%db, Hb⟩, ⟨%dn, Hn⟩, ⟨%dq, Hq⟩⟩
        iapply ((kernelRun1_A c (grid1.coords t) _ _ _ _ _ _ _ _ _ _ ((hcond1_0 t).mpr hz) (fun h => hl ((hcond1_1 t).mp h)) (iblk1 V c 0 t) (iblk1 V c 1 t) (iblk1 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover1_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => hz ((hcond1_0 t).mp h)) ((hcond1_1 t).mpr hl)], after1_3]
      rw [outsAt1_C V c t hz hl]
      unfold out1_C_3 sout1_C_0; (try dsimp only)
      by_cases hfirst : t.val = 0
      · exfalso; omega
      · rw [PhiS1_castSucc V c t, PhiS1_pos V c _ _ hfirst]
        iintro ⟨⟨⟨HS, Hr⟩, Hg⟩, Ho, ⟨%dd, Hd⟩, ⟨%db, Hb⟩, ⟨%dn, Hn⟩, ⟨%dq, Hq⟩⟩
        iapply ((kernelRun1_C c (grid1.coords t) _ _ _ _ _ _ _ _ _ _ (fun h => hz ((hcond1_0 t).mp h)) ((hcond1_1 t).mpr hl) (iblk1 V c 0 t) (iblk1 V c 1 t) (iblk1 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover1_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => hz ((hcond1_0 t).mp h)) (fun h => hl ((hcond1_1 t).mp h))) (noFlush1_3_B t (fun h => hz ((hcond1_0 t).mp h)) (fun h => hl ((hcond1_1 t).mp h)))]
      rw [outsAt1_B V c t hz hl]
      unfold sout1_B_0; (try dsimp only)
      by_cases hfirst : t.val = 0
      · exfalso; omega
      · rw [PhiS1_castSucc V c t, PhiS1_pos V c _ _ hfirst]
        iintro ⟨⟨⟨HS, Hr⟩, Hg⟩, Ho, ⟨%dd, Hd⟩, ⟨%db, Hb⟩, ⟨%dn, Hn⟩, ⟨%dq, Hq⟩⟩
        iapply ((kernelRun1_B c (grid1.coords t) _ _ _ _ _ _ _ _ _ _ (fun h => hz ((hcond1_0 t).mp h)) (fun h => hl ((hcond1_1 t).mp h)) (iblk1 V c 0 t) (iblk1 V c 1 t) (iblk1 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover1_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hr⟩, Hg⟩
  isplitl [HS Hr]
  · isplitl [HS]
    · iexists _; iexact HS
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end

end Cert.Kernel.Hand

end
-- ==== Proof.Kernel.Reg2.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # The centring kernel's region, at the region-entry contents `V`

Three input windows (the aggregate's block, the gathered mean's block, the scale row) and two output windows
(the centred block, its elementwise square). -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2, whose block index is constant: it is fetched at the first point only, and every later
    point finds the same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0

/-! ## What the body leaves in each output window's buffer -/

/-- Window 3's staging buffer after the body, from the input windows' blocks: its one store as pieces, last first. -/
def out2_3 (x0 : Vec F S5000x64 .f32) (x1 : Vec F S5000x64 .f32) (x2 : Vec F S1x64 .f32) : Vec F S5000x64 .f32 :=
  View.canon [⟨r2_0, k2_pay1 (View.ld x0 r2_0) (View.ld x2 r2_1) (View.ld x1 r2_0)⟩]

/-- Window 4's staging buffer after the body, from the input windows' blocks: its one store as pieces, last first. -/
def out2_4 (x0 : Vec F S5000x64 .f32) (x1 : Vec F S5000x64 .f32) (x2 : Vec F S1x64 .f32) : Vec F S5000x64 .f32 :=
  View.canon [⟨r2_0, k2_pay2 (View.ld x0 r2_0) (View.ld x2 r2_1) (View.ld x1 r2_0)⟩]

/-- Window 3's store is the whole buffer, so it covers it. -/
theorem cover2_3 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-- Window 4's store is the whole buffer, so it covers it. -/
theorem cover2_4 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at read contents and the outputs' at anything, runs to the
    continuation holding the inputs' as they were and each output's at its `out2_W` of the inputs'. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2) ∗ owns (c : Thread nD τ) arg5 fullShare (out2_4 x0 x1 x2)) -∗ K ⟨⟩))
      ⊢ wp frame (wpE (defs₀ (F := F)) Variants.none c none) E (cc2__center_kernel i arg1 harg1 arg2 harg2 arg3 harg3 arg4 harg4 arg5 harg5) K := by
  simp only [cc2__center_kernel_eq_skeleton]; unfold cc2__center_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-! ## The pipeline's proof data -/

/-- The proof data of pipeline 2 on core `c`, at the region-entry contents `V`: the arrays as the region finds them;
    after the body at point `t` each input's buffer at its block and each output's at `out2_W` of the input blocks;
    the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's owed tokens pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## Entering and leaving the region: the invariant is the class's at every point -/

theorem hin2 (c : Dev nD) : Pipeline.ΦA spec2 c ⊢ (dat2 V c).Φ 0 := by
  dsimp only [dat2]; exact .rfl

theorem hout2 (c : Dev nD) : (dat2 V c).Φ (Fin.last cfg2.N) ⊢ Pipeline.ΦA spec2 c := by
  dsimp only [dat2]; exact .rfl

end

end Cert.Kernel.Hand

end
-- ==== Proof.Kernel.Reg3Runs.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the entry contents (`hA`) and whose body leaves the block in place (`hafter`): unfetched,
    the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is the entry contents (`hA`) and whose body leaves the block in place (`hafter`): unfetched,
    the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is the entry contents (`hA`) and whose body leaves the block in place (`hafter`): unfetched,
    the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end

/-! ## The body's branch conditions -/

/-- The condition of the body's first conditional, from the grid coordinates: the point is the first of the grid. -/
abbrev cond3_0 (i : grid3.Coords) : Prop := (Scalar.cmpi .ne (Scalar.extui (Scalar.cmpi .eq (BitVec.ofNat 32 (i 0).val) 0#32)) 0#32) = 1#1
/-- It holds at the points ≡ 0 (mod 20): decided over the grid. -/
theorem hcond3_0 : ∀ t : Fin cfg3.N, cond3_0 (grid3.coords t) ↔ t.val % 20 = 0 :=
  (by decide +kernel : ∀ t : Fin grid3.N, cond3_0 (grid3.coords t) ↔ t.val % 20 = 0)

/-- The condition of the body's second conditional, from the grid coordinates: the point is the last of the grid. -/
abbrev cond3_1 (i : grid3.Coords) : Prop := k3_cond2 i = 1#1
/-- It holds at the points ≡ 19 (mod 20): decided over the grid. -/
theorem hcond3_1 : ∀ t : Fin cfg3.N, cond3_1 (grid3.coords t) ↔ t.val % 20 = 19 :=
  (by decide +kernel : ∀ t : Fin grid3.N, cond3_1 (grid3.coords t) ↔ t.val % 20 = 19)

/-! ## Where the windows are idle -/

/-- The inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At the first point the output is idle (nothing is stored into it) and is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- At the middle points likewise. -/
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- At the last point the output is live: the body stores into it. -/
theorem liveAt3_3_C : ∀ t : Fin cfg3.N, ¬cond3_0 (grid3.coords t) → cond3_1 (grid3.coords t) → cfg3.idle 3 (grid3.coords t) = false := by decide +kernel

/-! ## The staging memrefs and the scratch -/

/-- One staging buffer of the output window, through which its contents are stated. -/
abbrev VO3_3 : View sig .tc .vmem S256x64 .f32 := (Memref.whole cc3_stg3_0 : Memref sig .tc .vmem S256x64 .f32).view
/-- Each window's current staging memref at point `t`, as the pipeline passes it, and its wholeness. -/
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x64 .f32 := win3_3.stage (cfg3.slots t 3)
abbrev hs3_3 (t : Fin cfg3.N) : (ms3_3 t).IsWhole := hstage3_3 ((cfg3.slots t 3).cast nbuf3_3)
/-- The scratch operand: a whole scoped buffer of the kernel's own, passed beside the windows. -/
abbrev scM3_0 : Memref sig .tc .vmem S256x64 .f32 := Memref.whole cc3_scratch0
/-- The scratch the kernel carries between points, as a view. -/
abbrev VS3_0 : View sig .tc .vmem S256x64 .f32 := scM3_0.view

/-- The region invariant with the scratch operand as a memref owned at some contents, the other scoped buffers
    unopened beside it, and the generator register at some state. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.Kernel.Hand

end
-- ==== Proof.Kernel.Reg3RunA.lean ====
import proofs.«422469_j24000277250640_1_alg».proof.Proof.Kernel.Reg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun3_A (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond3_0 i) (hcl : ¬cond3_1 i)
    (xd : Vec F S5000x64 .f32) (xb : Vec F S5000x1 .i32) (xn : Vec F S256x1 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc3__reduce_div_kernel i arg1 harg1 arg2 harg2 arg3 harg3 arg4 harg4 arg5 harg5) K } := by
  refine ⟨[], ?_, fun xi E K => ?run⟩
  case run =>
    simp only [cc3__reduce_div_kernel_eq_skeleton]; unfold cc3__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg3RunB.lean ====
import proofs.«422469_j24000277250640_1_alg».proof.Proof.Kernel.Reg3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun3_B (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : ¬cond3_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc3__reduce_div_kernel i arg1 harg1 arg2 harg2 arg3 harg3 arg4 harg4 arg5 harg5) K } := by
  refine ⟨[], ?_, fun xi E K => ?run⟩
  case run =>
    simp only [cc3__reduce_div_kernel_eq_skeleton]; unfold cc3__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg3RunC.lean ====
import proofs.«422469_j24000277250640_1_alg».proof.Proof.Kernel.Reg3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun3_C (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : cond3_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc3__reduce_div_kernel i arg1 harg1 arg2 harg2 arg3 harg3 arg4 harg4 arg5 harg5) K } := by
  refine ⟨?_, ?_, fun E K => ?run⟩
  case run =>
    simp only [cc3__reduce_div_kernel_eq_skeleton]; unfold cc3__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.Kernel.Hand

end
-- ==== Proof.Kernel.Reg3.lean ====
import proofs.«422469_j24000277250640_1_alg».proof.Proof.Kernel.Reg3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out3_A_3 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond3_0 i) (hcl : ¬cond3_1 i)
    (xd : Vec F S5000x64 .f32) (xb : Vec F S5000x1 .i32) (xn : Vec F S256x1 .f32) : Vec F S256x64 .f32 :=
  VO3_3.read (Elt F) (VO3_3.writes (Elt F) VO3_3.junk (kernelRun3_A c i arg1 harg1 arg2 harg2 arg3 harg3 arg4 harg4 arg5 harg5 hcz hcl xd xb xn).1)

/-- The pieces stored into the carried scratch tile it, so they cover it. -/
theorem scover3_A_0 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond3_0 i) (hcl : ¬cond3_1 i)
    (xd : Vec F S5000x64 .f32) (xb : Vec F S5000x1 .i32) (xn : Vec F S256x1 .f32) (y : S256x64.Idx) :
    ∃ pc ∈ (kernelRun3_A c i arg1 harg1 arg2 harg2 arg3 harg3 arg4 harg4 arg5 harg5 hcz hcl xd xb xn).2.1, y ∈ pc.1.set :=
  View.cover_of_tiledL (kernelRun3_A c i arg1 harg1 arg2 harg2 arg3 harg3 arg4 harg4 arg5 harg5 hcz hcl xd xb xn).2.1 S256x64.size (by sl_kernel_rfl) y

/-- What this case leaves in the carried scratch: its pieces read back over junk. -/
def sout3_A_0 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond3_0 i) (hcl : ¬cond3_1 i)
    (xd : Vec F S5000x64 .f32) (xb : Vec F S5000x1 .i32) (xn : Vec F S256x1 .f32) : Vec F S256x64 .f32 :=
  VS3_0.read (Elt F) (VS3_0.writes (Elt F) VS3_0.junk (kernelRun3_A c i arg1 harg1 arg2 harg2 arg3 harg3 arg4 harg4 arg5 harg5 hcz hcl xd xb xn).2.1)

/-- Nothing is stored into the output window here (it is idle and not written back): no pieces, a placeholder
    that nothing consults. -/
def out3_B_3 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : ¬cond3_1 i)
    (xd : Vec F S5000x64 .f32) (xb : Vec F S5000x1 .i32) (xn : Vec F S256x1 .f32) (xs : Vec F S256x64 .f32) : Vec F S256x64 .f32 :=
  VO3_3.read (Elt F) (VO3_3.writes (Elt F) VO3_3.junk (kernelRun3_B c i arg1 harg1 arg2 harg2 arg3 harg3 arg4 harg4 arg5 harg5 hcz hcl xd xb xn xs).1)

/-- The pieces stored into the carried scratch tile it, so they cover it. -/
theorem scover3_B_0 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : ¬cond3_1 i)
    (xd : Vec F S5000x64 .f32) (xb : Vec F S5000x1 .i32) (xn : Vec F S256x1 .f32) (xs : Vec F S256x64 .f32) (y : S256x64.Idx) :
    ∃ pc ∈ (kernelRun3_B c i arg1 harg1 arg2 harg2 arg3 harg3 arg4 harg4 arg5 harg5 hcz hcl xd xb xn xs).2.1, y ∈ pc.1.set :=
  View.cover_of_tiledL (kernelRun3_B c i arg1 harg1 arg2 harg2 arg3 harg3 arg4 harg4 arg5 harg5 hcz hcl xd xb xn xs).2.1 S256x64.size (by sl_kernel_rfl) y

/-- What this case leaves in the carried scratch: its pieces read back over junk. -/
def sout3_B_0 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : ¬cond3_1 i)
    (xd : Vec F S5000x64 .f32) (xb : Vec F S5000x1 .i32) (xn : Vec F S256x1 .f32) (xs : Vec F S256x64 .f32) : Vec F S256x64 .f32 :=
  VS3_0.read (Elt F) (VS3_0.writes (Elt F) VS3_0.junk (kernelRun3_B c i arg1 harg1 arg2 harg2 arg3 harg3 arg4 harg4 arg5 harg5 hcz hcl xd xb xn xs).2.1)

/-- The pieces stored into the output window tile its block, so they cover it. -/
theorem cover3_C_3 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : cond3_1 i)
    (xd : Vec F S5000x64 .f32) (xb : Vec F S5000x1 .i32) (xn : Vec F S256x1 .f32) (xs : Vec F S256x64 .f32) (y : S256x64.Idx) :
    ∃ pc ∈ (kernelRun3_C c i arg1 harg1 arg2 harg2 arg3 harg3 arg4 harg4 arg5 harg5 hcz hcl xd xb xn xs).1, y ∈ pc.1.set :=
  View.cover_of_tiledL (kernelRun3_C c i arg1 harg1 arg2 harg2 arg3 harg3 arg4 harg4 arg5 harg5 hcz hcl xd xb xn xs).1 S256x64.size (by sl_kernel_rfl) y

/-- What this case leaves in the output's staging buffer: its pieces read back over junk. -/
def out3_C_3 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : cond3_1 i)
    (xd : Vec F S5000x64 .f32) (xb : Vec F S5000x1 .i32) (xn : Vec F S256x1 .f32) (xs : Vec F S256x64 .f32) : Vec F S256x64 .f32 :=
  VO3_3.read (Elt F) (VO3_3.writes (Elt F) VO3_3.junk (kernelRun3_C c i arg1 harg1 arg2 harg2 arg3 harg3 arg4 harg4 arg5 harg5 hcz hcl xd xb xn xs).1)

/-- The pieces stored into the carried scratch tile it, so they cover it. -/
theorem scover3_C_0 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : cond3_1 i)
    (xd : Vec F S5000x64 .f32) (xb : Vec F S5000x1 .i32) (xn : Vec F S256x1 .f32) (xs : Vec F S256x64 .f32) (y : S256x64.Idx) :
    ∃ pc ∈ (kernelRun3_C c i arg1 harg1 arg2 harg2 arg3 harg3 arg4 harg4 arg5 harg5 hcz hcl xd xb xn xs).2.1, y ∈ pc.1.set :=
  View.cover_of_tiledL (kernelRun3_C c i arg1 harg1 arg2 harg2 arg3 harg3 arg4 harg4 arg5 harg5 hcz hcl xd xb xn xs).2.1 S256x64.size (by sl_kernel_rfl) y

/-- What this case leaves in the carried scratch: its pieces read back over junk. -/
def sout3_C_0 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : cond3_1 i)
    (xd : Vec F S5000x64 .f32) (xb : Vec F S5000x1 .i32) (xn : Vec F S256x1 .f32) (xs : Vec F S256x64 .f32) : Vec F S256x64 .f32 :=
  VS3_0.read (Elt F) (VS3_0.writes (Elt F) VS3_0.junk (kernelRun3_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt3 (c : Dev nD) : (n : ℕ) → n < cfg3.N → Vec F S256x64 .f32 × Vec F S256x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if hz : (n + 1) % 20 = 0 then
      if hl : (n + 1) % 20 = 19 then
        False.elim (by have hN : n + 1 < 20 := lt_of_lt_of_eq hn (show cfg3.N = 20 from N_3); omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr hz) (fun h => hl ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr hz) (fun h => hl ((hcond3_1 ⟨n + 1, hn⟩).mp h)) (iblk3 V c 0 ⟨n + 1, hn⟩) (iblk3 V c 1 ⟨n + 1, hn⟩) (iblk3 V c 2 ⟨n + 1, hn⟩))
    else
      if hl : (n + 1) % 20 = 19 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => hz ((hcond3_0 ⟨n + 1, hn⟩).mp h)) ((hcond3_1 ⟨n + 1, hn⟩).mpr hl) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => hz ((hcond3_0 ⟨n + 1, hn⟩).mp h)) ((hcond3_1 ⟨n + 1, hn⟩).mpr hl) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => hz ((hcond3_0 ⟨n + 1, hn⟩).mp h)) (fun h => hl ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => hz ((hcond3_0 ⟨n + 1, hn⟩).mp h)) (fun h => hl ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at the first point. -/
theorem outsAt3_A (c : Dev nD) (t : Fin cfg3.N) (hz : t.val % 20 = 0) (hl : ¬t.val % 20 = 19) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr hz) (fun h => hl ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr hz) (fun h => hl ((hcond3_1 t).mp h)) (iblk3 V c 0 t) (iblk3 V c 1 t) (iblk3 V c 2 t)) := by
  obtain ⟨n, hn⟩ := t
  cases n with
  | zero => exact rfl
  | succ n => exact (dif_pos hz).trans ((dif_neg hl).trans rfl)

/-- `outsAt3` at a middle point: over what the point before left in the scratch. -/
theorem outsAt3_B (c : Dev nD) (t : Fin cfg3.N) (hz : ¬t.val % 20 = 0) (hl : ¬t.val % 20 = 19) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => hz ((hcond3_0 t).mp h)) (fun h => hl ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => hz ((hcond3_0 t).mp h)) (fun h => hl ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt3` at the last point: over what the point before left in the scratch. -/
theorem outsAt3_C (c : Dev nD) (t : Fin cfg3.N) (hz : ¬t.val % 20 = 0) (hl : t.val % 20 = 19) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => hz ((hcond3_0 t).mp h)) ((hcond3_1 t).mpr hl) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => hz ((hcond3_0 t).mp h)) ((hcond3_1 t).mpr hl) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut3 (c : Dev nD) : sProp 𝕄 :=
  Pipeline.scopedRestBut (Ix := Unit) (Name := ℕ) (U := UR sig nD τ) (Lvl := ℕ) (Val := Elt F) spec3 c [cc3_scratch0]

/-- The region invariant before position `n`: before the first point the class's (every scratch at anything);
    afterwards the carried scratch at what the point before left in it, the other scoped buffers unopened, and the
    random-number register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 (F := F) c) ∗ (∃ r, prngReg c r))

theorem PhiS3_zero (c : Dev nD) (n : ℕ) (h : n ≤ cfg3.N) (hfirst : n = 0) : PhiS3 V c n h = Pipeline.ΦA spec3 c := by
  subst hfirst; rfl

/-- After point `n` (before point `n + 1`): the carried scratch at that point's contents. -/
theorem PhiS3_succ (c : Dev nD) (n : ℕ) (hn : n < cfg3.N) :
    PhiS3 V c (n + 1) hn = iprop(iprop(owns (c : Thread nD τ) scM3_0 fullShare ((outsAt3 V c n hn).2) ∗ restBut3 (F := F) c) ∗ (∃ r, prngReg c r)) := rfl

/-- Before a point that is not the first: the carried scratch at what the point before left. -/
theorem PhiS3_pos (c : Dev nD) (n : ℕ) (h : n ≤ cfg3.N) (hfirst : n ≠ 0) :
    PhiS3 V c n h = iprop(iprop(owns (c : Thread nD τ) scM3_0 fullShare ((outsAt3 V c (n - 1) (by omega)).2) ∗ restBut3 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt3`'s first component; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 20 := lt_of_lt_of_eq t.isLt (show cfg3.N = 20 from N_3)
  by_cases hz : t.val % 20 = 0
  · by_cases hl : t.val % 20 = 19
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr hz) (fun h => hl ((hcond3_1 t).mp h))) (noFlush3_3_A t ((hcond3_0 t).mpr hz) (fun h => hl ((hcond3_1 t).mp h)))]
      rw [outsAt3_A V c t hz hl]
      unfold sout3_A_0; (try dsimp only)
      by_cases hfirst : t.val = 0
      · rw [PhiS3_castSucc V c t, PhiS3_zero V c _ _ hfirst, PhiA3_eq]
        iintro ⟨⟨⟨HS, Hr⟩, Hg⟩, Ho, ⟨%dd, Hd⟩, ⟨%db, Hb⟩, ⟨%dn, Hn⟩, ⟨%dq, Hq⟩⟩
        iapply ((kernelRun3_A c (grid3.coords t) _ _ _ _ _ _ _ _ _ _ ((hcond3_0 t).mpr hz) (fun h => hl ((hcond3_1 t).mp h)) (iblk3 V c 0 t) (iblk3 V c 1 t) (iblk3 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover3_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS3_castSucc V c t, PhiS3_pos V c _ _ hfirst]
        iintro ⟨⟨⟨HS, Hr⟩, Hg⟩, Ho, ⟨%dd, Hd⟩, ⟨%db, Hb⟩, ⟨%dn, Hn⟩, ⟨%dq, Hq⟩⟩
        iapply ((kernelRun3_A c (grid3.coords t) _ _ _ _ _ _ _ _ _ _ ((hcond3_0 t).mpr hz) (fun h => hl ((hcond3_1 t).mp h)) (iblk3 V c 0 t) (iblk3 V c 1 t) (iblk3 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover3_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => hz ((hcond3_0 t).mp h)) ((hcond3_1 t).mpr hl)], after3_3]
      rw [outsAt3_C V c t hz hl]
      unfold out3_C_3 sout3_C_0; (try dsimp only)
      by_cases hfirst : t.val = 0
      · exfalso; omega
      · rw [PhiS3_castSucc V c t, PhiS3_pos V c _ _ hfirst]
        iintro ⟨⟨⟨HS, Hr⟩, Hg⟩, Ho, ⟨%dd, Hd⟩, ⟨%db, Hb⟩, ⟨%dn, Hn⟩, ⟨%dq, Hq⟩⟩
        iapply ((kernelRun3_C c (grid3.coords t) _ _ _ _ _ _ _ _ _ _ (fun h => hz ((hcond3_0 t).mp h)) ((hcond3_1 t).mpr hl) (iblk3 V c 0 t) (iblk3 V c 1 t) (iblk3 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover3_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover3_C_3 c _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => hz ((hcond3_0 t).mp h)) (fun h => hl ((hcond3_1 t).mp h))) (noFlush3_3_B t (fun h => hz ((hcond3_0 t).mp h)) (fun h => hl ((hcond3_1 t).mp h)))]
      rw [outsAt3_B V c t hz hl]
      unfold sout3_B_0; (try dsimp only)
      by_cases hfirst : t.val = 0
      · exfalso; omega
      · rw [PhiS3_castSucc V c t, PhiS3_pos V c _ _ hfirst]
        iintro ⟨⟨⟨HS, Hr⟩, Hg⟩, Ho, ⟨%dd, Hd⟩, ⟨%db, Hb⟩, ⟨%dn, Hn⟩, ⟨%dq, Hq⟩⟩
        iapply ((kernelRun3_B c (grid3.coords t) _ _ _ _ _ _ _ _ _ _ (fun h => hz ((hcond3_0 t).mp h)) (fun h => hl ((hcond3_1 t).mp h)) (iblk3 V c 0 t) (iblk3 V c 1 t) (iblk3 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover3_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]
    · iexists _; iexact HS
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

end

end Cert.Kernel.Hand

end
-- ==== Proof.Kernel.Reg4.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # The scale, shift and rectify kernel's region, at the region-entry contents `V`

Four input windows (the centred block, the gathered variance's block, the scale row, the shift row) and one output
window (the normalised, rectified block). -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block index
    has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same for input window 2, whose block index is constant: it is fetched at the first point only, and every later
    point finds the same block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- The same for input window 3, of constant block index too. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S5000x64 := Rect.unit (s := S5000x64) ![0, 0] S5000x64.size inb_S5000x64_S5000x64_0_0
abbrev r4_1 : Rect S1x64 := Rect.unit (s := S1x64) ![0, 0] S1x64.size inb_S1x64_S1x64_0_0

/-! ## What the body leaves in the output window's buffer -/

/-- Window 4's staging buffer after the body, from the input windows' blocks: its one store as pieces, last first. -/
def out4_4 (x0 : Vec F S5000x64 .f32) (x1 : Vec F S5000x64 .f32) (x2 : Vec F S1x64 .f32) (x3 : Vec F S1x64 .f32) : Vec F S5000x64 .f32 :=
  View.canon [⟨r4_0, k4_pay1 (View.ld x1 r4_0) (View.ld x2 r4_1) (View.ld x0 r4_0) (View.ld x3 r4_1)⟩]

/-- Window 4's store is the whole buffer, so it covers it. -/
theorem cover4_4 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

/-! ## The body's triple -/

set_option maxHeartbeats 1000000 in
/-- The kernel body on whole staging memrefs, the inputs' at read contents and the output's at anything, runs to the
    continuation holding the inputs' as they were and the output's at `out4_4` of the inputs'. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__ssr_kernel i arg1 harg1 arg2 harg2 arg3 harg3 arg4 harg4 arg5 harg5) K := by
  simp only [cc4__ssr_kernel_eq_skeleton]; unfold cc4__ssr_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core `c`, at the region-entry contents `V`: the arrays as the region finds them;
    after the body at point `t` each input's buffer at its block and the output's at `out4_4` of the input blocks;
    the invariant is the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies; the
    invariant and the core's owed tokens pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the region: the invariant is the class's at every point -/

theorem hin4 (c : Dev nD) : Pipeline.ΦA spec4 c ⊢ (dat4 V c).Φ 0 := by
  dsimp only [dat4]; exact .rfl

theorem hout4 (c : Dev nD) : (dat4 V c).Φ (Fin.last cfg4.N) ⊢ Pipeline.ΦA spec4 c := by
  dsimp only [dat4]; exact .rfl

end

end Cert.Kernel.Hand

end
-- ==== Proof.Kernel.Reg5.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the region-entry contents `V`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: where it is not
    fetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the right factor, one block for the whole grid) likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each window's buffer read or written whole -/

abbrev r5_0 : Rect S5000x64 := Rect.unit (s := S5000x64) ![0, 0] S5000x64.size inb_S5000x64_S5000x64_0_0
abbrev r5_1 : Rect S64x64 := Rect.unit (s := S64x64) ![0, 0] S64x64.size inb_S64x64_S64x64_0_0
abbrev r5_2 : Rect S5000x64 := Rect.unit (s := S5000x64) ![0, 0] S5000x64.size inb_S5000x64_S5000x64_0_0

/-! ## What the body leaves in the output window's buffer -/

/-- Window 2's staging buffer after the body, from the two input blocks: the product block, stored whole. -/
def out5_2 (x0 : Vec F S5000x64 .f32) (x1 : Vec F S64x64 .f32) : Vec F S5000x64 .f32 :=
  View.canon [⟨r5_2, k5_pay1 (View.ld x0 r5_0) (View.ld x1 r5_1)⟩]

/-- The one store tiles the buffer, so it covers it. -/
theorem cover5_2 (p0 : Vec F S5000x64 .f32) (y : S5000x64.Idx) :
    ∃ pc ∈ ([⟨r5_2, p0⟩] : List (View.Piece (Elt F) S5000x64 .f32)), y ∈ pc.1.set :=
  View.cover_of_tiled [⟨r5_2, p0⟩] S5000x64.size (by rfl) y

/-! ## The body's triple -/

set_option maxHeartbeats 1000000 in
/-- The body on whole staging memrefs, the inputs' at contents `x0`, `x1` and the output's at anything, runs to the
    continuation holding the inputs' as they were and the output's at `out5_2 x0 x1`; the output's old contents are
    read and not used. -/
theorem sound_kernel5 (c : Dev nD) (E : Set ℕ) (i : grid5.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this pipeline on core `c`, at the region-entry contents `V`: after the body at point `t` each input's
    buffer holds its block and the output's holds `out5_2` of the two input blocks; the invariant is the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation5 (c : Dev nD) : BodyObligation (dat5 (F := F) V c) (defs₀ (F := F)) Variants.none () Set.univ := fun t => by
  rw [bigSep_W5, bigSep_W5]
  exact sound_body5 V c t

/-- The invariant at the first point is the class invariant itself. -/
theorem hin5 (c : Dev nD) : Pipeline.ΦA spec5 c ⊢ (dat5 V c).Φ 0 := by
  rw [show (dat5 V c).Φ 0 = Pipeline.ΦA spec5 c from rfl]

/-- And at the last point. -/
theorem hout5 (c : Dev nD) : (dat5 V c).Φ (Fin.last cfg5.N) ⊢ Pipeline.ΦA spec5 c := by
  rw [show (dat5 V c).Φ (Fin.last cfg5.N) = Pipeline.ΦA spec5 c from rfl]

end

end Cert.Kernel.Hand

end
-- ==== Proof.Kernel.Reg6Runs.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is the entry contents (`hA`) and whose body leaves the block in place (`hafter`): unfetched,
    the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is the entry contents (`hA`) and whose body leaves the block in place (`hafter`): unfetched,
    the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is the entry contents (`hA`) and whose body leaves the block in place (`hafter`): unfetched,
    the block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

end

/-! ## The body's branch conditions -/

/-- The condition of the body's first conditional, from the grid coordinates: the point is the first of the grid. -/
abbrev cond6_0 (i : grid6.Coords) : Prop := (Scalar.cmpi .ne (Scalar.extui (Scalar.cmpi .eq (BitVec.ofNat 32 (i 0).val) 0#32)) 0#32) = 1#1
/-- It holds at the points ≡ 0 (mod 20): decided over the grid. -/
theorem hcond6_0 : ∀ t : Fin cfg6.N, cond6_0 (grid6.coords t) ↔ t.val % 20 = 0 :=
  (by decide +kernel : ∀ t : Fin grid6.N, cond6_0 (grid6.coords t) ↔ t.val % 20 = 0)

/-- The condition of the body's second conditional, from the grid coordinates: the point is the last of the grid. -/
abbrev cond6_1 (i : grid6.Coords) : Prop := k6_cond2 i = 1#1
/-- It holds at the points ≡ 19 (mod 20): decided over the grid. -/
theorem hcond6_1 : ∀ t : Fin cfg6.N, cond6_1 (grid6.coords t) ↔ t.val % 20 = 19 :=
  (by decide +kernel : ∀ t : Fin grid6.N, cond6_1 (grid6.coords t) ↔ t.val % 20 = 19)

/-! ## Where the windows are idle -/

/-- The inputs are never idle. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
/-- At the first point the output is idle (nothing is stored into it) and is not written back. -/
theorem idleAt6_3_A : ∀ t : Fin cfg6.N, cond6_0 (grid6.coords t) → ¬cond6_1 (grid6.coords t) → cfg6.idle 3 (grid6.coords t) = true := by decide +kernel
theorem noFlush6_3_A : ∀ t : Fin cfg6.N, cond6_0 (grid6.coords t) → ¬cond6_1 (grid6.coords t) → (cfg6.win 3).flush t = false := by decide +kernel
/-- At the middle points likewise. -/
theorem idleAt6_3_B : ∀ t : Fin cfg6.N, ¬cond6_0 (grid6.coords t) → ¬cond6_1 (grid6.coords t) → cfg6.idle 3 (grid6.coords t) = true := by decide +kernel
theorem noFlush6_3_B : ∀ t : Fin cfg6.N, ¬cond6_0 (grid6.coords t) → ¬cond6_1 (grid6.coords t) → (cfg6.win 3).flush t = false := by decide +kernel
/-- At the last point the output is live: the body stores into it. -/
theorem liveAt6_3_C : ∀ t : Fin cfg6.N, ¬cond6_0 (grid6.coords t) → cond6_1 (grid6.coords t) → cfg6.idle 3 (grid6.coords t) = false := by decide +kernel

/-! ## The staging memrefs and the scratch -/

/-- One staging buffer of the output window, through which its contents are stated. -/
abbrev VO6_3 : View sig .tc .vmem S256x64 .f32 := (Memref.whole cc6_stg3_0 : Memref sig .tc .vmem S256x64 .f32).view
/-- Each window's current staging memref at point `t`, as the pipeline passes it, and its wholeness. -/
abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S256x1 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S256x64 .f32 := win6_3.stage (cfg6.slots t 3)
abbrev hs6_3 (t : Fin cfg6.N) : (ms6_3 t).IsWhole := hstage6_3 ((cfg6.slots t 3).cast nbuf6_3)
/-- The scratch operand: a whole scoped buffer of the kernel's own, passed beside the windows. -/
abbrev scM6_0 : Memref sig .tc .vmem S256x64 .f32 := Memref.whole cc6_scratch0
/-- The scratch the kernel carries between points, as a view. -/
abbrev VS6_0 : View sig .tc .vmem S256x64 .f32 := scM6_0.view

/-- The region invariant with the scratch operand as a memref owned at some contents, the other scoped buffers
    unopened beside it, and the generator register at some state. -/
theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

end Cert.Kernel.Hand

end
-- ==== Proof.Kernel.Reg6RunA.lean ====
import proofs.«422469_j24000277250640_1_alg».proof.Proof.Kernel.Reg6Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun6_A (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond6_0 i) (hcl : ¬cond6_1 i)
    (xd : Vec F S5000x64 .f32) (xb : Vec F S5000x1 .i32) (xn : Vec F S256x1 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc6__reduce_div_kernel i arg1 harg1 arg2 harg2 arg3 harg3 arg4 harg4 arg5 harg5) K } := by
  refine ⟨[], ?_, fun xi E K => ?run⟩
  case run =>
    simp only [cc6__reduce_div_kernel_eq_skeleton]; unfold cc6__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg6RunB.lean ====
import proofs.«422469_j24000277250640_1_alg».proof.Proof.Kernel.Reg6RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun6_B (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : ¬cond6_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc6__reduce_div_kernel i arg1 harg1 arg2 harg2 arg3 harg3 arg4 harg4 arg5 harg5) K } := by
  refine ⟨[], ?_, fun xi E K => ?run⟩
  case run =>
    simp only [cc6__reduce_div_kernel_eq_skeleton]; unfold cc6__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg6RunC.lean ====
import proofs.«422469_j24000277250640_1_alg».proof.Proof.Kernel.Reg6RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun6_C (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : cond6_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc6__reduce_div_kernel i arg1 harg1 arg2 harg2 arg3 harg3 arg4 harg4 arg5 harg5) K } := by
  refine ⟨?_, ?_, fun E K => ?run⟩
  case run =>
    simp only [cc6__reduce_div_kernel_eq_skeleton]; unfold cc6__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.Kernel.Hand

end
-- ==== Proof.Kernel.Reg6.lean ====
import proofs.«422469_j24000277250640_1_alg».proof.Proof.Kernel.Reg6RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out6_A_3 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond6_0 i) (hcl : ¬cond6_1 i)
    (xd : Vec F S5000x64 .f32) (xb : Vec F S5000x1 .i32) (xn : Vec F S256x1 .f32) : Vec F S256x64 .f32 :=
  VO6_3.read (Elt F) (VO6_3.writes (Elt F) VO6_3.junk (kernelRun6_A c i arg1 harg1 arg2 harg2 arg3 harg3 arg4 harg4 arg5 harg5 hcz hcl xd xb xn).1)

/-- The pieces stored into the carried scratch tile it, so they cover it. -/
theorem scover6_A_0 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond6_0 i) (hcl : ¬cond6_1 i)
    (xd : Vec F S5000x64 .f32) (xb : Vec F S5000x1 .i32) (xn : Vec F S256x1 .f32) (y : S256x64.Idx) :
    ∃ pc ∈ (kernelRun6_A c i arg1 harg1 arg2 harg2 arg3 harg3 arg4 harg4 arg5 harg5 hcz hcl xd xb xn).2.1, y ∈ pc.1.set :=
  View.cover_of_tiledL (kernelRun6_A c i arg1 harg1 arg2 harg2 arg3 harg3 arg4 harg4 arg5 harg5 hcz hcl xd xb xn).2.1 S256x64.size (by sl_kernel_rfl) y

/-- What this case leaves in the carried scratch: its pieces read back over junk. -/
def sout6_A_0 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond6_0 i) (hcl : ¬cond6_1 i)
    (xd : Vec F S5000x64 .f32) (xb : Vec F S5000x1 .i32) (xn : Vec F S256x1 .f32) : Vec F S256x64 .f32 :=
  VS6_0.read (Elt F) (VS6_0.writes (Elt F) VS6_0.junk (kernelRun6_A c i arg1 harg1 arg2 harg2 arg3 harg3 arg4 harg4 arg5 harg5 hcz hcl xd xb xn).2.1)

/-- Nothing is stored into the output window here (it is idle and not written back): no pieces, a placeholder
    that nothing consults. -/
def out6_B_3 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : ¬cond6_1 i)
    (xd : Vec F S5000x64 .f32) (xb : Vec F S5000x1 .i32) (xn : Vec F S256x1 .f32) (xs : Vec F S256x64 .f32) : Vec F S256x64 .f32 :=
  VO6_3.read (Elt F) (VO6_3.writes (Elt F) VO6_3.junk (kernelRun6_B c i arg1 harg1 arg2 harg2 arg3 harg3 arg4 harg4 arg5 harg5 hcz hcl xd xb xn xs).1)

/-- The pieces stored into the carried scratch tile it, so they cover it. -/
theorem scover6_B_0 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : ¬cond6_1 i)
    (xd : Vec F S5000x64 .f32) (xb : Vec F S5000x1 .i32) (xn : Vec F S256x1 .f32) (xs : Vec F S256x64 .f32) (y : S256x64.Idx) :
    ∃ pc ∈ (kernelRun6_B c i arg1 harg1 arg2 harg2 arg3 harg3 arg4 harg4 arg5 harg5 hcz hcl xd xb xn xs).2.1, y ∈ pc.1.set :=
  View.cover_of_tiledL (kernelRun6_B c i arg1 harg1 arg2 harg2 arg3 harg3 arg4 harg4 arg5 harg5 hcz hcl xd xb xn xs).2.1 S256x64.size (by sl_kernel_rfl) y

/-- What this case leaves in the carried scratch: its pieces read back over junk. -/
def sout6_B_0 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : ¬cond6_1 i)
    (xd : Vec F S5000x64 .f32) (xb : Vec F S5000x1 .i32) (xn : Vec F S256x1 .f32) (xs : Vec F S256x64 .f32) : Vec F S256x64 .f32 :=
  VS6_0.read (Elt F) (VS6_0.writes (Elt F) VS6_0.junk (kernelRun6_B c i arg1 harg1 arg2 harg2 arg3 harg3 arg4 harg4 arg5 harg5 hcz hcl xd xb xn xs).2.1)

/-- The pieces stored into the output window tile its block, so they cover it. -/
theorem cover6_C_3 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : cond6_1 i)
    (xd : Vec F S5000x64 .f32) (xb : Vec F S5000x1 .i32) (xn : Vec F S256x1 .f32) (xs : Vec F S256x64 .f32) (y : S256x64.Idx) :
    ∃ pc ∈ (kernelRun6_C c i arg1 harg1 arg2 harg2 arg3 harg3 arg4 harg4 arg5 harg5 hcz hcl xd xb xn xs).1, y ∈ pc.1.set :=
  View.cover_of_tiledL (kernelRun6_C c i arg1 harg1 arg2 harg2 arg3 harg3 arg4 harg4 arg5 harg5 hcz hcl xd xb xn xs).1 S256x64.size (by sl_kernel_rfl) y

/-- What this case leaves in the output's staging buffer: its pieces read back over junk. -/
def out6_C_3 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : cond6_1 i)
    (xd : Vec F S5000x64 .f32) (xb : Vec F S5000x1 .i32) (xn : Vec F S256x1 .f32) (xs : Vec F S256x64 .f32) : Vec F S256x64 .f32 :=
  VO6_3.read (Elt F) (VO6_3.writes (Elt F) VO6_3.junk (kernelRun6_C c i arg1 harg1 arg2 harg2 arg3 harg3 arg4 harg4 arg5 harg5 hcz hcl xd xb xn xs).1)

/-- The pieces stored into the carried scratch tile it, so they cover it. -/
theorem scover6_C_0 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : cond6_1 i)
    (xd : Vec F S5000x64 .f32) (xb : Vec F S5000x1 .i32) (xn : Vec F S256x1 .f32) (xs : Vec F S256x64 .f32) (y : S256x64.Idx) :
    ∃ pc ∈ (kernelRun6_C c i arg1 harg1 arg2 harg2 arg3 harg3 arg4 harg4 arg5 harg5 hcz hcl xd xb xn xs).2.1, y ∈ pc.1.set :=
  View.cover_of_tiledL (kernelRun6_C c i arg1 harg1 arg2 harg2 arg3 harg3 arg4 harg4 arg5 harg5 hcz hcl xd xb xn xs).2.1 S256x64.size (by sl_kernel_rfl) y

/-- What this case leaves in the carried scratch: its pieces read back over junk. -/
def sout6_C_0 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : cond6_1 i)
    (xd : Vec F S5000x64 .f32) (xb : Vec F S5000x1 .i32) (xn : Vec F S256x1 .f32) (xs : Vec F S256x64 .f32) : Vec F S256x64 .f32 :=
  VS6_0.read (Elt F) (VS6_0.writes (Elt F) VS6_0.junk (kernelRun6_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt6 (c : Dev nD) : (n : ℕ) → n < cfg6.N → Vec F S256x64 .f32 × Vec F S256x64 .f32
  | 0, hn => (out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩))
  | n + 1, hn =>
    if hz : (n + 1) % 20 = 0 then
      if hl : (n + 1) % 20 = 19 then
        False.elim (by have hN : n + 1 < 20 := lt_of_lt_of_eq hn (show cfg6.N = 20 from N_6); omega)
      else
        (out6_A_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr hz) (fun h => hl ((hcond6_1 ⟨n + 1, hn⟩).mp h)) (iblk6 V c 0 ⟨n + 1, hn⟩) (iblk6 V c 1 ⟨n + 1, hn⟩) (iblk6 V c 2 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr hz) (fun h => hl ((hcond6_1 ⟨n + 1, hn⟩).mp h)) (iblk6 V c 0 ⟨n + 1, hn⟩) (iblk6 V c 1 ⟨n + 1, hn⟩) (iblk6 V c 2 ⟨n + 1, hn⟩))
    else
      if hl : (n + 1) % 20 = 19 then
        (out6_C_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => hz ((hcond6_0 ⟨n + 1, hn⟩).mp h)) ((hcond6_1 ⟨n + 1, hn⟩).mpr hl) (iblk6 V c 0 ⟨n + 1, hn⟩) (iblk6 V c 1 ⟨n + 1, hn⟩) (iblk6 V c 2 ⟨n + 1, hn⟩) (outsAt6 c n (Nat.lt_of_succ_lt hn)).2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => hz ((hcond6_0 ⟨n + 1, hn⟩).mp h)) ((hcond6_1 ⟨n + 1, hn⟩).mpr hl) (iblk6 V c 0 ⟨n + 1, hn⟩) (iblk6 V c 1 ⟨n + 1, hn⟩) (iblk6 V c 2 ⟨n + 1, hn⟩) (outsAt6 c n (Nat.lt_of_succ_lt hn)).2)
      else
        (out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => hz ((hcond6_0 ⟨n + 1, hn⟩).mp h)) (fun h => hl ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => hz ((hcond6_0 ⟨n + 1, hn⟩).mp h)) (fun h => hl ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2)

/-- `outsAt6` at the first point. -/
theorem outsAt6_A (c : Dev nD) (t : Fin cfg6.N) (hz : t.val % 20 = 0) (hl : ¬t.val % 20 = 19) :
    outsAt6 V c t.val t.isLt = (out6_A_3 c (grid6.coords t) (ms6_0 t) (hs6_0 t) (ms6_1 t) (hs6_1 t) (ms6_2 t) (hs6_2 t) (ms6_3 t) (hs6_3 t) scM6_0 (Memref.isWhole_whole _) ((hcond6_0 t).mpr hz) (fun h => hl ((hcond6_1 t).mp h)) (iblk6 V c 0 t) (iblk6 V c 1 t) (iblk6 V c 2 t), sout6_A_0 c (grid6.coords t) (ms6_0 t) (hs6_0 t) (ms6_1 t) (hs6_1 t) (ms6_2 t) (hs6_2 t) (ms6_3 t) (hs6_3 t) scM6_0 (Memref.isWhole_whole _) ((hcond6_0 t).mpr hz) (fun h => hl ((hcond6_1 t).mp h)) (iblk6 V c 0 t) (iblk6 V c 1 t) (iblk6 V c 2 t)) := by
  obtain ⟨n, hn⟩ := t
  cases n with
  | zero => exact rfl
  | succ n => exact (dif_pos hz).trans ((dif_neg hl).trans rfl)

/-- `outsAt6` at a middle point: over what the point before left in the scratch. -/
theorem outsAt6_B (c : Dev nD) (t : Fin cfg6.N) (hz : ¬t.val % 20 = 0) (hl : ¬t.val % 20 = 19) :
    outsAt6 V c t.val t.isLt = (out6_B_3 c (grid6.coords t) (ms6_0 t) (hs6_0 t) (ms6_1 t) (hs6_1 t) (ms6_2 t) (hs6_2 t) (ms6_3 t) (hs6_3 t) scM6_0 (Memref.isWhole_whole _) (fun h => hz ((hcond6_0 t).mp h)) (fun h => hl ((hcond6_1 t).mp h)) (iblk6 V c 0 t) (iblk6 V c 1 t) (iblk6 V c 2 t) (outsAt6 V c (t.val - 1) (Nat.lt_of_le_of_lt (Nat.sub_le _ _) t.isLt)).2, sout6_B_0 c (grid6.coords t) (ms6_0 t) (hs6_0 t) (ms6_1 t) (hs6_1 t) (ms6_2 t) (hs6_2 t) (ms6_3 t) (hs6_3 t) scM6_0 (Memref.isWhole_whole _) (fun h => hz ((hcond6_0 t).mp h)) (fun h => hl ((hcond6_1 t).mp h)) (iblk6 V c 0 t) (iblk6 V c 1 t) (iblk6 V c 2 t) (outsAt6 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt6` at the last point: over what the point before left in the scratch. -/
theorem outsAt6_C (c : Dev nD) (t : Fin cfg6.N) (hz : ¬t.val % 20 = 0) (hl : t.val % 20 = 19) :
    outsAt6 V c t.val t.isLt = (out6_C_3 c (grid6.coords t) (ms6_0 t) (hs6_0 t) (ms6_1 t) (hs6_1 t) (ms6_2 t) (hs6_2 t) (ms6_3 t) (hs6_3 t) scM6_0 (Memref.isWhole_whole _) (fun h => hz ((hcond6_0 t).mp h)) ((hcond6_1 t).mpr hl) (iblk6 V c 0 t) (iblk6 V c 1 t) (iblk6 V c 2 t) (outsAt6 V c (t.val - 1) (Nat.lt_of_le_of_lt (Nat.sub_le _ _) t.isLt)).2, sout6_C_0 c (grid6.coords t) (ms6_0 t) (hs6_0 t) (ms6_1 t) (hs6_1 t) (ms6_2 t) (hs6_2 t) (ms6_3 t) (hs6_3 t) scM6_0 (Memref.isWhole_whole _) (fun h => hz ((hcond6_0 t).mp h)) ((hcond6_1 t).mpr hl) (iblk6 V c 0 t) (iblk6 V c 1 t) (iblk6 V c 2 t) (outsAt6 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut6 (c : Dev nD) : sProp 𝕄 :=
  Pipeline.scopedRestBut (Ix := Unit) (Name := ℕ) (U := UR sig nD τ) (Lvl := ℕ) (Val := Elt F) spec6 c [cc6_scratch0]

/-- The region invariant before position `n`: before the first point the class's (every scratch at anything);
    afterwards the carried scratch at what the point before left in it, the other scoped buffers unopened, and the
    random-number register at some state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2) ∗ restBut6 (F := F) c) ∗ (∃ r, prngReg c r))

theorem PhiS6_zero (c : Dev nD) (n : ℕ) (h : n ≤ cfg6.N) (hfirst : n = 0) : PhiS6 V c n h = Pipeline.ΦA spec6 c := by
  subst hfirst; rfl

/-- After point `n` (before point `n + 1`): the carried scratch at that point's contents. -/
theorem PhiS6_succ (c : Dev nD) (n : ℕ) (hn : n < cfg6.N) :
    PhiS6 V c (n + 1) hn = iprop(iprop(owns (c : Thread nD τ) scM6_0 fullShare ((outsAt6 V c n hn).2) ∗ restBut6 (F := F) c) ∗ (∃ r, prngReg c r)) := rfl

/-- Before a point that is not the first: the carried scratch at what the point before left. -/
theorem PhiS6_pos (c : Dev nD) (n : ℕ) (h : n ≤ cfg6.N) (hfirst : n ≠ 0) :
    PhiS6 V c n h = iprop(iprop(owns (c : Thread nD τ) scM6_0 fullShare ((outsAt6 V c (n - 1) (by omega)).2) ∗ restBut6 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt6`'s first component; the invariant `PhiS6`; nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

/-- The invariant at a point's start, restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 20 := lt_of_lt_of_eq t.isLt (show cfg6.N = 20 from N_6)
  by_cases hz : t.val % 20 = 0
  · by_cases hl : t.val % 20 = 19
    · exfalso; omega
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [Dat.leavesExact_idle (dat6 V c) 3 t (idleAt6_3_A t ((hcond6_0 t).mpr hz) (fun h => hl ((hcond6_1 t).mp h))) (noFlush6_3_A t ((hcond6_0 t).mpr hz) (fun h => hl ((hcond6_1 t).mp h)))]
      rw [outsAt6_A V c t hz hl]
      unfold sout6_A_0; (try dsimp only)
      by_cases hfirst : t.val = 0
      · rw [PhiS6_castSucc V c t, PhiS6_zero V c _ _ hfirst, PhiA6_eq]
        iintro ⟨⟨⟨HS, Hr⟩, Hg⟩, Ho, ⟨%dd, Hd⟩, ⟨%db, Hb⟩, ⟨%dn, Hn⟩, ⟨%dq, Hq⟩⟩
        iapply ((kernelRun6_A c (grid6.coords t) _ _ _ _ _ _ _ _ _ _ ((hcond6_0 t).mpr hz) (fun h => hl ((hcond6_1 t).mp h)) (iblk6 V c 0 t) (iblk6 V c 1 t) (iblk6 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover6_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS6_castSucc V c t, PhiS6_pos V c _ _ hfirst]
        iintro ⟨⟨⟨HS, Hr⟩, Hg⟩, Ho, ⟨%dd, Hd⟩, ⟨%db, Hb⟩, ⟨%dn, Hn⟩, ⟨%dq, Hq⟩⟩
        iapply ((kernelRun6_A c (grid6.coords t) _ _ _ _ _ _ _ _ _ _ ((hcond6_0 t).mpr hz) (fun h => hl ((hcond6_1 t).mp h)) (iblk6 V c 0 t) (iblk6 V c 1 t) (iblk6 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover6_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3_C t (fun h => hz ((hcond6_0 t).mp h)) ((hcond6_1 t).mpr hl)], after6_3]
      rw [outsAt6_C V c t hz hl]
      unfold out6_C_3 sout6_C_0; (try dsimp only)
      by_cases hfirst : t.val = 0
      · exfalso; omega
      · rw [PhiS6_castSucc V c t, PhiS6_pos V c _ _ hfirst]
        iintro ⟨⟨⟨HS, Hr⟩, Hg⟩, Ho, ⟨%dd, Hd⟩, ⟨%db, Hb⟩, ⟨%dn, Hn⟩, ⟨%dq, Hq⟩⟩
        iapply ((kernelRun6_C c (grid6.coords t) _ _ _ _ _ _ _ _ _ _ (fun h => hz ((hcond6_0 t).mp h)) ((hcond6_1 t).mpr hl) (iblk6 V c 0 t) (iblk6 V c 1 t) (iblk6 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover6_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover6_C_3 c _ _ _ _ _ _ _ _ _ _ _ _ _ _ _ _ _)
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [Dat.leavesExact_idle (dat6 V c) 3 t (idleAt6_3_B t (fun h => hz ((hcond6_0 t).mp h)) (fun h => hl ((hcond6_1 t).mp h))) (noFlush6_3_B t (fun h => hz ((hcond6_0 t).mp h)) (fun h => hl ((hcond6_1 t).mp h)))]
      rw [outsAt6_B V c t hz hl]
      unfold sout6_B_0; (try dsimp only)
      by_cases hfirst : t.val = 0
      · exfalso; omega
      · rw [PhiS6_castSucc V c t, PhiS6_pos V c _ _ hfirst]
        iintro ⟨⟨⟨HS, Hr⟩, Hg⟩, Ho, ⟨%dd, Hd⟩, ⟨%db, Hb⟩, ⟨%dn, Hn⟩, ⟨%dq, Hq⟩⟩
        iapply ((kernelRun6_B c (grid6.coords t) _ _ _ _ _ _ _ _ _ _ (fun h => hz ((hcond6_0 t).mp h)) (fun h => hl ((hcond6_1 t).mp h)) (iblk6 V c 0 t) (iblk6 V c 1 t) (iblk6 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover6_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the class's back: the carried scratch's named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS, Hr⟩, Hg⟩
  isplitl [HS Hr]
  · isplitl [HS]
    · iexists _; iexact HS
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 20 := N_6; omega)

end

end Cert.Kernel.Hand

end
-- ==== Proof.Kernel.Reg7.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # The centring kernel's region, at the region-entry contents `V`

Three input windows (the aggregate's block, the gathered mean's block, the scale row) and two output windows
(the centred block, its elementwise square). -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block index
    has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same for input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The same for input window 2, whose block index is constant: it is fetched at the first point only, and every later
    point finds the same block. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x64 := Rect.unit (s := S5000x64) ![0, 0] S5000x64.size inb_S5000x64_S5000x64_0_0
abbrev r7_1 : Rect S1x64 := Rect.unit (s := S1x64) ![0, 0] S1x64.size inb_S1x64_S1x64_0_0

/-! ## What the body leaves in each output window's buffer -/

/-- Window 3's staging buffer after the body, from the input windows' blocks: its one store as pieces, last first. -/
def out7_3 (x0 : Vec F S5000x64 .f32) (x1 : Vec F S5000x64 .f32) (x2 : Vec F S1x64 .f32) : Vec F S5000x64 .f32 :=
  View.canon [⟨r7_0, k7_pay1 (View.ld x0 r7_0) (View.ld x2 r7_1) (View.ld x1 r7_0)⟩]

/-- Window 4's staging buffer after the body, from the input windows' blocks: its one store as pieces, last first. -/
def out7_4 (x0 : Vec F S5000x64 .f32) (x1 : Vec F S5000x64 .f32) (x2 : Vec F S1x64 .f32) : Vec F S5000x64 .f32 :=
  View.canon [⟨r7_0, k7_pay2 (View.ld x0 r7_0) (View.ld x2 r7_1) (View.ld x1 r7_0)⟩]

/-- Window 3's store is the whole buffer, so it covers it. -/
theorem cover7_3 (p0 : Vec F S5000x64 .f32) (y : S5000x64.Idx) :
    ∃ pc ∈ ([⟨r7_0, p0⟩] : List (View.Piece (Elt F) S5000x64 .f32)), y ∈ pc.1.set :=
  View.cover_of_tiled [⟨r7_0, p0⟩] S5000x64.size (by rfl) y

/-- Window 4's store is the whole buffer, so it covers it. -/
theorem cover7_4 (p0 : Vec F S5000x64 .f32) (y : S5000x64.Idx) :
    ∃ pc ∈ ([⟨r7_0, p0⟩] : List (View.Piece (Elt F) S5000x64 .f32)), y ∈ pc.1.set :=
  View.cover_of_tiled [⟨r7_0, p0⟩] S5000x64.size (by rfl) y

/-! ## The body's triple -/

set_option maxHeartbeats 1000000 in
/-- The kernel body on whole staging memrefs, the inputs' at read contents and the outputs' at anything, runs to the
    continuation holding the inputs' as they were and each output's at its `out7_W` of the inputs'. -/
theorem sound_kernel7 (c : Dev nD) (E : Set ℕ) (i : grid7.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2) ∗ owns (c : Thread nD τ) arg5 fullShare (out7_4 x0 x1 x2)) -∗ K ⟨⟩))
      ⊢ wp frame (wpE (defs₀ (F := F)) Variants.none c none) E (cc7__center_kernel i arg1 harg1 arg2 harg2 arg3 harg3 arg4 harg4 arg5 harg5) K := by
  simp only [cc7__center_kernel_eq_skeleton]; unfold cc7__center_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_3 _)
  iexists _; isplitr
  swap; · iexact H4
  ipureintro
  exact View.read_writes_eq_canon _ _ _ (cover7_4 _)

/-! ## The pipeline's proof data -/

/-- The proof data of pipeline 2 on core `c`, at the region-entry contents `V`: the arrays as the region finds them;
    after the body at point `t` each input's buffer at its block and each output's at `out7_W` of the input blocks;
    the invariant is the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
    | ⟨4, _⟩ => out7_4 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]
theorem after7_4 (c : Dev nD) (t : Fin cfg7.N) : (dat7 V c).after 4 t = out7_4 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks (`before7_W`), so `sound_kernel7` applies; the
    invariant and the core's owed tokens pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ (grid7.coords t) _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation7 (c : Dev nD) : BodyObligation (dat7 (F := F) V c) (defs₀ (F := F)) Variants.none () Set.univ := fun t => by
  rw [bigSep_W7, bigSep_W7]
  exact sound_body7 V c t

/-! ## Entering and leaving the region: the invariant is the class's at every point -/

theorem hin7 (c : Dev nD) : Pipeline.ΦA spec7 c ⊢ (dat7 V c).Φ 0 := by
  dsimp only [dat7]; exact .rfl

theorem hout7 (c : Dev nD) : (dat7 V c).Φ (Fin.last cfg7.N) ⊢ Pipeline.ΦA spec7 c := by
  dsimp only [dat7]; exact .rfl

end

end Cert.Kernel.Hand

end
-- ==== Proof.Kernel.Reg8Runs.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is the entry contents (`hA`) and whose body leaves the block in place (`hafter`): unfetched,
    the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is the entry contents (`hA`) and whose body leaves the block in place (`hafter`): unfetched,
    the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is the entry contents (`hA`) and whose body leaves the block in place (`hafter`): unfetched,
    the block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

end

/-! ## The body's branch conditions -/

/-- The condition of the body's first conditional, from the grid coordinates: the point is the first of the grid. -/
abbrev cond8_0 (i : grid8.Coords) : Prop := (Scalar.cmpi .ne (Scalar.extui (Scalar.cmpi .eq (BitVec.ofNat 32 (i 0).val) 0#32)) 0#32) = 1#1
/-- It holds at the points ≡ 0 (mod 20): decided over the grid. -/
theorem hcond8_0 : ∀ t : Fin cfg8.N, cond8_0 (grid8.coords t) ↔ t.val % 20 = 0 :=
  (by decide +kernel : ∀ t : Fin grid8.N, cond8_0 (grid8.coords t) ↔ t.val % 20 = 0)

/-- The condition of the body's second conditional, from the grid coordinates: the point is the last of the grid. -/
abbrev cond8_1 (i : grid8.Coords) : Prop := k8_cond2 i = 1#1
/-- It holds at the points ≡ 19 (mod 20): decided over the grid. -/
theorem hcond8_1 : ∀ t : Fin cfg8.N, cond8_1 (grid8.coords t) ↔ t.val % 20 = 19 :=
  (by decide +kernel : ∀ t : Fin grid8.N, cond8_1 (grid8.coords t) ↔ t.val % 20 = 19)

/-! ## Where the windows are idle -/

/-- The inputs are never idle. -/
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
/-- At the first point the output is idle (nothing is stored into it) and is not written back. -/
theorem idleAt8_3_A : ∀ t : Fin cfg8.N, cond8_0 (grid8.coords t) → ¬cond8_1 (grid8.coords t) → cfg8.idle 3 (grid8.coords t) = true := by decide +kernel
theorem noFlush8_3_A : ∀ t : Fin cfg8.N, cond8_0 (grid8.coords t) → ¬cond8_1 (grid8.coords t) → (cfg8.win 3).flush t = false := by decide +kernel
/-- At the middle points likewise. -/
theorem idleAt8_3_B : ∀ t : Fin cfg8.N, ¬cond8_0 (grid8.coords t) → ¬cond8_1 (grid8.coords t) → cfg8.idle 3 (grid8.coords t) = true := by decide +kernel
theorem noFlush8_3_B : ∀ t : Fin cfg8.N, ¬cond8_0 (grid8.coords t) → ¬cond8_1 (grid8.coords t) → (cfg8.win 3).flush t = false := by decide +kernel
/-- At the last point the output is live: the body stores into it. -/
theorem liveAt8_3_C : ∀ t : Fin cfg8.N, ¬cond8_0 (grid8.coords t) → cond8_1 (grid8.coords t) → cfg8.idle 3 (grid8.coords t) = false := by decide +kernel

/-! ## The staging memrefs and the scratch -/

/-- One staging buffer of the output window, through which its contents are stated. -/
abbrev VO8_3 : View sig .tc .vmem S256x64 .f32 := (Memref.whole cc8_stg3_0 : Memref sig .tc .vmem S256x64 .f32).view
/-- Each window's current staging memref at point `t`, as the pipeline passes it, and its wholeness. -/
abbrev ms8_0 (t : Fin cfg8.N) : Memref sig .tc .vmem S5000x64 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S5000x1 .i32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S256x1 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S256x64 .f32 := win8_3.stage (cfg8.slots t 3)
abbrev hs8_3 (t : Fin cfg8.N) : (ms8_3 t).IsWhole := hstage8_3 ((cfg8.slots t 3).cast nbuf8_3)
/-- The scratch operand: a whole scoped buffer of the kernel's own, passed beside the windows. -/
abbrev scM8_0 : Memref sig .tc .vmem S256x64 .f32 := Memref.whole cc8_scratch0
/-- The scratch the kernel carries between points, as a view. -/
abbrev VS8_0 : View sig .tc .vmem S256x64 .f32 := scM8_0.view

/-- The region invariant with the scratch operand as a memref owned at some contents, the other scoped buffers
    unopened beside it, and the generator register at some state. -/
theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

end Cert.Kernel.Hand

end
-- ==== Proof.Kernel.Reg8RunA.lean ====
import proofs.«422469_j24000277250640_1_alg».proof.Proof.Kernel.Reg8Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun8_A (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond8_0 i) (hcl : ¬cond8_1 i)
    (xd : Vec F S5000x64 .f32) (xb : Vec F S5000x1 .i32) (xn : Vec F S256x1 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc8__reduce_div_kernel i arg1 harg1 arg2 harg2 arg3 harg3 arg4 harg4 arg5 harg5) K } := by
  refine ⟨[], ?_, fun xi E K => ?run⟩
  case run =>
    simp only [cc8__reduce_div_kernel_eq_skeleton]; unfold cc8__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg8RunB.lean ====
import proofs.«422469_j24000277250640_1_alg».proof.Proof.Kernel.Reg8RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun8_B (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : ¬cond8_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc8__reduce_div_kernel i arg1 harg1 arg2 harg2 arg3 harg3 arg4 harg4 arg5 harg5) K } := by
  refine ⟨[], ?_, fun xi E K => ?run⟩
  case run =>
    simp only [cc8__reduce_div_kernel_eq_skeleton]; unfold cc8__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg8RunC.lean ====
import proofs.«422469_j24000277250640_1_alg».proof.Proof.Kernel.Reg8RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun8_C (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : cond8_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc8__reduce_div_kernel i arg1 harg1 arg2 harg2 arg3 harg3 arg4 harg4 arg5 harg5) K } := by
  refine ⟨?_, ?_, fun E K => ?run⟩
  case run =>
    simp only [cc8__reduce_div_kernel_eq_skeleton]; unfold cc8__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.Kernel.Hand

end
-- ==== Proof.Kernel.Reg8.lean ====
import proofs.«422469_j24000277250640_1_alg».proof.Proof.Kernel.Reg8RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out8_A_3 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond8_0 i) (hcl : ¬cond8_1 i)
    (xd : Vec F S5000x64 .f32) (xb : Vec F S5000x1 .i32) (xn : Vec F S256x1 .f32) : Vec F S256x64 .f32 :=
  VO8_3.read (Elt F) (VO8_3.writes (Elt F) VO8_3.junk (kernelRun8_A c i arg1 harg1 arg2 harg2 arg3 harg3 arg4 harg4 arg5 harg5 hcz hcl xd xb xn).1)

/-- The pieces stored into the carried scratch tile it, so they cover it. -/
theorem scover8_A_0 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond8_0 i) (hcl : ¬cond8_1 i)
    (xd : Vec F S5000x64 .f32) (xb : Vec F S5000x1 .i32) (xn : Vec F S256x1 .f32) (y : S256x64.Idx) :
    ∃ pc ∈ (kernelRun8_A c i arg1 harg1 arg2 harg2 arg3 harg3 arg4 harg4 arg5 harg5 hcz hcl xd xb xn).2.1, y ∈ pc.1.set :=
  View.cover_of_tiledL (kernelRun8_A c i arg1 harg1 arg2 harg2 arg3 harg3 arg4 harg4 arg5 harg5 hcz hcl xd xb xn).2.1 S256x64.size (by sl_kernel_rfl) y

/-- What this case leaves in the carried scratch: its pieces read back over junk. -/
def sout8_A_0 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond8_0 i) (hcl : ¬cond8_1 i)
    (xd : Vec F S5000x64 .f32) (xb : Vec F S5000x1 .i32) (xn : Vec F S256x1 .f32) : Vec F S256x64 .f32 :=
  VS8_0.read (Elt F) (VS8_0.writes (Elt F) VS8_0.junk (kernelRun8_A c i arg1 harg1 arg2 harg2 arg3 harg3 arg4 harg4 arg5 harg5 hcz hcl xd xb xn).2.1)

/-- Nothing is stored into the output window here (it is idle and not written back): no pieces, a placeholder
    that nothing consults. -/
def out8_B_3 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : ¬cond8_1 i)
    (xd : Vec F S5000x64 .f32) (xb : Vec F S5000x1 .i32) (xn : Vec F S256x1 .f32) (xs : Vec F S256x64 .f32) : Vec F S256x64 .f32 :=
  VO8_3.read (Elt F) (VO8_3.writes (Elt F) VO8_3.junk (kernelRun8_B c i arg1 harg1 arg2 harg2 arg3 harg3 arg4 harg4 arg5 harg5 hcz hcl xd xb xn xs).1)

/-- The pieces stored into the carried scratch tile it, so they cover it. -/
theorem scover8_B_0 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : ¬cond8_1 i)
    (xd : Vec F S5000x64 .f32) (xb : Vec F S5000x1 .i32) (xn : Vec F S256x1 .f32) (xs : Vec F S256x64 .f32) (y : S256x64.Idx) :
    ∃ pc ∈ (kernelRun8_B c i arg1 harg1 arg2 harg2 arg3 harg3 arg4 harg4 arg5 harg5 hcz hcl xd xb xn xs).2.1, y ∈ pc.1.set :=
  View.cover_of_tiledL (kernelRun8_B c i arg1 harg1 arg2 harg2 arg3 harg3 arg4 harg4 arg5 harg5 hcz hcl xd xb xn xs).2.1 S256x64.size (by sl_kernel_rfl) y

/-- What this case leaves in the carried scratch: its pieces read back over junk. -/
def sout8_B_0 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : ¬cond8_1 i)
    (xd : Vec F S5000x64 .f32) (xb : Vec F S5000x1 .i32) (xn : Vec F S256x1 .f32) (xs : Vec F S256x64 .f32) : Vec F S256x64 .f32 :=
  VS8_0.read (Elt F) (VS8_0.writes (Elt F) VS8_0.junk (kernelRun8_B c i arg1 harg1 arg2 harg2 arg3 harg3 arg4 harg4 arg5 harg5 hcz hcl xd xb xn xs).2.1)

/-- The pieces stored into the output window tile its block, so they cover it. -/
theorem cover8_C_3 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : cond8_1 i)
    (xd : Vec F S5000x64 .f32) (xb : Vec F S5000x1 .i32) (xn : Vec F S256x1 .f32) (xs : Vec F S256x64 .f32) (y : S256x64.Idx) :
    ∃ pc ∈ (kernelRun8_C c i arg1 harg1 arg2 harg2 arg3 harg3 arg4 harg4 arg5 harg5 hcz hcl xd xb xn xs).1, y ∈ pc.1.set :=
  View.cover_of_tiledL (kernelRun8_C c i arg1 harg1 arg2 harg2 arg3 harg3 arg4 harg4 arg5 harg5 hcz hcl xd xb xn xs).1 S256x64.size (by sl_kernel_rfl) y

/-- What this case leaves in the output's staging buffer: its pieces read back over junk. -/
def out8_C_3 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : cond8_1 i)
    (xd : Vec F S5000x64 .f32) (xb : Vec F S5000x1 .i32) (xn : Vec F S256x1 .f32) (xs : Vec F S256x64 .f32) : Vec F S256x64 .f32 :=
  VO8_3.read (Elt F) (VO8_3.writes (Elt F) VO8_3.junk (kernelRun8_C c i arg1 harg1 arg2 harg2 arg3 harg3 arg4 harg4 arg5 harg5 hcz hcl xd xb xn xs).1)

/-- The pieces stored into the carried scratch tile it, so they cover it. -/
theorem scover8_C_0 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : cond8_1 i)
    (xd : Vec F S5000x64 .f32) (xb : Vec F S5000x1 .i32) (xn : Vec F S256x1 .f32) (xs : Vec F S256x64 .f32) (y : S256x64.Idx) :
    ∃ pc ∈ (kernelRun8_C c i arg1 harg1 arg2 harg2 arg3 harg3 arg4 harg4 arg5 harg5 hcz hcl xd xb xn xs).2.1, y ∈ pc.1.set :=
  View.cover_of_tiledL (kernelRun8_C c i arg1 harg1 arg2 harg2 arg3 harg3 arg4 harg4 arg5 harg5 hcz hcl xd xb xn xs).2.1 S256x64.size (by sl_kernel_rfl) y

/-- What this case leaves in the carried scratch: its pieces read back over junk. -/
def sout8_C_0 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : cond8_1 i)
    (xd : Vec F S5000x64 .f32) (xb : Vec F S5000x1 .i32) (xn : Vec F S256x1 .f32) (xs : Vec F S256x64 .f32) : Vec F S256x64 .f32 :=
  VS8_0.read (Elt F) (VS8_0.writes (Elt F) VS8_0.junk (kernelRun8_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt8 (c : Dev nD) : (n : ℕ) → n < cfg8.N → Vec F S256x64 .f32 × Vec F S256x64 .f32
  | 0, hn => (out8_A_3 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩))
  | n + 1, hn =>
    if hz : (n + 1) % 20 = 0 then
      if hl : (n + 1) % 20 = 19 then
        False.elim (by have hN : n + 1 < 20 := lt_of_lt_of_eq hn (show cfg8.N = 20 from N_8); omega)
      else
        (out8_A_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) ((hcond8_0 ⟨n + 1, hn⟩).mpr hz) (fun h => hl ((hcond8_1 ⟨n + 1, hn⟩).mp h)) (iblk8 V c 0 ⟨n + 1, hn⟩) (iblk8 V c 1 ⟨n + 1, hn⟩) (iblk8 V c 2 ⟨n + 1, hn⟩), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) ((hcond8_0 ⟨n + 1, hn⟩).mpr hz) (fun h => hl ((hcond8_1 ⟨n + 1, hn⟩).mp h)) (iblk8 V c 0 ⟨n + 1, hn⟩) (iblk8 V c 1 ⟨n + 1, hn⟩) (iblk8 V c 2 ⟨n + 1, hn⟩))
    else
      if hl : (n + 1) % 20 = 19 then
        (out8_C_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => hz ((hcond8_0 ⟨n + 1, hn⟩).mp h)) ((hcond8_1 ⟨n + 1, hn⟩).mpr hl) (iblk8 V c 0 ⟨n + 1, hn⟩) (iblk8 V c 1 ⟨n + 1, hn⟩) (iblk8 V c 2 ⟨n + 1, hn⟩) (outsAt8 c n (Nat.lt_of_succ_lt hn)).2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => hz ((hcond8_0 ⟨n + 1, hn⟩).mp h)) ((hcond8_1 ⟨n + 1, hn⟩).mpr hl) (iblk8 V c 0 ⟨n + 1, hn⟩) (iblk8 V c 1 ⟨n + 1, hn⟩) (iblk8 V c 2 ⟨n + 1, hn⟩) (outsAt8 c n (Nat.lt_of_succ_lt hn)).2)
      else
        (out8_B_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => hz ((hcond8_0 ⟨n + 1, hn⟩).mp h)) (fun h => hl ((hcond8_1 ⟨n + 1, hn⟩).mp h)) (iblk8 V c 0 ⟨n + 1, hn⟩) (iblk8 V c 1 ⟨n + 1, hn⟩) (iblk8 V c 2 ⟨n + 1, hn⟩) (outsAt8 c n (Nat.lt_of_succ_lt hn)).2, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => hz ((hcond8_0 ⟨n + 1, hn⟩).mp h)) (fun h => hl ((hcond8_1 ⟨n + 1, hn⟩).mp h)) (iblk8 V c 0 ⟨n + 1, hn⟩) (iblk8 V c 1 ⟨n + 1, hn⟩) (iblk8 V c 2 ⟨n + 1, hn⟩) (outsAt8 c n (Nat.lt_of_succ_lt hn)).2)

/-- `outsAt8` at the first point. -/
theorem outsAt8_A (c : Dev nD) (t : Fin cfg8.N) (hz : t.val % 20 = 0) (hl : ¬t.val % 20 = 19) :
    outsAt8 V c t.val t.isLt = (out8_A_3 c (grid8.coords t) (ms8_0 t) (hs8_0 t) (ms8_1 t) (hs8_1 t) (ms8_2 t) (hs8_2 t) (ms8_3 t) (hs8_3 t) scM8_0 (Memref.isWhole_whole _) ((hcond8_0 t).mpr hz) (fun h => hl ((hcond8_1 t).mp h)) (iblk8 V c 0 t) (iblk8 V c 1 t) (iblk8 V c 2 t), sout8_A_0 c (grid8.coords t) (ms8_0 t) (hs8_0 t) (ms8_1 t) (hs8_1 t) (ms8_2 t) (hs8_2 t) (ms8_3 t) (hs8_3 t) scM8_0 (Memref.isWhole_whole _) ((hcond8_0 t).mpr hz) (fun h => hl ((hcond8_1 t).mp h)) (iblk8 V c 0 t) (iblk8 V c 1 t) (iblk8 V c 2 t)) := by
  obtain ⟨n, hn⟩ := t
  cases n with
  | zero => exact rfl
  | succ n => exact (dif_pos hz).trans ((dif_neg hl).trans rfl)

/-- `outsAt8` at a middle point: over what the point before left in the scratch. -/
theorem outsAt8_B (c : Dev nD) (t : Fin cfg8.N) (hz : ¬t.val % 20 = 0) (hl : ¬t.val % 20 = 19) :
    outsAt8 V c t.val t.isLt = (out8_B_3 c (grid8.coords t) (ms8_0 t) (hs8_0 t) (ms8_1 t) (hs8_1 t) (ms8_2 t) (hs8_2 t) (ms8_3 t) (hs8_3 t) scM8_0 (Memref.isWhole_whole _) (fun h => hz ((hcond8_0 t).mp h)) (fun h => hl ((hcond8_1 t).mp h)) (iblk8 V c 0 t) (iblk8 V c 1 t) (iblk8 V c 2 t) (outsAt8 V c (t.val - 1) (Nat.lt_of_le_of_lt (Nat.sub_le _ _) t.isLt)).2, sout8_B_0 c (grid8.coords t) (ms8_0 t) (hs8_0 t) (ms8_1 t) (hs8_1 t) (ms8_2 t) (hs8_2 t) (ms8_3 t) (hs8_3 t) scM8_0 (Memref.isWhole_whole _) (fun h => hz ((hcond8_0 t).mp h)) (fun h => hl ((hcond8_1 t).mp h)) (iblk8 V c 0 t) (iblk8 V c 1 t) (iblk8 V c 2 t) (outsAt8 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt8` at the last point: over what the point before left in the scratch. -/
theorem outsAt8_C (c : Dev nD) (t : Fin cfg8.N) (hz : ¬t.val % 20 = 0) (hl : t.val % 20 = 19) :
    outsAt8 V c t.val t.isLt = (out8_C_3 c (grid8.coords t) (ms8_0 t) (hs8_0 t) (ms8_1 t) (hs8_1 t) (ms8_2 t) (hs8_2 t) (ms8_3 t) (hs8_3 t) scM8_0 (Memref.isWhole_whole _) (fun h => hz ((hcond8_0 t).mp h)) ((hcond8_1 t).mpr hl) (iblk8 V c 0 t) (iblk8 V c 1 t) (iblk8 V c 2 t) (outsAt8 V c (t.val - 1) (Nat.lt_of_le_of_lt (Nat.sub_le _ _) t.isLt)).2, sout8_C_0 c (grid8.coords t) (ms8_0 t) (hs8_0 t) (ms8_1 t) (hs8_1 t) (ms8_2 t) (hs8_2 t) (ms8_3 t) (hs8_3 t) scM8_0 (Memref.isWhole_whole _) (fun h => hz ((hcond8_0 t).mp h)) ((hcond8_1 t).mpr hl) (iblk8 V c 0 t) (iblk8 V c 1 t) (iblk8 V c 2 t) (outsAt8 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut8 (c : Dev nD) : sProp 𝕄 :=
  Pipeline.scopedRestBut (Ix := Unit) (Name := ℕ) (U := UR sig nD τ) (Lvl := ℕ) (Val := Elt F) spec8 c [cc8_scratch0]

/-- The region invariant before position `n`: before the first point the class's (every scratch at anything);
    afterwards the carried scratch at what the point before left in it, the other scoped buffers unopened, and the
    random-number register at some state. -/
def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ restBut8 (F := F) c) ∗ (∃ r, prngReg c r))

theorem PhiS8_zero (c : Dev nD) (n : ℕ) (h : n ≤ cfg8.N) (hfirst : n = 0) : PhiS8 V c n h = Pipeline.ΦA spec8 c := by
  subst hfirst; rfl

/-- After point `n` (before point `n + 1`): the carried scratch at that point's contents. -/
theorem PhiS8_succ (c : Dev nD) (n : ℕ) (hn : n < cfg8.N) :
    PhiS8 V c (n + 1) hn = iprop(iprop(owns (c : Thread nD τ) scM8_0 fullShare ((outsAt8 V c n hn).2) ∗ restBut8 (F := F) c) ∗ (∃ r, prngReg c r)) := rfl

/-- Before a point that is not the first: the carried scratch at what the point before left. -/
theorem PhiS8_pos (c : Dev nD) (n : ℕ) (h : n ≤ cfg8.N) (hfirst : n ≠ 0) :
    PhiS8 V c n h = iprop(iprop(owns (c : Thread nD τ) scM8_0 fullShare ((outsAt8 V c (n - 1) (by omega)).2) ∗ restBut8 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt8`'s first component; the invariant `PhiS8`; nothing owed;
    full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

/-- The invariant at a point's start, restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t.val t.isLt).1 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = PhiS8 V c (t.val + 1) t.isLt from rfl, PhiS8_succ]
  have hN : t.val < 20 := lt_of_lt_of_eq t.isLt (show cfg8.N = 20 from N_8)
  by_cases hz : t.val % 20 = 0
  · by_cases hl : t.val % 20 = 19
    · exfalso; omega
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [show (dat8 V c).leavesExact 2 t = owns (c : Thread nD τ) (ms8_2 t) fullShare ((dat8 V c).after 2 t) from by
        unfold Dat.leavesExact; rw [liveAt8_2 t], after8_2]
      rw [Dat.leavesExact_idle (dat8 V c) 3 t (idleAt8_3_A t ((hcond8_0 t).mpr hz) (fun h => hl ((hcond8_1 t).mp h))) (noFlush8_3_A t ((hcond8_0 t).mpr hz) (fun h => hl ((hcond8_1 t).mp h)))]
      rw [outsAt8_A V c t hz hl]
      unfold sout8_A_0; (try dsimp only)
      by_cases hfirst : t.val = 0
      · rw [PhiS8_castSucc V c t, PhiS8_zero V c _ _ hfirst, PhiA8_eq]
        iintro ⟨⟨⟨HS, Hr⟩, Hg⟩, Ho, ⟨%dd, Hd⟩, ⟨%db, Hb⟩, ⟨%dn, Hn⟩, ⟨%dq, Hq⟩⟩
        iapply ((kernelRun8_A c (grid8.coords t) _ _ _ _ _ _ _ _ _ _ ((hcond8_0 t).mpr hz) (fun h => hl ((hcond8_1 t).mp h)) (iblk8 V c 0 t) (iblk8 V c 1 t) (iblk8 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover8_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS8_castSucc V c t, PhiS8_pos V c _ _ hfirst]
        iintro ⟨⟨⟨HS, Hr⟩, Hg⟩, Ho, ⟨%dd, Hd⟩, ⟨%db, Hb⟩, ⟨%dn, Hn⟩, ⟨%dq, Hq⟩⟩
        iapply ((kernelRun8_A c (grid8.coords t) _ _ _ _ _ _ _ _ _ _ ((hcond8_0 t).mpr hz) (fun h => hl ((hcond8_1 t).mp h)) (iblk8 V c 0 t) (iblk8 V c 1 t) (iblk8 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover8_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [show (dat8 V c).leavesExact 2 t = owns (c : Thread nD τ) (ms8_2 t) fullShare ((dat8 V c).after 2 t) from by
        unfold Dat.leavesExact; rw [liveAt8_2 t], after8_2]
      rw [show (dat8 V c).leavesExact 3 t = owns (c : Thread nD τ) (ms8_3 t) fullShare ((dat8 V c).after 3 t) from by
        unfold Dat.leavesExact; rw [liveAt8_3_C t (fun h => hz ((hcond8_0 t).mp h)) ((hcond8_1 t).mpr hl)], after8_3]
      rw [outsAt8_C V c t hz hl]
      unfold out8_C_3 sout8_C_0; (try dsimp only)
      by_cases hfirst : t.val = 0
      · exfalso; omega
      · rw [PhiS8_castSucc V c t, PhiS8_pos V c _ _ hfirst]
        iintro ⟨⟨⟨HS, Hr⟩, Hg⟩, Ho, ⟨%dd, Hd⟩, ⟨%db, Hb⟩, ⟨%dn, Hn⟩, ⟨%dq, Hq⟩⟩
        iapply ((kernelRun8_C c (grid8.coords t) _ _ _ _ _ _ _ _ _ _ (fun h => hz ((hcond8_0 t).mp h)) ((hcond8_1 t).mpr hl) (iblk8 V c 0 t) (iblk8 V c 1 t) (iblk8 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover8_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover8_C_3 c _ _ _ _ _ _ _ _ _ _ _ _ _ _ _ _ _)
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [show (dat8 V c).leavesExact 2 t = owns (c : Thread nD τ) (ms8_2 t) fullShare ((dat8 V c).after 2 t) from by
        unfold Dat.leavesExact; rw [liveAt8_2 t], after8_2]
      rw [Dat.leavesExact_idle (dat8 V c) 3 t (idleAt8_3_B t (fun h => hz ((hcond8_0 t).mp h)) (fun h => hl ((hcond8_1 t).mp h))) (noFlush8_3_B t (fun h => hz ((hcond8_0 t).mp h)) (fun h => hl ((hcond8_1 t).mp h)))]
      rw [outsAt8_B V c t hz hl]
      unfold sout8_B_0; (try dsimp only)
      by_cases hfirst : t.val = 0
      · exfalso; omega
      · rw [PhiS8_castSucc V c t, PhiS8_pos V c _ _ hfirst]
        iintro ⟨⟨⟨HS, Hr⟩, Hg⟩, Ho, ⟨%dd, Hd⟩, ⟨%db, Hb⟩, ⟨%dn, Hn⟩, ⟨%dq, Hq⟩⟩
        iapply ((kernelRun8_B c (grid8.coords t) _ _ _ _ _ _ _ _ _ _ (fun h => hz ((hcond8_0 t).mp h)) (fun h => hl ((hcond8_1 t).mp h)) (iblk8 V c 0 t) (iblk8 V c 1 t) (iblk8 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover8_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the class's back: the carried scratch's named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS, Hr⟩, Hg⟩
  isplitl [HS Hr]
  · isplitl [HS]
    · iexists _; iexact HS
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 20 := N_8; omega)

end

end Cert.Kernel.Hand

end
-- ==== Proof.Kernel.Reg9.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # The scale, shift and rectify kernel's region, at the region-entry contents `V`

Four input windows (the centred block, the gathered variance's block, the scale row, the shift row) and one output
window (the normalised, rectified block). -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): unfetched, the block index
    has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same for input window 1. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The same for input window 2, whose block index is constant: it is fetched at the first point only, and every later
    point finds the same block. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- The same for input window 3, of constant block index too. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S5000x64 := Rect.unit (s := S5000x64) ![0, 0] S5000x64.size inb_S5000x64_S5000x64_0_0
abbrev r9_1 : Rect S1x64 := Rect.unit (s := S1x64) ![0, 0] S1x64.size inb_S1x64_S1x64_0_0

/-! ## What the body leaves in the output window's buffer -/

/-- Window 4's staging buffer after the body, from the input windows' blocks: its one store as pieces, last first. -/
def out9_4 (x0 : Vec F S5000x64 .f32) (x1 : Vec F S5000x64 .f32) (x2 : Vec F S1x64 .f32) (x3 : Vec F S1x64 .f32) : Vec F S5000x64 .f32 :=
  View.canon [⟨r9_0, k9_pay1 (View.ld x1 r9_0) (View.ld x2 r9_1) (View.ld x0 r9_0) (View.ld x3 r9_1)⟩]

/-- Window 4's store is the whole buffer, so it covers it. -/
theorem cover9_4 (p0 : Vec F S5000x64 .f32) (y : S5000x64.Idx) :
    ∃ pc ∈ ([⟨r9_0, p0⟩] : List (View.Piece (Elt F) S5000x64 .f32)), y ∈ pc.1.set :=
  View.cover_of_tiled [⟨r9_0, p0⟩] S5000x64.size (by rfl) y

/-! ## The body's triple -/

set_option maxHeartbeats 1000000 in
/-- The kernel body on whole staging memrefs, the inputs' at read contents and the output's at anything, runs to the
    continuation holding the inputs' as they were and the output's at `out9_4` of the inputs'. -/
theorem sound_kernel9 (c : Dev nD) (E : Set ℕ) (i : grid9.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out9_4 x0 x1 x2 x3)) -∗ K ⟨⟩))
      ⊢ wp frame (wpE (defs₀ (F := F)) Variants.none c none) E (cc9__ssr_kernel i arg1 harg1 arg2 harg2 arg3 harg3 arg4 harg4 arg5 harg5) K := by
  simp only [cc9__ssr_kernel_eq_skeleton]; unfold cc9__ssr_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-! ## The pipeline's proof data -/

/-- The proof data of pipeline 4 on core `c`, at the region-entry contents `V`: the arrays as the region finds them;
    after the body at point `t` each input's buffer at its block and the output's at `out9_4` of the input blocks;
    the invariant is the scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9_4 (iblk9 V c 0 t) (iblk9 V c 1 t) (iblk9 V c 2 t) (iblk9 V c 3 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' memrefs hold their blocks (`before9_W`), so `sound_kernel9` applies; the
    invariant and the core's owed tokens pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ (grid9.coords t) _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation9 (c : Dev nD) : BodyObligation (dat9 (F := F) V c) (defs₀ (F := F)) Variants.none () Set.univ := fun t => by
  rw [bigSep_W9, bigSep_W9]
  exact sound_body9 V c t

/-! ## Entering and leaving the region: the invariant is the class's at every point -/

theorem hin9 (c : Dev nD) : Pipeline.ΦA spec9 c ⊢ (dat9 V c).Φ 0 := by
  dsimp only [dat9]; exact .rfl

theorem hout9 (c : Dev nD) : (dat9 V c).Φ (Fin.last cfg9.N) ⊢ Pipeline.ΦA spec9 c := by
  dsimp only [dat9]; exact .rfl

end

end Cert.Kernel.Hand

end
-- ==== Proof.Kernel.Reg10.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the region-entry contents `V`. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not: where it is not
    fetched the block index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 (the right factor, one block for the whole grid) likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each window's buffer read or written whole -/

abbrev r10_0 : Rect S5000x64 := Rect.unit (s := S5000x64) ![0, 0] S5000x64.size inb_S5000x64_S5000x64_0_0
abbrev r10_1 : Rect S64x64 := Rect.unit (s := S64x64) ![0, 0] S64x64.size inb_S64x64_S64x64_0_0
abbrev r10_2 : Rect S5000x64 := Rect.unit (s := S5000x64) ![0, 0] S5000x64.size inb_S5000x64_S5000x64_0_0

/-! ## What the body leaves in the output window's buffer -/

/-- Window 2's staging buffer after the body, from the two input blocks: the product block, stored whole. -/
def out10_2 (x0 : Vec F S5000x64 .f32) (x1 : Vec F S64x64 .f32) : Vec F S5000x64 .f32 :=
  View.canon [⟨r10_2, k10_pay1 (View.ld x0 r10_0) (View.ld x1 r10_1)⟩]

/-- The one store tiles the buffer, so it covers it. -/
theorem cover10_2 (p0 : Vec F S5000x64 .f32) (y : S5000x64.Idx) :
    ∃ pc ∈ ([⟨r10_2, p0⟩] : List (View.Piece (Elt F) S5000x64 .f32)), y ∈ pc.1.set :=
  View.cover_of_tiled [⟨r10_2, p0⟩] S5000x64.size (by rfl) y

/-! ## The body's triple -/

set_option maxHeartbeats 1000000 in
/-- The body on whole staging memrefs, the inputs' at contents `x0`, `x1` and the output's at anything, runs to the
    continuation holding the inputs' as they were and the output's at `out10_2 x0 x1`; the output's old contents are
    read and not used. -/
theorem sound_kernel10 (c : Dev nD) (E : Set ℕ) (i : grid10.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__matmul_kernel i arg1 harg1 arg2 harg2 arg3 harg3) K := by
  simp only [cc10__matmul_kernel_eq_skeleton]; unfold cc10__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of this pipeline on core `c`, at the region-entry contents `V`: after the body at point `t` each input's
    buffer holds its block and the output's holds `out10_2` of the two input blocks; the invariant is the scoped rest and
    the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so `sound_kernel10` applies; the invariant and what
    the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation10 (c : Dev nD) : BodyObligation (dat10 (F := F) V c) (defs₀ (F := F)) Variants.none () Set.univ := fun t => by
  rw [bigSep_W10, bigSep_W10]
  exact sound_body10 V c t

/-- The invariant at the first point is the class invariant itself. -/
theorem hin10 (c : Dev nD) : Pipeline.ΦA spec10 c ⊢ (dat10 V c).Φ 0 := by
  rw [show (dat10 V c).Φ 0 = Pipeline.ΦA spec10 c from rfl]

/-- And at the last point. -/
theorem hout10 (c : Dev nD) : (dat10 V c).Φ (Fin.last cfg10.N) ⊢ Pipeline.ΦA spec10 c := by
  rw [show (dat10 V c).Φ (Fin.last cfg10.N) = Pipeline.ΦA spec10 c from rfl]

end

end Cert.Kernel.Hand

end
-- ==== Proof.Kernel.Reg11Runs.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is the entry contents (`hA`) and whose body leaves the block in place (`hafter`): unfetched,
    the block index has not moved. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is the entry contents (`hA`) and whose body leaves the block in place (`hafter`): unfetched,
    the block index has not moved. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is the entry contents (`hA`) and whose body leaves the block in place (`hafter`): unfetched,
    the block index has not moved. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

end

/-! ## The body's branch conditions -/

/-- The condition of the body's first conditional, from the grid coordinates: the point is the first of the grid. -/
abbrev cond11_0 (i : grid11.Coords) : Prop := (Scalar.cmpi .ne (Scalar.extui (Scalar.cmpi .eq (BitVec.ofNat 32 (i 0).val) 0#32)) 0#32) = 1#1
/-- It holds at the points ≡ 0 (mod 20): decided over the grid. -/
theorem hcond11_0 : ∀ t : Fin cfg11.N, cond11_0 (grid11.coords t) ↔ t.val % 20 = 0 :=
  (by decide +kernel : ∀ t : Fin grid11.N, cond11_0 (grid11.coords t) ↔ t.val % 20 = 0)

/-- The condition of the body's second conditional, from the grid coordinates: the point is the last of the grid. -/
abbrev cond11_1 (i : grid11.Coords) : Prop := k11_cond2 i = 1#1
/-- It holds at the points ≡ 19 (mod 20): decided over the grid. -/
theorem hcond11_1 : ∀ t : Fin cfg11.N, cond11_1 (grid11.coords t) ↔ t.val % 20 = 19 :=
  (by decide +kernel : ∀ t : Fin grid11.N, cond11_1 (grid11.coords t) ↔ t.val % 20 = 19)

/-! ## Where the windows are idle -/

/-- The inputs are never idle. -/
theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel
/-- At the first point the output is idle (nothing is stored into it) and is not written back. -/
theorem idleAt11_3_A : ∀ t : Fin cfg11.N, cond11_0 (grid11.coords t) → ¬cond11_1 (grid11.coords t) → cfg11.idle 3 (grid11.coords t) = true := by decide +kernel
theorem noFlush11_3_A : ∀ t : Fin cfg11.N, cond11_0 (grid11.coords t) → ¬cond11_1 (grid11.coords t) → (cfg11.win 3).flush t = false := by decide +kernel
/-- At the middle points likewise. -/
theorem idleAt11_3_B : ∀ t : Fin cfg11.N, ¬cond11_0 (grid11.coords t) → ¬cond11_1 (grid11.coords t) → cfg11.idle 3 (grid11.coords t) = true := by decide +kernel
theorem noFlush11_3_B : ∀ t : Fin cfg11.N, ¬cond11_0 (grid11.coords t) → ¬cond11_1 (grid11.coords t) → (cfg11.win 3).flush t = false := by decide +kernel
/-- At the last point the output is live: the body stores into it. -/
theorem liveAt11_3_C : ∀ t : Fin cfg11.N, ¬cond11_0 (grid11.coords t) → cond11_1 (grid11.coords t) → cfg11.idle 3 (grid11.coords t) = false := by decide +kernel

/-! ## The staging memrefs and the scratch -/

/-- One staging buffer of the output window, through which its contents are stated. -/
abbrev VO11_3 : View sig .tc .vmem S256x64 .f32 := (Memref.whole cc11_stg3_0 : Memref sig .tc .vmem S256x64 .f32).view
/-- Each window's current staging memref at point `t`, as the pipeline passes it, and its wholeness. -/
abbrev ms11_0 (t : Fin cfg11.N) : Memref sig .tc .vmem S5000x64 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S5000x1 .i32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S256x1 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S256x64 .f32 := win11_3.stage (cfg11.slots t 3)
abbrev hs11_3 (t : Fin cfg11.N) : (ms11_3 t).IsWhole := hstage11_3 ((cfg11.slots t 3).cast nbuf11_3)
/-- The scratch operand: a whole scoped buffer of the kernel's own, passed beside the windows. -/
abbrev scM11_0 : Memref sig .tc .vmem S256x64 .f32 := Memref.whole cc11_scratch0
/-- The scratch the kernel carries between points, as a view. -/
abbrev VS11_0 : View sig .tc .vmem S256x64 .f32 := scM11_0.view

/-- The region invariant with the scratch operand as a memref owned at some contents, the other scoped buffers
    unopened beside it, and the generator register at some state. -/
theorem PhiA11_eq (c : Dev nD) :
    (Pipeline.ΦA spec11 c : sProp 𝕄)
      = iprop(iprop(iprop((∃ d, owns (c : Thread nD τ) scM11_0 fullShare d))
          ∗ Pipeline.scopedRestBut (Ix := Unit) (Name := ℕ) (U := UR sig nD τ) (Lvl := ℕ) (Val := Elt F) spec11 c [cc11_scratch0]) ∗ (∃ r, prngReg c r)) := by
  unfold Pipeline.ΦA; rw [scopedRest11_split]; simp only [scM11_0, owns_whole]; try rfl

end Cert.Kernel.Hand

end
-- ==== Proof.Kernel.Reg11RunA.lean ====
import proofs.«422469_j24000277250640_1_alg».proof.Proof.Kernel.Reg11Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun11_A (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond11_0 i) (hcl : ¬cond11_1 i)
    (xd : Vec F S5000x64 .f32) (xb : Vec F S5000x1 .i32) (xn : Vec F S256x1 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc11__reduce_div_kernel i arg1 harg1 arg2 harg2 arg3 harg3 arg4 harg4 arg5 harg5) K } := by
  refine ⟨[], ?_, fun xi E K => ?run⟩
  case run =>
    simp only [cc11__reduce_div_kernel_eq_skeleton]; unfold cc11__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg11RunB.lean ====
import proofs.«422469_j24000277250640_1_alg».proof.Proof.Kernel.Reg11RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun11_B (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : ¬cond11_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc11__reduce_div_kernel i arg1 harg1 arg2 harg2 arg3 harg3 arg4 harg4 arg5 harg5) K } := by
  refine ⟨[], ?_, fun xi E K => ?run⟩
  case run =>
    simp only [cc11__reduce_div_kernel_eq_skeleton]; unfold cc11__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg11RunC.lean ====
import proofs.«422469_j24000277250640_1_alg».proof.Proof.Kernel.Reg11RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun11_C (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : cond11_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc11__reduce_div_kernel i arg1 harg1 arg2 harg2 arg3 harg3 arg4 harg4 arg5 harg5) K } := by
  refine ⟨?_, ?_, fun E K => ?run⟩
  case run =>
    simp only [cc11__reduce_div_kernel_eq_skeleton]; unfold cc11__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.Kernel.Hand

end
-- ==== Proof.Kernel.Reg11.lean ====
import proofs.«422469_j24000277250640_1_alg».proof.Proof.Kernel.Reg11RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out11_A_3 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond11_0 i) (hcl : ¬cond11_1 i)
    (xd : Vec F S5000x64 .f32) (xb : Vec F S5000x1 .i32) (xn : Vec F S256x1 .f32) : Vec F S256x64 .f32 :=
  VO11_3.read (Elt F) (VO11_3.writes (Elt F) VO11_3.junk (kernelRun11_A c i arg1 harg1 arg2 harg2 arg3 harg3 arg4 harg4 arg5 harg5 hcz hcl xd xb xn).1)

/-- The pieces stored into the carried scratch tile it, so they cover it. -/
theorem scover11_A_0 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond11_0 i) (hcl : ¬cond11_1 i)
    (xd : Vec F S5000x64 .f32) (xb : Vec F S5000x1 .i32) (xn : Vec F S256x1 .f32) (y : S256x64.Idx) :
    ∃ pc ∈ (kernelRun11_A c i arg1 harg1 arg2 harg2 arg3 harg3 arg4 harg4 arg5 harg5 hcz hcl xd xb xn).2.1, y ∈ pc.1.set :=
  View.cover_of_tiledL (kernelRun11_A c i arg1 harg1 arg2 harg2 arg3 harg3 arg4 harg4 arg5 harg5 hcz hcl xd xb xn).2.1 S256x64.size (by sl_kernel_rfl) y

/-- What this case leaves in the carried scratch: its pieces read back over junk. -/
def sout11_A_0 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond11_0 i) (hcl : ¬cond11_1 i)
    (xd : Vec F S5000x64 .f32) (xb : Vec F S5000x1 .i32) (xn : Vec F S256x1 .f32) : Vec F S256x64 .f32 :=
  VS11_0.read (Elt F) (VS11_0.writes (Elt F) VS11_0.junk (kernelRun11_A c i arg1 harg1 arg2 harg2 arg3 harg3 arg4 harg4 arg5 harg5 hcz hcl xd xb xn).2.1)

/-- Nothing is stored into the output window here (it is idle and not written back): no pieces, a placeholder
    that nothing consults. -/
def out11_B_3 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : ¬cond11_1 i)
    (xd : Vec F S5000x64 .f32) (xb : Vec F S5000x1 .i32) (xn : Vec F S256x1 .f32) (xs : Vec F S256x64 .f32) : Vec F S256x64 .f32 :=
  VO11_3.read (Elt F) (VO11_3.writes (Elt F) VO11_3.junk (kernelRun11_B c i arg1 harg1 arg2 harg2 arg3 harg3 arg4 harg4 arg5 harg5 hcz hcl xd xb xn xs).1)

/-- The pieces stored into the carried scratch tile it, so they cover it. -/
theorem scover11_B_0 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : ¬cond11_1 i)
    (xd : Vec F S5000x64 .f32) (xb : Vec F S5000x1 .i32) (xn : Vec F S256x1 .f32) (xs : Vec F S256x64 .f32) (y : S256x64.Idx) :
    ∃ pc ∈ (kernelRun11_B c i arg1 harg1 arg2 harg2 arg3 harg3 arg4 harg4 arg5 harg5 hcz hcl xd xb xn xs).2.1, y ∈ pc.1.set :=
  View.cover_of_tiledL (kernelRun11_B c i arg1 harg1 arg2 harg2 arg3 harg3 arg4 harg4 arg5 harg5 hcz hcl xd xb xn xs).2.1 S256x64.size (by sl_kernel_rfl) y

/-- What this case leaves in the carried scratch: its pieces read back over junk. -/
def sout11_B_0 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : ¬cond11_1 i)
    (xd : Vec F S5000x64 .f32) (xb : Vec F S5000x1 .i32) (xn : Vec F S256x1 .f32) (xs : Vec F S256x64 .f32) : Vec F S256x64 .f32 :=
  VS11_0.read (Elt F) (VS11_0.writes (Elt F) VS11_0.junk (kernelRun11_B c i arg1 harg1 arg2 harg2 arg3 harg3 arg4 harg4 arg5 harg5 hcz hcl xd xb xn xs).2.1)

/-- The pieces stored into the output window tile its block, so they cover it. -/
theorem cover11_C_3 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : cond11_1 i)
    (xd : Vec F S5000x64 .f32) (xb : Vec F S5000x1 .i32) (xn : Vec F S256x1 .f32) (xs : Vec F S256x64 .f32) (y : S256x64.Idx) :
    ∃ pc ∈ (kernelRun11_C c i arg1 harg1 arg2 harg2 arg3 harg3 arg4 harg4 arg5 harg5 hcz hcl xd xb xn xs).1, y ∈ pc.1.set :=
  View.cover_of_tiledL (kernelRun11_C c i arg1 harg1 arg2 harg2 arg3 harg3 arg4 harg4 arg5 harg5 hcz hcl xd xb xn xs).1 S256x64.size (by sl_kernel_rfl) y

/-- What this case leaves in the output's staging buffer: its pieces read back over junk. -/
def out11_C_3 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : cond11_1 i)
    (xd : Vec F S5000x64 .f32) (xb : Vec F S5000x1 .i32) (xn : Vec F S256x1 .f32) (xs : Vec F S256x64 .f32) : Vec F S256x64 .f32 :=
  VO11_3.read (Elt F) (VO11_3.writes (Elt F) VO11_3.junk (kernelRun11_C c i arg1 harg1 arg2 harg2 arg3 harg3 arg4 harg4 arg5 harg5 hcz hcl xd xb xn xs).1)

/-- The pieces stored into the carried scratch tile it, so they cover it. -/
theorem scover11_C_0 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : cond11_1 i)
    (xd : Vec F S5000x64 .f32) (xb : Vec F S5000x1 .i32) (xn : Vec F S256x1 .f32) (xs : Vec F S256x64 .f32) (y : S256x64.Idx) :
    ∃ pc ∈ (kernelRun11_C c i arg1 harg1 arg2 harg2 arg3 harg3 arg4 harg4 arg5 harg5 hcz hcl xd xb xn xs).2.1, y ∈ pc.1.set :=
  View.cover_of_tiledL (kernelRun11_C c i arg1 harg1 arg2 harg2 arg3 harg3 arg4 harg4 arg5 harg5 hcz hcl xd xb xn xs).2.1 S256x64.size (by sl_kernel_rfl) y

/-- What this case leaves in the carried scratch: its pieces read back over junk. -/
def sout11_C_0 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : cond11_1 i)
    (xd : Vec F S5000x64 .f32) (xb : Vec F S5000x1 .i32) (xn : Vec F S256x1 .f32) (xs : Vec F S256x64 .f32) : Vec F S256x64 .f32 :=
  VS11_0.read (Elt F) (VS11_0.writes (Elt F) VS11_0.junk (kernelRun11_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt11 (c : Dev nD) : (n : ℕ) → n < cfg11.N → Vec F S256x64 .f32 × Vec F S256x64 .f32
  | 0, hn => (out11_A_3 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) scM11_0 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩), sout11_A_0 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) scM11_0 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩))
  | n + 1, hn =>
    if hz : (n + 1) % 20 = 0 then
      if hl : (n + 1) % 20 = 19 then
        False.elim (by have hN : n + 1 < 20 := lt_of_lt_of_eq hn (show cfg11.N = 20 from N_11); omega)
      else
        (out11_A_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) ((hcond11_0 ⟨n + 1, hn⟩).mpr hz) (fun h => hl ((hcond11_1 ⟨n + 1, hn⟩).mp h)) (iblk11 V c 0 ⟨n + 1, hn⟩) (iblk11 V c 1 ⟨n + 1, hn⟩) (iblk11 V c 2 ⟨n + 1, hn⟩), sout11_A_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) ((hcond11_0 ⟨n + 1, hn⟩).mpr hz) (fun h => hl ((hcond11_1 ⟨n + 1, hn⟩).mp h)) (iblk11 V c 0 ⟨n + 1, hn⟩) (iblk11 V c 1 ⟨n + 1, hn⟩) (iblk11 V c 2 ⟨n + 1, hn⟩))
    else
      if hl : (n + 1) % 20 = 19 then
        (out11_C_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => hz ((hcond11_0 ⟨n + 1, hn⟩).mp h)) ((hcond11_1 ⟨n + 1, hn⟩).mpr hl) (iblk11 V c 0 ⟨n + 1, hn⟩) (iblk11 V c 1 ⟨n + 1, hn⟩) (iblk11 V c 2 ⟨n + 1, hn⟩) (outsAt11 c n (Nat.lt_of_succ_lt hn)).2, sout11_C_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => hz ((hcond11_0 ⟨n + 1, hn⟩).mp h)) ((hcond11_1 ⟨n + 1, hn⟩).mpr hl) (iblk11 V c 0 ⟨n + 1, hn⟩) (iblk11 V c 1 ⟨n + 1, hn⟩) (iblk11 V c 2 ⟨n + 1, hn⟩) (outsAt11 c n (Nat.lt_of_succ_lt hn)).2)
      else
        (out11_B_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => hz ((hcond11_0 ⟨n + 1, hn⟩).mp h)) (fun h => hl ((hcond11_1 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2, sout11_B_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => hz ((hcond11_0 ⟨n + 1, hn⟩).mp h)) (fun h => hl ((hcond11_1 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2)

/-- `outsAt11` at the first point. -/
theorem outsAt11_A (c : Dev nD) (t : Fin cfg11.N) (hz : t.val % 20 = 0) (hl : ¬t.val % 20 = 19) :
    outsAt11 V c t.val t.isLt = (out11_A_3 c (grid11.coords t) (ms11_0 t) (hs11_0 t) (ms11_1 t) (hs11_1 t) (ms11_2 t) (hs11_2 t) (ms11_3 t) (hs11_3 t) scM11_0 (Memref.isWhole_whole _) ((hcond11_0 t).mpr hz) (fun h => hl ((hcond11_1 t).mp h)) (iblk11 V c 0 t) (iblk11 V c 1 t) (iblk11 V c 2 t), sout11_A_0 c (grid11.coords t) (ms11_0 t) (hs11_0 t) (ms11_1 t) (hs11_1 t) (ms11_2 t) (hs11_2 t) (ms11_3 t) (hs11_3 t) scM11_0 (Memref.isWhole_whole _) ((hcond11_0 t).mpr hz) (fun h => hl ((hcond11_1 t).mp h)) (iblk11 V c 0 t) (iblk11 V c 1 t) (iblk11 V c 2 t)) := by
  obtain ⟨n, hn⟩ := t
  cases n with
  | zero => exact rfl
  | succ n => exact (dif_pos hz).trans ((dif_neg hl).trans rfl)

/-- `outsAt11` at a middle point: over what the point before left in the scratch. -/
theorem outsAt11_B (c : Dev nD) (t : Fin cfg11.N) (hz : ¬t.val % 20 = 0) (hl : ¬t.val % 20 = 19) :
    outsAt11 V c t.val t.isLt = (out11_B_3 c (grid11.coords t) (ms11_0 t) (hs11_0 t) (ms11_1 t) (hs11_1 t) (ms11_2 t) (hs11_2 t) (ms11_3 t) (hs11_3 t) scM11_0 (Memref.isWhole_whole _) (fun h => hz ((hcond11_0 t).mp h)) (fun h => hl ((hcond11_1 t).mp h)) (iblk11 V c 0 t) (iblk11 V c 1 t) (iblk11 V c 2 t) (outsAt11 V c (t.val - 1) (Nat.lt_of_le_of_lt (Nat.sub_le _ _) t.isLt)).2, sout11_B_0 c (grid11.coords t) (ms11_0 t) (hs11_0 t) (ms11_1 t) (hs11_1 t) (ms11_2 t) (hs11_2 t) (ms11_3 t) (hs11_3 t) scM11_0 (Memref.isWhole_whole _) (fun h => hz ((hcond11_0 t).mp h)) (fun h => hl ((hcond11_1 t).mp h)) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt11` at the last point: over what the point before left in the scratch. -/
theorem outsAt11_C (c : Dev nD) (t : Fin cfg11.N) (hz : ¬t.val % 20 = 0) (hl : t.val % 20 = 19) :
    outsAt11 V c t.val t.isLt = (out11_C_3 c (grid11.coords t) (ms11_0 t) (hs11_0 t) (ms11_1 t) (hs11_1 t) (ms11_2 t) (hs11_2 t) (ms11_3 t) (hs11_3 t) scM11_0 (Memref.isWhole_whole _) (fun h => hz ((hcond11_0 t).mp h)) ((hcond11_1 t).mpr hl) (iblk11 V c 0 t) (iblk11 V c 1 t) (iblk11 V c 2 t) (outsAt11 V c (t.val - 1) (Nat.lt_of_le_of_lt (Nat.sub_le _ _) t.isLt)).2, sout11_C_0 c (grid11.coords t) (ms11_0 t) (hs11_0 t) (ms11_1 t) (hs11_1 t) (ms11_2 t) (hs11_2 t) (ms11_3 t) (hs11_3 t) scM11_0 (Memref.isWhole_whole _) (fun h => hz ((hcond11_0 t).mp h)) ((hcond11_1 t).mpr hl) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut11 (c : Dev nD) : sProp 𝕄 :=
  Pipeline.scopedRestBut (Ix := Unit) (Name := ℕ) (U := UR sig nD τ) (Lvl := ℕ) (Val := Elt F) spec11 c [cc11_scratch0]

/-- The region invariant before position `n`: before the first point the class's (every scratch at anything);
    afterwards the carried scratch at what the point before left in it, the other scoped buffers unopened, and the
    random-number register at some state. -/
def PhiS11 (c : Dev nD) : (n : ℕ) → n ≤ cfg11.N → sProp 𝕄
  | 0, _ => Pipeline.ΦA spec11 c
  | n + 1, hn => iprop(iprop(owns (c : Thread nD τ) scM11_0 fullShare ((outsAt11 V c n hn).2) ∗ restBut11 (F := F) c) ∗ (∃ r, prngReg c r))

theorem PhiS11_zero (c : Dev nD) (n : ℕ) (h : n ≤ cfg11.N) (hfirst : n = 0) : PhiS11 V c n h = Pipeline.ΦA spec11 c := by
  subst hfirst; rfl

/-- After point `n` (before point `n + 1`): the carried scratch at that point's contents. -/
theorem PhiS11_succ (c : Dev nD) (n : ℕ) (hn : n < cfg11.N) :
    PhiS11 V c (n + 1) hn = iprop(iprop(owns (c : Thread nD τ) scM11_0 fullShare ((outsAt11 V c n hn).2) ∗ restBut11 (F := F) c) ∗ (∃ r, prngReg c r)) := rfl

/-- Before a point that is not the first: the carried scratch at what the point before left. -/
theorem PhiS11_pos (c : Dev nD) (n : ℕ) (h : n ≤ cfg11.N) (hfirst : n ≠ 0) :
    PhiS11 V c n h = iprop(iprop(owns (c : Thread nD τ) scM11_0 fullShare ((outsAt11 V c (n - 1) (by omega)).2) ∗ restBut11 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt11`'s first component; the invariant `PhiS11`; nothing owed;
    full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t.val t.isLt).1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

/-- The invariant at a point's start, restated at `t.val`. -/
theorem PhiS11_castSucc (c : Dev nD) (t : Fin cfg11.N) :
    (dat11 V c).Φ t.castSucc = PhiS11 V c t.val (Nat.le_of_lt t.isLt) := by
  dsimp only [dat11]; simp only [Fin.coe_castSucc]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = (outsAt11 V c t.val t.isLt).1 := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).owesAt () t.succ = (dat11 V c).owesAt () t.castSucc from rfl]
  rw [show (dat11 V c).Φ t.succ = PhiS11 V c (t.val + 1) t.isLt from rfl, PhiS11_succ]
  have hN : t.val < 20 := lt_of_lt_of_eq t.isLt (show cfg11.N = 20 from N_11)
  by_cases hz : t.val % 20 = 0
  · by_cases hl : t.val % 20 = 19
    · exfalso; omega
    · rw [show (dat11 V c).leavesExact 0 t = owns (c : Thread nD τ) (ms11_0 t) fullShare ((dat11 V c).after 0 t) from by
        unfold Dat.leavesExact; rw [liveAt11_0 t], after11_0]
      rw [show (dat11 V c).leavesExact 1 t = owns (c : Thread nD τ) (ms11_1 t) fullShare ((dat11 V c).after 1 t) from by
        unfold Dat.leavesExact; rw [liveAt11_1 t], after11_1]
      rw [show (dat11 V c).leavesExact 2 t = owns (c : Thread nD τ) (ms11_2 t) fullShare ((dat11 V c).after 2 t) from by
        unfold Dat.leavesExact; rw [liveAt11_2 t], after11_2]
      rw [Dat.leavesExact_idle (dat11 V c) 3 t (idleAt11_3_A t ((hcond11_0 t).mpr hz) (fun h => hl ((hcond11_1 t).mp h))) (noFlush11_3_A t ((hcond11_0 t).mpr hz) (fun h => hl ((hcond11_1 t).mp h)))]
      rw [outsAt11_A V c t hz hl]
      unfold sout11_A_0; (try dsimp only)
      by_cases hfirst : t.val = 0
      · rw [PhiS11_castSucc V c t, PhiS11_zero V c _ _ hfirst, PhiA11_eq]
        iintro ⟨⟨⟨HS, Hr⟩, Hg⟩, Ho, ⟨%dd, Hd⟩, ⟨%db, Hb⟩, ⟨%dn, Hn⟩, ⟨%dq, Hq⟩⟩
        iapply ((kernelRun11_A c (grid11.coords t) _ _ _ _ _ _ _ _ _ _ ((hcond11_0 t).mpr hz) (fun h => hl ((hcond11_1 t).mp h)) (iblk11 V c 0 t) (iblk11 V c 1 t) (iblk11 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover11_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS11_castSucc V c t, PhiS11_pos V c _ _ hfirst]
        iintro ⟨⟨⟨HS, Hr⟩, Hg⟩, Ho, ⟨%dd, Hd⟩, ⟨%db, Hb⟩, ⟨%dn, Hn⟩, ⟨%dq, Hq⟩⟩
        iapply ((kernelRun11_A c (grid11.coords t) _ _ _ _ _ _ _ _ _ _ ((hcond11_0 t).mpr hz) (fun h => hl ((hcond11_1 t).mp h)) (iblk11 V c 0 t) (iblk11 V c 1 t) (iblk11 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover11_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat11 V c).leavesExact 0 t = owns (c : Thread nD τ) (ms11_0 t) fullShare ((dat11 V c).after 0 t) from by
        unfold Dat.leavesExact; rw [liveAt11_0 t], after11_0]
      rw [show (dat11 V c).leavesExact 1 t = owns (c : Thread nD τ) (ms11_1 t) fullShare ((dat11 V c).after 1 t) from by
        unfold Dat.leavesExact; rw [liveAt11_1 t], after11_1]
      rw [show (dat11 V c).leavesExact 2 t = owns (c : Thread nD τ) (ms11_2 t) fullShare ((dat11 V c).after 2 t) from by
        unfold Dat.leavesExact; rw [liveAt11_2 t], after11_2]
      rw [show (dat11 V c).leavesExact 3 t = owns (c : Thread nD τ) (ms11_3 t) fullShare ((dat11 V c).after 3 t) from by
        unfold Dat.leavesExact; rw [liveAt11_3_C t (fun h => hz ((hcond11_0 t).mp h)) ((hcond11_1 t).mpr hl)], after11_3]
      rw [outsAt11_C V c t hz hl]
      unfold out11_C_3 sout11_C_0; (try dsimp only)
      by_cases hfirst : t.val = 0
      · exfalso; omega
      · rw [PhiS11_castSucc V c t, PhiS11_pos V c _ _ hfirst]
        iintro ⟨⟨⟨HS, Hr⟩, Hg⟩, Ho, ⟨%dd, Hd⟩, ⟨%db, Hb⟩, ⟨%dn, Hn⟩, ⟨%dq, Hq⟩⟩
        iapply ((kernelRun11_C c (grid11.coords t) _ _ _ _ _ _ _ _ _ _ (fun h => hz ((hcond11_0 t).mp h)) ((hcond11_1 t).mpr hl) (iblk11 V c 0 t) (iblk11 V c 1 t) (iblk11 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover11_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover11_C_3 c _ _ _ _ _ _ _ _ _ _ _ _ _ _ _ _ _)
    · rw [show (dat11 V c).leavesExact 0 t = owns (c : Thread nD τ) (ms11_0 t) fullShare ((dat11 V c).after 0 t) from by
        unfold Dat.leavesExact; rw [liveAt11_0 t], after11_0]
      rw [show (dat11 V c).leavesExact 1 t = owns (c : Thread nD τ) (ms11_1 t) fullShare ((dat11 V c).after 1 t) from by
        unfold Dat.leavesExact; rw [liveAt11_1 t], after11_1]
      rw [show (dat11 V c).leavesExact 2 t = owns (c : Thread nD τ) (ms11_2 t) fullShare ((dat11 V c).after 2 t) from by
        unfold Dat.leavesExact; rw [liveAt11_2 t], after11_2]
      rw [Dat.leavesExact_idle (dat11 V c) 3 t (idleAt11_3_B t (fun h => hz ((hcond11_0 t).mp h)) (fun h => hl ((hcond11_1 t).mp h))) (noFlush11_3_B t (fun h => hz ((hcond11_0 t).mp h)) (fun h => hl ((hcond11_1 t).mp h)))]
      rw [outsAt11_B V c t hz hl]
      unfold sout11_B_0; (try dsimp only)
      by_cases hfirst : t.val = 0
      · exfalso; omega
      · rw [PhiS11_castSucc V c t, PhiS11_pos V c _ _ hfirst]
        iintro ⟨⟨⟨HS, Hr⟩, Hg⟩, Ho, ⟨%dd, Hd⟩, ⟨%db, Hb⟩, ⟨%dn, Hn⟩, ⟨%dq, Hq⟩⟩
        iapply ((kernelRun11_B c (grid11.coords t) _ _ _ _ _ _ _ _ _ _ (fun h => hz ((hcond11_0 t).mp h)) (fun h => hl ((hcond11_1 t).mp h)) (iblk11 V c 0 t) (iblk11 V c 1 t) (iblk11 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover11_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After any point but the first the invariant gives the class's back: the carried scratch's named contents are forgotten. -/
theorem Phi_out11 (c : Dev nD) (t : Fin (cfg11.N + 1)) (ht : t.val ≠ 0) : (dat11 V c).Φ t ⊢ Pipeline.ΦA spec11 c := by
  rw [show (dat11 V c).Φ t = PhiS11 V c t.val (Nat.le_of_lt_succ t.isLt) from rfl, PhiS11_pos V c _ _ ht, PhiA11_eq]
  iintro ⟨⟨HS, Hr⟩, Hg⟩
  isplitl [HS Hr]
  · isplitl [HS]
    · iexists _; iexact HS
    iexact Hr
  iexact Hg

/-- The same after the last point. -/
theorem hout11 (c : Dev nD) : (dat11 V c).Φ (Fin.last cfg11.N) ⊢ Pipeline.ΦA spec11 c :=
  Phi_out11 V c _ (by rw [Fin.val_last]; have : cfg11.N = 20 := N_11; omega)

end

end Cert.Kernel.Hand

end
-- ==== Proof.Kernel.Reg12.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # The centring kernel's region, at the region-entry contents `V`

Three input windows (the aggregate's block, the gathered mean's block, the scale row) and two output windows
(the centred block, its elementwise square). -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is `V`'s (`hA`) and whose body leaves the block in place (`hafter`): unfetched, the block index
    has not moved; the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- The same for input window 1. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- The same for input window 2, whose block index is constant: it is fetched at the first point only, and every later
    point finds the same block. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

abbrev r12_0 : Rect S5000x64 := Rect.unit (s := S5000x64) ![0, 0] S5000x64.size inb_S5000x64_S5000x64_0_0
abbrev r12_1 : Rect S1x64 := Rect.unit (s := S1x64) ![0, 0] S1x64.size inb_S1x64_S1x64_0_0

/-! ## What the body leaves in each output window's buffer -/

/-- Window 3's staging buffer after the body, from the input windows' blocks: its one store as pieces, last first. -/
def out12_3 (x0 : Vec F S5000x64 .f32) (x1 : Vec F S5000x64 .f32) (x2 : Vec F S1x64 .f32) : Vec F S5000x64 .f32 :=
  View.canon [⟨r12_0, k12_pay1 (View.ld x0 r12_0) (View.ld x2 r12_1) (View.ld x1 r12_0)⟩]

/-- Window 4's staging buffer after the body, from the input windows' blocks: its one store as pieces, last first. -/
def out12_4 (x0 : Vec F S5000x64 .f32) (x1 : Vec F S5000x64 .f32) (x2 : Vec F S1x64 .f32) : Vec F S5000x64 .f32 :=
  View.canon [⟨r12_0, k12_pay2 (View.ld x0 r12_0) (View.ld x2 r12_1) (View.ld x1 r12_0)⟩]

/-- Window 3's store is the whole buffer, so it covers it. -/
theorem cover12_3 (p0 : Vec F S5000x64 .f32) (y : S5000x64.Idx) :
    ∃ pc ∈ ([⟨r12_0, p0⟩] : List (View.Piece (Elt F) S5000x64 .f32)), y ∈ pc.1.set :=
  View.cover_of_tiled [⟨r12_0, p0⟩] S5000x64.size (by rfl) y

/-- Window 4's store is the whole buffer, so it covers it. -/
theorem cover12_4 (p0 : Vec F S5000x64 .f32) (y : S5000x64.Idx) :
    ∃ pc ∈ ([⟨r12_0, p0⟩] : List (View.Piece (Elt F) S5000x64 .f32)), y ∈ pc.1.set :=
  View.cover_of_tiled [⟨r12_0, p0⟩] S5000x64.size (by rfl) y

/-! ## The body's triple -/

set_option maxHeartbeats 1000000 in
/-- The kernel body on whole staging memrefs, the inputs' at read contents and the outputs' at anything, runs to the
    continuation holding the inputs' as they were and each output's at its `out12_W` of the inputs'. -/
theorem sound_kernel12 (c : Dev nD) (E : Set ℕ) (i : grid12.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2) ∗ owns (c : Thread nD τ) arg5 fullShare (out12_4 x0 x1 x2)) -∗ K ⟨⟩))
      ⊢ wp frame (wpE (defs₀ (F := F)) Variants.none c none) E (cc12__center_kernel i arg1 harg1 arg2 harg2 arg3 harg3 arg4 harg4 arg5 harg5) K := by
  simp only [cc12__center_kernel_eq_skeleton]; unfold cc12__center_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover12_3 _)
  iexists _; isplitr
  swap; · iexact H4
  ipureintro
  exact View.read_writes_eq_canon _ _ _ (cover12_4 _)

/-! ## The pipeline's proof data -/

/-- The proof data of pipeline 2 on core `c`, at the region-entry contents `V`: the arrays as the region finds them;
    after the body at point `t` each input's buffer at its block and each output's at `out12_W` of the input blocks;
    the invariant is the scoped rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
    | ⟨4, _⟩ => out12_4 (iblk12 V c 0 t) (iblk12 V c 1 t) (iblk12 V c 2 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]
theorem after12_4 (c : Dev nD) (t : Fin cfg12.N) : (dat12 V c).after 4 t = out12_4 (iblk12 V c 0 t) (iblk12 V c 1 t) (iblk12 V c 2 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

/-- The body at any point: the inputs' memrefs hold their blocks (`before12_W`), so `sound_kernel12` applies; the
    invariant and the core's owed tokens pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ (grid12.coords t) _ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation12 (c : Dev nD) : BodyObligation (dat12 (F := F) V c) (defs₀ (F := F)) Variants.none () Set.univ := fun t => by
  rw [bigSep_W12, bigSep_W12]
  exact sound_body12 V c t

/-! ## Entering and leaving the region: the invariant is the class's at every point -/

theorem hin12 (c : Dev nD) : Pipeline.ΦA spec12 c ⊢ (dat12 V c).Φ 0 := by
  dsimp only [dat12]; exact .rfl

theorem hout12 (c : Dev nD) : (dat12 V c).Φ (Fin.last cfg12.N) ⊢ Pipeline.ΦA spec12 c := by
  dsimp only [dat12]; exact .rfl

end

end Cert.Kernel.Hand

end
-- ==== Proof.Kernel.Reg13Runs.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof
    data whose array is the entry contents (`hA`) and whose body leaves the block in place (`hafter`): unfetched,
    the block index has not moved. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for any proof
    data whose array is the entry contents (`hA`) and whose body leaves the block in place (`hafter`): unfetched,
    the block index has not moved. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for any proof
    data whose array is the entry contents (`hA`) and whose body leaves the block in place (`hafter`): unfetched,
    the block index has not moved. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

end

/-! ## The body's branch conditions -/

/-- The condition of the body's first conditional, from the grid coordinates: the point is the first of the grid. -/
abbrev cond13_0 (i : grid13.Coords) : Prop := (Scalar.cmpi .ne (Scalar.extui (Scalar.cmpi .eq (BitVec.ofNat 32 (i 0).val) 0#32)) 0#32) = 1#1
/-- It holds at the points ≡ 0 (mod 20): decided over the grid. -/
theorem hcond13_0 : ∀ t : Fin cfg13.N, cond13_0 (grid13.coords t) ↔ t.val % 20 = 0 :=
  (by decide +kernel : ∀ t : Fin grid13.N, cond13_0 (grid13.coords t) ↔ t.val % 20 = 0)

/-- The condition of the body's second conditional, from the grid coordinates: the point is the last of the grid. -/
abbrev cond13_1 (i : grid13.Coords) : Prop := k13_cond2 i = 1#1
/-- It holds at the points ≡ 19 (mod 20): decided over the grid. -/
theorem hcond13_1 : ∀ t : Fin cfg13.N, cond13_1 (grid13.coords t) ↔ t.val % 20 = 19 :=
  (by decide +kernel : ∀ t : Fin grid13.N, cond13_1 (grid13.coords t) ↔ t.val % 20 = 19)

/-! ## Where the windows are idle -/

/-- The inputs are never idle. -/
theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel
/-- At the first point the output is idle (nothing is stored into it) and is not written back. -/
theorem idleAt13_3_A : ∀ t : Fin cfg13.N, cond13_0 (grid13.coords t) → ¬cond13_1 (grid13.coords t) → cfg13.idle 3 (grid13.coords t) = true := by decide +kernel
theorem noFlush13_3_A : ∀ t : Fin cfg13.N, cond13_0 (grid13.coords t) → ¬cond13_1 (grid13.coords t) → (cfg13.win 3).flush t = false := by decide +kernel
/-- At the middle points likewise. -/
theorem idleAt13_3_B : ∀ t : Fin cfg13.N, ¬cond13_0 (grid13.coords t) → ¬cond13_1 (grid13.coords t) → cfg13.idle 3 (grid13.coords t) = true := by decide +kernel
theorem noFlush13_3_B : ∀ t : Fin cfg13.N, ¬cond13_0 (grid13.coords t) → ¬cond13_1 (grid13.coords t) → (cfg13.win 3).flush t = false := by decide +kernel
/-- At the last point the output is live: the body stores into it. -/
theorem liveAt13_3_C : ∀ t : Fin cfg13.N, ¬cond13_0 (grid13.coords t) → cond13_1 (grid13.coords t) → cfg13.idle 3 (grid13.coords t) = false := by decide +kernel

/-! ## The staging memrefs and the scratch -/

/-- One staging buffer of the output window, through which its contents are stated. -/
abbrev VO13_3 : View sig .tc .vmem S256x64 .f32 := (Memref.whole cc13_stg3_0 : Memref sig .tc .vmem S256x64 .f32).view
/-- Each window's current staging memref at point `t`, as the pipeline passes it, and its wholeness. -/
abbrev ms13_0 (t : Fin cfg13.N) : Memref sig .tc .vmem S5000x64 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S5000x1 .i32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S256x1 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S256x64 .f32 := win13_3.stage (cfg13.slots t 3)
abbrev hs13_3 (t : Fin cfg13.N) : (ms13_3 t).IsWhole := hstage13_3 ((cfg13.slots t 3).cast nbuf13_3)
/-- The scratch operand: a whole scoped buffer of the kernel's own, passed beside the windows. -/
abbrev scM13_0 : Memref sig .tc .vmem S256x64 .f32 := Memref.whole cc13_scratch0
/-- The scratch the kernel carries between points, as a view. -/
abbrev VS13_0 : View sig .tc .vmem S256x64 .f32 := scM13_0.view

/-- The region invariant with the scratch operand as a memref owned at some contents, the other scoped buffers
    unopened beside it, and the generator register at some state. -/
theorem PhiA13_eq (c : Dev nD) :
    (Pipeline.ΦA spec13 c : sProp 𝕄)
      = iprop(iprop(iprop((∃ d, owns (c : Thread nD τ) scM13_0 fullShare d))
          ∗ Pipeline.scopedRestBut (Ix := Unit) (Name := ℕ) (U := UR sig nD τ) (Lvl := ℕ) (Val := Elt F) spec13 c [cc13_scratch0]) ∗ (∃ r, prngReg c r)) := by
  unfold Pipeline.ΦA; rw [scopedRest13_split]; simp only [scM13_0, owns_whole]; try rfl

end Cert.Kernel.Hand

end
-- ==== Proof.Kernel.Reg13RunA.lean ====
import proofs.«422469_j24000277250640_1_alg».proof.Proof.Kernel.Reg13Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun13_A (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond13_0 i) (hcl : ¬cond13_1 i)
    (xd : Vec F S5000x64 .f32) (xb : Vec F S5000x1 .i32) (xn : Vec F S256x1 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc13__reduce_div_kernel i arg1 harg1 arg2 harg2 arg3 harg3 arg4 harg4 arg5 harg5) K } := by
  refine ⟨[], ?_, fun xi E K => ?run⟩
  case run =>
    simp only [cc13__reduce_div_kernel_eq_skeleton]; unfold cc13__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg13RunB.lean ====
import proofs.«422469_j24000277250640_1_alg».proof.Proof.Kernel.Reg13RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun13_B (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : ¬cond13_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc13__reduce_div_kernel i arg1 harg1 arg2 harg2 arg3 harg3 arg4 harg4 arg5 harg5) K } := by
  refine ⟨[], ?_, fun xi E K => ?run⟩
  case run =>
    simp only [cc13__reduce_div_kernel_eq_skeleton]; unfold cc13__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg13RunC.lean ====
import proofs.«422469_j24000277250640_1_alg».proof.Proof.Kernel.Reg13RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun13_C (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : cond13_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc13__reduce_div_kernel i arg1 harg1 arg2 harg2 arg3 harg3 arg4 harg4 arg5 harg5) K } := by
  refine ⟨?_, ?_, fun E K => ?run⟩
  case run =>
    simp only [cc13__reduce_div_kernel_eq_skeleton]; unfold cc13__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.Kernel.Hand

end
-- ==== Proof.Kernel.Reg13.lean ====
import proofs.«422469_j24000277250640_1_alg».proof.Proof.Kernel.Reg13RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out13_A_3 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond13_0 i) (hcl : ¬cond13_1 i)
    (xd : Vec F S5000x64 .f32) (xb : Vec F S5000x1 .i32) (xn : Vec F S256x1 .f32) : Vec F S256x64 .f32 :=
  VO13_3.read (Elt F) (VO13_3.writes (Elt F) VO13_3.junk (kernelRun13_A c i arg1 harg1 arg2 harg2 arg3 harg3 arg4 harg4 arg5 harg5 hcz hcl xd xb xn).1)

/-- The pieces stored into the carried scratch tile it, so they cover it. -/
theorem scover13_A_0 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond13_0 i) (hcl : ¬cond13_1 i)
    (xd : Vec F S5000x64 .f32) (xb : Vec F S5000x1 .i32) (xn : Vec F S256x1 .f32) (y : S256x64.Idx) :
    ∃ pc ∈ (kernelRun13_A c i arg1 harg1 arg2 harg2 arg3 harg3 arg4 harg4 arg5 harg5 hcz hcl xd xb xn).2.1, y ∈ pc.1.set :=
  View.cover_of_tiledL (kernelRun13_A c i arg1 harg1 arg2 harg2 arg3 harg3 arg4 harg4 arg5 harg5 hcz hcl xd xb xn).2.1 S256x64.size (by sl_kernel_rfl) y

/-- What this case leaves in the carried scratch: its pieces read back over junk. -/
def sout13_A_0 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond13_0 i) (hcl : ¬cond13_1 i)
    (xd : Vec F S5000x64 .f32) (xb : Vec F S5000x1 .i32) (xn : Vec F S256x1 .f32) : Vec F S256x64 .f32 :=
  VS13_0.read (Elt F) (VS13_0.writes (Elt F) VS13_0.junk (kernelRun13_A c i arg1 harg1 arg2 harg2 arg3 harg3 arg4 harg4 arg5 harg5 hcz hcl xd xb xn).2.1)

/-- Nothing is stored into the output window here (it is idle and not written back): no pieces, a placeholder
    that nothing consults. -/
def out13_B_3 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : ¬cond13_1 i)
    (xd : Vec F S5000x64 .f32) (xb : Vec F S5000x1 .i32) (xn : Vec F S256x1 .f32) (xs : Vec F S256x64 .f32) : Vec F S256x64 .f32 :=
  VO13_3.read (Elt F) (VO13_3.writes (Elt F) VO13_3.junk (kernelRun13_B c i arg1 harg1 arg2 harg2 arg3 harg3 arg4 harg4 arg5 harg5 hcz hcl xd xb xn xs).1)

/-- The pieces stored into the carried scratch tile it, so they cover it. -/
theorem scover13_B_0 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : ¬cond13_1 i)
    (xd : Vec F S5000x64 .f32) (xb : Vec F S5000x1 .i32) (xn : Vec F S256x1 .f32) (xs : Vec F S256x64 .f32) (y : S256x64.Idx) :
    ∃ pc ∈ (kernelRun13_B c i arg1 harg1 arg2 harg2 arg3 harg3 arg4 harg4 arg5 harg5 hcz hcl xd xb xn xs).2.1, y ∈ pc.1.set :=
  View.cover_of_tiledL (kernelRun13_B c i arg1 harg1 arg2 harg2 arg3 harg3 arg4 harg4 arg5 harg5 hcz hcl xd xb xn xs).2.1 S256x64.size (by sl_kernel_rfl) y

/-- What this case leaves in the carried scratch: its pieces read back over junk. -/
def sout13_B_0 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : ¬cond13_1 i)
    (xd : Vec F S5000x64 .f32) (xb : Vec F S5000x1 .i32) (xn : Vec F S256x1 .f32) (xs : Vec F S256x64 .f32) : Vec F S256x64 .f32 :=
  VS13_0.read (Elt F) (VS13_0.writes (Elt F) VS13_0.junk (kernelRun13_B c i arg1 harg1 arg2 harg2 arg3 harg3 arg4 harg4 arg5 harg5 hcz hcl xd xb xn xs).2.1)

/-- The pieces stored into the output window tile its block, so they cover it. -/
theorem cover13_C_3 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : cond13_1 i)
    (xd : Vec F S5000x64 .f32) (xb : Vec F S5000x1 .i32) (xn : Vec F S256x1 .f32) (xs : Vec F S256x64 .f32) (y : S256x64.Idx) :
    ∃ pc ∈ (kernelRun13_C c i arg1 harg1 arg2 harg2 arg3 harg3 arg4 harg4 arg5 harg5 hcz hcl xd xb xn xs).1, y ∈ pc.1.set :=
  View.cover_of_tiledL (kernelRun13_C c i arg1 harg1 arg2 harg2 arg3 harg3 arg4 harg4 arg5 harg5 hcz hcl xd xb xn xs).1 S256x64.size (by sl_kernel_rfl) y

/-- What this case leaves in the output's staging buffer: its pieces read back over junk. -/
def out13_C_3 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : cond13_1 i)
    (xd : Vec F S5000x64 .f32) (xb : Vec F S5000x1 .i32) (xn : Vec F S256x1 .f32) (xs : Vec F S256x64 .f32) : Vec F S256x64 .f32 :=
  VO13_3.read (Elt F) (VO13_3.writes (Elt F) VO13_3.junk (kernelRun13_C c i arg1 harg1 arg2 harg2 arg3 harg3 arg4 harg4 arg5 harg5 hcz hcl xd xb xn xs).1)

/-- The pieces stored into the carried scratch tile it, so they cover it. -/
theorem scover13_C_0 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : cond13_1 i)
    (xd : Vec F S5000x64 .f32) (xb : Vec F S5000x1 .i32) (xn : Vec F S256x1 .f32) (xs : Vec F S256x64 .f32) (y : S256x64.Idx) :
    ∃ pc ∈ (kernelRun13_C c i arg1 harg1 arg2 harg2 arg3 harg3 arg4 harg4 arg5 harg5 hcz hcl xd xb xn xs).2.1, y ∈ pc.1.set :=
  View.cover_of_tiledL (kernelRun13_C c i arg1 harg1 arg2 harg2 arg3 harg3 arg4 harg4 arg5 harg5 hcz hcl xd xb xn xs).2.1 S256x64.size (by sl_kernel_rfl) y

/-- What this case leaves in the carried scratch: its pieces read back over junk. -/
def sout13_C_0 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : cond13_1 i)
    (xd : Vec F S5000x64 .f32) (xb : Vec F S5000x1 .i32) (xn : Vec F S256x1 .f32) (xs : Vec F S256x64 .f32) : Vec F S256x64 .f32 :=
  VS13_0.read (Elt F) (VS13_0.writes (Elt F) VS13_0.junk (kernelRun13_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt13 (c : Dev nD) : (n : ℕ) → n < cfg13.N → Vec F S256x64 .f32 × Vec F S256x64 .f32
  | 0, hn => (out13_A_3 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) scM13_0 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩), sout13_A_0 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) scM13_0 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩))
  | n + 1, hn =>
    if hz : (n + 1) % 20 = 0 then
      if hl : (n + 1) % 20 = 19 then
        False.elim (by have hN : n + 1 < 20 := lt_of_lt_of_eq hn (show cfg13.N = 20 from N_13); omega)
      else
        (out13_A_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) ((hcond13_0 ⟨n + 1, hn⟩).mpr hz) (fun h => hl ((hcond13_1 ⟨n + 1, hn⟩).mp h)) (iblk13 V c 0 ⟨n + 1, hn⟩) (iblk13 V c 1 ⟨n + 1, hn⟩) (iblk13 V c 2 ⟨n + 1, hn⟩), sout13_A_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) ((hcond13_0 ⟨n + 1, hn⟩).mpr hz) (fun h => hl ((hcond13_1 ⟨n + 1, hn⟩).mp h)) (iblk13 V c 0 ⟨n + 1, hn⟩) (iblk13 V c 1 ⟨n + 1, hn⟩) (iblk13 V c 2 ⟨n + 1, hn⟩))
    else
      if hl : (n + 1) % 20 = 19 then
        (out13_C_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => hz ((hcond13_0 ⟨n + 1, hn⟩).mp h)) ((hcond13_1 ⟨n + 1, hn⟩).mpr hl) (iblk13 V c 0 ⟨n + 1, hn⟩) (iblk13 V c 1 ⟨n + 1, hn⟩) (iblk13 V c 2 ⟨n + 1, hn⟩) (outsAt13 c n (Nat.lt_of_succ_lt hn)).2, sout13_C_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => hz ((hcond13_0 ⟨n + 1, hn⟩).mp h)) ((hcond13_1 ⟨n + 1, hn⟩).mpr hl) (iblk13 V c 0 ⟨n + 1, hn⟩) (iblk13 V c 1 ⟨n + 1, hn⟩) (iblk13 V c 2 ⟨n + 1, hn⟩) (outsAt13 c n (Nat.lt_of_succ_lt hn)).2)
      else
        (out13_B_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => hz ((hcond13_0 ⟨n + 1, hn⟩).mp h)) (fun h => hl ((hcond13_1 ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2, sout13_B_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => hz ((hcond13_0 ⟨n + 1, hn⟩).mp h)) (fun h => hl ((hcond13_1 ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2)

/-- `outsAt13` at the first point. -/
theorem outsAt13_A (c : Dev nD) (t : Fin cfg13.N) (hz : t.val % 20 = 0) (hl : ¬t.val % 20 = 19) :
    outsAt13 V c t.val t.isLt = (out13_A_3 c (grid13.coords t) (ms13_0 t) (hs13_0 t) (ms13_1 t) (hs13_1 t) (ms13_2 t) (hs13_2 t) (ms13_3 t) (hs13_3 t) scM13_0 (Memref.isWhole_whole _) ((hcond13_0 t).mpr hz) (fun h => hl ((hcond13_1 t).mp h)) (iblk13 V c 0 t) (iblk13 V c 1 t) (iblk13 V c 2 t), sout13_A_0 c (grid13.coords t) (ms13_0 t) (hs13_0 t) (ms13_1 t) (hs13_1 t) (ms13_2 t) (hs13_2 t) (ms13_3 t) (hs13_3 t) scM13_0 (Memref.isWhole_whole _) ((hcond13_0 t).mpr hz) (fun h => hl ((hcond13_1 t).mp h)) (iblk13 V c 0 t) (iblk13 V c 1 t) (iblk13 V c 2 t)) := by
  obtain ⟨n, hn⟩ := t
  cases n with
  | zero => exact rfl
  | succ n => exact (dif_pos hz).trans ((dif_neg hl).trans rfl)

/-- `outsAt13` at a middle point: over what the point before left in the scratch. -/
theorem outsAt13_B (c : Dev nD) (t : Fin cfg13.N) (hz : ¬t.val % 20 = 0) (hl : ¬t.val % 20 = 19) :
    outsAt13 V c t.val t.isLt = (out13_B_3 c (grid13.coords t) (ms13_0 t) (hs13_0 t) (ms13_1 t) (hs13_1 t) (ms13_2 t) (hs13_2 t) (ms13_3 t) (hs13_3 t) scM13_0 (Memref.isWhole_whole _) (fun h => hz ((hcond13_0 t).mp h)) (fun h => hl ((hcond13_1 t).mp h)) (iblk13 V c 0 t) (iblk13 V c 1 t) (iblk13 V c 2 t) (outsAt13 V c (t.val - 1) (Nat.lt_of_le_of_lt (Nat.sub_le _ _) t.isLt)).2, sout13_B_0 c (grid13.coords t) (ms13_0 t) (hs13_0 t) (ms13_1 t) (hs13_1 t) (ms13_2 t) (hs13_2 t) (ms13_3 t) (hs13_3 t) scM13_0 (Memref.isWhole_whole _) (fun h => hz ((hcond13_0 t).mp h)) (fun h => hl ((hcond13_1 t).mp h)) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt13` at the last point: over what the point before left in the scratch. -/
theorem outsAt13_C (c : Dev nD) (t : Fin cfg13.N) (hz : ¬t.val % 20 = 0) (hl : t.val % 20 = 19) :
    outsAt13 V c t.val t.isLt = (out13_C_3 c (grid13.coords t) (ms13_0 t) (hs13_0 t) (ms13_1 t) (hs13_1 t) (ms13_2 t) (hs13_2 t) (ms13_3 t) (hs13_3 t) scM13_0 (Memref.isWhole_whole _) (fun h => hz ((hcond13_0 t).mp h)) ((hcond13_1 t).mpr hl) (iblk13 V c 0 t) (iblk13 V c 1 t) (iblk13 V c 2 t) (outsAt13 V c (t.val - 1) (Nat.lt_of_le_of_lt (Nat.sub_le _ _) t.isLt)).2, sout13_C_0 c (grid13.coords t) (ms13_0 t) (hs13_0 t) (ms13_1 t) (hs13_1 t) (ms13_2 t) (hs13_2 t) (ms13_3 t) (hs13_3 t) scM13_0 (Memref.isWhole_whole _) (fun h => hz ((hcond13_0 t).mp h)) ((hcond13_1 t).mpr hl) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut13 (c : Dev nD) : sProp 𝕄 :=
  Pipeline.scopedRestBut (Ix := Unit) (Name := ℕ) (U := UR sig nD τ) (Lvl := ℕ) (Val := Elt F) spec13 c [cc13_scratch0]

/-- The region invariant before position `n`: before the first point the class's (every scratch at anything);
    afterwards the carried scratch at what the point before left in it, the other scoped buffers unopened, and the
    random-number register at some state. -/
def PhiS13 (c : Dev nD) : (n : ℕ) → n ≤ cfg13.N → sProp 𝕄
  | 0, _ => Pipeline.ΦA spec13 c
  | n + 1, hn => iprop(iprop(owns (c : Thread nD τ) scM13_0 fullShare ((outsAt13 V c n hn).2) ∗ restBut13 (F := F) c) ∗ (∃ r, prngReg c r))

theorem PhiS13_zero (c : Dev nD) (n : ℕ) (h : n ≤ cfg13.N) (hfirst : n = 0) : PhiS13 V c n h = Pipeline.ΦA spec13 c := by
  subst hfirst; rfl

/-- After point `n` (before point `n + 1`): the carried scratch at that point's contents. -/
theorem PhiS13_succ (c : Dev nD) (n : ℕ) (hn : n < cfg13.N) :
    PhiS13 V c (n + 1) hn = iprop(iprop(owns (c : Thread nD τ) scM13_0 fullShare ((outsAt13 V c n hn).2) ∗ restBut13 (F := F) c) ∗ (∃ r, prngReg c r)) := rfl

/-- Before a point that is not the first: the carried scratch at what the point before left. -/
theorem PhiS13_pos (c : Dev nD) (n : ℕ) (h : n ≤ cfg13.N) (hfirst : n ≠ 0) :
    PhiS13 V c n h = iprop(iprop(owns (c : Thread nD τ) scM13_0 fullShare ((outsAt13 V c (n - 1) (by omega)).2) ∗ restBut13 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt13`'s first component; the invariant `PhiS13`; nothing owed;
    full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]

/-- The invariant at a point's start, restated at `t.val`. -/
theorem PhiS13_castSucc (c : Dev nD) (t : Fin cfg13.N) :
    (dat13 V c).Φ t.castSucc = PhiS13 V c t.val (Nat.le_of_lt t.isLt) := by
  dsimp only [dat13]; simp only [Fin.coe_castSucc]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).owesAt () t.succ = (dat13 V c).owesAt () t.castSucc from rfl]
  rw [show (dat13 V c).Φ t.succ = PhiS13 V c (t.val + 1) t.isLt from rfl, PhiS13_succ]
  have hN : t.val < 20 := lt_of_lt_of_eq t.isLt (show cfg13.N = 20 from N_13)
  by_cases hz : t.val % 20 = 0
  · by_cases hl : t.val % 20 = 19
    · exfalso; omega
    · rw [show (dat13 V c).leavesExact 0 t = owns (c : Thread nD τ) (ms13_0 t) fullShare ((dat13 V c).after 0 t) from by
        unfold Dat.leavesExact; rw [liveAt13_0 t], after13_0]
      rw [show (dat13 V c).leavesExact 1 t = owns (c : Thread nD τ) (ms13_1 t) fullShare ((dat13 V c).after 1 t) from by
        unfold Dat.leavesExact; rw [liveAt13_1 t], after13_1]
      rw [show (dat13 V c).leavesExact 2 t = owns (c : Thread nD τ) (ms13_2 t) fullShare ((dat13 V c).after 2 t) from by
        unfold Dat.leavesExact; rw [liveAt13_2 t], after13_2]
      rw [Dat.leavesExact_idle (dat13 V c) 3 t (idleAt13_3_A t ((hcond13_0 t).mpr hz) (fun h => hl ((hcond13_1 t).mp h))) (noFlush13_3_A t ((hcond13_0 t).mpr hz) (fun h => hl ((hcond13_1 t).mp h)))]
      rw [outsAt13_A V c t hz hl]
      unfold sout13_A_0; (try dsimp only)
      by_cases hfirst : t.val = 0
      · rw [PhiS13_castSucc V c t, PhiS13_zero V c _ _ hfirst, PhiA13_eq]
        iintro ⟨⟨⟨HS, Hr⟩, Hg⟩, Ho, ⟨%dd, Hd⟩, ⟨%db, Hb⟩, ⟨%dn, Hn⟩, ⟨%dq, Hq⟩⟩
        iapply ((kernelRun13_A c (grid13.coords t) _ _ _ _ _ _ _ _ _ _ ((hcond13_0 t).mpr hz) (fun h => hl ((hcond13_1 t).mp h)) (iblk13 V c 0 t) (iblk13 V c 1 t) (iblk13 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover13_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS13_castSucc V c t, PhiS13_pos V c _ _ hfirst]
        iintro ⟨⟨⟨HS, Hr⟩, Hg⟩, Ho, ⟨%dd, Hd⟩, ⟨%db, Hb⟩, ⟨%dn, Hn⟩, ⟨%dq, Hq⟩⟩
        iapply ((kernelRun13_A c (grid13.coords t) _ _ _ _ _ _ _ _ _ _ ((hcond13_0 t).mpr hz) (fun h => hl ((hcond13_1 t).mp h)) (iblk13 V c 0 t) (iblk13 V c 1 t) (iblk13 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover13_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat13 V c).leavesExact 0 t = owns (c : Thread nD τ) (ms13_0 t) fullShare ((dat13 V c).after 0 t) from by
        unfold Dat.leavesExact; rw [liveAt13_0 t], after13_0]
      rw [show (dat13 V c).leavesExact 1 t = owns (c : Thread nD τ) (ms13_1 t) fullShare ((dat13 V c).after 1 t) from by
        unfold Dat.leavesExact; rw [liveAt13_1 t], after13_1]
      rw [show (dat13 V c).leavesExact 2 t = owns (c : Thread nD τ) (ms13_2 t) fullShare ((dat13 V c).after 2 t) from by
        unfold Dat.leavesExact; rw [liveAt13_2 t], after13_2]
      rw [show (dat13 V c).leavesExact 3 t = owns (c : Thread nD τ) (ms13_3 t) fullShare ((dat13 V c).after 3 t) from by
        unfold Dat.leavesExact; rw [liveAt13_3_C t (fun h => hz ((hcond13_0 t).mp h)) ((hcond13_1 t).mpr hl)], after13_3]
      rw [outsAt13_C V c t hz hl]
      unfold out13_C_3 sout13_C_0; (try dsimp only)
      by_cases hfirst : t.val = 0
      · exfalso; omega
      · rw [PhiS13_castSucc V c t, PhiS13_pos V c _ _ hfirst]
        iintro ⟨⟨⟨HS, Hr⟩, Hg⟩, Ho, ⟨%dd, Hd⟩, ⟨%db, Hb⟩, ⟨%dn, Hn⟩, ⟨%dq, Hq⟩⟩
        iapply ((kernelRun13_C c (grid13.coords t) _ _ _ _ _ _ _ _ _ _ (fun h => hz ((hcond13_0 t).mp h)) ((hcond13_1 t).mpr hl) (iblk13 V c 0 t) (iblk13 V c 1 t) (iblk13 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover13_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover13_C_3 c _ _ _ _ _ _ _ _ _ _ _ _ _ _ _ _ _)
    · rw [show (dat13 V c).leavesExact 0 t = owns (c : Thread nD τ) (ms13_0 t) fullShare ((dat13 V c).after 0 t) from by
        unfold Dat.leavesExact; rw [liveAt13_0 t], after13_0]
      rw [show (dat13 V c).leavesExact 1 t = owns (c : Thread nD τ) (ms13_1 t) fullShare ((dat13 V c).after 1 t) from by
        unfold Dat.leavesExact; rw [liveAt13_1 t], after13_1]
      rw [show (dat13 V c).leavesExact 2 t = owns (c : Thread nD τ) (ms13_2 t) fullShare ((dat13 V c).after 2 t) from by
        unfold Dat.leavesExact; rw [liveAt13_2 t], after13_2]
      rw [Dat.leavesExact_idle (dat13 V c) 3 t (idleAt13_3_B t (fun h => hz ((hcond13_0 t).mp h)) (fun h => hl ((hcond13_1 t).mp h))) (noFlush13_3_B t (fun h => hz ((hcond13_0 t).mp h)) (fun h => hl ((hcond13_1 t).mp h)))]
      rw [outsAt13_B V c t hz hl]
      unfold sout13_B_0; (try dsimp only)
      by_cases hfirst : t.val = 0
      · exfalso; omega
      · rw [PhiS13_castSucc V c t, PhiS13_pos V c _ _ hfirst]
        iintro ⟨⟨⟨HS, Hr⟩, Hg⟩, Ho, ⟨%dd, Hd⟩, ⟨%db, Hb⟩, ⟨%dn, Hn⟩, ⟨%dq, Hq⟩⟩
        iapply ((kernelRun13_B c (grid13.coords t) _ _ _ _ _ _ _ _ _ _ (fun h => hz ((hcond13_0 t).mp h)) (fun h => hl ((hcond13_1 t).mp h)) (iblk13 V c 0 t) (iblk13 V c 1 t) (iblk13 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover13_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After any point but the first the invariant gives the class's back: the carried scratch's named contents are forgotten. -/
theorem Phi_out13 (c : Dev nD) (t : Fin (cfg13.N + 1)) (ht : t.val ≠ 0) : (dat13 V c).Φ t ⊢ Pipeline.ΦA spec13 c := by
  rw [show (dat13 V c).Φ t = PhiS13 V c t.val (Nat.le_of_lt_succ t.isLt) from rfl, PhiS13_pos V c _ _ ht, PhiA13_eq]
  iintro ⟨⟨HS, Hr⟩, Hg⟩
  isplitl [HS Hr]
  · isplitl [HS]
    · iexists _; iexact HS
    iexact Hr
  iexact Hg

/-- The same after the last point. -/
theorem hout13 (c : Dev nD) : (dat13 V c).Φ (Fin.last cfg13.N) ⊢ Pipeline.ΦA spec13 c :=
  Phi_out13 V c _ (by rw [Fin.val_last]; have : cfg13.N = 20 := N_13; omega)

end

end Cert.Kernel.Hand

end
-- ==== Proof.Kernel.Reg14.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # The scale, shift and rectify kernel's region, at the region-entry contents `V`

Four input windows (the centred block, the gathered variance's block, the scale row, the shift row) and one output
window (the normalised, rectified block). -/

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s (`hA`) and whose body leaves the block in place (`hafter`): unfetched, the block index
    has not moved; the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- The same for input window 1. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- The same for input window 2, whose block index is constant: it is fetched at the first point only, and every later
    point finds the same block. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
/-- The same for input window 3, of constant block index too. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

abbrev r14_0 : Rect S5000x64 := Rect.unit (s := S5000x64) ![0, 0] S5000x64.size inb_S5000x64_S5000x64_0_0
abbrev r14_1 : Rect S1x64 := Rect.unit (s := S1x64) ![0, 0] S1x64.size inb_S1x64_S1x64_0_0

/-! ## What the body leaves in the output window's buffer -/

/-- Window 4's staging buffer after the body, from the input windows' blocks: its one store as pieces, last first. -/
def out14_4 (x0 : Vec F S5000x64 .f32) (x1 : Vec F S5000x64 .f32) (x2 : Vec F S1x64 .f32) (x3 : Vec F S1x64 .f32) : Vec F S5000x64 .f32 :=
  View.canon [⟨r14_0, k14_pay1 (View.ld x1 r14_0) (View.ld x2 r14_1) (View.ld x0 r14_0) (View.ld x3 r14_1)⟩]

/-- Window 4's store is the whole buffer, so it covers it. -/
theorem cover14_4 (p0 : Vec F S5000x64 .f32) (y : S5000x64.Idx) :
    ∃ pc ∈ ([⟨r14_0, p0⟩] : List (View.Piece (Elt F) S5000x64 .f32)), y ∈ pc.1.set :=
  View.cover_of_tiled [⟨r14_0, p0⟩] S5000x64.size (by rfl) y

/-! ## The body's triple -/

set_option maxHeartbeats 1000000 in
/-- The kernel body on whole staging memrefs, the inputs' at read contents and the output's at anything, runs to the
    continuation holding the inputs' as they were and the output's at `out14_4` of the inputs'. -/
theorem sound_kernel14 (c : Dev nD) (E : Set ℕ) (i : grid14.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out14_4 x0 x1 x2 x3)) -∗ K ⟨⟩))
      ⊢ wp frame (wpE (defs₀ (F := F)) Variants.none c none) E (cc14__ssr_kernel i arg1 harg1 arg2 harg2 arg3 harg3 arg4 harg4 arg5 harg5) K := by
  simp only [cc14__ssr_kernel_eq_skeleton]; unfold cc14__ssr_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover14_4 _)

/-! ## The pipeline's proof data -/

/-- The proof data of pipeline 4 on core `c`, at the region-entry contents `V`: the arrays as the region finds them;
    after the body at point `t` each input's buffer at its block and the output's at `out14_4` of the input blocks;
    the invariant is the scoped rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => out14_4 (iblk14 V c 0 t) (iblk14 V c 1 t) (iblk14 V c 2 t) (iblk14 V c 3 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = out14_4 (iblk14 V c 0 t) (iblk14 V c 1 t) (iblk14 V c 2 t) (iblk14 V c 3 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t))

/-- The body at any point: the inputs' memrefs hold their blocks (`before14_W`), so `sound_kernel14` applies; the
    invariant and the core's owed tokens pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3]
  rw [show (dat14 V c).Φ t.succ = (dat14 V c).Φ t.castSucc from rfl,
    show (dat14 V c).owesAt () t.succ = (dat14 V c).owesAt () t.castSucc from rfl,
    after14_0, after14_1, after14_2, after14_3, after14_4]
  iintro ⟨HΦ, Ho, ⟨%d0, H0⟩, ⟨%d1, H1⟩, ⟨%d2, H2⟩, ⟨%d3, H3⟩, ⟨%d4, H4⟩⟩
  iapply (sound_kernel14 c Set.univ (grid14.coords t) _ _ _ _ _ _ _ _ _ _ (iblk14 V c 0 t) (iblk14 V c 1 t) (iblk14 V c 2 t) (iblk14 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation14 (c : Dev nD) : BodyObligation (dat14 (F := F) V c) (defs₀ (F := F)) Variants.none () Set.univ := fun t => by
  rw [bigSep_W14, bigSep_W14]
  exact sound_body14 V c t

/-! ## Entering and leaving the region: the invariant is the class's at every point -/

theorem hin14 (c : Dev nD) : Pipeline.ΦA spec14 c ⊢ (dat14 V c).Φ 0 := by
  dsimp only [dat14]; exact .rfl

theorem hout14 (c : Dev nD) : (dat14 V c).Φ (Fin.last cfg14.N) ⊢ Pipeline.ΦA spec14 c := by
  dsimp only [dat14]; exact .rfl

end

end Cert.Kernel.Hand

end
-- ==== Proof.Kernel.Reg15Runs.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's current staging buffer holds its block at every point, fetched there or not, for any proof
    data whose array is the entry contents (`hA`) and whose body leaves the block in place (`hafter`): unfetched,
    the block index has not moved. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1's current staging buffer holds its block at every point, fetched there or not, for any proof
    data whose array is the entry contents (`hA`) and whose body leaves the block in place (`hafter`): unfetched,
    the block index has not moved. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- Input window 2's current staging buffer holds its block at every point, fetched there or not, for any proof
    data whose array is the entry contents (`hA`) and whose body leaves the block in place (`hafter`): unfetched,
    the block index has not moved. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

end

/-! ## The body's branch conditions -/

/-- The condition of the body's first conditional, from the grid coordinates: the point is the first of the grid. -/
abbrev cond15_0 (i : grid15.Coords) : Prop := (Scalar.cmpi .ne (Scalar.extui (Scalar.cmpi .eq (BitVec.ofNat 32 (i 0).val) 0#32)) 0#32) = 1#1
/-- It holds at the points ≡ 0 (mod 20): decided over the grid. -/
theorem hcond15_0 : ∀ t : Fin cfg15.N, cond15_0 (grid15.coords t) ↔ t.val % 20 = 0 :=
  (by decide +kernel : ∀ t : Fin grid15.N, cond15_0 (grid15.coords t) ↔ t.val % 20 = 0)

/-- The condition of the body's second conditional, from the grid coordinates: the point is the last of the grid. -/
abbrev cond15_1 (i : grid15.Coords) : Prop := k15_cond2 i = 1#1
/-- It holds at the points ≡ 19 (mod 20): decided over the grid. -/
theorem hcond15_1 : ∀ t : Fin cfg15.N, cond15_1 (grid15.coords t) ↔ t.val % 20 = 19 :=
  (by decide +kernel : ∀ t : Fin grid15.N, cond15_1 (grid15.coords t) ↔ t.val % 20 = 19)

/-! ## Where the windows are idle -/

/-- The inputs are never idle. -/
theorem liveAt15_0 : ∀ t : Fin cfg15.N, cfg15.idle 0 (grid15.coords t) = false := by decide +kernel
theorem liveAt15_1 : ∀ t : Fin cfg15.N, cfg15.idle 1 (grid15.coords t) = false := by decide +kernel
theorem liveAt15_2 : ∀ t : Fin cfg15.N, cfg15.idle 2 (grid15.coords t) = false := by decide +kernel
/-- At the first point the output is idle (nothing is stored into it) and is not written back. -/
theorem idleAt15_3_A : ∀ t : Fin cfg15.N, cond15_0 (grid15.coords t) → ¬cond15_1 (grid15.coords t) → cfg15.idle 3 (grid15.coords t) = true := by decide +kernel
theorem noFlush15_3_A : ∀ t : Fin cfg15.N, cond15_0 (grid15.coords t) → ¬cond15_1 (grid15.coords t) → (cfg15.win 3).flush t = false := by decide +kernel
/-- At the middle points likewise. -/
theorem idleAt15_3_B : ∀ t : Fin cfg15.N, ¬cond15_0 (grid15.coords t) → ¬cond15_1 (grid15.coords t) → cfg15.idle 3 (grid15.coords t) = true := by decide +kernel
theorem noFlush15_3_B : ∀ t : Fin cfg15.N, ¬cond15_0 (grid15.coords t) → ¬cond15_1 (grid15.coords t) → (cfg15.win 3).flush t = false := by decide +kernel
/-- At the last point the output is live: the body stores into it. -/
theorem liveAt15_3_C : ∀ t : Fin cfg15.N, ¬cond15_0 (grid15.coords t) → cond15_1 (grid15.coords t) → cfg15.idle 3 (grid15.coords t) = false := by decide +kernel

/-! ## The staging memrefs and the scratch -/

/-- One staging buffer of the output window, through which its contents are stated. -/
abbrev VO15_3 : View sig .tc .vmem S256x192 .f32 := (Memref.whole cc15_stg3_0 : Memref sig .tc .vmem S256x192 .f32).view
/-- Each window's current staging memref at point `t`, as the pipeline passes it, and its wholeness. -/
abbrev ms15_0 (t : Fin cfg15.N) : Memref sig .tc .vmem S5000x192 .f32 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S5000x1 .i32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S256x1 .f32 := win15_2.stage (cfg15.slots t 2)
abbrev hs15_2 (t : Fin cfg15.N) : (ms15_2 t).IsWhole := hstage15_2 ((cfg15.slots t 2).cast nbuf15_2)
abbrev ms15_3 (t : Fin cfg15.N) : Memref sig .tc .vmem S256x192 .f32 := win15_3.stage (cfg15.slots t 3)
abbrev hs15_3 (t : Fin cfg15.N) : (ms15_3 t).IsWhole := hstage15_3 ((cfg15.slots t 3).cast nbuf15_3)
/-- The scratch operand: a whole scoped buffer of the kernel's own, passed beside the windows. -/
abbrev scM15_0 : Memref sig .tc .vmem S256x192 .f32 := Memref.whole cc15_scratch0
/-- The scratch the kernel carries between points, as a view. -/
abbrev VS15_0 : View sig .tc .vmem S256x192 .f32 := scM15_0.view

/-- The region invariant with the scratch operand as a memref owned at some contents, the other scoped buffers
    unopened beside it, and the generator register at some state. -/
theorem PhiA15_eq (c : Dev nD) :
    (Pipeline.ΦA spec15 c : sProp 𝕄)
      = iprop(iprop(iprop((∃ d, owns (c : Thread nD τ) scM15_0 fullShare d))
          ∗ Pipeline.scopedRestBut (Ix := Unit) (Name := ℕ) (U := UR sig nD τ) (Lvl := ℕ) (Val := Elt F) spec15 c [cc15_scratch0]) ∗ (∃ r, prngReg c r)) := by
  unfold Pipeline.ΦA; rw [scopedRest15_split]; simp only [scM15_0, owns_whole]; try rfl

end Cert.Kernel.Hand

end
-- ==== Proof.Kernel.Reg15RunA.lean ====
import proofs.«422469_j24000277250640_1_alg».proof.Proof.Kernel.Reg15Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun15_A (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : cond15_0 i) (hcl : ¬cond15_1 i)
    (xd : Vec F S5000x192 .f32) (xb : Vec F S5000x1 .i32) (xn : Vec F S256x1 .f32) :
    Σ' (LO : List (View.Piece (Elt F) S256x192 .f32)), { LS : List (View.Piece (Elt F) S256x192 .f32) //
      ∀ (xi : Vec F S256x192 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc15__reduce_div_kernel i arg1 harg1 arg2 harg2 arg3 harg3 arg4 harg4 arg5 harg5) K } := by
  refine ⟨[], ?_, fun xi E K => ?run⟩
  case run =>
    simp only [cc15__reduce_div_kernel_eq_skeleton]; unfold cc15__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg15RunB.lean ====
import proofs.«422469_j24000277250640_1_alg».proof.Proof.Kernel.Reg15RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun15_B (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : ¬cond15_1 i)
    (xd : Vec F S5000x192 .f32) (xb : Vec F S5000x1 .i32) (xn : Vec F S256x1 .f32) (xs : Vec F S256x192 .f32) :
    Σ' (LO : List (View.Piece (Elt F) S256x192 .f32)), { LS : List (View.Piece (Elt F) S256x192 .f32) //
      ∀ (xi : Vec F S256x192 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc15__reduce_div_kernel i arg1 harg1 arg2 harg2 arg3 harg3 arg4 harg4 arg5 harg5) K } := by
  refine ⟨[], ?_, fun xi E K => ?run⟩
  case run =>
    simp only [cc15__reduce_div_kernel_eq_skeleton]; unfold cc15__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.Kernel.Hand

end
-- ==== Proof.Kernel.Reg15RunC.lean ====
import proofs.«422469_j24000277250640_1_alg».proof.Proof.Kernel.Reg15RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun15_C (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : cond15_1 i)
    (xd : Vec F S5000x192 .f32) (xb : Vec F S5000x1 .i32) (xn : Vec F S256x1 .f32) (xs : Vec F S256x192 .f32) :
    Σ' (LO : List (View.Piece (Elt F) S256x192 .f32)), { LS : List (View.Piece (Elt F) S256x192 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc15__reduce_div_kernel i arg1 harg1 arg2 harg2 arg3 harg3 arg4 harg4 arg5 harg5) K } := by
  refine ⟨?_, ?_, fun E K => ?run⟩
  case run =>
    simp only [cc15__reduce_div_kernel_eq_skeleton]; unfold cc15__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.Kernel.Hand

end
-- ==== Proof.Kernel.Reg15.lean ====
import proofs.«422469_j24000277250640_1_alg».proof.Proof.Kernel.Reg15RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out15_A_3 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : cond15_0 i) (hcl : ¬cond15_1 i)
    (xd : Vec F S5000x192 .f32) (xb : Vec F S5000x1 .i32) (xn : Vec F S256x1 .f32) : Vec F S256x192 .f32 :=
  VO15_3.read (Elt F) (VO15_3.writes (Elt F) VO15_3.junk (kernelRun15_A c i arg1 harg1 arg2 harg2 arg3 harg3 arg4 harg4 arg5 harg5 hcz hcl xd xb xn).1)

/-- The pieces stored into the carried scratch tile it, so they cover it. -/
theorem scover15_A_0 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : cond15_0 i) (hcl : ¬cond15_1 i)
    (xd : Vec F S5000x192 .f32) (xb : Vec F S5000x1 .i32) (xn : Vec F S256x1 .f32) (y : S256x192.Idx) :
    ∃ pc ∈ (kernelRun15_A c i arg1 harg1 arg2 harg2 arg3 harg3 arg4 harg4 arg5 harg5 hcz hcl xd xb xn).2.1, y ∈ pc.1.set :=
  View.cover_of_tiledL (kernelRun15_A c i arg1 harg1 arg2 harg2 arg3 harg3 arg4 harg4 arg5 harg5 hcz hcl xd xb xn).2.1 S256x192.size (by sl_kernel_rfl) y

/-- What this case leaves in the carried scratch: its pieces read back over junk. -/
def sout15_A_0 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : cond15_0 i) (hcl : ¬cond15_1 i)
    (xd : Vec F S5000x192 .f32) (xb : Vec F S5000x1 .i32) (xn : Vec F S256x1 .f32) : Vec F S256x192 .f32 :=
  VS15_0.read (Elt F) (VS15_0.writes (Elt F) VS15_0.junk (kernelRun15_A c i arg1 harg1 arg2 harg2 arg3 harg3 arg4 harg4 arg5 harg5 hcz hcl xd xb xn).2.1)

/-- Nothing is stored into the output window here (it is idle and not written back): no pieces, a placeholder
    that nothing consults. -/
def out15_B_3 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : ¬cond15_1 i)
    (xd : Vec F S5000x192 .f32) (xb : Vec F S5000x1 .i32) (xn : Vec F S256x1 .f32) (xs : Vec F S256x192 .f32) : Vec F S256x192 .f32 :=
  VO15_3.read (Elt F) (VO15_3.writes (Elt F) VO15_3.junk (kernelRun15_B c i arg1 harg1 arg2 harg2 arg3 harg3 arg4 harg4 arg5 harg5 hcz hcl xd xb xn xs).1)

/-- The pieces stored into the carried scratch tile it, so they cover it. -/
theorem scover15_B_0 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : ¬cond15_1 i)
    (xd : Vec F S5000x192 .f32) (xb : Vec F S5000x1 .i32) (xn : Vec F S256x1 .f32) (xs : Vec F S256x192 .f32) (y : S256x192.Idx) :
    ∃ pc ∈ (kernelRun15_B c i arg1 harg1 arg2 harg2 arg3 harg3 arg4 harg4 arg5 harg5 hcz hcl xd xb xn xs).2.1, y ∈ pc.1.set :=
  View.cover_of_tiledL (kernelRun15_B c i arg1 harg1 arg2 harg2 arg3 harg3 arg4 harg4 arg5 harg5 hcz hcl xd xb xn xs).2.1 S256x192.size (by sl_kernel_rfl) y

/-- What this case leaves in the carried scratch: its pieces read back over junk. -/
def sout15_B_0 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : ¬cond15_1 i)
    (xd : Vec F S5000x192 .f32) (xb : Vec F S5000x1 .i32) (xn : Vec F S256x1 .f32) (xs : Vec F S256x192 .f32) : Vec F S256x192 .f32 :=
  VS15_0.read (Elt F) (VS15_0.writes (Elt F) VS15_0.junk (kernelRun15_B c i arg1 harg1 arg2 harg2 arg3 harg3 arg4 harg4 arg5 harg5 hcz hcl xd xb xn xs).2.1)

/-- The pieces stored into the output window tile its block, so they cover it. -/
theorem cover15_C_3 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : cond15_1 i)
    (xd : Vec F S5000x192 .f32) (xb : Vec F S5000x1 .i32) (xn : Vec F S256x1 .f32) (xs : Vec F S256x192 .f32) (y : S256x192.Idx) :
    ∃ pc ∈ (kernelRun15_C c i arg1 harg1 arg2 harg2 arg3 harg3 arg4 harg4 arg5 harg5 hcz hcl xd xb xn xs).1, y ∈ pc.1.set :=
  View.cover_of_tiledL (kernelRun15_C c i arg1 harg1 arg2 harg2 arg3 harg3 arg4 harg4 arg5 harg5 hcz hcl xd xb xn xs).1 S256x192.size (by sl_kernel_rfl) y

/-- What this case leaves in the output's staging buffer: its pieces read back over junk. -/
def out15_C_3 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : cond15_1 i)
    (xd : Vec F S5000x192 .f32) (xb : Vec F S5000x1 .i32) (xn : Vec F S256x1 .f32) (xs : Vec F S256x192 .f32) : Vec F S256x192 .f32 :=
  VO15_3.read (Elt F) (VO15_3.writes (Elt F) VO15_3.junk (kernelRun15_C c i arg1 harg1 arg2 harg2 arg3 harg3 arg4 harg4 arg5 harg5 hcz hcl xd xb xn xs).1)

/-- The pieces stored into the carried scratch tile it, so they cover it. -/
theorem scover15_C_0 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : cond15_1 i)
    (xd : Vec F S5000x192 .f32) (xb : Vec F S5000x1 .i32) (xn : Vec F S256x1 .f32) (xs : Vec F S256x192 .f32) (y : S256x192.Idx) :
    ∃ pc ∈ (kernelRun15_C c i arg1 harg1 arg2 harg2 arg3 harg3 arg4 harg4 arg5 harg5 hcz hcl xd xb xn xs).2.1, y ∈ pc.1.set :=
  View.cover_of_tiledL (kernelRun15_C c i arg1 harg1 arg2 harg2 arg3 harg3 arg4 harg4 arg5 harg5 hcz hcl xd xb xn xs).2.1 S256x192.size (by sl_kernel_rfl) y

/-- What this case leaves in the carried scratch: its pieces read back over junk. -/
def sout15_C_0 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : cond15_1 i)
    (xd : Vec F S5000x192 .f32) (xb : Vec F S5000x1 .i32) (xn : Vec F S256x1 .f32) (xs : Vec F S256x192 .f32) : Vec F S256x192 .f32 :=
  VS15_0.read (Elt F) (VS15_0.writes (Elt F) VS15_0.junk (kernelRun15_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt15 (c : Dev nD) : (n : ℕ) → n < cfg15.N → Vec F S256x192 .f32 × Vec F S256x192 .f32
  | 0, hn => (out15_A_3 c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) (ms15_3 ⟨0, hn⟩) (hs15_3 ⟨0, hn⟩) scM15_0 (Memref.isWhole_whole _) ((hcond15_0 ⟨0, hn⟩).mpr (Nat.zero_mod _)) (fun h => (fun h => by (try dsimp only at h); omega) ((hcond15_1 ⟨0, hn⟩).mp h)) (iblk15 V c 0 ⟨0, hn⟩) (iblk15 V c 1 ⟨0, hn⟩) (iblk15 V c 2 ⟨0, hn⟩), sout15_A_0 c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) (ms15_3 ⟨0, hn⟩) (hs15_3 ⟨0, hn⟩) scM15_0 (Memref.isWhole_whole _) ((hcond15_0 ⟨0, hn⟩).mpr (Nat.zero_mod _)) (fun h => (fun h => by (try dsimp only at h); omega) ((hcond15_1 ⟨0, hn⟩).mp h)) (iblk15 V c 0 ⟨0, hn⟩) (iblk15 V c 1 ⟨0, hn⟩) (iblk15 V c 2 ⟨0, hn⟩))
  | n + 1, hn =>
    if hz : (n + 1) % 20 = 0 then
      if hl : (n + 1) % 20 = 19 then
        False.elim (by have hN : n + 1 < 20 := lt_of_lt_of_eq hn (show cfg15.N = 20 from N_15); omega)
      else
        (out15_A_3 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) scM15_0 (Memref.isWhole_whole _) ((hcond15_0 ⟨n + 1, hn⟩).mpr hz) (fun h => hl ((hcond15_1 ⟨n + 1, hn⟩).mp h)) (iblk15 V c 0 ⟨n + 1, hn⟩) (iblk15 V c 1 ⟨n + 1, hn⟩) (iblk15 V c 2 ⟨n + 1, hn⟩), sout15_A_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) scM15_0 (Memref.isWhole_whole _) ((hcond15_0 ⟨n + 1, hn⟩).mpr hz) (fun h => hl ((hcond15_1 ⟨n + 1, hn⟩).mp h)) (iblk15 V c 0 ⟨n + 1, hn⟩) (iblk15 V c 1 ⟨n + 1, hn⟩) (iblk15 V c 2 ⟨n + 1, hn⟩))
    else
      if hl : (n + 1) % 20 = 19 then
        (out15_C_3 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) scM15_0 (Memref.isWhole_whole _) (fun h => hz ((hcond15_0 ⟨n + 1, hn⟩).mp h)) ((hcond15_1 ⟨n + 1, hn⟩).mpr hl) (iblk15 V c 0 ⟨n + 1, hn⟩) (iblk15 V c 1 ⟨n + 1, hn⟩) (iblk15 V c 2 ⟨n + 1, hn⟩) (outsAt15 c n (Nat.lt_of_succ_lt hn)).2, sout15_C_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) scM15_0 (Memref.isWhole_whole _) (fun h => hz ((hcond15_0 ⟨n + 1, hn⟩).mp h)) ((hcond15_1 ⟨n + 1, hn⟩).mpr hl) (iblk15 V c 0 ⟨n + 1, hn⟩) (iblk15 V c 1 ⟨n + 1, hn⟩) (iblk15 V c 2 ⟨n + 1, hn⟩) (outsAt15 c n (Nat.lt_of_succ_lt hn)).2)
      else
        (out15_B_3 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) scM15_0 (Memref.isWhole_whole _) (fun h => hz ((hcond15_0 ⟨n + 1, hn⟩).mp h)) (fun h => hl ((hcond15_1 ⟨n + 1, hn⟩).mp h)) (iblk15 V c 0 ⟨n + 1, hn⟩) (iblk15 V c 1 ⟨n + 1, hn⟩) (iblk15 V c 2 ⟨n + 1, hn⟩) (outsAt15 c n (Nat.lt_of_succ_lt hn)).2, sout15_B_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) scM15_0 (Memref.isWhole_whole _) (fun h => hz ((hcond15_0 ⟨n + 1, hn⟩).mp h)) (fun h => hl ((hcond15_1 ⟨n + 1, hn⟩).mp h)) (iblk15 V c 0 ⟨n + 1, hn⟩) (iblk15 V c 1 ⟨n + 1, hn⟩) (iblk15 V c 2 ⟨n + 1, hn⟩) (outsAt15 c n (Nat.lt_of_succ_lt hn)).2)

/-- `outsAt15` at the first point. -/
theorem outsAt15_A (c : Dev nD) (t : Fin cfg15.N) (hz : t.val % 20 = 0) (hl : ¬t.val % 20 = 19) :
    outsAt15 V c t.val t.isLt = (out15_A_3 c (grid15.coords t) (ms15_0 t) (hs15_0 t) (ms15_1 t) (hs15_1 t) (ms15_2 t) (hs15_2 t) (ms15_3 t) (hs15_3 t) scM15_0 (Memref.isWhole_whole _) ((hcond15_0 t).mpr hz) (fun h => hl ((hcond15_1 t).mp h)) (iblk15 V c 0 t) (iblk15 V c 1 t) (iblk15 V c 2 t), sout15_A_0 c (grid15.coords t) (ms15_0 t) (hs15_0 t) (ms15_1 t) (hs15_1 t) (ms15_2 t) (hs15_2 t) (ms15_3 t) (hs15_3 t) scM15_0 (Memref.isWhole_whole _) ((hcond15_0 t).mpr hz) (fun h => hl ((hcond15_1 t).mp h)) (iblk15 V c 0 t) (iblk15 V c 1 t) (iblk15 V c 2 t)) := by
  obtain ⟨n, hn⟩ := t
  cases n with
  | zero => exact rfl
  | succ n => exact (dif_pos hz).trans ((dif_neg hl).trans rfl)

/-- `outsAt15` at a middle point: over what the point before left in the scratch. -/
theorem outsAt15_B (c : Dev nD) (t : Fin cfg15.N) (hz : ¬t.val % 20 = 0) (hl : ¬t.val % 20 = 19) :
    outsAt15 V c t.val t.isLt = (out15_B_3 c (grid15.coords t) (ms15_0 t) (hs15_0 t) (ms15_1 t) (hs15_1 t) (ms15_2 t) (hs15_2 t) (ms15_3 t) (hs15_3 t) scM15_0 (Memref.isWhole_whole _) (fun h => hz ((hcond15_0 t).mp h)) (fun h => hl ((hcond15_1 t).mp h)) (iblk15 V c 0 t) (iblk15 V c 1 t) (iblk15 V c 2 t) (outsAt15 V c (t.val - 1) (Nat.lt_of_le_of_lt (Nat.sub_le _ _) t.isLt)).2, sout15_B_0 c (grid15.coords t) (ms15_0 t) (hs15_0 t) (ms15_1 t) (hs15_1 t) (ms15_2 t) (hs15_2 t) (ms15_3 t) (hs15_3 t) scM15_0 (Memref.isWhole_whole _) (fun h => hz ((hcond15_0 t).mp h)) (fun h => hl ((hcond15_1 t).mp h)) (iblk15 V c 0 t) (iblk15 V c 1 t) (iblk15 V c 2 t) (outsAt15 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt15` at the last point: over what the point before left in the scratch. -/
theorem outsAt15_C (c : Dev nD) (t : Fin cfg15.N) (hz : ¬t.val % 20 = 0) (hl : t.val % 20 = 19) :
    outsAt15 V c t.val t.isLt = (out15_C_3 c (grid15.coords t) (ms15_0 t) (hs15_0 t) (ms15_1 t) (hs15_1 t) (ms15_2 t) (hs15_2 t) (ms15_3 t) (hs15_3 t) scM15_0 (Memref.isWhole_whole _) (fun h => hz ((hcond15_0 t).mp h)) ((hcond15_1 t).mpr hl) (iblk15 V c 0 t) (iblk15 V c 1 t) (iblk15 V c 2 t) (outsAt15 V c (t.val - 1) (Nat.lt_of_le_of_lt (Nat.sub_le _ _) t.isLt)).2, sout15_C_0 c (grid15.coords t) (ms15_0 t) (hs15_0 t) (ms15_1 t) (hs15_1 t) (ms15_2 t) (hs15_2 t) (ms15_3 t) (hs15_3 t) scM15_0 (Memref.isWhole_whole _) (fun h => hz ((hcond15_0 t).mp h)) ((hcond15_1 t).mpr hl) (iblk15 V c 0 t) (iblk15 V c 1 t) (iblk15 V c 2 t) (outsAt15 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut15 (c : Dev nD) : sProp 𝕄 :=
  Pipeline.scopedRestBut (Ix := Unit) (Name := ℕ) (U := UR sig nD τ) (Lvl := ℕ) (Val := Elt F) spec15 c [cc15_scratch0]

/-- The region invariant before position `n`: before the first point the class's (every scratch at anything);
    afterwards the carried scratch at what the point before left in it, the other scoped buffers unopened, and the
    random-number register at some state. -/
def PhiS15 (c : Dev nD) : (n : ℕ) → n ≤ cfg15.N → sProp 𝕄
  | 0, _ => Pipeline.ΦA spec15 c
  | n + 1, hn => iprop(iprop(owns (c : Thread nD τ) scM15_0 fullShare ((outsAt15 V c n hn).2) ∗ restBut15 (F := F) c) ∗ (∃ r, prngReg c r))

theorem PhiS15_zero (c : Dev nD) (n : ℕ) (h : n ≤ cfg15.N) (hfirst : n = 0) : PhiS15 V c n h = Pipeline.ΦA spec15 c := by
  subst hfirst; rfl

/-- After point `n` (before point `n + 1`): the carried scratch at that point's contents. -/
theorem PhiS15_succ (c : Dev nD) (n : ℕ) (hn : n < cfg15.N) :
    PhiS15 V c (n + 1) hn = iprop(iprop(owns (c : Thread nD τ) scM15_0 fullShare ((outsAt15 V c n hn).2) ∗ restBut15 (F := F) c) ∗ (∃ r, prngReg c r)) := rfl

/-- Before a point that is not the first: the carried scratch at what the point before left. -/
theorem PhiS15_pos (c : Dev nD) (n : ℕ) (h : n ≤ cfg15.N) (hfirst : n ≠ 0) :
    PhiS15 V c n h = iprop(iprop(owns (c : Thread nD τ) scM15_0 fullShare ((outsAt15 V c (n - 1) (by omega)).2) ∗ restBut15 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt15`'s first component; the invariant `PhiS15`; nothing owed;
    full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => (outsAt15 V c t.val t.isLt).1
  Φ t := PhiS15 V c t.val (Nat.le_of_lt_succ t.isLt)
  q _ := fullShare
  owed _ := 0

theorem A_eq15 (c : Dev nD) (w : Fin cfg15.W) : (dat15 V c).A w = V c (Pipeline.arrRef spec15 w) := by
  dsimp only [dat15]

/-- The invariant at a point's start, restated at `t.val`. -/
theorem PhiS15_castSucc (c : Dev nD) (t : Fin cfg15.N) :
    (dat15 V c).Φ t.castSucc = PhiS15 V c t.val (Nat.le_of_lt t.isLt) := by
  dsimp only [dat15]; simp only [Fin.coe_castSucc]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = (outsAt15 V c t.val t.isLt).1 := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d))
    ∗ (∃ d, owns (c : Thread nD τ) (ms15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t
    ∗ (dat15 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).owesAt () t.succ = (dat15 V c).owesAt () t.castSucc from rfl]
  rw [show (dat15 V c).Φ t.succ = PhiS15 V c (t.val + 1) t.isLt from rfl, PhiS15_succ]
  have hN : t.val < 20 := lt_of_lt_of_eq t.isLt (show cfg15.N = 20 from N_15)
  by_cases hz : t.val % 20 = 0
  · by_cases hl : t.val % 20 = 19
    · exfalso; omega
    · rw [show (dat15 V c).leavesExact 0 t = owns (c : Thread nD τ) (ms15_0 t) fullShare ((dat15 V c).after 0 t) from by
        unfold Dat.leavesExact; rw [liveAt15_0 t], after15_0]
      rw [show (dat15 V c).leavesExact 1 t = owns (c : Thread nD τ) (ms15_1 t) fullShare ((dat15 V c).after 1 t) from by
        unfold Dat.leavesExact; rw [liveAt15_1 t], after15_1]
      rw [show (dat15 V c).leavesExact 2 t = owns (c : Thread nD τ) (ms15_2 t) fullShare ((dat15 V c).after 2 t) from by
        unfold Dat.leavesExact; rw [liveAt15_2 t], after15_2]
      rw [Dat.leavesExact_idle (dat15 V c) 3 t (idleAt15_3_A t ((hcond15_0 t).mpr hz) (fun h => hl ((hcond15_1 t).mp h))) (noFlush15_3_A t ((hcond15_0 t).mpr hz) (fun h => hl ((hcond15_1 t).mp h)))]
      rw [outsAt15_A V c t hz hl]
      unfold sout15_A_0; (try dsimp only)
      by_cases hfirst : t.val = 0
      · rw [PhiS15_castSucc V c t, PhiS15_zero V c _ _ hfirst, PhiA15_eq]
        iintro ⟨⟨⟨HS, Hr⟩, Hg⟩, Ho, ⟨%dd, Hd⟩, ⟨%db, Hb⟩, ⟨%dn, Hn⟩, ⟨%dq, Hq⟩⟩
        iapply ((kernelRun15_A c (grid15.coords t) _ _ _ _ _ _ _ _ _ _ ((hcond15_0 t).mpr hz) (fun h => hl ((hcond15_1 t).mp h)) (iblk15 V c 0 t) (iblk15 V c 1 t) (iblk15 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover15_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS15_castSucc V c t, PhiS15_pos V c _ _ hfirst]
        iintro ⟨⟨⟨HS, Hr⟩, Hg⟩, Ho, ⟨%dd, Hd⟩, ⟨%db, Hb⟩, ⟨%dn, Hn⟩, ⟨%dq, Hq⟩⟩
        iapply ((kernelRun15_A c (grid15.coords t) _ _ _ _ _ _ _ _ _ _ ((hcond15_0 t).mpr hz) (fun h => hl ((hcond15_1 t).mp h)) (iblk15 V c 0 t) (iblk15 V c 1 t) (iblk15 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover15_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat15 V c).leavesExact 0 t = owns (c : Thread nD τ) (ms15_0 t) fullShare ((dat15 V c).after 0 t) from by
        unfold Dat.leavesExact; rw [liveAt15_0 t], after15_0]
      rw [show (dat15 V c).leavesExact 1 t = owns (c : Thread nD τ) (ms15_1 t) fullShare ((dat15 V c).after 1 t) from by
        unfold Dat.leavesExact; rw [liveAt15_1 t], after15_1]
      rw [show (dat15 V c).leavesExact 2 t = owns (c : Thread nD τ) (ms15_2 t) fullShare ((dat15 V c).after 2 t) from by
        unfold Dat.leavesExact; rw [liveAt15_2 t], after15_2]
      rw [show (dat15 V c).leavesExact 3 t = owns (c : Thread nD τ) (ms15_3 t) fullShare ((dat15 V c).after 3 t) from by
        unfold Dat.leavesExact; rw [liveAt15_3_C t (fun h => hz ((hcond15_0 t).mp h)) ((hcond15_1 t).mpr hl)], after15_3]
      rw [outsAt15_C V c t hz hl]
      unfold out15_C_3 sout15_C_0; (try dsimp only)
      by_cases hfirst : t.val = 0
      · exfalso; omega
      · rw [PhiS15_castSucc V c t, PhiS15_pos V c _ _ hfirst]
        iintro ⟨⟨⟨HS, Hr⟩, Hg⟩, Ho, ⟨%dd, Hd⟩, ⟨%db, Hb⟩, ⟨%dn, Hn⟩, ⟨%dq, Hq⟩⟩
        iapply ((kernelRun15_C c (grid15.coords t) _ _ _ _ _ _ _ _ _ _ (fun h => hz ((hcond15_0 t).mp h)) ((hcond15_1 t).mpr hl) (iblk15 V c 0 t) (iblk15 V c 1 t) (iblk15 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover15_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover15_C_3 c _ _ _ _ _ _ _ _ _ _ _ _ _ _ _ _ _)
    · rw [show (dat15 V c).leavesExact 0 t = owns (c : Thread nD τ) (ms15_0 t) fullShare ((dat15 V c).after 0 t) from by
        unfold Dat.leavesExact; rw [liveAt15_0 t], after15_0]
      rw [show (dat15 V c).leavesExact 1 t = owns (c : Thread nD τ) (ms15_1 t) fullShare ((dat15 V c).after 1 t) from by
        unfold Dat.leavesExact; rw [liveAt15_1 t], after15_1]
      rw [show (dat15 V c).leavesExact 2 t = owns (c : Thread nD τ) (ms15_2 t) fullShare ((dat15 V c).after 2 t) from by
        unfold Dat.leavesExact; rw [liveAt15_2 t], after15_2]
      rw [Dat.leavesExact_idle (dat15 V c) 3 t (idleAt15_3_B t (fun h => hz ((hcond15_0 t).mp h)) (fun h => hl ((hcond15_1 t).mp h))) (noFlush15_3_B t (fun h => hz ((hcond15_0 t).mp h)) (fun h => hl ((hcond15_1 t).mp h)))]
      rw [outsAt15_B V c t hz hl]
      unfold sout15_B_0; (try dsimp only)
      by_cases hfirst : t.val = 0
      · exfalso; omega
      · rw [PhiS15_castSucc V c t, PhiS15_pos V c _ _ hfirst]
        iintro ⟨⟨⟨HS, Hr⟩, Hg⟩, Ho, ⟨%dd, Hd⟩, ⟨%db, Hb⟩, ⟨%dn, Hn⟩, ⟨%dq, Hq⟩⟩
        iapply ((kernelRun15_B c (grid15.coords t) _ _ _ _ _ _ _ _ _ _ (fun h => hz ((hcond15_0 t).mp h)) (fun h => hl ((hcond15_1 t).mp h)) (iblk15 V c 0 t) (iblk15 V c 1 t) (iblk15 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover15_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation15 (c : Dev nD) : BodyObligation (dat15 (F := F) V c) (defs₀ (F := F)) Variants.none () Set.univ := fun t => by
  rw [bigSep_W15, bigSep_W15]
  exact sound_body15 V c t

/-- What the launch hands the region is the invariant before the first point. -/
theorem hin15 (c : Dev nD) : Pipeline.ΦA spec15 c ⊢ (dat15 V c).Φ 0 := by
  rw [show (dat15 V c).Φ 0 = PhiS15 V c 0 (Nat.zero_le _) from rfl, PhiS15_zero V c 0 _ rfl]
  try exact Idealize.SL.BI.Entails.refl _

/-- After any point but the first the invariant gives the class's back: the carried scratch's named contents are forgotten. -/
theorem Phi_out15 (c : Dev nD) (t : Fin (cfg15.N + 1)) (ht : t.val ≠ 0) : (dat15 V c).Φ t ⊢ Pipeline.ΦA spec15 c := by
  rw [show (dat15 V c).Φ t = PhiS15 V c t.val (Nat.le_of_lt_succ t.isLt) from rfl, PhiS15_pos V c _ _ ht, PhiA15_eq]
  iintro ⟨⟨HS, Hr⟩, Hg⟩
  isplitl [HS Hr]
  · isplitl [HS]
    · iexists _; iexact HS
    iexact Hr
  iexact Hg

/-- The same after the last point. -/
theorem hout15 (c : Dev nD) : (dat15 V c).Φ (Fin.last cfg15.N) ⊢ Pipeline.ΦA spec15 c :=
  Phi_out15 V c _ (by rw [Fin.val_last]; have : cfg15.N = 20 := N_15; omega)

end

end Cert.Kernel.Hand

end
-- ==== Proof.Kernel.Reg16.lean ====
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's staging buffer holds its block at every point, fetched there or not, for any proof data whose
    array is `V`'s and whose body leaves the block in place: the window is uncut and never idle. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
/-- Input window 1's staging buffer holds its block at every point, fetched there or not, for any proof data whose
    array is `V`'s and whose body leaves the block in place: the window is uncut and never idle. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
/-- Input window 2's staging buffer holds its block at every point, fetched there or not, for any proof data whose
    array is `V`'s and whose body leaves the block in place: the window is uncut and never idle. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
/-- Input window 3's staging buffer holds its block at every point, fetched there or not, for any proof data whose
    array is `V`'s and whose body leaves the block in place: the window is uncut and never idle. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)
/-- Input window 4's staging buffer holds its block at every point, fetched there or not, for any proof data whose
    array is `V`'s and whose body leaves the block in place: the window is uncut and never idle. -/
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses: each a whole buffer -/

abbrev r16_0 : Rect S256x192 := Rect.unit (s := S256x192) ![0, 0] S256x192.size inb_S256x192_S256x192_0_0
abbrev r16_1 : Rect S192x192 := Rect.unit (s := S192x192) ![0, 0] S192x192.size inb_S192x192_S192x192_0_0
abbrev r16_2 : Rect S1x192 := Rect.unit (s := S1x192) ![0, 0] S1x192.size inb_S1x192_S1x192_0_0
abbrev r16_3 : Rect S192x10 := Rect.unit (s := S192x10) ![0, 0] S192x10.size inb_S192x10_S192x10_0_0
abbrev r16_4 : Rect S1x10 := Rect.unit (s := S1x10) ![0, 0] S1x10.size inb_S1x10_S1x10_0_0
abbrev r16_5 : Rect S256x10 := Rect.unit (s := S256x10) ![0, 0] S256x10.size inb_S256x10_S256x10_0_0

/-! ## What the body leaves in the output window's buffer -/

/-- Window 5's staging buffer after the body, from the input windows' blocks: its one store, the whole buffer at the
    payload of the five loaded inputs. -/
def out16_5 (x0 : Vec F S256x192 .f32) (x1 : Vec F S192x192 .f32) (x2 : Vec F S1x192 .f32) (x3 : Vec F S192x10 .f32) (x4 : Vec F S1x10 .f32) : Vec F S256x10 .f32 :=
  View.canon [⟨r16_5, k16_pay1 (View.ld x0 r16_0) (View.ld x1 r16_1) (View.ld x2 r16_2) (View.ld x3 r16_3) (View.ld x4 r16_4)⟩]

/-- The store tiles the buffer, so it covers it. -/
theorem cover16_5 (p0 : Vec F S256x10 .f32) (y : S256x10.Idx) :
    ∃ pc ∈ ([⟨r16_5, p0⟩] : List (View.Piece (Elt F) S256x10 .f32)), y ∈ pc.1.set :=
  View.cover_of_tiled [⟨r16_5, p0⟩] S256x10.size (by rfl) y

/-! ## The body's triple -/

set_option maxHeartbeats 1000000 in
/-- The kernel body on whole staging memrefs, the inputs' at read contents `xW` and the output's at anything, runs to
    the continuation holding the inputs' as they were and the output's at `out16_5` of the inputs'. -/
theorem sound_kernel16 (c : Dev nD) (E : Set ℕ) (i : grid16.Coords)
    (arg1 : Memref sig .tc .vmem S256x192 .f32) (harg1 : arg1.IsWhole)
    (arg2 : Memref sig .tc .vmem S192x192 .f32) (harg2 : arg2.IsWhole)
    (arg3 : Memref sig .tc .vmem S1x192 .f32) (harg3 : arg3.IsWhole)
    (arg4 : Memref sig .tc .vmem S192x10 .f32) (harg4 : arg4.IsWhole)
    (arg5 : Memref sig .tc .vmem S1x10 .f32) (harg5 : arg5.IsWhole)
    (arg6 : Memref sig .tc .vmem S256x10 .f32) (harg6 : arg6.IsWhole)
    (x0 : Vec F S256x192 .f32) (x1 : Vec F S192x192 .f32) (x2 : Vec F S1x192 .f32) (x3 : Vec F S192x10 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out16_5 x0 x1 x2 x3 x4)) -∗ K ⟨⟩))
      ⊢ wp frame (wpE (defs₀ (F := F)) Variants.none c none) E (cc16__mlp_kernel i arg1 harg1 arg2 harg2 arg3 harg3 arg4 harg4 arg5 harg5 arg6 harg6) K := by
  simp only [cc16__mlp_kernel_eq_skeleton]; unfold cc16__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover16_5 _)

/-! ## The pipeline's proof data -/

/-- The proof data of pipeline 16 on core `c`, at the region-entry contents `V`: after the body each input's buffer
    at its block and the output's at `out16_5` of the input blocks; the invariant the scoped rest and the random-bits
    register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => out16_5 (iblk16 V c 0 t) (iblk16 V c 1 t) (iblk16 V c 2 t) (iblk16 V c 3 t) (iblk16 V c 4 t)
  Φ _ := Pipeline.ΦA spec16 c
  q _ := fullShare
  owed _ := 0

theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = out16_5 (iblk16 V c 0 t) (iblk16 V c 1 t) (iblk16 V c 2 t) (iblk16 V c 3 t) (iblk16 V c 4 t) := by dsimp only [dat16]

/-- Each input's staging buffer holds its block at every point. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t))

/-- The body at any point: the inputs' memrefs hold their blocks, so the body's triple applies; the invariant and the
    core's `owes` pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4]
  rw [show (dat16 V c).Φ t.succ = (dat16 V c).Φ t.castSucc from rfl,
    show (dat16 V c).owesAt () t.succ = (dat16 V c).owesAt () t.castSucc from rfl,
    after16_0, after16_1, after16_2, after16_3, after16_4, after16_5]
  iintro ⟨HΦ, Ho, ⟨%d0, H0⟩, ⟨%d1, H1⟩, ⟨%d2, H2⟩, ⟨%d3, H3⟩, ⟨%d4, H4⟩, ⟨%d5, H5⟩⟩
  iapply (sound_kernel16 c Set.univ (grid16.coords t) _ _ _ _ _ _ _ _ _ _ _ _
    (iblk16 V c 0 t) (iblk16 V c 1 t) (iblk16 V c 2 t) (iblk16 V c 3 t) (iblk16 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation16 (c : Dev nD) : BodyObligation (dat16 (F := F) V c) (defs₀ (F := F)) Variants.none () Set.univ := fun t => by
  rw [bigSep_W16, bigSep_W16]
  exact sound_body16 V c t

/-- The invariant is the region's own at every point, so entry and exit are the identity. -/
theorem hin16 (c : Dev nD) : Pipeline.ΦA spec16 c ⊢ (dat16 V c).Φ 0 := by
  rw [show (dat16 V c).Φ 0 = Pipeline.ΦA spec16 c from rfl]

theorem hout16 (c : Dev nD) : (dat16 V c).Φ (Fin.last cfg16.N) ⊢ Pipeline.ΦA spec16 c := by
  rw [show (dat16 V c).Φ (Fin.last cfg16.N) = Pipeline.ΦA spec16 c from rfl]

end

end Cert.Kernel.Hand

end
-- ==== Proof.Kernel.Fold.lean ====
/- The contents of every unscoped buffer at each boundary of the program's items, folded from the launch memory:
   a host stretch applies its operations, a kernel region overwrites its output arrays with what its pipeline leaves.
   Also: the family of proof data (each region's at its entry contents) and the agreement of this fold with the
   conditional frame's valuations. -/
import proofs.«422469_j24000277250640_1_alg».proof.Proof.Gen.Kernel.Launch
import proofs.«422469_j24000277250640_1_alg».proof.Proof.Gen.Kernel.Skeleton
import proofs.«422469_j24000277250640_1_alg».proof.Proof.Gen.Kernel.Points
import proofs.«422469_j24000277250640_1_alg».proof.Proof.Kernel.RegionsP
import proofs.«422469_j24000277250640_1_alg».proof.Proof.Kernel.Reg0
import proofs.«422469_j24000277250640_1_alg».proof.Proof.Kernel.Reg1
import proofs.«422469_j24000277250640_1_alg».proof.Proof.Kernel.Reg2
import proofs.«422469_j24000277250640_1_alg».proof.Proof.Kernel.Reg3
import proofs.«422469_j24000277250640_1_alg».proof.Proof.Kernel.Reg4
import proofs.«422469_j24000277250640_1_alg».proof.Proof.Kernel.Reg5
import proofs.«422469_j24000277250640_1_alg».proof.Proof.Kernel.Reg6
import proofs.«422469_j24000277250640_1_alg».proof.Proof.Kernel.Reg7
import proofs.«422469_j24000277250640_1_alg».proof.Proof.Kernel.Reg8
import proofs.«422469_j24000277250640_1_alg».proof.Proof.Kernel.Reg9
import proofs.«422469_j24000277250640_1_alg».proof.Proof.Kernel.Reg10
import proofs.«422469_j24000277250640_1_alg».proof.Proof.Kernel.Reg11
import proofs.«422469_j24000277250640_1_alg».proof.Proof.Kernel.Reg12
import proofs.«422469_j24000277250640_1_alg».proof.Proof.Kernel.Reg13
import proofs.«422469_j24000277250640_1_alg».proof.Proof.Kernel.Reg14
import proofs.«422469_j24000277250640_1_alg».proof.Proof.Kernel.Reg15
import proofs.«422469_j24000277250640_1_alg».proof.Proof.Kernel.Reg16
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Two laws of pointwise update -/

theorem update_idem {α : Type} [DecidableEq α] {β : α → Type} (f : ∀ a, β a) (a : α) (x : β a) :
    Function.update f a (Function.update f a x a) = Function.update f a x := by rw [Function.update_self]

theorem update_idem₂ {α : Type} [DecidableEq α] {β : α → Type} (f : ∀ a, β a) (a b : α) (hab : a ≠ b) (x : β a) (y : β b) :
    Function.update (Function.update f a (Function.update (Function.update f a x) b y a)) b
        (Function.update (Function.update f a x) b y b)
      = Function.update (Function.update f a x) b y := by
  rw [Function.update_self, Function.update_of_ne hab, Function.update_self]

/-! ## What rides beside the buffers -/

/-- Beside the buffers, through every item: the core's generator register at some state and the core owing nothing. -/
abbrev R (c : Dev nD) : sProp 𝕄 := iprop((∃ r, prngReg c r) ∗ ∃ W, owes (c : Thread nD τ) (0 : CellTallies nD τ sig Unit) W)

/-! ## The fold -/

/-- Core `c`'s unscoped buffers at launch. -/
abbrev W0 (c : Dev nD) : Valuation τ sig (Elt F) := fun b => m (c, b)
/-- After the host stretch `hostOps0`. -/
abbrev W1 (c : Dev nD) : Valuation τ sig (Elt F) := StableHlo.after hostOps0 (W0 m c)
/-- After the host stretch `hostOps0_1`. -/
abbrev W2 (c : Dev nD) : Valuation τ sig (Elt F) := StableHlo.after hostOps0_1 (W1 m c)
/-- After the host stretch `hostOps0_2`. -/
abbrev W3 (c : Dev nD) : Valuation τ sig (Elt F) := StableHlo.after hostOps0_2 (W2 m c)
/-- Region 0's entry contents, read at the TensorCore's references. -/
abbrev Ven0 : (c : Dev nD) → (b : Ref sig .tc) → Buf (Elt F) ((c : Thread nD τ).loc b) := fun c b => W3 m c b
/-- At region 0's exit: each output array at what the pipeline leaves, every other buffer as entered. -/
def W4 (c : Dev nD) : Valuation τ sig (Elt F) :=
  Function.update (W3 m c) main_v39 ((dat0 (Ven0 m) c).arrAt 2 cfg0.N)
/-- Region 0's exit contents, read at the TensorCore's references. -/
abbrev Vex0 : (c : Dev nD) → (b : Ref sig .tc) → Buf (Elt F) ((c : Thread nD τ).loc b) := fun c b => W4 m c b
/-- After the host stretch `hostOps1`. -/
abbrev W5 (c : Dev nD) : Valuation τ sig (Elt F) := StableHlo.after hostOps1 (W4 m c)
/-- Region 1's entry contents, read at the TensorCore's references. -/
abbrev Ven1 : (c : Dev nD) → (b : Ref sig .tc) → Buf (Elt F) ((c : Thread nD τ).loc b) := fun c b => W5 m c b
/-- At region 1's exit: each output array at what the pipeline leaves, every other buffer as entered. -/
def W6 (c : Dev nD) : Valuation τ sig (Elt F) :=
  Function.update (W5 m c) main_v58 ((dat1 (Ven1 m) c).arrAt 3 cfg1.N)
/-- Region 1's exit contents, read at the TensorCore's references. -/
abbrev Vex1 : (c : Dev nD) → (b : Ref sig .tc) → Buf (Elt F) ((c : Thread nD τ).loc b) := fun c b => W6 m c b
/-- After the host stretch `hostOps2`. -/
abbrev W7 (c : Dev nD) : Valuation τ sig (Elt F) := StableHlo.after hostOps2 (W6 m c)
/-- Region 2's entry contents, read at the TensorCore's references. -/
abbrev Ven2 : (c : Dev nD) → (b : Ref sig .tc) → Buf (Elt F) ((c : Thread nD τ).loc b) := fun c b => W7 m c b
/-- At region 2's exit: each output array at what the pipeline leaves, every other buffer as entered. -/
def W8 (c : Dev nD) : Valuation τ sig (Elt F) :=
  Function.update (Function.update (W7 m c) main_v69_0 ((dat2 (Ven2 m) c).arrAt 3 cfg2.N)) main_v69_1 ((dat2 (Ven2 m) c).arrAt 4 cfg2.N)
/-- Region 2's exit contents, read at the TensorCore's references. -/
abbrev Vex2 : (c : Dev nD) → (b : Ref sig .tc) → Buf (Elt F) ((c : Thread nD τ).loc b) := fun c b => W8 m c b
/-- Region 3's entry contents, read at the TensorCore's references. -/
abbrev Ven3 : (c : Dev nD) → (b : Ref sig .tc) → Buf (Elt F) ((c : Thread nD τ).loc b) := fun c b => W8 m c b
/-- At region 3's exit: each output array at what the pipeline leaves, every other buffer as entered. -/
def W9 (c : Dev nD) : Valuation τ sig (Elt F) :=
  Function.update (W8 m c) main_v70 ((dat3 (Ven3 m) c).arrAt 3 cfg3.N)
/-- Region 3's exit contents, read at the TensorCore's references. -/
abbrev Vex3 : (c : Dev nD) → (b : Ref sig .tc) → Buf (Elt F) ((c : Thread nD τ).loc b) := fun c b => W9 m c b
/-- After the host stretch `hostOps4`. -/
abbrev W10 (c : Dev nD) : Valuation τ sig (Elt F) := StableHlo.after hostOps4 (W9 m c)
/-- Region 4's entry contents, read at the TensorCore's references. -/
abbrev Ven4 : (c : Dev nD) → (b : Ref sig .tc) → Buf (Elt F) ((c : Thread nD τ).loc b) := fun c b => W10 m c b
/-- At region 4's exit: each output array at what the pipeline leaves, every other buffer as entered. -/
def W11 (c : Dev nD) : Valuation τ sig (Elt F) :=
  Function.update (W10 m c) main_v84 ((dat4 (Ven4 m) c).arrAt 4 cfg4.N)
/-- Region 4's exit contents, read at the TensorCore's references. -/
abbrev Vex4 : (c : Dev nD) → (b : Ref sig .tc) → Buf (Elt F) ((c : Thread nD τ).loc b) := fun c b => W11 m c b
/-- After the host stretch `hostOps5`. -/
abbrev W12 (c : Dev nD) : Valuation τ sig (Elt F) := StableHlo.after hostOps5 (W11 m c)
/-- Region 5's entry contents, read at the TensorCore's references. -/
abbrev Ven5 : (c : Dev nD) → (b : Ref sig .tc) → Buf (Elt F) ((c : Thread nD τ).loc b) := fun c b => W12 m c b
/-- At region 5's exit: each output array at what the pipeline leaves, every other buffer as entered. -/
def W13 (c : Dev nD) : Valuation τ sig (Elt F) :=
  Function.update (W12 m c) main_v87 ((dat5 (Ven5 m) c).arrAt 2 cfg5.N)
/-- Region 5's exit contents, read at the TensorCore's references. -/
abbrev Vex5 : (c : Dev nD) → (b : Ref sig .tc) → Buf (Elt F) ((c : Thread nD τ).loc b) := fun c b => W13 m c b
/-- After the host stretch `hostOps6`. -/
abbrev W14 (c : Dev nD) : Valuation τ sig (Elt F) := StableHlo.after hostOps6 (W13 m c)
/-- Region 6's entry contents, read at the TensorCore's references. -/
abbrev Ven6 : (c : Dev nD) → (b : Ref sig .tc) → Buf (Elt F) ((c : Thread nD τ).loc b) := fun c b => W14 m c b
/-- At region 6's exit: each output array at what the pipeline leaves, every other buffer as entered. -/
def W15 (c : Dev nD) : Valuation τ sig (Elt F) :=
  Function.update (W14 m c) main_v106 ((dat6 (Ven6 m) c).arrAt 3 cfg6.N)
/-- Region 6's exit contents, read at the TensorCore's references. -/
abbrev Vex6 : (c : Dev nD) → (b : Ref sig .tc) → Buf (Elt F) ((c : Thread nD τ).loc b) := fun c b => W15 m c b
/-- After the host stretch `hostOps7`. -/
abbrev W16 (c : Dev nD) : Valuation τ sig (Elt F) := StableHlo.after hostOps7 (W15 m c)
/-- Region 7's entry contents, read at the TensorCore's references. -/
abbrev Ven7 : (c : Dev nD) → (b : Ref sig .tc) → Buf (Elt F) ((c : Thread nD τ).loc b) := fun c b => W16 m c b
/-- At region 7's exit: each output array at what the pipeline leaves, every other buffer as entered. -/
def W17 (c : Dev nD) : Valuation τ sig (Elt F) :=
  Function.update (Function.update (W16 m c) main_v117_0 ((dat7 (Ven7 m) c).arrAt 3 cfg7.N)) main_v117_1 ((dat7 (Ven7 m) c).arrAt 4 cfg7.N)
/-- Region 7's exit contents, read at the TensorCore's references. -/
abbrev Vex7 : (c : Dev nD) → (b : Ref sig .tc) → Buf (Elt F) ((c : Thread nD τ).loc b) := fun c b => W17 m c b
/-- Region 8's entry contents, read at the TensorCore's references. -/
abbrev Ven8 : (c : Dev nD) → (b : Ref sig .tc) → Buf (Elt F) ((c : Thread nD τ).loc b) := fun c b => W17 m c b
/-- At region 8's exit: each output array at what the pipeline leaves, every other buffer as entered. -/
def W18 (c : Dev nD) : Valuation τ sig (Elt F) :=
  Function.update (W17 m c) main_v118 ((dat8 (Ven8 m) c).arrAt 3 cfg8.N)
/-- Region 8's exit contents, read at the TensorCore's references. -/
abbrev Vex8 : (c : Dev nD) → (b : Ref sig .tc) → Buf (Elt F) ((c : Thread nD τ).loc b) := fun c b => W18 m c b
/-- After the host stretch `hostOps9`. -/
abbrev W19 (c : Dev nD) : Valuation τ sig (Elt F) := StableHlo.after hostOps9 (W18 m c)
/-- Region 9's entry contents, read at the TensorCore's references. -/
abbrev Ven9 : (c : Dev nD) → (b : Ref sig .tc) → Buf (Elt F) ((c : Thread nD τ).loc b) := fun c b => W19 m c b
/-- At region 9's exit: each output array at what the pipeline leaves, every other buffer as entered. -/
def W20 (c : Dev nD) : Valuation τ sig (Elt F) :=
  Function.update (W19 m c) main_v132 ((dat9 (Ven9 m) c).arrAt 4 cfg9.N)
/-- Region 9's exit contents, read at the TensorCore's references. -/
abbrev Vex9 : (c : Dev nD) → (b : Ref sig .tc) → Buf (Elt F) ((c : Thread nD τ).loc b) := fun c b => W20 m c b
/-- After the host stretch `hostOps10`. -/
abbrev W21 (c : Dev nD) : Valuation τ sig (Elt F) := StableHlo.after hostOps10 (W20 m c)
/-- Region 10's entry contents, read at the TensorCore's references. -/
abbrev Ven10 : (c : Dev nD) → (b : Ref sig .tc) → Buf (Elt F) ((c : Thread nD τ).loc b) := fun c b => W21 m c b
/-- At region 10's exit: each output array at what the pipeline leaves, every other buffer as entered. -/
def W22 (c : Dev nD) : Valuation τ sig (Elt F) :=
  Function.update (W21 m c) main_v135 ((dat10 (Ven10 m) c).arrAt 2 cfg10.N)
/-- Region 10's exit contents, read at the TensorCore's references. -/
abbrev Vex10 : (c : Dev nD) → (b : Ref sig .tc) → Buf (Elt F) ((c : Thread nD τ).loc b) := fun c b => W22 m c b
/-- After the host stretch `hostOps11`. -/
abbrev W23 (c : Dev nD) : Valuation τ sig (Elt F) := StableHlo.after hostOps11 (W22 m c)
/-- Region 11's entry contents, read at the TensorCore's references. -/
abbrev Ven11 : (c : Dev nD) → (b : Ref sig .tc) → Buf (Elt F) ((c : Thread nD τ).loc b) := fun c b => W23 m c b
/-- At region 11's exit: each output array at what the pipeline leaves, every other buffer as entered. -/
def W24 (c : Dev nD) : Valuation τ sig (Elt F) :=
  Function.update (W23 m c) main_v154 ((dat11 (Ven11 m) c).arrAt 3 cfg11.N)
/-- Region 11's exit contents, read at the TensorCore's references. -/
abbrev Vex11 : (c : Dev nD) → (b : Ref sig .tc) → Buf (Elt F) ((c : Thread nD τ).loc b) := fun c b => W24 m c b
/-- After the host stretch `hostOps12`. -/
abbrev W25 (c : Dev nD) : Valuation τ sig (Elt F) := StableHlo.after hostOps12 (W24 m c)
/-- Region 12's entry contents, read at the TensorCore's references. -/
abbrev Ven12 : (c : Dev nD) → (b : Ref sig .tc) → Buf (Elt F) ((c : Thread nD τ).loc b) := fun c b => W25 m c b
/-- At region 12's exit: each output array at what the pipeline leaves, every other buffer as entered. -/
def W26 (c : Dev nD) : Valuation τ sig (Elt F) :=
  Function.update (Function.update (W25 m c) main_v165_0 ((dat12 (Ven12 m) c).arrAt 3 cfg12.N)) main_v165_1 ((dat12 (Ven12 m) c).arrAt 4 cfg12.N)
/-- Region 12's exit contents, read at the TensorCore's references. -/
abbrev Vex12 : (c : Dev nD) → (b : Ref sig .tc) → Buf (Elt F) ((c : Thread nD τ).loc b) := fun c b => W26 m c b
/-- Region 13's entry contents, read at the TensorCore's references. -/
abbrev Ven13 : (c : Dev nD) → (b : Ref sig .tc) → Buf (Elt F) ((c : Thread nD τ).loc b) := fun c b => W26 m c b
/-- At region 13's exit: each output array at what the pipeline leaves, every other buffer as entered. -/
def W27 (c : Dev nD) : Valuation τ sig (Elt F) :=
  Function.update (W26 m c) main_v166 ((dat13 (Ven13 m) c).arrAt 3 cfg13.N)
/-- Region 13's exit contents, read at the TensorCore's references. -/
abbrev Vex13 : (c : Dev nD) → (b : Ref sig .tc) → Buf (Elt F) ((c : Thread nD τ).loc b) := fun c b => W27 m c b
/-- After the host stretch `hostOps14`. -/
abbrev W28 (c : Dev nD) : Valuation τ sig (Elt F) := StableHlo.after hostOps14 (W27 m c)
/-- Region 14's entry contents, read at the TensorCore's references. -/
abbrev Ven14 : (c : Dev nD) → (b : Ref sig .tc) → Buf (Elt F) ((c : Thread nD τ).loc b) := fun c b => W28 m c b
/-- At region 14's exit: each output array at what the pipeline leaves, every other buffer as entered. -/
def W29 (c : Dev nD) : Valuation τ sig (Elt F) :=
  Function.update (W28 m c) main_v180 ((dat14 (Ven14 m) c).arrAt 4 cfg14.N)
/-- Region 14's exit contents, read at the TensorCore's references. -/
abbrev Vex14 : (c : Dev nD) → (b : Ref sig .tc) → Buf (Elt F) ((c : Thread nD τ).loc b) := fun c b => W29 m c b
/-- After the host stretch `hostOps15`. -/
abbrev W30 (c : Dev nD) : Valuation τ sig (Elt F) := StableHlo.after hostOps15 (W29 m c)
/-- Region 15's entry contents, read at the TensorCore's references. -/
abbrev Ven15 : (c : Dev nD) → (b : Ref sig .tc) → Buf (Elt F) ((c : Thread nD τ).loc b) := fun c b => W30 m c b
/-- At region 15's exit: each output array at what the pipeline leaves, every other buffer as entered. -/
def W31 (c : Dev nD) : Valuation τ sig (Elt F) :=
  Function.update (W30 m c) main_v182 ((dat15 (Ven15 m) c).arrAt 3 cfg15.N)
/-- Region 15's exit contents, read at the TensorCore's references. -/
abbrev Vex15 : (c : Dev nD) → (b : Ref sig .tc) → Buf (Elt F) ((c : Thread nD τ).loc b) := fun c b => W31 m c b
/-- After the host stretch `hostOps16`. -/
abbrev W32 (c : Dev nD) : Valuation τ sig (Elt F) := StableHlo.after hostOps16 (W31 m c)
/-- Region 16's entry contents, read at the TensorCore's references. -/
abbrev Ven16 : (c : Dev nD) → (b : Ref sig .tc) → Buf (Elt F) ((c : Thread nD τ).loc b) := fun c b => W32 m c b
/-- At region 16's exit: each output array at what the pipeline leaves, every other buffer as entered. -/
def W33 (c : Dev nD) : Valuation τ sig (Elt F) :=
  Function.update (W32 m c) main_v185 ((dat16 (Ven16 m) c).arrAt 5 cfg16.N)
/-- Region 16's exit contents, read at the TensorCore's references. -/
abbrev Vex16 : (c : Dev nD) → (b : Ref sig .tc) → Buf (Elt F) ((c : Thread nD τ).loc b) := fun c b => W33 m c b

/-! ## The proof data, each region's at its entry contents -/

/-- Every pipeline's proof data: a literal `match`, so that at a numeral it reduces to that region's record. -/
def pdats : (p : Fin 17) → (c : Dev nD) → Dat τ (Elt F) Unit ℕ (UR sig nD τ) ℕ (cfgs p) c
  | ⟨0, _⟩ => fun c => dat0 (Ven0 m) c
  | ⟨1, _⟩ => fun c => dat1 (Ven1 m) c
  | ⟨2, _⟩ => fun c => dat2 (Ven2 m) c
  | ⟨3, _⟩ => fun c => dat3 (Ven3 m) c
  | ⟨4, _⟩ => fun c => dat4 (Ven4 m) c
  | ⟨5, _⟩ => fun c => dat5 (Ven5 m) c
  | ⟨6, _⟩ => fun c => dat6 (Ven6 m) c
  | ⟨7, _⟩ => fun c => dat7 (Ven7 m) c
  | ⟨8, _⟩ => fun c => dat8 (Ven8 m) c
  | ⟨9, _⟩ => fun c => dat9 (Ven9 m) c
  | ⟨10, _⟩ => fun c => dat10 (Ven10 m) c
  | ⟨11, _⟩ => fun c => dat11 (Ven11 m) c
  | ⟨12, _⟩ => fun c => dat12 (Ven12 m) c
  | ⟨13, _⟩ => fun c => dat13 (Ven13 m) c
  | ⟨14, _⟩ => fun c => dat14 (Ven14 m) c
  | ⟨15, _⟩ => fun c => dat15 (Ven15 m) c
  | ⟨16, _⟩ => fun c => dat16 (Ven16 m) c
  | ⟨_ + 17, h⟩ => absurd h (Nat.not_lt.2 (Nat.le_add_left _ _))

/-! ## The fold against the conditional frame's valuations -/

/-- What the regions leave, as the conditional frame reads it: the fold at the boundary after the region. -/
def outs : GenP.Outs (F := F) := fun J r c =>
  match J with
  | 4 => W4 m c r
  | 6 => W6 m c r
  | 8 => W8 m c r
  | 9 => W9 m c r
  | 11 => W11 m c r
  | 13 => W13 m c r
  | 15 => W15 m c r
  | 17 => W17 m c r
  | 18 => W18 m c r
  | 20 => W20 m c r
  | 22 => W22 m c r
  | 24 => W24 m c r
  | 26 => W26 m c r
  | 27 => W27 m c r
  | 29 => W29 m c r
  | 31 => W31 m c r
  | 33 => W33 m c r
  | _ => W0 m c r

theorem V0_eq (c : Dev nD) : GenP.V0 m c = W0 m c := rfl
theorem V1_eq (c : Dev nD) : GenP.V1 m c = W1 m c := by
  show StableHlo.after hostOps0 (GenP.V0 m c) = _
  rw [V0_eq]
theorem V2_eq (c : Dev nD) : GenP.V2 m c = W2 m c := by
  show StableHlo.after hostOps0_1 (GenP.V1 m c) = _
  rw [V1_eq]
theorem V3_eq (c : Dev nD) : GenP.V3 m c = W3 m c := by
  show StableHlo.after hostOps0_2 (GenP.V2 m c) = _
  rw [V2_eq]
theorem V4_eq (c : Dev nD) : GenP.V4 m (outs m) c = W4 m c := by
  show Function.update (GenP.V3 m c) main_v39 (W4 m c main_v39) = _
  rw [V3_eq]
  exact update_idem _ _ _
theorem V5_eq (c : Dev nD) : GenP.V5 m (outs m) c = W5 m c := by
  show StableHlo.after hostOps1 (GenP.V4 m (outs m) c) = _
  rw [V4_eq]
theorem V6_eq (c : Dev nD) : GenP.V6 m (outs m) c = W6 m c := by
  show Function.update (GenP.V5 m (outs m) c) main_v58 (W6 m c main_v58) = _
  rw [V5_eq]
  exact update_idem _ _ _
theorem V7_eq (c : Dev nD) : GenP.V7 m (outs m) c = W7 m c := by
  show StableHlo.after hostOps2 (GenP.V6 m (outs m) c) = _
  rw [V6_eq]
theorem V8_eq (c : Dev nD) : GenP.V8 m (outs m) c = W8 m c := by
  show Function.update (Function.update (GenP.V7 m (outs m) c) main_v69_0 (W8 m c main_v69_0)) main_v69_1 (W8 m c main_v69_1) = _
  rw [V7_eq]
  exact update_idem₂ _ _ _ (by decide) _ _
theorem V9_eq (c : Dev nD) : GenP.V9 m (outs m) c = W9 m c := by
  show Function.update (GenP.V8 m (outs m) c) main_v70 (W9 m c main_v70) = _
  rw [V8_eq]
  exact update_idem _ _ _
theorem V10_eq (c : Dev nD) : GenP.V10 m (outs m) c = W10 m c := by
  show StableHlo.after hostOps4 (GenP.V9 m (outs m) c) = _
  rw [V9_eq]
theorem V11_eq (c : Dev nD) : GenP.V11 m (outs m) c = W11 m c := by
  show Function.update (GenP.V10 m (outs m) c) main_v84 (W11 m c main_v84) = _
  rw [V10_eq]
  exact update_idem _ _ _
theorem V12_eq (c : Dev nD) : GenP.V12 m (outs m) c = W12 m c := by
  show StableHlo.after hostOps5 (GenP.V11 m (outs m) c) = _
  rw [V11_eq]
theorem V13_eq (c : Dev nD) : GenP.V13 m (outs m) c = W13 m c := by
  show Function.update (GenP.V12 m (outs m) c) main_v87 (W13 m c main_v87) = _
  rw [V12_eq]
  exact update_idem _ _ _
theorem V14_eq (c : Dev nD) : GenP.V14 m (outs m) c = W14 m c := by
  show StableHlo.after hostOps6 (GenP.V13 m (outs m) c) = _
  rw [V13_eq]
theorem V15_eq (c : Dev nD) : GenP.V15 m (outs m) c = W15 m c := by
  show Function.update (GenP.V14 m (outs m) c) main_v106 (W15 m c main_v106) = _
  rw [V14_eq]
  exact update_idem _ _ _
theorem V16_eq (c : Dev nD) : GenP.V16 m (outs m) c = W16 m c := by
  show StableHlo.after hostOps7 (GenP.V15 m (outs m) c) = _
  rw [V15_eq]
theorem V17_eq (c : Dev nD) : GenP.V17 m (outs m) c = W17 m c := by
  show Function.update (Function.update (GenP.V16 m (outs m) c) main_v117_0 (W17 m c main_v117_0)) main_v117_1 (W17 m c main_v117_1) = _
  rw [V16_eq]
  exact update_idem₂ _ _ _ (by decide) _ _
theorem V18_eq (c : Dev nD) : GenP.V18 m (outs m) c = W18 m c := by
  show Function.update (GenP.V17 m (outs m) c) main_v118 (W18 m c main_v118) = _
  rw [V17_eq]
  exact update_idem _ _ _
theorem V19_eq (c : Dev nD) : GenP.V19 m (outs m) c = W19 m c := by
  show StableHlo.after hostOps9 (GenP.V18 m (outs m) c) = _
  rw [V18_eq]
theorem V20_eq (c : Dev nD) : GenP.V20 m (outs m) c = W20 m c := by
  show Function.update (GenP.V19 m (outs m) c) main_v132 (W20 m c main_v132) = _
  rw [V19_eq]
  exact update_idem _ _ _
theorem V21_eq (c : Dev nD) : GenP.V21 m (outs m) c = W21 m c := by
  show StableHlo.after hostOps10 (GenP.V20 m (outs m) c) = _
  rw [V20_eq]
theorem V22_eq (c : Dev nD) : GenP.V22 m (outs m) c = W22 m c := by
  show Function.update (GenP.V21 m (outs m) c) main_v135 (W22 m c main_v135) = _
  rw [V21_eq]
  exact update_idem _ _ _
theorem V23_eq (c : Dev nD) : GenP.V23 m (outs m) c = W23 m c := by
  show StableHlo.after hostOps11 (GenP.V22 m (outs m) c) = _
  rw [V22_eq]
theorem V24_eq (c : Dev nD) : GenP.V24 m (outs m) c = W24 m c := by
  show Function.update (GenP.V23 m (outs m) c) main_v154 (W24 m c main_v154) = _
  rw [V23_eq]
  exact update_idem _ _ _
theorem V25_eq (c : Dev nD) : GenP.V25 m (outs m) c = W25 m c := by
  show StableHlo.after hostOps12 (GenP.V24 m (outs m) c) = _
  rw [V24_eq]
theorem V26_eq (c : Dev nD) : GenP.V26 m (outs m) c = W26 m c := by
  show Function.update (Function.update (GenP.V25 m (outs m) c) main_v165_0 (W26 m c main_v165_0)) main_v165_1 (W26 m c main_v165_1) = _
  rw [V25_eq]
  exact update_idem₂ _ _ _ (by decide) _ _
theorem V27_eq (c : Dev nD) : GenP.V27 m (outs m) c = W27 m c := by
  show Function.update (GenP.V26 m (outs m) c) main_v166 (W27 m c main_v166) = _
  rw [V26_eq]
  exact update_idem _ _ _
theorem V28_eq (c : Dev nD) : GenP.V28 m (outs m) c = W28 m c := by
  show StableHlo.after hostOps14 (GenP.V27 m (outs m) c) = _
  rw [V27_eq]
theorem V29_eq (c : Dev nD) : GenP.V29 m (outs m) c = W29 m c := by
  show Function.update (GenP.V28 m (outs m) c) main_v180 (W29 m c main_v180) = _
  rw [V28_eq]
  exact update_idem _ _ _
theorem V30_eq (c : Dev nD) : GenP.V30 m (outs m) c = W30 m c := by
  show StableHlo.after hostOps15 (GenP.V29 m (outs m) c) = _
  rw [V29_eq]
theorem V31_eq (c : Dev nD) : GenP.V31 m (outs m) c = W31 m c := by
  show Function.update (GenP.V30 m (outs m) c) main_v182 (W31 m c main_v182) = _
  rw [V30_eq]
  exact update_idem _ _ _
theorem V32_eq (c : Dev nD) : GenP.V32 m (outs m) c = W32 m c := by
  show StableHlo.after hostOps16 (GenP.V31 m (outs m) c) = _
  rw [V31_eq]
theorem V33_eq (c : Dev nD) : GenP.V33 m (outs m) c = W33 m c := by
  show Function.update (GenP.V32 m (outs m) c) main_v185 (W33 m c main_v185) = _
  rw [V32_eq]
  exact update_idem _ _ _

/-! ## Each region's entry and exit, as the conditional frame names them -/

theorem Ven_eq0 (c : Dev nD) : GenP.V3 m c = W3 m c := V3_eq m c
theorem Vex_eq0 (c : Dev nD) : GenP.V4 m (outs m) c = W4 m c := V4_eq m c
theorem Ven_eq1 (c : Dev nD) : GenP.V5 m (outs m) c = W5 m c := V5_eq m c
theorem Vex_eq1 (c : Dev nD) : GenP.V6 m (outs m) c = W6 m c := V6_eq m c
theorem Ven_eq2 (c : Dev nD) : GenP.V7 m (outs m) c = W7 m c := V7_eq m c
theorem Vex_eq2 (c : Dev nD) : GenP.V8 m (outs m) c = W8 m c := V8_eq m c
theorem Ven_eq3 (c : Dev nD) : GenP.V8 m (outs m) c = W8 m c := V8_eq m c
theorem Vex_eq3 (c : Dev nD) : GenP.V9 m (outs m) c = W9 m c := V9_eq m c
theorem Ven_eq4 (c : Dev nD) : GenP.V10 m (outs m) c = W10 m c := V10_eq m c
theorem Vex_eq4 (c : Dev nD) : GenP.V11 m (outs m) c = W11 m c := V11_eq m c
theorem Ven_eq5 (c : Dev nD) : GenP.V12 m (outs m) c = W12 m c := V12_eq m c
theorem Vex_eq5 (c : Dev nD) : GenP.V13 m (outs m) c = W13 m c := V13_eq m c
theorem Ven_eq6 (c : Dev nD) : GenP.V14 m (outs m) c = W14 m c := V14_eq m c
theorem Vex_eq6 (c : Dev nD) : GenP.V15 m (outs m) c = W15 m c := V15_eq m c
theorem Ven_eq7 (c : Dev nD) : GenP.V16 m (outs m) c = W16 m c := V16_eq m c
theorem Vex_eq7 (c : Dev nD) : GenP.V17 m (outs m) c = W17 m c := V17_eq m c
theorem Ven_eq8 (c : Dev nD) : GenP.V17 m (outs m) c = W17 m c := V17_eq m c
theorem Vex_eq8 (c : Dev nD) : GenP.V18 m (outs m) c = W18 m c := V18_eq m c
theorem Ven_eq9 (c : Dev nD) : GenP.V19 m (outs m) c = W19 m c := V19_eq m c
theorem Vex_eq9 (c : Dev nD) : GenP.V20 m (outs m) c = W20 m c := V20_eq m c
theorem Ven_eq10 (c : Dev nD) : GenP.V21 m (outs m) c = W21 m c := V21_eq m c
theorem Vex_eq10 (c : Dev nD) : GenP.V22 m (outs m) c = W22 m c := V22_eq m c
theorem Ven_eq11 (c : Dev nD) : GenP.V23 m (outs m) c = W23 m c := V23_eq m c
theorem Vex_eq11 (c : Dev nD) : GenP.V24 m (outs m) c = W24 m c := V24_eq m c
theorem Ven_eq12 (c : Dev nD) : GenP.V25 m (outs m) c = W25 m c := V25_eq m c
theorem Vex_eq12 (c : Dev nD) : GenP.V26 m (outs m) c = W26 m c := V26_eq m c
theorem Ven_eq13 (c : Dev nD) : GenP.V26 m (outs m) c = W26 m c := V26_eq m c
theorem Vex_eq13 (c : Dev nD) : GenP.V27 m (outs m) c = W27 m c := V27_eq m c
theorem Ven_eq14 (c : Dev nD) : GenP.V28 m (outs m) c = W28 m c := V28_eq m c
theorem Vex_eq14 (c : Dev nD) : GenP.V29 m (outs m) c = W29 m c := V29_eq m c
theorem Ven_eq15 (c : Dev nD) : GenP.V30 m (outs m) c = W30 m c := V30_eq m c
theorem Vex_eq15 (c : Dev nD) : GenP.V31 m (outs m) c = W31 m c := V31_eq m c
theorem Ven_eq16 (c : Dev nD) : GenP.V32 m (outs m) c = W32 m c := V32_eq m c
theorem Vex_eq16 (c : Dev nD) : GenP.V33 m (outs m) c = W33 m c := V33_eq m c

end Cert.Kernel.Hand

end
-- ==== Proof.Kernel.RunCond.lean ====
import proofs.«422469_j24000277250640_1_alg».proof.Proof.Kernel.RegionsP

set_option maxRecDepth 1936

noncomputable section

namespace Cert.Kernel.Hand

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

set_option backward.isDefEq.respectTransparency.types false in
/-- The conditional run with its values. Under the hypotheses of the conditional frame — per region a segment record
    entered from the thread state before it and left at the one after it —, every weakly fair execution of the program
    from memory `m` with zero counters terminates, and every final memory holds the two results at the last
    valuation `V33 m outs c` and each of the twelve arguments as launched. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 17) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V10 m outs c) ∗ E 4 c) ⊢ R4.pre c)
    (hpost4 : ∀ c : Dev nD, R4.post c ⊢ iprop(StableHlo.held (c : Thread nD τ) (Pipeline.ucRefs τ sig) (V11 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V12 m outs c) ∗ E 5 c) ⊢ R5.pre c)
    (hpost5 : ∀ c : Dev nD, R5.post c ⊢ iprop(StableHlo.held (c : Thread nD τ) (Pipeline.ucRefs τ sig) (V13 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V14 m outs c) ∗ E 6 c) ⊢ R6.pre c)
    (hpost6 : ∀ c : Dev nD, R6.post c ⊢ iprop(StableHlo.held (c : Thread nD τ) (Pipeline.ucRefs τ sig) (V15 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V16 m outs c) ∗ E 7 c) ⊢ R7.pre c)
    (hpost7 : ∀ c : Dev nD, R7.post c ⊢ iprop(StableHlo.held (c : Thread nD τ) (Pipeline.ucRefs τ sig) (V17 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V26 m outs c) ∗ E 13 c) ⊢ R13.pre c)
    (hpost13 : ∀ c : Dev nD, R13.post c ⊢ iprop(StableHlo.held (c : Thread nD τ) (Pipeline.ucRefs τ sig) (V27 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V28 m outs c) ∗ E 14 c) ⊢ R14.pre c)
    (hpost14 : ∀ c : Dev nD, R14.post c ⊢ iprop(StableHlo.held (c : Thread nD τ) (Pipeline.ucRefs τ sig) (V29 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V30 m outs c) ∗ E 15 c) ⊢ R15.pre c)
    (hpost15 : ∀ c : Dev nD, R15.post c ⊢ iprop(StableHlo.held (c : Thread nD τ) (Pipeline.ucRefs τ sig) (V31 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V32 m outs c) ∗ E 16 c) ⊢ R16.pre c)
    (hpost16 : ∀ c : Dev nD, R16.post c ⊢ iprop(StableHlo.held (c : Thread nD τ) (Pipeline.ucRefs τ sig) (V33 m outs c) ∗ E 17 c)) :
    θ_run defs (onTc (τ := τ) (main (F := F))) ⟨m, fun _ => 0, ρ⟩ (fun r => ∀ c : Dev nD,
      r.2.mem ((c.tc : Thread nD τ).loc main_v180) = GenP.V33 m outs c main_v180
      ∧ r.2.mem ((c.tc : Thread nD τ).loc main_v185) = GenP.V33 m outs c main_v185
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16)
    (fun c Q => by
      rewrite [main_chain c, Seg.run_eq_chain,
        show (segs m outs 𝒱₀ L lv E ι pdats R0 R1 R2 R3 R4 R5 R6 R7 R8 R9 R10 R11 R12 R13 R14 R15 R16 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V33 m outs c))
    (hch := fun c => ⟨.rfl, .rfl, .rfl, hpre0 c, hpost0 c, hpre1 c, hpost1 c, hpre2 c, (hpost2 c).trans (hpre3 c), hpost3 c, hpre4 c, hpost4 c, hpre5 c, hpost5 c, hpre6 c, hpost6 c, hpre7 c, (hpost7 c).trans (hpre8 c), hpost8 c, hpre9 c, hpost9 c, hpre10 c, hpost10 c, hpre11 c, hpost11 c, hpre12 c, (hpost12 c).trans (hpre13 c), hpost13 c, hpre14 c, hpost14 c, hpre15 c, hpost15 c, hpre16 c, (hpost16 c).trans (sep_mono .rfl (hE17 c))⟩)
    (hinit := ?_) (QY := fun c s => s.mem ((c.tc : Thread nD τ).loc main_v180) = GenP.V33 m outs c main_v180 ∧ s.mem ((c.tc : Thread nD τ).loc main_v185) = GenP.V33 m outs c main_v185 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- at the launch every unscoped buffer holds its launch contents; what remains yields `E 0` on all cores together
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end the two results and the twelve arguments are read off the last valuation
    unfold StableHlo.held
    iintro ⟨Hh, HSI⟩
    ihave Hr := (pointsTo_read_all (Pipeline.ucRefs τ sig) (fun b => ((c : Thread nD τ).1, b)) (V33 m outs c) s') $$ [Hh HSI]
    · isplitl [Hh] <;> iassumption
    icases Hr with ⟨%h, HSI⟩
    imodintro
    isplitr
    · ipureintro
      exact ⟨h (Proc.devRef .tc main_v180) (Finset.mem_filter.mpr ⟨StableHlo.devRef_mem_tcRefs main_v180, by decide⟩),
        h (Proc.devRef .tc main_v185) (Finset.mem_filter.mpr ⟨StableHlo.devRef_mem_tcRefs main_v185, by decide⟩),
        (h (Proc.devRef .tc main_arg0) (Finset.mem_filter.mpr ⟨StableHlo.devRef_mem_tcRefs main_arg0, by decide⟩)).trans (V33_main_arg0 m outs c),
        (h (Proc.devRef .tc main_arg1) (Finset.mem_filter.mpr ⟨StableHlo.devRef_mem_tcRefs main_arg1, by decide⟩)).trans (V33_main_arg1 m outs c),
        (h (Proc.devRef .tc main_arg2) (Finset.mem_filter.mpr ⟨StableHlo.devRef_mem_tcRefs main_arg2, by decide⟩)).trans (V33_main_arg2 m outs c),
        (h (Proc.devRef .tc main_arg3) (Finset.mem_filter.mpr ⟨StableHlo.devRef_mem_tcRefs main_arg3, by decide⟩)).trans (V33_main_arg3 m outs c),
        (h (Proc.devRef .tc main_arg4) (Finset.mem_filter.mpr ⟨StableHlo.devRef_mem_tcRefs main_arg4, by decide⟩)).trans (V33_main_arg4 m outs c),
        (h (Proc.devRef .tc main_arg5) (Finset.mem_filter.mpr ⟨StableHlo.devRef_mem_tcRefs main_arg5, by decide⟩)).trans (V33_main_arg5 m outs c),
        (h (Proc.devRef .tc main_arg6) (Finset.mem_filter.mpr ⟨StableHlo.devRef_mem_tcRefs main_arg6, by decide⟩)).trans (V33_main_arg6 m outs c),
        (h (Proc.devRef .tc main_arg7) (Finset.mem_filter.mpr ⟨StableHlo.devRef_mem_tcRefs main_arg7, by decide⟩)).trans (V33_main_arg7 m outs c),
        (h (Proc.devRef .tc main_arg8) (Finset.mem_filter.mpr ⟨StableHlo.devRef_mem_tcRefs main_arg8, by decide⟩)).trans (V33_main_arg8 m outs c),
        (h (Proc.devRef .tc main_arg9) (Finset.mem_filter.mpr ⟨StableHlo.devRef_mem_tcRefs main_arg9, by decide⟩)).trans (V33_main_arg9 m outs c),
        (h (Proc.devRef .tc main_arg10) (Finset.mem_filter.mpr ⟨StableHlo.devRef_mem_tcRefs main_arg10, by decide⟩)).trans (V33_main_arg10 m outs c),
        (h (Proc.devRef .tc main_arg11) (Finset.mem_filter.mpr ⟨StableHlo.devRef_mem_tcRefs main_arg11, by decide⟩)).trans (V33_main_arg11 m outs c)⟩
    · iexact HSI

end Cert.Kernel.Hand

end
-- ==== Proof.Kernel.Seg0.lean ====
/- Region 0 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 0's arrays and off them -/

theorem Wex0_out0 (c : Dev nD) : Vex0 m c main_v39 = (dat0 (Ven0 m) c).arrAt 2 cfg0.N := by
  show W4 m c main_v39 = _
  unfold W4; exact Function.update_self _ _ _

theorem Wex0_of_ne (c : Dev nD) (b : Ref sig .tc) (hb : b ≠ main_v39) : Vex0 m c b = Ven0 m c b := by
  show W4 m c b = W3 m c b
  unfold W4; exact Function.update_of_ne (StableHlo.devRef_ne_of_ne hb) _ _

/-- At the exit each array of the region holds what the pipeline leaves: an input what it held at entry, the output
    its write-backs folded. -/
theorem hF0 (c : Dev nD) : ∀ w : Fin cfg0.W, (dat0 (Ven0 m) c).arrAt w cfg0.N = Vex0 m c (Pipeline.arrRef spec0 w)
  | ⟨0, _⟩ => ((dat0 (Ven0 m) c).arrAt_in 0 rfl _).trans ((A_eq0 (Ven0 m) c 0).trans (Wex0_of_ne m c _ (by decide)).symm)
  | ⟨1, _⟩ => ((dat0 (Ven0 m) c).arrAt_in 1 rfl _).trans ((A_eq0 (Ven0 m) c 1).trans (Wex0_of_ne m c _ (by decide)).symm)
  | ⟨2, _⟩ => (Wex0_out0 m c).symm
  | ⟨_ + 3, h⟩ => absurd h (Nat.not_lt.2 (Nat.le_add_left 3 _))

/-- Every buffer that is no array of the region holds at the exit what it held at entry. -/
theorem hrest0 (c : Dev nD) : ∀ b, b ∉ Finset.univ.image (Pipeline.arrRef spec0) → Vex0 m c b = Ven0 m c b :=
  fun b hb => Wex0_of_ne m c b fun e => hb (Finset.mem_image.mpr ⟨2, Finset.mem_univ _, e.symm⟩)

/-! ## The region as a segment -/

set_option backward.isDefEq.respectTransparency.types false in
def reg0 : Pipeline.RegionSeg (pcfgs (F := F)) GenP.adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (Ven0 m) c).loose
  hwaits := Pipeline.hwaits_of_owed_zero _ _ _ _ (fun _ => ∅) (fun _ _ => 0) 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (Ven0 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (Ven0 m c) fun w => A_eq0 (Ven0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Ven0 m) c)
    unfold Pipeline.ΦA
    iintro ⟨Hp, -, Hr⟩
    isplitl [Hr]; · iexact Hr
    iexact Hp
  hout c := by
    rw [Pipeline.ownSems0_none]
    refine (hout0 (Ven0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (Ven0 m c) (Vex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre0 (c : Dev nD) : iprop(StableHlo.held (c : Thread nD τ) (Pipeline.ucRefs τ sig) (GenP.V3 m c) ∗ R c) ⊢ (reg0 m).pre c := by
  rw [Ven_eq0]; exact .rfl

theorem hpost0 (c : Dev nD) : (reg0 m).post c ⊢ iprop(StableHlo.held (c : Thread nD τ) (Pipeline.ucRefs τ sig) (GenP.V4 m (outs m) c) ∗ R c) := by
  rw [Vex_eq0]; exact .rfl

end Cert.Kernel.Hand

end
-- ==== Proof.Kernel.Seg1.lean ====
/- Region 1 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 1's arrays and off them -/

theorem Wex1_out0 (c : Dev nD) : Vex1 m c main_v58 = (dat1 (Ven1 m) c).arrAt 3 cfg1.N := by
  show W6 m c main_v58 = _
  unfold W6; exact Function.update_self _ _ _

theorem Wex1_of_ne (c : Dev nD) (b : Ref sig .tc) (hb : b ≠ main_v58) : Vex1 m c b = Ven1 m c b := by
  show W6 m c b = W5 m c b
  unfold W6; exact Function.update_of_ne (StableHlo.devRef_ne_of_ne hb) _ _

/-! At the exit each array of the region holds what the pipeline leaves: an input what it held at entry, an output
    its write-backs folded. One window at a time, then all. -/

theorem hF1_0 (c : Dev nD) : (dat1 (Ven1 m) c).arrAt 0 cfg1.N = Vex1 m c (Pipeline.arrRef spec1 0) :=
  ((dat1 (Ven1 m) c).arrAt_in 0 rfl _).trans ((A_eq1 (Ven1 m) c 0).trans (Wex1_of_ne m c _ (by decide)).symm)
theorem hF1_1 (c : Dev nD) : (dat1 (Ven1 m) c).arrAt 1 cfg1.N = Vex1 m c (Pipeline.arrRef spec1 1) :=
  ((dat1 (Ven1 m) c).arrAt_in 1 rfl _).trans ((A_eq1 (Ven1 m) c 1).trans (Wex1_of_ne m c _ (by decide)).symm)
theorem hF1_2 (c : Dev nD) : (dat1 (Ven1 m) c).arrAt 2 cfg1.N = Vex1 m c (Pipeline.arrRef spec1 2) :=
  ((dat1 (Ven1 m) c).arrAt_in 2 rfl _).trans ((A_eq1 (Ven1 m) c 2).trans (Wex1_of_ne m c _ (by decide)).symm)
theorem hF1_3 (c : Dev nD) : (dat1 (Ven1 m) c).arrAt 3 cfg1.N = Vex1 m c (Pipeline.arrRef spec1 3) :=
  (Wex1_out0 m c).symm

theorem hF1 (c : Dev nD) : ∀ w : Fin cfg1.W, (dat1 (Ven1 m) c).arrAt w cfg1.N = Vex1 m c (Pipeline.arrRef spec1 w)
  | ⟨0, _⟩ => hF1_0 m c
  | ⟨1, _⟩ => hF1_1 m c
  | ⟨2, _⟩ => hF1_2 m c
  | ⟨3, _⟩ => hF1_3 m c
  | ⟨_ + 4, h⟩ => absurd h (Nat.not_lt.2 (Nat.le_add_left 4 _))

/-- Every buffer that is no array of the region holds at the exit what it held at entry. -/
theorem hrest1 (c : Dev nD) : ∀ b, b ∉ Finset.univ.image (Pipeline.arrRef spec1) → Vex1 m c b = Ven1 m c b :=
  fun b hb => Wex1_of_ne m c b fun e => hb (Finset.mem_image.mpr ⟨3, Finset.mem_univ _, e.symm⟩)

/-! ## The region as a segment -/

set_option backward.isDefEq.respectTransparency.types false in
def reg1 : Pipeline.RegionSeg (pcfgs (F := F)) GenP.adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (Ven1 m) c).loose
  hwaits := Pipeline.hwaits_of_owed_zero _ _ _ _ (fun _ => ∅) (fun _ _ => 0) 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (Ven1 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (Ven1 m c) fun w => A_eq1 (Ven1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Ven1 m) c)
    unfold Pipeline.ΦA
    iintro ⟨Hp, -, Hr⟩
    isplitl [Hr]; · iexact Hr
    iexact Hp
  hout c := by
    rw [Pipeline.ownSems0_none]
    refine (hout1 (Ven1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (Ven1 m c) (Vex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre1 (c : Dev nD) : iprop(StableHlo.held (c : Thread nD τ) (Pipeline.ucRefs τ sig) (GenP.V5 m (outs m) c) ∗ R c) ⊢ (reg1 m).pre c := by
  rw [Ven_eq1]; exact .rfl

theorem hpost1 (c : Dev nD) : (reg1 m).post c ⊢ iprop(StableHlo.held (c : Thread nD τ) (Pipeline.ucRefs τ sig) (GenP.V6 m (outs m) c) ∗ R c) := by
  rw [Vex_eq1]; exact .rfl

end Cert.Kernel.Hand

end
-- ==== Proof.Kernel.Seg2.lean ====
/- Region 2 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 2's arrays and off them -/

theorem Wex2_out0 (c : Dev nD) : Vex2 m c main_v69_0 = (dat2 (Ven2 m) c).arrAt 3 cfg2.N := by
  show W8 m c main_v69_0 = _
  unfold W8
  rw [Function.update_of_ne (StableHlo.devRef_ne_of_ne (by decide))]; exact Function.update_self _ _ _

theorem Wex2_out1 (c : Dev nD) : Vex2 m c main_v69_1 = (dat2 (Ven2 m) c).arrAt 4 cfg2.N := by
  show W8 m c main_v69_1 = _
  unfold W8; exact Function.update_self _ _ _

theorem Wex2_of_ne (c : Dev nD) (b : Ref sig .tc) (hb0 : b ≠ main_v69_0) (hb1 : b ≠ main_v69_1) : Vex2 m c b = Ven2 m c b := by
  show W8 m c b = W7 m c b
  unfold W8
  rw [Function.update_of_ne (StableHlo.devRef_ne_of_ne hb1), Function.update_of_ne (StableHlo.devRef_ne_of_ne hb0)]

/-! At the exit each array of the region holds what the pipeline leaves: an input what it held at entry, an output
    its write-backs folded. One window at a time, then all. -/

theorem hF2_0 (c : Dev nD) : (dat2 (Ven2 m) c).arrAt 0 cfg2.N = Vex2 m c (Pipeline.arrRef spec2 0) :=
  ((dat2 (Ven2 m) c).arrAt_in 0 rfl _).trans ((A_eq2 (Ven2 m) c 0).trans (Wex2_of_ne m c _ (by decide) (by decide)).symm)
theorem hF2_1 (c : Dev nD) : (dat2 (Ven2 m) c).arrAt 1 cfg2.N = Vex2 m c (Pipeline.arrRef spec2 1) :=
  ((dat2 (Ven2 m) c).arrAt_in 1 rfl _).trans ((A_eq2 (Ven2 m) c 1).trans (Wex2_of_ne m c _ (by decide) (by decide)).symm)
theorem hF2_2 (c : Dev nD) : (dat2 (Ven2 m) c).arrAt 2 cfg2.N = Vex2 m c (Pipeline.arrRef spec2 2) :=
  ((dat2 (Ven2 m) c).arrAt_in 2 rfl _).trans ((A_eq2 (Ven2 m) c 2).trans (Wex2_of_ne m c _ (by decide) (by decide)).symm)
theorem hF2_3 (c : Dev nD) : (dat2 (Ven2 m) c).arrAt 3 cfg2.N = Vex2 m c (Pipeline.arrRef spec2 3) :=
  (Wex2_out0 m c).symm
theorem hF2_4 (c : Dev nD) : (dat2 (Ven2 m) c).arrAt 4 cfg2.N = Vex2 m c (Pipeline.arrRef spec2 4) :=
  (Wex2_out1 m c).symm

theorem hF2 (c : Dev nD) : ∀ w : Fin cfg2.W, (dat2 (Ven2 m) c).arrAt w cfg2.N = Vex2 m c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨_ + 5, h⟩ => absurd h (Nat.not_lt.2 (Nat.le_add_left 5 _))

/-- Every buffer that is no array of the region holds at the exit what it held at entry. -/
theorem hrest2 (c : Dev nD) : ∀ b, b ∉ Finset.univ.image (Pipeline.arrRef spec2) → Vex2 m c b = Ven2 m c b :=
  fun b hb => Wex2_of_ne m c b (fun e => hb (Finset.mem_image.mpr ⟨3, Finset.mem_univ _, e.symm⟩))
    (fun e => hb (Finset.mem_image.mpr ⟨4, Finset.mem_univ _, e.symm⟩))

/-! ## The region as a segment -/

set_option backward.isDefEq.respectTransparency.types false in
def reg2 : Pipeline.RegionSeg (pcfgs (F := F)) GenP.adm (pdats m) () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := (body_obligation2 (Ven2 m) c).loose
  hwaits := Pipeline.hwaits_of_owed_zero _ _ _ _ (fun _ => ∅) (fun _ _ => 0) 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (Ven2 m c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (Ven2 m c) fun w => A_eq2 (Ven2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (Ven2 m) c)
    unfold Pipeline.ΦA
    iintro ⟨Hp, -, Hr⟩
    isplitl [Hr]; · iexact Hr
    iexact Hp
  hout c := by
    rw [Pipeline.ownSems0_none]
    refine (hout2 (Ven2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (Ven2 m c) (Vex2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre2 (c : Dev nD) : iprop(StableHlo.held (c : Thread nD τ) (Pipeline.ucRefs τ sig) (GenP.V7 m (outs m) c) ∗ R c) ⊢ (reg2 m).pre c := by
  rw [Ven_eq2]; exact .rfl

theorem hpost2 (c : Dev nD) : (reg2 m).post c ⊢ iprop(StableHlo.held (c : Thread nD τ) (Pipeline.ucRefs τ sig) (GenP.V8 m (outs m) c) ∗ R c) := by
  rw [Vex_eq2]; exact .rfl

end Cert.Kernel.Hand

end
-- ==== Proof.Kernel.Seg3.lean ====
/- Region 3 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 3's arrays and off them -/

theorem Wex3_out0 (c : Dev nD) : Vex3 m c main_v70 = (dat3 (Ven3 m) c).arrAt 3 cfg3.N := by
  show W9 m c main_v70 = _
  unfold W9; exact Function.update_self _ _ _

theorem Wex3_of_ne (c : Dev nD) (b : Ref sig .tc) (hb : b ≠ main_v70) : Vex3 m c b = Ven3 m c b := by
  show W9 m c b = W8 m c b
  unfold W9; exact Function.update_of_ne (StableHlo.devRef_ne_of_ne hb) _ _

/-! At the exit each array of the region holds what the pipeline leaves: an input what it held at entry, an output
    its write-backs folded. One window at a time, then all. -/

theorem hF3_0 (c : Dev nD) : (dat3 (Ven3 m) c).arrAt 0 cfg3.N = Vex3 m c (Pipeline.arrRef spec3 0) :=
  ((dat3 (Ven3 m) c).arrAt_in 0 rfl _).trans ((A_eq3 (Ven3 m) c 0).trans (Wex3_of_ne m c _ (by decide)).symm)
theorem hF3_1 (c : Dev nD) : (dat3 (Ven3 m) c).arrAt 1 cfg3.N = Vex3 m c (Pipeline.arrRef spec3 1) :=
  ((dat3 (Ven3 m) c).arrAt_in 1 rfl _).trans ((A_eq3 (Ven3 m) c 1).trans (Wex3_of_ne m c _ (by decide)).symm)
theorem hF3_2 (c : Dev nD) : (dat3 (Ven3 m) c).arrAt 2 cfg3.N = Vex3 m c (Pipeline.arrRef spec3 2) :=
  ((dat3 (Ven3 m) c).arrAt_in 2 rfl _).trans ((A_eq3 (Ven3 m) c 2).trans (Wex3_of_ne m c _ (by decide)).symm)
theorem hF3_3 (c : Dev nD) : (dat3 (Ven3 m) c).arrAt 3 cfg3.N = Vex3 m c (Pipeline.arrRef spec3 3) :=
  (Wex3_out0 m c).symm

theorem hF3 (c : Dev nD) : ∀ w : Fin cfg3.W, (dat3 (Ven3 m) c).arrAt w cfg3.N = Vex3 m c (Pipeline.arrRef spec3 w)
  | ⟨0, _⟩ => hF3_0 m c
  | ⟨1, _⟩ => hF3_1 m c
  | ⟨2, _⟩ => hF3_2 m c
  | ⟨3, _⟩ => hF3_3 m c
  | ⟨_ + 4, h⟩ => absurd h (Nat.not_lt.2 (Nat.le_add_left 4 _))

/-- Every buffer that is no array of the region holds at the exit what it held at entry. -/
theorem hrest3 (c : Dev nD) : ∀ b, b ∉ Finset.univ.image (Pipeline.arrRef spec3) → Vex3 m c b = Ven3 m c b :=
  fun b hb => Wex3_of_ne m c b fun e => hb (Finset.mem_image.mpr ⟨3, Finset.mem_univ _, e.symm⟩)

/-! ## The region as a segment -/

set_option backward.isDefEq.respectTransparency.types false in
def reg3 : Pipeline.RegionSeg (pcfgs (F := F)) GenP.adm (pdats m) () defs₀ Variants.none (fun _ => ∅) (fun _ _ => 0) 3 where
  win := launch3.win.to₀
  block_pos := launch3.block_pos
  stage_whole := launch3.stage_whole
  K := PEmpty
  osem k := k.elim
  ho := Pipeline.OwnSemFacts.none _
  hbody c := (body_obligation3 (Ven3 m) c).loose
  hwaits := Pipeline.hwaits_of_owed_zero _ _ _ _ (fun _ => ∅) (fun _ _ => 0) 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (Ven3 m c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (Ven3 m c) fun w => A_eq3 (Ven3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (Ven3 m) c)
    unfold Pipeline.ΦA
    iintro ⟨Hp, -, Hr⟩
    isplitl [Hr]; · iexact Hr
    iexact Hp
  hout c := by
    rw [Pipeline.ownSems0_none]
    refine (hout3 (Ven3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (Ven3 m c) (Vex3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre3 (c : Dev nD) : iprop(StableHlo.held (c : Thread nD τ) (Pipeline.ucRefs τ sig) (GenP.V8 m (outs m) c) ∗ R c) ⊢ (reg3 m).pre c := by
  rw [Ven_eq3]; exact .rfl

theorem hpost3 (c : Dev nD) : (reg3 m).post c ⊢ iprop(StableHlo.held (c : Thread nD τ) (Pipeline.ucRefs τ sig) (GenP.V9 m (outs m) c) ∗ R c) := by
  rw [Vex_eq3]; exact .rfl

end Cert.Kernel.Hand

end
-- ==== Proof.Kernel.Seg4.lean ====
/- Region 4 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 4's arrays and off them -/

theorem Wex4_out0 (c : Dev nD) : Vex4 m c main_v84 = (dat4 (Ven4 m) c).arrAt 4 cfg4.N := by
  show W11 m c main_v84 = _
  unfold W11; exact Function.update_self _ _ _

theorem Wex4_of_ne (c : Dev nD) (b : Ref sig .tc) (hb : b ≠ main_v84) : Vex4 m c b = Ven4 m c b := by
  show W11 m c b = W10 m c b
  unfold W11; exact Function.update_of_ne (StableHlo.devRef_ne_of_ne hb) _ _

/-! At the exit each array of the region holds what the pipeline leaves: an input what it held at entry, an output
    its write-backs folded. One window at a time, then all. -/

theorem hF4_0 (c : Dev nD) : (dat4 (Ven4 m) c).arrAt 0 cfg4.N = Vex4 m c (Pipeline.arrRef spec4 0) :=
  ((dat4 (Ven4 m) c).arrAt_in 0 rfl _).trans ((A_eq4 (Ven4 m) c 0).trans (Wex4_of_ne m c _ (by decide)).symm)
theorem hF4_1 (c : Dev nD) : (dat4 (Ven4 m) c).arrAt 1 cfg4.N = Vex4 m c (Pipeline.arrRef spec4 1) :=
  ((dat4 (Ven4 m) c).arrAt_in 1 rfl _).trans ((A_eq4 (Ven4 m) c 1).trans (Wex4_of_ne m c _ (by decide)).symm)
theorem hF4_2 (c : Dev nD) : (dat4 (Ven4 m) c).arrAt 2 cfg4.N = Vex4 m c (Pipeline.arrRef spec4 2) :=
  ((dat4 (Ven4 m) c).arrAt_in 2 rfl _).trans ((A_eq4 (Ven4 m) c 2).trans (Wex4_of_ne m c _ (by decide)).symm)
theorem hF4_3 (c : Dev nD) : (dat4 (Ven4 m) c).arrAt 3 cfg4.N = Vex4 m c (Pipeline.arrRef spec4 3) :=
  ((dat4 (Ven4 m) c).arrAt_in 3 rfl _).trans ((A_eq4 (Ven4 m) c 3).trans (Wex4_of_ne m c _ (by decide)).symm)
theorem hF4_4 (c : Dev nD) : (dat4 (Ven4 m) c).arrAt 4 cfg4.N = Vex4 m c (Pipeline.arrRef spec4 4) :=
  (Wex4_out0 m c).symm

theorem hF4 (c : Dev nD) : ∀ w : Fin cfg4.W, (dat4 (Ven4 m) c).arrAt w cfg4.N = Vex4 m c (Pipeline.arrRef spec4 w)
  | ⟨0, _⟩ => hF4_0 m c
  | ⟨1, _⟩ => hF4_1 m c
  | ⟨2, _⟩ => hF4_2 m c
  | ⟨3, _⟩ => hF4_3 m c
  | ⟨4, _⟩ => hF4_4 m c
  | ⟨_ + 5, h⟩ => absurd h (Nat.not_lt.2 (Nat.le_add_left 5 _))

/-- Every buffer that is no array of the region holds at the exit what it held at entry. -/
theorem hrest4 (c : Dev nD) : ∀ b, b ∉ Finset.univ.image (Pipeline.arrRef spec4) → Vex4 m c b = Ven4 m c b :=
  fun b hb => Wex4_of_ne m c b fun e => hb (Finset.mem_image.mpr ⟨4, Finset.mem_univ _, e.symm⟩)

/-! ## The region as a segment -/

set_option backward.isDefEq.respectTransparency.types false in
def reg4 : Pipeline.RegionSeg (pcfgs (F := F)) GenP.adm (pdats m) () defs₀ Variants.none (fun _ => ∅) (fun _ _ => 0) 4 where
  win := launch4.win.to₀
  block_pos := launch4.block_pos
  stage_whole := launch4.stage_whole
  K := PEmpty
  osem k := k.elim
  ho := Pipeline.OwnSemFacts.none _
  hbody c := (body_obligation4 (Ven4 m) c).loose
  hwaits := Pipeline.hwaits_of_owed_zero _ _ _ _ (fun _ => ∅) (fun _ _ => 0) 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (Ven4 m c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (Ven4 m c) fun w => A_eq4 (Ven4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (Ven4 m) c)
    unfold Pipeline.ΦA
    iintro ⟨Hp, -, Hr⟩
    isplitl [Hr]; · iexact Hr
    iexact Hp
  hout c := by
    rw [Pipeline.ownSems0_none]
    refine (hout4 (Ven4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (Ven4 m c) (Vex4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre4 (c : Dev nD) : iprop(StableHlo.held (c : Thread nD τ) (Pipeline.ucRefs τ sig) (GenP.V10 m (outs m) c) ∗ R c) ⊢ (reg4 m).pre c := by
  rw [Ven_eq4]; exact .rfl

theorem hpost4 (c : Dev nD) : (reg4 m).post c ⊢ iprop(StableHlo.held (c : Thread nD τ) (Pipeline.ucRefs τ sig) (GenP.V11 m (outs m) c) ∗ R c) := by
  rw [Vex_eq4]; exact .rfl

end Cert.Kernel.Hand

end
-- ==== Proof.Kernel.Seg5.lean ====
/- Region 5 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 5's arrays and off them -/

theorem Wex5_out0 (c : Dev nD) : Vex5 m c main_v87 = (dat5 (Ven5 m) c).arrAt 2 cfg5.N := by
  show W13 m c main_v87 = _
  unfold W13; exact Function.update_self _ _ _

theorem Wex5_of_ne (c : Dev nD) (b : Ref sig .tc) (hb : b ≠ main_v87) : Vex5 m c b = Ven5 m c b := by
  show W13 m c b = W12 m c b
  unfold W13; exact Function.update_of_ne (StableHlo.devRef_ne_of_ne hb) _ _

/-! At the exit each array of the region holds what the pipeline leaves: an input what it held at entry, an output
    its write-backs folded. One window at a time, then all. -/

theorem hF5_0 (c : Dev nD) : (dat5 (Ven5 m) c).arrAt 0 cfg5.N = Vex5 m c (Pipeline.arrRef spec5 0) :=
  ((dat5 (Ven5 m) c).arrAt_in 0 rfl _).trans ((A_eq5 (Ven5 m) c 0).trans (Wex5_of_ne m c _ (by decide)).symm)
theorem hF5_1 (c : Dev nD) : (dat5 (Ven5 m) c).arrAt 1 cfg5.N = Vex5 m c (Pipeline.arrRef spec5 1) :=
  ((dat5 (Ven5 m) c).arrAt_in 1 rfl _).trans ((A_eq5 (Ven5 m) c 1).trans (Wex5_of_ne m c _ (by decide)).symm)
theorem hF5_2 (c : Dev nD) : (dat5 (Ven5 m) c).arrAt 2 cfg5.N = Vex5 m c (Pipeline.arrRef spec5 2) :=
  (Wex5_out0 m c).symm

theorem hF5 (c : Dev nD) : ∀ w : Fin cfg5.W, (dat5 (Ven5 m) c).arrAt w cfg5.N = Vex5 m c (Pipeline.arrRef spec5 w)
  | ⟨0, _⟩ => hF5_0 m c
  | ⟨1, _⟩ => hF5_1 m c
  | ⟨2, _⟩ => hF5_2 m c
  | ⟨_ + 3, h⟩ => absurd h (Nat.not_lt.2 (Nat.le_add_left 3 _))

/-- Every buffer that is no array of the region holds at the exit what it held at entry. -/
theorem hrest5 (c : Dev nD) : ∀ b, b ∉ Finset.univ.image (Pipeline.arrRef spec5) → Vex5 m c b = Ven5 m c b :=
  fun b hb => Wex5_of_ne m c b fun e => hb (Finset.mem_image.mpr ⟨2, Finset.mem_univ _, e.symm⟩)

/-! ## The region as a segment -/

set_option backward.isDefEq.respectTransparency.types false in
def reg5 : Pipeline.RegionSeg (pcfgs (F := F)) GenP.adm (pdats m) () defs₀ Variants.none (fun _ => ∅) (fun _ _ => 0) 5 where
  win := launch5.win.to₀
  block_pos := launch5.block_pos
  stage_whole := launch5.stage_whole
  K := PEmpty
  osem k := k.elim
  ho := Pipeline.OwnSemFacts.none _
  hbody c := (body_obligation5 (Ven5 m) c).loose
  hwaits := Pipeline.hwaits_of_owed_zero _ _ _ _ (fun _ => ∅) (fun _ _ => 0) 5 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec5 c (Ven5 m c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (Ven5 m c) fun w => A_eq5 (Ven5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (Ven5 m) c)
    unfold Pipeline.ΦA
    iintro ⟨Hp, -, Hr⟩
    isplitl [Hr]; · iexact Hr
    iexact Hp
  hout c := by
    rw [Pipeline.ownSems0_none]
    refine (hout5 (Ven5 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (Ven5 m c) (Vex5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre5 (c : Dev nD) : iprop(StableHlo.held (c : Thread nD τ) (Pipeline.ucRefs τ sig) (GenP.V12 m (outs m) c) ∗ R c) ⊢ (reg5 m).pre c := by
  rw [Ven_eq5]; exact .rfl

theorem hpost5 (c : Dev nD) : (reg5 m).post c ⊢ iprop(StableHlo.held (c : Thread nD τ) (Pipeline.ucRefs τ sig) (GenP.V13 m (outs m) c) ∗ R c) := by
  rw [Vex_eq5]; exact .rfl

end Cert.Kernel.Hand

end
-- ==== Proof.Kernel.Seg6.lean ====
/- Region 6 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 6's arrays and off them -/

theorem Wex6_out0 (c : Dev nD) : Vex6 m c main_v106 = (dat6 (Ven6 m) c).arrAt 3 cfg6.N := by
  show W15 m c main_v106 = _
  unfold W15; exact Function.update_self _ _ _

theorem Wex6_of_ne (c : Dev nD) (b : Ref sig .tc) (hb : b ≠ main_v106) : Vex6 m c b = Ven6 m c b := by
  show W15 m c b = W14 m c b
  unfold W15; exact Function.update_of_ne (StableHlo.devRef_ne_of_ne hb) _ _

/-! At the exit each array of the region holds what the pipeline leaves: an input what it held at entry, an output
    its write-backs folded. One window at a time, then all. -/

theorem hF6_0 (c : Dev nD) : (dat6 (Ven6 m) c).arrAt 0 cfg6.N = Vex6 m c (Pipeline.arrRef spec6 0) :=
  ((dat6 (Ven6 m) c).arrAt_in 0 rfl _).trans ((A_eq6 (Ven6 m) c 0).trans (Wex6_of_ne m c _ (by decide)).symm)
theorem hF6_1 (c : Dev nD) : (dat6 (Ven6 m) c).arrAt 1 cfg6.N = Vex6 m c (Pipeline.arrRef spec6 1) :=
  ((dat6 (Ven6 m) c).arrAt_in 1 rfl _).trans ((A_eq6 (Ven6 m) c 1).trans (Wex6_of_ne m c _ (by decide)).symm)
theorem hF6_2 (c : Dev nD) : (dat6 (Ven6 m) c).arrAt 2 cfg6.N = Vex6 m c (Pipeline.arrRef spec6 2) :=
  ((dat6 (Ven6 m) c).arrAt_in 2 rfl _).trans ((A_eq6 (Ven6 m) c 2).trans (Wex6_of_ne m c _ (by decide)).symm)
theorem hF6_3 (c : Dev nD) : (dat6 (Ven6 m) c).arrAt 3 cfg6.N = Vex6 m c (Pipeline.arrRef spec6 3) :=
  (Wex6_out0 m c).symm

theorem hF6 (c : Dev nD) : ∀ w : Fin cfg6.W, (dat6 (Ven6 m) c).arrAt w cfg6.N = Vex6 m c (Pipeline.arrRef spec6 w)
  | ⟨0, _⟩ => hF6_0 m c
  | ⟨1, _⟩ => hF6_1 m c
  | ⟨2, _⟩ => hF6_2 m c
  | ⟨3, _⟩ => hF6_3 m c
  | ⟨_ + 4, h⟩ => absurd h (Nat.not_lt.2 (Nat.le_add_left 4 _))

/-- Every buffer that is no array of the region holds at the exit what it held at entry. -/
theorem hrest6 (c : Dev nD) : ∀ b, b ∉ Finset.univ.image (Pipeline.arrRef spec6) → Vex6 m c b = Ven6 m c b :=
  fun b hb => Wex6_of_ne m c b fun e => hb (Finset.mem_image.mpr ⟨3, Finset.mem_univ _, e.symm⟩)

/-! ## The region as a segment -/

set_option backward.isDefEq.respectTransparency.types false in
def reg6 : Pipeline.RegionSeg (pcfgs (F := F)) GenP.adm (pdats m) () defs₀ Variants.none (fun _ => ∅) (fun _ _ => 0) 6 where
  win := launch6.win.to₀
  block_pos := launch6.block_pos
  stage_whole := launch6.stage_whole
  K := PEmpty
  osem k := k.elim
  ho := Pipeline.OwnSemFacts.none _
  hbody c := (body_obligation6 (Ven6 m) c).loose
  hwaits := Pipeline.hwaits_of_owed_zero _ _ _ _ (fun _ => ∅) (fun _ _ => 0) 6 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec6 c (Ven6 m c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (Ven6 m c) fun w => A_eq6 (Ven6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin6 (Ven6 m) c)
    unfold Pipeline.ΦA
    iintro ⟨Hp, -, Hr⟩
    isplitl [Hr]; · iexact Hr
    iexact Hp
  hout c := by
    rw [Pipeline.ownSems0_none]
    refine (hout6 (Ven6 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (Ven6 m c) (Vex6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre6 (c : Dev nD) : iprop(StableHlo.held (c : Thread nD τ) (Pipeline.ucRefs τ sig) (GenP.V14 m (outs m) c) ∗ R c) ⊢ (reg6 m).pre c := by
  rw [Ven_eq6]; exact .rfl

theorem hpost6 (c : Dev nD) : (reg6 m).post c ⊢ iprop(StableHlo.held (c : Thread nD τ) (Pipeline.ucRefs τ sig) (GenP.V15 m (outs m) c) ∗ R c) := by
  rw [Vex_eq6]; exact .rfl

end Cert.Kernel.Hand

end
-- ==== Proof.Kernel.Seg7.lean ====
/- Region 7 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 7's arrays and off them -/

theorem Wex7_out0 (c : Dev nD) : Vex7 m c main_v117_0 = (dat7 (Ven7 m) c).arrAt 3 cfg7.N := by
  show W17 m c main_v117_0 = _
  unfold W17
  rw [Function.update_of_ne (StableHlo.devRef_ne_of_ne (by decide))]; exact Function.update_self _ _ _

theorem Wex7_out1 (c : Dev nD) : Vex7 m c main_v117_1 = (dat7 (Ven7 m) c).arrAt 4 cfg7.N := by
  show W17 m c main_v117_1 = _
  unfold W17; exact Function.update_self _ _ _

theorem Wex7_of_ne (c : Dev nD) (b : Ref sig .tc) (hb0 : b ≠ main_v117_0) (hb1 : b ≠ main_v117_1) : Vex7 m c b = Ven7 m c b := by
  show W17 m c b = W16 m c b
  unfold W17
  rw [Function.update_of_ne (StableHlo.devRef_ne_of_ne hb1), Function.update_of_ne (StableHlo.devRef_ne_of_ne hb0)]

/-! At the exit each array of the region holds what the pipeline leaves: an input what it held at entry, an output
    its write-backs folded. One window at a time, then all. -/

theorem hF7_0 (c : Dev nD) : (dat7 (Ven7 m) c).arrAt 0 cfg7.N = Vex7 m c (Pipeline.arrRef spec7 0) :=
  ((dat7 (Ven7 m) c).arrAt_in 0 rfl _).trans ((A_eq7 (Ven7 m) c 0).trans (Wex7_of_ne m c _ (by decide) (by decide)).symm)
theorem hF7_1 (c : Dev nD) : (dat7 (Ven7 m) c).arrAt 1 cfg7.N = Vex7 m c (Pipeline.arrRef spec7 1) :=
  ((dat7 (Ven7 m) c).arrAt_in 1 rfl _).trans ((A_eq7 (Ven7 m) c 1).trans (Wex7_of_ne m c _ (by decide) (by decide)).symm)
theorem hF7_2 (c : Dev nD) : (dat7 (Ven7 m) c).arrAt 2 cfg7.N = Vex7 m c (Pipeline.arrRef spec7 2) :=
  ((dat7 (Ven7 m) c).arrAt_in 2 rfl _).trans ((A_eq7 (Ven7 m) c 2).trans (Wex7_of_ne m c _ (by decide) (by decide)).symm)
theorem hF7_3 (c : Dev nD) : (dat7 (Ven7 m) c).arrAt 3 cfg7.N = Vex7 m c (Pipeline.arrRef spec7 3) :=
  (Wex7_out0 m c).symm
theorem hF7_4 (c : Dev nD) : (dat7 (Ven7 m) c).arrAt 4 cfg7.N = Vex7 m c (Pipeline.arrRef spec7 4) :=
  (Wex7_out1 m c).symm

theorem hF7 (c : Dev nD) : ∀ w : Fin cfg7.W, (dat7 (Ven7 m) c).arrAt w cfg7.N = Vex7 m c (Pipeline.arrRef spec7 w)
  | ⟨0, _⟩ => hF7_0 m c
  | ⟨1, _⟩ => hF7_1 m c
  | ⟨2, _⟩ => hF7_2 m c
  | ⟨3, _⟩ => hF7_3 m c
  | ⟨4, _⟩ => hF7_4 m c
  | ⟨_ + 5, h⟩ => absurd h (Nat.not_lt.2 (Nat.le_add_left 5 _))

/-- Every buffer that is no array of the region holds at the exit what it held at entry. -/
theorem hrest7 (c : Dev nD) : ∀ b, b ∉ Finset.univ.image (Pipeline.arrRef spec7) → Vex7 m c b = Ven7 m c b :=
  fun b hb => Wex7_of_ne m c b (fun e => hb (Finset.mem_image.mpr ⟨3, Finset.mem_univ _, e.symm⟩))
    (fun e => hb (Finset.mem_image.mpr ⟨4, Finset.mem_univ _, e.symm⟩))

/-! ## The region as a segment -/

set_option backward.isDefEq.respectTransparency.types false in
def reg7 : Pipeline.RegionSeg (pcfgs (F := F)) GenP.adm (pdats m) () defs₀ Variants.none (fun _ => ∅) (fun _ _ => 0) 7 where
  win := launch7.win.to₀
  block_pos := launch7.block_pos
  stage_whole := launch7.stage_whole
  K := PEmpty
  osem k := k.elim
  ho := Pipeline.OwnSemFacts.none _
  hbody c := (body_obligation7 (Ven7 m) c).loose
  hwaits := Pipeline.hwaits_of_owed_zero _ _ _ _ (fun _ => ∅) (fun _ _ => 0) 7 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec7 c (Ven7 m c)
  hentry c := by
    rw [Pipeline.ownSems0_none]
    have hsplit := Pipeline.arrays_of_unscopedBufs (p := 7) (pcfgs (F := F)) GenP.adm (pdats m) launch7.win launch7.arr_whole c
      ((pdats m 7 c).share_full fun _ => rfl) (Ven7 m c) fun w => A_eq7 (Ven7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin7 (Ven7 m) c)
    unfold Pipeline.ΦA
    iintro ⟨Hp, -, Hr⟩
    isplitl [Hr]; · iexact Hr
    iexact Hp
  hout c := by
    rw [Pipeline.ownSems0_none]
    refine (hout7 (Ven7 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c (pdats m) ((pdats m 7 c).share_full fun _ => rfl)
      (Ven7 m c) (Vex7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre7 (c : Dev nD) : iprop(StableHlo.held (c : Thread nD τ) (Pipeline.ucRefs τ sig) (GenP.V16 m (outs m) c) ∗ R c) ⊢ (reg7 m).pre c := by
  rw [Ven_eq7]; exact .rfl

theorem hpost7 (c : Dev nD) : (reg7 m).post c ⊢ iprop(StableHlo.held (c : Thread nD τ) (Pipeline.ucRefs τ sig) (GenP.V17 m (outs m) c) ∗ R c) := by
  rw [Vex_eq7]; exact .rfl

end Cert.Kernel.Hand

end
-- ==== Proof.Kernel.Seg8.lean ====
/- Region 8 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 8's arrays and off them -/

theorem Wex8_out0 (c : Dev nD) : Vex8 m c main_v118 = (dat8 (Ven8 m) c).arrAt 3 cfg8.N := by
  show W18 m c main_v118 = _
  unfold W18; exact Function.update_self _ _ _

theorem Wex8_of_ne (c : Dev nD) (b : Ref sig .tc) (hb : b ≠ main_v118) : Vex8 m c b = Ven8 m c b := by
  show W18 m c b = W17 m c b
  unfold W18; exact Function.update_of_ne (StableHlo.devRef_ne_of_ne hb) _ _

/-! At the exit each array of the region holds what the pipeline leaves: an input what it held at entry, an output
    its write-backs folded. One window at a time, then all. -/

theorem hF8_0 (c : Dev nD) : (dat8 (Ven8 m) c).arrAt 0 cfg8.N = Vex8 m c (Pipeline.arrRef spec8 0) :=
  ((dat8 (Ven8 m) c).arrAt_in 0 rfl _).trans ((A_eq8 (Ven8 m) c 0).trans (Wex8_of_ne m c _ (by decide)).symm)
theorem hF8_1 (c : Dev nD) : (dat8 (Ven8 m) c).arrAt 1 cfg8.N = Vex8 m c (Pipeline.arrRef spec8 1) :=
  ((dat8 (Ven8 m) c).arrAt_in 1 rfl _).trans ((A_eq8 (Ven8 m) c 1).trans (Wex8_of_ne m c _ (by decide)).symm)
theorem hF8_2 (c : Dev nD) : (dat8 (Ven8 m) c).arrAt 2 cfg8.N = Vex8 m c (Pipeline.arrRef spec8 2) :=
  ((dat8 (Ven8 m) c).arrAt_in 2 rfl _).trans ((A_eq8 (Ven8 m) c 2).trans (Wex8_of_ne m c _ (by decide)).symm)
theorem hF8_3 (c : Dev nD) : (dat8 (Ven8 m) c).arrAt 3 cfg8.N = Vex8 m c (Pipeline.arrRef spec8 3) :=
  (Wex8_out0 m c).symm

theorem hF8 (c : Dev nD) : ∀ w : Fin cfg8.W, (dat8 (Ven8 m) c).arrAt w cfg8.N = Vex8 m c (Pipeline.arrRef spec8 w)
  | ⟨0, _⟩ => hF8_0 m c
  | ⟨1, _⟩ => hF8_1 m c
  | ⟨2, _⟩ => hF8_2 m c
  | ⟨3, _⟩ => hF8_3 m c
  | ⟨_ + 4, h⟩ => absurd h (Nat.not_lt.2 (Nat.le_add_left 4 _))

/-- Every buffer that is no array of the region holds at the exit what it held at entry. -/
theorem hrest8 (c : Dev nD) : ∀ b, b ∉ Finset.univ.image (Pipeline.arrRef spec8) → Vex8 m c b = Ven8 m c b :=
  fun b hb => Wex8_of_ne m c b fun e => hb (Finset.mem_image.mpr ⟨3, Finset.mem_univ _, e.symm⟩)

/-! ## The region as a segment -/

set_option backward.isDefEq.respectTransparency.types false in
def reg8 : Pipeline.RegionSeg (pcfgs (F := F)) GenP.adm (pdats m) () defs₀ Variants.none (fun _ => ∅) (fun _ _ => 0) 8 where
  win := launch8.win.to₀
  block_pos := launch8.block_pos
  stage_whole := launch8.stage_whole
  K := PEmpty
  osem k := k.elim
  ho := Pipeline.OwnSemFacts.none _
  hbody c := (body_obligation8 (Ven8 m) c).loose
  hwaits := Pipeline.hwaits_of_owed_zero _ _ _ _ (fun _ => ∅) (fun _ _ => 0) 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (Ven8 m c)
  hentry c := by
    rw [Pipeline.ownSems0_none]
    have hsplit := Pipeline.arrays_of_unscopedBufs (p := 8) (pcfgs (F := F)) GenP.adm (pdats m) launch8.win launch8.arr_whole c
      ((pdats m 8 c).share_full fun _ => rfl) (Ven8 m c) fun w => A_eq8 (Ven8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin8 (Ven8 m) c)
    unfold Pipeline.ΦA
    iintro ⟨Hp, -, Hr⟩
    isplitl [Hr]; · iexact Hr
    iexact Hp
  hout c := by
    rw [Pipeline.ownSems0_none]
    refine (hout8 (Ven8 m) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) GenP.adm (Ix := Unit) (Name := ℕ) (U := UR sig nD τ) (Lvl := ℕ)
      launch8.win launch8.arr_whole c (pdats m) ((pdats m 8 c).share_full fun _ => rfl)
      (Ven8 m c) (Vex8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre8 (c : Dev nD) : iprop(StableHlo.held (c : Thread nD τ) (Pipeline.ucRefs τ sig) (GenP.V17 m (outs m) c) ∗ R c) ⊢ (reg8 m).pre c := by
  rw [Ven_eq8]; exact .rfl

theorem hpost8 (c : Dev nD) : (reg8 m).post c ⊢ iprop(StableHlo.held (c : Thread nD τ) (Pipeline.ucRefs τ sig) (GenP.V18 m (outs m) c) ∗ R c) := by
  rw [Vex_eq8]; exact .rfl

end Cert.Kernel.Hand

end
-- ==== Proof.Kernel.Seg9.lean ====
/- Region 9 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 9's arrays and off them -/

theorem Wex9_out0 (c : Dev nD) : Vex9 m c main_v132 = (dat9 (Ven9 m) c).arrAt 4 cfg9.N := by
  show W20 m c main_v132 = _
  unfold W20; exact Function.update_self _ _ _

theorem Wex9_of_ne (c : Dev nD) (b : Ref sig .tc) (hb : b ≠ main_v132) : Vex9 m c b = Ven9 m c b := by
  show W20 m c b = W19 m c b
  unfold W20; exact Function.update_of_ne (StableHlo.devRef_ne_of_ne hb) _ _

/-! At the exit each array of the region holds what the pipeline leaves: an input what it held at entry, an output
    its write-backs folded. One window at a time, then all. -/

theorem hF9_0 (c : Dev nD) : (dat9 (Ven9 m) c).arrAt 0 cfg9.N = Vex9 m c (Pipeline.arrRef spec9 0) :=
  ((dat9 (Ven9 m) c).arrAt_in 0 rfl _).trans ((A_eq9 (Ven9 m) c 0).trans (Wex9_of_ne m c _ (by decide)).symm)
theorem hF9_1 (c : Dev nD) : (dat9 (Ven9 m) c).arrAt 1 cfg9.N = Vex9 m c (Pipeline.arrRef spec9 1) :=
  ((dat9 (Ven9 m) c).arrAt_in 1 rfl _).trans ((A_eq9 (Ven9 m) c 1).trans (Wex9_of_ne m c _ (by decide)).symm)
theorem hF9_2 (c : Dev nD) : (dat9 (Ven9 m) c).arrAt 2 cfg9.N = Vex9 m c (Pipeline.arrRef spec9 2) :=
  ((dat9 (Ven9 m) c).arrAt_in 2 rfl _).trans ((A_eq9 (Ven9 m) c 2).trans (Wex9_of_ne m c _ (by decide)).symm)
theorem hF9_3 (c : Dev nD) : (dat9 (Ven9 m) c).arrAt 3 cfg9.N = Vex9 m c (Pipeline.arrRef spec9 3) :=
  ((dat9 (Ven9 m) c).arrAt_in 3 rfl _).trans ((A_eq9 (Ven9 m) c 3).trans (Wex9_of_ne m c _ (by decide)).symm)
theorem hF9_4 (c : Dev nD) : (dat9 (Ven9 m) c).arrAt 4 cfg9.N = Vex9 m c (Pipeline.arrRef spec9 4) :=
  (Wex9_out0 m c).symm

theorem hF9 (c : Dev nD) : ∀ w : Fin cfg9.W, (dat9 (Ven9 m) c).arrAt w cfg9.N = Vex9 m c (Pipeline.arrRef spec9 w)
  | ⟨0, _⟩ => hF9_0 m c
  | ⟨1, _⟩ => hF9_1 m c
  | ⟨2, _⟩ => hF9_2 m c
  | ⟨3, _⟩ => hF9_3 m c
  | ⟨4, _⟩ => hF9_4 m c
  | ⟨_ + 5, h⟩ => absurd h (Nat.not_lt.2 (Nat.le_add_left 5 _))

/-- Every buffer that is no array of the region holds at the exit what it held at entry. -/
theorem hrest9 (c : Dev nD) : ∀ b, b ∉ Finset.univ.image (Pipeline.arrRef spec9) → Vex9 m c b = Ven9 m c b :=
  fun b hb => Wex9_of_ne m c b fun e => hb (Finset.mem_image.mpr ⟨4, Finset.mem_univ _, e.symm⟩)

/-! ## The region as a segment -/

set_option backward.isDefEq.respectTransparency.types false in
def reg9 : Pipeline.RegionSeg (pcfgs (F := F)) GenP.adm (pdats m) () defs₀ Variants.none (fun _ => ∅) (fun _ _ => 0) 9 where
  win := launch9.win.to₀
  block_pos := launch9.block_pos
  stage_whole := launch9.stage_whole
  K := PEmpty
  osem k := k.elim
  ho := Pipeline.OwnSemFacts.none _
  hbody c := (body_obligation9 (Ven9 m) c).loose
  hwaits := Pipeline.hwaits_of_owed_zero _ _ _ _ (fun _ => ∅) (fun _ _ => 0) 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (Ven9 m c)
  hentry c := by
    rw [Pipeline.ownSems0_none]
    have hsplit := Pipeline.arrays_of_unscopedBufs (p := 9) (pcfgs (F := F)) GenP.adm (pdats m) launch9.win launch9.arr_whole c
      ((pdats m 9 c).share_full fun _ => rfl) (Ven9 m c) fun w => A_eq9 (Ven9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin9 (Ven9 m) c)
    unfold Pipeline.ΦA
    iintro ⟨Hp, -, Hr⟩
    isplitl [Hr]; · iexact Hr
    iexact Hp
  hout c := by
    rw [Pipeline.ownSems0_none]
    refine (hout9 (Ven9 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c (pdats m) ((pdats m 9 c).share_full fun _ => rfl)
      (Ven9 m c) (Vex9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre9 (c : Dev nD) : iprop(StableHlo.held (c : Thread nD τ) (Pipeline.ucRefs τ sig) (GenP.V19 m (outs m) c) ∗ R c) ⊢ (reg9 m).pre c := by
  rw [Ven_eq9]; exact .rfl

theorem hpost9 (c : Dev nD) : (reg9 m).post c ⊢ iprop(StableHlo.held (c : Thread nD τ) (Pipeline.ucRefs τ sig) (GenP.V20 m (outs m) c) ∗ R c) := by
  rw [Vex_eq9]; exact .rfl

end Cert.Kernel.Hand

end
-- ==== Proof.Kernel.Seg10.lean ====
/- Region 10 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 10's arrays and off them -/

theorem Wex10_out0 (c : Dev nD) : Vex10 m c main_v135 = (dat10 (Ven10 m) c).arrAt 2 cfg10.N := by
  show W22 m c main_v135 = _
  unfold W22; exact Function.update_self _ _ _

theorem Wex10_of_ne (c : Dev nD) (b : Ref sig .tc) (hb : b ≠ main_v135) : Vex10 m c b = Ven10 m c b := by
  show W22 m c b = W21 m c b
  unfold W22; exact Function.update_of_ne (StableHlo.devRef_ne_of_ne hb) _ _

/-! At the exit each array of the region holds what the pipeline leaves: an input what it held at entry, an output
    its write-backs folded. One window at a time, then all. -/

theorem hF10_0 (c : Dev nD) : (dat10 (Ven10 m) c).arrAt 0 cfg10.N = Vex10 m c (Pipeline.arrRef spec10 0) :=
  ((dat10 (Ven10 m) c).arrAt_in 0 rfl _).trans ((A_eq10 (Ven10 m) c 0).trans (Wex10_of_ne m c _ (by decide)).symm)
theorem hF10_1 (c : Dev nD) : (dat10 (Ven10 m) c).arrAt 1 cfg10.N = Vex10 m c (Pipeline.arrRef spec10 1) :=
  ((dat10 (Ven10 m) c).arrAt_in 1 rfl _).trans ((A_eq10 (Ven10 m) c 1).trans (Wex10_of_ne m c _ (by decide)).symm)
theorem hF10_2 (c : Dev nD) : (dat10 (Ven10 m) c).arrAt 2 cfg10.N = Vex10 m c (Pipeline.arrRef spec10 2) :=
  (Wex10_out0 m c).symm

theorem hF10 (c : Dev nD) : ∀ w : Fin cfg10.W, (dat10 (Ven10 m) c).arrAt w cfg10.N = Vex10 m c (Pipeline.arrRef spec10 w)
  | ⟨0, _⟩ => hF10_0 m c
  | ⟨1, _⟩ => hF10_1 m c
  | ⟨2, _⟩ => hF10_2 m c
  | ⟨_ + 3, h⟩ => absurd h (Nat.not_lt.2 (Nat.le_add_left 3 _))

/-- Every buffer that is no array of the region holds at the exit what it held at entry. -/
theorem hrest10 (c : Dev nD) : ∀ b, b ∉ Finset.univ.image (Pipeline.arrRef spec10) → Vex10 m c b = Ven10 m c b :=
  fun b hb => Wex10_of_ne m c b fun e => hb (Finset.mem_image.mpr ⟨2, Finset.mem_univ _, e.symm⟩)

/-! ## The region as a segment -/

set_option backward.isDefEq.respectTransparency.types false in
def reg10 : Pipeline.RegionSeg (pcfgs (F := F)) GenP.adm (pdats m) () defs₀ Variants.none (fun _ => ∅) (fun _ _ => 0) 10 where
  win := launch10.win.to₀
  block_pos := launch10.block_pos
  stage_whole := launch10.stage_whole
  K := PEmpty
  osem k := k.elim
  ho := Pipeline.OwnSemFacts.none _
  hbody c := (body_obligation10 (Ven10 m) c).loose
  hwaits := Pipeline.hwaits_of_owed_zero _ _ _ _ (fun _ => ∅) (fun _ _ => 0) 10 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec10 c (Ven10 m c)
  hentry c := by
    rw [Pipeline.ownSems0_none]
    have hsplit := Pipeline.arrays_of_unscopedBufs (p := 10) (pcfgs (F := F)) GenP.adm (pdats m) launch10.win launch10.arr_whole c
      ((pdats m 10 c).share_full fun _ => rfl) (Ven10 m c) fun w => A_eq10 (Ven10 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin10 (Ven10 m) c)
    unfold Pipeline.ΦA
    iintro ⟨Hp, -, Hr⟩
    isplitl [Hr]; · iexact Hr
    iexact Hp
  hout c := by
    rw [Pipeline.ownSems0_none]
    refine (hout10 (Ven10 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) GenP.adm (Ix := Unit) (Name := ℕ) (U := UR sig nD τ) (Lvl := ℕ)
      launch10.win launch10.arr_whole c (pdats m) ((pdats m 10 c).share_full fun _ => rfl)
      (Ven10 m c) (Vex10 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre10 (c : Dev nD) : iprop(StableHlo.held (c : Thread nD τ) (Pipeline.ucRefs τ sig) (GenP.V21 m (outs m) c) ∗ R c) ⊢ (reg10 m).pre c := by
  rw [Ven_eq10]; exact .rfl

theorem hpost10 (c : Dev nD) : (reg10 m).post c ⊢ iprop(StableHlo.held (c : Thread nD τ) (Pipeline.ucRefs τ sig) (GenP.V22 m (outs m) c) ∗ R c) := by
  rw [Vex_eq10]; exact .rfl

end Cert.Kernel.Hand

end
-- ==== Proof.Kernel.Seg11.lean ====
/- Region 11 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 11's arrays and off them -/

theorem Wex11_out0 (c : Dev nD) : Vex11 m c main_v154 = (dat11 (Ven11 m) c).arrAt 3 cfg11.N := by
  show W24 m c main_v154 = _
  unfold W24; exact Function.update_self _ _ _

theorem Wex11_of_ne (c : Dev nD) (b : Ref sig .tc) (hb : b ≠ main_v154) : Vex11 m c b = Ven11 m c b := by
  show W24 m c b = W23 m c b
  unfold W24; exact Function.update_of_ne (StableHlo.devRef_ne_of_ne hb) _ _

/-! At the exit each array of the region holds what the pipeline leaves: an input what it held at entry, an output
    its write-backs folded. One window at a time, then all. -/

theorem hF11_0 (c : Dev nD) : (dat11 (Ven11 m) c).arrAt 0 cfg11.N = Vex11 m c (Pipeline.arrRef spec11 0) :=
  ((dat11 (Ven11 m) c).arrAt_in 0 rfl _).trans ((A_eq11 (Ven11 m) c 0).trans (Wex11_of_ne m c _ (by decide)).symm)
theorem hF11_1 (c : Dev nD) : (dat11 (Ven11 m) c).arrAt 1 cfg11.N = Vex11 m c (Pipeline.arrRef spec11 1) :=
  ((dat11 (Ven11 m) c).arrAt_in 1 rfl _).trans ((A_eq11 (Ven11 m) c 1).trans (Wex11_of_ne m c _ (by decide)).symm)
theorem hF11_2 (c : Dev nD) : (dat11 (Ven11 m) c).arrAt 2 cfg11.N = Vex11 m c (Pipeline.arrRef spec11 2) :=
  ((dat11 (Ven11 m) c).arrAt_in 2 rfl _).trans ((A_eq11 (Ven11 m) c 2).trans (Wex11_of_ne m c _ (by decide)).symm)
theorem hF11_3 (c : Dev nD) : (dat11 (Ven11 m) c).arrAt 3 cfg11.N = Vex11 m c (Pipeline.arrRef spec11 3) :=
  (Wex11_out0 m c).symm

theorem hF11 (c : Dev nD) : ∀ w : Fin cfg11.W, (dat11 (Ven11 m) c).arrAt w cfg11.N = Vex11 m c (Pipeline.arrRef spec11 w)
  | ⟨0, _⟩ => hF11_0 m c
  | ⟨1, _⟩ => hF11_1 m c
  | ⟨2, _⟩ => hF11_2 m c
  | ⟨3, _⟩ => hF11_3 m c
  | ⟨_ + 4, h⟩ => absurd h (Nat.not_lt.2 (Nat.le_add_left 4 _))

/-- Every buffer that is no array of the region holds at the exit what it held at entry. -/
theorem hrest11 (c : Dev nD) : ∀ b, b ∉ Finset.univ.image (Pipeline.arrRef spec11) → Vex11 m c b = Ven11 m c b :=
  fun b hb => Wex11_of_ne m c b fun e => hb (Finset.mem_image.mpr ⟨3, Finset.mem_univ _, e.symm⟩)

/-! ## The region as a segment -/

set_option backward.isDefEq.respectTransparency.types false in
def reg11 : Pipeline.RegionSeg (pcfgs (F := F)) GenP.adm (pdats m) () defs₀ Variants.none (fun _ => ∅) (fun _ _ => 0) 11 where
  win := launch11.win.to₀
  block_pos := launch11.block_pos
  stage_whole := launch11.stage_whole
  K := PEmpty
  osem k := k.elim
  ho := Pipeline.OwnSemFacts.none _
  hbody c := (body_obligation11 (Ven11 m) c).loose
  hwaits := Pipeline.hwaits_of_owed_zero _ _ _ _ (fun _ => ∅) (fun _ _ => 0) 11 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec11 c (Ven11 m c)
  hentry c := by
    rw [Pipeline.ownSems0_none]
    have hsplit := Pipeline.arrays_of_unscopedBufs (p := 11) (pcfgs (F := F)) GenP.adm (pdats m) launch11.win launch11.arr_whole c
      ((pdats m 11 c).share_full fun _ => rfl) (Ven11 m c) fun w => A_eq11 (Ven11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin11 (Ven11 m) c)
    unfold Pipeline.ΦA
    iintro ⟨Hp, -, Hr⟩
    isplitl [Hr]; · iexact Hr
    iexact Hp
  hout c := by
    rw [Pipeline.ownSems0_none]
    refine (hout11 (Ven11 m) c).trans ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c (pdats m) ((pdats m 11 c).share_full fun _ => rfl)
      (Ven11 m c) (Vex11 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre11 (c : Dev nD) : iprop(StableHlo.held (c : Thread nD τ) (Pipeline.ucRefs τ sig) (GenP.V23 m (outs m) c) ∗ R c) ⊢ (reg11 m).pre c := by
  rw [Ven_eq11]; exact .rfl

theorem hpost11 (c : Dev nD) : (reg11 m).post c ⊢ iprop(StableHlo.held (c : Thread nD τ) (Pipeline.ucRefs τ sig) (GenP.V24 m (outs m) c) ∗ R c) := by
  rw [Vex_eq11]; exact .rfl

end Cert.Kernel.Hand

end
-- ==== Proof.Kernel.Seg12.lean ====
/- Region 12 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 12's arrays and off them -/

theorem Wex12_out0 (c : Dev nD) : Vex12 m c main_v165_0 = (dat12 (Ven12 m) c).arrAt 3 cfg12.N := by
  show W26 m c main_v165_0 = _
  unfold W26
  rw [Function.update_of_ne (StableHlo.devRef_ne_of_ne (by decide))]; exact Function.update_self _ _ _

theorem Wex12_out1 (c : Dev nD) : Vex12 m c main_v165_1 = (dat12 (Ven12 m) c).arrAt 4 cfg12.N := by
  show W26 m c main_v165_1 = _
  unfold W26; exact Function.update_self _ _ _

theorem Wex12_of_ne (c : Dev nD) (b : Ref sig .tc) (hb0 : b ≠ main_v165_0) (hb1 : b ≠ main_v165_1) : Vex12 m c b = Ven12 m c b := by
  show W26 m c b = W25 m c b
  unfold W26
  rw [Function.update_of_ne (StableHlo.devRef_ne_of_ne hb1), Function.update_of_ne (StableHlo.devRef_ne_of_ne hb0)]

/-! At the exit each array of the region holds what the pipeline leaves: an input what it held at entry, an output
    its write-backs folded. One window at a time, then all. -/

theorem hF12_0 (c : Dev nD) : (dat12 (Ven12 m) c).arrAt 0 cfg12.N = Vex12 m c (Pipeline.arrRef spec12 0) :=
  ((dat12 (Ven12 m) c).arrAt_in 0 rfl _).trans ((A_eq12 (Ven12 m) c 0).trans (Wex12_of_ne m c _ (by decide) (by decide)).symm)
theorem hF12_1 (c : Dev nD) : (dat12 (Ven12 m) c).arrAt 1 cfg12.N = Vex12 m c (Pipeline.arrRef spec12 1) :=
  ((dat12 (Ven12 m) c).arrAt_in 1 rfl _).trans ((A_eq12 (Ven12 m) c 1).trans (Wex12_of_ne m c _ (by decide) (by decide)).symm)
theorem hF12_2 (c : Dev nD) : (dat12 (Ven12 m) c).arrAt 2 cfg12.N = Vex12 m c (Pipeline.arrRef spec12 2) :=
  ((dat12 (Ven12 m) c).arrAt_in 2 rfl _).trans ((A_eq12 (Ven12 m) c 2).trans (Wex12_of_ne m c _ (by decide) (by decide)).symm)
theorem hF12_3 (c : Dev nD) : (dat12 (Ven12 m) c).arrAt 3 cfg12.N = Vex12 m c (Pipeline.arrRef spec12 3) :=
  (Wex12_out0 m c).symm
theorem hF12_4 (c : Dev nD) : (dat12 (Ven12 m) c).arrAt 4 cfg12.N = Vex12 m c (Pipeline.arrRef spec12 4) :=
  (Wex12_out1 m c).symm

theorem hF12 (c : Dev nD) : ∀ w : Fin cfg12.W, (dat12 (Ven12 m) c).arrAt w cfg12.N = Vex12 m c (Pipeline.arrRef spec12 w)
  | ⟨0, _⟩ => hF12_0 m c
  | ⟨1, _⟩ => hF12_1 m c
  | ⟨2, _⟩ => hF12_2 m c
  | ⟨3, _⟩ => hF12_3 m c
  | ⟨4, _⟩ => hF12_4 m c
  | ⟨_ + 5, h⟩ => absurd h (Nat.not_lt.2 (Nat.le_add_left 5 _))

/-- Every buffer that is no array of the region holds at the exit what it held at entry. -/
theorem hrest12 (c : Dev nD) : ∀ b, b ∉ Finset.univ.image (Pipeline.arrRef spec12) → Vex12 m c b = Ven12 m c b :=
  fun b hb => Wex12_of_ne m c b (fun e => hb (Finset.mem_image.mpr ⟨3, Finset.mem_univ _, e.symm⟩))
    (fun e => hb (Finset.mem_image.mpr ⟨4, Finset.mem_univ _, e.symm⟩))

/-! ## The region as a segment -/

set_option backward.isDefEq.respectTransparency.types false in
def reg12 : Pipeline.RegionSeg (pcfgs (F := F)) GenP.adm (pdats m) () defs₀ Variants.none (fun _ => ∅) (fun _ _ => 0) 12 where
  win := launch12.win.to₀
  block_pos := launch12.block_pos
  stage_whole := launch12.stage_whole
  K := PEmpty
  osem k := k.elim
  ho := Pipeline.OwnSemFacts.none _
  hbody c := (body_obligation12 (Ven12 m) c).loose
  hwaits := Pipeline.hwaits_of_owed_zero _ _ _ _ (fun _ => ∅) (fun _ _ => 0) 12 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec12 c (Ven12 m c)
  hentry c := by
    rw [Pipeline.ownSems0_none]
    have hsplit := Pipeline.arrays_of_unscopedBufs (p := 12) (pcfgs (F := F)) GenP.adm (pdats m) launch12.win launch12.arr_whole c
      ((pdats m 12 c).share_full fun _ => rfl) (Ven12 m c) fun w => A_eq12 (Ven12 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin12 (Ven12 m) c)
    unfold Pipeline.ΦA
    iintro ⟨Hp, -, Hr⟩
    isplitl [Hr]; · iexact Hr
    iexact Hp
  hout c := by
    rw [Pipeline.ownSems0_none]
    refine (hout12 (Ven12 m) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) GenP.adm (Ix := Unit) (Name := ℕ) (U := UR sig nD τ) (Lvl := ℕ)
      launch12.win launch12.arr_whole c (pdats m) ((pdats m 12 c).share_full fun _ => rfl)
      (Ven12 m c) (Vex12 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre12 (c : Dev nD) : iprop(StableHlo.held (c : Thread nD τ) (Pipeline.ucRefs τ sig) (GenP.V25 m (outs m) c) ∗ R c) ⊢ (reg12 m).pre c := by
  rw [Ven_eq12]; exact .rfl

theorem hpost12 (c : Dev nD) : (reg12 m).post c ⊢ iprop(StableHlo.held (c : Thread nD τ) (Pipeline.ucRefs τ sig) (GenP.V26 m (outs m) c) ∗ R c) := by
  rw [Vex_eq12]; exact .rfl

end Cert.Kernel.Hand

end
-- ==== Proof.Kernel.Seg13.lean ====
/- Region 13 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 13's arrays and off them -/

theorem Wex13_out0 (c : Dev nD) : Vex13 m c main_v166 = (dat13 (Ven13 m) c).arrAt 3 cfg13.N := by
  show W27 m c main_v166 = _
  unfold W27; exact Function.update_self _ _ _

theorem Wex13_of_ne (c : Dev nD) (b : Ref sig .tc) (hb : b ≠ main_v166) : Vex13 m c b = Ven13 m c b := by
  show W27 m c b = W26 m c b
  unfold W27; exact Function.update_of_ne (StableHlo.devRef_ne_of_ne hb) _ _

/-! At the exit each array of the region holds what the pipeline leaves: an input what it held at entry, an output
    its write-backs folded. One window at a time, then all. -/

theorem hF13_0 (c : Dev nD) : (dat13 (Ven13 m) c).arrAt 0 cfg13.N = Vex13 m c (Pipeline.arrRef spec13 0) :=
  ((dat13 (Ven13 m) c).arrAt_in 0 rfl _).trans ((A_eq13 (Ven13 m) c 0).trans (Wex13_of_ne m c _ (by decide)).symm)
theorem hF13_1 (c : Dev nD) : (dat13 (Ven13 m) c).arrAt 1 cfg13.N = Vex13 m c (Pipeline.arrRef spec13 1) :=
  ((dat13 (Ven13 m) c).arrAt_in 1 rfl _).trans ((A_eq13 (Ven13 m) c 1).trans (Wex13_of_ne m c _ (by decide)).symm)
theorem hF13_2 (c : Dev nD) : (dat13 (Ven13 m) c).arrAt 2 cfg13.N = Vex13 m c (Pipeline.arrRef spec13 2) :=
  ((dat13 (Ven13 m) c).arrAt_in 2 rfl _).trans ((A_eq13 (Ven13 m) c 2).trans (Wex13_of_ne m c _ (by decide)).symm)
theorem hF13_3 (c : Dev nD) : (dat13 (Ven13 m) c).arrAt 3 cfg13.N = Vex13 m c (Pipeline.arrRef spec13 3) :=
  (Wex13_out0 m c).symm

theorem hF13 (c : Dev nD) : ∀ w : Fin cfg13.W, (dat13 (Ven13 m) c).arrAt w cfg13.N = Vex13 m c (Pipeline.arrRef spec13 w)
  | ⟨0, _⟩ => hF13_0 m c
  | ⟨1, _⟩ => hF13_1 m c
  | ⟨2, _⟩ => hF13_2 m c
  | ⟨3, _⟩ => hF13_3 m c
  | ⟨_ + 4, h⟩ => absurd h (Nat.not_lt.2 (Nat.le_add_left 4 _))

/-- Every buffer that is no array of the region holds at the exit what it held at entry. -/
theorem hrest13 (c : Dev nD) : ∀ b, b ∉ Finset.univ.image (Pipeline.arrRef spec13) → Vex13 m c b = Ven13 m c b :=
  fun b hb => Wex13_of_ne m c b fun e => hb (Finset.mem_image.mpr ⟨3, Finset.mem_univ _, e.symm⟩)

/-! ## The region as a segment -/

set_option backward.isDefEq.respectTransparency.types false in
def reg13 : Pipeline.RegionSeg (pcfgs (F := F)) GenP.adm (pdats m) () defs₀ Variants.none (fun _ => ∅) (fun _ _ => 0) 13 where
  win := launch13.win.to₀
  block_pos := launch13.block_pos
  stage_whole := launch13.stage_whole
  K := PEmpty
  osem k := k.elim
  ho := Pipeline.OwnSemFacts.none _
  hbody c := (body_obligation13 (Ven13 m) c).loose
  hwaits := Pipeline.hwaits_of_owed_zero _ _ _ _ (fun _ => ∅) (fun _ _ => 0) 13 fun _ _ => rfl
  pre c := iprop(StableHlo.held (c : Thread nD τ) (Pipeline.ucRefs τ sig) (W26 m c) ∗ R c)
  post c := iprop(StableHlo.held (c : Thread nD τ) (Pipeline.ucRefs τ sig) (W27 m c) ∗ R c)
  X c := iprop(∃ r, prngReg c r)
  Y c := iprop(∃ r, prngReg c r)
  Z c := Pipeline.unscopedRest (Ix := Unit) (Name := ℕ) (U := UR sig nD τ) (Lvl := ℕ) spec13 c (Ven13 m c)
  hentry c := by
    rw [Pipeline.ownSems0_none]
    have hsplit := Pipeline.arrays_of_unscopedBufs (p := 13) (pcfgs (F := F)) GenP.adm (pdats m) launch13.win launch13.arr_whole c
      ((pdats m 13 c).share_full fun _ => rfl) (Ven13 m c) fun w => A_eq13 (Ven13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin13 (Ven13 m) c)
    unfold Pipeline.ΦA
    iintro ⟨Hp, -, Hr⟩
    isplitl [Hr]; · iexact Hr
    iexact Hp
  hout c := by
    rw [Pipeline.ownSems0_none]
    refine (hout13 (Ven13 m) c).trans ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c (pdats m) ((pdats m 13 c).share_full fun _ => rfl)
      (Ven13 m c) (Vex13 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre13 (c : Dev nD) : iprop(StableHlo.held (c : Thread nD τ) (Pipeline.ucRefs τ sig) (GenP.V26 m (outs m) c) ∗ R c) ⊢ (reg13 m).pre c := by
  rw [Ven_eq13]; exact .rfl

theorem hpost13 (c : Dev nD) : (reg13 m).post c ⊢ iprop(StableHlo.held (c : Thread nD τ) (Pipeline.ucRefs τ sig) (GenP.V27 m (outs m) c) ∗ R c) := by
  rw [Vex_eq13]; exact .rfl

end Cert.Kernel.Hand

end
-- ==== Proof.Kernel.Seg14.lean ====
/- Region 14 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 14's arrays and off them -/

theorem Wex14_out0 (c : Dev nD) : Vex14 m c main_v180 = (dat14 (Ven14 m) c).arrAt 4 cfg14.N := by
  show W29 m c main_v180 = _
  unfold W29; exact Function.update_self _ _ _

theorem Wex14_of_ne (c : Dev nD) (b : Ref sig .tc) (hb : b ≠ main_v180) : Vex14 m c b = Ven14 m c b := by
  show W29 m c b = W28 m c b
  unfold W29; exact Function.update_of_ne (StableHlo.devRef_ne_of_ne hb) _ _

/-! At the exit each array of the region holds what the pipeline leaves: an input what it held at entry, an output
    its write-backs folded. One window at a time, then all. -/

theorem hF14_0 (c : Dev nD) : (dat14 (Ven14 m) c).arrAt 0 cfg14.N = Vex14 m c (Pipeline.arrRef spec14 0) :=
  ((dat14 (Ven14 m) c).arrAt_in 0 rfl _).trans ((A_eq14 (Ven14 m) c 0).trans (Wex14_of_ne m c _ (by decide)).symm)
theorem hF14_1 (c : Dev nD) : (dat14 (Ven14 m) c).arrAt 1 cfg14.N = Vex14 m c (Pipeline.arrRef spec14 1) :=
  ((dat14 (Ven14 m) c).arrAt_in 1 rfl _).trans ((A_eq14 (Ven14 m) c 1).trans (Wex14_of_ne m c _ (by decide)).symm)
theorem hF14_2 (c : Dev nD) : (dat14 (Ven14 m) c).arrAt 2 cfg14.N = Vex14 m c (Pipeline.arrRef spec14 2) :=
  ((dat14 (Ven14 m) c).arrAt_in 2 rfl _).trans ((A_eq14 (Ven14 m) c 2).trans (Wex14_of_ne m c _ (by decide)).symm)
theorem hF14_3 (c : Dev nD) : (dat14 (Ven14 m) c).arrAt 3 cfg14.N = Vex14 m c (Pipeline.arrRef spec14 3) :=
  ((dat14 (Ven14 m) c).arrAt_in 3 rfl _).trans ((A_eq14 (Ven14 m) c 3).trans (Wex14_of_ne m c _ (by decide)).symm)
theorem hF14_4 (c : Dev nD) : (dat14 (Ven14 m) c).arrAt 4 cfg14.N = Vex14 m c (Pipeline.arrRef spec14 4) :=
  (Wex14_out0 m c).symm

theorem hF14 (c : Dev nD) : ∀ w : Fin cfg14.W, (dat14 (Ven14 m) c).arrAt w cfg14.N = Vex14 m c (Pipeline.arrRef spec14 w)
  | ⟨0, _⟩ => hF14_0 m c
  | ⟨1, _⟩ => hF14_1 m c
  | ⟨2, _⟩ => hF14_2 m c
  | ⟨3, _⟩ => hF14_3 m c
  | ⟨4, _⟩ => hF14_4 m c
  | ⟨_ + 5, h⟩ => absurd h (Nat.not_lt.2 (Nat.le_add_left 5 _))

/-- Every buffer that is no array of the region holds at the exit what it held at entry. -/
theorem hrest14 (c : Dev nD) : ∀ b, b ∉ Finset.univ.image (Pipeline.arrRef spec14) → Vex14 m c b = Ven14 m c b :=
  fun b hb => Wex14_of_ne m c b fun e => hb (Finset.mem_image.mpr ⟨4, Finset.mem_univ _, e.symm⟩)

/-! ## The region as a segment -/

set_option backward.isDefEq.respectTransparency.types false in
def reg14 : Pipeline.RegionSeg (pcfgs (F := F)) GenP.adm (pdats m) () defs₀ Variants.none (fun _ => ∅) (fun _ _ => 0) 14 where
  win := launch14.win.to₀
  block_pos := launch14.block_pos
  stage_whole := launch14.stage_whole
  K := PEmpty
  osem k := k.elim
  ho := Pipeline.OwnSemFacts.none _
  hbody c := (body_obligation14 (Ven14 m) c).loose
  hwaits := Pipeline.hwaits_of_owed_zero _ _ _ _ (fun _ => ∅) (fun _ _ => 0) 14 fun _ _ => rfl
  pre c := iprop(StableHlo.held (c : Thread nD τ) (Pipeline.ucRefs τ sig) (W28 m c) ∗ R c)
  post c := iprop(StableHlo.held (c : Thread nD τ) (Pipeline.ucRefs τ sig) (W29 m c) ∗ R c)
  X c := iprop(∃ r, prngReg c r)
  Y c := iprop(∃ r, prngReg c r)
  Z c := Pipeline.unscopedRest (Ix := Unit) (Name := ℕ) (U := UR sig nD τ) (Lvl := ℕ) spec14 c (Ven14 m c)
  hentry c := by
    rw [Pipeline.ownSems0_none]
    have hsplit := Pipeline.arrays_of_unscopedBufs (p := 14) (pcfgs (F := F)) GenP.adm (pdats m) launch14.win launch14.arr_whole c
      ((pdats m 14 c).share_full fun _ => rfl) (Ven14 m c) fun w => A_eq14 (Ven14 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin14 (Ven14 m) c)
    unfold Pipeline.ΦA
    iintro ⟨Hp, -, Hr⟩
    isplitl [Hr]; · iexact Hr
    iexact Hp
  hout c := by
    rw [Pipeline.ownSems0_none]
    refine (hout14 (Ven14 m) c).trans ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) GenP.adm (Ix := Unit) (Name := ℕ) (U := UR sig nD τ) (Lvl := ℕ)
      launch14.win launch14.arr_whole c (pdats m) ((pdats m 14 c).share_full fun _ => rfl)
      (Ven14 m c) (Vex14 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre14 (c : Dev nD) : iprop(StableHlo.held (c : Thread nD τ) (Pipeline.ucRefs τ sig) (GenP.V28 m (outs m) c) ∗ R c) ⊢ (reg14 m).pre c := by
  rw [Ven_eq14]; exact .rfl

theorem hpost14 (c : Dev nD) : (reg14 m).post c ⊢ iprop(StableHlo.held (c : Thread nD τ) (Pipeline.ucRefs τ sig) (GenP.V29 m (outs m) c) ∗ R c) := by
  rw [Vex_eq14]; exact .rfl

end Cert.Kernel.Hand

end
-- ==== Proof.Kernel.Seg15.lean ====
/- Region 15 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 15's arrays and off them -/

theorem Wex15_out0 (c : Dev nD) : Vex15 m c main_v182 = (dat15 (Ven15 m) c).arrAt 3 cfg15.N := by
  show W31 m c main_v182 = _
  unfold W31; exact Function.update_self _ _ _

theorem Wex15_of_ne (c : Dev nD) (b : Ref sig .tc) (hb : b ≠ main_v182) : Vex15 m c b = Ven15 m c b := by
  show W31 m c b = W30 m c b
  unfold W31; exact Function.update_of_ne (StableHlo.devRef_ne_of_ne hb) _ _

/-! At the exit each array of the region holds what the pipeline leaves: an input what it held at entry, an output
    its write-backs folded. One window at a time, then all. -/

theorem hF15_0 (c : Dev nD) : (dat15 (Ven15 m) c).arrAt 0 cfg15.N = Vex15 m c (Pipeline.arrRef spec15 0) :=
  ((dat15 (Ven15 m) c).arrAt_in 0 rfl _).trans ((A_eq15 (Ven15 m) c 0).trans (Wex15_of_ne m c _ (by decide)).symm)
theorem hF15_1 (c : Dev nD) : (dat15 (Ven15 m) c).arrAt 1 cfg15.N = Vex15 m c (Pipeline.arrRef spec15 1) :=
  ((dat15 (Ven15 m) c).arrAt_in 1 rfl _).trans ((A_eq15 (Ven15 m) c 1).trans (Wex15_of_ne m c _ (by decide)).symm)
theorem hF15_2 (c : Dev nD) : (dat15 (Ven15 m) c).arrAt 2 cfg15.N = Vex15 m c (Pipeline.arrRef spec15 2) :=
  ((dat15 (Ven15 m) c).arrAt_in 2 rfl _).trans ((A_eq15 (Ven15 m) c 2).trans (Wex15_of_ne m c _ (by decide)).symm)
theorem hF15_3 (c : Dev nD) : (dat15 (Ven15 m) c).arrAt 3 cfg15.N = Vex15 m c (Pipeline.arrRef spec15 3) :=
  (Wex15_out0 m c).symm

theorem hF15 (c : Dev nD) : ∀ w : Fin cfg15.W, (dat15 (Ven15 m) c).arrAt w cfg15.N = Vex15 m c (Pipeline.arrRef spec15 w)
  | ⟨0, _⟩ => hF15_0 m c
  | ⟨1, _⟩ => hF15_1 m c
  | ⟨2, _⟩ => hF15_2 m c
  | ⟨3, _⟩ => hF15_3 m c
  | ⟨_ + 4, h⟩ => absurd h (Nat.not_lt.2 (Nat.le_add_left 4 _))

/-- Every buffer that is no array of the region holds at the exit what it held at entry. -/
theorem hrest15 (c : Dev nD) : ∀ b, b ∉ Finset.univ.image (Pipeline.arrRef spec15) → Vex15 m c b = Ven15 m c b :=
  fun b hb => Wex15_of_ne m c b fun e => hb (Finset.mem_image.mpr ⟨3, Finset.mem_univ _, e.symm⟩)

/-! ## The region as a segment -/

set_option backward.isDefEq.respectTransparency.types false in
def reg15 : Pipeline.RegionSeg (pcfgs (F := F)) GenP.adm (pdats m) () defs₀ Variants.none (fun _ => ∅) (fun _ _ => 0) 15 where
  win := launch15.win.to₀
  block_pos := launch15.block_pos
  stage_whole := launch15.stage_whole
  K := PEmpty
  osem k := k.elim
  ho := Pipeline.OwnSemFacts.none _
  hbody c := (body_obligation15 (Ven15 m) c).loose
  hwaits := Pipeline.hwaits_of_owed_zero _ _ _ _ (fun _ => ∅) (fun _ _ => 0) 15 fun _ _ => rfl
  pre c := iprop(StableHlo.held (c : Thread nD τ) (Pipeline.ucRefs τ sig) (W30 m c) ∗ R c)
  post c := iprop(StableHlo.held (c : Thread nD τ) (Pipeline.ucRefs τ sig) (W31 m c) ∗ R c)
  X c := iprop(∃ r, prngReg c r)
  Y c := iprop(∃ r, prngReg c r)
  Z c := Pipeline.unscopedRest (Ix := Unit) (Name := ℕ) (U := UR sig nD τ) (Lvl := ℕ) spec15 c (Ven15 m c)
  hentry c := by
    rw [Pipeline.ownSems0_none]
    have hsplit := Pipeline.arrays_of_unscopedBufs (p := 15) (pcfgs (F := F)) GenP.adm (pdats m) launch15.win launch15.arr_whole c
      ((pdats m 15 c).share_full fun _ => rfl) (Ven15 m c) fun w => A_eq15 (Ven15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin15 (Ven15 m) c)
    unfold Pipeline.ΦA
    iintro ⟨Hp, -, Hr⟩
    isplitl [Hr]; · iexact Hr
    iexact Hp
  hout c := by
    rw [Pipeline.ownSems0_none]
    refine (hout15 (Ven15 m) c).trans ?_
    unfold Pipeline.ΦA
    iintro ⟨Hr, Hp⟩
    isplitl [Hp]; · iexact Hp
    isplitr; · iempintro
    iexact Hr
  hexit c := by
    have hjoin := Pipeline.unscopedBufs_of_arrays (p := 15) (pcfgs (F := F)) GenP.adm (Ix := Unit) (Name := ℕ) (U := UR sig nD τ) (Lvl := ℕ)
      launch15.win launch15.arr_whole c (pdats m) ((pdats m 15 c).share_full fun _ => rfl)
      (Ven15 m c) (Vex15 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre15 (c : Dev nD) : iprop(StableHlo.held (c : Thread nD τ) (Pipeline.ucRefs τ sig) (GenP.V30 m (outs m) c) ∗ R c) ⊢ (reg15 m).pre c := by
  rw [Ven_eq15]; exact .rfl

theorem hpost15 (c : Dev nD) : (reg15 m).post c ⊢ iprop(StableHlo.held (c : Thread nD τ) (Pipeline.ucRefs τ sig) (GenP.V31 m (outs m) c) ∗ R c) := by
  rw [Vex_eq15]; exact .rfl

end Cert.Kernel.Hand

end
-- ==== Proof.Kernel.Seg16.lean ====
/- Region 16 as a segment of the program: entered from every unscoped buffer at the fold's contents before it, left at
   the contents after it; its arrays split out of the unscoped buffers at entry and put back at exit. -/
import proofs.«422469_j24000277250640_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 16's arrays and off them -/

theorem Wex16_out0 (c : Dev nD) : Vex16 m c main_v185 = (dat16 (Ven16 m) c).arrAt 5 cfg16.N := by
  show W33 m c main_v185 = _
  unfold W33; exact Function.update_self _ _ _

theorem Wex16_of_ne (c : Dev nD) (b : Ref sig .tc) (hb : b ≠ main_v185) : Vex16 m c b = Ven16 m c b := by
  show W33 m c b = W32 m c b
  unfold W33; exact Function.update_of_ne (StableHlo.devRef_ne_of_ne hb) _ _

/-! At the exit each array of the region holds what the pipeline leaves: an input what it held at entry, an output
    its write-backs folded. One window at a time, then all. -/

theorem hF16_0 (c : Dev nD) : (dat16 (Ven16 m) c).arrAt 0 cfg16.N = Vex16 m c (Pipeline.arrRef spec16 0) :=
  ((dat16 (Ven16 m) c).arrAt_in 0 rfl _).trans ((A_eq16 (Ven16 m) c 0).trans (Wex16_of_ne m c _ (by decide)).symm)
theorem hF16_1 (c : Dev nD) : (dat16 (Ven16 m) c).arrAt 1 cfg16.N = Vex16 m c (Pipeline.arrRef spec16 1) :=
  ((dat16 (Ven16 m) c).arrAt_in 1 rfl _).trans ((A_eq16 (Ven16 m) c 1).trans (Wex16_of_ne m c _ (by decide)).symm)
theorem hF16_2 (c : Dev nD) : (dat16 (Ven16 m) c).arrAt 2 cfg16.N = Vex16 m c (Pipeline.arrRef spec16 2) :=
  ((dat16 (Ven16 m) c).arrAt_in 2 rfl _).trans ((A_eq16 (Ven16 m) c 2).trans (Wex16_of_ne m c _ (by decide)).symm)
theorem hF16_3 (c : Dev nD) : (dat16 (Ven16 m) c).arrAt 3 cfg16.N = Vex16 m c (Pipeline.arrRef spec16 3) :=
  ((dat16 (Ven16 m) c).arrAt_in 3 rfl _).trans ((A_eq16 (Ven16 m) c 3).trans (Wex16_of_ne m c _ (by decide)).symm)
theorem hF16_4 (c : Dev nD) : (dat16 (Ven16 m) c).arrAt 4 cfg16.N = Vex16 m c (Pipeline.arrRef spec16 4) :=
  ((dat16 (Ven16 m) c).arrAt_in 4 rfl _).trans ((A_eq16 (Ven16 m) c 4).trans (Wex16_of_ne m c _ (by decide)).symm)
theorem hF16_5 (c : Dev nD) : (dat16 (Ven16 m) c).arrAt 5 cfg16.N = Vex16 m c (Pipeline.arrRef spec16 5) :=
  (Wex16_out0 m c).symm

theorem hF16 (c : Dev nD) : ∀ w : Fin cfg16.W, (dat16 (Ven16 m) c).arrAt w cfg16.N = Vex16 m c (Pipeline.arrRef spec16 w)
  | ⟨0, _⟩ => hF16_0 m c
  | ⟨1, _⟩ => hF16_1 m c
  | ⟨2, _⟩ => hF16_2 m c
  | ⟨3, _⟩ => hF16_3 m c
  | ⟨4, _⟩ => hF16_4 m c
  | ⟨5, _⟩ => hF16_5 m c
  | ⟨_ + 6, h⟩ => absurd h (Nat.not_lt.2 (Nat.le_add_left 6 _))

/-- Every buffer that is no array of the region holds at the exit what it held at entry. -/
theorem hrest16 (c : Dev nD) : ∀ b, b ∉ Finset.univ.image (Pipeline.arrRef spec16) → Vex16 m c b = Ven16 m c b :=
  fun b hb => Wex16_of_ne m c b fun e => hb (Finset.mem_image.mpr ⟨5, Finset.mem_univ _, e.symm⟩)

/-! ## The region as a segment -/

set_option backward.isDefEq.respectTransparency.types false in
def reg16 : Pipeline.RegionSeg (pcfgs (F := F)) GenP.adm (pdats m) () defs₀ Variants.none (fun _ => ∅) (fun _ _ => 0) 16 where
  win := launch16.win.to₀
  block_pos := launch16.block_pos
  stage_whole := launch16.stage_whole
  K := PEmpty
  osem k := k.elim
  ho := Pipeline.OwnSemFacts.none _
  hbody c := (body_obligation16 (Ven16 m) c).loose
  hwaits := Pipeline.hwaits_of_owed_zero _ _ _ _ (fun _ => ∅) (fun _ _ => 0) 16 fun _ _ => rfl
  pre c := iprop(StableHlo.held (c : Thread nD τ) (Pipeline.ucRefs τ sig) (W32 m c) ∗ R c)
  post c := iprop(StableHlo.held (c : Thread nD τ) (Pipeline.ucRefs τ sig) (W33 m c) ∗ R c)
  X c := iprop(∃ r, prngReg c r)
  Y c := iprop(∃ r, prngReg c r)
  Z c := Pipeline.unscopedRest (Ix := Unit) (Name := ℕ) (U := UR sig nD τ) (Lvl := ℕ) spec16 c (Ven16 m c)
  hentry c := by
    rw [Pipeline.ownSems0_none]
    have hsplit := Pipeline.arrays_of_unscopedBufs (p := 16) (pcfgs (F := F)) GenP.adm (pdats m) launch16.win launch16.arr_whole c
      ((pdats m 16 c).share_full fun _ => rfl) (Ven16 m c) fun w => A_eq16 (Ven16 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin16 (Ven16 m) c)
    unfold Pipeline.ΦA
    iintro ⟨Hp, -, Hr⟩
    isplitl [Hr]; · iexact Hr
    iexact Hp
  hout c := by
    rw [Pipeline.ownSems0_none]
    refine (hout16 (Ven16 m) c).trans ?_
    unfold Pipeline.ΦA
    iintro ⟨Hr, Hp⟩
    isplitl [Hp]; · iexact Hp
    isplitr; · iempintro
    iexact Hr
  hexit c := by
    have hjoin := Pipeline.unscopedBufs_of_arrays (p := 16) (pcfgs (F := F)) GenP.adm (Ix := Unit) (Name := ℕ) (U := UR sig nD τ) (Lvl := ℕ)
      launch16.win launch16.arr_whole c (pdats m) ((pdats m 16 c).share_full fun _ => rfl)
      (Ven16 m c) (Vex16 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre16 (c : Dev nD) : iprop(StableHlo.held (c : Thread nD τ) (Pipeline.ucRefs τ sig) (GenP.V32 m (outs m) c) ∗ R c) ⊢ (reg16 m).pre c := by
  rw [Ven_eq16]; exact .rfl

theorem hpost16 (c : Dev nD) : (reg16 m).post c ⊢ iprop(StableHlo.held (c : Thread nD τ) (Pipeline.ucRefs τ sig) (GenP.V33 m (outs m) c) ∗ R c) := by
  rw [Vex_eq16]; exact .rfl

end Cert.Kernel.Hand

end
-- ==== Proof.Kernel.Frame.lean ====
/- The frame of the program: from any memory with zero counters, every weakly fair execution terminates and every
   final memory holds each argument array as launched. The conditional frame, at the fold's contents and the seventeen
   regions' segment records. -/
import proofs.«422469_j24000277250640_1_alg».proof.Proof.Kernel.Fold
import proofs.«422469_j24000277250640_1_alg».proof.Proof.Kernel.RunCond
import proofs.«422469_j24000277250640_1_alg».proof.Proof.Kernel.Seg0
import proofs.«422469_j24000277250640_1_alg».proof.Proof.Kernel.Seg1
import proofs.«422469_j24000277250640_1_alg».proof.Proof.Kernel.Seg2
import proofs.«422469_j24000277250640_1_alg».proof.Proof.Kernel.Seg3
import proofs.«422469_j24000277250640_1_alg».proof.Proof.Kernel.Seg4
import proofs.«422469_j24000277250640_1_alg».proof.Proof.Kernel.Seg5
import proofs.«422469_j24000277250640_1_alg».proof.Proof.Kernel.Seg6
import proofs.«422469_j24000277250640_1_alg».proof.Proof.Kernel.Seg7
import proofs.«422469_j24000277250640_1_alg».proof.Proof.Kernel.Seg8
import proofs.«422469_j24000277250640_1_alg».proof.Proof.Kernel.Seg9
import proofs.«422469_j24000277250640_1_alg».proof.Proof.Kernel.Seg10
import proofs.«422469_j24000277250640_1_alg».proof.Proof.Kernel.Seg11
import proofs.«422469_j24000277250640_1_alg».proof.Proof.Kernel.Seg12
import proofs.«422469_j24000277250640_1_alg».proof.Proof.Kernel.Seg13
import proofs.«422469_j24000277250640_1_alg».proof.Proof.Kernel.Seg14
import proofs.«422469_j24000277250640_1_alg».proof.Proof.Kernel.Seg15
import proofs.«422469_j24000277250640_1_alg».proof.Proof.Kernel.Seg16
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's user element yields the pipeline library's at every staging cell; no ghost resource beside it. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core, beside its buffers, makes the rest state on every core at once. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts (fun _ : GSem nD τ sig => (∅ : Finset Unit)) (fun _ _ => (0 : ℕ)))
    ⊢ (|={Set.univ}=> bigSep Finset.univ (fun c : Dev nD => R (F := F) c) : sProp 𝕄) := by
  refine Pipeline.initEach _ _ fun c => ?_
  iintro ⟨⟨-, HO, -, Hp, -⟩, -⟩
  imodintro
  isplitl [Hp]; · iexists _; iexact Hp
  iexists ∅; iexact HO

/-- The rest state ends owing nothing. -/
theorem hE17 (c : Dev nD) : R (F := F) c ⊢ (iprop(∃ W, owes (c : Thread nD τ) (0 : CellTallies nD τ sig Unit) W) : sProp 𝕄) := by
  iintro ⟨-, HO⟩; iexact HO

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  GenP.frame_cond m emb₁ () Variants.none (fun _ => ∅) (fun _ _ => 0) (fun _ _ => rfl) ρ (outs m) (pdats m)
    0 (fun _ => iprop(emp)) (initOf (Pipeline.cells cfgs cellOf_inj) (Pipeline.launchToks cfgs cellOf_inj)) hu₀
    (fun _ c => R c) (hE0 ρ) hE17
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
    (reg8 m) (hpre8 m) (hpost8 m)
    (reg9 m) (hpre9 m) (hpost9 m)
    (reg10 m) (hpre10 m) (hpost10 m)
    (reg11 m) (hpre11 m) (hpost11 m)
    (reg12 m) (hpre12 m) (hpost12 m)
    (reg13 m) (hpre13 m) (hpost13 m)
    (reg14 m) (hpre14 m) (hpost14 m)
    (reg15 m) (hpre15 m) (hpost15 m)
    (reg16 m) (hpre16 m) (hpost16 m)

/-- THE RUN WITH ITS RESULTS: as the frame, and every final memory holds in the two result arrays the fold's last
    contents — the conditional run at the same data, its last valuation read as the fold's. -/
theorem run_values : θ_run defs (onTc (τ := τ) (main (F := F))) ⟨m, fun _ => 0, ρ⟩ (fun r => ∀ c : Dev nD,
      r.2.mem ((c.tc : Thread nD τ).loc main_v180) = W33 m c main_v180
      ∧ r.2.mem ((c.tc : Thread nD τ).loc main_v185) = W33 m c main_v185
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  MeshRun.mono
    (fun s hs c => ⟨(hs c).1.trans (congrFun (V33_eq m c) (Proc.devRef .tc main_v180)),
      (hs c).2.1.trans (congrFun (V33_eq m c) (Proc.devRef .tc main_v185)), (hs c).2.2⟩)
    (run_cond m emb₁ () Variants.none (fun _ => ∅) (fun _ _ => 0) (fun _ _ => rfl) ρ (outs m) (pdats m)
      0 (fun _ => iprop(emp)) (initOf (Pipeline.cells cfgs cellOf_inj) (Pipeline.launchToks cfgs cellOf_inj)) hu₀
      (fun _ c => R c) (hE0 ρ) hE17
      (reg0 m) (hpre0 m) (hpost0 m)
      (reg1 m) (hpre1 m) (hpost1 m)
      (reg2 m) (hpre2 m) (hpost2 m)
      (reg3 m) (hpre3 m) (hpost3 m)
      (reg4 m) (hpre4 m) (hpost4 m)
      (reg5 m) (hpre5 m) (hpost5 m)
      (reg6 m) (hpre6 m) (hpost6 m)
      (reg7 m) (hpre7 m) (hpost7 m)
      (reg8 m) (hpre8 m) (hpost8 m)
      (reg9 m) (hpre9 m) (hpost9 m)
      (reg10 m) (hpre10 m) (hpost10 m)
      (reg11 m) (hpre11 m) (hpost11 m)
      (reg12 m) (hpre12 m) (hpost12 m)
      (reg13 m) (hpre13 m) (hpost13 m)
      (reg14 m) (hpre14 m) (hpost14 m)
      (reg15 m) (hpre15 m) (hpost15 m)
      (reg16 m) (hpre16 m) (hpost16 m))

end Cert.Kernel.Hand

end
-- ==== Proof.KernelIdeal.Reg0.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right factor, one block for the whole grid) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's buffer read or written whole -/

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S5000x64 := Rect.unit (s := S5000x64) ![0, 0] S5000x64.size inb_S5000x64_S5000x64_0_0

/-! ## What the body leaves in the output window's buffer -/

/-- Window 2's staging buffer after the body, from the two input blocks: the product block, stored whole. -/
def out0_2 (x0 : Vec F S5000x64 .f32) (x1 : Vec F S64x64 .f32) : Vec F S5000x64 .f32 :=
  View.canon [⟨r0_2, k0_pay1 (View.ld x0 r0_0) (View.ld x1 r0_1)⟩]

/-- The one store tiles the buffer, so it covers it. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The body on whole staging memrefs, the inputs' at contents `x0`, `x1` and the output's at anything, runs to the
    continuation holding the inputs' as they were and the output's at `out0_2 x0 x1`; the output's old contents are
    read and not used. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`, at the region-entry contents `V`: after the body at point `t` each input's
    buffer holds its block and the output's holds `out0_2` of the two input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- The invariant at the first point is the class invariant itself. -/
theorem hin0 (c : Dev nD) : Pipeline.ΦA spec0 c ⊢ (dat0 V c).Φ 0 := by
  rw [show (dat0 V c).Φ 0 = Pipeline.ΦA spec0 c from rfl]

/-- And at the last point. -/
theorem hout0 (c : Dev nD) : (dat0 V c).Φ (Fin.last cfg0.N) ⊢ Pipeline.ΦA spec0 c := by
  rw [show (dat0 V c).Φ (Fin.last cfg0.N) = Pipeline.ΦA spec0 c from rfl]

end

end Cert.KernelIdeal.Hand

end
-- ==== Proof.KernelIdeal.Reg1Runs.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents (`hA`) and whose body leaves the block in place (`hafter`): unfetched,
    the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents (`hA`) and whose body leaves the block in place (`hafter`): unfetched,
    the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents (`hA`) and whose body leaves the block in place (`hafter`): unfetched,
    the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

/-- The condition of the body's first conditional, from the grid coordinates: the point is the first of the grid. -/
abbrev cond1_0 (i : grid1.Coords) : Prop := (Scalar.cmpi .ne (Scalar.extui (Scalar.cmpi .eq (BitVec.ofNat 32 (i 0).val) 0#32)) 0#32) = 1#1
/-- It holds at the points ≡ 0 (mod 20): decided over the grid. -/
theorem hcond1_0 : ∀ t : Fin cfg1.N, cond1_0 (grid1.coords t) ↔ t.val % 20 = 0 :=
  (by decide +kernel : ∀ t : Fin grid1.N, cond1_0 (grid1.coords t) ↔ t.val % 20 = 0)

/-- The condition of the body's second conditional, from the grid coordinates: the point is the last of the grid. -/
abbrev cond1_1 (i : grid1.Coords) : Prop := k1_cond2 i = 1#1
/-- It holds at the points ≡ 19 (mod 20): decided over the grid. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first point the output is idle (nothing is stored into it) and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At the middle points likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last point the output is live: the body stores into it. -/
theorem liveAt1_3_C : ∀ t : Fin cfg1.N, ¬cond1_0 (grid1.coords t) → cond1_1 (grid1.coords t) → cfg1.idle 3 (grid1.coords t) = false := by decide +kernel

/-! ## The staging memrefs and the scratch -/

/-- One staging buffer of the output window, through which its contents are stated. -/
abbrev VO1_3 : View sig .tc .vmem S256x64 .f32 := (Memref.whole cc1_stg3_0 : Memref sig .tc .vmem S256x64 .f32).view
/-- Each window's current staging memref at point `t`, as the pipeline passes it, and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x64 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S256x64 .f32 := Memref.whole cc1_scratch0
/-- The scratch the kernel carries between points, as a view. -/
abbrev VS1_0 : View sig .tc .vmem S256x64 .f32 := scM1_0.view

/-- The region invariant with the scratch operand as a memref owned at some contents, the other scoped buffers
    unopened beside it, and the generator register at some state. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KernelIdeal.Reg1RunA.lean ====
import proofs.«422469_j24000277250640_1_alg».proof.Proof.KernelIdeal.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun1_A (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond1_0 i) (hcl : ¬cond1_1 i)
    (xd : Vec F S5000x64 .f32) (xb : Vec F S5000x1 .i32) (xn : Vec F S256x1 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__reduce_div_kernel i arg1 harg1 arg2 harg2 arg3 harg3 arg4 harg4 arg5 harg5) K } := by
  refine ⟨[], ?_, fun xi E K => ?run⟩
  case run =>
    simp only [cc1__reduce_div_kernel_eq_skeleton]; unfold cc1__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg1RunB.lean ====
import proofs.«422469_j24000277250640_1_alg».proof.Proof.KernelIdeal.Reg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun1_B (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : ¬cond1_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__reduce_div_kernel i arg1 harg1 arg2 harg2 arg3 harg3 arg4 harg4 arg5 harg5) K } := by
  refine ⟨[], ?_, fun xi E K => ?run⟩
  case run =>
    simp only [cc1__reduce_div_kernel_eq_skeleton]; unfold cc1__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg1RunC.lean ====
import proofs.«422469_j24000277250640_1_alg».proof.Proof.KernelIdeal.Reg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun1_C (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : cond1_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__reduce_div_kernel i arg1 harg1 arg2 harg2 arg3 harg3 arg4 harg4 arg5 harg5) K } := by
  refine ⟨?_, ?_, fun E K => ?run⟩
  case run =>
    simp only [cc1__reduce_div_kernel_eq_skeleton]; unfold cc1__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.KernelIdeal.Hand

end
-- ==== Proof.KernelIdeal.Reg1.lean ====
import proofs.«422469_j24000277250640_1_alg».proof.Proof.KernelIdeal.Reg1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out1_A_3 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond1_0 i) (hcl : ¬cond1_1 i)
    (xd : Vec F S5000x64 .f32) (xb : Vec F S5000x1 .i32) (xn : Vec F S256x1 .f32) : Vec F S256x64 .f32 :=
  VO1_3.read (Elt F) (VO1_3.writes (Elt F) VO1_3.junk (kernelRun1_A c i arg1 harg1 arg2 harg2 arg3 harg3 arg4 harg4 arg5 harg5 hcz hcl xd xb xn).1)

/-- The pieces stored into the carried scratch tile it, so they cover it. -/
theorem scover1_A_0 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond1_0 i) (hcl : ¬cond1_1 i)
    (xd : Vec F S5000x64 .f32) (xb : Vec F S5000x1 .i32) (xn : Vec F S256x1 .f32) (y : S256x64.Idx) :
    ∃ pc ∈ (kernelRun1_A c i arg1 harg1 arg2 harg2 arg3 harg3 arg4 harg4 arg5 harg5 hcz hcl xd xb xn).2.1, y ∈ pc.1.set :=
  View.cover_of_tiledL (kernelRun1_A c i arg1 harg1 arg2 harg2 arg3 harg3 arg4 harg4 arg5 harg5 hcz hcl xd xb xn).2.1 S256x64.size (by sl_kernel_rfl) y

/-- What this case leaves in the carried scratch: its pieces read back over junk. -/
def sout1_A_0 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond1_0 i) (hcl : ¬cond1_1 i)
    (xd : Vec F S5000x64 .f32) (xb : Vec F S5000x1 .i32) (xn : Vec F S256x1 .f32) : Vec F S256x64 .f32 :=
  VS1_0.read (Elt F) (VS1_0.writes (Elt F) VS1_0.junk (kernelRun1_A c i arg1 harg1 arg2 harg2 arg3 harg3 arg4 harg4 arg5 harg5 hcz hcl xd xb xn).2.1)

/-- Nothing is stored into the output window here (it is idle and not written back): no pieces, a placeholder
    that nothing consults. -/
def out1_B_3 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : ¬cond1_1 i)
    (xd : Vec F S5000x64 .f32) (xb : Vec F S5000x1 .i32) (xn : Vec F S256x1 .f32) (xs : Vec F S256x64 .f32) : Vec F S256x64 .f32 :=
  VO1_3.read (Elt F) (VO1_3.writes (Elt F) VO1_3.junk (kernelRun1_B c i arg1 harg1 arg2 harg2 arg3 harg3 arg4 harg4 arg5 harg5 hcz hcl xd xb xn xs).1)

/-- The pieces stored into the carried scratch tile it, so they cover it. -/
theorem scover1_B_0 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : ¬cond1_1 i)
    (xd : Vec F S5000x64 .f32) (xb : Vec F S5000x1 .i32) (xn : Vec F S256x1 .f32) (xs : Vec F S256x64 .f32) (y : S256x64.Idx) :
    ∃ pc ∈ (kernelRun1_B c i arg1 harg1 arg2 harg2 arg3 harg3 arg4 harg4 arg5 harg5 hcz hcl xd xb xn xs).2.1, y ∈ pc.1.set :=
  View.cover_of_tiledL (kernelRun1_B c i arg1 harg1 arg2 harg2 arg3 harg3 arg4 harg4 arg5 harg5 hcz hcl xd xb xn xs).2.1 S256x64.size (by sl_kernel_rfl) y

/-- What this case leaves in the carried scratch: its pieces read back over junk. -/
def sout1_B_0 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : ¬cond1_1 i)
    (xd : Vec F S5000x64 .f32) (xb : Vec F S5000x1 .i32) (xn : Vec F S256x1 .f32) (xs : Vec F S256x64 .f32) : Vec F S256x64 .f32 :=
  VS1_0.read (Elt F) (VS1_0.writes (Elt F) VS1_0.junk (kernelRun1_B c i arg1 harg1 arg2 harg2 arg3 harg3 arg4 harg4 arg5 harg5 hcz hcl xd xb xn xs).2.1)

/-- The pieces stored into the output window tile its block, so they cover it. -/
theorem cover1_C_3 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : cond1_1 i)
    (xd : Vec F S5000x64 .f32) (xb : Vec F S5000x1 .i32) (xn : Vec F S256x1 .f32) (xs : Vec F S256x64 .f32) (y : S256x64.Idx) :
    ∃ pc ∈ (kernelRun1_C c i arg1 harg1 arg2 harg2 arg3 harg3 arg4 harg4 arg5 harg5 hcz hcl xd xb xn xs).1, y ∈ pc.1.set :=
  View.cover_of_tiledL (kernelRun1_C c i arg1 harg1 arg2 harg2 arg3 harg3 arg4 harg4 arg5 harg5 hcz hcl xd xb xn xs).1 S256x64.size (by sl_kernel_rfl) y

/-- What this case leaves in the output's staging buffer: its pieces read back over junk. -/
def out1_C_3 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : cond1_1 i)
    (xd : Vec F S5000x64 .f32) (xb : Vec F S5000x1 .i32) (xn : Vec F S256x1 .f32) (xs : Vec F S256x64 .f32) : Vec F S256x64 .f32 :=
  VO1_3.read (Elt F) (VO1_3.writes (Elt F) VO1_3.junk (kernelRun1_C c i arg1 harg1 arg2 harg2 arg3 harg3 arg4 harg4 arg5 harg5 hcz hcl xd xb xn xs).1)

/-- The pieces stored into the carried scratch tile it, so they cover it. -/
theorem scover1_C_0 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : cond1_1 i)
    (xd : Vec F S5000x64 .f32) (xb : Vec F S5000x1 .i32) (xn : Vec F S256x1 .f32) (xs : Vec F S256x64 .f32) (y : S256x64.Idx) :
    ∃ pc ∈ (kernelRun1_C c i arg1 harg1 arg2 harg2 arg3 harg3 arg4 harg4 arg5 harg5 hcz hcl xd xb xn xs).2.1, y ∈ pc.1.set :=
  View.cover_of_tiledL (kernelRun1_C c i arg1 harg1 arg2 harg2 arg3 harg3 arg4 harg4 arg5 harg5 hcz hcl xd xb xn xs).2.1 S256x64.size (by sl_kernel_rfl) y

/-- What this case leaves in the carried scratch: its pieces read back over junk. -/
def sout1_C_0 (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : cond1_1 i)
    (xd : Vec F S5000x64 .f32) (xb : Vec F S5000x1 .i32) (xn : Vec F S256x1 .f32) (xs : Vec F S256x64 .f32) : Vec F S256x64 .f32 :=
  VS1_0.read (Elt F) (VS1_0.writes (Elt F) VS1_0.junk (kernelRun1_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt1 (c : Dev nD) : (n : ℕ) → n < cfg1.N → Vec F S256x64 .f32 × Vec F S256x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if hz : (n + 1) % 20 = 0 then
      if hl : (n + 1) % 20 = 19 then
        False.elim (by have hN : n + 1 < 20 := lt_of_lt_of_eq hn (show cfg1.N = 20 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr hz) (fun h => hl ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr hz) (fun h => hl ((hcond1_1 ⟨n + 1, hn⟩).mp h)) (iblk1 V c 0 ⟨n + 1, hn⟩) (iblk1 V c 1 ⟨n + 1, hn⟩) (iblk1 V c 2 ⟨n + 1, hn⟩))
    else
      if hl : (n + 1) % 20 = 19 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => hz ((hcond1_0 ⟨n + 1, hn⟩).mp h)) ((hcond1_1 ⟨n + 1, hn⟩).mpr hl) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => hz ((hcond1_0 ⟨n + 1, hn⟩).mp h)) ((hcond1_1 ⟨n + 1, hn⟩).mpr hl) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => hz ((hcond1_0 ⟨n + 1, hn⟩).mp h)) (fun h => hl ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => hz ((hcond1_0 ⟨n + 1, hn⟩).mp h)) (fun h => hl ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at the first point. -/
theorem outsAt1_A (c : Dev nD) (t : Fin cfg1.N) (hz : t.val % 20 = 0) (hl : ¬t.val % 20 = 19) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr hz) (fun h => hl ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr hz) (fun h => hl ((hcond1_1 t).mp h)) (iblk1 V c 0 t) (iblk1 V c 1 t) (iblk1 V c 2 t)) := by
  obtain ⟨n, hn⟩ := t
  cases n with
  | zero => exact rfl
  | succ n => exact (dif_pos hz).trans ((dif_neg hl).trans rfl)

/-- `outsAt1` at a middle point: over what the point before left in the scratch. -/
theorem outsAt1_B (c : Dev nD) (t : Fin cfg1.N) (hz : ¬t.val % 20 = 0) (hl : ¬t.val % 20 = 19) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => hz ((hcond1_0 t).mp h)) (fun h => hl ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => hz ((hcond1_0 t).mp h)) (fun h => hl ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt1` at the last point: over what the point before left in the scratch. -/
theorem outsAt1_C (c : Dev nD) (t : Fin cfg1.N) (hz : ¬t.val % 20 = 0) (hl : t.val % 20 = 19) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => hz ((hcond1_0 t).mp h)) ((hcond1_1 t).mpr hl) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => hz ((hcond1_0 t).mp h)) ((hcond1_1 t).mpr hl) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut1 (c : Dev nD) : sProp 𝕄 :=
  Pipeline.scopedRestBut (Ix := Unit) (Name := ℕ) (U := UR sig nD τ) (Lvl := ℕ) (Val := Elt F) spec1 c [cc1_scratch0]

/-- The region invariant before position `n`: before the first point the class's (every scratch at anything);
    afterwards the carried scratch at what the point before left in it, the other scoped buffers unopened, and the
    random-number register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS1_zero (c : Dev nD) (n : ℕ) (h : n ≤ cfg1.N) (hfirst : n = 0) : PhiS1 V c n h = Pipeline.ΦA spec1 c := by
  subst hfirst; rfl

/-- After point `n` (before point `n + 1`): the carried scratch at that point's contents. -/
theorem PhiS1_succ (c : Dev nD) (n : ℕ) (hn : n < cfg1.N) :
    PhiS1 V c (n + 1) hn = iprop(iprop(owns (c : Thread nD τ) scM1_0 fullShare ((outsAt1 V c n hn).2) ∗ restBut1 (F := F) c) ∗ (∃ r, prngReg c r)) := rfl

/-- Before a point that is not the first: the carried scratch at what the point before left. -/
theorem PhiS1_pos (c : Dev nD) (n : ℕ) (h : n ≤ cfg1.N) (hfirst : n ≠ 0) :
    PhiS1 V c n h = iprop(iprop(owns (c : Thread nD τ) scM1_0 fullShare ((outsAt1 V c (n - 1) (by omega)).2) ∗ restBut1 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  by_cases hz : t.val % 20 = 0
  · by_cases hl : t.val % 20 = 19
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr hz) (fun h => hl ((hcond1_1 t).mp h))) (noFlush1_3_A t ((hcond1_0 t).mpr hz) (fun h => hl ((hcond1_1 t).mp h)))]
      rw [outsAt1_A V c t hz hl]
      unfold sout1_A_0; (try dsimp only)
      by_cases hfirst : t.val = 0
      · rw [PhiS1_castSucc V c t, PhiS1_zero V c _ _ hfirst, PhiA1_eq]
        iintro ⟨⟨⟨HS, Hr⟩, Hg⟩, Ho, ⟨%dd, Hd⟩, ⟨%db, Hb⟩, ⟨%dn, Hn⟩, ⟨%dq, Hq⟩⟩
        iapply ((kernelRun1_A c (grid1.coords t) _ _ _ _ _ _ _ _ _ _ ((hcond1_0 t).mpr hz) (fun h => hl ((hcond1_1 t).mp h)) (iblk1 V c 0 t) (iblk1 V c 1 t) (iblk1 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover1_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS1_castSucc V c t, PhiS1_pos V c _ _ hfirst]
        iintro ⟨⟨⟨HS, Hr⟩, Hg⟩, Ho, ⟨%dd, Hd⟩, ⟨%db, Hb⟩, ⟨%dn, Hn⟩, ⟨%dq, Hq⟩⟩
        iapply ((kernelRun1_A c (grid1.coords t) _ _ _ _ _ _ _ _ _ _ ((hcond1_0 t).mpr hz) (fun h => hl ((hcond1_1 t).mp h)) (iblk1 V c 0 t) (iblk1 V c 1 t) (iblk1 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover1_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => hz ((hcond1_0 t).mp h)) ((hcond1_1 t).mpr hl)], after1_3]
      rw [outsAt1_C V c t hz hl]
      unfold out1_C_3 sout1_C_0; (try dsimp only)
      by_cases hfirst : t.val = 0
      · exfalso; omega
      · rw [PhiS1_castSucc V c t, PhiS1_pos V c _ _ hfirst]
        iintro ⟨⟨⟨HS, Hr⟩, Hg⟩, Ho, ⟨%dd, Hd⟩, ⟨%db, Hb⟩, ⟨%dn, Hn⟩, ⟨%dq, Hq⟩⟩
        iapply ((kernelRun1_C c (grid1.coords t) _ _ _ _ _ _ _ _ _ _ (fun h => hz ((hcond1_0 t).mp h)) ((hcond1_1 t).mpr hl) (iblk1 V c 0 t) (iblk1 V c 1 t) (iblk1 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover1_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => hz ((hcond1_0 t).mp h)) (fun h => hl ((hcond1_1 t).mp h))) (noFlush1_3_B t (fun h => hz ((hcond1_0 t).mp h)) (fun h => hl ((hcond1_1 t).mp h)))]
      rw [outsAt1_B V c t hz hl]
      unfold sout1_B_0; (try dsimp only)
      by_cases hfirst : t.val = 0
      · exfalso; omega
      · rw [PhiS1_castSucc V c t, PhiS1_pos V c _ _ hfirst]
        iintro ⟨⟨⟨HS, Hr⟩, Hg⟩, Ho, ⟨%dd, Hd⟩, ⟨%db, Hb⟩, ⟨%dn, Hn⟩, ⟨%dq, Hq⟩⟩
        iapply ((kernelRun1_B c (grid1.coords t) _ _ _ _ _ _ _ _ _ _ (fun h => hz ((hcond1_0 t).mp h)) (fun h => hl ((hcond1_1 t).mp h)) (iblk1 V c 0 t) (iblk1 V c 1 t) (iblk1 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover1_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hr⟩, Hg⟩
  isplitl [HS Hr]
  · isplitl [HS]
    · iexists _; iexact HS
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end

end Cert.KernelIdeal.Hand

end
-- ==== Proof.KernelIdeal.Reg2.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # The centring kernel's region, at the region-entry contents `V`

Three input windows (the aggregate's block, the gathered mean's block, the scale row) and two output windows
(the centred block, its elementwise square). -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2, whose block index is constant: it is fetched at the first point only, and every later
    point finds the same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0

/-! ## What the body leaves in each output window's buffer -/

/-- Window 3's staging buffer after the body, from the input windows' blocks: its one store as pieces, last first. -/
def out2_3 (x0 : Vec F S5000x64 .f32) (x1 : Vec F S5000x64 .f32) (x2 : Vec F S1x64 .f32) : Vec F S5000x64 .f32 :=
  View.canon [⟨r2_0, k2_pay1 (View.ld x0 r2_0) (View.ld x2 r2_1) (View.ld x1 r2_0)⟩]

/-- Window 4's staging buffer after the body, from the input windows' blocks: its one store as pieces, last first. -/
def out2_4 (x0 : Vec F S5000x64 .f32) (x1 : Vec F S5000x64 .f32) (x2 : Vec F S1x64 .f32) : Vec F S5000x64 .f32 :=
  View.canon [⟨r2_0, k2_pay2 (View.ld x0 r2_0) (View.ld x2 r2_1) (View.ld x1 r2_0)⟩]

/-- Window 3's store is the whole buffer, so it covers it. -/
theorem cover2_3 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-- Window 4's store is the whole buffer, so it covers it. -/
theorem cover2_4 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at read contents and the outputs' at anything, runs to the
    continuation holding the inputs' as they were and each output's at its `out2_W` of the inputs'. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2) ∗ owns (c : Thread nD τ) arg5 fullShare (out2_4 x0 x1 x2)) -∗ K ⟨⟩))
      ⊢ wp frame (wpE (defs₀ (F := F)) Variants.none c none) E (cc2__center_kernel i arg1 harg1 arg2 harg2 arg3 harg3 arg4 harg4 arg5 harg5) K := by
  simp only [cc2__center_kernel_eq_skeleton]; unfold cc2__center_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-! ## The pipeline's proof data -/

/-- The proof data of pipeline 2 on core `c`, at the region-entry contents `V`: the arrays as the region finds them;
    after the body at point `t` each input's buffer at its block and each output's at `out2_W` of the input blocks;
    the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's owed tokens pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## Entering and leaving the region: the invariant is the class's at every point -/

theorem hin2 (c : Dev nD) : Pipeline.ΦA spec2 c ⊢ (dat2 V c).Φ 0 := by
  dsimp only [dat2]; exact .rfl

theorem hout2 (c : Dev nD) : (dat2 V c).Φ (Fin.last cfg2.N) ⊢ Pipeline.ΦA spec2 c := by
  dsimp only [dat2]; exact .rfl

end

end Cert.KernelIdeal.Hand

end
-- ==== Proof.KernelIdeal.Reg3Runs.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the entry contents (`hA`) and whose body leaves the block in place (`hafter`): unfetched,
    the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is the entry contents (`hA`) and whose body leaves the block in place (`hafter`): unfetched,
    the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is the entry contents (`hA`) and whose body leaves the block in place (`hafter`): unfetched,
    the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end

/-! ## The body's branch conditions -/

/-- The condition of the body's first conditional, from the grid coordinates: the point is the first of the grid. -/
abbrev cond3_0 (i : grid3.Coords) : Prop := (Scalar.cmpi .ne (Scalar.extui (Scalar.cmpi .eq (BitVec.ofNat 32 (i 0).val) 0#32)) 0#32) = 1#1
/-- It holds at the points ≡ 0 (mod 20): decided over the grid. -/
theorem hcond3_0 : ∀ t : Fin cfg3.N, cond3_0 (grid3.coords t) ↔ t.val % 20 = 0 :=
  (by decide +kernel : ∀ t : Fin grid3.N, cond3_0 (grid3.coords t) ↔ t.val % 20 = 0)

/-- The condition of the body's second conditional, from the grid coordinates: the point is the last of the grid. -/
abbrev cond3_1 (i : grid3.Coords) : Prop := k3_cond2 i = 1#1
/-- It holds at the points ≡ 19 (mod 20): decided over the grid. -/
theorem hcond3_1 : ∀ t : Fin cfg3.N, cond3_1 (grid3.coords t) ↔ t.val % 20 = 19 :=
  (by decide +kernel : ∀ t : Fin grid3.N, cond3_1 (grid3.coords t) ↔ t.val % 20 = 19)

/-! ## Where the windows are idle -/

/-- The inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At the first point the output is idle (nothing is stored into it) and is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- At the middle points likewise. -/
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- At the last point the output is live: the body stores into it. -/
theorem liveAt3_3_C : ∀ t : Fin cfg3.N, ¬cond3_0 (grid3.coords t) → cond3_1 (grid3.coords t) → cfg3.idle 3 (grid3.coords t) = false := by decide +kernel

/-! ## The staging memrefs and the scratch -/

/-- One staging buffer of the output window, through which its contents are stated. -/
abbrev VO3_3 : View sig .tc .vmem S256x64 .f32 := (Memref.whole cc3_stg3_0 : Memref sig .tc .vmem S256x64 .f32).view
/-- Each window's current staging memref at point `t`, as the pipeline passes it, and its wholeness. -/
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x64 .f32 := win3_3.stage (cfg3.slots t 3)
abbrev hs3_3 (t : Fin cfg3.N) : (ms3_3 t).IsWhole := hstage3_3 ((cfg3.slots t 3).cast nbuf3_3)
/-- The scratch operand: a whole scoped buffer of the kernel's own, passed beside the windows. -/
abbrev scM3_0 : Memref sig .tc .vmem S256x64 .f32 := Memref.whole cc3_scratch0
/-- The scratch the kernel carries between points, as a view. -/
abbrev VS3_0 : View sig .tc .vmem S256x64 .f32 := scM3_0.view

/-- The region invariant with the scratch operand as a memref owned at some contents, the other scoped buffers
    unopened beside it, and the generator register at some state. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.Hand

end
-- ==== Proof.KernelIdeal.Reg3RunA.lean ====
import proofs.«422469_j24000277250640_1_alg».proof.Proof.KernelIdeal.Reg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun3_A (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond3_0 i) (hcl : ¬cond3_1 i)
    (xd : Vec F S5000x64 .f32) (xb : Vec F S5000x1 .i32) (xn : Vec F S256x1 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc3__reduce_div_kernel i arg1 harg1 arg2 harg2 arg3 harg3 arg4 harg4 arg5 harg5) K } := by
  refine ⟨[], ?_, fun xi E K => ?run⟩
  case run =>
    simp only [cc3__reduce_div_kernel_eq_skeleton]; unfold cc3__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg3RunB.lean ====
import proofs.«422469_j24000277250640_1_alg».proof.Proof.KernelIdeal.Reg3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun3_B (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : ¬cond3_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc3__reduce_div_kernel i arg1 harg1 arg2 harg2 arg3 harg3 arg4 harg4 arg5 harg5) K } := by
  refine ⟨[], ?_, fun xi E K => ?run⟩
  case run =>
    simp only [cc3__reduce_div_kernel_eq_skeleton]; unfold cc3__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg3RunC.lean ====
import proofs.«422469_j24000277250640_1_alg».proof.Proof.KernelIdeal.Reg3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun3_C (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : cond3_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc3__reduce_div_kernel i arg1 harg1 arg2 harg2 arg3 harg3 arg4 harg4 arg5 harg5) K } := by
  refine ⟨?_, ?_, fun E K => ?run⟩
  case run =>
    simp only [cc3__reduce_div_kernel_eq_skeleton]; unfold cc3__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.KernelIdeal.Hand

end
-- ==== Proof.KernelIdeal.Reg3.lean ====
import proofs.«422469_j24000277250640_1_alg».proof.Proof.KernelIdeal.Reg3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out3_A_3 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond3_0 i) (hcl : ¬cond3_1 i)
    (xd : Vec F S5000x64 .f32) (xb : Vec F S5000x1 .i32) (xn : Vec F S256x1 .f32) : Vec F S256x64 .f32 :=
  VO3_3.read (Elt F) (VO3_3.writes (Elt F) VO3_3.junk (kernelRun3_A c i arg1 harg1 arg2 harg2 arg3 harg3 arg4 harg4 arg5 harg5 hcz hcl xd xb xn).1)

/-- The pieces stored into the carried scratch tile it, so they cover it. -/
theorem scover3_A_0 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond3_0 i) (hcl : ¬cond3_1 i)
    (xd : Vec F S5000x64 .f32) (xb : Vec F S5000x1 .i32) (xn : Vec F S256x1 .f32) (y : S256x64.Idx) :
    ∃ pc ∈ (kernelRun3_A c i arg1 harg1 arg2 harg2 arg3 harg3 arg4 harg4 arg5 harg5 hcz hcl xd xb xn).2.1, y ∈ pc.1.set :=
  View.cover_of_tiledL (kernelRun3_A c i arg1 harg1 arg2 harg2 arg3 harg3 arg4 harg4 arg5 harg5 hcz hcl xd xb xn).2.1 S256x64.size (by sl_kernel_rfl) y

/-- What this case leaves in the carried scratch: its pieces read back over junk. -/
def sout3_A_0 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond3_0 i) (hcl : ¬cond3_1 i)
    (xd : Vec F S5000x64 .f32) (xb : Vec F S5000x1 .i32) (xn : Vec F S256x1 .f32) : Vec F S256x64 .f32 :=
  VS3_0.read (Elt F) (VS3_0.writes (Elt F) VS3_0.junk (kernelRun3_A c i arg1 harg1 arg2 harg2 arg3 harg3 arg4 harg4 arg5 harg5 hcz hcl xd xb xn).2.1)

/-- Nothing is stored into the output window here (it is idle and not written back): no pieces, a placeholder
    that nothing consults. -/
def out3_B_3 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : ¬cond3_1 i)
    (xd : Vec F S5000x64 .f32) (xb : Vec F S5000x1 .i32) (xn : Vec F S256x1 .f32) (xs : Vec F S256x64 .f32) : Vec F S256x64 .f32 :=
  VO3_3.read (Elt F) (VO3_3.writes (Elt F) VO3_3.junk (kernelRun3_B c i arg1 harg1 arg2 harg2 arg3 harg3 arg4 harg4 arg5 harg5 hcz hcl xd xb xn xs).1)

/-- The pieces stored into the carried scratch tile it, so they cover it. -/
theorem scover3_B_0 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : ¬cond3_1 i)
    (xd : Vec F S5000x64 .f32) (xb : Vec F S5000x1 .i32) (xn : Vec F S256x1 .f32) (xs : Vec F S256x64 .f32) (y : S256x64.Idx) :
    ∃ pc ∈ (kernelRun3_B c i arg1 harg1 arg2 harg2 arg3 harg3 arg4 harg4 arg5 harg5 hcz hcl xd xb xn xs).2.1, y ∈ pc.1.set :=
  View.cover_of_tiledL (kernelRun3_B c i arg1 harg1 arg2 harg2 arg3 harg3 arg4 harg4 arg5 harg5 hcz hcl xd xb xn xs).2.1 S256x64.size (by sl_kernel_rfl) y

/-- What this case leaves in the carried scratch: its pieces read back over junk. -/
def sout3_B_0 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : ¬cond3_1 i)
    (xd : Vec F S5000x64 .f32) (xb : Vec F S5000x1 .i32) (xn : Vec F S256x1 .f32) (xs : Vec F S256x64 .f32) : Vec F S256x64 .f32 :=
  VS3_0.read (Elt F) (VS3_0.writes (Elt F) VS3_0.junk (kernelRun3_B c i arg1 harg1 arg2 harg2 arg3 harg3 arg4 harg4 arg5 harg5 hcz hcl xd xb xn xs).2.1)

/-- The pieces stored into the output window tile its block, so they cover it. -/
theorem cover3_C_3 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : cond3_1 i)
    (xd : Vec F S5000x64 .f32) (xb : Vec F S5000x1 .i32) (xn : Vec F S256x1 .f32) (xs : Vec F S256x64 .f32) (y : S256x64.Idx) :
    ∃ pc ∈ (kernelRun3_C c i arg1 harg1 arg2 harg2 arg3 harg3 arg4 harg4 arg5 harg5 hcz hcl xd xb xn xs).1, y ∈ pc.1.set :=
  View.cover_of_tiledL (kernelRun3_C c i arg1 harg1 arg2 harg2 arg3 harg3 arg4 harg4 arg5 harg5 hcz hcl xd xb xn xs).1 S256x64.size (by sl_kernel_rfl) y

/-- What this case leaves in the output's staging buffer: its pieces read back over junk. -/
def out3_C_3 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : cond3_1 i)
    (xd : Vec F S5000x64 .f32) (xb : Vec F S5000x1 .i32) (xn : Vec F S256x1 .f32) (xs : Vec F S256x64 .f32) : Vec F S256x64 .f32 :=
  VO3_3.read (Elt F) (VO3_3.writes (Elt F) VO3_3.junk (kernelRun3_C c i arg1 harg1 arg2 harg2 arg3 harg3 arg4 harg4 arg5 harg5 hcz hcl xd xb xn xs).1)

/-- The pieces stored into the carried scratch tile it, so they cover it. -/
theorem scover3_C_0 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : cond3_1 i)
    (xd : Vec F S5000x64 .f32) (xb : Vec F S5000x1 .i32) (xn : Vec F S256x1 .f32) (xs : Vec F S256x64 .f32) (y : S256x64.Idx) :
    ∃ pc ∈ (kernelRun3_C c i arg1 harg1 arg2 harg2 arg3 harg3 arg4 harg4 arg5 harg5 hcz hcl xd xb xn xs).2.1, y ∈ pc.1.set :=
  View.cover_of_tiledL (kernelRun3_C c i arg1 harg1 arg2 harg2 arg3 harg3 arg4 harg4 arg5 harg5 hcz hcl xd xb xn xs).2.1 S256x64.size (by sl_kernel_rfl) y

/-- What this case leaves in the carried scratch: its pieces read back over junk. -/
def sout3_C_0 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : cond3_1 i)
    (xd : Vec F S5000x64 .f32) (xb : Vec F S5000x1 .i32) (xn : Vec F S256x1 .f32) (xs : Vec F S256x64 .f32) : Vec F S256x64 .f32 :=
  VS3_0.read (Elt F) (VS3_0.writes (Elt F) VS3_0.junk (kernelRun3_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt3 (c : Dev nD) : (n : ℕ) → n < cfg3.N → Vec F S256x64 .f32 × Vec F S256x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if hz : (n + 1) % 20 = 0 then
      if hl : (n + 1) % 20 = 19 then
        False.elim (by have hN : n + 1 < 20 := lt_of_lt_of_eq hn (show cfg3.N = 20 from N_3); omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr hz) (fun h => hl ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr hz) (fun h => hl ((hcond3_1 ⟨n + 1, hn⟩).mp h)) (iblk3 V c 0 ⟨n + 1, hn⟩) (iblk3 V c 1 ⟨n + 1, hn⟩) (iblk3 V c 2 ⟨n + 1, hn⟩))
    else
      if hl : (n + 1) % 20 = 19 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => hz ((hcond3_0 ⟨n + 1, hn⟩).mp h)) ((hcond3_1 ⟨n + 1, hn⟩).mpr hl) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => hz ((hcond3_0 ⟨n + 1, hn⟩).mp h)) ((hcond3_1 ⟨n + 1, hn⟩).mpr hl) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => hz ((hcond3_0 ⟨n + 1, hn⟩).mp h)) (fun h => hl ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => hz ((hcond3_0 ⟨n + 1, hn⟩).mp h)) (fun h => hl ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at the first point. -/
theorem outsAt3_A (c : Dev nD) (t : Fin cfg3.N) (hz : t.val % 20 = 0) (hl : ¬t.val % 20 = 19) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr hz) (fun h => hl ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr hz) (fun h => hl ((hcond3_1 t).mp h)) (iblk3 V c 0 t) (iblk3 V c 1 t) (iblk3 V c 2 t)) := by
  obtain ⟨n, hn⟩ := t
  cases n with
  | zero => exact rfl
  | succ n => exact (dif_pos hz).trans ((dif_neg hl).trans rfl)

/-- `outsAt3` at a middle point: over what the point before left in the scratch. -/
theorem outsAt3_B (c : Dev nD) (t : Fin cfg3.N) (hz : ¬t.val % 20 = 0) (hl : ¬t.val % 20 = 19) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => hz ((hcond3_0 t).mp h)) (fun h => hl ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => hz ((hcond3_0 t).mp h)) (fun h => hl ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt3` at the last point: over what the point before left in the scratch. -/
theorem outsAt3_C (c : Dev nD) (t : Fin cfg3.N) (hz : ¬t.val % 20 = 0) (hl : t.val % 20 = 19) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => hz ((hcond3_0 t).mp h)) ((hcond3_1 t).mpr hl) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => hz ((hcond3_0 t).mp h)) ((hcond3_1 t).mpr hl) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut3 (c : Dev nD) : sProp 𝕄 :=
  Pipeline.scopedRestBut (Ix := Unit) (Name := ℕ) (U := UR sig nD τ) (Lvl := ℕ) (Val := Elt F) spec3 c [cc3_scratch0]

/-- The region invariant before position `n`: before the first point the class's (every scratch at anything);
    afterwards the carried scratch at what the point before left in it, the other scoped buffers unopened, and the
    random-number register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 (F := F) c) ∗ (∃ r, prngReg c r))

theorem PhiS3_zero (c : Dev nD) (n : ℕ) (h : n ≤ cfg3.N) (hfirst : n = 0) : PhiS3 V c n h = Pipeline.ΦA spec3 c := by
  subst hfirst; rfl

/-- After point `n` (before point `n + 1`): the carried scratch at that point's contents. -/
theorem PhiS3_succ (c : Dev nD) (n : ℕ) (hn : n < cfg3.N) :
    PhiS3 V c (n + 1) hn = iprop(iprop(owns (c : Thread nD τ) scM3_0 fullShare ((outsAt3 V c n hn).2) ∗ restBut3 (F := F) c) ∗ (∃ r, prngReg c r)) := rfl

/-- Before a point that is not the first: the carried scratch at what the point before left. -/
theorem PhiS3_pos (c : Dev nD) (n : ℕ) (h : n ≤ cfg3.N) (hfirst : n ≠ 0) :
    PhiS3 V c n h = iprop(iprop(owns (c : Thread nD τ) scM3_0 fullShare ((outsAt3 V c (n - 1) (by omega)).2) ∗ restBut3 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt3`'s first component; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 20 := lt_of_lt_of_eq t.isLt (show cfg3.N = 20 from N_3)
  by_cases hz : t.val % 20 = 0
  · by_cases hl : t.val % 20 = 19
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr hz) (fun h => hl ((hcond3_1 t).mp h))) (noFlush3_3_A t ((hcond3_0 t).mpr hz) (fun h => hl ((hcond3_1 t).mp h)))]
      rw [outsAt3_A V c t hz hl]
      unfold sout3_A_0; (try dsimp only)
      by_cases hfirst : t.val = 0
      · rw [PhiS3_castSucc V c t, PhiS3_zero V c _ _ hfirst, PhiA3_eq]
        iintro ⟨⟨⟨HS, Hr⟩, Hg⟩, Ho, ⟨%dd, Hd⟩, ⟨%db, Hb⟩, ⟨%dn, Hn⟩, ⟨%dq, Hq⟩⟩
        iapply ((kernelRun3_A c (grid3.coords t) _ _ _ _ _ _ _ _ _ _ ((hcond3_0 t).mpr hz) (fun h => hl ((hcond3_1 t).mp h)) (iblk3 V c 0 t) (iblk3 V c 1 t) (iblk3 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover3_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS3_castSucc V c t, PhiS3_pos V c _ _ hfirst]
        iintro ⟨⟨⟨HS, Hr⟩, Hg⟩, Ho, ⟨%dd, Hd⟩, ⟨%db, Hb⟩, ⟨%dn, Hn⟩, ⟨%dq, Hq⟩⟩
        iapply ((kernelRun3_A c (grid3.coords t) _ _ _ _ _ _ _ _ _ _ ((hcond3_0 t).mpr hz) (fun h => hl ((hcond3_1 t).mp h)) (iblk3 V c 0 t) (iblk3 V c 1 t) (iblk3 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover3_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => hz ((hcond3_0 t).mp h)) ((hcond3_1 t).mpr hl)], after3_3]
      rw [outsAt3_C V c t hz hl]
      unfold out3_C_3 sout3_C_0; (try dsimp only)
      by_cases hfirst : t.val = 0
      · exfalso; omega
      · rw [PhiS3_castSucc V c t, PhiS3_pos V c _ _ hfirst]
        iintro ⟨⟨⟨HS, Hr⟩, Hg⟩, Ho, ⟨%dd, Hd⟩, ⟨%db, Hb⟩, ⟨%dn, Hn⟩, ⟨%dq, Hq⟩⟩
        iapply ((kernelRun3_C c (grid3.coords t) _ _ _ _ _ _ _ _ _ _ (fun h => hz ((hcond3_0 t).mp h)) ((hcond3_1 t).mpr hl) (iblk3 V c 0 t) (iblk3 V c 1 t) (iblk3 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover3_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover3_C_3 c _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => hz ((hcond3_0 t).mp h)) (fun h => hl ((hcond3_1 t).mp h))) (noFlush3_3_B t (fun h => hz ((hcond3_0 t).mp h)) (fun h => hl ((hcond3_1 t).mp h)))]
      rw [outsAt3_B V c t hz hl]
      unfold sout3_B_0; (try dsimp only)
      by_cases hfirst : t.val = 0
      · exfalso; omega
      · rw [PhiS3_castSucc V c t, PhiS3_pos V c _ _ hfirst]
        iintro ⟨⟨⟨HS, Hr⟩, Hg⟩, Ho, ⟨%dd, Hd⟩, ⟨%db, Hb⟩, ⟨%dn, Hn⟩, ⟨%dq, Hq⟩⟩
        iapply ((kernelRun3_B c (grid3.coords t) _ _ _ _ _ _ _ _ _ _ (fun h => hz ((hcond3_0 t).mp h)) (fun h => hl ((hcond3_1 t).mp h)) (iblk3 V c 0 t) (iblk3 V c 1 t) (iblk3 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover3_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]
    · iexists _; iexact HS
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

end

end Cert.KernelIdeal.Hand

end
-- ==== Proof.KernelIdeal.Reg4.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # The scale, shift and rectify kernel's region, at the region-entry contents `V`

Four input windows (the centred block, the gathered variance's block, the scale row, the shift row) and one output
window (the normalised, rectified block). -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block index
    has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same for input window 2, whose block index is constant: it is fetched at the first point only, and every later
    point finds the same block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- The same for input window 3, of constant block index too. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S5000x64 := Rect.unit (s := S5000x64) ![0, 0] S5000x64.size inb_S5000x64_S5000x64_0_0
abbrev r4_1 : Rect S1x64 := Rect.unit (s := S1x64) ![0, 0] S1x64.size inb_S1x64_S1x64_0_0

/-! ## What the body leaves in the output window's buffer -/

/-- Window 4's staging buffer after the body, from the input windows' blocks: its one store as pieces, last first. -/
def out4_4 (x0 : Vec F S5000x64 .f32) (x1 : Vec F S5000x64 .f32) (x2 : Vec F S1x64 .f32) (x3 : Vec F S1x64 .f32) : Vec F S5000x64 .f32 :=
  View.canon [⟨r4_0, k4_pay1 (View.ld x1 r4_0) (View.ld x2 r4_1) (View.ld x0 r4_0) (View.ld x3 r4_1)⟩]

/-- Window 4's store is the whole buffer, so it covers it. -/
theorem cover4_4 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

/-! ## The body's triple -/

set_option maxHeartbeats 1000000 in
/-- The kernel body on whole staging memrefs, the inputs' at read contents and the output's at anything, runs to the
    continuation holding the inputs' as they were and the output's at `out4_4` of the inputs'. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__ssr_kernel i arg1 harg1 arg2 harg2 arg3 harg3 arg4 harg4 arg5 harg5) K := by
  simp only [cc4__ssr_kernel_eq_skeleton]; unfold cc4__ssr_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core `c`, at the region-entry contents `V`: the arrays as the region finds them;
    after the body at point `t` each input's buffer at its block and the output's at `out4_4` of the input blocks;
    the invariant is the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies; the
    invariant and the core's owed tokens pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the region: the invariant is the class's at every point -/

theorem hin4 (c : Dev nD) : Pipeline.ΦA spec4 c ⊢ (dat4 V c).Φ 0 := by
  dsimp only [dat4]; exact .rfl

theorem hout4 (c : Dev nD) : (dat4 V c).Φ (Fin.last cfg4.N) ⊢ Pipeline.ΦA spec4 c := by
  dsimp only [dat4]; exact .rfl

end

end Cert.KernelIdeal.Hand

end
-- ==== Proof.KernelIdeal.Reg5.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the region-entry contents `V`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: where it is not
    fetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the right factor, one block for the whole grid) likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each window's buffer read or written whole -/

abbrev r5_0 : Rect S5000x64 := Rect.unit (s := S5000x64) ![0, 0] S5000x64.size inb_S5000x64_S5000x64_0_0
abbrev r5_1 : Rect S64x64 := Rect.unit (s := S64x64) ![0, 0] S64x64.size inb_S64x64_S64x64_0_0
abbrev r5_2 : Rect S5000x64 := Rect.unit (s := S5000x64) ![0, 0] S5000x64.size inb_S5000x64_S5000x64_0_0

/-! ## What the body leaves in the output window's buffer -/

/-- Window 2's staging buffer after the body, from the two input blocks: the product block, stored whole. -/
def out5_2 (x0 : Vec F S5000x64 .f32) (x1 : Vec F S64x64 .f32) : Vec F S5000x64 .f32 :=
  View.canon [⟨r5_2, k5_pay1 (View.ld x0 r5_0) (View.ld x1 r5_1)⟩]

/-- The one store tiles the buffer, so it covers it. -/
theorem cover5_2 (p0 : Vec F S5000x64 .f32) (y : S5000x64.Idx) :
    ∃ pc ∈ ([⟨r5_2, p0⟩] : List (View.Piece (Elt F) S5000x64 .f32)), y ∈ pc.1.set :=
  View.cover_of_tiled [⟨r5_2, p0⟩] S5000x64.size (by rfl) y

/-! ## The body's triple -/

set_option maxHeartbeats 1000000 in
/-- The body on whole staging memrefs, the inputs' at contents `x0`, `x1` and the output's at anything, runs to the
    continuation holding the inputs' as they were and the output's at `out5_2 x0 x1`; the output's old contents are
    read and not used. -/
theorem sound_kernel5 (c : Dev nD) (E : Set ℕ) (i : grid5.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this pipeline on core `c`, at the region-entry contents `V`: after the body at point `t` each input's
    buffer holds its block and the output's holds `out5_2` of the two input blocks; the invariant is the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation5 (c : Dev nD) : BodyObligation (dat5 (F := F) V c) (defs₀ (F := F)) Variants.none () Set.univ := fun t => by
  rw [bigSep_W5, bigSep_W5]
  exact sound_body5 V c t

/-- The invariant at the first point is the class invariant itself. -/
theorem hin5 (c : Dev nD) : Pipeline.ΦA spec5 c ⊢ (dat5 V c).Φ 0 := by
  rw [show (dat5 V c).Φ 0 = Pipeline.ΦA spec5 c from rfl]

/-- And at the last point. -/
theorem hout5 (c : Dev nD) : (dat5 V c).Φ (Fin.last cfg5.N) ⊢ Pipeline.ΦA spec5 c := by
  rw [show (dat5 V c).Φ (Fin.last cfg5.N) = Pipeline.ΦA spec5 c from rfl]

end

end Cert.KernelIdeal.Hand

end
-- ==== Proof.KernelIdeal.Reg6Runs.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is the entry contents (`hA`) and whose body leaves the block in place (`hafter`): unfetched,
    the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is the entry contents (`hA`) and whose body leaves the block in place (`hafter`): unfetched,
    the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is the entry contents (`hA`) and whose body leaves the block in place (`hafter`): unfetched,
    the block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

end

/-! ## The body's branch conditions -/

/-- The condition of the body's first conditional, from the grid coordinates: the point is the first of the grid. -/
abbrev cond6_0 (i : grid6.Coords) : Prop := (Scalar.cmpi .ne (Scalar.extui (Scalar.cmpi .eq (BitVec.ofNat 32 (i 0).val) 0#32)) 0#32) = 1#1
/-- It holds at the points ≡ 0 (mod 20): decided over the grid. -/
theorem hcond6_0 : ∀ t : Fin cfg6.N, cond6_0 (grid6.coords t) ↔ t.val % 20 = 0 :=
  (by decide +kernel : ∀ t : Fin grid6.N, cond6_0 (grid6.coords t) ↔ t.val % 20 = 0)

/-- The condition of the body's second conditional, from the grid coordinates: the point is the last of the grid. -/
abbrev cond6_1 (i : grid6.Coords) : Prop := k6_cond2 i = 1#1
/-- It holds at the points ≡ 19 (mod 20): decided over the grid. -/
theorem hcond6_1 : ∀ t : Fin cfg6.N, cond6_1 (grid6.coords t) ↔ t.val % 20 = 19 :=
  (by decide +kernel : ∀ t : Fin grid6.N, cond6_1 (grid6.coords t) ↔ t.val % 20 = 19)

/-! ## Where the windows are idle -/

/-- The inputs are never idle. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
/-- At the first point the output is idle (nothing is stored into it) and is not written back. -/
theorem idleAt6_3_A : ∀ t : Fin cfg6.N, cond6_0 (grid6.coords t) → ¬cond6_1 (grid6.coords t) → cfg6.idle 3 (grid6.coords t) = true := by decide +kernel
theorem noFlush6_3_A : ∀ t : Fin cfg6.N, cond6_0 (grid6.coords t) → ¬cond6_1 (grid6.coords t) → (cfg6.win 3).flush t = false := by decide +kernel
/-- At the middle points likewise. -/
theorem idleAt6_3_B : ∀ t : Fin cfg6.N, ¬cond6_0 (grid6.coords t) → ¬cond6_1 (grid6.coords t) → cfg6.idle 3 (grid6.coords t) = true := by decide +kernel
theorem noFlush6_3_B : ∀ t : Fin cfg6.N, ¬cond6_0 (grid6.coords t) → ¬cond6_1 (grid6.coords t) → (cfg6.win 3).flush t = false := by decide +kernel
/-- At the last point the output is live: the body stores into it. -/
theorem liveAt6_3_C : ∀ t : Fin cfg6.N, ¬cond6_0 (grid6.coords t) → cond6_1 (grid6.coords t) → cfg6.idle 3 (grid6.coords t) = false := by decide +kernel

/-! ## The staging memrefs and the scratch -/

/-- One staging buffer of the output window, through which its contents are stated. -/
abbrev VO6_3 : View sig .tc .vmem S256x64 .f32 := (Memref.whole cc6_stg3_0 : Memref sig .tc .vmem S256x64 .f32).view
/-- Each window's current staging memref at point `t`, as the pipeline passes it, and its wholeness. -/
abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S256x1 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S256x64 .f32 := win6_3.stage (cfg6.slots t 3)
abbrev hs6_3 (t : Fin cfg6.N) : (ms6_3 t).IsWhole := hstage6_3 ((cfg6.slots t 3).cast nbuf6_3)
/-- The scratch operand: a whole scoped buffer of the kernel's own, passed beside the windows. -/
abbrev scM6_0 : Memref sig .tc .vmem S256x64 .f32 := Memref.whole cc6_scratch0
/-- The scratch the kernel carries between points, as a view. -/
abbrev VS6_0 : View sig .tc .vmem S256x64 .f32 := scM6_0.view

/-- The region invariant with the scratch operand as a memref owned at some contents, the other scoped buffers
    unopened beside it, and the generator register at some state. -/
theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

end Cert.KernelIdeal.Hand

end
-- ==== Proof.KernelIdeal.Reg6RunA.lean ====
import proofs.«422469_j24000277250640_1_alg».proof.Proof.KernelIdeal.Reg6Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun6_A (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond6_0 i) (hcl : ¬cond6_1 i)
    (xd : Vec F S5000x64 .f32) (xb : Vec F S5000x1 .i32) (xn : Vec F S256x1 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc6__reduce_div_kernel i arg1 harg1 arg2 harg2 arg3 harg3 arg4 harg4 arg5 harg5) K } := by
  refine ⟨[], ?_, fun xi E K => ?run⟩
  case run =>
    simp only [cc6__reduce_div_kernel_eq_skeleton]; unfold cc6__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg6RunB.lean ====
import proofs.«422469_j24000277250640_1_alg».proof.Proof.KernelIdeal.Reg6RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun6_B (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : ¬cond6_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc6__reduce_div_kernel i arg1 harg1 arg2 harg2 arg3 harg3 arg4 harg4 arg5 harg5) K } := by
  refine ⟨[], ?_, fun xi E K => ?run⟩
  case run =>
    simp only [cc6__reduce_div_kernel_eq_skeleton]; unfold cc6__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg6RunC.lean ====
import proofs.«422469_j24000277250640_1_alg».proof.Proof.KernelIdeal.Reg6RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun6_C (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : cond6_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc6__reduce_div_kernel i arg1 harg1 arg2 harg2 arg3 harg3 arg4 harg4 arg5 harg5) K } := by
  refine ⟨?_, ?_, fun E K => ?run⟩
  case run =>
    simp only [cc6__reduce_div_kernel_eq_skeleton]; unfold cc6__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.KernelIdeal.Hand

end
-- ==== Proof.KernelIdeal.Reg6.lean ====
import proofs.«422469_j24000277250640_1_alg».proof.Proof.KernelIdeal.Reg6RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out6_A_3 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond6_0 i) (hcl : ¬cond6_1 i)
    (xd : Vec F S5000x64 .f32) (xb : Vec F S5000x1 .i32) (xn : Vec F S256x1 .f32) : Vec F S256x64 .f32 :=
  VO6_3.read (Elt F) (VO6_3.writes (Elt F) VO6_3.junk (kernelRun6_A c i arg1 harg1 arg2 harg2 arg3 harg3 arg4 harg4 arg5 harg5 hcz hcl xd xb xn).1)

/-- The pieces stored into the carried scratch tile it, so they cover it. -/
theorem scover6_A_0 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond6_0 i) (hcl : ¬cond6_1 i)
    (xd : Vec F S5000x64 .f32) (xb : Vec F S5000x1 .i32) (xn : Vec F S256x1 .f32) (y : S256x64.Idx) :
    ∃ pc ∈ (kernelRun6_A c i arg1 harg1 arg2 harg2 arg3 harg3 arg4 harg4 arg5 harg5 hcz hcl xd xb xn).2.1, y ∈ pc.1.set :=
  View.cover_of_tiledL (kernelRun6_A c i arg1 harg1 arg2 harg2 arg3 harg3 arg4 harg4 arg5 harg5 hcz hcl xd xb xn).2.1 S256x64.size (by sl_kernel_rfl) y

/-- What this case leaves in the carried scratch: its pieces read back over junk. -/
def sout6_A_0 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond6_0 i) (hcl : ¬cond6_1 i)
    (xd : Vec F S5000x64 .f32) (xb : Vec F S5000x1 .i32) (xn : Vec F S256x1 .f32) : Vec F S256x64 .f32 :=
  VS6_0.read (Elt F) (VS6_0.writes (Elt F) VS6_0.junk (kernelRun6_A c i arg1 harg1 arg2 harg2 arg3 harg3 arg4 harg4 arg5 harg5 hcz hcl xd xb xn).2.1)

/-- Nothing is stored into the output window here (it is idle and not written back): no pieces, a placeholder
    that nothing consults. -/
def out6_B_3 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : ¬cond6_1 i)
    (xd : Vec F S5000x64 .f32) (xb : Vec F S5000x1 .i32) (xn : Vec F S256x1 .f32) (xs : Vec F S256x64 .f32) : Vec F S256x64 .f32 :=
  VO6_3.read (Elt F) (VO6_3.writes (Elt F) VO6_3.junk (kernelRun6_B c i arg1 harg1 arg2 harg2 arg3 harg3 arg4 harg4 arg5 harg5 hcz hcl xd xb xn xs).1)

/-- The pieces stored into the carried scratch tile it, so they cover it. -/
theorem scover6_B_0 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : ¬cond6_1 i)
    (xd : Vec F S5000x64 .f32) (xb : Vec F S5000x1 .i32) (xn : Vec F S256x1 .f32) (xs : Vec F S256x64 .f32) (y : S256x64.Idx) :
    ∃ pc ∈ (kernelRun6_B c i arg1 harg1 arg2 harg2 arg3 harg3 arg4 harg4 arg5 harg5 hcz hcl xd xb xn xs).2.1, y ∈ pc.1.set :=
  View.cover_of_tiledL (kernelRun6_B c i arg1 harg1 arg2 harg2 arg3 harg3 arg4 harg4 arg5 harg5 hcz hcl xd xb xn xs).2.1 S256x64.size (by sl_kernel_rfl) y

/-- What this case leaves in the carried scratch: its pieces read back over junk. -/
def sout6_B_0 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : ¬cond6_1 i)
    (xd : Vec F S5000x64 .f32) (xb : Vec F S5000x1 .i32) (xn : Vec F S256x1 .f32) (xs : Vec F S256x64 .f32) : Vec F S256x64 .f32 :=
  VS6_0.read (Elt F) (VS6_0.writes (Elt F) VS6_0.junk (kernelRun6_B c i arg1 harg1 arg2 harg2 arg3 harg3 arg4 harg4 arg5 harg5 hcz hcl xd xb xn xs).2.1)

/-- The pieces stored into the output window tile its block, so they cover it. -/
theorem cover6_C_3 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : cond6_1 i)
    (xd : Vec F S5000x64 .f32) (xb : Vec F S5000x1 .i32) (xn : Vec F S256x1 .f32) (xs : Vec F S256x64 .f32) (y : S256x64.Idx) :
    ∃ pc ∈ (kernelRun6_C c i arg1 harg1 arg2 harg2 arg3 harg3 arg4 harg4 arg5 harg5 hcz hcl xd xb xn xs).1, y ∈ pc.1.set :=
  View.cover_of_tiledL (kernelRun6_C c i arg1 harg1 arg2 harg2 arg3 harg3 arg4 harg4 arg5 harg5 hcz hcl xd xb xn xs).1 S256x64.size (by sl_kernel_rfl) y

/-- What this case leaves in the output's staging buffer: its pieces read back over junk. -/
def out6_C_3 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : cond6_1 i)
    (xd : Vec F S5000x64 .f32) (xb : Vec F S5000x1 .i32) (xn : Vec F S256x1 .f32) (xs : Vec F S256x64 .f32) : Vec F S256x64 .f32 :=
  VO6_3.read (Elt F) (VO6_3.writes (Elt F) VO6_3.junk (kernelRun6_C c i arg1 harg1 arg2 harg2 arg3 harg3 arg4 harg4 arg5 harg5 hcz hcl xd xb xn xs).1)

/-- The pieces stored into the carried scratch tile it, so they cover it. -/
theorem scover6_C_0 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : cond6_1 i)
    (xd : Vec F S5000x64 .f32) (xb : Vec F S5000x1 .i32) (xn : Vec F S256x1 .f32) (xs : Vec F S256x64 .f32) (y : S256x64.Idx) :
    ∃ pc ∈ (kernelRun6_C c i arg1 harg1 arg2 harg2 arg3 harg3 arg4 harg4 arg5 harg5 hcz hcl xd xb xn xs).2.1, y ∈ pc.1.set :=
  View.cover_of_tiledL (kernelRun6_C c i arg1 harg1 arg2 harg2 arg3 harg3 arg4 harg4 arg5 harg5 hcz hcl xd xb xn xs).2.1 S256x64.size (by sl_kernel_rfl) y

/-- What this case leaves in the carried scratch: its pieces read back over junk. -/
def sout6_C_0 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : cond6_1 i)
    (xd : Vec F S5000x64 .f32) (xb : Vec F S5000x1 .i32) (xn : Vec F S256x1 .f32) (xs : Vec F S256x64 .f32) : Vec F S256x64 .f32 :=
  VS6_0.read (Elt F) (VS6_0.writes (Elt F) VS6_0.junk (kernelRun6_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt6 (c : Dev nD) : (n : ℕ) → n < cfg6.N → Vec F S256x64 .f32 × Vec F S256x64 .f32
  | 0, hn => (out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩))
  | n + 1, hn =>
    if hz : (n + 1) % 20 = 0 then
      if hl : (n + 1) % 20 = 19 then
        False.elim (by have hN : n + 1 < 20 := lt_of_lt_of_eq hn (show cfg6.N = 20 from N_6); omega)
      else
        (out6_A_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr hz) (fun h => hl ((hcond6_1 ⟨n + 1, hn⟩).mp h)) (iblk6 V c 0 ⟨n + 1, hn⟩) (iblk6 V c 1 ⟨n + 1, hn⟩) (iblk6 V c 2 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr hz) (fun h => hl ((hcond6_1 ⟨n + 1, hn⟩).mp h)) (iblk6 V c 0 ⟨n + 1, hn⟩) (iblk6 V c 1 ⟨n + 1, hn⟩) (iblk6 V c 2 ⟨n + 1, hn⟩))
    else
      if hl : (n + 1) % 20 = 19 then
        (out6_C_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => hz ((hcond6_0 ⟨n + 1, hn⟩).mp h)) ((hcond6_1 ⟨n + 1, hn⟩).mpr hl) (iblk6 V c 0 ⟨n + 1, hn⟩) (iblk6 V c 1 ⟨n + 1, hn⟩) (iblk6 V c 2 ⟨n + 1, hn⟩) (outsAt6 c n (Nat.lt_of_succ_lt hn)).2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => hz ((hcond6_0 ⟨n + 1, hn⟩).mp h)) ((hcond6_1 ⟨n + 1, hn⟩).mpr hl) (iblk6 V c 0 ⟨n + 1, hn⟩) (iblk6 V c 1 ⟨n + 1, hn⟩) (iblk6 V c 2 ⟨n + 1, hn⟩) (outsAt6 c n (Nat.lt_of_succ_lt hn)).2)
      else
        (out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => hz ((hcond6_0 ⟨n + 1, hn⟩).mp h)) (fun h => hl ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => hz ((hcond6_0 ⟨n + 1, hn⟩).mp h)) (fun h => hl ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2)

/-- `outsAt6` at the first point. -/
theorem outsAt6_A (c : Dev nD) (t : Fin cfg6.N) (hz : t.val % 20 = 0) (hl : ¬t.val % 20 = 19) :
    outsAt6 V c t.val t.isLt = (out6_A_3 c (grid6.coords t) (ms6_0 t) (hs6_0 t) (ms6_1 t) (hs6_1 t) (ms6_2 t) (hs6_2 t) (ms6_3 t) (hs6_3 t) scM6_0 (Memref.isWhole_whole _) ((hcond6_0 t).mpr hz) (fun h => hl ((hcond6_1 t).mp h)) (iblk6 V c 0 t) (iblk6 V c 1 t) (iblk6 V c 2 t), sout6_A_0 c (grid6.coords t) (ms6_0 t) (hs6_0 t) (ms6_1 t) (hs6_1 t) (ms6_2 t) (hs6_2 t) (ms6_3 t) (hs6_3 t) scM6_0 (Memref.isWhole_whole _) ((hcond6_0 t).mpr hz) (fun h => hl ((hcond6_1 t).mp h)) (iblk6 V c 0 t) (iblk6 V c 1 t) (iblk6 V c 2 t)) := by
  obtain ⟨n, hn⟩ := t
  cases n with
  | zero => exact rfl
  | succ n => exact (dif_pos hz).trans ((dif_neg hl).trans rfl)

/-- `outsAt6` at a middle point: over what the point before left in the scratch. -/
theorem outsAt6_B (c : Dev nD) (t : Fin cfg6.N) (hz : ¬t.val % 20 = 0) (hl : ¬t.val % 20 = 19) :
    outsAt6 V c t.val t.isLt = (out6_B_3 c (grid6.coords t) (ms6_0 t) (hs6_0 t) (ms6_1 t) (hs6_1 t) (ms6_2 t) (hs6_2 t) (ms6_3 t) (hs6_3 t) scM6_0 (Memref.isWhole_whole _) (fun h => hz ((hcond6_0 t).mp h)) (fun h => hl ((hcond6_1 t).mp h)) (iblk6 V c 0 t) (iblk6 V c 1 t) (iblk6 V c 2 t) (outsAt6 V c (t.val - 1) (Nat.lt_of_le_of_lt (Nat.sub_le _ _) t.isLt)).2, sout6_B_0 c (grid6.coords t) (ms6_0 t) (hs6_0 t) (ms6_1 t) (hs6_1 t) (ms6_2 t) (hs6_2 t) (ms6_3 t) (hs6_3 t) scM6_0 (Memref.isWhole_whole _) (fun h => hz ((hcond6_0 t).mp h)) (fun h => hl ((hcond6_1 t).mp h)) (iblk6 V c 0 t) (iblk6 V c 1 t) (iblk6 V c 2 t) (outsAt6 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt6` at the last point: over what the point before left in the scratch. -/
theorem outsAt6_C (c : Dev nD) (t : Fin cfg6.N) (hz : ¬t.val % 20 = 0) (hl : t.val % 20 = 19) :
    outsAt6 V c t.val t.isLt = (out6_C_3 c (grid6.coords t) (ms6_0 t) (hs6_0 t) (ms6_1 t) (hs6_1 t) (ms6_2 t) (hs6_2 t) (ms6_3 t) (hs6_3 t) scM6_0 (Memref.isWhole_whole _) (fun h => hz ((hcond6_0 t).mp h)) ((hcond6_1 t).mpr hl) (iblk6 V c 0 t) (iblk6 V c 1 t) (iblk6 V c 2 t) (outsAt6 V c (t.val - 1) (Nat.lt_of_le_of_lt (Nat.sub_le _ _) t.isLt)).2, sout6_C_0 c (grid6.coords t) (ms6_0 t) (hs6_0 t) (ms6_1 t) (hs6_1 t) (ms6_2 t) (hs6_2 t) (ms6_3 t) (hs6_3 t) scM6_0 (Memref.isWhole_whole _) (fun h => hz ((hcond6_0 t).mp h)) ((hcond6_1 t).mpr hl) (iblk6 V c 0 t) (iblk6 V c 1 t) (iblk6 V c 2 t) (outsAt6 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut6 (c : Dev nD) : sProp 𝕄 :=
  Pipeline.scopedRestBut (Ix := Unit) (Name := ℕ) (U := UR sig nD τ) (Lvl := ℕ) (Val := Elt F) spec6 c [cc6_scratch0]

/-- The region invariant before position `n`: before the first point the class's (every scratch at anything);
    afterwards the carried scratch at what the point before left in it, the other scoped buffers unopened, and the
    random-number register at some state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2) ∗ restBut6 (F := F) c) ∗ (∃ r, prngReg c r))

theorem PhiS6_zero (c : Dev nD) (n : ℕ) (h : n ≤ cfg6.N) (hfirst : n = 0) : PhiS6 V c n h = Pipeline.ΦA spec6 c := by
  subst hfirst; rfl

/-- After point `n` (before point `n + 1`): the carried scratch at that point's contents. -/
theorem PhiS6_succ (c : Dev nD) (n : ℕ) (hn : n < cfg6.N) :
    PhiS6 V c (n + 1) hn = iprop(iprop(owns (c : Thread nD τ) scM6_0 fullShare ((outsAt6 V c n hn).2) ∗ restBut6 (F := F) c) ∗ (∃ r, prngReg c r)) := rfl

/-- Before a point that is not the first: the carried scratch at what the point before left. -/
theorem PhiS6_pos (c : Dev nD) (n : ℕ) (h : n ≤ cfg6.N) (hfirst : n ≠ 0) :
    PhiS6 V c n h = iprop(iprop(owns (c : Thread nD τ) scM6_0 fullShare ((outsAt6 V c (n - 1) (by omega)).2) ∗ restBut6 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt6`'s first component; the invariant `PhiS6`; nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

/-- The invariant at a point's start, restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 20 := lt_of_lt_of_eq t.isLt (show cfg6.N = 20 from N_6)
  by_cases hz : t.val % 20 = 0
  · by_cases hl : t.val % 20 = 19
    · exfalso; omega
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [Dat.leavesExact_idle (dat6 V c) 3 t (idleAt6_3_A t ((hcond6_0 t).mpr hz) (fun h => hl ((hcond6_1 t).mp h))) (noFlush6_3_A t ((hcond6_0 t).mpr hz) (fun h => hl ((hcond6_1 t).mp h)))]
      rw [outsAt6_A V c t hz hl]
      unfold sout6_A_0; (try dsimp only)
      by_cases hfirst : t.val = 0
      · rw [PhiS6_castSucc V c t, PhiS6_zero V c _ _ hfirst, PhiA6_eq]
        iintro ⟨⟨⟨HS, Hr⟩, Hg⟩, Ho, ⟨%dd, Hd⟩, ⟨%db, Hb⟩, ⟨%dn, Hn⟩, ⟨%dq, Hq⟩⟩
        iapply ((kernelRun6_A c (grid6.coords t) _ _ _ _ _ _ _ _ _ _ ((hcond6_0 t).mpr hz) (fun h => hl ((hcond6_1 t).mp h)) (iblk6 V c 0 t) (iblk6 V c 1 t) (iblk6 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover6_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS6_castSucc V c t, PhiS6_pos V c _ _ hfirst]
        iintro ⟨⟨⟨HS, Hr⟩, Hg⟩, Ho, ⟨%dd, Hd⟩, ⟨%db, Hb⟩, ⟨%dn, Hn⟩, ⟨%dq, Hq⟩⟩
        iapply ((kernelRun6_A c (grid6.coords t) _ _ _ _ _ _ _ _ _ _ ((hcond6_0 t).mpr hz) (fun h => hl ((hcond6_1 t).mp h)) (iblk6 V c 0 t) (iblk6 V c 1 t) (iblk6 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover6_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3_C t (fun h => hz ((hcond6_0 t).mp h)) ((hcond6_1 t).mpr hl)], after6_3]
      rw [outsAt6_C V c t hz hl]
      unfold out6_C_3 sout6_C_0; (try dsimp only)
      by_cases hfirst : t.val = 0
      · exfalso; omega
      · rw [PhiS6_castSucc V c t, PhiS6_pos V c _ _ hfirst]
        iintro ⟨⟨⟨HS, Hr⟩, Hg⟩, Ho, ⟨%dd, Hd⟩, ⟨%db, Hb⟩, ⟨%dn, Hn⟩, ⟨%dq, Hq⟩⟩
        iapply ((kernelRun6_C c (grid6.coords t) _ _ _ _ _ _ _ _ _ _ (fun h => hz ((hcond6_0 t).mp h)) ((hcond6_1 t).mpr hl) (iblk6 V c 0 t) (iblk6 V c 1 t) (iblk6 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover6_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover6_C_3 c _ _ _ _ _ _ _ _ _ _ _ _ _ _ _ _ _)
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [Dat.leavesExact_idle (dat6 V c) 3 t (idleAt6_3_B t (fun h => hz ((hcond6_0 t).mp h)) (fun h => hl ((hcond6_1 t).mp h))) (noFlush6_3_B t (fun h => hz ((hcond6_0 t).mp h)) (fun h => hl ((hcond6_1 t).mp h)))]
      rw [outsAt6_B V c t hz hl]
      unfold sout6_B_0; (try dsimp only)
      by_cases hfirst : t.val = 0
      · exfalso; omega
      · rw [PhiS6_castSucc V c t, PhiS6_pos V c _ _ hfirst]
        iintro ⟨⟨⟨HS, Hr⟩, Hg⟩, Ho, ⟨%dd, Hd⟩, ⟨%db, Hb⟩, ⟨%dn, Hn⟩, ⟨%dq, Hq⟩⟩
        iapply ((kernelRun6_B c (grid6.coords t) _ _ _ _ _ _ _ _ _ _ (fun h => hz ((hcond6_0 t).mp h)) (fun h => hl ((hcond6_1 t).mp h)) (iblk6 V c 0 t) (iblk6 V c 1 t) (iblk6 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover6_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the class's back: the carried scratch's named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS, Hr⟩, Hg⟩
  isplitl [HS Hr]
  · isplitl [HS]
    · iexists _; iexact HS
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 20 := N_6; omega)

end

end Cert.KernelIdeal.Hand

end
-- ==== Proof.KernelIdeal.Reg7.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # The centring kernel's region, at the region-entry contents `V`

Three input windows (the aggregate's block, the gathered mean's block, the scale row) and two output windows
(the centred block, its elementwise square). -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block index
    has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same for input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The same for input window 2, whose block index is constant: it is fetched at the first point only, and every later
    point finds the same block. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x64 := Rect.unit (s := S5000x64) ![0, 0] S5000x64.size inb_S5000x64_S5000x64_0_0
abbrev r7_1 : Rect S1x64 := Rect.unit (s := S1x64) ![0, 0] S1x64.size inb_S1x64_S1x64_0_0

/-! ## What the body leaves in each output window's buffer -/

/-- Window 3's staging buffer after the body, from the input windows' blocks: its one store as pieces, last first. -/
def out7_3 (x0 : Vec F S5000x64 .f32) (x1 : Vec F S5000x64 .f32) (x2 : Vec F S1x64 .f32) : Vec F S5000x64 .f32 :=
  View.canon [⟨r7_0, k7_pay1 (View.ld x0 r7_0) (View.ld x2 r7_1) (View.ld x1 r7_0)⟩]

/-- Window 4's staging buffer after the body, from the input windows' blocks: its one store as pieces, last first. -/
def out7_4 (x0 : Vec F S5000x64 .f32) (x1 : Vec F S5000x64 .f32) (x2 : Vec F S1x64 .f32) : Vec F S5000x64 .f32 :=
  View.canon [⟨r7_0, k7_pay2 (View.ld x0 r7_0) (View.ld x2 r7_1) (View.ld x1 r7_0)⟩]

/-- Window 3's store is the whole buffer, so it covers it. -/
theorem cover7_3 (p0 : Vec F S5000x64 .f32) (y : S5000x64.Idx) :
    ∃ pc ∈ ([⟨r7_0, p0⟩] : List (View.Piece (Elt F) S5000x64 .f32)), y ∈ pc.1.set :=
  View.cover_of_tiled [⟨r7_0, p0⟩] S5000x64.size (by rfl) y

/-- Window 4's store is the whole buffer, so it covers it. -/
theorem cover7_4 (p0 : Vec F S5000x64 .f32) (y : S5000x64.Idx) :
    ∃ pc ∈ ([⟨r7_0, p0⟩] : List (View.Piece (Elt F) S5000x64 .f32)), y ∈ pc.1.set :=
  View.cover_of_tiled [⟨r7_0, p0⟩] S5000x64.size (by rfl) y

/-! ## The body's triple -/

set_option maxHeartbeats 1000000 in
/-- The kernel body on whole staging memrefs, the inputs' at read contents and the outputs' at anything, runs to the
    continuation holding the inputs' as they were and each output's at its `out7_W` of the inputs'. -/
theorem sound_kernel7 (c : Dev nD) (E : Set ℕ) (i : grid7.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2) ∗ owns (c : Thread nD τ) arg5 fullShare (out7_4 x0 x1 x2)) -∗ K ⟨⟩))
      ⊢ wp frame (wpE (defs₀ (F := F)) Variants.none c none) E (cc7__center_kernel i arg1 harg1 arg2 harg2 arg3 harg3 arg4 harg4 arg5 harg5) K := by
  simp only [cc7__center_kernel_eq_skeleton]; unfold cc7__center_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_3 _)
  iexists _; isplitr
  swap; · iexact H4
  ipureintro
  exact View.read_writes_eq_canon _ _ _ (cover7_4 _)

/-! ## The pipeline's proof data -/

/-- The proof data of pipeline 2 on core `c`, at the region-entry contents `V`: the arrays as the region finds them;
    after the body at point `t` each input's buffer at its block and each output's at `out7_W` of the input blocks;
    the invariant is the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
    | ⟨4, _⟩ => out7_4 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]
theorem after7_4 (c : Dev nD) (t : Fin cfg7.N) : (dat7 V c).after 4 t = out7_4 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks (`before7_W`), so `sound_kernel7` applies; the
    invariant and the core's owed tokens pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ (grid7.coords t) _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation7 (c : Dev nD) : BodyObligation (dat7 (F := F) V c) (defs₀ (F := F)) Variants.none () Set.univ := fun t => by
  rw [bigSep_W7, bigSep_W7]
  exact sound_body7 V c t

/-! ## Entering and leaving the region: the invariant is the class's at every point -/

theorem hin7 (c : Dev nD) : Pipeline.ΦA spec7 c ⊢ (dat7 V c).Φ 0 := by
  dsimp only [dat7]; exact .rfl

theorem hout7 (c : Dev nD) : (dat7 V c).Φ (Fin.last cfg7.N) ⊢ Pipeline.ΦA spec7 c := by
  dsimp only [dat7]; exact .rfl

end

end Cert.KernelIdeal.Hand

end
-- ==== Proof.KernelIdeal.Reg8Runs.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is the entry contents (`hA`) and whose body leaves the block in place (`hafter`): unfetched,
    the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is the entry contents (`hA`) and whose body leaves the block in place (`hafter`): unfetched,
    the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is the entry contents (`hA`) and whose body leaves the block in place (`hafter`): unfetched,
    the block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

end

/-! ## The body's branch conditions -/

/-- The condition of the body's first conditional, from the grid coordinates: the point is the first of the grid. -/
abbrev cond8_0 (i : grid8.Coords) : Prop := (Scalar.cmpi .ne (Scalar.extui (Scalar.cmpi .eq (BitVec.ofNat 32 (i 0).val) 0#32)) 0#32) = 1#1
/-- It holds at the points ≡ 0 (mod 20): decided over the grid. -/
theorem hcond8_0 : ∀ t : Fin cfg8.N, cond8_0 (grid8.coords t) ↔ t.val % 20 = 0 :=
  (by decide +kernel : ∀ t : Fin grid8.N, cond8_0 (grid8.coords t) ↔ t.val % 20 = 0)

/-- The condition of the body's second conditional, from the grid coordinates: the point is the last of the grid. -/
abbrev cond8_1 (i : grid8.Coords) : Prop := k8_cond2 i = 1#1
/-- It holds at the points ≡ 19 (mod 20): decided over the grid. -/
theorem hcond8_1 : ∀ t : Fin cfg8.N, cond8_1 (grid8.coords t) ↔ t.val % 20 = 19 :=
  (by decide +kernel : ∀ t : Fin grid8.N, cond8_1 (grid8.coords t) ↔ t.val % 20 = 19)

/-! ## Where the windows are idle -/

/-- The inputs are never idle. -/
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
/-- At the first point the output is idle (nothing is stored into it) and is not written back. -/
theorem idleAt8_3_A : ∀ t : Fin cfg8.N, cond8_0 (grid8.coords t) → ¬cond8_1 (grid8.coords t) → cfg8.idle 3 (grid8.coords t) = true := by decide +kernel
theorem noFlush8_3_A : ∀ t : Fin cfg8.N, cond8_0 (grid8.coords t) → ¬cond8_1 (grid8.coords t) → (cfg8.win 3).flush t = false := by decide +kernel
/-- At the middle points likewise. -/
theorem idleAt8_3_B : ∀ t : Fin cfg8.N, ¬cond8_0 (grid8.coords t) → ¬cond8_1 (grid8.coords t) → cfg8.idle 3 (grid8.coords t) = true := by decide +kernel
theorem noFlush8_3_B : ∀ t : Fin cfg8.N, ¬cond8_0 (grid8.coords t) → ¬cond8_1 (grid8.coords t) → (cfg8.win 3).flush t = false := by decide +kernel
/-- At the last point the output is live: the body stores into it. -/
theorem liveAt8_3_C : ∀ t : Fin cfg8.N, ¬cond8_0 (grid8.coords t) → cond8_1 (grid8.coords t) → cfg8.idle 3 (grid8.coords t) = false := by decide +kernel

/-! ## The staging memrefs and the scratch -/

/-- One staging buffer of the output window, through which its contents are stated. -/
abbrev VO8_3 : View sig .tc .vmem S256x64 .f32 := (Memref.whole cc8_stg3_0 : Memref sig .tc .vmem S256x64 .f32).view
/-- Each window's current staging memref at point `t`, as the pipeline passes it, and its wholeness. -/
abbrev ms8_0 (t : Fin cfg8.N) : Memref sig .tc .vmem S5000x64 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S5000x1 .i32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S256x1 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S256x64 .f32 := win8_3.stage (cfg8.slots t 3)
abbrev hs8_3 (t : Fin cfg8.N) : (ms8_3 t).IsWhole := hstage8_3 ((cfg8.slots t 3).cast nbuf8_3)
/-- The scratch operand: a whole scoped buffer of the kernel's own, passed beside the windows. -/
abbrev scM8_0 : Memref sig .tc .vmem S256x64 .f32 := Memref.whole cc8_scratch0
/-- The scratch the kernel carries between points, as a view. -/
abbrev VS8_0 : View sig .tc .vmem S256x64 .f32 := scM8_0.view

/-- The region invariant with the scratch operand as a memref owned at some contents, the other scoped buffers
    unopened beside it, and the generator register at some state. -/
theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

end Cert.KernelIdeal.Hand

end
-- ==== Proof.KernelIdeal.Reg8RunA.lean ====
import proofs.«422469_j24000277250640_1_alg».proof.Proof.KernelIdeal.Reg8Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun8_A (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond8_0 i) (hcl : ¬cond8_1 i)
    (xd : Vec F S5000x64 .f32) (xb : Vec F S5000x1 .i32) (xn : Vec F S256x1 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc8__reduce_div_kernel i arg1 harg1 arg2 harg2 arg3 harg3 arg4 harg4 arg5 harg5) K } := by
  refine ⟨[], ?_, fun xi E K => ?run⟩
  case run =>
    simp only [cc8__reduce_div_kernel_eq_skeleton]; unfold cc8__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg8RunB.lean ====
import proofs.«422469_j24000277250640_1_alg».proof.Proof.KernelIdeal.Reg8RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun8_B (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : ¬cond8_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc8__reduce_div_kernel i arg1 harg1 arg2 harg2 arg3 harg3 arg4 harg4 arg5 harg5) K } := by
  refine ⟨[], ?_, fun xi E K => ?run⟩
  case run =>
    simp only [cc8__reduce_div_kernel_eq_skeleton]; unfold cc8__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg8RunC.lean ====
import proofs.«422469_j24000277250640_1_alg».proof.Proof.KernelIdeal.Reg8RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun8_C (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : cond8_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc8__reduce_div_kernel i arg1 harg1 arg2 harg2 arg3 harg3 arg4 harg4 arg5 harg5) K } := by
  refine ⟨?_, ?_, fun E K => ?run⟩
  case run =>
    simp only [cc8__reduce_div_kernel_eq_skeleton]; unfold cc8__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.KernelIdeal.Hand

end
-- ==== Proof.KernelIdeal.Reg8.lean ====
import proofs.«422469_j24000277250640_1_alg».proof.Proof.KernelIdeal.Reg8RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out8_A_3 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond8_0 i) (hcl : ¬cond8_1 i)
    (xd : Vec F S5000x64 .f32) (xb : Vec F S5000x1 .i32) (xn : Vec F S256x1 .f32) : Vec F S256x64 .f32 :=
  VO8_3.read (Elt F) (VO8_3.writes (Elt F) VO8_3.junk (kernelRun8_A c i arg1 harg1 arg2 harg2 arg3 harg3 arg4 harg4 arg5 harg5 hcz hcl xd xb xn).1)

/-- The pieces stored into the carried scratch tile it, so they cover it. -/
theorem scover8_A_0 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond8_0 i) (hcl : ¬cond8_1 i)
    (xd : Vec F S5000x64 .f32) (xb : Vec F S5000x1 .i32) (xn : Vec F S256x1 .f32) (y : S256x64.Idx) :
    ∃ pc ∈ (kernelRun8_A c i arg1 harg1 arg2 harg2 arg3 harg3 arg4 harg4 arg5 harg5 hcz hcl xd xb xn).2.1, y ∈ pc.1.set :=
  View.cover_of_tiledL (kernelRun8_A c i arg1 harg1 arg2 harg2 arg3 harg3 arg4 harg4 arg5 harg5 hcz hcl xd xb xn).2.1 S256x64.size (by sl_kernel_rfl) y

/-- What this case leaves in the carried scratch: its pieces read back over junk. -/
def sout8_A_0 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond8_0 i) (hcl : ¬cond8_1 i)
    (xd : Vec F S5000x64 .f32) (xb : Vec F S5000x1 .i32) (xn : Vec F S256x1 .f32) : Vec F S256x64 .f32 :=
  VS8_0.read (Elt F) (VS8_0.writes (Elt F) VS8_0.junk (kernelRun8_A c i arg1 harg1 arg2 harg2 arg3 harg3 arg4 harg4 arg5 harg5 hcz hcl xd xb xn).2.1)

/-- Nothing is stored into the output window here (it is idle and not written back): no pieces, a placeholder
    that nothing consults. -/
def out8_B_3 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : ¬cond8_1 i)
    (xd : Vec F S5000x64 .f32) (xb : Vec F S5000x1 .i32) (xn : Vec F S256x1 .f32) (xs : Vec F S256x64 .f32) : Vec F S256x64 .f32 :=
  VO8_3.read (Elt F) (VO8_3.writes (Elt F) VO8_3.junk (kernelRun8_B c i arg1 harg1 arg2 harg2 arg3 harg3 arg4 harg4 arg5 harg5 hcz hcl xd xb xn xs).1)

/-- The pieces stored into the carried scratch tile it, so they cover it. -/
theorem scover8_B_0 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : ¬cond8_1 i)
    (xd : Vec F S5000x64 .f32) (xb : Vec F S5000x1 .i32) (xn : Vec F S256x1 .f32) (xs : Vec F S256x64 .f32) (y : S256x64.Idx) :
    ∃ pc ∈ (kernelRun8_B c i arg1 harg1 arg2 harg2 arg3 harg3 arg4 harg4 arg5 harg5 hcz hcl xd xb xn xs).2.1, y ∈ pc.1.set :=
  View.cover_of_tiledL (kernelRun8_B c i arg1 harg1 arg2 harg2 arg3 harg3 arg4 harg4 arg5 harg5 hcz hcl xd xb xn xs).2.1 S256x64.size (by sl_kernel_rfl) y

/-- What this case leaves in the carried scratch: its pieces read back over junk. -/
def sout8_B_0 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : ¬cond8_1 i)
    (xd : Vec F S5000x64 .f32) (xb : Vec F S5000x1 .i32) (xn : Vec F S256x1 .f32) (xs : Vec F S256x64 .f32) : Vec F S256x64 .f32 :=
  VS8_0.read (Elt F) (VS8_0.writes (Elt F) VS8_0.junk (kernelRun8_B c i arg1 harg1 arg2 harg2 arg3 harg3 arg4 harg4 arg5 harg5 hcz hcl xd xb xn xs).2.1)

/-- The pieces stored into the output window tile its block, so they cover it. -/
theorem cover8_C_3 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : cond8_1 i)
    (xd : Vec F S5000x64 .f32) (xb : Vec F S5000x1 .i32) (xn : Vec F S256x1 .f32) (xs : Vec F S256x64 .f32) (y : S256x64.Idx) :
    ∃ pc ∈ (kernelRun8_C c i arg1 harg1 arg2 harg2 arg3 harg3 arg4 harg4 arg5 harg5 hcz hcl xd xb xn xs).1, y ∈ pc.1.set :=
  View.cover_of_tiledL (kernelRun8_C c i arg1 harg1 arg2 harg2 arg3 harg3 arg4 harg4 arg5 harg5 hcz hcl xd xb xn xs).1 S256x64.size (by sl_kernel_rfl) y

/-- What this case leaves in the output's staging buffer: its pieces read back over junk. -/
def out8_C_3 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : cond8_1 i)
    (xd : Vec F S5000x64 .f32) (xb : Vec F S5000x1 .i32) (xn : Vec F S256x1 .f32) (xs : Vec F S256x64 .f32) : Vec F S256x64 .f32 :=
  VO8_3.read (Elt F) (VO8_3.writes (Elt F) VO8_3.junk (kernelRun8_C c i arg1 harg1 arg2 harg2 arg3 harg3 arg4 harg4 arg5 harg5 hcz hcl xd xb xn xs).1)

/-- The pieces stored into the carried scratch tile it, so they cover it. -/
theorem scover8_C_0 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : cond8_1 i)
    (xd : Vec F S5000x64 .f32) (xb : Vec F S5000x1 .i32) (xn : Vec F S256x1 .f32) (xs : Vec F S256x64 .f32) (y : S256x64.Idx) :
    ∃ pc ∈ (kernelRun8_C c i arg1 harg1 arg2 harg2 arg3 harg3 arg4 harg4 arg5 harg5 hcz hcl xd xb xn xs).2.1, y ∈ pc.1.set :=
  View.cover_of_tiledL (kernelRun8_C c i arg1 harg1 arg2 harg2 arg3 harg3 arg4 harg4 arg5 harg5 hcz hcl xd xb xn xs).2.1 S256x64.size (by sl_kernel_rfl) y

/-- What this case leaves in the carried scratch: its pieces read back over junk. -/
def sout8_C_0 (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : cond8_1 i)
    (xd : Vec F S5000x64 .f32) (xb : Vec F S5000x1 .i32) (xn : Vec F S256x1 .f32) (xs : Vec F S256x64 .f32) : Vec F S256x64 .f32 :=
  VS8_0.read (Elt F) (VS8_0.writes (Elt F) VS8_0.junk (kernelRun8_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt8 (c : Dev nD) : (n : ℕ) → n < cfg8.N → Vec F S256x64 .f32 × Vec F S256x64 .f32
  | 0, hn => (out8_A_3 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩))
  | n + 1, hn =>
    if hz : (n + 1) % 20 = 0 then
      if hl : (n + 1) % 20 = 19 then
        False.elim (by have hN : n + 1 < 20 := lt_of_lt_of_eq hn (show cfg8.N = 20 from N_8); omega)
      else
        (out8_A_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) ((hcond8_0 ⟨n + 1, hn⟩).mpr hz) (fun h => hl ((hcond8_1 ⟨n + 1, hn⟩).mp h)) (iblk8 V c 0 ⟨n + 1, hn⟩) (iblk8 V c 1 ⟨n + 1, hn⟩) (iblk8 V c 2 ⟨n + 1, hn⟩), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) ((hcond8_0 ⟨n + 1, hn⟩).mpr hz) (fun h => hl ((hcond8_1 ⟨n + 1, hn⟩).mp h)) (iblk8 V c 0 ⟨n + 1, hn⟩) (iblk8 V c 1 ⟨n + 1, hn⟩) (iblk8 V c 2 ⟨n + 1, hn⟩))
    else
      if hl : (n + 1) % 20 = 19 then
        (out8_C_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => hz ((hcond8_0 ⟨n + 1, hn⟩).mp h)) ((hcond8_1 ⟨n + 1, hn⟩).mpr hl) (iblk8 V c 0 ⟨n + 1, hn⟩) (iblk8 V c 1 ⟨n + 1, hn⟩) (iblk8 V c 2 ⟨n + 1, hn⟩) (outsAt8 c n (Nat.lt_of_succ_lt hn)).2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => hz ((hcond8_0 ⟨n + 1, hn⟩).mp h)) ((hcond8_1 ⟨n + 1, hn⟩).mpr hl) (iblk8 V c 0 ⟨n + 1, hn⟩) (iblk8 V c 1 ⟨n + 1, hn⟩) (iblk8 V c 2 ⟨n + 1, hn⟩) (outsAt8 c n (Nat.lt_of_succ_lt hn)).2)
      else
        (out8_B_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => hz ((hcond8_0 ⟨n + 1, hn⟩).mp h)) (fun h => hl ((hcond8_1 ⟨n + 1, hn⟩).mp h)) (iblk8 V c 0 ⟨n + 1, hn⟩) (iblk8 V c 1 ⟨n + 1, hn⟩) (iblk8 V c 2 ⟨n + 1, hn⟩) (outsAt8 c n (Nat.lt_of_succ_lt hn)).2, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => hz ((hcond8_0 ⟨n + 1, hn⟩).mp h)) (fun h => hl ((hcond8_1 ⟨n + 1, hn⟩).mp h)) (iblk8 V c 0 ⟨n + 1, hn⟩) (iblk8 V c 1 ⟨n + 1, hn⟩) (iblk8 V c 2 ⟨n + 1, hn⟩) (outsAt8 c n (Nat.lt_of_succ_lt hn)).2)

/-- `outsAt8` at the first point. -/
theorem outsAt8_A (c : Dev nD) (t : Fin cfg8.N) (hz : t.val % 20 = 0) (hl : ¬t.val % 20 = 19) :
    outsAt8 V c t.val t.isLt = (out8_A_3 c (grid8.coords t) (ms8_0 t) (hs8_0 t) (ms8_1 t) (hs8_1 t) (ms8_2 t) (hs8_2 t) (ms8_3 t) (hs8_3 t) scM8_0 (Memref.isWhole_whole _) ((hcond8_0 t).mpr hz) (fun h => hl ((hcond8_1 t).mp h)) (iblk8 V c 0 t) (iblk8 V c 1 t) (iblk8 V c 2 t), sout8_A_0 c (grid8.coords t) (ms8_0 t) (hs8_0 t) (ms8_1 t) (hs8_1 t) (ms8_2 t) (hs8_2 t) (ms8_3 t) (hs8_3 t) scM8_0 (Memref.isWhole_whole _) ((hcond8_0 t).mpr hz) (fun h => hl ((hcond8_1 t).mp h)) (iblk8 V c 0 t) (iblk8 V c 1 t) (iblk8 V c 2 t)) := by
  obtain ⟨n, hn⟩ := t
  cases n with
  | zero => exact rfl
  | succ n => exact (dif_pos hz).trans ((dif_neg hl).trans rfl)

/-- `outsAt8` at a middle point: over what the point before left in the scratch. -/
theorem outsAt8_B (c : Dev nD) (t : Fin cfg8.N) (hz : ¬t.val % 20 = 0) (hl : ¬t.val % 20 = 19) :
    outsAt8 V c t.val t.isLt = (out8_B_3 c (grid8.coords t) (ms8_0 t) (hs8_0 t) (ms8_1 t) (hs8_1 t) (ms8_2 t) (hs8_2 t) (ms8_3 t) (hs8_3 t) scM8_0 (Memref.isWhole_whole _) (fun h => hz ((hcond8_0 t).mp h)) (fun h => hl ((hcond8_1 t).mp h)) (iblk8 V c 0 t) (iblk8 V c 1 t) (iblk8 V c 2 t) (outsAt8 V c (t.val - 1) (Nat.lt_of_le_of_lt (Nat.sub_le _ _) t.isLt)).2, sout8_B_0 c (grid8.coords t) (ms8_0 t) (hs8_0 t) (ms8_1 t) (hs8_1 t) (ms8_2 t) (hs8_2 t) (ms8_3 t) (hs8_3 t) scM8_0 (Memref.isWhole_whole _) (fun h => hz ((hcond8_0 t).mp h)) (fun h => hl ((hcond8_1 t).mp h)) (iblk8 V c 0 t) (iblk8 V c 1 t) (iblk8 V c 2 t) (outsAt8 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt8` at the last point: over what the point before left in the scratch. -/
theorem outsAt8_C (c : Dev nD) (t : Fin cfg8.N) (hz : ¬t.val % 20 = 0) (hl : t.val % 20 = 19) :
    outsAt8 V c t.val t.isLt = (out8_C_3 c (grid8.coords t) (ms8_0 t) (hs8_0 t) (ms8_1 t) (hs8_1 t) (ms8_2 t) (hs8_2 t) (ms8_3 t) (hs8_3 t) scM8_0 (Memref.isWhole_whole _) (fun h => hz ((hcond8_0 t).mp h)) ((hcond8_1 t).mpr hl) (iblk8 V c 0 t) (iblk8 V c 1 t) (iblk8 V c 2 t) (outsAt8 V c (t.val - 1) (Nat.lt_of_le_of_lt (Nat.sub_le _ _) t.isLt)).2, sout8_C_0 c (grid8.coords t) (ms8_0 t) (hs8_0 t) (ms8_1 t) (hs8_1 t) (ms8_2 t) (hs8_2 t) (ms8_3 t) (hs8_3 t) scM8_0 (Memref.isWhole_whole _) (fun h => hz ((hcond8_0 t).mp h)) ((hcond8_1 t).mpr hl) (iblk8 V c 0 t) (iblk8 V c 1 t) (iblk8 V c 2 t) (outsAt8 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut8 (c : Dev nD) : sProp 𝕄 :=
  Pipeline.scopedRestBut (Ix := Unit) (Name := ℕ) (U := UR sig nD τ) (Lvl := ℕ) (Val := Elt F) spec8 c [cc8_scratch0]

/-- The region invariant before position `n`: before the first point the class's (every scratch at anything);
    afterwards the carried scratch at what the point before left in it, the other scoped buffers unopened, and the
    random-number register at some state. -/
def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ restBut8 (F := F) c) ∗ (∃ r, prngReg c r))

theorem PhiS8_zero (c : Dev nD) (n : ℕ) (h : n ≤ cfg8.N) (hfirst : n = 0) : PhiS8 V c n h = Pipeline.ΦA spec8 c := by
  subst hfirst; rfl

/-- After point `n` (before point `n + 1`): the carried scratch at that point's contents. -/
theorem PhiS8_succ (c : Dev nD) (n : ℕ) (hn : n < cfg8.N) :
    PhiS8 V c (n + 1) hn = iprop(iprop(owns (c : Thread nD τ) scM8_0 fullShare ((outsAt8 V c n hn).2) ∗ restBut8 (F := F) c) ∗ (∃ r, prngReg c r)) := rfl

/-- Before a point that is not the first: the carried scratch at what the point before left. -/
theorem PhiS8_pos (c : Dev nD) (n : ℕ) (h : n ≤ cfg8.N) (hfirst : n ≠ 0) :
    PhiS8 V c n h = iprop(iprop(owns (c : Thread nD τ) scM8_0 fullShare ((outsAt8 V c (n - 1) (by omega)).2) ∗ restBut8 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt8`'s first component; the invariant `PhiS8`; nothing owed;
    full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

/-- The invariant at a point's start, restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t.val t.isLt).1 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = PhiS8 V c (t.val + 1) t.isLt from rfl, PhiS8_succ]
  have hN : t.val < 20 := lt_of_lt_of_eq t.isLt (show cfg8.N = 20 from N_8)
  by_cases hz : t.val % 20 = 0
  · by_cases hl : t.val % 20 = 19
    · exfalso; omega
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [show (dat8 V c).leavesExact 2 t = owns (c : Thread nD τ) (ms8_2 t) fullShare ((dat8 V c).after 2 t) from by
        unfold Dat.leavesExact; rw [liveAt8_2 t], after8_2]
      rw [Dat.leavesExact_idle (dat8 V c) 3 t (idleAt8_3_A t ((hcond8_0 t).mpr hz) (fun h => hl ((hcond8_1 t).mp h))) (noFlush8_3_A t ((hcond8_0 t).mpr hz) (fun h => hl ((hcond8_1 t).mp h)))]
      rw [outsAt8_A V c t hz hl]
      unfold sout8_A_0; (try dsimp only)
      by_cases hfirst : t.val = 0
      · rw [PhiS8_castSucc V c t, PhiS8_zero V c _ _ hfirst, PhiA8_eq]
        iintro ⟨⟨⟨HS, Hr⟩, Hg⟩, Ho, ⟨%dd, Hd⟩, ⟨%db, Hb⟩, ⟨%dn, Hn⟩, ⟨%dq, Hq⟩⟩
        iapply ((kernelRun8_A c (grid8.coords t) _ _ _ _ _ _ _ _ _ _ ((hcond8_0 t).mpr hz) (fun h => hl ((hcond8_1 t).mp h)) (iblk8 V c 0 t) (iblk8 V c 1 t) (iblk8 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover8_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS8_castSucc V c t, PhiS8_pos V c _ _ hfirst]
        iintro ⟨⟨⟨HS, Hr⟩, Hg⟩, Ho, ⟨%dd, Hd⟩, ⟨%db, Hb⟩, ⟨%dn, Hn⟩, ⟨%dq, Hq⟩⟩
        iapply ((kernelRun8_A c (grid8.coords t) _ _ _ _ _ _ _ _ _ _ ((hcond8_0 t).mpr hz) (fun h => hl ((hcond8_1 t).mp h)) (iblk8 V c 0 t) (iblk8 V c 1 t) (iblk8 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover8_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [show (dat8 V c).leavesExact 2 t = owns (c : Thread nD τ) (ms8_2 t) fullShare ((dat8 V c).after 2 t) from by
        unfold Dat.leavesExact; rw [liveAt8_2 t], after8_2]
      rw [show (dat8 V c).leavesExact 3 t = owns (c : Thread nD τ) (ms8_3 t) fullShare ((dat8 V c).after 3 t) from by
        unfold Dat.leavesExact; rw [liveAt8_3_C t (fun h => hz ((hcond8_0 t).mp h)) ((hcond8_1 t).mpr hl)], after8_3]
      rw [outsAt8_C V c t hz hl]
      unfold out8_C_3 sout8_C_0; (try dsimp only)
      by_cases hfirst : t.val = 0
      · exfalso; omega
      · rw [PhiS8_castSucc V c t, PhiS8_pos V c _ _ hfirst]
        iintro ⟨⟨⟨HS, Hr⟩, Hg⟩, Ho, ⟨%dd, Hd⟩, ⟨%db, Hb⟩, ⟨%dn, Hn⟩, ⟨%dq, Hq⟩⟩
        iapply ((kernelRun8_C c (grid8.coords t) _ _ _ _ _ _ _ _ _ _ (fun h => hz ((hcond8_0 t).mp h)) ((hcond8_1 t).mpr hl) (iblk8 V c 0 t) (iblk8 V c 1 t) (iblk8 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover8_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover8_C_3 c _ _ _ _ _ _ _ _ _ _ _ _ _ _ _ _ _)
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [show (dat8 V c).leavesExact 2 t = owns (c : Thread nD τ) (ms8_2 t) fullShare ((dat8 V c).after 2 t) from by
        unfold Dat.leavesExact; rw [liveAt8_2 t], after8_2]
      rw [Dat.leavesExact_idle (dat8 V c) 3 t (idleAt8_3_B t (fun h => hz ((hcond8_0 t).mp h)) (fun h => hl ((hcond8_1 t).mp h))) (noFlush8_3_B t (fun h => hz ((hcond8_0 t).mp h)) (fun h => hl ((hcond8_1 t).mp h)))]
      rw [outsAt8_B V c t hz hl]
      unfold sout8_B_0; (try dsimp only)
      by_cases hfirst : t.val = 0
      · exfalso; omega
      · rw [PhiS8_castSucc V c t, PhiS8_pos V c _ _ hfirst]
        iintro ⟨⟨⟨HS, Hr⟩, Hg⟩, Ho, ⟨%dd, Hd⟩, ⟨%db, Hb⟩, ⟨%dn, Hn⟩, ⟨%dq, Hq⟩⟩
        iapply ((kernelRun8_B c (grid8.coords t) _ _ _ _ _ _ _ _ _ _ (fun h => hz ((hcond8_0 t).mp h)) (fun h => hl ((hcond8_1 t).mp h)) (iblk8 V c 0 t) (iblk8 V c 1 t) (iblk8 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover8_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the class's back: the carried scratch's named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS, Hr⟩, Hg⟩
  isplitl [HS Hr]
  · isplitl [HS]
    · iexists _; iexact HS
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 20 := N_8; omega)

end

end Cert.KernelIdeal.Hand

end
-- ==== Proof.KernelIdeal.Reg9.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # The scale, shift and rectify kernel's region, at the region-entry contents `V`

Four input windows (the centred block, the gathered variance's block, the scale row, the shift row) and one output
window (the normalised, rectified block). -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): unfetched, the block index
    has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same for input window 1. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The same for input window 2, whose block index is constant: it is fetched at the first point only, and every later
    point finds the same block. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- The same for input window 3, of constant block index too. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S5000x64 := Rect.unit (s := S5000x64) ![0, 0] S5000x64.size inb_S5000x64_S5000x64_0_0
abbrev r9_1 : Rect S1x64 := Rect.unit (s := S1x64) ![0, 0] S1x64.size inb_S1x64_S1x64_0_0

/-! ## What the body leaves in the output window's buffer -/

/-- Window 4's staging buffer after the body, from the input windows' blocks: its one store as pieces, last first. -/
def out9_4 (x0 : Vec F S5000x64 .f32) (x1 : Vec F S5000x64 .f32) (x2 : Vec F S1x64 .f32) (x3 : Vec F S1x64 .f32) : Vec F S5000x64 .f32 :=
  View.canon [⟨r9_0, k9_pay1 (View.ld x1 r9_0) (View.ld x2 r9_1) (View.ld x0 r9_0) (View.ld x3 r9_1)⟩]

/-- Window 4's store is the whole buffer, so it covers it. -/
theorem cover9_4 (p0 : Vec F S5000x64 .f32) (y : S5000x64.Idx) :
    ∃ pc ∈ ([⟨r9_0, p0⟩] : List (View.Piece (Elt F) S5000x64 .f32)), y ∈ pc.1.set :=
  View.cover_of_tiled [⟨r9_0, p0⟩] S5000x64.size (by rfl) y

/-! ## The body's triple -/

set_option maxHeartbeats 1000000 in
/-- The kernel body on whole staging memrefs, the inputs' at read contents and the output's at anything, runs to the
    continuation holding the inputs' as they were and the output's at `out9_4` of the inputs'. -/
theorem sound_kernel9 (c : Dev nD) (E : Set ℕ) (i : grid9.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out9_4 x0 x1 x2 x3)) -∗ K ⟨⟩))
      ⊢ wp frame (wpE (defs₀ (F := F)) Variants.none c none) E (cc9__ssr_kernel i arg1 harg1 arg2 harg2 arg3 harg3 arg4 harg4 arg5 harg5) K := by
  simp only [cc9__ssr_kernel_eq_skeleton]; unfold cc9__ssr_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-! ## The pipeline's proof data -/

/-- The proof data of pipeline 4 on core `c`, at the region-entry contents `V`: the arrays as the region finds them;
    after the body at point `t` each input's buffer at its block and the output's at `out9_4` of the input blocks;
    the invariant is the scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9_4 (iblk9 V c 0 t) (iblk9 V c 1 t) (iblk9 V c 2 t) (iblk9 V c 3 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' memrefs hold their blocks (`before9_W`), so `sound_kernel9` applies; the
    invariant and the core's owed tokens pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ (grid9.coords t) _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation9 (c : Dev nD) : BodyObligation (dat9 (F := F) V c) (defs₀ (F := F)) Variants.none () Set.univ := fun t => by
  rw [bigSep_W9, bigSep_W9]
  exact sound_body9 V c t

/-! ## Entering and leaving the region: the invariant is the class's at every point -/

theorem hin9 (c : Dev nD) : Pipeline.ΦA spec9 c ⊢ (dat9 V c).Φ 0 := by
  dsimp only [dat9]; exact .rfl

theorem hout9 (c : Dev nD) : (dat9 V c).Φ (Fin.last cfg9.N) ⊢ Pipeline.ΦA spec9 c := by
  dsimp only [dat9]; exact .rfl

end

end Cert.KernelIdeal.Hand

end
-- ==== Proof.KernelIdeal.Reg10.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the region-entry contents `V`. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not: where it is not
    fetched the block index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 (the right factor, one block for the whole grid) likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each window's buffer read or written whole -/

abbrev r10_0 : Rect S5000x64 := Rect.unit (s := S5000x64) ![0, 0] S5000x64.size inb_S5000x64_S5000x64_0_0
abbrev r10_1 : Rect S64x64 := Rect.unit (s := S64x64) ![0, 0] S64x64.size inb_S64x64_S64x64_0_0
abbrev r10_2 : Rect S5000x64 := Rect.unit (s := S5000x64) ![0, 0] S5000x64.size inb_S5000x64_S5000x64_0_0

/-! ## What the body leaves in the output window's buffer -/

/-- Window 2's staging buffer after the body, from the two input blocks: the product block, stored whole. -/
def out10_2 (x0 : Vec F S5000x64 .f32) (x1 : Vec F S64x64 .f32) : Vec F S5000x64 .f32 :=
  View.canon [⟨r10_2, k10_pay1 (View.ld x0 r10_0) (View.ld x1 r10_1)⟩]

/-- The one store tiles the buffer, so it covers it. -/
theorem cover10_2 (p0 : Vec F S5000x64 .f32) (y : S5000x64.Idx) :
    ∃ pc ∈ ([⟨r10_2, p0⟩] : List (View.Piece (Elt F) S5000x64 .f32)), y ∈ pc.1.set :=
  View.cover_of_tiled [⟨r10_2, p0⟩] S5000x64.size (by rfl) y

/-! ## The body's triple -/

set_option maxHeartbeats 1000000 in
/-- The body on whole staging memrefs, the inputs' at contents `x0`, `x1` and the output's at anything, runs to the
    continuation holding the inputs' as they were and the output's at `out10_2 x0 x1`; the output's old contents are
    read and not used. -/
theorem sound_kernel10 (c : Dev nD) (E : Set ℕ) (i : grid10.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__matmul_kernel i arg1 harg1 arg2 harg2 arg3 harg3) K := by
  simp only [cc10__matmul_kernel_eq_skeleton]; unfold cc10__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of this pipeline on core `c`, at the region-entry contents `V`: after the body at point `t` each input's
    buffer holds its block and the output's holds `out10_2` of the two input blocks; the invariant is the scoped rest and
    the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so `sound_kernel10` applies; the invariant and what
    the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation10 (c : Dev nD) : BodyObligation (dat10 (F := F) V c) (defs₀ (F := F)) Variants.none () Set.univ := fun t => by
  rw [bigSep_W10, bigSep_W10]
  exact sound_body10 V c t

/-- The invariant at the first point is the class invariant itself. -/
theorem hin10 (c : Dev nD) : Pipeline.ΦA spec10 c ⊢ (dat10 V c).Φ 0 := by
  rw [show (dat10 V c).Φ 0 = Pipeline.ΦA spec10 c from rfl]

/-- And at the last point. -/
theorem hout10 (c : Dev nD) : (dat10 V c).Φ (Fin.last cfg10.N) ⊢ Pipeline.ΦA spec10 c := by
  rw [show (dat10 V c).Φ (Fin.last cfg10.N) = Pipeline.ΦA spec10 c from rfl]

end

end Cert.KernelIdeal.Hand

end
-- ==== Proof.KernelIdeal.Reg11Runs.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is the entry contents (`hA`) and whose body leaves the block in place (`hafter`): unfetched,
    the block index has not moved. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is the entry contents (`hA`) and whose body leaves the block in place (`hafter`): unfetched,
    the block index has not moved. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is the entry contents (`hA`) and whose body leaves the block in place (`hafter`): unfetched,
    the block index has not moved. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

end

/-! ## The body's branch conditions -/

/-- The condition of the body's first conditional, from the grid coordinates: the point is the first of the grid. -/
abbrev cond11_0 (i : grid11.Coords) : Prop := (Scalar.cmpi .ne (Scalar.extui (Scalar.cmpi .eq (BitVec.ofNat 32 (i 0).val) 0#32)) 0#32) = 1#1
/-- It holds at the points ≡ 0 (mod 20): decided over the grid. -/
theorem hcond11_0 : ∀ t : Fin cfg11.N, cond11_0 (grid11.coords t) ↔ t.val % 20 = 0 :=
  (by decide +kernel : ∀ t : Fin grid11.N, cond11_0 (grid11.coords t) ↔ t.val % 20 = 0)

/-- The condition of the body's second conditional, from the grid coordinates: the point is the last of the grid. -/
abbrev cond11_1 (i : grid11.Coords) : Prop := k11_cond2 i = 1#1
/-- It holds at the points ≡ 19 (mod 20): decided over the grid. -/
theorem hcond11_1 : ∀ t : Fin cfg11.N, cond11_1 (grid11.coords t) ↔ t.val % 20 = 19 :=
  (by decide +kernel : ∀ t : Fin grid11.N, cond11_1 (grid11.coords t) ↔ t.val % 20 = 19)

/-! ## Where the windows are idle -/

/-- The inputs are never idle. -/
theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel
/-- At the first point the output is idle (nothing is stored into it) and is not written back. -/
theorem idleAt11_3_A : ∀ t : Fin cfg11.N, cond11_0 (grid11.coords t) → ¬cond11_1 (grid11.coords t) → cfg11.idle 3 (grid11.coords t) = true := by decide +kernel
theorem noFlush11_3_A : ∀ t : Fin cfg11.N, cond11_0 (grid11.coords t) → ¬cond11_1 (grid11.coords t) → (cfg11.win 3).flush t = false := by decide +kernel
/-- At the middle points likewise. -/
theorem idleAt11_3_B : ∀ t : Fin cfg11.N, ¬cond11_0 (grid11.coords t) → ¬cond11_1 (grid11.coords t) → cfg11.idle 3 (grid11.coords t) = true := by decide +kernel
theorem noFlush11_3_B : ∀ t : Fin cfg11.N, ¬cond11_0 (grid11.coords t) → ¬cond11_1 (grid11.coords t) → (cfg11.win 3).flush t = false := by decide +kernel
/-- At the last point the output is live: the body stores into it. -/
theorem liveAt11_3_C : ∀ t : Fin cfg11.N, ¬cond11_0 (grid11.coords t) → cond11_1 (grid11.coords t) → cfg11.idle 3 (grid11.coords t) = false := by decide +kernel

/-! ## The staging memrefs and the scratch -/

/-- One staging buffer of the output window, through which its contents are stated. -/
abbrev VO11_3 : View sig .tc .vmem S256x64 .f32 := (Memref.whole cc11_stg3_0 : Memref sig .tc .vmem S256x64 .f32).view
/-- Each window's current staging memref at point `t`, as the pipeline passes it, and its wholeness. -/
abbrev ms11_0 (t : Fin cfg11.N) : Memref sig .tc .vmem S5000x64 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S5000x1 .i32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S256x1 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S256x64 .f32 := win11_3.stage (cfg11.slots t 3)
abbrev hs11_3 (t : Fin cfg11.N) : (ms11_3 t).IsWhole := hstage11_3 ((cfg11.slots t 3).cast nbuf11_3)
/-- The scratch operand: a whole scoped buffer of the kernel's own, passed beside the windows. -/
abbrev scM11_0 : Memref sig .tc .vmem S256x64 .f32 := Memref.whole cc11_scratch0
/-- The scratch the kernel carries between points, as a view. -/
abbrev VS11_0 : View sig .tc .vmem S256x64 .f32 := scM11_0.view

/-- The region invariant with the scratch operand as a memref owned at some contents, the other scoped buffers
    unopened beside it, and the generator register at some state. -/
theorem PhiA11_eq (c : Dev nD) :
    (Pipeline.ΦA spec11 c : sProp 𝕄)
      = iprop(iprop(iprop((∃ d, owns (c : Thread nD τ) scM11_0 fullShare d))
          ∗ Pipeline.scopedRestBut (Ix := Unit) (Name := ℕ) (U := UR sig nD τ) (Lvl := ℕ) (Val := Elt F) spec11 c [cc11_scratch0]) ∗ (∃ r, prngReg c r)) := by
  unfold Pipeline.ΦA; rw [scopedRest11_split]; simp only [scM11_0, owns_whole]; try rfl

end Cert.KernelIdeal.Hand

end
-- ==== Proof.KernelIdeal.Reg11RunA.lean ====
import proofs.«422469_j24000277250640_1_alg».proof.Proof.KernelIdeal.Reg11Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun11_A (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond11_0 i) (hcl : ¬cond11_1 i)
    (xd : Vec F S5000x64 .f32) (xb : Vec F S5000x1 .i32) (xn : Vec F S256x1 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc11__reduce_div_kernel i arg1 harg1 arg2 harg2 arg3 harg3 arg4 harg4 arg5 harg5) K } := by
  refine ⟨[], ?_, fun xi E K => ?run⟩
  case run =>
    simp only [cc11__reduce_div_kernel_eq_skeleton]; unfold cc11__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg11RunB.lean ====
import proofs.«422469_j24000277250640_1_alg».proof.Proof.KernelIdeal.Reg11RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun11_B (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : ¬cond11_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc11__reduce_div_kernel i arg1 harg1 arg2 harg2 arg3 harg3 arg4 harg4 arg5 harg5) K } := by
  refine ⟨[], ?_, fun xi E K => ?run⟩
  case run =>
    simp only [cc11__reduce_div_kernel_eq_skeleton]; unfold cc11__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg11RunC.lean ====
import proofs.«422469_j24000277250640_1_alg».proof.Proof.KernelIdeal.Reg11RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun11_C (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : cond11_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc11__reduce_div_kernel i arg1 harg1 arg2 harg2 arg3 harg3 arg4 harg4 arg5 harg5) K } := by
  refine ⟨?_, ?_, fun E K => ?run⟩
  case run =>
    simp only [cc11__reduce_div_kernel_eq_skeleton]; unfold cc11__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.KernelIdeal.Hand

end
-- ==== Proof.KernelIdeal.Reg11.lean ====
import proofs.«422469_j24000277250640_1_alg».proof.Proof.KernelIdeal.Reg11RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out11_A_3 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond11_0 i) (hcl : ¬cond11_1 i)
    (xd : Vec F S5000x64 .f32) (xb : Vec F S5000x1 .i32) (xn : Vec F S256x1 .f32) : Vec F S256x64 .f32 :=
  VO11_3.read (Elt F) (VO11_3.writes (Elt F) VO11_3.junk (kernelRun11_A c i arg1 harg1 arg2 harg2 arg3 harg3 arg4 harg4 arg5 harg5 hcz hcl xd xb xn).1)

/-- The pieces stored into the carried scratch tile it, so they cover it. -/
theorem scover11_A_0 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond11_0 i) (hcl : ¬cond11_1 i)
    (xd : Vec F S5000x64 .f32) (xb : Vec F S5000x1 .i32) (xn : Vec F S256x1 .f32) (y : S256x64.Idx) :
    ∃ pc ∈ (kernelRun11_A c i arg1 harg1 arg2 harg2 arg3 harg3 arg4 harg4 arg5 harg5 hcz hcl xd xb xn).2.1, y ∈ pc.1.set :=
  View.cover_of_tiledL (kernelRun11_A c i arg1 harg1 arg2 harg2 arg3 harg3 arg4 harg4 arg5 harg5 hcz hcl xd xb xn).2.1 S256x64.size (by sl_kernel_rfl) y

/-- What this case leaves in the carried scratch: its pieces read back over junk. -/
def sout11_A_0 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond11_0 i) (hcl : ¬cond11_1 i)
    (xd : Vec F S5000x64 .f32) (xb : Vec F S5000x1 .i32) (xn : Vec F S256x1 .f32) : Vec F S256x64 .f32 :=
  VS11_0.read (Elt F) (VS11_0.writes (Elt F) VS11_0.junk (kernelRun11_A c i arg1 harg1 arg2 harg2 arg3 harg3 arg4 harg4 arg5 harg5 hcz hcl xd xb xn).2.1)

/-- Nothing is stored into the output window here (it is idle and not written back): no pieces, a placeholder
    that nothing consults. -/
def out11_B_3 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : ¬cond11_1 i)
    (xd : Vec F S5000x64 .f32) (xb : Vec F S5000x1 .i32) (xn : Vec F S256x1 .f32) (xs : Vec F S256x64 .f32) : Vec F S256x64 .f32 :=
  VO11_3.read (Elt F) (VO11_3.writes (Elt F) VO11_3.junk (kernelRun11_B c i arg1 harg1 arg2 harg2 arg3 harg3 arg4 harg4 arg5 harg5 hcz hcl xd xb xn xs).1)

/-- The pieces stored into the carried scratch tile it, so they cover it. -/
theorem scover11_B_0 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : ¬cond11_1 i)
    (xd : Vec F S5000x64 .f32) (xb : Vec F S5000x1 .i32) (xn : Vec F S256x1 .f32) (xs : Vec F S256x64 .f32) (y : S256x64.Idx) :
    ∃ pc ∈ (kernelRun11_B c i arg1 harg1 arg2 harg2 arg3 harg3 arg4 harg4 arg5 harg5 hcz hcl xd xb xn xs).2.1, y ∈ pc.1.set :=
  View.cover_of_tiledL (kernelRun11_B c i arg1 harg1 arg2 harg2 arg3 harg3 arg4 harg4 arg5 harg5 hcz hcl xd xb xn xs).2.1 S256x64.size (by sl_kernel_rfl) y

/-- What this case leaves in the carried scratch: its pieces read back over junk. -/
def sout11_B_0 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : ¬cond11_1 i)
    (xd : Vec F S5000x64 .f32) (xb : Vec F S5000x1 .i32) (xn : Vec F S256x1 .f32) (xs : Vec F S256x64 .f32) : Vec F S256x64 .f32 :=
  VS11_0.read (Elt F) (VS11_0.writes (Elt F) VS11_0.junk (kernelRun11_B c i arg1 harg1 arg2 harg2 arg3 harg3 arg4 harg4 arg5 harg5 hcz hcl xd xb xn xs).2.1)

/-- The pieces stored into the output window tile its block, so they cover it. -/
theorem cover11_C_3 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : cond11_1 i)
    (xd : Vec F S5000x64 .f32) (xb : Vec F S5000x1 .i32) (xn : Vec F S256x1 .f32) (xs : Vec F S256x64 .f32) (y : S256x64.Idx) :
    ∃ pc ∈ (kernelRun11_C c i arg1 harg1 arg2 harg2 arg3 harg3 arg4 harg4 arg5 harg5 hcz hcl xd xb xn xs).1, y ∈ pc.1.set :=
  View.cover_of_tiledL (kernelRun11_C c i arg1 harg1 arg2 harg2 arg3 harg3 arg4 harg4 arg5 harg5 hcz hcl xd xb xn xs).1 S256x64.size (by sl_kernel_rfl) y

/-- What this case leaves in the output's staging buffer: its pieces read back over junk. -/
def out11_C_3 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : cond11_1 i)
    (xd : Vec F S5000x64 .f32) (xb : Vec F S5000x1 .i32) (xn : Vec F S256x1 .f32) (xs : Vec F S256x64 .f32) : Vec F S256x64 .f32 :=
  VO11_3.read (Elt F) (VO11_3.writes (Elt F) VO11_3.junk (kernelRun11_C c i arg1 harg1 arg2 harg2 arg3 harg3 arg4 harg4 arg5 harg5 hcz hcl xd xb xn xs).1)

/-- The pieces stored into the carried scratch tile it, so they cover it. -/
theorem scover11_C_0 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : cond11_1 i)
    (xd : Vec F S5000x64 .f32) (xb : Vec F S5000x1 .i32) (xn : Vec F S256x1 .f32) (xs : Vec F S256x64 .f32) (y : S256x64.Idx) :
    ∃ pc ∈ (kernelRun11_C c i arg1 harg1 arg2 harg2 arg3 harg3 arg4 harg4 arg5 harg5 hcz hcl xd xb xn xs).2.1, y ∈ pc.1.set :=
  View.cover_of_tiledL (kernelRun11_C c i arg1 harg1 arg2 harg2 arg3 harg3 arg4 harg4 arg5 harg5 hcz hcl xd xb xn xs).2.1 S256x64.size (by sl_kernel_rfl) y

/-- What this case leaves in the carried scratch: its pieces read back over junk. -/
def sout11_C_0 (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : cond11_1 i)
    (xd : Vec F S5000x64 .f32) (xb : Vec F S5000x1 .i32) (xn : Vec F S256x1 .f32) (xs : Vec F S256x64 .f32) : Vec F S256x64 .f32 :=
  VS11_0.read (Elt F) (VS11_0.writes (Elt F) VS11_0.junk (kernelRun11_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt11 (c : Dev nD) : (n : ℕ) → n < cfg11.N → Vec F S256x64 .f32 × Vec F S256x64 .f32
  | 0, hn => (out11_A_3 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) scM11_0 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩), sout11_A_0 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) scM11_0 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩))
  | n + 1, hn =>
    if hz : (n + 1) % 20 = 0 then
      if hl : (n + 1) % 20 = 19 then
        False.elim (by have hN : n + 1 < 20 := lt_of_lt_of_eq hn (show cfg11.N = 20 from N_11); omega)
      else
        (out11_A_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) ((hcond11_0 ⟨n + 1, hn⟩).mpr hz) (fun h => hl ((hcond11_1 ⟨n + 1, hn⟩).mp h)) (iblk11 V c 0 ⟨n + 1, hn⟩) (iblk11 V c 1 ⟨n + 1, hn⟩) (iblk11 V c 2 ⟨n + 1, hn⟩), sout11_A_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) ((hcond11_0 ⟨n + 1, hn⟩).mpr hz) (fun h => hl ((hcond11_1 ⟨n + 1, hn⟩).mp h)) (iblk11 V c 0 ⟨n + 1, hn⟩) (iblk11 V c 1 ⟨n + 1, hn⟩) (iblk11 V c 2 ⟨n + 1, hn⟩))
    else
      if hl : (n + 1) % 20 = 19 then
        (out11_C_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => hz ((hcond11_0 ⟨n + 1, hn⟩).mp h)) ((hcond11_1 ⟨n + 1, hn⟩).mpr hl) (iblk11 V c 0 ⟨n + 1, hn⟩) (iblk11 V c 1 ⟨n + 1, hn⟩) (iblk11 V c 2 ⟨n + 1, hn⟩) (outsAt11 c n (Nat.lt_of_succ_lt hn)).2, sout11_C_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => hz ((hcond11_0 ⟨n + 1, hn⟩).mp h)) ((hcond11_1 ⟨n + 1, hn⟩).mpr hl) (iblk11 V c 0 ⟨n + 1, hn⟩) (iblk11 V c 1 ⟨n + 1, hn⟩) (iblk11 V c 2 ⟨n + 1, hn⟩) (outsAt11 c n (Nat.lt_of_succ_lt hn)).2)
      else
        (out11_B_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => hz ((hcond11_0 ⟨n + 1, hn⟩).mp h)) (fun h => hl ((hcond11_1 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2, sout11_B_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => hz ((hcond11_0 ⟨n + 1, hn⟩).mp h)) (fun h => hl ((hcond11_1 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2)

/-- `outsAt11` at the first point. -/
theorem outsAt11_A (c : Dev nD) (t : Fin cfg11.N) (hz : t.val % 20 = 0) (hl : ¬t.val % 20 = 19) :
    outsAt11 V c t.val t.isLt = (out11_A_3 c (grid11.coords t) (ms11_0 t) (hs11_0 t) (ms11_1 t) (hs11_1 t) (ms11_2 t) (hs11_2 t) (ms11_3 t) (hs11_3 t) scM11_0 (Memref.isWhole_whole _) ((hcond11_0 t).mpr hz) (fun h => hl ((hcond11_1 t).mp h)) (iblk11 V c 0 t) (iblk11 V c 1 t) (iblk11 V c 2 t), sout11_A_0 c (grid11.coords t) (ms11_0 t) (hs11_0 t) (ms11_1 t) (hs11_1 t) (ms11_2 t) (hs11_2 t) (ms11_3 t) (hs11_3 t) scM11_0 (Memref.isWhole_whole _) ((hcond11_0 t).mpr hz) (fun h => hl ((hcond11_1 t).mp h)) (iblk11 V c 0 t) (iblk11 V c 1 t) (iblk11 V c 2 t)) := by
  obtain ⟨n, hn⟩ := t
  cases n with
  | zero => exact rfl
  | succ n => exact (dif_pos hz).trans ((dif_neg hl).trans rfl)

/-- `outsAt11` at a middle point: over what the point before left in the scratch. -/
theorem outsAt11_B (c : Dev nD) (t : Fin cfg11.N) (hz : ¬t.val % 20 = 0) (hl : ¬t.val % 20 = 19) :
    outsAt11 V c t.val t.isLt = (out11_B_3 c (grid11.coords t) (ms11_0 t) (hs11_0 t) (ms11_1 t) (hs11_1 t) (ms11_2 t) (hs11_2 t) (ms11_3 t) (hs11_3 t) scM11_0 (Memref.isWhole_whole _) (fun h => hz ((hcond11_0 t).mp h)) (fun h => hl ((hcond11_1 t).mp h)) (iblk11 V c 0 t) (iblk11 V c 1 t) (iblk11 V c 2 t) (outsAt11 V c (t.val - 1) (Nat.lt_of_le_of_lt (Nat.sub_le _ _) t.isLt)).2, sout11_B_0 c (grid11.coords t) (ms11_0 t) (hs11_0 t) (ms11_1 t) (hs11_1 t) (ms11_2 t) (hs11_2 t) (ms11_3 t) (hs11_3 t) scM11_0 (Memref.isWhole_whole _) (fun h => hz ((hcond11_0 t).mp h)) (fun h => hl ((hcond11_1 t).mp h)) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt11` at the last point: over what the point before left in the scratch. -/
theorem outsAt11_C (c : Dev nD) (t : Fin cfg11.N) (hz : ¬t.val % 20 = 0) (hl : t.val % 20 = 19) :
    outsAt11 V c t.val t.isLt = (out11_C_3 c (grid11.coords t) (ms11_0 t) (hs11_0 t) (ms11_1 t) (hs11_1 t) (ms11_2 t) (hs11_2 t) (ms11_3 t) (hs11_3 t) scM11_0 (Memref.isWhole_whole _) (fun h => hz ((hcond11_0 t).mp h)) ((hcond11_1 t).mpr hl) (iblk11 V c 0 t) (iblk11 V c 1 t) (iblk11 V c 2 t) (outsAt11 V c (t.val - 1) (Nat.lt_of_le_of_lt (Nat.sub_le _ _) t.isLt)).2, sout11_C_0 c (grid11.coords t) (ms11_0 t) (hs11_0 t) (ms11_1 t) (hs11_1 t) (ms11_2 t) (hs11_2 t) (ms11_3 t) (hs11_3 t) scM11_0 (Memref.isWhole_whole _) (fun h => hz ((hcond11_0 t).mp h)) ((hcond11_1 t).mpr hl) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut11 (c : Dev nD) : sProp 𝕄 :=
  Pipeline.scopedRestBut (Ix := Unit) (Name := ℕ) (U := UR sig nD τ) (Lvl := ℕ) (Val := Elt F) spec11 c [cc11_scratch0]

/-- The region invariant before position `n`: before the first point the class's (every scratch at anything);
    afterwards the carried scratch at what the point before left in it, the other scoped buffers unopened, and the
    random-number register at some state. -/
def PhiS11 (c : Dev nD) : (n : ℕ) → n ≤ cfg11.N → sProp 𝕄
  | 0, _ => Pipeline.ΦA spec11 c
  | n + 1, hn => iprop(iprop(owns (c : Thread nD τ) scM11_0 fullShare ((outsAt11 V c n hn).2) ∗ restBut11 (F := F) c) ∗ (∃ r, prngReg c r))

theorem PhiS11_zero (c : Dev nD) (n : ℕ) (h : n ≤ cfg11.N) (hfirst : n = 0) : PhiS11 V c n h = Pipeline.ΦA spec11 c := by
  subst hfirst; rfl

/-- After point `n` (before point `n + 1`): the carried scratch at that point's contents. -/
theorem PhiS11_succ (c : Dev nD) (n : ℕ) (hn : n < cfg11.N) :
    PhiS11 V c (n + 1) hn = iprop(iprop(owns (c : Thread nD τ) scM11_0 fullShare ((outsAt11 V c n hn).2) ∗ restBut11 (F := F) c) ∗ (∃ r, prngReg c r)) := rfl

/-- Before a point that is not the first: the carried scratch at what the point before left. -/
theorem PhiS11_pos (c : Dev nD) (n : ℕ) (h : n ≤ cfg11.N) (hfirst : n ≠ 0) :
    PhiS11 V c n h = iprop(iprop(owns (c : Thread nD τ) scM11_0 fullShare ((outsAt11 V c (n - 1) (by omega)).2) ∗ restBut11 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt11`'s first component; the invariant `PhiS11`; nothing owed;
    full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t.val t.isLt).1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

/-- The invariant at a point's start, restated at `t.val`. -/
theorem PhiS11_castSucc (c : Dev nD) (t : Fin cfg11.N) :
    (dat11 V c).Φ t.castSucc = PhiS11 V c t.val (Nat.le_of_lt t.isLt) := by
  dsimp only [dat11]; simp only [Fin.coe_castSucc]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = (outsAt11 V c t.val t.isLt).1 := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).owesAt () t.succ = (dat11 V c).owesAt () t.castSucc from rfl]
  rw [show (dat11 V c).Φ t.succ = PhiS11 V c (t.val + 1) t.isLt from rfl, PhiS11_succ]
  have hN : t.val < 20 := lt_of_lt_of_eq t.isLt (show cfg11.N = 20 from N_11)
  by_cases hz : t.val % 20 = 0
  · by_cases hl : t.val % 20 = 19
    · exfalso; omega
    · rw [show (dat11 V c).leavesExact 0 t = owns (c : Thread nD τ) (ms11_0 t) fullShare ((dat11 V c).after 0 t) from by
        unfold Dat.leavesExact; rw [liveAt11_0 t], after11_0]
      rw [show (dat11 V c).leavesExact 1 t = owns (c : Thread nD τ) (ms11_1 t) fullShare ((dat11 V c).after 1 t) from by
        unfold Dat.leavesExact; rw [liveAt11_1 t], after11_1]
      rw [show (dat11 V c).leavesExact 2 t = owns (c : Thread nD τ) (ms11_2 t) fullShare ((dat11 V c).after 2 t) from by
        unfold Dat.leavesExact; rw [liveAt11_2 t], after11_2]
      rw [Dat.leavesExact_idle (dat11 V c) 3 t (idleAt11_3_A t ((hcond11_0 t).mpr hz) (fun h => hl ((hcond11_1 t).mp h))) (noFlush11_3_A t ((hcond11_0 t).mpr hz) (fun h => hl ((hcond11_1 t).mp h)))]
      rw [outsAt11_A V c t hz hl]
      unfold sout11_A_0; (try dsimp only)
      by_cases hfirst : t.val = 0
      · rw [PhiS11_castSucc V c t, PhiS11_zero V c _ _ hfirst, PhiA11_eq]
        iintro ⟨⟨⟨HS, Hr⟩, Hg⟩, Ho, ⟨%dd, Hd⟩, ⟨%db, Hb⟩, ⟨%dn, Hn⟩, ⟨%dq, Hq⟩⟩
        iapply ((kernelRun11_A c (grid11.coords t) _ _ _ _ _ _ _ _ _ _ ((hcond11_0 t).mpr hz) (fun h => hl ((hcond11_1 t).mp h)) (iblk11 V c 0 t) (iblk11 V c 1 t) (iblk11 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover11_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS11_castSucc V c t, PhiS11_pos V c _ _ hfirst]
        iintro ⟨⟨⟨HS, Hr⟩, Hg⟩, Ho, ⟨%dd, Hd⟩, ⟨%db, Hb⟩, ⟨%dn, Hn⟩, ⟨%dq, Hq⟩⟩
        iapply ((kernelRun11_A c (grid11.coords t) _ _ _ _ _ _ _ _ _ _ ((hcond11_0 t).mpr hz) (fun h => hl ((hcond11_1 t).mp h)) (iblk11 V c 0 t) (iblk11 V c 1 t) (iblk11 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover11_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat11 V c).leavesExact 0 t = owns (c : Thread nD τ) (ms11_0 t) fullShare ((dat11 V c).after 0 t) from by
        unfold Dat.leavesExact; rw [liveAt11_0 t], after11_0]
      rw [show (dat11 V c).leavesExact 1 t = owns (c : Thread nD τ) (ms11_1 t) fullShare ((dat11 V c).after 1 t) from by
        unfold Dat.leavesExact; rw [liveAt11_1 t], after11_1]
      rw [show (dat11 V c).leavesExact 2 t = owns (c : Thread nD τ) (ms11_2 t) fullShare ((dat11 V c).after 2 t) from by
        unfold Dat.leavesExact; rw [liveAt11_2 t], after11_2]
      rw [show (dat11 V c).leavesExact 3 t = owns (c : Thread nD τ) (ms11_3 t) fullShare ((dat11 V c).after 3 t) from by
        unfold Dat.leavesExact; rw [liveAt11_3_C t (fun h => hz ((hcond11_0 t).mp h)) ((hcond11_1 t).mpr hl)], after11_3]
      rw [outsAt11_C V c t hz hl]
      unfold out11_C_3 sout11_C_0; (try dsimp only)
      by_cases hfirst : t.val = 0
      · exfalso; omega
      · rw [PhiS11_castSucc V c t, PhiS11_pos V c _ _ hfirst]
        iintro ⟨⟨⟨HS, Hr⟩, Hg⟩, Ho, ⟨%dd, Hd⟩, ⟨%db, Hb⟩, ⟨%dn, Hn⟩, ⟨%dq, Hq⟩⟩
        iapply ((kernelRun11_C c (grid11.coords t) _ _ _ _ _ _ _ _ _ _ (fun h => hz ((hcond11_0 t).mp h)) ((hcond11_1 t).mpr hl) (iblk11 V c 0 t) (iblk11 V c 1 t) (iblk11 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover11_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover11_C_3 c _ _ _ _ _ _ _ _ _ _ _ _ _ _ _ _ _)
    · rw [show (dat11 V c).leavesExact 0 t = owns (c : Thread nD τ) (ms11_0 t) fullShare ((dat11 V c).after 0 t) from by
        unfold Dat.leavesExact; rw [liveAt11_0 t], after11_0]
      rw [show (dat11 V c).leavesExact 1 t = owns (c : Thread nD τ) (ms11_1 t) fullShare ((dat11 V c).after 1 t) from by
        unfold Dat.leavesExact; rw [liveAt11_1 t], after11_1]
      rw [show (dat11 V c).leavesExact 2 t = owns (c : Thread nD τ) (ms11_2 t) fullShare ((dat11 V c).after 2 t) from by
        unfold Dat.leavesExact; rw [liveAt11_2 t], after11_2]
      rw [Dat.leavesExact_idle (dat11 V c) 3 t (idleAt11_3_B t (fun h => hz ((hcond11_0 t).mp h)) (fun h => hl ((hcond11_1 t).mp h))) (noFlush11_3_B t (fun h => hz ((hcond11_0 t).mp h)) (fun h => hl ((hcond11_1 t).mp h)))]
      rw [outsAt11_B V c t hz hl]
      unfold sout11_B_0; (try dsimp only)
      by_cases hfirst : t.val = 0
      · exfalso; omega
      · rw [PhiS11_castSucc V c t, PhiS11_pos V c _ _ hfirst]
        iintro ⟨⟨⟨HS, Hr⟩, Hg⟩, Ho, ⟨%dd, Hd⟩, ⟨%db, Hb⟩, ⟨%dn, Hn⟩, ⟨%dq, Hq⟩⟩
        iapply ((kernelRun11_B c (grid11.coords t) _ _ _ _ _ _ _ _ _ _ (fun h => hz ((hcond11_0 t).mp h)) (fun h => hl ((hcond11_1 t).mp h)) (iblk11 V c 0 t) (iblk11 V c 1 t) (iblk11 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover11_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After any point but the first the invariant gives the class's back: the carried scratch's named contents are forgotten. -/
theorem Phi_out11 (c : Dev nD) (t : Fin (cfg11.N + 1)) (ht : t.val ≠ 0) : (dat11 V c).Φ t ⊢ Pipeline.ΦA spec11 c := by
  rw [show (dat11 V c).Φ t = PhiS11 V c t.val (Nat.le_of_lt_succ t.isLt) from rfl, PhiS11_pos V c _ _ ht, PhiA11_eq]
  iintro ⟨⟨HS, Hr⟩, Hg⟩
  isplitl [HS Hr]
  · isplitl [HS]
    · iexists _; iexact HS
    iexact Hr
  iexact Hg

/-- The same after the last point. -/
theorem hout11 (c : Dev nD) : (dat11 V c).Φ (Fin.last cfg11.N) ⊢ Pipeline.ΦA spec11 c :=
  Phi_out11 V c _ (by rw [Fin.val_last]; have : cfg11.N = 20 := N_11; omega)

end

end Cert.KernelIdeal.Hand

end
-- ==== Proof.KernelIdeal.Reg12.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # The centring kernel's region, at the region-entry contents `V`

Three input windows (the aggregate's block, the gathered mean's block, the scale row) and two output windows
(the centred block, its elementwise square). -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is `V`'s (`hA`) and whose body leaves the block in place (`hafter`): unfetched, the block index
    has not moved; the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- The same for input window 1. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- The same for input window 2, whose block index is constant: it is fetched at the first point only, and every later
    point finds the same block. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

abbrev r12_0 : Rect S5000x64 := Rect.unit (s := S5000x64) ![0, 0] S5000x64.size inb_S5000x64_S5000x64_0_0
abbrev r12_1 : Rect S1x64 := Rect.unit (s := S1x64) ![0, 0] S1x64.size inb_S1x64_S1x64_0_0

/-! ## What the body leaves in each output window's buffer -/

/-- Window 3's staging buffer after the body, from the input windows' blocks: its one store as pieces, last first. -/
def out12_3 (x0 : Vec F S5000x64 .f32) (x1 : Vec F S5000x64 .f32) (x2 : Vec F S1x64 .f32) : Vec F S5000x64 .f32 :=
  View.canon [⟨r12_0, k12_pay1 (View.ld x0 r12_0) (View.ld x2 r12_1) (View.ld x1 r12_0)⟩]

/-- Window 4's staging buffer after the body, from the input windows' blocks: its one store as pieces, last first. -/
def out12_4 (x0 : Vec F S5000x64 .f32) (x1 : Vec F S5000x64 .f32) (x2 : Vec F S1x64 .f32) : Vec F S5000x64 .f32 :=
  View.canon [⟨r12_0, k12_pay2 (View.ld x0 r12_0) (View.ld x2 r12_1) (View.ld x1 r12_0)⟩]

/-- Window 3's store is the whole buffer, so it covers it. -/
theorem cover12_3 (p0 : Vec F S5000x64 .f32) (y : S5000x64.Idx) :
    ∃ pc ∈ ([⟨r12_0, p0⟩] : List (View.Piece (Elt F) S5000x64 .f32)), y ∈ pc.1.set :=
  View.cover_of_tiled [⟨r12_0, p0⟩] S5000x64.size (by rfl) y

/-- Window 4's store is the whole buffer, so it covers it. -/
theorem cover12_4 (p0 : Vec F S5000x64 .f32) (y : S5000x64.Idx) :
    ∃ pc ∈ ([⟨r12_0, p0⟩] : List (View.Piece (Elt F) S5000x64 .f32)), y ∈ pc.1.set :=
  View.cover_of_tiled [⟨r12_0, p0⟩] S5000x64.size (by rfl) y

/-! ## The body's triple -/

set_option maxHeartbeats 1000000 in
/-- The kernel body on whole staging memrefs, the inputs' at read contents and the outputs' at anything, runs to the
    continuation holding the inputs' as they were and each output's at its `out12_W` of the inputs'. -/
theorem sound_kernel12 (c : Dev nD) (E : Set ℕ) (i : grid12.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2) ∗ owns (c : Thread nD τ) arg5 fullShare (out12_4 x0 x1 x2)) -∗ K ⟨⟩))
      ⊢ wp frame (wpE (defs₀ (F := F)) Variants.none c none) E (cc12__center_kernel i arg1 harg1 arg2 harg2 arg3 harg3 arg4 harg4 arg5 harg5) K := by
  simp only [cc12__center_kernel_eq_skeleton]; unfold cc12__center_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover12_3 _)
  iexists _; isplitr
  swap; · iexact H4
  ipureintro
  exact View.read_writes_eq_canon _ _ _ (cover12_4 _)

/-! ## The pipeline's proof data -/

/-- The proof data of pipeline 2 on core `c`, at the region-entry contents `V`: the arrays as the region finds them;
    after the body at point `t` each input's buffer at its block and each output's at `out12_W` of the input blocks;
    the invariant is the scoped rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
    | ⟨4, _⟩ => out12_4 (iblk12 V c 0 t) (iblk12 V c 1 t) (iblk12 V c 2 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]
theorem after12_4 (c : Dev nD) (t : Fin cfg12.N) : (dat12 V c).after 4 t = out12_4 (iblk12 V c 0 t) (iblk12 V c 1 t) (iblk12 V c 2 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

/-- The body at any point: the inputs' memrefs hold their blocks (`before12_W`), so `sound_kernel12` applies; the
    invariant and the core's owed tokens pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ (grid12.coords t) _ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation12 (c : Dev nD) : BodyObligation (dat12 (F := F) V c) (defs₀ (F := F)) Variants.none () Set.univ := fun t => by
  rw [bigSep_W12, bigSep_W12]
  exact sound_body12 V c t

/-! ## Entering and leaving the region: the invariant is the class's at every point -/

theorem hin12 (c : Dev nD) : Pipeline.ΦA spec12 c ⊢ (dat12 V c).Φ 0 := by
  dsimp only [dat12]; exact .rfl

theorem hout12 (c : Dev nD) : (dat12 V c).Φ (Fin.last cfg12.N) ⊢ Pipeline.ΦA spec12 c := by
  dsimp only [dat12]; exact .rfl

end

end Cert.KernelIdeal.Hand

end
-- ==== Proof.KernelIdeal.Reg13Runs.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof
    data whose array is the entry contents (`hA`) and whose body leaves the block in place (`hafter`): unfetched,
    the block index has not moved. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for any proof
    data whose array is the entry contents (`hA`) and whose body leaves the block in place (`hafter`): unfetched,
    the block index has not moved. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for any proof
    data whose array is the entry contents (`hA`) and whose body leaves the block in place (`hafter`): unfetched,
    the block index has not moved. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

end

/-! ## The body's branch conditions -/

/-- The condition of the body's first conditional, from the grid coordinates: the point is the first of the grid. -/
abbrev cond13_0 (i : grid13.Coords) : Prop := (Scalar.cmpi .ne (Scalar.extui (Scalar.cmpi .eq (BitVec.ofNat 32 (i 0).val) 0#32)) 0#32) = 1#1
/-- It holds at the points ≡ 0 (mod 20): decided over the grid. -/
theorem hcond13_0 : ∀ t : Fin cfg13.N, cond13_0 (grid13.coords t) ↔ t.val % 20 = 0 :=
  (by decide +kernel : ∀ t : Fin grid13.N, cond13_0 (grid13.coords t) ↔ t.val % 20 = 0)

/-- The condition of the body's second conditional, from the grid coordinates: the point is the last of the grid. -/
abbrev cond13_1 (i : grid13.Coords) : Prop := k13_cond2 i = 1#1
/-- It holds at the points ≡ 19 (mod 20): decided over the grid. -/
theorem hcond13_1 : ∀ t : Fin cfg13.N, cond13_1 (grid13.coords t) ↔ t.val % 20 = 19 :=
  (by decide +kernel : ∀ t : Fin grid13.N, cond13_1 (grid13.coords t) ↔ t.val % 20 = 19)

/-! ## Where the windows are idle -/

/-- The inputs are never idle. -/
theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel
/-- At the first point the output is idle (nothing is stored into it) and is not written back. -/
theorem idleAt13_3_A : ∀ t : Fin cfg13.N, cond13_0 (grid13.coords t) → ¬cond13_1 (grid13.coords t) → cfg13.idle 3 (grid13.coords t) = true := by decide +kernel
theorem noFlush13_3_A : ∀ t : Fin cfg13.N, cond13_0 (grid13.coords t) → ¬cond13_1 (grid13.coords t) → (cfg13.win 3).flush t = false := by decide +kernel
/-- At the middle points likewise. -/
theorem idleAt13_3_B : ∀ t : Fin cfg13.N, ¬cond13_0 (grid13.coords t) → ¬cond13_1 (grid13.coords t) → cfg13.idle 3 (grid13.coords t) = true := by decide +kernel
theorem noFlush13_3_B : ∀ t : Fin cfg13.N, ¬cond13_0 (grid13.coords t) → ¬cond13_1 (grid13.coords t) → (cfg13.win 3).flush t = false := by decide +kernel
/-- At the last point the output is live: the body stores into it. -/
theorem liveAt13_3_C : ∀ t : Fin cfg13.N, ¬cond13_0 (grid13.coords t) → cond13_1 (grid13.coords t) → cfg13.idle 3 (grid13.coords t) = false := by decide +kernel

/-! ## The staging memrefs and the scratch -/

/-- One staging buffer of the output window, through which its contents are stated. -/
abbrev VO13_3 : View sig .tc .vmem S256x64 .f32 := (Memref.whole cc13_stg3_0 : Memref sig .tc .vmem S256x64 .f32).view
/-- Each window's current staging memref at point `t`, as the pipeline passes it, and its wholeness. -/
abbrev ms13_0 (t : Fin cfg13.N) : Memref sig .tc .vmem S5000x64 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S5000x1 .i32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S256x1 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S256x64 .f32 := win13_3.stage (cfg13.slots t 3)
abbrev hs13_3 (t : Fin cfg13.N) : (ms13_3 t).IsWhole := hstage13_3 ((cfg13.slots t 3).cast nbuf13_3)
/-- The scratch operand: a whole scoped buffer of the kernel's own, passed beside the windows. -/
abbrev scM13_0 : Memref sig .tc .vmem S256x64 .f32 := Memref.whole cc13_scratch0
/-- The scratch the kernel carries between points, as a view. -/
abbrev VS13_0 : View sig .tc .vmem S256x64 .f32 := scM13_0.view

/-- The region invariant with the scratch operand as a memref owned at some contents, the other scoped buffers
    unopened beside it, and the generator register at some state. -/
theorem PhiA13_eq (c : Dev nD) :
    (Pipeline.ΦA spec13 c : sProp 𝕄)
      = iprop(iprop(iprop((∃ d, owns (c : Thread nD τ) scM13_0 fullShare d))
          ∗ Pipeline.scopedRestBut (Ix := Unit) (Name := ℕ) (U := UR sig nD τ) (Lvl := ℕ) (Val := Elt F) spec13 c [cc13_scratch0]) ∗ (∃ r, prngReg c r)) := by
  unfold Pipeline.ΦA; rw [scopedRest13_split]; simp only [scM13_0, owns_whole]; try rfl

end Cert.KernelIdeal.Hand

end
-- ==== Proof.KernelIdeal.Reg13RunA.lean ====
import proofs.«422469_j24000277250640_1_alg».proof.Proof.KernelIdeal.Reg13Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun13_A (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond13_0 i) (hcl : ¬cond13_1 i)
    (xd : Vec F S5000x64 .f32) (xb : Vec F S5000x1 .i32) (xn : Vec F S256x1 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc13__reduce_div_kernel i arg1 harg1 arg2 harg2 arg3 harg3 arg4 harg4 arg5 harg5) K } := by
  refine ⟨[], ?_, fun xi E K => ?run⟩
  case run =>
    simp only [cc13__reduce_div_kernel_eq_skeleton]; unfold cc13__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg13RunB.lean ====
import proofs.«422469_j24000277250640_1_alg».proof.Proof.KernelIdeal.Reg13RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun13_B (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : ¬cond13_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (xi : Vec F S256x64 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc13__reduce_div_kernel i arg1 harg1 arg2 harg2 arg3 harg3 arg4 harg4 arg5 harg5) K } := by
  refine ⟨[], ?_, fun xi E K => ?run⟩
  case run =>
    simp only [cc13__reduce_div_kernel_eq_skeleton]; unfold cc13__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg13RunC.lean ====
import proofs.«422469_j24000277250640_1_alg».proof.Proof.KernelIdeal.Reg13RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun13_C (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : cond13_1 i)
    (xd : Vec F S5000x64 .f32) (xb : Vec F S5000x1 .i32) (xn : Vec F S256x1 .f32) (xs : Vec F S256x64 .f32) :
    Σ' (LO : List (View.Piece (Elt F) S256x64 .f32)), { LS : List (View.Piece (Elt F) S256x64 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc13__reduce_div_kernel i arg1 harg1 arg2 harg2 arg3 harg3 arg4 harg4 arg5 harg5) K } := by
  refine ⟨?_, ?_, fun E K => ?run⟩
  case run =>
    simp only [cc13__reduce_div_kernel_eq_skeleton]; unfold cc13__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.KernelIdeal.Hand

end
-- ==== Proof.KernelIdeal.Reg13.lean ====
import proofs.«422469_j24000277250640_1_alg».proof.Proof.KernelIdeal.Reg13RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out13_A_3 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond13_0 i) (hcl : ¬cond13_1 i)
    (xd : Vec F S5000x64 .f32) (xb : Vec F S5000x1 .i32) (xn : Vec F S256x1 .f32) : Vec F S256x64 .f32 :=
  VO13_3.read (Elt F) (VO13_3.writes (Elt F) VO13_3.junk (kernelRun13_A c i arg1 harg1 arg2 harg2 arg3 harg3 arg4 harg4 arg5 harg5 hcz hcl xd xb xn).1)

/-- The pieces stored into the carried scratch tile it, so they cover it. -/
theorem scover13_A_0 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond13_0 i) (hcl : ¬cond13_1 i)
    (xd : Vec F S5000x64 .f32) (xb : Vec F S5000x1 .i32) (xn : Vec F S256x1 .f32) (y : S256x64.Idx) :
    ∃ pc ∈ (kernelRun13_A c i arg1 harg1 arg2 harg2 arg3 harg3 arg4 harg4 arg5 harg5 hcz hcl xd xb xn).2.1, y ∈ pc.1.set :=
  View.cover_of_tiledL (kernelRun13_A c i arg1 harg1 arg2 harg2 arg3 harg3 arg4 harg4 arg5 harg5 hcz hcl xd xb xn).2.1 S256x64.size (by sl_kernel_rfl) y

/-- What this case leaves in the carried scratch: its pieces read back over junk. -/
def sout13_A_0 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond13_0 i) (hcl : ¬cond13_1 i)
    (xd : Vec F S5000x64 .f32) (xb : Vec F S5000x1 .i32) (xn : Vec F S256x1 .f32) : Vec F S256x64 .f32 :=
  VS13_0.read (Elt F) (VS13_0.writes (Elt F) VS13_0.junk (kernelRun13_A c i arg1 harg1 arg2 harg2 arg3 harg3 arg4 harg4 arg5 harg5 hcz hcl xd xb xn).2.1)

/-- Nothing is stored into the output window here (it is idle and not written back): no pieces, a placeholder
    that nothing consults. -/
def out13_B_3 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : ¬cond13_1 i)
    (xd : Vec F S5000x64 .f32) (xb : Vec F S5000x1 .i32) (xn : Vec F S256x1 .f32) (xs : Vec F S256x64 .f32) : Vec F S256x64 .f32 :=
  VO13_3.read (Elt F) (VO13_3.writes (Elt F) VO13_3.junk (kernelRun13_B c i arg1 harg1 arg2 harg2 arg3 harg3 arg4 harg4 arg5 harg5 hcz hcl xd xb xn xs).1)

/-- The pieces stored into the carried scratch tile it, so they cover it. -/
theorem scover13_B_0 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : ¬cond13_1 i)
    (xd : Vec F S5000x64 .f32) (xb : Vec F S5000x1 .i32) (xn : Vec F S256x1 .f32) (xs : Vec F S256x64 .f32) (y : S256x64.Idx) :
    ∃ pc ∈ (kernelRun13_B c i arg1 harg1 arg2 harg2 arg3 harg3 arg4 harg4 arg5 harg5 hcz hcl xd xb xn xs).2.1, y ∈ pc.1.set :=
  View.cover_of_tiledL (kernelRun13_B c i arg1 harg1 arg2 harg2 arg3 harg3 arg4 harg4 arg5 harg5 hcz hcl xd xb xn xs).2.1 S256x64.size (by sl_kernel_rfl) y

/-- What this case leaves in the carried scratch: its pieces read back over junk. -/
def sout13_B_0 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : ¬cond13_1 i)
    (xd : Vec F S5000x64 .f32) (xb : Vec F S5000x1 .i32) (xn : Vec F S256x1 .f32) (xs : Vec F S256x64 .f32) : Vec F S256x64 .f32 :=
  VS13_0.read (Elt F) (VS13_0.writes (Elt F) VS13_0.junk (kernelRun13_B c i arg1 harg1 arg2 harg2 arg3 harg3 arg4 harg4 arg5 harg5 hcz hcl xd xb xn xs).2.1)

/-- The pieces stored into the output window tile its block, so they cover it. -/
theorem cover13_C_3 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : cond13_1 i)
    (xd : Vec F S5000x64 .f32) (xb : Vec F S5000x1 .i32) (xn : Vec F S256x1 .f32) (xs : Vec F S256x64 .f32) (y : S256x64.Idx) :
    ∃ pc ∈ (kernelRun13_C c i arg1 harg1 arg2 harg2 arg3 harg3 arg4 harg4 arg5 harg5 hcz hcl xd xb xn xs).1, y ∈ pc.1.set :=
  View.cover_of_tiledL (kernelRun13_C c i arg1 harg1 arg2 harg2 arg3 harg3 arg4 harg4 arg5 harg5 hcz hcl xd xb xn xs).1 S256x64.size (by sl_kernel_rfl) y

/-- What this case leaves in the output's staging buffer: its pieces read back over junk. -/
def out13_C_3 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : cond13_1 i)
    (xd : Vec F S5000x64 .f32) (xb : Vec F S5000x1 .i32) (xn : Vec F S256x1 .f32) (xs : Vec F S256x64 .f32) : Vec F S256x64 .f32 :=
  VO13_3.read (Elt F) (VO13_3.writes (Elt F) VO13_3.junk (kernelRun13_C c i arg1 harg1 arg2 harg2 arg3 harg3 arg4 harg4 arg5 harg5 hcz hcl xd xb xn xs).1)

/-- The pieces stored into the carried scratch tile it, so they cover it. -/
theorem scover13_C_0 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : cond13_1 i)
    (xd : Vec F S5000x64 .f32) (xb : Vec F S5000x1 .i32) (xn : Vec F S256x1 .f32) (xs : Vec F S256x64 .f32) (y : S256x64.Idx) :
    ∃ pc ∈ (kernelRun13_C c i arg1 harg1 arg2 harg2 arg3 harg3 arg4 harg4 arg5 harg5 hcz hcl xd xb xn xs).2.1, y ∈ pc.1.set :=
  View.cover_of_tiledL (kernelRun13_C c i arg1 harg1 arg2 harg2 arg3 harg3 arg4 harg4 arg5 harg5 hcz hcl xd xb xn xs).2.1 S256x64.size (by sl_kernel_rfl) y

/-- What this case leaves in the carried scratch: its pieces read back over junk. -/
def sout13_C_0 (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : cond13_1 i)
    (xd : Vec F S5000x64 .f32) (xb : Vec F S5000x1 .i32) (xn : Vec F S256x1 .f32) (xs : Vec F S256x64 .f32) : Vec F S256x64 .f32 :=
  VS13_0.read (Elt F) (VS13_0.writes (Elt F) VS13_0.junk (kernelRun13_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt13 (c : Dev nD) : (n : ℕ) → n < cfg13.N → Vec F S256x64 .f32 × Vec F S256x64 .f32
  | 0, hn => (out13_A_3 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) scM13_0 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩), sout13_A_0 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) scM13_0 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩))
  | n + 1, hn =>
    if hz : (n + 1) % 20 = 0 then
      if hl : (n + 1) % 20 = 19 then
        False.elim (by have hN : n + 1 < 20 := lt_of_lt_of_eq hn (show cfg13.N = 20 from N_13); omega)
      else
        (out13_A_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) ((hcond13_0 ⟨n + 1, hn⟩).mpr hz) (fun h => hl ((hcond13_1 ⟨n + 1, hn⟩).mp h)) (iblk13 V c 0 ⟨n + 1, hn⟩) (iblk13 V c 1 ⟨n + 1, hn⟩) (iblk13 V c 2 ⟨n + 1, hn⟩), sout13_A_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) ((hcond13_0 ⟨n + 1, hn⟩).mpr hz) (fun h => hl ((hcond13_1 ⟨n + 1, hn⟩).mp h)) (iblk13 V c 0 ⟨n + 1, hn⟩) (iblk13 V c 1 ⟨n + 1, hn⟩) (iblk13 V c 2 ⟨n + 1, hn⟩))
    else
      if hl : (n + 1) % 20 = 19 then
        (out13_C_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => hz ((hcond13_0 ⟨n + 1, hn⟩).mp h)) ((hcond13_1 ⟨n + 1, hn⟩).mpr hl) (iblk13 V c 0 ⟨n + 1, hn⟩) (iblk13 V c 1 ⟨n + 1, hn⟩) (iblk13 V c 2 ⟨n + 1, hn⟩) (outsAt13 c n (Nat.lt_of_succ_lt hn)).2, sout13_C_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => hz ((hcond13_0 ⟨n + 1, hn⟩).mp h)) ((hcond13_1 ⟨n + 1, hn⟩).mpr hl) (iblk13 V c 0 ⟨n + 1, hn⟩) (iblk13 V c 1 ⟨n + 1, hn⟩) (iblk13 V c 2 ⟨n + 1, hn⟩) (outsAt13 c n (Nat.lt_of_succ_lt hn)).2)
      else
        (out13_B_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => hz ((hcond13_0 ⟨n + 1, hn⟩).mp h)) (fun h => hl ((hcond13_1 ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2, sout13_B_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => hz ((hcond13_0 ⟨n + 1, hn⟩).mp h)) (fun h => hl ((hcond13_1 ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2)

/-- `outsAt13` at the first point. -/
theorem outsAt13_A (c : Dev nD) (t : Fin cfg13.N) (hz : t.val % 20 = 0) (hl : ¬t.val % 20 = 19) :
    outsAt13 V c t.val t.isLt = (out13_A_3 c (grid13.coords t) (ms13_0 t) (hs13_0 t) (ms13_1 t) (hs13_1 t) (ms13_2 t) (hs13_2 t) (ms13_3 t) (hs13_3 t) scM13_0 (Memref.isWhole_whole _) ((hcond13_0 t).mpr hz) (fun h => hl ((hcond13_1 t).mp h)) (iblk13 V c 0 t) (iblk13 V c 1 t) (iblk13 V c 2 t), sout13_A_0 c (grid13.coords t) (ms13_0 t) (hs13_0 t) (ms13_1 t) (hs13_1 t) (ms13_2 t) (hs13_2 t) (ms13_3 t) (hs13_3 t) scM13_0 (Memref.isWhole_whole _) ((hcond13_0 t).mpr hz) (fun h => hl ((hcond13_1 t).mp h)) (iblk13 V c 0 t) (iblk13 V c 1 t) (iblk13 V c 2 t)) := by
  obtain ⟨n, hn⟩ := t
  cases n with
  | zero => exact rfl
  | succ n => exact (dif_pos hz).trans ((dif_neg hl).trans rfl)

/-- `outsAt13` at a middle point: over what the point before left in the scratch. -/
theorem outsAt13_B (c : Dev nD) (t : Fin cfg13.N) (hz : ¬t.val % 20 = 0) (hl : ¬t.val % 20 = 19) :
    outsAt13 V c t.val t.isLt = (out13_B_3 c (grid13.coords t) (ms13_0 t) (hs13_0 t) (ms13_1 t) (hs13_1 t) (ms13_2 t) (hs13_2 t) (ms13_3 t) (hs13_3 t) scM13_0 (Memref.isWhole_whole _) (fun h => hz ((hcond13_0 t).mp h)) (fun h => hl ((hcond13_1 t).mp h)) (iblk13 V c 0 t) (iblk13 V c 1 t) (iblk13 V c 2 t) (outsAt13 V c (t.val - 1) (Nat.lt_of_le_of_lt (Nat.sub_le _ _) t.isLt)).2, sout13_B_0 c (grid13.coords t) (ms13_0 t) (hs13_0 t) (ms13_1 t) (hs13_1 t) (ms13_2 t) (hs13_2 t) (ms13_3 t) (hs13_3 t) scM13_0 (Memref.isWhole_whole _) (fun h => hz ((hcond13_0 t).mp h)) (fun h => hl ((hcond13_1 t).mp h)) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt13` at the last point: over what the point before left in the scratch. -/
theorem outsAt13_C (c : Dev nD) (t : Fin cfg13.N) (hz : ¬t.val % 20 = 0) (hl : t.val % 20 = 19) :
    outsAt13 V c t.val t.isLt = (out13_C_3 c (grid13.coords t) (ms13_0 t) (hs13_0 t) (ms13_1 t) (hs13_1 t) (ms13_2 t) (hs13_2 t) (ms13_3 t) (hs13_3 t) scM13_0 (Memref.isWhole_whole _) (fun h => hz ((hcond13_0 t).mp h)) ((hcond13_1 t).mpr hl) (iblk13 V c 0 t) (iblk13 V c 1 t) (iblk13 V c 2 t) (outsAt13 V c (t.val - 1) (Nat.lt_of_le_of_lt (Nat.sub_le _ _) t.isLt)).2, sout13_C_0 c (grid13.coords t) (ms13_0 t) (hs13_0 t) (ms13_1 t) (hs13_1 t) (ms13_2 t) (hs13_2 t) (ms13_3 t) (hs13_3 t) scM13_0 (Memref.isWhole_whole _) (fun h => hz ((hcond13_0 t).mp h)) ((hcond13_1 t).mpr hl) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut13 (c : Dev nD) : sProp 𝕄 :=
  Pipeline.scopedRestBut (Ix := Unit) (Name := ℕ) (U := UR sig nD τ) (Lvl := ℕ) (Val := Elt F) spec13 c [cc13_scratch0]

/-- The region invariant before position `n`: before the first point the class's (every scratch at anything);
    afterwards the carried scratch at what the point before left in it, the other scoped buffers unopened, and the
    random-number register at some state. -/
def PhiS13 (c : Dev nD) : (n : ℕ) → n ≤ cfg13.N → sProp 𝕄
  | 0, _ => Pipeline.ΦA spec13 c
  | n + 1, hn => iprop(iprop(owns (c : Thread nD τ) scM13_0 fullShare ((outsAt13 V c n hn).2) ∗ restBut13 (F := F) c) ∗ (∃ r, prngReg c r))

theorem PhiS13_zero (c : Dev nD) (n : ℕ) (h : n ≤ cfg13.N) (hfirst : n = 0) : PhiS13 V c n h = Pipeline.ΦA spec13 c := by
  subst hfirst; rfl

/-- After point `n` (before point `n + 1`): the carried scratch at that point's contents. -/
theorem PhiS13_succ (c : Dev nD) (n : ℕ) (hn : n < cfg13.N) :
    PhiS13 V c (n + 1) hn = iprop(iprop(owns (c : Thread nD τ) scM13_0 fullShare ((outsAt13 V c n hn).2) ∗ restBut13 (F := F) c) ∗ (∃ r, prngReg c r)) := rfl

/-- Before a point that is not the first: the carried scratch at what the point before left. -/
theorem PhiS13_pos (c : Dev nD) (n : ℕ) (h : n ≤ cfg13.N) (hfirst : n ≠ 0) :
    PhiS13 V c n h = iprop(iprop(owns (c : Thread nD τ) scM13_0 fullShare ((outsAt13 V c (n - 1) (by omega)).2) ∗ restBut13 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt13`'s first component; the invariant `PhiS13`; nothing owed;
    full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]

/-- The invariant at a point's start, restated at `t.val`. -/
theorem PhiS13_castSucc (c : Dev nD) (t : Fin cfg13.N) :
    (dat13 V c).Φ t.castSucc = PhiS13 V c t.val (Nat.le_of_lt t.isLt) := by
  dsimp only [dat13]; simp only [Fin.coe_castSucc]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).owesAt () t.succ = (dat13 V c).owesAt () t.castSucc from rfl]
  rw [show (dat13 V c).Φ t.succ = PhiS13 V c (t.val + 1) t.isLt from rfl, PhiS13_succ]
  have hN : t.val < 20 := lt_of_lt_of_eq t.isLt (show cfg13.N = 20 from N_13)
  by_cases hz : t.val % 20 = 0
  · by_cases hl : t.val % 20 = 19
    · exfalso; omega
    · rw [show (dat13 V c).leavesExact 0 t = owns (c : Thread nD τ) (ms13_0 t) fullShare ((dat13 V c).after 0 t) from by
        unfold Dat.leavesExact; rw [liveAt13_0 t], after13_0]
      rw [show (dat13 V c).leavesExact 1 t = owns (c : Thread nD τ) (ms13_1 t) fullShare ((dat13 V c).after 1 t) from by
        unfold Dat.leavesExact; rw [liveAt13_1 t], after13_1]
      rw [show (dat13 V c).leavesExact 2 t = owns (c : Thread nD τ) (ms13_2 t) fullShare ((dat13 V c).after 2 t) from by
        unfold Dat.leavesExact; rw [liveAt13_2 t], after13_2]
      rw [Dat.leavesExact_idle (dat13 V c) 3 t (idleAt13_3_A t ((hcond13_0 t).mpr hz) (fun h => hl ((hcond13_1 t).mp h))) (noFlush13_3_A t ((hcond13_0 t).mpr hz) (fun h => hl ((hcond13_1 t).mp h)))]
      rw [outsAt13_A V c t hz hl]
      unfold sout13_A_0; (try dsimp only)
      by_cases hfirst : t.val = 0
      · rw [PhiS13_castSucc V c t, PhiS13_zero V c _ _ hfirst, PhiA13_eq]
        iintro ⟨⟨⟨HS, Hr⟩, Hg⟩, Ho, ⟨%dd, Hd⟩, ⟨%db, Hb⟩, ⟨%dn, Hn⟩, ⟨%dq, Hq⟩⟩
        iapply ((kernelRun13_A c (grid13.coords t) _ _ _ _ _ _ _ _ _ _ ((hcond13_0 t).mpr hz) (fun h => hl ((hcond13_1 t).mp h)) (iblk13 V c 0 t) (iblk13 V c 1 t) (iblk13 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover13_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS13_castSucc V c t, PhiS13_pos V c _ _ hfirst]
        iintro ⟨⟨⟨HS, Hr⟩, Hg⟩, Ho, ⟨%dd, Hd⟩, ⟨%db, Hb⟩, ⟨%dn, Hn⟩, ⟨%dq, Hq⟩⟩
        iapply ((kernelRun13_A c (grid13.coords t) _ _ _ _ _ _ _ _ _ _ ((hcond13_0 t).mpr hz) (fun h => hl ((hcond13_1 t).mp h)) (iblk13 V c 0 t) (iblk13 V c 1 t) (iblk13 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover13_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat13 V c).leavesExact 0 t = owns (c : Thread nD τ) (ms13_0 t) fullShare ((dat13 V c).after 0 t) from by
        unfold Dat.leavesExact; rw [liveAt13_0 t], after13_0]
      rw [show (dat13 V c).leavesExact 1 t = owns (c : Thread nD τ) (ms13_1 t) fullShare ((dat13 V c).after 1 t) from by
        unfold Dat.leavesExact; rw [liveAt13_1 t], after13_1]
      rw [show (dat13 V c).leavesExact 2 t = owns (c : Thread nD τ) (ms13_2 t) fullShare ((dat13 V c).after 2 t) from by
        unfold Dat.leavesExact; rw [liveAt13_2 t], after13_2]
      rw [show (dat13 V c).leavesExact 3 t = owns (c : Thread nD τ) (ms13_3 t) fullShare ((dat13 V c).after 3 t) from by
        unfold Dat.leavesExact; rw [liveAt13_3_C t (fun h => hz ((hcond13_0 t).mp h)) ((hcond13_1 t).mpr hl)], after13_3]
      rw [outsAt13_C V c t hz hl]
      unfold out13_C_3 sout13_C_0; (try dsimp only)
      by_cases hfirst : t.val = 0
      · exfalso; omega
      · rw [PhiS13_castSucc V c t, PhiS13_pos V c _ _ hfirst]
        iintro ⟨⟨⟨HS, Hr⟩, Hg⟩, Ho, ⟨%dd, Hd⟩, ⟨%db, Hb⟩, ⟨%dn, Hn⟩, ⟨%dq, Hq⟩⟩
        iapply ((kernelRun13_C c (grid13.coords t) _ _ _ _ _ _ _ _ _ _ (fun h => hz ((hcond13_0 t).mp h)) ((hcond13_1 t).mpr hl) (iblk13 V c 0 t) (iblk13 V c 1 t) (iblk13 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover13_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover13_C_3 c _ _ _ _ _ _ _ _ _ _ _ _ _ _ _ _ _)
    · rw [show (dat13 V c).leavesExact 0 t = owns (c : Thread nD τ) (ms13_0 t) fullShare ((dat13 V c).after 0 t) from by
        unfold Dat.leavesExact; rw [liveAt13_0 t], after13_0]
      rw [show (dat13 V c).leavesExact 1 t = owns (c : Thread nD τ) (ms13_1 t) fullShare ((dat13 V c).after 1 t) from by
        unfold Dat.leavesExact; rw [liveAt13_1 t], after13_1]
      rw [show (dat13 V c).leavesExact 2 t = owns (c : Thread nD τ) (ms13_2 t) fullShare ((dat13 V c).after 2 t) from by
        unfold Dat.leavesExact; rw [liveAt13_2 t], after13_2]
      rw [Dat.leavesExact_idle (dat13 V c) 3 t (idleAt13_3_B t (fun h => hz ((hcond13_0 t).mp h)) (fun h => hl ((hcond13_1 t).mp h))) (noFlush13_3_B t (fun h => hz ((hcond13_0 t).mp h)) (fun h => hl ((hcond13_1 t).mp h)))]
      rw [outsAt13_B V c t hz hl]
      unfold sout13_B_0; (try dsimp only)
      by_cases hfirst : t.val = 0
      · exfalso; omega
      · rw [PhiS13_castSucc V c t, PhiS13_pos V c _ _ hfirst]
        iintro ⟨⟨⟨HS, Hr⟩, Hg⟩, Ho, ⟨%dd, Hd⟩, ⟨%db, Hb⟩, ⟨%dn, Hn⟩, ⟨%dq, Hq⟩⟩
        iapply ((kernelRun13_B c (grid13.coords t) _ _ _ _ _ _ _ _ _ _ (fun h => hz ((hcond13_0 t).mp h)) (fun h => hl ((hcond13_1 t).mp h)) (iblk13 V c 0 t) (iblk13 V c 1 t) (iblk13 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover13_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After any point but the first the invariant gives the class's back: the carried scratch's named contents are forgotten. -/
theorem Phi_out13 (c : Dev nD) (t : Fin (cfg13.N + 1)) (ht : t.val ≠ 0) : (dat13 V c).Φ t ⊢ Pipeline.ΦA spec13 c := by
  rw [show (dat13 V c).Φ t = PhiS13 V c t.val (Nat.le_of_lt_succ t.isLt) from rfl, PhiS13_pos V c _ _ ht, PhiA13_eq]
  iintro ⟨⟨HS, Hr⟩, Hg⟩
  isplitl [HS Hr]
  · isplitl [HS]
    · iexists _; iexact HS
    iexact Hr
  iexact Hg

/-- The same after the last point. -/
theorem hout13 (c : Dev nD) : (dat13 V c).Φ (Fin.last cfg13.N) ⊢ Pipeline.ΦA spec13 c :=
  Phi_out13 V c _ (by rw [Fin.val_last]; have : cfg13.N = 20 := N_13; omega)

end

end Cert.KernelIdeal.Hand

end
-- ==== Proof.KernelIdeal.Reg14.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # The scale, shift and rectify kernel's region, at the region-entry contents `V`

Four input windows (the centred block, the gathered variance's block, the scale row, the shift row) and one output
window (the normalised, rectified block). -/

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s (`hA`) and whose body leaves the block in place (`hafter`): unfetched, the block index
    has not moved; the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- The same for input window 1. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- The same for input window 2, whose block index is constant: it is fetched at the first point only, and every later
    point finds the same block. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
/-- The same for input window 3, of constant block index too. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

abbrev r14_0 : Rect S5000x64 := Rect.unit (s := S5000x64) ![0, 0] S5000x64.size inb_S5000x64_S5000x64_0_0
abbrev r14_1 : Rect S1x64 := Rect.unit (s := S1x64) ![0, 0] S1x64.size inb_S1x64_S1x64_0_0

/-! ## What the body leaves in the output window's buffer -/

/-- Window 4's staging buffer after the body, from the input windows' blocks: its one store as pieces, last first. -/
def out14_4 (x0 : Vec F S5000x64 .f32) (x1 : Vec F S5000x64 .f32) (x2 : Vec F S1x64 .f32) (x3 : Vec F S1x64 .f32) : Vec F S5000x64 .f32 :=
  View.canon [⟨r14_0, k14_pay1 (View.ld x1 r14_0) (View.ld x2 r14_1) (View.ld x0 r14_0) (View.ld x3 r14_1)⟩]

/-- Window 4's store is the whole buffer, so it covers it. -/
theorem cover14_4 (p0 : Vec F S5000x64 .f32) (y : S5000x64.Idx) :
    ∃ pc ∈ ([⟨r14_0, p0⟩] : List (View.Piece (Elt F) S5000x64 .f32)), y ∈ pc.1.set :=
  View.cover_of_tiled [⟨r14_0, p0⟩] S5000x64.size (by rfl) y

/-! ## The body's triple -/

set_option maxHeartbeats 1000000 in
/-- The kernel body on whole staging memrefs, the inputs' at read contents and the output's at anything, runs to the
    continuation holding the inputs' as they were and the output's at `out14_4` of the inputs'. -/
theorem sound_kernel14 (c : Dev nD) (E : Set ℕ) (i : grid14.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out14_4 x0 x1 x2 x3)) -∗ K ⟨⟩))
      ⊢ wp frame (wpE (defs₀ (F := F)) Variants.none c none) E (cc14__ssr_kernel i arg1 harg1 arg2 harg2 arg3 harg3 arg4 harg4 arg5 harg5) K := by
  simp only [cc14__ssr_kernel_eq_skeleton]; unfold cc14__ssr_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover14_4 _)

/-! ## The pipeline's proof data -/

/-- The proof data of pipeline 4 on core `c`, at the region-entry contents `V`: the arrays as the region finds them;
    after the body at point `t` each input's buffer at its block and the output's at `out14_4` of the input blocks;
    the invariant is the scoped rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => out14_4 (iblk14 V c 0 t) (iblk14 V c 1 t) (iblk14 V c 2 t) (iblk14 V c 3 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = out14_4 (iblk14 V c 0 t) (iblk14 V c 1 t) (iblk14 V c 2 t) (iblk14 V c 3 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t))

/-- The body at any point: the inputs' memrefs hold their blocks (`before14_W`), so `sound_kernel14` applies; the
    invariant and the core's owed tokens pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3]
  rw [show (dat14 V c).Φ t.succ = (dat14 V c).Φ t.castSucc from rfl,
    show (dat14 V c).owesAt () t.succ = (dat14 V c).owesAt () t.castSucc from rfl,
    after14_0, after14_1, after14_2, after14_3, after14_4]
  iintro ⟨HΦ, Ho, ⟨%d0, H0⟩, ⟨%d1, H1⟩, ⟨%d2, H2⟩, ⟨%d3, H3⟩, ⟨%d4, H4⟩⟩
  iapply (sound_kernel14 c Set.univ (grid14.coords t) _ _ _ _ _ _ _ _ _ _ (iblk14 V c 0 t) (iblk14 V c 1 t) (iblk14 V c 2 t) (iblk14 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation14 (c : Dev nD) : BodyObligation (dat14 (F := F) V c) (defs₀ (F := F)) Variants.none () Set.univ := fun t => by
  rw [bigSep_W14, bigSep_W14]
  exact sound_body14 V c t

/-! ## Entering and leaving the region: the invariant is the class's at every point -/

theorem hin14 (c : Dev nD) : Pipeline.ΦA spec14 c ⊢ (dat14 V c).Φ 0 := by
  dsimp only [dat14]; exact .rfl

theorem hout14 (c : Dev nD) : (dat14 V c).Φ (Fin.last cfg14.N) ⊢ Pipeline.ΦA spec14 c := by
  dsimp only [dat14]; exact .rfl

end

end Cert.KernelIdeal.Hand

end
-- ==== Proof.KernelIdeal.Reg15Runs.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's current staging buffer holds its block at every point, fetched there or not, for any proof
    data whose array is the entry contents (`hA`) and whose body leaves the block in place (`hafter`): unfetched,
    the block index has not moved. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1's current staging buffer holds its block at every point, fetched there or not, for any proof
    data whose array is the entry contents (`hA`) and whose body leaves the block in place (`hafter`): unfetched,
    the block index has not moved. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- Input window 2's current staging buffer holds its block at every point, fetched there or not, for any proof
    data whose array is the entry contents (`hA`) and whose body leaves the block in place (`hafter`): unfetched,
    the block index has not moved. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

end

/-! ## The body's branch conditions -/

/-- The condition of the body's first conditional, from the grid coordinates: the point is the first of the grid. -/
abbrev cond15_0 (i : grid15.Coords) : Prop := (Scalar.cmpi .ne (Scalar.extui (Scalar.cmpi .eq (BitVec.ofNat 32 (i 0).val) 0#32)) 0#32) = 1#1
/-- It holds at the points ≡ 0 (mod 20): decided over the grid. -/
theorem hcond15_0 : ∀ t : Fin cfg15.N, cond15_0 (grid15.coords t) ↔ t.val % 20 = 0 :=
  (by decide +kernel : ∀ t : Fin grid15.N, cond15_0 (grid15.coords t) ↔ t.val % 20 = 0)

/-- The condition of the body's second conditional, from the grid coordinates: the point is the last of the grid. -/
abbrev cond15_1 (i : grid15.Coords) : Prop := k15_cond2 i = 1#1
/-- It holds at the points ≡ 19 (mod 20): decided over the grid. -/
theorem hcond15_1 : ∀ t : Fin cfg15.N, cond15_1 (grid15.coords t) ↔ t.val % 20 = 19 :=
  (by decide +kernel : ∀ t : Fin grid15.N, cond15_1 (grid15.coords t) ↔ t.val % 20 = 19)

/-! ## Where the windows are idle -/

/-- The inputs are never idle. -/
theorem liveAt15_0 : ∀ t : Fin cfg15.N, cfg15.idle 0 (grid15.coords t) = false := by decide +kernel
theorem liveAt15_1 : ∀ t : Fin cfg15.N, cfg15.idle 1 (grid15.coords t) = false := by decide +kernel
theorem liveAt15_2 : ∀ t : Fin cfg15.N, cfg15.idle 2 (grid15.coords t) = false := by decide +kernel
/-- At the first point the output is idle (nothing is stored into it) and is not written back. -/
theorem idleAt15_3_A : ∀ t : Fin cfg15.N, cond15_0 (grid15.coords t) → ¬cond15_1 (grid15.coords t) → cfg15.idle 3 (grid15.coords t) = true := by decide +kernel
theorem noFlush15_3_A : ∀ t : Fin cfg15.N, cond15_0 (grid15.coords t) → ¬cond15_1 (grid15.coords t) → (cfg15.win 3).flush t = false := by decide +kernel
/-- At the middle points likewise. -/
theorem idleAt15_3_B : ∀ t : Fin cfg15.N, ¬cond15_0 (grid15.coords t) → ¬cond15_1 (grid15.coords t) → cfg15.idle 3 (grid15.coords t) = true := by decide +kernel
theorem noFlush15_3_B : ∀ t : Fin cfg15.N, ¬cond15_0 (grid15.coords t) → ¬cond15_1 (grid15.coords t) → (cfg15.win 3).flush t = false := by decide +kernel
/-- At the last point the output is live: the body stores into it. -/
theorem liveAt15_3_C : ∀ t : Fin cfg15.N, ¬cond15_0 (grid15.coords t) → cond15_1 (grid15.coords t) → cfg15.idle 3 (grid15.coords t) = false := by decide +kernel

/-! ## The staging memrefs and the scratch -/

/-- One staging buffer of the output window, through which its contents are stated. -/
abbrev VO15_3 : View sig .tc .vmem S256x192 .f32 := (Memref.whole cc15_stg3_0 : Memref sig .tc .vmem S256x192 .f32).view
/-- Each window's current staging memref at point `t`, as the pipeline passes it, and its wholeness. -/
abbrev ms15_0 (t : Fin cfg15.N) : Memref sig .tc .vmem S5000x192 .f32 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S5000x1 .i32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S256x1 .f32 := win15_2.stage (cfg15.slots t 2)
abbrev hs15_2 (t : Fin cfg15.N) : (ms15_2 t).IsWhole := hstage15_2 ((cfg15.slots t 2).cast nbuf15_2)
abbrev ms15_3 (t : Fin cfg15.N) : Memref sig .tc .vmem S256x192 .f32 := win15_3.stage (cfg15.slots t 3)
abbrev hs15_3 (t : Fin cfg15.N) : (ms15_3 t).IsWhole := hstage15_3 ((cfg15.slots t 3).cast nbuf15_3)
/-- The scratch operand: a whole scoped buffer of the kernel's own, passed beside the windows. -/
abbrev scM15_0 : Memref sig .tc .vmem S256x192 .f32 := Memref.whole cc15_scratch0
/-- The scratch the kernel carries between points, as a view. -/
abbrev VS15_0 : View sig .tc .vmem S256x192 .f32 := scM15_0.view

/-- The region invariant with the scratch operand as a memref owned at some contents, the other scoped buffers
    unopened beside it, and the generator register at some state. -/
theorem PhiA15_eq (c : Dev nD) :
    (Pipeline.ΦA spec15 c : sProp 𝕄)
      = iprop(iprop(iprop((∃ d, owns (c : Thread nD τ) scM15_0 fullShare d))
          ∗ Pipeline.scopedRestBut (Ix := Unit) (Name := ℕ) (U := UR sig nD τ) (Lvl := ℕ) (Val := Elt F) spec15 c [cc15_scratch0]) ∗ (∃ r, prngReg c r)) := by
  unfold Pipeline.ΦA; rw [scopedRest15_split]; simp only [scM15_0, owns_whole]; try rfl

end Cert.KernelIdeal.Hand

end
-- ==== Proof.KernelIdeal.Reg15RunA.lean ====
import proofs.«422469_j24000277250640_1_alg».proof.Proof.KernelIdeal.Reg15Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the FIRST point (the first conditional taken, the second not): the scratch is found at anything, zeroed, then accumulated into; the output window is idle and handed back untouched.
    With the proof that on whole memrefs — the inputs' at their contents — the body runs to the continuation holding
    the inputs' as they were and each stored buffer with its pieces written. -/
noncomputable def kernelRun15_A (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : cond15_0 i) (hcl : ¬cond15_1 i)
    (xd : Vec F S5000x192 .f32) (xb : Vec F S5000x1 .i32) (xn : Vec F S256x1 .f32) :
    Σ' (LO : List (View.Piece (Elt F) S256x192 .f32)), { LS : List (View.Piece (Elt F) S256x192 .f32) //
      ∀ (xi : Vec F S256x192 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ (∃ d, owns (c : Thread nD τ) arg5 fullShare d)
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc15__reduce_div_kernel i arg1 harg1 arg2 harg2 arg3 harg3 arg4 harg4 arg5 harg5) K } := by
  refine ⟨[], ?_, fun xi E K => ?run⟩
  case run =>
    simp only [cc15__reduce_div_kernel_eq_skeleton]; unfold cc15__reduce_div_kernel_skel
    unfold owns
    iintro ⟨⟨%fd, %hfd, Hd⟩, ⟨%fb, %hfb, Hb⟩, ⟨%fn, %hfn, Hn⟩, ⟨%fo, %hfo, Ho⟩, ⟨%dscr, %fs, -, HS⟩, Hk⟩
    obtain rfl := harg1.eq_unread hfd; obtain rfl := harg2.eq_unread hfb; obtain rfl := harg3.eq_unread hfn; obtain rfl := harg4.eq_unread hfo
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg15RunB.lean ====
import proofs.«422469_j24000277250640_1_alg».proof.Proof.KernelIdeal.Reg15RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a MIDDLE point (neither conditional taken): the scratch is found at what the point before left and accumulated into; the output window is idle and handed back untouched.
    With the proof that on whole memrefs — the inputs' at their contents — the body runs to the continuation holding
    the inputs' as they were and each stored buffer with its pieces written. -/
noncomputable def kernelRun15_B (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : ¬cond15_1 i)
    (xd : Vec F S5000x192 .f32) (xb : Vec F S5000x1 .i32) (xn : Vec F S256x1 .f32) (xs : Vec F S256x192 .f32) :
    Σ' (LO : List (View.Piece (Elt F) S256x192 .f32)), { LS : List (View.Piece (Elt F) S256x192 .f32) //
      ∀ (xi : Vec F S256x192 .f32) (E : Set ℕ) (K : PUnit → sProp 𝕄),
        iprop(owns (c : Thread nD τ) arg1 fullShare xd ∗ owns (c : Thread nD τ) arg2 fullShare xb ∗ owns (c : Thread nD τ) arg3 fullShare xn ∗ owns (c : Thread nD τ) arg4 fullShare xi ∗ owns (c : Thread nD τ) arg5 fullShare xs
            ∗ (iprop(owns (c : Thread nD τ) arg1 fullShare xd ∗ owns (c : Thread nD τ) arg2 fullShare xb ∗ owns (c : Thread nD τ) arg3 fullShare xn ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc15__reduce_div_kernel i arg1 harg1 arg2 harg2 arg3 harg3 arg4 harg4 arg5 harg5) K } := by
  refine ⟨[], ?_, fun xi E K => ?run⟩
  case run =>
    simp only [cc15__reduce_div_kernel_eq_skeleton]; unfold cc15__reduce_div_kernel_skel
    unfold owns
    iintro ⟨⟨%fd, %hfd, Hd⟩, ⟨%fb, %hfb, Hb⟩, ⟨%fn, %hfn, Hn⟩, ⟨%fo, %hfo, Ho⟩, ⟨%fs, %hfs, HS⟩, Hk⟩
    obtain rfl := harg1.eq_unread hfd; obtain rfl := harg2.eq_unread hfb; obtain rfl := harg3.eq_unread hfn; obtain rfl := harg4.eq_unread hfo; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]
    · iexists _; isplitr; · ipureintro; exact harg4.read_unread _
      iexact Ho
    iexists _; iexact HS

end Cert.KernelIdeal.Hand

end
-- ==== Proof.KernelIdeal.Reg15RunC.lean ====
import proofs.«422469_j24000277250640_1_alg».proof.Proof.KernelIdeal.Reg15RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at the LAST point (the first conditional not taken, the second taken): the scratch is found at what the point before left and accumulated into; then the quotient by the counts is stored into the output window, found at anything.
    With the proof that on whole memrefs — the inputs' at their contents — the body runs to the continuation holding
    the inputs' as they were and each stored buffer with its pieces written. -/
noncomputable def kernelRun15_C (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : cond15_1 i)
    (xd : Vec F S5000x192 .f32) (xb : Vec F S5000x1 .i32) (xn : Vec F S256x1 .f32) (xs : Vec F S256x192 .f32) :
    Σ' (LO : List (View.Piece (Elt F) S256x192 .f32)), { LS : List (View.Piece (Elt F) S256x192 .f32) //
      ∀ (E : Set ℕ) (K : PUnit → sProp 𝕄),
        iprop(owns (c : Thread nD τ) arg1 fullShare xd ∗ owns (c : Thread nD τ) arg2 fullShare xb ∗ owns (c : Thread nD τ) arg3 fullShare xn ∗ (∃ d, owns (c : Thread nD τ) arg4 fullShare d) ∗ owns (c : Thread nD τ) arg5 fullShare xs
            ∗ (iprop(owns (c : Thread nD τ) arg1 fullShare xd ∗ owns (c : Thread nD τ) arg2 fullShare xb ∗ owns (c : Thread nD τ) arg3 fullShare xn ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc15__reduce_div_kernel i arg1 harg1 arg2 harg2 arg3 harg3 arg4 harg4 arg5 harg5) K } := by
  refine ⟨?_, ?_, fun E K => ?run⟩
  case run =>
    simp only [cc15__reduce_div_kernel_eq_skeleton]; unfold cc15__reduce_div_kernel_skel
    unfold owns
    iintro ⟨⟨%fd, %hfd, Hd⟩, ⟨%fb, %hfb, Hb⟩, ⟨%fn, %hfn, Hn⟩, ⟨%dout, %fo, -, Ho⟩, ⟨%fs, %hfs, HS⟩, Hk⟩
    obtain rfl := harg1.eq_unread hfd; obtain rfl := harg2.eq_unread hfb; obtain rfl := harg3.eq_unread hfn; obtain rfl := harg5.eq_unread hfs
    sl_exec (disch := first | exact hcz | exact hcl)
    sl_step
    iapply Hk
    isplitl [Hd]
    · iexists _; isplitr; · ipureintro; exact harg1.read_unread _
      iexact Hd
    isplitl [Hb]
    · iexists _; isplitr; · ipureintro; exact harg2.read_unread _
      iexact Hb
    isplitl [Hn]
    · iexists _; isplitr; · ipureintro; exact harg3.read_unread _
      iexact Hn
    isplitl [Ho]; · iexists _; iexact Ho
    iexists _; iexact HS

end Cert.KernelIdeal.Hand

end
-- ==== Proof.KernelIdeal.Reg15.lean ====
import proofs.«422469_j24000277250640_1_alg».proof.Proof.KernelIdeal.Reg15RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nothing is stored into the output window here (it is idle and not written back): no pieces, a placeholder
    that nothing consults. -/
def out15_A_3 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : cond15_0 i) (hcl : ¬cond15_1 i)
    (xd : Vec F S5000x192 .f32) (xb : Vec F S5000x1 .i32) (xn : Vec F S256x1 .f32) : Vec F S256x192 .f32 :=
  VO15_3.read (Elt F) (VO15_3.writes (Elt F) VO15_3.junk (kernelRun15_A c i arg1 harg1 arg2 harg2 arg3 harg3 arg4 harg4 arg5 harg5 hcz hcl xd xb xn).1)

/-- The pieces stored into the carried scratch tile it, so they cover it. -/
theorem scover15_A_0 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : cond15_0 i) (hcl : ¬cond15_1 i)
    (xd : Vec F S5000x192 .f32) (xb : Vec F S5000x1 .i32) (xn : Vec F S256x1 .f32) (y : S256x192.Idx) :
    ∃ pc ∈ (kernelRun15_A c i arg1 harg1 arg2 harg2 arg3 harg3 arg4 harg4 arg5 harg5 hcz hcl xd xb xn).2.1, y ∈ pc.1.set :=
  View.cover_of_tiledL (kernelRun15_A c i arg1 harg1 arg2 harg2 arg3 harg3 arg4 harg4 arg5 harg5 hcz hcl xd xb xn).2.1 S256x192.size (by sl_kernel_rfl) y

/-- What this case leaves in the carried scratch: its pieces read back over junk. -/
def sout15_A_0 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : cond15_0 i) (hcl : ¬cond15_1 i)
    (xd : Vec F S5000x192 .f32) (xb : Vec F S5000x1 .i32) (xn : Vec F S256x1 .f32) : Vec F S256x192 .f32 :=
  VS15_0.read (Elt F) (VS15_0.writes (Elt F) VS15_0.junk (kernelRun15_A c i arg1 harg1 arg2 harg2 arg3 harg3 arg4 harg4 arg5 harg5 hcz hcl xd xb xn).2.1)

/-- Nothing is stored into the output window here (it is idle and not written back): no pieces, a placeholder
    that nothing consults. -/
def out15_B_3 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : ¬cond15_1 i)
    (xd : Vec F S5000x192 .f32) (xb : Vec F S5000x1 .i32) (xn : Vec F S256x1 .f32) (xs : Vec F S256x192 .f32) : Vec F S256x192 .f32 :=
  VO15_3.read (Elt F) (VO15_3.writes (Elt F) VO15_3.junk (kernelRun15_B c i arg1 harg1 arg2 harg2 arg3 harg3 arg4 harg4 arg5 harg5 hcz hcl xd xb xn xs).1)

/-- The pieces stored into the carried scratch tile it, so they cover it. -/
theorem scover15_B_0 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : ¬cond15_1 i)
    (xd : Vec F S5000x192 .f32) (xb : Vec F S5000x1 .i32) (xn : Vec F S256x1 .f32) (xs : Vec F S256x192 .f32) (y : S256x192.Idx) :
    ∃ pc ∈ (kernelRun15_B c i arg1 harg1 arg2 harg2 arg3 harg3 arg4 harg4 arg5 harg5 hcz hcl xd xb xn xs).2.1, y ∈ pc.1.set :=
  View.cover_of_tiledL (kernelRun15_B c i arg1 harg1 arg2 harg2 arg3 harg3 arg4 harg4 arg5 harg5 hcz hcl xd xb xn xs).2.1 S256x192.size (by sl_kernel_rfl) y

/-- What this case leaves in the carried scratch: its pieces read back over junk. -/
def sout15_B_0 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : ¬cond15_1 i)
    (xd : Vec F S5000x192 .f32) (xb : Vec F S5000x1 .i32) (xn : Vec F S256x1 .f32) (xs : Vec F S256x192 .f32) : Vec F S256x192 .f32 :=
  VS15_0.read (Elt F) (VS15_0.writes (Elt F) VS15_0.junk (kernelRun15_B c i arg1 harg1 arg2 harg2 arg3 harg3 arg4 harg4 arg5 harg5 hcz hcl xd xb xn xs).2.1)

/-- The pieces stored into the output window tile its block, so they cover it. -/
theorem cover15_C_3 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : cond15_1 i)
    (xd : Vec F S5000x192 .f32) (xb : Vec F S5000x1 .i32) (xn : Vec F S256x1 .f32) (xs : Vec F S256x192 .f32) (y : S256x192.Idx) :
    ∃ pc ∈ (kernelRun15_C c i arg1 harg1 arg2 harg2 arg3 harg3 arg4 harg4 arg5 harg5 hcz hcl xd xb xn xs).1, y ∈ pc.1.set :=
  View.cover_of_tiledL (kernelRun15_C c i arg1 harg1 arg2 harg2 arg3 harg3 arg4 harg4 arg5 harg5 hcz hcl xd xb xn xs).1 S256x192.size (by sl_kernel_rfl) y

/-- What this case leaves in the output's staging buffer: its pieces read back over junk. -/
def out15_C_3 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : cond15_1 i)
    (xd : Vec F S5000x192 .f32) (xb : Vec F S5000x1 .i32) (xn : Vec F S256x1 .f32) (xs : Vec F S256x192 .f32) : Vec F S256x192 .f32 :=
  VO15_3.read (Elt F) (VO15_3.writes (Elt F) VO15_3.junk (kernelRun15_C c i arg1 harg1 arg2 harg2 arg3 harg3 arg4 harg4 arg5 harg5 hcz hcl xd xb xn xs).1)

/-- The pieces stored into the carried scratch tile it, so they cover it. -/
theorem scover15_C_0 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : cond15_1 i)
    (xd : Vec F S5000x192 .f32) (xb : Vec F S5000x1 .i32) (xn : Vec F S256x1 .f32) (xs : Vec F S256x192 .f32) (y : S256x192.Idx) :
    ∃ pc ∈ (kernelRun15_C c i arg1 harg1 arg2 harg2 arg3 harg3 arg4 harg4 arg5 harg5 hcz hcl xd xb xn xs).2.1, y ∈ pc.1.set :=
  View.cover_of_tiledL (kernelRun15_C c i arg1 harg1 arg2 harg2 arg3 harg3 arg4 harg4 arg5 harg5 hcz hcl xd xb xn xs).2.1 S256x192.size (by sl_kernel_rfl) y

/-- What this case leaves in the carried scratch: its pieces read back over junk. -/
def sout15_C_0 (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : cond15_1 i)
    (xd : Vec F S5000x192 .f32) (xb : Vec F S5000x1 .i32) (xn : Vec F S256x1 .f32) (xs : Vec F S256x192 .f32) : Vec F S256x192 .f32 :=
  VS15_0.read (Elt F) (VS15_0.writes (Elt F) VS15_0.junk (kernelRun15_C c i arg1 harg1 arg2 harg2 arg3 harg3 arg4 harg4 arg5 harg5 hcz hcl xd xb xn xs).2.1)

section
variable (V : (c : Dev nD) → (b : Ref sig .tc) → Buf (Elt F) ((c : Thread nD τ).loc b))

/-! ## What the output and the scratch hold after each point -/

/-- THE ACCUMULATION. What the output's staging buffer and the carried scratch hold after the body at position `n`
    (a pair: the output, then the scratch): the case the closed forms select at `n`, run at the point's memrefs and
    input blocks, the scratch found at what position `n - 1` left. -/
def outsAt15 (c : Dev nD) : (n : ℕ) → n < cfg15.N → Vec F S256x192 .f32 × Vec F S256x192 .f32
  | 0, hn => (out15_A_3 c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) (ms15_3 ⟨0, hn⟩) (hs15_3 ⟨0, hn⟩) scM15_0 (Memref.isWhole_whole _) ((hcond15_0 ⟨0, hn⟩).mpr (Nat.zero_mod _)) (fun h => (fun h => by (try dsimp only at h); omega) ((hcond15_1 ⟨0, hn⟩).mp h)) (iblk15 V c 0 ⟨0, hn⟩) (iblk15 V c 1 ⟨0, hn⟩) (iblk15 V c 2 ⟨0, hn⟩), sout15_A_0 c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) (ms15_3 ⟨0, hn⟩) (hs15_3 ⟨0, hn⟩) scM15_0 (Memref.isWhole_whole _) ((hcond15_0 ⟨0, hn⟩).mpr (Nat.zero_mod _)) (fun h => (fun h => by (try dsimp only at h); omega) ((hcond15_1 ⟨0, hn⟩).mp h)) (iblk15 V c 0 ⟨0, hn⟩) (iblk15 V c 1 ⟨0, hn⟩) (iblk15 V c 2 ⟨0, hn⟩))
  | n + 1, hn =>
    if hz : (n + 1) % 20 = 0 then
      if hl : (n + 1) % 20 = 19 then
        False.elim (by have hN : n + 1 < 20 := lt_of_lt_of_eq hn (show cfg15.N = 20 from N_15); omega)
      else
        (out15_A_3 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) scM15_0 (Memref.isWhole_whole _) ((hcond15_0 ⟨n + 1, hn⟩).mpr hz) (fun h => hl ((hcond15_1 ⟨n + 1, hn⟩).mp h)) (iblk15 V c 0 ⟨n + 1, hn⟩) (iblk15 V c 1 ⟨n + 1, hn⟩) (iblk15 V c 2 ⟨n + 1, hn⟩), sout15_A_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) scM15_0 (Memref.isWhole_whole _) ((hcond15_0 ⟨n + 1, hn⟩).mpr hz) (fun h => hl ((hcond15_1 ⟨n + 1, hn⟩).mp h)) (iblk15 V c 0 ⟨n + 1, hn⟩) (iblk15 V c 1 ⟨n + 1, hn⟩) (iblk15 V c 2 ⟨n + 1, hn⟩))
    else
      if hl : (n + 1) % 20 = 19 then
        (out15_C_3 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) scM15_0 (Memref.isWhole_whole _) (fun h => hz ((hcond15_0 ⟨n + 1, hn⟩).mp h)) ((hcond15_1 ⟨n + 1, hn⟩).mpr hl) (iblk15 V c 0 ⟨n + 1, hn⟩) (iblk15 V c 1 ⟨n + 1, hn⟩) (iblk15 V c 2 ⟨n + 1, hn⟩) (outsAt15 c n (Nat.lt_of_succ_lt hn)).2, sout15_C_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) scM15_0 (Memref.isWhole_whole _) (fun h => hz ((hcond15_0 ⟨n + 1, hn⟩).mp h)) ((hcond15_1 ⟨n + 1, hn⟩).mpr hl) (iblk15 V c 0 ⟨n + 1, hn⟩) (iblk15 V c 1 ⟨n + 1, hn⟩) (iblk15 V c 2 ⟨n + 1, hn⟩) (outsAt15 c n (Nat.lt_of_succ_lt hn)).2)
      else
        (out15_B_3 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) scM15_0 (Memref.isWhole_whole _) (fun h => hz ((hcond15_0 ⟨n + 1, hn⟩).mp h)) (fun h => hl ((hcond15_1 ⟨n + 1, hn⟩).mp h)) (iblk15 V c 0 ⟨n + 1, hn⟩) (iblk15 V c 1 ⟨n + 1, hn⟩) (iblk15 V c 2 ⟨n + 1, hn⟩) (outsAt15 c n (Nat.lt_of_succ_lt hn)).2, sout15_B_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) scM15_0 (Memref.isWhole_whole _) (fun h => hz ((hcond15_0 ⟨n + 1, hn⟩).mp h)) (fun h => hl ((hcond15_1 ⟨n + 1, hn⟩).mp h)) (iblk15 V c 0 ⟨n + 1, hn⟩) (iblk15 V c 1 ⟨n + 1, hn⟩) (iblk15 V c 2 ⟨n + 1, hn⟩) (outsAt15 c n (Nat.lt_of_succ_lt hn)).2)

/-- `outsAt15` at the first point. -/
theorem outsAt15_A (c : Dev nD) (t : Fin cfg15.N) (hz : t.val % 20 = 0) (hl : ¬t.val % 20 = 19) :
    outsAt15 V c t.val t.isLt = (out15_A_3 c (grid15.coords t) (ms15_0 t) (hs15_0 t) (ms15_1 t) (hs15_1 t) (ms15_2 t) (hs15_2 t) (ms15_3 t) (hs15_3 t) scM15_0 (Memref.isWhole_whole _) ((hcond15_0 t).mpr hz) (fun h => hl ((hcond15_1 t).mp h)) (iblk15 V c 0 t) (iblk15 V c 1 t) (iblk15 V c 2 t), sout15_A_0 c (grid15.coords t) (ms15_0 t) (hs15_0 t) (ms15_1 t) (hs15_1 t) (ms15_2 t) (hs15_2 t) (ms15_3 t) (hs15_3 t) scM15_0 (Memref.isWhole_whole _) ((hcond15_0 t).mpr hz) (fun h => hl ((hcond15_1 t).mp h)) (iblk15 V c 0 t) (iblk15 V c 1 t) (iblk15 V c 2 t)) := by
  obtain ⟨n, hn⟩ := t
  cases n with
  | zero => exact rfl
  | succ n => exact (dif_pos hz).trans ((dif_neg hl).trans rfl)

/-- `outsAt15` at a middle point: over what the point before left in the scratch. -/
theorem outsAt15_B (c : Dev nD) (t : Fin cfg15.N) (hz : ¬t.val % 20 = 0) (hl : ¬t.val % 20 = 19) :
    outsAt15 V c t.val t.isLt = (out15_B_3 c (grid15.coords t) (ms15_0 t) (hs15_0 t) (ms15_1 t) (hs15_1 t) (ms15_2 t) (hs15_2 t) (ms15_3 t) (hs15_3 t) scM15_0 (Memref.isWhole_whole _) (fun h => hz ((hcond15_0 t).mp h)) (fun h => hl ((hcond15_1 t).mp h)) (iblk15 V c 0 t) (iblk15 V c 1 t) (iblk15 V c 2 t) (outsAt15 V c (t.val - 1) (Nat.lt_of_le_of_lt (Nat.sub_le _ _) t.isLt)).2, sout15_B_0 c (grid15.coords t) (ms15_0 t) (hs15_0 t) (ms15_1 t) (hs15_1 t) (ms15_2 t) (hs15_2 t) (ms15_3 t) (hs15_3 t) scM15_0 (Memref.isWhole_whole _) (fun h => hz ((hcond15_0 t).mp h)) (fun h => hl ((hcond15_1 t).mp h)) (iblk15 V c 0 t) (iblk15 V c 1 t) (iblk15 V c 2 t) (outsAt15 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_neg hl).trans rfl)

/-- `outsAt15` at the last point: over what the point before left in the scratch. -/
theorem outsAt15_C (c : Dev nD) (t : Fin cfg15.N) (hz : ¬t.val % 20 = 0) (hl : t.val % 20 = 19) :
    outsAt15 V c t.val t.isLt = (out15_C_3 c (grid15.coords t) (ms15_0 t) (hs15_0 t) (ms15_1 t) (hs15_1 t) (ms15_2 t) (hs15_2 t) (ms15_3 t) (hs15_3 t) scM15_0 (Memref.isWhole_whole _) (fun h => hz ((hcond15_0 t).mp h)) ((hcond15_1 t).mpr hl) (iblk15 V c 0 t) (iblk15 V c 1 t) (iblk15 V c 2 t) (outsAt15 V c (t.val - 1) (Nat.lt_of_le_of_lt (Nat.sub_le _ _) t.isLt)).2, sout15_C_0 c (grid15.coords t) (ms15_0 t) (hs15_0 t) (ms15_1 t) (hs15_1 t) (ms15_2 t) (hs15_2 t) (ms15_3 t) (hs15_3 t) scM15_0 (Memref.isWhole_whole _) (fun h => hz ((hcond15_0 t).mp h)) ((hcond15_1 t).mpr hl) (iblk15 V c 0 t) (iblk15 V c 1 t) (iblk15 V c 2 t) (outsAt15 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-! ## The region invariant -/

/-- The core's other scoped buffers, unopened beside the scratch operand. -/
abbrev restBut15 (c : Dev nD) : sProp 𝕄 :=
  Pipeline.scopedRestBut (Ix := Unit) (Name := ℕ) (U := UR sig nD τ) (Lvl := ℕ) (Val := Elt F) spec15 c [cc15_scratch0]

/-- The region invariant before position `n`: before the first point the class's (every scratch at anything);
    afterwards the carried scratch at what the point before left in it, the other scoped buffers unopened, and the
    random-number register at some state. -/
def PhiS15 (c : Dev nD) : (n : ℕ) → n ≤ cfg15.N → sProp 𝕄
  | 0, _ => Pipeline.ΦA spec15 c
  | n + 1, hn => iprop(iprop(owns (c : Thread nD τ) scM15_0 fullShare ((outsAt15 V c n hn).2) ∗ restBut15 (F := F) c) ∗ (∃ r, prngReg c r))

theorem PhiS15_zero (c : Dev nD) (n : ℕ) (h : n ≤ cfg15.N) (hfirst : n = 0) : PhiS15 V c n h = Pipeline.ΦA spec15 c := by
  subst hfirst; rfl

/-- After point `n` (before point `n + 1`): the carried scratch at that point's contents. -/
theorem PhiS15_succ (c : Dev nD) (n : ℕ) (hn : n < cfg15.N) :
    PhiS15 V c (n + 1) hn = iprop(iprop(owns (c : Thread nD τ) scM15_0 fullShare ((outsAt15 V c n hn).2) ∗ restBut15 (F := F) c) ∗ (∃ r, prngReg c r)) := rfl

/-- Before a point that is not the first: the carried scratch at what the point before left. -/
theorem PhiS15_pos (c : Dev nD) (n : ℕ) (h : n ≤ cfg15.N) (hfirst : n ≠ 0) :
    PhiS15 V c n h = iprop(iprop(owns (c : Thread nD τ) scM15_0 fullShare ((outsAt15 V c (n - 1) (by omega)).2) ∗ restBut15 (F := F) c) ∗ (∃ r, prngReg c r)) := by
  cases n with
  | zero => exact absurd rfl hfirst
  | succ n => rfl

/-! ## The pipeline's proof data -/

/-- The proof data of this pipeline on core `c`, at the region-entry contents `V`: after the body at point `t` each
    input's buffer at its block and the output's at `outsAt15`'s first component; the invariant `PhiS15`; nothing owed;
    full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => (outsAt15 V c t.val t.isLt).1
  Φ t := PhiS15 V c t.val (Nat.le_of_lt_succ t.isLt)
  q _ := fullShare
  owed _ := 0

theorem A_eq15 (c : Dev nD) (w : Fin cfg15.W) : (dat15 V c).A w = V c (Pipeline.arrRef spec15 w) := by
  dsimp only [dat15]

/-- The invariant at a point's start, restated at `t.val`. -/
theorem PhiS15_castSucc (c : Dev nD) (t : Fin cfg15.N) :
    (dat15 V c).Φ t.castSucc = PhiS15 V c t.val (Nat.le_of_lt t.isLt) := by
  dsimp only [dat15]; simp only [Fin.coe_castSucc]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = (outsAt15 V c t.val t.isLt).1 := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d))
    ∗ (∃ d, owns (c : Thread nD τ) (ms15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t
    ∗ (dat15 V c).leavesExact 3 t)

set_option maxHeartbeats 4800000 in
/-- The body at any point: the inputs' memrefs hold their blocks; the closed forms say which case the point is in; the
    invariant hands the body the carried scratch at what the point before left (at anything at the first point) and
    takes it back at this point's contents; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).owesAt () t.succ = (dat15 V c).owesAt () t.castSucc from rfl]
  rw [show (dat15 V c).Φ t.succ = PhiS15 V c (t.val + 1) t.isLt from rfl, PhiS15_succ]
  have hN : t.val < 20 := lt_of_lt_of_eq t.isLt (show cfg15.N = 20 from N_15)
  by_cases hz : t.val % 20 = 0
  · by_cases hl : t.val % 20 = 19
    · exfalso; omega
    · rw [show (dat15 V c).leavesExact 0 t = owns (c : Thread nD τ) (ms15_0 t) fullShare ((dat15 V c).after 0 t) from by
        unfold Dat.leavesExact; rw [liveAt15_0 t], after15_0]
      rw [show (dat15 V c).leavesExact 1 t = owns (c : Thread nD τ) (ms15_1 t) fullShare ((dat15 V c).after 1 t) from by
        unfold Dat.leavesExact; rw [liveAt15_1 t], after15_1]
      rw [show (dat15 V c).leavesExact 2 t = owns (c : Thread nD τ) (ms15_2 t) fullShare ((dat15 V c).after 2 t) from by
        unfold Dat.leavesExact; rw [liveAt15_2 t], after15_2]
      rw [Dat.leavesExact_idle (dat15 V c) 3 t (idleAt15_3_A t ((hcond15_0 t).mpr hz) (fun h => hl ((hcond15_1 t).mp h))) (noFlush15_3_A t ((hcond15_0 t).mpr hz) (fun h => hl ((hcond15_1 t).mp h)))]
      rw [outsAt15_A V c t hz hl]
      unfold sout15_A_0; (try dsimp only)
      by_cases hfirst : t.val = 0
      · rw [PhiS15_castSucc V c t, PhiS15_zero V c _ _ hfirst, PhiA15_eq]
        iintro ⟨⟨⟨HS, Hr⟩, Hg⟩, Ho, ⟨%dd, Hd⟩, ⟨%db, Hb⟩, ⟨%dn, Hn⟩, ⟨%dq, Hq⟩⟩
        iapply ((kernelRun15_A c (grid15.coords t) _ _ _ _ _ _ _ _ _ _ ((hcond15_0 t).mpr hz) (fun h => hl ((hcond15_1 t).mp h)) (iblk15 V c 0 t) (iblk15 V c 1 t) (iblk15 V c 2 t)).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover15_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
      · rw [PhiS15_castSucc V c t, PhiS15_pos V c _ _ hfirst]
        iintro ⟨⟨⟨HS, Hr⟩, Hg⟩, Ho, ⟨%dd, Hd⟩, ⟨%db, Hb⟩, ⟨%dn, Hn⟩, ⟨%dq, Hq⟩⟩
        iapply ((kernelRun15_A c (grid15.coords t) _ _ _ _ _ _ _ _ _ _ ((hcond15_0 t).mpr hz) (fun h => hl ((hcond15_1 t).mp h)) (iblk15 V c 0 t) (iblk15 V c 1 t) (iblk15 V c 2 t)).2.2 _ Set.univ _)
        isplitl [Hd]; · iexact Hd
        isplitl [Hb]; · iexact Hb
        isplitl [Hn]; · iexact Hn
        isplitl [Hq]; · iexact Hq
        isplitl [HS]; · iexists _; iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover15_A_0 c _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq
  · by_cases hl : t.val % 20 = 19
    · rw [show (dat15 V c).leavesExact 0 t = owns (c : Thread nD τ) (ms15_0 t) fullShare ((dat15 V c).after 0 t) from by
        unfold Dat.leavesExact; rw [liveAt15_0 t], after15_0]
      rw [show (dat15 V c).leavesExact 1 t = owns (c : Thread nD τ) (ms15_1 t) fullShare ((dat15 V c).after 1 t) from by
        unfold Dat.leavesExact; rw [liveAt15_1 t], after15_1]
      rw [show (dat15 V c).leavesExact 2 t = owns (c : Thread nD τ) (ms15_2 t) fullShare ((dat15 V c).after 2 t) from by
        unfold Dat.leavesExact; rw [liveAt15_2 t], after15_2]
      rw [show (dat15 V c).leavesExact 3 t = owns (c : Thread nD τ) (ms15_3 t) fullShare ((dat15 V c).after 3 t) from by
        unfold Dat.leavesExact; rw [liveAt15_3_C t (fun h => hz ((hcond15_0 t).mp h)) ((hcond15_1 t).mpr hl)], after15_3]
      rw [outsAt15_C V c t hz hl]
      unfold out15_C_3 sout15_C_0; (try dsimp only)
      by_cases hfirst : t.val = 0
      · exfalso; omega
      · rw [PhiS15_castSucc V c t, PhiS15_pos V c _ _ hfirst]
        iintro ⟨⟨⟨HS, Hr⟩, Hg⟩, Ho, ⟨%dd, Hd⟩, ⟨%db, Hb⟩, ⟨%dn, Hn⟩, ⟨%dq, Hq⟩⟩
        iapply ((kernelRun15_C c (grid15.coords t) _ _ _ _ _ _ _ _ _ _ (fun h => hz ((hcond15_0 t).mp h)) ((hcond15_1 t).mpr hl) (iblk15 V c 0 t) (iblk15 V c 1 t) (iblk15 V c 2 t) _).2.2 Set.univ _)
        isplitl [Hd]; · iexact Hd
        isplitl [Hb]; · iexact Hb
        isplitl [Hn]; · iexact Hn
        isplitl [Hq]; · iexists _; iexact Hq
        isplitl [HS]; · iexact HS
        iintro ⟨Hd, Hb, Hn, ⟨%eq, Hq⟩, ⟨%es, HS⟩⟩
        isplitl [HS Hr Hg]
        · isplitl [HS Hr]
          · isplitl [HS]
            · unfold owns; iexists _; isplitr
              swap; · iexact HS
              ipureintro; exact View.read_writes_of_cover _ _ _ _ _ (scover15_C_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        unfold owns; iexists _; isplitr
        swap; · iexact Hq
        ipureintro; exact View.read_writes_of_cover _ _ _ _ _ (cover15_C_3 c _ _ _ _ _ _ _ _ _ _ _ _ _ _ _ _ _)
    · rw [show (dat15 V c).leavesExact 0 t = owns (c : Thread nD τ) (ms15_0 t) fullShare ((dat15 V c).after 0 t) from by
        unfold Dat.leavesExact; rw [liveAt15_0 t], after15_0]
      rw [show (dat15 V c).leavesExact 1 t = owns (c : Thread nD τ) (ms15_1 t) fullShare ((dat15 V c).after 1 t) from by
        unfold Dat.leavesExact; rw [liveAt15_1 t], after15_1]
      rw [show (dat15 V c).leavesExact 2 t = owns (c : Thread nD τ) (ms15_2 t) fullShare ((dat15 V c).after 2 t) from by
        unfold Dat.leavesExact; rw [liveAt15_2 t], after15_2]
      rw [Dat.leavesExact_idle (dat15 V c) 3 t (idleAt15_3_B t (fun h => hz ((hcond15_0 t).mp h)) (fun h => hl ((hcond15_1 t).mp h))) (noFlush15_3_B t (fun h => hz ((hcond15_0 t).mp h)) (fun h => hl ((hcond15_1 t).mp h)))]
      rw [outsAt15_B V c t hz hl]
      unfold sout15_B_0; (try dsimp only)
      by_cases hfirst : t.val = 0
      · exfalso; omega
      · rw [PhiS15_castSucc V c t, PhiS15_pos V c _ _ hfirst]
        iintro ⟨⟨⟨HS, Hr⟩, Hg⟩, Ho, ⟨%dd, Hd⟩, ⟨%db, Hb⟩, ⟨%dn, Hn⟩, ⟨%dq, Hq⟩⟩
        iapply ((kernelRun15_B c (grid15.coords t) _ _ _ _ _ _ _ _ _ _ (fun h => hz ((hcond15_0 t).mp h)) (fun h => hl ((hcond15_1 t).mp h)) (iblk15 V c 0 t) (iblk15 V c 1 t) (iblk15 V c 2 t) _).2.2 _ Set.univ _)
        isplitl [Hd]; · iexact Hd
        isplitl [Hb]; · iexact Hb
        isplitl [Hn]; · iexact Hn
        isplitl [Hq]; · iexact Hq
        isplitl [HS]; · iexact HS
        iintro ⟨Hd, Hb, Hn, Hq, ⟨%es, HS⟩⟩
        isplitl [HS Hr Hg]
        · isplitl [HS Hr]
          · isplitl [HS]
            · unfold owns; iexists _; isplitr
              swap; · iexact HS
              ipureintro; exact View.read_writes_of_cover _ _ _ _ _ (scover15_B_0 c _ _ _ _ _ _ _ _ _ _ _ _ _ _ _ _ _)
            iexact Hr
          iexact Hg
        isplitl [Ho]; · iexact Ho
        isplitl [Hd]; · iexact Hd
        isplitl [Hb]; · iexact Hb
        isplitl [Hn]; · iexact Hn
        iexists _; iexact Hq

/-- The library's body obligation, at every point. -/
theorem body_obligation15 (c : Dev nD) : BodyObligation (dat15 (F := F) V c) (defs₀ (F := F)) Variants.none () Set.univ := fun t => by
  rw [bigSep_W15, bigSep_W15]
  exact sound_body15 V c t

/-- What the launch hands the region is the invariant before the first point. -/
theorem hin15 (c : Dev nD) : Pipeline.ΦA spec15 c ⊢ (dat15 V c).Φ 0 := by
  rw [show (dat15 V c).Φ 0 = PhiS15 V c 0 (Nat.zero_le _) from rfl, PhiS15_zero V c 0 _ rfl]
  try exact Idealize.SL.BI.Entails.refl _

/-- After any point but the first the invariant gives the class's back: the carried scratch's named contents are forgotten. -/
theorem Phi_out15 (c : Dev nD) (t : Fin (cfg15.N + 1)) (ht : t.val ≠ 0) : (dat15 V c).Φ t ⊢ Pipeline.ΦA spec15 c := by
  rw [show (dat15 V c).Φ t = PhiS15 V c t.val (Nat.le_of_lt_succ t.isLt) from rfl, PhiS15_pos V c _ _ ht, PhiA15_eq]
  iintro ⟨⟨HS, Hr⟩, Hg⟩
  isplitl [HS Hr]
  · isplitl [HS]
    · iexists _; iexact HS
    iexact Hr
  iexact Hg

/-- The same after the last point. -/
theorem hout15 (c : Dev nD) : (dat15 V c).Φ (Fin.last cfg15.N) ⊢ Pipeline.ΦA spec15 c :=
  Phi_out15 V c _ (by rw [Fin.val_last]; have : cfg15.N = 20 := N_15; omega)

end

end Cert.KernelIdeal.Hand

end
-- ==== Proof.KernelIdeal.Reg16.lean ====
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's staging buffer holds its block at every point, fetched there or not, for any proof data whose
    array is `V`'s and whose body leaves the block in place: the window is uncut and never idle. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
/-- Input window 1's staging buffer holds its block at every point, fetched there or not, for any proof data whose
    array is `V`'s and whose body leaves the block in place: the window is uncut and never idle. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
/-- Input window 2's staging buffer holds its block at every point, fetched there or not, for any proof data whose
    array is `V`'s and whose body leaves the block in place: the window is uncut and never idle. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
/-- Input window 3's staging buffer holds its block at every point, fetched there or not, for any proof data whose
    array is `V`'s and whose body leaves the block in place: the window is uncut and never idle. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)
/-- Input window 4's staging buffer holds its block at every point, fetched there or not, for any proof data whose
    array is `V`'s and whose body leaves the block in place: the window is uncut and never idle. -/
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses: each a whole buffer -/

abbrev r16_0 : Rect S256x192 := Rect.unit (s := S256x192) ![0, 0] S256x192.size inb_S256x192_S256x192_0_0
abbrev r16_1 : Rect S192x192 := Rect.unit (s := S192x192) ![0, 0] S192x192.size inb_S192x192_S192x192_0_0
abbrev r16_2 : Rect S1x192 := Rect.unit (s := S1x192) ![0, 0] S1x192.size inb_S1x192_S1x192_0_0
abbrev r16_3 : Rect S192x10 := Rect.unit (s := S192x10) ![0, 0] S192x10.size inb_S192x10_S192x10_0_0
abbrev r16_4 : Rect S1x10 := Rect.unit (s := S1x10) ![0, 0] S1x10.size inb_S1x10_S1x10_0_0
abbrev r16_5 : Rect S256x10 := Rect.unit (s := S256x10) ![0, 0] S256x10.size inb_S256x10_S256x10_0_0

/-! ## What the body leaves in the output window's buffer -/

/-- Window 5's staging buffer after the body, from the input windows' blocks: its one store, the whole buffer at the
    payload of the five loaded inputs. -/
def out16_5 (x0 : Vec F S256x192 .f32) (x1 : Vec F S192x192 .f32) (x2 : Vec F S1x192 .f32) (x3 : Vec F S192x10 .f32) (x4 : Vec F S1x10 .f32) : Vec F S256x10 .f32 :=
  View.canon [⟨r16_5, k16_pay1 (View.ld x0 r16_0) (View.ld x1 r16_1) (View.ld x2 r16_2) (View.ld x3 r16_3) (View.ld x4 r16_4)⟩]

/-- The store tiles the buffer, so it covers it. -/
theorem cover16_5 (p0 : Vec F S256x10 .f32) (y : S256x10.Idx) :
    ∃ pc ∈ ([⟨r16_5, p0⟩] : List (View.Piece (Elt F) S256x10 .f32)), y ∈ pc.1.set :=
  View.cover_of_tiled [⟨r16_5, p0⟩] S256x10.size (by rfl) y

/-! ## The body's triple -/

set_option maxHeartbeats 1000000 in
/-- The kernel body on whole staging memrefs, the inputs' at read contents `xW` and the output's at anything, runs to
    the continuation holding the inputs' as they were and the output's at `out16_5` of the inputs'. -/
theorem sound_kernel16 (c : Dev nD) (E : Set ℕ) (i : grid16.Coords)
    (arg1 : Memref sig .tc .vmem S256x192 .f32) (harg1 : arg1.IsWhole)
    (arg2 : Memref sig .tc .vmem S192x192 .f32) (harg2 : arg2.IsWhole)
    (arg3 : Memref sig .tc .vmem S1x192 .f32) (harg3 : arg3.IsWhole)
    (arg4 : Memref sig .tc .vmem S192x10 .f32) (harg4 : arg4.IsWhole)
    (arg5 : Memref sig .tc .vmem S1x10 .f32) (harg5 : arg5.IsWhole)
    (arg6 : Memref sig .tc .vmem S256x10 .f32) (harg6 : arg6.IsWhole)
    (x0 : Vec F S256x192 .f32) (x1 : Vec F S192x192 .f32) (x2 : Vec F S1x192 .f32) (x3 : Vec F S192x10 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out16_5 x0 x1 x2 x3 x4)) -∗ K ⟨⟩))
      ⊢ wp frame (wpE (defs₀ (F := F)) Variants.none c none) E (cc16__mlp_kernel i arg1 harg1 arg2 harg2 arg3 harg3 arg4 harg4 arg5 harg5 arg6 harg6) K := by
  simp only [cc16__mlp_kernel_eq_skeleton]; unfold cc16__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover16_5 _)

/-! ## The pipeline's proof data -/

/-- The proof data of pipeline 16 on core `c`, at the region-entry contents `V`: after the body each input's buffer
    at its block and the output's at `out16_5` of the input blocks; the invariant the scoped rest and the random-bits
    register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => out16_5 (iblk16 V c 0 t) (iblk16 V c 1 t) (iblk16 V c 2 t) (iblk16 V c 3 t) (iblk16 V c 4 t)
  Φ _ := Pipeline.ΦA spec16 c
  q _ := fullShare
  owed _ := 0

theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = out16_5 (iblk16 V c 0 t) (iblk16 V c 1 t) (iblk16 V c 2 t) (iblk16 V c 3 t) (iblk16 V c 4 t) := by dsimp only [dat16]

/-- Each input's staging buffer holds its block at every point. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t))

/-- The body at any point: the inputs' memrefs hold their blocks, so the body's triple applies; the invariant and the
    core's `owes` pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4]
  rw [show (dat16 V c).Φ t.succ = (dat16 V c).Φ t.castSucc from rfl,
    show (dat16 V c).owesAt () t.succ = (dat16 V c).owesAt () t.castSucc from rfl,
    after16_0, after16_1, after16_2, after16_3, after16_4, after16_5]
  iintro ⟨HΦ, Ho, ⟨%d0, H0⟩, ⟨%d1, H1⟩, ⟨%d2, H2⟩, ⟨%d3, H3⟩, ⟨%d4, H4⟩, ⟨%d5, H5⟩⟩
  iapply (sound_kernel16 c Set.univ (grid16.coords t) _ _ _ _ _ _ _ _ _ _ _ _
    (iblk16 V c 0 t) (iblk16 V c 1 t) (iblk16 V c 2 t) (iblk16 V c 3 t) (iblk16 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation16 (c : Dev nD) : BodyObligation (dat16 (F := F) V c) (defs₀ (F := F)) Variants.none () Set.univ := fun t => by
  rw [bigSep_W16, bigSep_W16]
  exact sound_body16 V c t

/-- The invariant is the region's own at every point, so entry and exit are the identity. -/
theorem hin16 (c : Dev nD) : Pipeline.ΦA spec16 c ⊢ (dat16 V c).Φ 0 := by
  rw [show (dat16 V c).Φ 0 = Pipeline.ΦA spec16 c from rfl]

theorem hout16 (c : Dev nD) : (dat16 V c).Φ (Fin.last cfg16.N) ⊢ Pipeline.ΦA spec16 c := by
  rw [show (dat16 V c).Φ (Fin.last cfg16.N) = Pipeline.ΦA spec16 c from rfl]

end

end Cert.KernelIdeal.Hand

end
-- ==== Proof.KernelIdeal.Fold.lean ====
/- The contents of every unscoped buffer at each boundary of the program's items, folded from the launch memory:
   a host stretch applies its operations, a kernel region overwrites its output arrays with what its pipeline leaves.
   Also: the family of proof data (each region's at its entry contents) and the agreement of this fold with the
   conditional frame's valuations. -/
import proofs.«422469_j24000277250640_1_alg».proof.Proof.Gen.KernelIdeal.Launch
import proofs.«422469_j24000277250640_1_alg».proof.Proof.Gen.KernelIdeal.Skeleton
import proofs.«422469_j24000277250640_1_alg».proof.Proof.Gen.KernelIdeal.Points
import proofs.«422469_j24000277250640_1_alg».proof.Proof.KernelIdeal.RegionsP
import proofs.«422469_j24000277250640_1_alg».proof.Proof.KernelIdeal.Reg0
import proofs.«422469_j24000277250640_1_alg».proof.Proof.KernelIdeal.Reg1
import proofs.«422469_j24000277250640_1_alg».proof.Proof.KernelIdeal.Reg2
import proofs.«422469_j24000277250640_1_alg».proof.Proof.KernelIdeal.Reg3
import proofs.«422469_j24000277250640_1_alg».proof.Proof.KernelIdeal.Reg4
import proofs.«422469_j24000277250640_1_alg».proof.Proof.KernelIdeal.Reg5
import proofs.«422469_j24000277250640_1_alg».proof.Proof.KernelIdeal.Reg6
import proofs.«422469_j24000277250640_1_alg».proof.Proof.KernelIdeal.Reg7
import proofs.«422469_j24000277250640_1_alg».proof.Proof.KernelIdeal.Reg8
import proofs.«422469_j24000277250640_1_alg».proof.Proof.KernelIdeal.Reg9
import proofs.«422469_j24000277250640_1_alg».proof.Proof.KernelIdeal.Reg10
import proofs.«422469_j24000277250640_1_alg».proof.Proof.KernelIdeal.Reg11
import proofs.«422469_j24000277250640_1_alg».proof.Proof.KernelIdeal.Reg12
import proofs.«422469_j24000277250640_1_alg».proof.Proof.KernelIdeal.Reg13
import proofs.«422469_j24000277250640_1_alg».proof.Proof.KernelIdeal.Reg14
import proofs.«422469_j24000277250640_1_alg».proof.Proof.KernelIdeal.Reg15
import proofs.«422469_j24000277250640_1_alg».proof.Proof.KernelIdeal.Reg16
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Two laws of pointwise update -/

theorem update_idem {α : Type} [DecidableEq α] {β : α → Type} (f : ∀ a, β a) (a : α) (x : β a) :
    Function.update f a (Function.update f a x a) = Function.update f a x := by rw [Function.update_self]

theorem update_idem₂ {α : Type} [DecidableEq α] {β : α → Type} (f : ∀ a, β a) (a b : α) (hab : a ≠ b) (x : β a) (y : β b) :
    Function.update (Function.update f a (Function.update (Function.update f a x) b y a)) b
        (Function.update (Function.update f a x) b y b)
      = Function.update (Function.update f a x) b y := by
  rw [Function.update_self, Function.update_of_ne hab, Function.update_self]

/-! ## What rides beside the buffers -/

/-- Beside the buffers, through every item: the core's generator register at some state and the core owing nothing. -/
abbrev R (c : Dev nD) : sProp 𝕄 := iprop((∃ r, prngReg c r) ∗ ∃ W, owes (c : Thread nD τ) (0 : CellTallies nD τ sig Unit) W)

/-! ## The fold -/

/-- Core `c`'s unscoped buffers at launch. -/
abbrev W0 (c : Dev nD) : Valuation τ sig (Elt F) := fun b => m (c, b)
/-- After the host stretch `hostOps0`. -/
abbrev W1 (c : Dev nD) : Valuation τ sig (Elt F) := StableHlo.after hostOps0 (W0 m c)
/-- After the host stretch `hostOps0_1`. -/
abbrev W2 (c : Dev nD) : Valuation τ sig (Elt F) := StableHlo.after hostOps0_1 (W1 m c)
/-- After the host stretch `hostOps0_2`. -/
abbrev W3 (c : Dev nD) : Valuation τ sig (Elt F) := StableHlo.after hostOps0_2 (W2 m c)
/-- Region 0's entry contents, read at the TensorCore's references. -/
abbrev Ven0 : (c : Dev nD) → (b : Ref sig .tc) → Buf (Elt F) ((c : Thread nD τ).loc b) := fun c b => W3 m c b
/-- At region 0's exit: each output array at what the pipeline leaves, every other buffer as entered. -/
def W4 (c : Dev nD) : Valuation τ sig (Elt F) :=
  Function.update (W3 m c) main_v39 ((dat0 (Ven0 m) c).arrAt 2 cfg0.N)
/-- Region 0's exit contents, read at the TensorCore's references. -/
abbrev Vex0 : (c : Dev nD) → (b : Ref sig .tc) → Buf (Elt F) ((c : Thread nD τ).loc b) := fun c b => W4 m c b
/-- After the host stretch `hostOps1`. -/
abbrev W5 (c : Dev nD) : Valuation τ sig (Elt F) := StableHlo.after hostOps1 (W4 m c)
/-- Region 1's entry contents, read at the TensorCore's references. -/
abbrev Ven1 : (c : Dev nD) → (b : Ref sig .tc) → Buf (Elt F) ((c : Thread nD τ).loc b) := fun c b => W5 m c b
/-- At region 1's exit: each output array at what the pipeline leaves, every other buffer as entered. -/
def W6 (c : Dev nD) : Valuation τ sig (Elt F) :=
  Function.update (W5 m c) main_v58 ((dat1 (Ven1 m) c).arrAt 3 cfg1.N)
/-- Region 1's exit contents, read at the TensorCore's references. -/
abbrev Vex1 : (c : Dev nD) → (b : Ref sig .tc) → Buf (Elt F) ((c : Thread nD τ).loc b) := fun c b => W6 m c b
/-- After the host stretch `hostOps2`. -/
abbrev W7 (c : Dev nD) : Valuation τ sig (Elt F) := StableHlo.after hostOps2 (W6 m c)
/-- Region 2's entry contents, read at the TensorCore's references. -/
abbrev Ven2 : (c : Dev nD) → (b : Ref sig .tc) → Buf (Elt F) ((c : Thread nD τ).loc b) := fun c b => W7 m c b
/-- At region 2's exit: each output array at what the pipeline leaves, every other buffer as entered. -/
def W8 (c : Dev nD) : Valuation τ sig (Elt F) :=
  Function.update (Function.update (W7 m c) main_v69_0 ((dat2 (Ven2 m) c).arrAt 3 cfg2.N)) main_v69_1 ((dat2 (Ven2 m) c).arrAt 4 cfg2.N)
/-- Region 2's exit contents, read at the TensorCore's references. -/
abbrev Vex2 : (c : Dev nD) → (b : Ref sig .tc) → Buf (Elt F) ((c : Thread nD τ).loc b) := fun c b => W8 m c b
/-- Region 3's entry contents, read at the TensorCore's references. -/
abbrev Ven3 : (c : Dev nD) → (b : Ref sig .tc) → Buf (Elt F) ((c : Thread nD τ).loc b) := fun c b => W8 m c b
/-- At region 3's exit: each output array at what the pipeline leaves, every other buffer as entered. -/
def W9 (c : Dev nD) : Valuation τ sig (Elt F) :=
  Function.update (W8 m c) main_v70 ((dat3 (Ven3 m) c).arrAt 3 cfg3.N)
/-- Region 3's exit contents, read at the TensorCore's references. -/
abbrev Vex3 : (c : Dev nD) → (b : Ref sig .tc) → Buf (Elt F) ((c : Thread nD τ).loc b) := fun c b => W9 m c b
/-- After the host stretch `hostOps4`. -/
abbrev W10 (c : Dev nD) : Valuation τ sig (Elt F) := StableHlo.after hostOps4 (W9 m c)
/-- Region 4's entry contents, read at the TensorCore's references. -/
abbrev Ven4 : (c : Dev nD) → (b : Ref sig .tc) → Buf (Elt F) ((c : Thread nD τ).loc b) := fun c b => W10 m c b
/-- At region 4's exit: each output array at what the pipeline leaves, every other buffer as entered. -/
def W11 (c : Dev nD) : Valuation τ sig (Elt F) :=
  Function.update (W10 m c) main_v84 ((dat4 (Ven4 m) c).arrAt 4 cfg4.N)
/-- Region 4's exit contents, read at the TensorCore's references. -/
abbrev Vex4 : (c : Dev nD) → (b : Ref sig .tc) → Buf (Elt F) ((c : Thread nD τ).loc b) := fun c b => W11 m c b
/-- After the host stretch `hostOps5`. -/
abbrev W12 (c : Dev nD) : Valuation τ sig (Elt F) := StableHlo.after hostOps5 (W11 m c)
/-- Region 5's entry contents, read at the TensorCore's references. -/
abbrev Ven5 : (c : Dev nD) → (b : Ref sig .tc) → Buf (Elt F) ((c : Thread nD τ).loc b) := fun c b => W12 m c b
/-- At region 5's exit: each output array at what the pipeline leaves, every other buffer as entered. -/
def W13 (c : Dev nD) : Valuation τ sig (Elt F) :=
  Function.update (W12 m c) main_v87 ((dat5 (Ven5 m) c).arrAt 2 cfg5.N)
/-- Region 5's exit contents, read at the TensorCore's references. -/
abbrev Vex5 : (c : Dev nD) → (b : Ref sig .tc) → Buf (Elt F) ((c : Thread nD τ).loc b) := fun c b => W13 m c b
/-- After the host stretch `hostOps6`. -/
abbrev W14 (c : Dev nD) : Valuation τ sig (Elt F) := StableHlo.after hostOps6 (W13 m c)
/-- Region 6's entry contents, read at the TensorCore's references. -/
abbrev Ven6 : (c : Dev nD) → (b : Ref sig .tc) → Buf (Elt F) ((c : Thread nD τ).loc b) := fun c b => W14 m c b
/-- At region 6's exit: each output array at what the pipeline leaves, every other buffer as entered. -/
def W15 (c : Dev nD) : Valuation τ sig (Elt F) :=
  Function.update (W14 m c) main_v106 ((dat6 (Ven6 m) c).arrAt 3 cfg6.N)
/-- Region 6's exit contents, read at the TensorCore's references. -/
abbrev Vex6 : (c : Dev nD) → (b : Ref sig .tc) → Buf (Elt F) ((c : Thread nD τ).loc b) := fun c b => W15 m c b
/-- After the host stretch `hostOps7`. -/
abbrev W16 (c : Dev nD) : Valuation τ sig (Elt F) := StableHlo.after hostOps7 (W15 m c)
/-- Region 7's entry contents, read at the TensorCore's references. -/
abbrev Ven7 : (c : Dev nD) → (b : Ref sig .tc) → Buf (Elt F) ((c : Thread nD τ).loc b) := fun c b => W16 m c b
/-- At region 7's exit: each output array at what the pipeline leaves, every other buffer as entered. -/
def W17 (c : Dev nD) : Valuation τ sig (Elt F) :=
  Function.update (Function.update (W16 m c) main_v117_0 ((dat7 (Ven7 m) c).arrAt 3 cfg7.N)) main_v117_1 ((dat7 (Ven7 m) c).arrAt 4 cfg7.N)
/-- Region 7's exit contents, read at the TensorCore's references. -/
abbrev Vex7 : (c : Dev nD) → (b : Ref sig .tc) → Buf (Elt F) ((c : Thread nD τ).loc b) := fun c b => W17 m c b
/-- Region 8's entry contents, read at the TensorCore's references. -/
abbrev Ven8 : (c : Dev nD) → (b : Ref sig .tc) → Buf (Elt F) ((c : Thread nD τ).loc b) := fun c b => W17 m c b
/-- At region 8's exit: each output array at what the pipeline leaves, every other buffer as entered. -/
def W18 (c : Dev nD) : Valuation τ sig (Elt F) :=
  Function.update (W17 m c) main_v118 ((dat8 (Ven8 m) c).arrAt 3 cfg8.N)
/-- Region 8's exit contents, read at the TensorCore's references. -/
abbrev Vex8 : (c : Dev nD) → (b : Ref sig .tc) → Buf (Elt F) ((c : Thread nD τ).loc b) := fun c b => W18 m c b
/-- After the host stretch `hostOps9`. -/
abbrev W19 (c : Dev nD) : Valuation τ sig (Elt F) := StableHlo.after hostOps9 (W18 m c)
/-- Region 9's entry contents, read at the TensorCore's references. -/
abbrev Ven9 : (c : Dev nD) → (b : Ref sig .tc) → Buf (Elt F) ((c : Thread nD τ).loc b) := fun c b => W19 m c b
/-- At region 9's exit: each output array at what the pipeline leaves, every other buffer as entered. -/
def W20 (c : Dev nD) : Valuation τ sig (Elt F) :=
  Function.update (W19 m c) main_v132 ((dat9 (Ven9 m) c).arrAt 4 cfg9.N)
/-- Region 9's exit contents, read at the TensorCore's references. -/
abbrev Vex9 : (c : Dev nD) → (b : Ref sig .tc) → Buf (Elt F) ((c : Thread nD τ).loc b) := fun c b => W20 m c b
/-- After the host stretch `hostOps10`. -/
abbrev W21 (c : Dev nD) : Valuation τ sig (Elt F) := StableHlo.after hostOps10 (W20 m c)
/-- Region 10's entry contents, read at the TensorCore's references. -/
abbrev Ven10 : (c : Dev nD) → (b : Ref sig .tc) → Buf (Elt F) ((c : Thread nD τ).loc b) := fun c b => W21 m c b
/-- At region 10's exit: each output array at what the pipeline leaves, every other buffer as entered. -/
def W22 (c : Dev nD) : Valuation τ sig (Elt F) :=
  Function.update (W21 m c) main_v135 ((dat10 (Ven10 m) c).arrAt 2 cfg10.N)
/-- Region 10's exit contents, read at the TensorCore's references. -/
abbrev Vex10 : (c : Dev nD) → (b : Ref sig .tc) → Buf (Elt F) ((c : Thread nD τ).loc b) := fun c b => W22 m c b
/-- After the host stretch `hostOps11`. -/
abbrev W23 (c : Dev nD) : Valuation τ sig (Elt F) := StableHlo.after hostOps11 (W22 m c)
/-- Region 11's entry contents, read at the TensorCore's references. -/
abbrev Ven11 : (c : Dev nD) → (b : Ref sig .tc) → Buf (Elt F) ((c : Thread nD τ).loc b) := fun c b => W23 m c b
/-- At region 11's exit: each output array at what the pipeline leaves, every other buffer as entered. -/
def W24 (c : Dev nD) : Valuation τ sig (Elt F) :=
  Function.update (W23 m c) main_v154 ((dat11 (Ven11 m) c).arrAt 3 cfg11.N)
/-- Region 11's exit contents, read at the TensorCore's references. -/
abbrev Vex11 : (c : Dev nD) → (b : Ref sig .tc) → Buf (Elt F) ((c : Thread nD τ).loc b) := fun c b => W24 m c b
/-- After the host stretch `hostOps12`. -/
abbrev W25 (c : Dev nD) : Valuation τ sig (Elt F) := StableHlo.after hostOps12 (W24 m c)
/-- Region 12's entry contents, read at the TensorCore's references. -/
abbrev Ven12 : (c : Dev nD) → (b : Ref sig .tc) → Buf (Elt F) ((c : Thread nD τ).loc b) := fun c b => W25 m c b
/-- At region 12's exit: each output array at what the pipeline leaves, every other buffer as entered. -/
def W26 (c : Dev nD) : Valuation τ sig (Elt F) :=
  Function.update (Function.update (W25 m c) main_v165_0 ((dat12 (Ven12 m) c).arrAt 3 cfg12.N)) main_v165_1 ((dat12 (Ven12 m) c).arrAt 4 cfg12.N)
/-- Region 12's exit contents, read at the TensorCore's references. -/
abbrev Vex12 : (c : Dev nD) → (b : Ref sig .tc) → Buf (Elt F) ((c : Thread nD τ).loc b) := fun c b => W26 m c b
/-- Region 13's entry contents, read at the TensorCore's references. -/
abbrev Ven13 : (c : Dev nD) → (b : Ref sig .tc) → Buf (Elt F) ((c : Thread nD τ).loc b) := fun c b => W26 m c b
/-- At region 13's exit: each output array at what the pipeline leaves, every other buffer as entered. -/
def W27 (c : Dev nD) : Valuation τ sig (Elt F) :=
  Function.update (W26 m c) main_v166 ((dat13 (Ven13 m) c).arrAt 3 cfg13.N)
/-- Region 13's exit contents, read at the TensorCore's references. -/
abbrev Vex13 : (c : Dev nD) → (b : Ref sig .tc) → Buf (Elt F) ((c : Thread nD τ).loc b) := fun c b => W27 m c b
/-- After the host stretch `hostOps14`. -/
abbrev W28 (c : Dev nD) : Valuation τ sig (Elt F) := StableHlo.after hostOps14 (W27 m c)
/-- Region 14's entry contents, read at the TensorCore's references. -/
abbrev Ven14 : (c : Dev nD) → (b : Ref sig .tc) → Buf (Elt F) ((c : Thread nD τ).loc b) := fun c b => W28 m c b
/-- At region 14's exit: each output array at what the pipeline leaves, every other buffer as entered. -/
def W29 (c : Dev nD) : Valuation τ sig (Elt F) :=
  Function.update (W28 m c) main_v180 ((dat14 (Ven14 m) c).arrAt 4 cfg14.N)
/-- Region 14's exit contents, read at the TensorCore's references. -/
abbrev Vex14 : (c : Dev nD) → (b : Ref sig .tc) → Buf (Elt F) ((c : Thread nD τ).loc b) := fun c b => W29 m c b
/-- After the host stretch `hostOps15`. -/
abbrev W30 (c : Dev nD) : Valuation τ sig (Elt F) := StableHlo.after hostOps15 (W29 m c)
/-- Region 15's entry contents, read at the TensorCore's references. -/
abbrev Ven15 : (c : Dev nD) → (b : Ref sig .tc) → Buf (Elt F) ((c : Thread nD τ).loc b) := fun c b => W30 m c b
/-- At region 15's exit: each output array at what the pipeline leaves, every other buffer as entered. -/
def W31 (c : Dev nD) : Valuation τ sig (Elt F) :=
  Function.update (W30 m c) main_v182 ((dat15 (Ven15 m) c).arrAt 3 cfg15.N)
/-- Region 15's exit contents, read at the TensorCore's references. -/
abbrev Vex15 : (c : Dev nD) → (b : Ref sig .tc) → Buf (Elt F) ((c : Thread nD τ).loc b) := fun c b => W31 m c b
/-- After the host stretch `hostOps16`. -/
abbrev W32 (c : Dev nD) : Valuation τ sig (Elt F) := StableHlo.after hostOps16 (W31 m c)
/-- Region 16's entry contents, read at the TensorCore's references. -/
abbrev Ven16 : (c : Dev nD) → (b : Ref sig .tc) → Buf (Elt F) ((c : Thread nD τ).loc b) := fun c b => W32 m c b
/-- At region 16's exit: each output array at what the pipeline leaves, every other buffer as entered. -/
def W33 (c : Dev nD) : Valuation τ sig (Elt F) :=
  Function.update (W32 m c) main_v185 ((dat16 (Ven16 m) c).arrAt 5 cfg16.N)
/-- Region 16's exit contents, read at the TensorCore's references. -/
abbrev Vex16 : (c : Dev nD) → (b : Ref sig .tc) → Buf (Elt F) ((c : Thread nD τ).loc b) := fun c b => W33 m c b

/-! ## The proof data, each region's at its entry contents -/

/-- Every pipeline's proof data: a literal `match`, so that at a numeral it reduces to that region's record. -/
def pdats : (p : Fin 17) → (c : Dev nD) → Dat τ (Elt F) Unit ℕ (UR sig nD τ) ℕ (cfgs p) c
  | ⟨0, _⟩ => fun c => dat0 (Ven0 m) c
  | ⟨1, _⟩ => fun c => dat1 (Ven1 m) c
  | ⟨2, _⟩ => fun c => dat2 (Ven2 m) c
  | ⟨3, _⟩ => fun c => dat3 (Ven3 m) c
  | ⟨4, _⟩ => fun c => dat4 (Ven4 m) c
  | ⟨5, _⟩ => fun c => dat5 (Ven5 m) c
  | ⟨6, _⟩ => fun c => dat6 (Ven6 m) c
  | ⟨7, _⟩ => fun c => dat7 (Ven7 m) c
  | ⟨8, _⟩ => fun c => dat8 (Ven8 m) c
  | ⟨9, _⟩ => fun c => dat9 (Ven9 m) c
  | ⟨10, _⟩ => fun c => dat10 (Ven10 m) c
  | ⟨11, _⟩ => fun c => dat11 (Ven11 m) c
  | ⟨12, _⟩ => fun c => dat12 (Ven12 m) c
  | ⟨13, _⟩ => fun c => dat13 (Ven13 m) c
  | ⟨14, _⟩ => fun c => dat14 (Ven14 m) c
  | ⟨15, _⟩ => fun c => dat15 (Ven15 m) c
  | ⟨16, _⟩ => fun c => dat16 (Ven16 m) c
  | ⟨_ + 17, h⟩ => absurd h (Nat.not_lt.2 (Nat.le_add_left _ _))

/-! ## The fold against the conditional frame's valuations -/

/-- What the regions leave, as the conditional frame reads it: the fold at the boundary after the region. -/
def outs : GenP.Outs (F := F) := fun J r c =>
  match J with
  | 4 => W4 m c r
  | 6 => W6 m c r
  | 8 => W8 m c r
  | 9 => W9 m c r
  | 11 => W11 m c r
  | 13 => W13 m c r
  | 15 => W15 m c r
  | 17 => W17 m c r
  | 18 => W18 m c r
  | 20 => W20 m c r
  | 22 => W22 m c r
  | 24 => W24 m c r
  | 26 => W26 m c r
  | 27 => W27 m c r
  | 29 => W29 m c r
  | 31 => W31 m c r
  | 33 => W33 m c r
  | _ => W0 m c r

theorem V0_eq (c : Dev nD) : GenP.V0 m c = W0 m c := rfl
theorem V1_eq (c : Dev nD) : GenP.V1 m c = W1 m c := by
  show StableHlo.after hostOps0 (GenP.V0 m c) = _
  rw [V0_eq]
theorem V2_eq (c : Dev nD) : GenP.V2 m c = W2 m c := by
  show StableHlo.after hostOps0_1 (GenP.V1 m c) = _
  rw [V1_eq]
theorem V3_eq (c : Dev nD) : GenP.V3 m c = W3 m c := by
  show StableHlo.after hostOps0_2 (GenP.V2 m c) = _
  rw [V2_eq]
theorem V4_eq (c : Dev nD) : GenP.V4 m (outs m) c = W4 m c := by
  show Function.update (GenP.V3 m c) main_v39 (W4 m c main_v39) = _
  rw [V3_eq]
  exact update_idem _ _ _
theorem V5_eq (c : Dev nD) : GenP.V5 m (outs m) c = W5 m c := by
  show StableHlo.after hostOps1 (GenP.V4 m (outs m) c) = _
  rw [V4_eq]
theorem V6_eq (c : Dev nD) : GenP.V6 m (outs m) c = W6 m c := by
  show Function.update (GenP.V5 m (outs m) c) main_v58 (W6 m c main_v58) = _
  rw [V5_eq]
  exact update_idem _ _ _
theorem V7_eq (c : Dev nD) : GenP.V7 m (outs m) c = W7 m c := by
  show StableHlo.after hostOps2 (GenP.V6 m (outs m) c) = _
  rw [V6_eq]
theorem V8_eq (c : Dev nD) : GenP.V8 m (outs m) c = W8 m c := by
  show Function.update (Function.update (GenP.V7 m (outs m) c) main_v69_0 (W8 m c main_v69_0)) main_v69_1 (W8 m c main_v69_1) = _
  rw [V7_eq]
  exact update_idem₂ _ _ _ (by decide) _ _
theorem V9_eq (c : Dev nD) : GenP.V9 m (outs m) c = W9 m c := by
  show Function.update (GenP.V8 m (outs m) c) main_v70 (W9 m c main_v70) = _
  rw [V8_eq]
  exact update_idem _ _ _
theorem V10_eq (c : Dev nD) : GenP.V10 m (outs m) c = W10 m c := by
  show StableHlo.after hostOps4 (GenP.V9 m (outs m) c) = _
  rw [V9_eq]
theorem V11_eq (c : Dev nD) : GenP.V11 m (outs m) c = W11 m c := by
  show Function.update (GenP.V10 m (outs m) c) main_v84 (W11 m c main_v84) = _
  rw [V10_eq]
  exact update_idem _ _ _
theorem V12_eq (c : Dev nD) : GenP.V12 m (outs m) c = W12 m c := by
  show StableHlo.after hostOps5 (GenP.V11 m (outs m) c) = _
  rw [V11_eq]
theorem V13_eq (c : Dev nD) : GenP.V13 m (outs m) c = W13 m c := by
  show Function.update (GenP.V12 m (outs m) c) main_v87 (W13 m c main_v87) = _
  rw [V12_eq]
  exact update_idem _ _ _
theorem V14_eq (c : Dev nD) : GenP.V14 m (outs m) c = W14 m c := by
  show StableHlo.after hostOps6 (GenP.V13 m (outs m) c) = _
  rw [V13_eq]
theorem V15_eq (c : Dev nD) : GenP.V15 m (outs m) c = W15 m c := by
  show Function.update (GenP.V14 m (outs m) c) main_v106 (W15 m c main_v106) = _
  rw [V14_eq]
  exact update_idem _ _ _
theorem V16_eq (c : Dev nD) : GenP.V16 m (outs m) c = W16 m c := by
  show StableHlo.after hostOps7 (GenP.V15 m (outs m) c) = _
  rw [V15_eq]
theorem V17_eq (c : Dev nD) : GenP.V17 m (outs m) c = W17 m c := by
  show Function.update (Function.update (GenP.V16 m (outs m) c) main_v117_0 (W17 m c main_v117_0)) main_v117_1 (W17 m c main_v117_1) = _
  rw [V16_eq]
  exact update_idem₂ _ _ _ (by decide) _ _
theorem V18_eq (c : Dev nD) : GenP.V18 m (outs m) c = W18 m c := by
  show Function.update (GenP.V17 m (outs m) c) main_v118 (W18 m c main_v118) = _
  rw [V17_eq]
  exact update_idem _ _ _
theorem V19_eq (c : Dev nD) : GenP.V19 m (outs m) c = W19 m c := by
  show StableHlo.after hostOps9 (GenP.V18 m (outs m) c) = _
  rw [V18_eq]
theorem V20_eq (c : Dev nD) : GenP.V20 m (outs m) c = W20 m c := by
  show Function.update (GenP.V19 m (outs m) c) main_v132 (W20 m c main_v132) = _
  rw [V19_eq]
  exact update_idem _ _ _
theorem V21_eq (c : Dev nD) : GenP.V21 m (outs m) c = W21 m c := by
  show StableHlo.after hostOps10 (GenP.V20 m (outs m) c) = _
  rw [V20_eq]
theorem V22_eq (c : Dev nD) : GenP.V22 m (outs m) c = W22 m c := by
  show Function.update (GenP.V21 m (outs m) c) main_v135 (W22 m c main_v135) = _
  rw [V21_eq]
  exact update_idem _ _ _
theorem V23_eq (c : Dev nD) : GenP.V23 m (outs m) c = W23 m c := by
  show StableHlo.after hostOps11 (GenP.V22 m (outs m) c) = _
  rw [V22_eq]
theorem V24_eq (c : Dev nD) : GenP.V24 m (outs m) c = W24 m c := by
  show Function.update (GenP.V23 m (outs m) c) main_v154 (W24 m c main_v154) = _
  rw [V23_eq]
  exact update_idem _ _ _
theorem V25_eq (c : Dev nD) : GenP.V25 m (outs m) c = W25 m c := by
  show StableHlo.after hostOps12 (GenP.V24 m (outs m) c) = _
  rw [V24_eq]
theorem V26_eq (c : Dev nD) : GenP.V26 m (outs m) c = W26 m c := by
  show Function.update (Function.update (GenP.V25 m (outs m) c) main_v165_0 (W26 m c main_v165_0)) main_v165_1 (W26 m c main_v165_1) = _
  rw [V25_eq]
  exact update_idem₂ _ _ _ (by decide) _ _
theorem V27_eq (c : Dev nD) : GenP.V27 m (outs m) c = W27 m c := by
  show Function.update (GenP.V26 m (outs m) c) main_v166 (W27 m c main_v166) = _
  rw [V26_eq]
  exact update_idem _ _ _
theorem V28_eq (c : Dev nD) : GenP.V28 m (outs m) c = W28 m c := by
  show StableHlo.after hostOps14 (GenP.V27 m (outs m) c) = _
  rw [V27_eq]
theorem V29_eq (c : Dev nD) : GenP.V29 m (outs m) c = W29 m c := by
  show Function.update (GenP.V28 m (outs m) c) main_v180 (W29 m c main_v180) = _
  rw [V28_eq]
  exact update_idem _ _ _
theorem V30_eq (c : Dev nD) : GenP.V30 m (outs m) c = W30 m c := by
  show StableHlo.after hostOps15 (GenP.V29 m (outs m) c) = _
  rw [V29_eq]
theorem V31_eq (c : Dev nD) : GenP.V31 m (outs m) c = W31 m c := by
  show Function.update (GenP.V30 m (outs m) c) main_v182 (W31 m c main_v182) = _
  rw [V30_eq]
  exact update_idem _ _ _
theorem V32_eq (c : Dev nD) : GenP.V32 m (outs m) c = W32 m c := by
  show StableHlo.after hostOps16 (GenP.V31 m (outs m) c) = _
  rw [V31_eq]
theorem V33_eq (c : Dev nD) : GenP.V33 m (outs m) c = W33 m c := by
  show Function.update (GenP.V32 m (outs m) c) main_v185 (W33 m c main_v185) = _
  rw [V32_eq]
  exact update_idem _ _ _

/-! ## Each region's entry and exit, as the conditional frame names them -/

theorem Ven_eq0 (c : Dev nD) : GenP.V3 m c = W3 m c := V3_eq m c
theorem Vex_eq0 (c : Dev nD) : GenP.V4 m (outs m) c = W4 m c := V4_eq m c
theorem Ven_eq1 (c : Dev nD) : GenP.V5 m (outs m) c = W5 m c := V5_eq m c
theorem Vex_eq1 (c : Dev nD) : GenP.V6 m (outs m) c = W6 m c := V6_eq m c
theorem Ven_eq2 (c : Dev nD) : GenP.V7 m (outs m) c = W7 m c := V7_eq m c
theorem Vex_eq2 (c : Dev nD) : GenP.V8 m (outs m) c = W8 m c := V8_eq m c
theorem Ven_eq3 (c : Dev nD) : GenP.V8 m (outs m) c = W8 m c := V8_eq m c
theorem Vex_eq3 (c : Dev nD) : GenP.V9 m (outs m) c = W9 m c := V9_eq m c
theorem Ven_eq4 (c : Dev nD) : GenP.V10 m (outs m) c = W10 m c := V10_eq m c
theorem Vex_eq4 (c : Dev nD) : GenP.V11 m (outs m) c = W11 m c := V11_eq m c
theorem Ven_eq5 (c : Dev nD) : GenP.V12 m (outs m) c = W12 m c := V12_eq m c
theorem Vex_eq5 (c : Dev nD) : GenP.V13 m (outs m) c = W13 m c := V13_eq m c
theorem Ven_eq6 (c : Dev nD) : GenP.V14 m (outs m) c = W14 m c := V14_eq m c
theorem Vex_eq6 (c : Dev nD) : GenP.V15 m (outs m) c = W15 m c := V15_eq m c
theorem Ven_eq7 (c : Dev nD) : GenP.V16 m (outs m) c = W16 m c := V16_eq m c
theorem Vex_eq7 (c : Dev nD) : GenP.V17 m (outs m) c = W17 m c := V17_eq m c
theorem Ven_eq8 (c : Dev nD) : GenP.V17 m (outs m) c = W17 m c := V17_eq m c
theorem Vex_eq8 (c : Dev nD) : GenP.V18 m (outs m) c = W18 m c := V18_eq m c
theorem Ven_eq9 (c : Dev nD) : GenP.V19 m (outs m) c = W19 m c := V19_eq m c
theorem Vex_eq9 (c : Dev nD) : GenP.V20 m (outs m) c = W20 m c := V20_eq m c
theorem Ven_eq10 (c : Dev nD) : GenP.V21 m (outs m) c = W21 m c := V21_eq m c
theorem Vex_eq10 (c : Dev nD) : GenP.V22 m (outs m) c = W22 m c := V22_eq m c
theorem Ven_eq11 (c : Dev nD) : GenP.V23 m (outs m) c = W23 m c := V23_eq m c
theorem Vex_eq11 (c : Dev nD) : GenP.V24 m (outs m) c = W24 m c := V24_eq m c
theorem Ven_eq12 (c : Dev nD) : GenP.V25 m (outs m) c = W25 m c := V25_eq m c
theorem Vex_eq12 (c : Dev nD) : GenP.V26 m (outs m) c = W26 m c := V26_eq m c
theorem Ven_eq13 (c : Dev nD) : GenP.V26 m (outs m) c = W26 m c := V26_eq m c
theorem Vex_eq13 (c : Dev nD) : GenP.V27 m (outs m) c = W27 m c := V27_eq m c
theorem Ven_eq14 (c : Dev nD) : GenP.V28 m (outs m) c = W28 m c := V28_eq m c
theorem Vex_eq14 (c : Dev nD) : GenP.V29 m (outs m) c = W29 m c := V29_eq m c
theorem Ven_eq15 (c : Dev nD) : GenP.V30 m (outs m) c = W30 m c := V30_eq m c
theorem Vex_eq15 (c : Dev nD) : GenP.V31 m (outs m) c = W31 m c := V31_eq m c
theorem Ven_eq16 (c : Dev nD) : GenP.V32 m (outs m) c = W32 m c := V32_eq m c
theorem Vex_eq16 (c : Dev nD) : GenP.V33 m (outs m) c = W33 m c := V33_eq m c

end Cert.KernelIdeal.Hand

end
-- ==== Proof.KernelIdeal.RunCond.lean ====
import proofs.«422469_j24000277250640_1_alg».proof.Proof.KernelIdeal.RegionsP

set_option maxRecDepth 1936

noncomputable section

namespace Cert.KernelIdeal.Hand

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

set_option backward.isDefEq.respectTransparency.types false in
/-- The conditional run with its values. Under the hypotheses of the conditional frame — per region a segment record
    entered from the thread state before it and left at the one after it —, every weakly fair execution of the program
    from memory `m` with zero counters terminates, and every final memory holds the two results at the last
    valuation `V33 m outs c` and each of the twelve arguments as launched. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 17) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V10 m outs c) ∗ E 4 c) ⊢ R4.pre c)
    (hpost4 : ∀ c : Dev nD, R4.post c ⊢ iprop(StableHlo.held (c : Thread nD τ) (Pipeline.ucRefs τ sig) (V11 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V12 m outs c) ∗ E 5 c) ⊢ R5.pre c)
    (hpost5 : ∀ c : Dev nD, R5.post c ⊢ iprop(StableHlo.held (c : Thread nD τ) (Pipeline.ucRefs τ sig) (V13 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V14 m outs c) ∗ E 6 c) ⊢ R6.pre c)
    (hpost6 : ∀ c : Dev nD, R6.post c ⊢ iprop(StableHlo.held (c : Thread nD τ) (Pipeline.ucRefs τ sig) (V15 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V16 m outs c) ∗ E 7 c) ⊢ R7.pre c)
    (hpost7 : ∀ c : Dev nD, R7.post c ⊢ iprop(StableHlo.held (c : Thread nD τ) (Pipeline.ucRefs τ sig) (V17 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V26 m outs c) ∗ E 13 c) ⊢ R13.pre c)
    (hpost13 : ∀ c : Dev nD, R13.post c ⊢ iprop(StableHlo.held (c : Thread nD τ) (Pipeline.ucRefs τ sig) (V27 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V28 m outs c) ∗ E 14 c) ⊢ R14.pre c)
    (hpost14 : ∀ c : Dev nD, R14.post c ⊢ iprop(StableHlo.held (c : Thread nD τ) (Pipeline.ucRefs τ sig) (V29 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V30 m outs c) ∗ E 15 c) ⊢ R15.pre c)
    (hpost15 : ∀ c : Dev nD, R15.post c ⊢ iprop(StableHlo.held (c : Thread nD τ) (Pipeline.ucRefs τ sig) (V31 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V32 m outs c) ∗ E 16 c) ⊢ R16.pre c)
    (hpost16 : ∀ c : Dev nD, R16.post c ⊢ iprop(StableHlo.held (c : Thread nD τ) (Pipeline.ucRefs τ sig) (V33 m outs c) ∗ E 17 c)) :
    θ_run defs (onTc (τ := τ) (main (F := F))) ⟨m, fun _ => 0, ρ⟩ (fun r => ∀ c : Dev nD,
      r.2.mem ((c.tc : Thread nD τ).loc main_v180) = GenP.V33 m outs c main_v180
      ∧ r.2.mem ((c.tc : Thread nD τ).loc main_v185) = GenP.V33 m outs c main_v185
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16)
    (fun c Q => by
      rewrite [main_chain c, Seg.run_eq_chain,
        show (segs m outs 𝒱₀ L lv E ι pdats R0 R1 R2 R3 R4 R5 R6 R7 R8 R9 R10 R11 R12 R13 R14 R15 R16 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V33 m outs c))
    (hch := fun c => ⟨.rfl, .rfl, .rfl, hpre0 c, hpost0 c, hpre1 c, hpost1 c, hpre2 c, (hpost2 c).trans (hpre3 c), hpost3 c, hpre4 c, hpost4 c, hpre5 c, hpost5 c, hpre6 c, hpost6 c, hpre7 c, (hpost7 c).trans (hpre8 c), hpost8 c, hpre9 c, hpost9 c, hpre10 c, hpost10 c, hpre11 c, hpost11 c, hpre12 c, (hpost12 c).trans (hpre13 c), hpost13 c, hpre14 c, hpost14 c, hpre15 c, hpost15 c, hpre16 c, (hpost16 c).trans (sep_mono .rfl (hE17 c))⟩)
    (hinit := ?_) (QY := fun c s => s.mem ((c.tc : Thread nD τ).loc main_v180) = GenP.V33 m outs c main_v180 ∧ s.mem ((c.tc : Thread nD τ).loc main_v185) = GenP.V33 m outs c main_v185 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- at the launch every unscoped buffer holds its launch contents; what remains yields `E 0` on all cores together
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end the two results and the twelve arguments are read off the last valuation
    unfold StableHlo.held
    iintro ⟨Hh, HSI⟩
    ihave Hr := (pointsTo_read_all (Pipeline.ucRefs τ sig) (fun b => ((c : Thread nD τ).1, b)) (V33 m outs c) s') $$ [Hh HSI]
    · isplitl [Hh] <;> iassumption
    icases Hr with ⟨%h, HSI⟩
    imodintro
    isplitr
    · ipureintro
      exact ⟨h (Proc.devRef .tc main_v180) (Finset.mem_filter.mpr ⟨StableHlo.devRef_mem_tcRefs main_v180, by decide⟩),
        h (Proc.devRef .tc main_v185) (Finset.mem_filter.mpr ⟨StableHlo.devRef_mem_tcRefs main_v185, by decide⟩),
        (h (Proc.devRef .tc main_arg0) (Finset.mem_filter.mpr ⟨StableHlo.devRef_mem_tcRefs main_arg0, by decide⟩)).trans (V33_main_arg0 m outs c),
        (h (Proc.devRef .tc main_arg1) (Finset.mem_filter.mpr ⟨StableHlo.devRef_mem_tcRefs main_arg1, by decide⟩)).trans (V33_main_arg1 m outs c),
        (h (Proc.devRef .tc main_arg2) (Finset.mem_filter.mpr ⟨StableHlo.devRef_mem_tcRefs main_arg2, by decide⟩)).trans (V33_main_arg2 m outs c),
        (h (Proc.devRef .tc main_arg3) (Finset.mem_filter.mpr ⟨StableHlo.devRef_mem_tcRefs main_arg3, by decide⟩)).trans (V33_main_arg3 m outs c),
        (h (Proc.devRef .tc main_arg4) (Finset.mem_filter.mpr ⟨StableHlo.devRef_mem_tcRefs main_arg4, by decide⟩)).trans (V33_main_arg4 m outs c),
        (h (Proc.devRef .tc main_arg5) (Finset.mem_filter.mpr ⟨StableHlo.devRef_mem_tcRefs main_arg5, by decide⟩)).trans (V33_main_arg5 m outs c),
        (h (Proc.devRef .tc main_arg6) (Finset.mem_filter.mpr ⟨StableHlo.devRef_mem_tcRefs main_arg6, by decide⟩)).trans (V33_main_arg6 m outs c),
        (h (Proc.devRef .tc main_arg7) (Finset.mem_filter.mpr ⟨StableHlo.devRef_mem_tcRefs main_arg7, by decide⟩)).trans (V33_main_arg7 m outs c),
        (h (Proc.devRef .tc main_arg8) (Finset.mem_filter.mpr ⟨StableHlo.devRef_mem_tcRefs main_arg8, by decide⟩)).trans (V33_main_arg8 m outs c),
        (h (Proc.devRef .tc main_arg9) (Finset.mem_filter.mpr ⟨StableHlo.devRef_mem_tcRefs main_arg9, by decide⟩)).trans (V33_main_arg9 m outs c),
        (h (Proc.devRef .tc main_arg10) (Finset.mem_filter.mpr ⟨StableHlo.devRef_mem_tcRefs main_arg10, by decide⟩)).trans (V33_main_arg10 m outs c),
        (h (Proc.devRef .tc main_arg11) (Finset.mem_filter.mpr ⟨StableHlo.devRef_mem_tcRefs main_arg11, by decide⟩)).trans (V33_main_arg11 m outs c)⟩
    · iexact HSI

end Cert.KernelIdeal.Hand

end
-- ==== Proof.KernelIdeal.Seg0.lean ====
/- Region 0 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 0's arrays and off them -/

theorem Wex0_out0 (c : Dev nD) : Vex0 m c main_v39 = (dat0 (Ven0 m) c).arrAt 2 cfg0.N := by
  show W4 m c main_v39 = _
  unfold W4; exact Function.update_self _ _ _

theorem Wex0_of_ne (c : Dev nD) (b : Ref sig .tc) (hb : b ≠ main_v39) : Vex0 m c b = Ven0 m c b := by
  show W4 m c b = W3 m c b
  unfold W4; exact Function.update_of_ne (StableHlo.devRef_ne_of_ne hb) _ _

/-- At the exit each array of the region holds what the pipeline leaves: an input what it held at entry, the output
    its write-backs folded. -/
theorem hF0 (c : Dev nD) : ∀ w : Fin cfg0.W, (dat0 (Ven0 m) c).arrAt w cfg0.N = Vex0 m c (Pipeline.arrRef spec0 w)
  | ⟨0, _⟩ => ((dat0 (Ven0 m) c).arrAt_in 0 rfl _).trans ((A_eq0 (Ven0 m) c 0).trans (Wex0_of_ne m c _ (by decide)).symm)
  | ⟨1, _⟩ => ((dat0 (Ven0 m) c).arrAt_in 1 rfl _).trans ((A_eq0 (Ven0 m) c 1).trans (Wex0_of_ne m c _ (by decide)).symm)
  | ⟨2, _⟩ => (Wex0_out0 m c).symm
  | ⟨_ + 3, h⟩ => absurd h (Nat.not_lt.2 (Nat.le_add_left 3 _))

/-- Every buffer that is no array of the region holds at the exit what it held at entry. -/
theorem hrest0 (c : Dev nD) : ∀ b, b ∉ Finset.univ.image (Pipeline.arrRef spec0) → Vex0 m c b = Ven0 m c b :=
  fun b hb => Wex0_of_ne m c b fun e => hb (Finset.mem_image.mpr ⟨2, Finset.mem_univ _, e.symm⟩)

/-! ## The region as a segment -/

set_option backward.isDefEq.respectTransparency.types false in
def reg0 : Pipeline.RegionSeg (pcfgs (F := F)) GenP.adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (Ven0 m) c).loose
  hwaits := Pipeline.hwaits_of_owed_zero _ _ _ _ (fun _ => ∅) (fun _ _ => 0) 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (Ven0 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (Ven0 m c) fun w => A_eq0 (Ven0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Ven0 m) c)
    unfold Pipeline.ΦA
    iintro ⟨Hp, -, Hr⟩
    isplitl [Hr]; · iexact Hr
    iexact Hp
  hout c := by
    rw [Pipeline.ownSems0_none]
    refine (hout0 (Ven0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (Ven0 m c) (Vex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre0 (c : Dev nD) : iprop(StableHlo.held (c : Thread nD τ) (Pipeline.ucRefs τ sig) (GenP.V3 m c) ∗ R c) ⊢ (reg0 m).pre c := by
  rw [Ven_eq0]; exact .rfl

theorem hpost0 (c : Dev nD) : (reg0 m).post c ⊢ iprop(StableHlo.held (c : Thread nD τ) (Pipeline.ucRefs τ sig) (GenP.V4 m (outs m) c) ∗ R c) := by
  rw [Vex_eq0]; exact .rfl

end Cert.KernelIdeal.Hand

end
-- ==== Proof.KernelIdeal.Seg1.lean ====
/- Region 1 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 1's arrays and off them -/

theorem Wex1_out0 (c : Dev nD) : Vex1 m c main_v58 = (dat1 (Ven1 m) c).arrAt 3 cfg1.N := by
  show W6 m c main_v58 = _
  unfold W6; exact Function.update_self _ _ _

theorem Wex1_of_ne (c : Dev nD) (b : Ref sig .tc) (hb : b ≠ main_v58) : Vex1 m c b = Ven1 m c b := by
  show W6 m c b = W5 m c b
  unfold W6; exact Function.update_of_ne (StableHlo.devRef_ne_of_ne hb) _ _

/-! At the exit each array of the region holds what the pipeline leaves: an input what it held at entry, an output
    its write-backs folded. One window at a time, then all. -/

theorem hF1_0 (c : Dev nD) : (dat1 (Ven1 m) c).arrAt 0 cfg1.N = Vex1 m c (Pipeline.arrRef spec1 0) :=
  ((dat1 (Ven1 m) c).arrAt_in 0 rfl _).trans ((A_eq1 (Ven1 m) c 0).trans (Wex1_of_ne m c _ (by decide)).symm)
theorem hF1_1 (c : Dev nD) : (dat1 (Ven1 m) c).arrAt 1 cfg1.N = Vex1 m c (Pipeline.arrRef spec1 1) :=
  ((dat1 (Ven1 m) c).arrAt_in 1 rfl _).trans ((A_eq1 (Ven1 m) c 1).trans (Wex1_of_ne m c _ (by decide)).symm)
theorem hF1_2 (c : Dev nD) : (dat1 (Ven1 m) c).arrAt 2 cfg1.N = Vex1 m c (Pipeline.arrRef spec1 2) :=
  ((dat1 (Ven1 m) c).arrAt_in 2 rfl _).trans ((A_eq1 (Ven1 m) c 2).trans (Wex1_of_ne m c _ (by decide)).symm)
theorem hF1_3 (c : Dev nD) : (dat1 (Ven1 m) c).arrAt 3 cfg1.N = Vex1 m c (Pipeline.arrRef spec1 3) :=
  (Wex1_out0 m c).symm

theorem hF1 (c : Dev nD) : ∀ w : Fin cfg1.W, (dat1 (Ven1 m) c).arrAt w cfg1.N = Vex1 m c (Pipeline.arrRef spec1 w)
  | ⟨0, _⟩ => hF1_0 m c
  | ⟨1, _⟩ => hF1_1 m c
  | ⟨2, _⟩ => hF1_2 m c
  | ⟨3, _⟩ => hF1_3 m c
  | ⟨_ + 4, h⟩ => absurd h (Nat.not_lt.2 (Nat.le_add_left 4 _))

/-- Every buffer that is no array of the region holds at the exit what it held at entry. -/
theorem hrest1 (c : Dev nD) : ∀ b, b ∉ Finset.univ.image (Pipeline.arrRef spec1) → Vex1 m c b = Ven1 m c b :=
  fun b hb => Wex1_of_ne m c b fun e => hb (Finset.mem_image.mpr ⟨3, Finset.mem_univ _, e.symm⟩)

/-! ## The region as a segment -/

set_option backward.isDefEq.respectTransparency.types false in
def reg1 : Pipeline.RegionSeg (pcfgs (F := F)) GenP.adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (Ven1 m) c).loose
  hwaits := Pipeline.hwaits_of_owed_zero _ _ _ _ (fun _ => ∅) (fun _ _ => 0) 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (Ven1 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (Ven1 m c) fun w => A_eq1 (Ven1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Ven1 m) c)
    unfold Pipeline.ΦA
    iintro ⟨Hp, -, Hr⟩
    isplitl [Hr]; · iexact Hr
    iexact Hp
  hout c := by
    rw [Pipeline.ownSems0_none]
    refine (hout1 (Ven1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (Ven1 m c) (Vex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre1 (c : Dev nD) : iprop(StableHlo.held (c : Thread nD τ) (Pipeline.ucRefs τ sig) (GenP.V5 m (outs m) c) ∗ R c) ⊢ (reg1 m).pre c := by
  rw [Ven_eq1]; exact .rfl

theorem hpost1 (c : Dev nD) : (reg1 m).post c ⊢ iprop(StableHlo.held (c : Thread nD τ) (Pipeline.ucRefs τ sig) (GenP.V6 m (outs m) c) ∗ R c) := by
  rw [Vex_eq1]; exact .rfl

end Cert.KernelIdeal.Hand

end
-- ==== Proof.KernelIdeal.Seg2.lean ====
/- Region 2 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 2's arrays and off them -/

theorem Wex2_out0 (c : Dev nD) : Vex2 m c main_v69_0 = (dat2 (Ven2 m) c).arrAt 3 cfg2.N := by
  show W8 m c main_v69_0 = _
  unfold W8
  rw [Function.update_of_ne (StableHlo.devRef_ne_of_ne (by decide))]; exact Function.update_self _ _ _

theorem Wex2_out1 (c : Dev nD) : Vex2 m c main_v69_1 = (dat2 (Ven2 m) c).arrAt 4 cfg2.N := by
  show W8 m c main_v69_1 = _
  unfold W8; exact Function.update_self _ _ _

theorem Wex2_of_ne (c : Dev nD) (b : Ref sig .tc) (hb0 : b ≠ main_v69_0) (hb1 : b ≠ main_v69_1) : Vex2 m c b = Ven2 m c b := by
  show W8 m c b = W7 m c b
  unfold W8
  rw [Function.update_of_ne (StableHlo.devRef_ne_of_ne hb1), Function.update_of_ne (StableHlo.devRef_ne_of_ne hb0)]

/-! At the exit each array of the region holds what the pipeline leaves: an input what it held at entry, an output
    its write-backs folded. One window at a time, then all. -/

theorem hF2_0 (c : Dev nD) : (dat2 (Ven2 m) c).arrAt 0 cfg2.N = Vex2 m c (Pipeline.arrRef spec2 0) :=
  ((dat2 (Ven2 m) c).arrAt_in 0 rfl _).trans ((A_eq2 (Ven2 m) c 0).trans (Wex2_of_ne m c _ (by decide) (by decide)).symm)
theorem hF2_1 (c : Dev nD) : (dat2 (Ven2 m) c).arrAt 1 cfg2.N = Vex2 m c (Pipeline.arrRef spec2 1) :=
  ((dat2 (Ven2 m) c).arrAt_in 1 rfl _).trans ((A_eq2 (Ven2 m) c 1).trans (Wex2_of_ne m c _ (by decide) (by decide)).symm)
theorem hF2_2 (c : Dev nD) : (dat2 (Ven2 m) c).arrAt 2 cfg2.N = Vex2 m c (Pipeline.arrRef spec2 2) :=
  ((dat2 (Ven2 m) c).arrAt_in 2 rfl _).trans ((A_eq2 (Ven2 m) c 2).trans (Wex2_of_ne m c _ (by decide) (by decide)).symm)
theorem hF2_3 (c : Dev nD) : (dat2 (Ven2 m) c).arrAt 3 cfg2.N = Vex2 m c (Pipeline.arrRef spec2 3) :=
  (Wex2_out0 m c).symm
theorem hF2_4 (c : Dev nD) : (dat2 (Ven2 m) c).arrAt 4 cfg2.N = Vex2 m c (Pipeline.arrRef spec2 4) :=
  (Wex2_out1 m c).symm

theorem hF2 (c : Dev nD) : ∀ w : Fin cfg2.W, (dat2 (Ven2 m) c).arrAt w cfg2.N = Vex2 m c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨_ + 5, h⟩ => absurd h (Nat.not_lt.2 (Nat.le_add_left 5 _))

/-- Every buffer that is no array of the region holds at the exit what it held at entry. -/
theorem hrest2 (c : Dev nD) : ∀ b, b ∉ Finset.univ.image (Pipeline.arrRef spec2) → Vex2 m c b = Ven2 m c b :=
  fun b hb => Wex2_of_ne m c b (fun e => hb (Finset.mem_image.mpr ⟨3, Finset.mem_univ _, e.symm⟩))
    (fun e => hb (Finset.mem_image.mpr ⟨4, Finset.mem_univ _, e.symm⟩))

/-! ## The region as a segment -/

set_option backward.isDefEq.respectTransparency.types false in
def reg2 : Pipeline.RegionSeg (pcfgs (F := F)) GenP.adm (pdats m) () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := (body_obligation2 (Ven2 m) c).loose
  hwaits := Pipeline.hwaits_of_owed_zero _ _ _ _ (fun _ => ∅) (fun _ _ => 0) 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (Ven2 m c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (Ven2 m c) fun w => A_eq2 (Ven2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (Ven2 m) c)
    unfold Pipeline.ΦA
    iintro ⟨Hp, -, Hr⟩
    isplitl [Hr]; · iexact Hr
    iexact Hp
  hout c := by
    rw [Pipeline.ownSems0_none]
    refine (hout2 (Ven2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (Ven2 m c) (Vex2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre2 (c : Dev nD) : iprop(StableHlo.held (c : Thread nD τ) (Pipeline.ucRefs τ sig) (GenP.V7 m (outs m) c) ∗ R c) ⊢ (reg2 m).pre c := by
  rw [Ven_eq2]; exact .rfl

theorem hpost2 (c : Dev nD) : (reg2 m).post c ⊢ iprop(StableHlo.held (c : Thread nD τ) (Pipeline.ucRefs τ sig) (GenP.V8 m (outs m) c) ∗ R c) := by
  rw [Vex_eq2]; exact .rfl

end Cert.KernelIdeal.Hand

end
-- ==== Proof.KernelIdeal.Seg3.lean ====
/- Region 3 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 3's arrays and off them -/

theorem Wex3_out0 (c : Dev nD) : Vex3 m c main_v70 = (dat3 (Ven3 m) c).arrAt 3 cfg3.N := by
  show W9 m c main_v70 = _
  unfold W9; exact Function.update_self _ _ _

theorem Wex3_of_ne (c : Dev nD) (b : Ref sig .tc) (hb : b ≠ main_v70) : Vex3 m c b = Ven3 m c b := by
  show W9 m c b = W8 m c b
  unfold W9; exact Function.update_of_ne (StableHlo.devRef_ne_of_ne hb) _ _

/-! At the exit each array of the region holds what the pipeline leaves: an input what it held at entry, an output
    its write-backs folded. One window at a time, then all. -/

theorem hF3_0 (c : Dev nD) : (dat3 (Ven3 m) c).arrAt 0 cfg3.N = Vex3 m c (Pipeline.arrRef spec3 0) :=
  ((dat3 (Ven3 m) c).arrAt_in 0 rfl _).trans ((A_eq3 (Ven3 m) c 0).trans (Wex3_of_ne m c _ (by decide)).symm)
theorem hF3_1 (c : Dev nD) : (dat3 (Ven3 m) c).arrAt 1 cfg3.N = Vex3 m c (Pipeline.arrRef spec3 1) :=
  ((dat3 (Ven3 m) c).arrAt_in 1 rfl _).trans ((A_eq3 (Ven3 m) c 1).trans (Wex3_of_ne m c _ (by decide)).symm)
theorem hF3_2 (c : Dev nD) : (dat3 (Ven3 m) c).arrAt 2 cfg3.N = Vex3 m c (Pipeline.arrRef spec3 2) :=
  ((dat3 (Ven3 m) c).arrAt_in 2 rfl _).trans ((A_eq3 (Ven3 m) c 2).trans (Wex3_of_ne m c _ (by decide)).symm)
theorem hF3_3 (c : Dev nD) : (dat3 (Ven3 m) c).arrAt 3 cfg3.N = Vex3 m c (Pipeline.arrRef spec3 3) :=
  (Wex3_out0 m c).symm

theorem hF3 (c : Dev nD) : ∀ w : Fin cfg3.W, (dat3 (Ven3 m) c).arrAt w cfg3.N = Vex3 m c (Pipeline.arrRef spec3 w)
  | ⟨0, _⟩ => hF3_0 m c
  | ⟨1, _⟩ => hF3_1 m c
  | ⟨2, _⟩ => hF3_2 m c
  | ⟨3, _⟩ => hF3_3 m c
  | ⟨_ + 4, h⟩ => absurd h (Nat.not_lt.2 (Nat.le_add_left 4 _))

/-- Every buffer that is no array of the region holds at the exit what it held at entry. -/
theorem hrest3 (c : Dev nD) : ∀ b, b ∉ Finset.univ.image (Pipeline.arrRef spec3) → Vex3 m c b = Ven3 m c b :=
  fun b hb => Wex3_of_ne m c b fun e => hb (Finset.mem_image.mpr ⟨3, Finset.mem_univ _, e.symm⟩)

/-! ## The region as a segment -/

set_option backward.isDefEq.respectTransparency.types false in
def reg3 : Pipeline.RegionSeg (pcfgs (F := F)) GenP.adm (pdats m) () defs₀ Variants.none (fun _ => ∅) (fun _ _ => 0) 3 where
  win := launch3.win.to₀
  block_pos := launch3.block_pos
  stage_whole := launch3.stage_whole
  K := PEmpty
  osem k := k.elim
  ho := Pipeline.OwnSemFacts.none _
  hbody c := (body_obligation3 (Ven3 m) c).loose
  hwaits := Pipeline.hwaits_of_owed_zero _ _ _ _ (fun _ => ∅) (fun _ _ => 0) 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (Ven3 m c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (Ven3 m c) fun w => A_eq3 (Ven3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (Ven3 m) c)
    unfold Pipeline.ΦA
    iintro ⟨Hp, -, Hr⟩
    isplitl [Hr]; · iexact Hr
    iexact Hp
  hout c := by
    rw [Pipeline.ownSems0_none]
    refine (hout3 (Ven3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (Ven3 m c) (Vex3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre3 (c : Dev nD) : iprop(StableHlo.held (c : Thread nD τ) (Pipeline.ucRefs τ sig) (GenP.V8 m (outs m) c) ∗ R c) ⊢ (reg3 m).pre c := by
  rw [Ven_eq3]; exact .rfl

theorem hpost3 (c : Dev nD) : (reg3 m).post c ⊢ iprop(StableHlo.held (c : Thread nD τ) (Pipeline.ucRefs τ sig) (GenP.V9 m (outs m) c) ∗ R c) := by
  rw [Vex_eq3]; exact .rfl

end Cert.KernelIdeal.Hand

end
-- ==== Proof.KernelIdeal.Seg4.lean ====
/- Region 4 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 4's arrays and off them -/

theorem Wex4_out0 (c : Dev nD) : Vex4 m c main_v84 = (dat4 (Ven4 m) c).arrAt 4 cfg4.N := by
  show W11 m c main_v84 = _
  unfold W11; exact Function.update_self _ _ _

theorem Wex4_of_ne (c : Dev nD) (b : Ref sig .tc) (hb : b ≠ main_v84) : Vex4 m c b = Ven4 m c b := by
  show W11 m c b = W10 m c b
  unfold W11; exact Function.update_of_ne (StableHlo.devRef_ne_of_ne hb) _ _

/-! At the exit each array of the region holds what the pipeline leaves: an input what it held at entry, an output
    its write-backs folded. One window at a time, then all. -/

theorem hF4_0 (c : Dev nD) : (dat4 (Ven4 m) c).arrAt 0 cfg4.N = Vex4 m c (Pipeline.arrRef spec4 0) :=
  ((dat4 (Ven4 m) c).arrAt_in 0 rfl _).trans ((A_eq4 (Ven4 m) c 0).trans (Wex4_of_ne m c _ (by decide)).symm)
theorem hF4_1 (c : Dev nD) : (dat4 (Ven4 m) c).arrAt 1 cfg4.N = Vex4 m c (Pipeline.arrRef spec4 1) :=
  ((dat4 (Ven4 m) c).arrAt_in 1 rfl _).trans ((A_eq4 (Ven4 m) c 1).trans (Wex4_of_ne m c _ (by decide)).symm)
theorem hF4_2 (c : Dev nD) : (dat4 (Ven4 m) c).arrAt 2 cfg4.N = Vex4 m c (Pipeline.arrRef spec4 2) :=
  ((dat4 (Ven4 m) c).arrAt_in 2 rfl _).trans ((A_eq4 (Ven4 m) c 2).trans (Wex4_of_ne m c _ (by decide)).symm)
theorem hF4_3 (c : Dev nD) : (dat4 (Ven4 m) c).arrAt 3 cfg4.N = Vex4 m c (Pipeline.arrRef spec4 3) :=
  ((dat4 (Ven4 m) c).arrAt_in 3 rfl _).trans ((A_eq4 (Ven4 m) c 3).trans (Wex4_of_ne m c _ (by decide)).symm)
theorem hF4_4 (c : Dev nD) : (dat4 (Ven4 m) c).arrAt 4 cfg4.N = Vex4 m c (Pipeline.arrRef spec4 4) :=
  (Wex4_out0 m c).symm

theorem hF4 (c : Dev nD) : ∀ w : Fin cfg4.W, (dat4 (Ven4 m) c).arrAt w cfg4.N = Vex4 m c (Pipeline.arrRef spec4 w)
  | ⟨0, _⟩ => hF4_0 m c
  | ⟨1, _⟩ => hF4_1 m c
  | ⟨2, _⟩ => hF4_2 m c
  | ⟨3, _⟩ => hF4_3 m c
  | ⟨4, _⟩ => hF4_4 m c
  | ⟨_ + 5, h⟩ => absurd h (Nat.not_lt.2 (Nat.le_add_left 5 _))

/-- Every buffer that is no array of the region holds at the exit what it held at entry. -/
theorem hrest4 (c : Dev nD) : ∀ b, b ∉ Finset.univ.image (Pipeline.arrRef spec4) → Vex4 m c b = Ven4 m c b :=
  fun b hb => Wex4_of_ne m c b fun e => hb (Finset.mem_image.mpr ⟨4, Finset.mem_univ _, e.symm⟩)

/-! ## The region as a segment -/

set_option backward.isDefEq.respectTransparency.types false in
def reg4 : Pipeline.RegionSeg (pcfgs (F := F)) GenP.adm (pdats m) () defs₀ Variants.none (fun _ => ∅) (fun _ _ => 0) 4 where
  win := launch4.win.to₀
  block_pos := launch4.block_pos
  stage_whole := launch4.stage_whole
  K := PEmpty
  osem k := k.elim
  ho := Pipeline.OwnSemFacts.none _
  hbody c := (body_obligation4 (Ven4 m) c).loose
  hwaits := Pipeline.hwaits_of_owed_zero _ _ _ _ (fun _ => ∅) (fun _ _ => 0) 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (Ven4 m c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (Ven4 m c) fun w => A_eq4 (Ven4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (Ven4 m) c)
    unfold Pipeline.ΦA
    iintro ⟨Hp, -, Hr⟩
    isplitl [Hr]; · iexact Hr
    iexact Hp
  hout c := by
    rw [Pipeline.ownSems0_none]
    refine (hout4 (Ven4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (Ven4 m c) (Vex4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre4 (c : Dev nD) : iprop(StableHlo.held (c : Thread nD τ) (Pipeline.ucRefs τ sig) (GenP.V10 m (outs m) c) ∗ R c) ⊢ (reg4 m).pre c := by
  rw [Ven_eq4]; exact .rfl

theorem hpost4 (c : Dev nD) : (reg4 m).post c ⊢ iprop(StableHlo.held (c : Thread nD τ) (Pipeline.ucRefs τ sig) (GenP.V11 m (outs m) c) ∗ R c) := by
  rw [Vex_eq4]; exact .rfl

end Cert.KernelIdeal.Hand

end
-- ==== Proof.KernelIdeal.Seg5.lean ====
/- Region 5 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 5's arrays and off them -/

theorem Wex5_out0 (c : Dev nD) : Vex5 m c main_v87 = (dat5 (Ven5 m) c).arrAt 2 cfg5.N := by
  show W13 m c main_v87 = _
  unfold W13; exact Function.update_self _ _ _

theorem Wex5_of_ne (c : Dev nD) (b : Ref sig .tc) (hb : b ≠ main_v87) : Vex5 m c b = Ven5 m c b := by
  show W13 m c b = W12 m c b
  unfold W13; exact Function.update_of_ne (StableHlo.devRef_ne_of_ne hb) _ _

/-! At the exit each array of the region holds what the pipeline leaves: an input what it held at entry, an output
    its write-backs folded. One window at a time, then all. -/

theorem hF5_0 (c : Dev nD) : (dat5 (Ven5 m) c).arrAt 0 cfg5.N = Vex5 m c (Pipeline.arrRef spec5 0) :=
  ((dat5 (Ven5 m) c).arrAt_in 0 rfl _).trans ((A_eq5 (Ven5 m) c 0).trans (Wex5_of_ne m c _ (by decide)).symm)
theorem hF5_1 (c : Dev nD) : (dat5 (Ven5 m) c).arrAt 1 cfg5.N = Vex5 m c (Pipeline.arrRef spec5 1) :=
  ((dat5 (Ven5 m) c).arrAt_in 1 rfl _).trans ((A_eq5 (Ven5 m) c 1).trans (Wex5_of_ne m c _ (by decide)).symm)
theorem hF5_2 (c : Dev nD) : (dat5 (Ven5 m) c).arrAt 2 cfg5.N = Vex5 m c (Pipeline.arrRef spec5 2) :=
  (Wex5_out0 m c).symm

theorem hF5 (c : Dev nD) : ∀ w : Fin cfg5.W, (dat5 (Ven5 m) c).arrAt w cfg5.N = Vex5 m c (Pipeline.arrRef spec5 w)
  | ⟨0, _⟩ => hF5_0 m c
  | ⟨1, _⟩ => hF5_1 m c
  | ⟨2, _⟩ => hF5_2 m c
  | ⟨_ + 3, h⟩ => absurd h (Nat.not_lt.2 (Nat.le_add_left 3 _))

/-- Every buffer that is no array of the region holds at the exit what it held at entry. -/
theorem hrest5 (c : Dev nD) : ∀ b, b ∉ Finset.univ.image (Pipeline.arrRef spec5) → Vex5 m c b = Ven5 m c b :=
  fun b hb => Wex5_of_ne m c b fun e => hb (Finset.mem_image.mpr ⟨2, Finset.mem_univ _, e.symm⟩)

/-! ## The region as a segment -/

set_option backward.isDefEq.respectTransparency.types false in
def reg5 : Pipeline.RegionSeg (pcfgs (F := F)) GenP.adm (pdats m) () defs₀ Variants.none (fun _ => ∅) (fun _ _ => 0) 5 where
  win := launch5.win.to₀
  block_pos := launch5.block_pos
  stage_whole := launch5.stage_whole
  K := PEmpty
  osem k := k.elim
  ho := Pipeline.OwnSemFacts.none _
  hbody c := (body_obligation5 (Ven5 m) c).loose
  hwaits := Pipeline.hwaits_of_owed_zero _ _ _ _ (fun _ => ∅) (fun _ _ => 0) 5 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec5 c (Ven5 m c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (Ven5 m c) fun w => A_eq5 (Ven5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (Ven5 m) c)
    unfold Pipeline.ΦA
    iintro ⟨Hp, -, Hr⟩
    isplitl [Hr]; · iexact Hr
    iexact Hp
  hout c := by
    rw [Pipeline.ownSems0_none]
    refine (hout5 (Ven5 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (Ven5 m c) (Vex5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre5 (c : Dev nD) : iprop(StableHlo.held (c : Thread nD τ) (Pipeline.ucRefs τ sig) (GenP.V12 m (outs m) c) ∗ R c) ⊢ (reg5 m).pre c := by
  rw [Ven_eq5]; exact .rfl

theorem hpost5 (c : Dev nD) : (reg5 m).post c ⊢ iprop(StableHlo.held (c : Thread nD τ) (Pipeline.ucRefs τ sig) (GenP.V13 m (outs m) c) ∗ R c) := by
  rw [Vex_eq5]; exact .rfl

end Cert.KernelIdeal.Hand

end
-- ==== Proof.KernelIdeal.Seg6.lean ====
/- Region 6 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 6's arrays and off them -/

theorem Wex6_out0 (c : Dev nD) : Vex6 m c main_v106 = (dat6 (Ven6 m) c).arrAt 3 cfg6.N := by
  show W15 m c main_v106 = _
  unfold W15; exact Function.update_self _ _ _

theorem Wex6_of_ne (c : Dev nD) (b : Ref sig .tc) (hb : b ≠ main_v106) : Vex6 m c b = Ven6 m c b := by
  show W15 m c b = W14 m c b
  unfold W15; exact Function.update_of_ne (StableHlo.devRef_ne_of_ne hb) _ _

/-! At the exit each array of the region holds what the pipeline leaves: an input what it held at entry, an output
    its write-backs folded. One window at a time, then all. -/

theorem hF6_0 (c : Dev nD) : (dat6 (Ven6 m) c).arrAt 0 cfg6.N = Vex6 m c (Pipeline.arrRef spec6 0) :=
  ((dat6 (Ven6 m) c).arrAt_in 0 rfl _).trans ((A_eq6 (Ven6 m) c 0).trans (Wex6_of_ne m c _ (by decide)).symm)
theorem hF6_1 (c : Dev nD) : (dat6 (Ven6 m) c).arrAt 1 cfg6.N = Vex6 m c (Pipeline.arrRef spec6 1) :=
  ((dat6 (Ven6 m) c).arrAt_in 1 rfl _).trans ((A_eq6 (Ven6 m) c 1).trans (Wex6_of_ne m c _ (by decide)).symm)
theorem hF6_2 (c : Dev nD) : (dat6 (Ven6 m) c).arrAt 2 cfg6.N = Vex6 m c (Pipeline.arrRef spec6 2) :=
  ((dat6 (Ven6 m) c).arrAt_in 2 rfl _).trans ((A_eq6 (Ven6 m) c 2).trans (Wex6_of_ne m c _ (by decide)).symm)
theorem hF6_3 (c : Dev nD) : (dat6 (Ven6 m) c).arrAt 3 cfg6.N = Vex6 m c (Pipeline.arrRef spec6 3) :=
  (Wex6_out0 m c).symm

theorem hF6 (c : Dev nD) : ∀ w : Fin cfg6.W, (dat6 (Ven6 m) c).arrAt w cfg6.N = Vex6 m c (Pipeline.arrRef spec6 w)
  | ⟨0, _⟩ => hF6_0 m c
  | ⟨1, _⟩ => hF6_1 m c
  | ⟨2, _⟩ => hF6_2 m c
  | ⟨3, _⟩ => hF6_3 m c
  | ⟨_ + 4, h⟩ => absurd h (Nat.not_lt.2 (Nat.le_add_left 4 _))

/-- Every buffer that is no array of the region holds at the exit what it held at entry. -/
theorem hrest6 (c : Dev nD) : ∀ b, b ∉ Finset.univ.image (Pipeline.arrRef spec6) → Vex6 m c b = Ven6 m c b :=
  fun b hb => Wex6_of_ne m c b fun e => hb (Finset.mem_image.mpr ⟨3, Finset.mem_univ _, e.symm⟩)

/-! ## The region as a segment -/

set_option backward.isDefEq.respectTransparency.types false in
def reg6 : Pipeline.RegionSeg (pcfgs (F := F)) GenP.adm (pdats m) () defs₀ Variants.none (fun _ => ∅) (fun _ _ => 0) 6 where
  win := launch6.win.to₀
  block_pos := launch6.block_pos
  stage_whole := launch6.stage_whole
  K := PEmpty
  osem k := k.elim
  ho := Pipeline.OwnSemFacts.none _
  hbody c := (body_obligation6 (Ven6 m) c).loose
  hwaits := Pipeline.hwaits_of_owed_zero _ _ _ _ (fun _ => ∅) (fun _ _ => 0) 6 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec6 c (Ven6 m c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (Ven6 m c) fun w => A_eq6 (Ven6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin6 (Ven6 m) c)
    unfold Pipeline.ΦA
    iintro ⟨Hp, -, Hr⟩
    isplitl [Hr]; · iexact Hr
    iexact Hp
  hout c := by
    rw [Pipeline.ownSems0_none]
    refine (hout6 (Ven6 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (Ven6 m c) (Vex6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre6 (c : Dev nD) : iprop(StableHlo.held (c : Thread nD τ) (Pipeline.ucRefs τ sig) (GenP.V14 m (outs m) c) ∗ R c) ⊢ (reg6 m).pre c := by
  rw [Ven_eq6]; exact .rfl

theorem hpost6 (c : Dev nD) : (reg6 m).post c ⊢ iprop(StableHlo.held (c : Thread nD τ) (Pipeline.ucRefs τ sig) (GenP.V15 m (outs m) c) ∗ R c) := by
  rw [Vex_eq6]; exact .rfl

end Cert.KernelIdeal.Hand

end
-- ==== Proof.KernelIdeal.Seg7.lean ====
/- Region 7 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 7's arrays and off them -/

theorem Wex7_out0 (c : Dev nD) : Vex7 m c main_v117_0 = (dat7 (Ven7 m) c).arrAt 3 cfg7.N := by
  show W17 m c main_v117_0 = _
  unfold W17
  rw [Function.update_of_ne (StableHlo.devRef_ne_of_ne (by decide))]; exact Function.update_self _ _ _

theorem Wex7_out1 (c : Dev nD) : Vex7 m c main_v117_1 = (dat7 (Ven7 m) c).arrAt 4 cfg7.N := by
  show W17 m c main_v117_1 = _
  unfold W17; exact Function.update_self _ _ _

theorem Wex7_of_ne (c : Dev nD) (b : Ref sig .tc) (hb0 : b ≠ main_v117_0) (hb1 : b ≠ main_v117_1) : Vex7 m c b = Ven7 m c b := by
  show W17 m c b = W16 m c b
  unfold W17
  rw [Function.update_of_ne (StableHlo.devRef_ne_of_ne hb1), Function.update_of_ne (StableHlo.devRef_ne_of_ne hb0)]

/-! At the exit each array of the region holds what the pipeline leaves: an input what it held at entry, an output
    its write-backs folded. One window at a time, then all. -/

theorem hF7_0 (c : Dev nD) : (dat7 (Ven7 m) c).arrAt 0 cfg7.N = Vex7 m c (Pipeline.arrRef spec7 0) :=
  ((dat7 (Ven7 m) c).arrAt_in 0 rfl _).trans ((A_eq7 (Ven7 m) c 0).trans (Wex7_of_ne m c _ (by decide) (by decide)).symm)
theorem hF7_1 (c : Dev nD) : (dat7 (Ven7 m) c).arrAt 1 cfg7.N = Vex7 m c (Pipeline.arrRef spec7 1) :=
  ((dat7 (Ven7 m) c).arrAt_in 1 rfl _).trans ((A_eq7 (Ven7 m) c 1).trans (Wex7_of_ne m c _ (by decide) (by decide)).symm)
theorem hF7_2 (c : Dev nD) : (dat7 (Ven7 m) c).arrAt 2 cfg7.N = Vex7 m c (Pipeline.arrRef spec7 2) :=
  ((dat7 (Ven7 m) c).arrAt_in 2 rfl _).trans ((A_eq7 (Ven7 m) c 2).trans (Wex7_of_ne m c _ (by decide) (by decide)).symm)
theorem hF7_3 (c : Dev nD) : (dat7 (Ven7 m) c).arrAt 3 cfg7.N = Vex7 m c (Pipeline.arrRef spec7 3) :=
  (Wex7_out0 m c).symm
theorem hF7_4 (c : Dev nD) : (dat7 (Ven7 m) c).arrAt 4 cfg7.N = Vex7 m c (Pipeline.arrRef spec7 4) :=
  (Wex7_out1 m c).symm

theorem hF7 (c : Dev nD) : ∀ w : Fin cfg7.W, (dat7 (Ven7 m) c).arrAt w cfg7.N = Vex7 m c (Pipeline.arrRef spec7 w)
  | ⟨0, _⟩ => hF7_0 m c
  | ⟨1, _⟩ => hF7_1 m c
  | ⟨2, _⟩ => hF7_2 m c
  | ⟨3, _⟩ => hF7_3 m c
  | ⟨4, _⟩ => hF7_4 m c
  | ⟨_ + 5, h⟩ => absurd h (Nat.not_lt.2 (Nat.le_add_left 5 _))

/-- Every buffer that is no array of the region holds at the exit what it held at entry. -/
theorem hrest7 (c : Dev nD) : ∀ b, b ∉ Finset.univ.image (Pipeline.arrRef spec7) → Vex7 m c b = Ven7 m c b :=
  fun b hb => Wex7_of_ne m c b (fun e => hb (Finset.mem_image.mpr ⟨3, Finset.mem_univ _, e.symm⟩))
    (fun e => hb (Finset.mem_image.mpr ⟨4, Finset.mem_univ _, e.symm⟩))

/-! ## The region as a segment -/

set_option backward.isDefEq.respectTransparency.types false in
def reg7 : Pipeline.RegionSeg (pcfgs (F := F)) GenP.adm (pdats m) () defs₀ Variants.none (fun _ => ∅) (fun _ _ => 0) 7 where
  win := launch7.win.to₀
  block_pos := launch7.block_pos
  stage_whole := launch7.stage_whole
  K := PEmpty
  osem k := k.elim
  ho := Pipeline.OwnSemFacts.none _
  hbody c := (body_obligation7 (Ven7 m) c).loose
  hwaits := Pipeline.hwaits_of_owed_zero _ _ _ _ (fun _ => ∅) (fun _ _ => 0) 7 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec7 c (Ven7 m c)
  hentry c := by
    rw [Pipeline.ownSems0_none]
    have hsplit := Pipeline.arrays_of_unscopedBufs (p := 7) (pcfgs (F := F)) GenP.adm (pdats m) launch7.win launch7.arr_whole c
      ((pdats m 7 c).share_full fun _ => rfl) (Ven7 m c) fun w => A_eq7 (Ven7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin7 (Ven7 m) c)
    unfold Pipeline.ΦA
    iintro ⟨Hp, -, Hr⟩
    isplitl [Hr]; · iexact Hr
    iexact Hp
  hout c := by
    rw [Pipeline.ownSems0_none]
    refine (hout7 (Ven7 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c (pdats m) ((pdats m 7 c).share_full fun _ => rfl)
      (Ven7 m c) (Vex7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre7 (c : Dev nD) : iprop(StableHlo.held (c : Thread nD τ) (Pipeline.ucRefs τ sig) (GenP.V16 m (outs m) c) ∗ R c) ⊢ (reg7 m).pre c := by
  rw [Ven_eq7]; exact .rfl

theorem hpost7 (c : Dev nD) : (reg7 m).post c ⊢ iprop(StableHlo.held (c : Thread nD τ) (Pipeline.ucRefs τ sig) (GenP.V17 m (outs m) c) ∗ R c) := by
  rw [Vex_eq7]; exact .rfl

end Cert.KernelIdeal.Hand

end
-- ==== Proof.KernelIdeal.Seg8.lean ====
/- Region 8 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 8's arrays and off them -/

theorem Wex8_out0 (c : Dev nD) : Vex8 m c main_v118 = (dat8 (Ven8 m) c).arrAt 3 cfg8.N := by
  show W18 m c main_v118 = _
  unfold W18; exact Function.update_self _ _ _

theorem Wex8_of_ne (c : Dev nD) (b : Ref sig .tc) (hb : b ≠ main_v118) : Vex8 m c b = Ven8 m c b := by
  show W18 m c b = W17 m c b
  unfold W18; exact Function.update_of_ne (StableHlo.devRef_ne_of_ne hb) _ _

/-! At the exit each array of the region holds what the pipeline leaves: an input what it held at entry, an output
    its write-backs folded. One window at a time, then all. -/

theorem hF8_0 (c : Dev nD) : (dat8 (Ven8 m) c).arrAt 0 cfg8.N = Vex8 m c (Pipeline.arrRef spec8 0) :=
  ((dat8 (Ven8 m) c).arrAt_in 0 rfl _).trans ((A_eq8 (Ven8 m) c 0).trans (Wex8_of_ne m c _ (by decide)).symm)
theorem hF8_1 (c : Dev nD) : (dat8 (Ven8 m) c).arrAt 1 cfg8.N = Vex8 m c (Pipeline.arrRef spec8 1) :=
  ((dat8 (Ven8 m) c).arrAt_in 1 rfl _).trans ((A_eq8 (Ven8 m) c 1).trans (Wex8_of_ne m c _ (by decide)).symm)
theorem hF8_2 (c : Dev nD) : (dat8 (Ven8 m) c).arrAt 2 cfg8.N = Vex8 m c (Pipeline.arrRef spec8 2) :=
  ((dat8 (Ven8 m) c).arrAt_in 2 rfl _).trans ((A_eq8 (Ven8 m) c 2).trans (Wex8_of_ne m c _ (by decide)).symm)
theorem hF8_3 (c : Dev nD) : (dat8 (Ven8 m) c).arrAt 3 cfg8.N = Vex8 m c (Pipeline.arrRef spec8 3) :=
  (Wex8_out0 m c).symm

theorem hF8 (c : Dev nD) : ∀ w : Fin cfg8.W, (dat8 (Ven8 m) c).arrAt w cfg8.N = Vex8 m c (Pipeline.arrRef spec8 w)
  | ⟨0, _⟩ => hF8_0 m c
  | ⟨1, _⟩ => hF8_1 m c
  | ⟨2, _⟩ => hF8_2 m c
  | ⟨3, _⟩ => hF8_3 m c
  | ⟨_ + 4, h⟩ => absurd h (Nat.not_lt.2 (Nat.le_add_left 4 _))

/-- Every buffer that is no array of the region holds at the exit what it held at entry. -/
theorem hrest8 (c : Dev nD) : ∀ b, b ∉ Finset.univ.image (Pipeline.arrRef spec8) → Vex8 m c b = Ven8 m c b :=
  fun b hb => Wex8_of_ne m c b fun e => hb (Finset.mem_image.mpr ⟨3, Finset.mem_univ _, e.symm⟩)

/-! ## The region as a segment -/

set_option backward.isDefEq.respectTransparency.types false in
def reg8 : Pipeline.RegionSeg (pcfgs (F := F)) GenP.adm (pdats m) () defs₀ Variants.none (fun _ => ∅) (fun _ _ => 0) 8 where
  win := launch8.win.to₀
  block_pos := launch8.block_pos
  stage_whole := launch8.stage_whole
  K := PEmpty
  osem k := k.elim
  ho := Pipeline.OwnSemFacts.none _
  hbody c := (body_obligation8 (Ven8 m) c).loose
  hwaits := Pipeline.hwaits_of_owed_zero _ _ _ _ (fun _ => ∅) (fun _ _ => 0) 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (Ven8 m c)
  hentry c := by
    rw [Pipeline.ownSems0_none]
    have hsplit := Pipeline.arrays_of_unscopedBufs (p := 8) (pcfgs (F := F)) GenP.adm (pdats m) launch8.win launch8.arr_whole c
      ((pdats m 8 c).share_full fun _ => rfl) (Ven8 m c) fun w => A_eq8 (Ven8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin8 (Ven8 m) c)
    unfold Pipeline.ΦA
    iintro ⟨Hp, -, Hr⟩
    isplitl [Hr]; · iexact Hr
    iexact Hp
  hout c := by
    rw [Pipeline.ownSems0_none]
    refine (hout8 (Ven8 m) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) GenP.adm (Ix := Unit) (Name := ℕ) (U := UR sig nD τ) (Lvl := ℕ)
      launch8.win launch8.arr_whole c (pdats m) ((pdats m 8 c).share_full fun _ => rfl)
      (Ven8 m c) (Vex8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre8 (c : Dev nD) : iprop(StableHlo.held (c : Thread nD τ) (Pipeline.ucRefs τ sig) (GenP.V17 m (outs m) c) ∗ R c) ⊢ (reg8 m).pre c := by
  rw [Ven_eq8]; exact .rfl

theorem hpost8 (c : Dev nD) : (reg8 m).post c ⊢ iprop(StableHlo.held (c : Thread nD τ) (Pipeline.ucRefs τ sig) (GenP.V18 m (outs m) c) ∗ R c) := by
  rw [Vex_eq8]; exact .rfl

end Cert.KernelIdeal.Hand

end
-- ==== Proof.KernelIdeal.Seg9.lean ====
/- Region 9 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 9's arrays and off them -/

theorem Wex9_out0 (c : Dev nD) : Vex9 m c main_v132 = (dat9 (Ven9 m) c).arrAt 4 cfg9.N := by
  show W20 m c main_v132 = _
  unfold W20; exact Function.update_self _ _ _

theorem Wex9_of_ne (c : Dev nD) (b : Ref sig .tc) (hb : b ≠ main_v132) : Vex9 m c b = Ven9 m c b := by
  show W20 m c b = W19 m c b
  unfold W20; exact Function.update_of_ne (StableHlo.devRef_ne_of_ne hb) _ _

/-! At the exit each array of the region holds what the pipeline leaves: an input what it held at entry, an output
    its write-backs folded. One window at a time, then all. -/

theorem hF9_0 (c : Dev nD) : (dat9 (Ven9 m) c).arrAt 0 cfg9.N = Vex9 m c (Pipeline.arrRef spec9 0) :=
  ((dat9 (Ven9 m) c).arrAt_in 0 rfl _).trans ((A_eq9 (Ven9 m) c 0).trans (Wex9_of_ne m c _ (by decide)).symm)
theorem hF9_1 (c : Dev nD) : (dat9 (Ven9 m) c).arrAt 1 cfg9.N = Vex9 m c (Pipeline.arrRef spec9 1) :=
  ((dat9 (Ven9 m) c).arrAt_in 1 rfl _).trans ((A_eq9 (Ven9 m) c 1).trans (Wex9_of_ne m c _ (by decide)).symm)
theorem hF9_2 (c : Dev nD) : (dat9 (Ven9 m) c).arrAt 2 cfg9.N = Vex9 m c (Pipeline.arrRef spec9 2) :=
  ((dat9 (Ven9 m) c).arrAt_in 2 rfl _).trans ((A_eq9 (Ven9 m) c 2).trans (Wex9_of_ne m c _ (by decide)).symm)
theorem hF9_3 (c : Dev nD) : (dat9 (Ven9 m) c).arrAt 3 cfg9.N = Vex9 m c (Pipeline.arrRef spec9 3) :=
  ((dat9 (Ven9 m) c).arrAt_in 3 rfl _).trans ((A_eq9 (Ven9 m) c 3).trans (Wex9_of_ne m c _ (by decide)).symm)
theorem hF9_4 (c : Dev nD) : (dat9 (Ven9 m) c).arrAt 4 cfg9.N = Vex9 m c (Pipeline.arrRef spec9 4) :=
  (Wex9_out0 m c).symm

theorem hF9 (c : Dev nD) : ∀ w : Fin cfg9.W, (dat9 (Ven9 m) c).arrAt w cfg9.N = Vex9 m c (Pipeline.arrRef spec9 w)
  | ⟨0, _⟩ => hF9_0 m c
  | ⟨1, _⟩ => hF9_1 m c
  | ⟨2, _⟩ => hF9_2 m c
  | ⟨3, _⟩ => hF9_3 m c
  | ⟨4, _⟩ => hF9_4 m c
  | ⟨_ + 5, h⟩ => absurd h (Nat.not_lt.2 (Nat.le_add_left 5 _))

/-- Every buffer that is no array of the region holds at the exit what it held at entry. -/
theorem hrest9 (c : Dev nD) : ∀ b, b ∉ Finset.univ.image (Pipeline.arrRef spec9) → Vex9 m c b = Ven9 m c b :=
  fun b hb => Wex9_of_ne m c b fun e => hb (Finset.mem_image.mpr ⟨4, Finset.mem_univ _, e.symm⟩)

/-! ## The region as a segment -/

set_option backward.isDefEq.respectTransparency.types false in
def reg9 : Pipeline.RegionSeg (pcfgs (F := F)) GenP.adm (pdats m) () defs₀ Variants.none (fun _ => ∅) (fun _ _ => 0) 9 where
  win := launch9.win.to₀
  block_pos := launch9.block_pos
  stage_whole := launch9.stage_whole
  K := PEmpty
  osem k := k.elim
  ho := Pipeline.OwnSemFacts.none _
  hbody c := (body_obligation9 (Ven9 m) c).loose
  hwaits := Pipeline.hwaits_of_owed_zero _ _ _ _ (fun _ => ∅) (fun _ _ => 0) 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (Ven9 m c)
  hentry c := by
    rw [Pipeline.ownSems0_none]
    have hsplit := Pipeline.arrays_of_unscopedBufs (p := 9) (pcfgs (F := F)) GenP.adm (pdats m) launch9.win launch9.arr_whole c
      ((pdats m 9 c).share_full fun _ => rfl) (Ven9 m c) fun w => A_eq9 (Ven9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin9 (Ven9 m) c)
    unfold Pipeline.ΦA
    iintro ⟨Hp, -, Hr⟩
    isplitl [Hr]; · iexact Hr
    iexact Hp
  hout c := by
    rw [Pipeline.ownSems0_none]
    refine (hout9 (Ven9 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c (pdats m) ((pdats m 9 c).share_full fun _ => rfl)
      (Ven9 m c) (Vex9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre9 (c : Dev nD) : iprop(StableHlo.held (c : Thread nD τ) (Pipeline.ucRefs τ sig) (GenP.V19 m (outs m) c) ∗ R c) ⊢ (reg9 m).pre c := by
  rw [Ven_eq9]; exact .rfl

theorem hpost9 (c : Dev nD) : (reg9 m).post c ⊢ iprop(StableHlo.held (c : Thread nD τ) (Pipeline.ucRefs τ sig) (GenP.V20 m (outs m) c) ∗ R c) := by
  rw [Vex_eq9]; exact .rfl

end Cert.KernelIdeal.Hand

end
-- ==== Proof.KernelIdeal.Seg10.lean ====
/- Region 10 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 10's arrays and off them -/

theorem Wex10_out0 (c : Dev nD) : Vex10 m c main_v135 = (dat10 (Ven10 m) c).arrAt 2 cfg10.N := by
  show W22 m c main_v135 = _
  unfold W22; exact Function.update_self _ _ _

theorem Wex10_of_ne (c : Dev nD) (b : Ref sig .tc) (hb : b ≠ main_v135) : Vex10 m c b = Ven10 m c b := by
  show W22 m c b = W21 m c b
  unfold W22; exact Function.update_of_ne (StableHlo.devRef_ne_of_ne hb) _ _

/-! At the exit each array of the region holds what the pipeline leaves: an input what it held at entry, an output
    its write-backs folded. One window at a time, then all. -/

theorem hF10_0 (c : Dev nD) : (dat10 (Ven10 m) c).arrAt 0 cfg10.N = Vex10 m c (Pipeline.arrRef spec10 0) :=
  ((dat10 (Ven10 m) c).arrAt_in 0 rfl _).trans ((A_eq10 (Ven10 m) c 0).trans (Wex10_of_ne m c _ (by decide)).symm)
theorem hF10_1 (c : Dev nD) : (dat10 (Ven10 m) c).arrAt 1 cfg10.N = Vex10 m c (Pipeline.arrRef spec10 1) :=
  ((dat10 (Ven10 m) c).arrAt_in 1 rfl _).trans ((A_eq10 (Ven10 m) c 1).trans (Wex10_of_ne m c _ (by decide)).symm)
theorem hF10_2 (c : Dev nD) : (dat10 (Ven10 m) c).arrAt 2 cfg10.N = Vex10 m c (Pipeline.arrRef spec10 2) :=
  (Wex10_out0 m c).symm

theorem hF10 (c : Dev nD) : ∀ w : Fin cfg10.W, (dat10 (Ven10 m) c).arrAt w cfg10.N = Vex10 m c (Pipeline.arrRef spec10 w)
  | ⟨0, _⟩ => hF10_0 m c
  | ⟨1, _⟩ => hF10_1 m c
  | ⟨2, _⟩ => hF10_2 m c
  | ⟨_ + 3, h⟩ => absurd h (Nat.not_lt.2 (Nat.le_add_left 3 _))

/-- Every buffer that is no array of the region holds at the exit what it held at entry. -/
theorem hrest10 (c : Dev nD) : ∀ b, b ∉ Finset.univ.image (Pipeline.arrRef spec10) → Vex10 m c b = Ven10 m c b :=
  fun b hb => Wex10_of_ne m c b fun e => hb (Finset.mem_image.mpr ⟨2, Finset.mem_univ _, e.symm⟩)

/-! ## The region as a segment -/

set_option backward.isDefEq.respectTransparency.types false in
def reg10 : Pipeline.RegionSeg (pcfgs (F := F)) GenP.adm (pdats m) () defs₀ Variants.none (fun _ => ∅) (fun _ _ => 0) 10 where
  win := launch10.win.to₀
  block_pos := launch10.block_pos
  stage_whole := launch10.stage_whole
  K := PEmpty
  osem k := k.elim
  ho := Pipeline.OwnSemFacts.none _
  hbody c := (body_obligation10 (Ven10 m) c).loose
  hwaits := Pipeline.hwaits_of_owed_zero _ _ _ _ (fun _ => ∅) (fun _ _ => 0) 10 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec10 c (Ven10 m c)
  hentry c := by
    rw [Pipeline.ownSems0_none]
    have hsplit := Pipeline.arrays_of_unscopedBufs (p := 10) (pcfgs (F := F)) GenP.adm (pdats m) launch10.win launch10.arr_whole c
      ((pdats m 10 c).share_full fun _ => rfl) (Ven10 m c) fun w => A_eq10 (Ven10 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin10 (Ven10 m) c)
    unfold Pipeline.ΦA
    iintro ⟨Hp, -, Hr⟩
    isplitl [Hr]; · iexact Hr
    iexact Hp
  hout c := by
    rw [Pipeline.ownSems0_none]
    refine (hout10 (Ven10 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) GenP.adm (Ix := Unit) (Name := ℕ) (U := UR sig nD τ) (Lvl := ℕ)
      launch10.win launch10.arr_whole c (pdats m) ((pdats m 10 c).share_full fun _ => rfl)
      (Ven10 m c) (Vex10 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre10 (c : Dev nD) : iprop(StableHlo.held (c : Thread nD τ) (Pipeline.ucRefs τ sig) (GenP.V21 m (outs m) c) ∗ R c) ⊢ (reg10 m).pre c := by
  rw [Ven_eq10]; exact .rfl

theorem hpost10 (c : Dev nD) : (reg10 m).post c ⊢ iprop(StableHlo.held (c : Thread nD τ) (Pipeline.ucRefs τ sig) (GenP.V22 m (outs m) c) ∗ R c) := by
  rw [Vex_eq10]; exact .rfl

end Cert.KernelIdeal.Hand

end
-- ==== Proof.KernelIdeal.Seg11.lean ====
/- Region 11 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 11's arrays and off them -/

theorem Wex11_out0 (c : Dev nD) : Vex11 m c main_v154 = (dat11 (Ven11 m) c).arrAt 3 cfg11.N := by
  show W24 m c main_v154 = _
  unfold W24; exact Function.update_self _ _ _

theorem Wex11_of_ne (c : Dev nD) (b : Ref sig .tc) (hb : b ≠ main_v154) : Vex11 m c b = Ven11 m c b := by
  show W24 m c b = W23 m c b
  unfold W24; exact Function.update_of_ne (StableHlo.devRef_ne_of_ne hb) _ _

/-! At the exit each array of the region holds what the pipeline leaves: an input what it held at entry, an output
    its write-backs folded. One window at a time, then all. -/

theorem hF11_0 (c : Dev nD) : (dat11 (Ven11 m) c).arrAt 0 cfg11.N = Vex11 m c (Pipeline.arrRef spec11 0) :=
  ((dat11 (Ven11 m) c).arrAt_in 0 rfl _).trans ((A_eq11 (Ven11 m) c 0).trans (Wex11_of_ne m c _ (by decide)).symm)
theorem hF11_1 (c : Dev nD) : (dat11 (Ven11 m) c).arrAt 1 cfg11.N = Vex11 m c (Pipeline.arrRef spec11 1) :=
  ((dat11 (Ven11 m) c).arrAt_in 1 rfl _).trans ((A_eq11 (Ven11 m) c 1).trans (Wex11_of_ne m c _ (by decide)).symm)
theorem hF11_2 (c : Dev nD) : (dat11 (Ven11 m) c).arrAt 2 cfg11.N = Vex11 m c (Pipeline.arrRef spec11 2) :=
  ((dat11 (Ven11 m) c).arrAt_in 2 rfl _).trans ((A_eq11 (Ven11 m) c 2).trans (Wex11_of_ne m c _ (by decide)).symm)
theorem hF11_3 (c : Dev nD) : (dat11 (Ven11 m) c).arrAt 3 cfg11.N = Vex11 m c (Pipeline.arrRef spec11 3) :=
  (Wex11_out0 m c).symm

theorem hF11 (c : Dev nD) : ∀ w : Fin cfg11.W, (dat11 (Ven11 m) c).arrAt w cfg11.N = Vex11 m c (Pipeline.arrRef spec11 w)
  | ⟨0, _⟩ => hF11_0 m c
  | ⟨1, _⟩ => hF11_1 m c
  | ⟨2, _⟩ => hF11_2 m c
  | ⟨3, _⟩ => hF11_3 m c
  | ⟨_ + 4, h⟩ => absurd h (Nat.not_lt.2 (Nat.le_add_left 4 _))

/-- Every buffer that is no array of the region holds at the exit what it held at entry. -/
theorem hrest11 (c : Dev nD) : ∀ b, b ∉ Finset.univ.image (Pipeline.arrRef spec11) → Vex11 m c b = Ven11 m c b :=
  fun b hb => Wex11_of_ne m c b fun e => hb (Finset.mem_image.mpr ⟨3, Finset.mem_univ _, e.symm⟩)

/-! ## The region as a segment -/

set_option backward.isDefEq.respectTransparency.types false in
def reg11 : Pipeline.RegionSeg (pcfgs (F := F)) GenP.adm (pdats m) () defs₀ Variants.none (fun _ => ∅) (fun _ _ => 0) 11 where
  win := launch11.win.to₀
  block_pos := launch11.block_pos
  stage_whole := launch11.stage_whole
  K := PEmpty
  osem k := k.elim
  ho := Pipeline.OwnSemFacts.none _
  hbody c := (body_obligation11 (Ven11 m) c).loose
  hwaits := Pipeline.hwaits_of_owed_zero _ _ _ _ (fun _ => ∅) (fun _ _ => 0) 11 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec11 c (Ven11 m c)
  hentry c := by
    rw [Pipeline.ownSems0_none]
    have hsplit := Pipeline.arrays_of_unscopedBufs (p := 11) (pcfgs (F := F)) GenP.adm (pdats m) launch11.win launch11.arr_whole c
      ((pdats m 11 c).share_full fun _ => rfl) (Ven11 m c) fun w => A_eq11 (Ven11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin11 (Ven11 m) c)
    unfold Pipeline.ΦA
    iintro ⟨Hp, -, Hr⟩
    isplitl [Hr]; · iexact Hr
    iexact Hp
  hout c := by
    rw [Pipeline.ownSems0_none]
    refine (hout11 (Ven11 m) c).trans ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c (pdats m) ((pdats m 11 c).share_full fun _ => rfl)
      (Ven11 m c) (Vex11 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre11 (c : Dev nD) : iprop(StableHlo.held (c : Thread nD τ) (Pipeline.ucRefs τ sig) (GenP.V23 m (outs m) c) ∗ R c) ⊢ (reg11 m).pre c := by
  rw [Ven_eq11]; exact .rfl

theorem hpost11 (c : Dev nD) : (reg11 m).post c ⊢ iprop(StableHlo.held (c : Thread nD τ) (Pipeline.ucRefs τ sig) (GenP.V24 m (outs m) c) ∗ R c) := by
  rw [Vex_eq11]; exact .rfl

end Cert.KernelIdeal.Hand

end
-- ==== Proof.KernelIdeal.Seg12.lean ====
/- Region 12 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 12's arrays and off them -/

theorem Wex12_out0 (c : Dev nD) : Vex12 m c main_v165_0 = (dat12 (Ven12 m) c).arrAt 3 cfg12.N := by
  show W26 m c main_v165_0 = _
  unfold W26
  rw [Function.update_of_ne (StableHlo.devRef_ne_of_ne (by decide))]; exact Function.update_self _ _ _

theorem Wex12_out1 (c : Dev nD) : Vex12 m c main_v165_1 = (dat12 (Ven12 m) c).arrAt 4 cfg12.N := by
  show W26 m c main_v165_1 = _
  unfold W26; exact Function.update_self _ _ _

theorem Wex12_of_ne (c : Dev nD) (b : Ref sig .tc) (hb0 : b ≠ main_v165_0) (hb1 : b ≠ main_v165_1) : Vex12 m c b = Ven12 m c b := by
  show W26 m c b = W25 m c b
  unfold W26
  rw [Function.update_of_ne (StableHlo.devRef_ne_of_ne hb1), Function.update_of_ne (StableHlo.devRef_ne_of_ne hb0)]

/-! At the exit each array of the region holds what the pipeline leaves: an input what it held at entry, an output
    its write-backs folded. One window at a time, then all. -/

theorem hF12_0 (c : Dev nD) : (dat12 (Ven12 m) c).arrAt 0 cfg12.N = Vex12 m c (Pipeline.arrRef spec12 0) :=
  ((dat12 (Ven12 m) c).arrAt_in 0 rfl _).trans ((A_eq12 (Ven12 m) c 0).trans (Wex12_of_ne m c _ (by decide) (by decide)).symm)
theorem hF12_1 (c : Dev nD) : (dat12 (Ven12 m) c).arrAt 1 cfg12.N = Vex12 m c (Pipeline.arrRef spec12 1) :=
  ((dat12 (Ven12 m) c).arrAt_in 1 rfl _).trans ((A_eq12 (Ven12 m) c 1).trans (Wex12_of_ne m c _ (by decide) (by decide)).symm)
theorem hF12_2 (c : Dev nD) : (dat12 (Ven12 m) c).arrAt 2 cfg12.N = Vex12 m c (Pipeline.arrRef spec12 2) :=
  ((dat12 (Ven12 m) c).arrAt_in 2 rfl _).trans ((A_eq12 (Ven12 m) c 2).trans (Wex12_of_ne m c _ (by decide) (by decide)).symm)
theorem hF12_3 (c : Dev nD) : (dat12 (Ven12 m) c).arrAt 3 cfg12.N = Vex12 m c (Pipeline.arrRef spec12 3) :=
  (Wex12_out0 m c).symm
theorem hF12_4 (c : Dev nD) : (dat12 (Ven12 m) c).arrAt 4 cfg12.N = Vex12 m c (Pipeline.arrRef spec12 4) :=
  (Wex12_out1 m c).symm

theorem hF12 (c : Dev nD) : ∀ w : Fin cfg12.W, (dat12 (Ven12 m) c).arrAt w cfg12.N = Vex12 m c (Pipeline.arrRef spec12 w)
  | ⟨0, _⟩ => hF12_0 m c
  | ⟨1, _⟩ => hF12_1 m c
  | ⟨2, _⟩ => hF12_2 m c
  | ⟨3, _⟩ => hF12_3 m c
  | ⟨4, _⟩ => hF12_4 m c
  | ⟨_ + 5, h⟩ => absurd h (Nat.not_lt.2 (Nat.le_add_left 5 _))

/-- Every buffer that is no array of the region holds at the exit what it held at entry. -/
theorem hrest12 (c : Dev nD) : ∀ b, b ∉ Finset.univ.image (Pipeline.arrRef spec12) → Vex12 m c b = Ven12 m c b :=
  fun b hb => Wex12_of_ne m c b (fun e => hb (Finset.mem_image.mpr ⟨3, Finset.mem_univ _, e.symm⟩))
    (fun e => hb (Finset.mem_image.mpr ⟨4, Finset.mem_univ _, e.symm⟩))

/-! ## The region as a segment -/

set_option backward.isDefEq.respectTransparency.types false in
def reg12 : Pipeline.RegionSeg (pcfgs (F := F)) GenP.adm (pdats m) () defs₀ Variants.none (fun _ => ∅) (fun _ _ => 0) 12 where
  win := launch12.win.to₀
  block_pos := launch12.block_pos
  stage_whole := launch12.stage_whole
  K := PEmpty
  osem k := k.elim
  ho := Pipeline.OwnSemFacts.none _
  hbody c := (body_obligation12 (Ven12 m) c).loose
  hwaits := Pipeline.hwaits_of_owed_zero _ _ _ _ (fun _ => ∅) (fun _ _ => 0) 12 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec12 c (Ven12 m c)
  hentry c := by
    rw [Pipeline.ownSems0_none]
    have hsplit := Pipeline.arrays_of_unscopedBufs (p := 12) (pcfgs (F := F)) GenP.adm (pdats m) launch12.win launch12.arr_whole c
      ((pdats m 12 c).share_full fun _ => rfl) (Ven12 m c) fun w => A_eq12 (Ven12 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin12 (Ven12 m) c)
    unfold Pipeline.ΦA
    iintro ⟨Hp, -, Hr⟩
    isplitl [Hr]; · iexact Hr
    iexact Hp
  hout c := by
    rw [Pipeline.ownSems0_none]
    refine (hout12 (Ven12 m) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) GenP.adm (Ix := Unit) (Name := ℕ) (U := UR sig nD τ) (Lvl := ℕ)
      launch12.win launch12.arr_whole c (pdats m) ((pdats m 12 c).share_full fun _ => rfl)
      (Ven12 m c) (Vex12 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre12 (c : Dev nD) : iprop(StableHlo.held (c : Thread nD τ) (Pipeline.ucRefs τ sig) (GenP.V25 m (outs m) c) ∗ R c) ⊢ (reg12 m).pre c := by
  rw [Ven_eq12]; exact .rfl

theorem hpost12 (c : Dev nD) : (reg12 m).post c ⊢ iprop(StableHlo.held (c : Thread nD τ) (Pipeline.ucRefs τ sig) (GenP.V26 m (outs m) c) ∗ R c) := by
  rw [Vex_eq12]; exact .rfl

end Cert.KernelIdeal.Hand

end
-- ==== Proof.KernelIdeal.Seg13.lean ====
/- Region 13 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 13's arrays and off them -/

theorem Wex13_out0 (c : Dev nD) : Vex13 m c main_v166 = (dat13 (Ven13 m) c).arrAt 3 cfg13.N := by
  show W27 m c main_v166 = _
  unfold W27; exact Function.update_self _ _ _

theorem Wex13_of_ne (c : Dev nD) (b : Ref sig .tc) (hb : b ≠ main_v166) : Vex13 m c b = Ven13 m c b := by
  show W27 m c b = W26 m c b
  unfold W27; exact Function.update_of_ne (StableHlo.devRef_ne_of_ne hb) _ _

/-! At the exit each array of the region holds what the pipeline leaves: an input what it held at entry, an output
    its write-backs folded. One window at a time, then all. -/

theorem hF13_0 (c : Dev nD) : (dat13 (Ven13 m) c).arrAt 0 cfg13.N = Vex13 m c (Pipeline.arrRef spec13 0) :=
  ((dat13 (Ven13 m) c).arrAt_in 0 rfl _).trans ((A_eq13 (Ven13 m) c 0).trans (Wex13_of_ne m c _ (by decide)).symm)
theorem hF13_1 (c : Dev nD) : (dat13 (Ven13 m) c).arrAt 1 cfg13.N = Vex13 m c (Pipeline.arrRef spec13 1) :=
  ((dat13 (Ven13 m) c).arrAt_in 1 rfl _).trans ((A_eq13 (Ven13 m) c 1).trans (Wex13_of_ne m c _ (by decide)).symm)
theorem hF13_2 (c : Dev nD) : (dat13 (Ven13 m) c).arrAt 2 cfg13.N = Vex13 m c (Pipeline.arrRef spec13 2) :=
  ((dat13 (Ven13 m) c).arrAt_in 2 rfl _).trans ((A_eq13 (Ven13 m) c 2).trans (Wex13_of_ne m c _ (by decide)).symm)
theorem hF13_3 (c : Dev nD) : (dat13 (Ven13 m) c).arrAt 3 cfg13.N = Vex13 m c (Pipeline.arrRef spec13 3) :=
  (Wex13_out0 m c).symm

theorem hF13 (c : Dev nD) : ∀ w : Fin cfg13.W, (dat13 (Ven13 m) c).arrAt w cfg13.N = Vex13 m c (Pipeline.arrRef spec13 w)
  | ⟨0, _⟩ => hF13_0 m c
  | ⟨1, _⟩ => hF13_1 m c
  | ⟨2, _⟩ => hF13_2 m c
  | ⟨3, _⟩ => hF13_3 m c
  | ⟨_ + 4, h⟩ => absurd h (Nat.not_lt.2 (Nat.le_add_left 4 _))

/-- Every buffer that is no array of the region holds at the exit what it held at entry. -/
theorem hrest13 (c : Dev nD) : ∀ b, b ∉ Finset.univ.image (Pipeline.arrRef spec13) → Vex13 m c b = Ven13 m c b :=
  fun b hb => Wex13_of_ne m c b fun e => hb (Finset.mem_image.mpr ⟨3, Finset.mem_univ _, e.symm⟩)

/-! ## The region as a segment -/

set_option backward.isDefEq.respectTransparency.types false in
def reg13 : Pipeline.RegionSeg (pcfgs (F := F)) GenP.adm (pdats m) () defs₀ Variants.none (fun _ => ∅) (fun _ _ => 0) 13 where
  win := launch13.win.to₀
  block_pos := launch13.block_pos
  stage_whole := launch13.stage_whole
  K := PEmpty
  osem k := k.elim
  ho := Pipeline.OwnSemFacts.none _
  hbody c := (body_obligation13 (Ven13 m) c).loose
  hwaits := Pipeline.hwaits_of_owed_zero _ _ _ _ (fun _ => ∅) (fun _ _ => 0) 13 fun _ _ => rfl
  pre c := iprop(StableHlo.held (c : Thread nD τ) (Pipeline.ucRefs τ sig) (W26 m c) ∗ R c)
  post c := iprop(StableHlo.held (c : Thread nD τ) (Pipeline.ucRefs τ sig) (W27 m c) ∗ R c)
  X c := iprop(∃ r, prngReg c r)
  Y c := iprop(∃ r, prngReg c r)
  Z c := Pipeline.unscopedRest (Ix := Unit) (Name := ℕ) (U := UR sig nD τ) (Lvl := ℕ) spec13 c (Ven13 m c)
  hentry c := by
    rw [Pipeline.ownSems0_none]
    have hsplit := Pipeline.arrays_of_unscopedBufs (p := 13) (pcfgs (F := F)) GenP.adm (pdats m) launch13.win launch13.arr_whole c
      ((pdats m 13 c).share_full fun _ => rfl) (Ven13 m c) fun w => A_eq13 (Ven13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin13 (Ven13 m) c)
    unfold Pipeline.ΦA
    iintro ⟨Hp, -, Hr⟩
    isplitl [Hr]; · iexact Hr
    iexact Hp
  hout c := by
    rw [Pipeline.ownSems0_none]
    refine (hout13 (Ven13 m) c).trans ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c (pdats m) ((pdats m 13 c).share_full fun _ => rfl)
      (Ven13 m c) (Vex13 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre13 (c : Dev nD) : iprop(StableHlo.held (c : Thread nD τ) (Pipeline.ucRefs τ sig) (GenP.V26 m (outs m) c) ∗ R c) ⊢ (reg13 m).pre c := by
  rw [Ven_eq13]; exact .rfl

theorem hpost13 (c : Dev nD) : (reg13 m).post c ⊢ iprop(StableHlo.held (c : Thread nD τ) (Pipeline.ucRefs τ sig) (GenP.V27 m (outs m) c) ∗ R c) := by
  rw [Vex_eq13]; exact .rfl

end Cert.KernelIdeal.Hand

end
-- ==== Proof.KernelIdeal.Seg14.lean ====
/- Region 14 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 14's arrays and off them -/

theorem Wex14_out0 (c : Dev nD) : Vex14 m c main_v180 = (dat14 (Ven14 m) c).arrAt 4 cfg14.N := by
  show W29 m c main_v180 = _
  unfold W29; exact Function.update_self _ _ _

theorem Wex14_of_ne (c : Dev nD) (b : Ref sig .tc) (hb : b ≠ main_v180) : Vex14 m c b = Ven14 m c b := by
  show W29 m c b = W28 m c b
  unfold W29; exact Function.update_of_ne (StableHlo.devRef_ne_of_ne hb) _ _

/-! At the exit each array of the region holds what the pipeline leaves: an input what it held at entry, an output
    its write-backs folded. One window at a time, then all. -/

theorem hF14_0 (c : Dev nD) : (dat14 (Ven14 m) c).arrAt 0 cfg14.N = Vex14 m c (Pipeline.arrRef spec14 0) :=
  ((dat14 (Ven14 m) c).arrAt_in 0 rfl _).trans ((A_eq14 (Ven14 m) c 0).trans (Wex14_of_ne m c _ (by decide)).symm)
theorem hF14_1 (c : Dev nD) : (dat14 (Ven14 m) c).arrAt 1 cfg14.N = Vex14 m c (Pipeline.arrRef spec14 1) :=
  ((dat14 (Ven14 m) c).arrAt_in 1 rfl _).trans ((A_eq14 (Ven14 m) c 1).trans (Wex14_of_ne m c _ (by decide)).symm)
theorem hF14_2 (c : Dev nD) : (dat14 (Ven14 m) c).arrAt 2 cfg14.N = Vex14 m c (Pipeline.arrRef spec14 2) :=
  ((dat14 (Ven14 m) c).arrAt_in 2 rfl _).trans ((A_eq14 (Ven14 m) c 2).trans (Wex14_of_ne m c _ (by decide)).symm)
theorem hF14_3 (c : Dev nD) : (dat14 (Ven14 m) c).arrAt 3 cfg14.N = Vex14 m c (Pipeline.arrRef spec14 3) :=
  ((dat14 (Ven14 m) c).arrAt_in 3 rfl _).trans ((A_eq14 (Ven14 m) c 3).trans (Wex14_of_ne m c _ (by decide)).symm)
theorem hF14_4 (c : Dev nD) : (dat14 (Ven14 m) c).arrAt 4 cfg14.N = Vex14 m c (Pipeline.arrRef spec14 4) :=
  (Wex14_out0 m c).symm

theorem hF14 (c : Dev nD) : ∀ w : Fin cfg14.W, (dat14 (Ven14 m) c).arrAt w cfg14.N = Vex14 m c (Pipeline.arrRef spec14 w)
  | ⟨0, _⟩ => hF14_0 m c
  | ⟨1, _⟩ => hF14_1 m c
  | ⟨2, _⟩ => hF14_2 m c
  | ⟨3, _⟩ => hF14_3 m c
  | ⟨4, _⟩ => hF14_4 m c
  | ⟨_ + 5, h⟩ => absurd h (Nat.not_lt.2 (Nat.le_add_left 5 _))

/-- Every buffer that is no array of the region holds at the exit what it held at entry. -/
theorem hrest14 (c : Dev nD) : ∀ b, b ∉ Finset.univ.image (Pipeline.arrRef spec14) → Vex14 m c b = Ven14 m c b :=
  fun b hb => Wex14_of_ne m c b fun e => hb (Finset.mem_image.mpr ⟨4, Finset.mem_univ _, e.symm⟩)

/-! ## The region as a segment -/

set_option backward.isDefEq.respectTransparency.types false in
def reg14 : Pipeline.RegionSeg (pcfgs (F := F)) GenP.adm (pdats m) () defs₀ Variants.none (fun _ => ∅) (fun _ _ => 0) 14 where
  win := launch14.win.to₀
  block_pos := launch14.block_pos
  stage_whole := launch14.stage_whole
  K := PEmpty
  osem k := k.elim
  ho := Pipeline.OwnSemFacts.none _
  hbody c := (body_obligation14 (Ven14 m) c).loose
  hwaits := Pipeline.hwaits_of_owed_zero _ _ _ _ (fun _ => ∅) (fun _ _ => 0) 14 fun _ _ => rfl
  pre c := iprop(StableHlo.held (c : Thread nD τ) (Pipeline.ucRefs τ sig) (W28 m c) ∗ R c)
  post c := iprop(StableHlo.held (c : Thread nD τ) (Pipeline.ucRefs τ sig) (W29 m c) ∗ R c)
  X c := iprop(∃ r, prngReg c r)
  Y c := iprop(∃ r, prngReg c r)
  Z c := Pipeline.unscopedRest (Ix := Unit) (Name := ℕ) (U := UR sig nD τ) (Lvl := ℕ) spec14 c (Ven14 m c)
  hentry c := by
    rw [Pipeline.ownSems0_none]
    have hsplit := Pipeline.arrays_of_unscopedBufs (p := 14) (pcfgs (F := F)) GenP.adm (pdats m) launch14.win launch14.arr_whole c
      ((pdats m 14 c).share_full fun _ => rfl) (Ven14 m c) fun w => A_eq14 (Ven14 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin14 (Ven14 m) c)
    unfold Pipeline.ΦA
    iintro ⟨Hp, -, Hr⟩
    isplitl [Hr]; · iexact Hr
    iexact Hp
  hout c := by
    rw [Pipeline.ownSems0_none]
    refine (hout14 (Ven14 m) c).trans ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) GenP.adm (Ix := Unit) (Name := ℕ) (U := UR sig nD τ) (Lvl := ℕ)
      launch14.win launch14.arr_whole c (pdats m) ((pdats m 14 c).share_full fun _ => rfl)
      (Ven14 m c) (Vex14 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre14 (c : Dev nD) : iprop(StableHlo.held (c : Thread nD τ) (Pipeline.ucRefs τ sig) (GenP.V28 m (outs m) c) ∗ R c) ⊢ (reg14 m).pre c := by
  rw [Ven_eq14]; exact .rfl

theorem hpost14 (c : Dev nD) : (reg14 m).post c ⊢ iprop(StableHlo.held (c : Thread nD τ) (Pipeline.ucRefs τ sig) (GenP.V29 m (outs m) c) ∗ R c) := by
  rw [Vex_eq14]; exact .rfl

end Cert.KernelIdeal.Hand

end
-- ==== Proof.KernelIdeal.Seg15.lean ====
/- Region 15 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 15's arrays and off them -/

theorem Wex15_out0 (c : Dev nD) : Vex15 m c main_v182 = (dat15 (Ven15 m) c).arrAt 3 cfg15.N := by
  show W31 m c main_v182 = _
  unfold W31; exact Function.update_self _ _ _

theorem Wex15_of_ne (c : Dev nD) (b : Ref sig .tc) (hb : b ≠ main_v182) : Vex15 m c b = Ven15 m c b := by
  show W31 m c b = W30 m c b
  unfold W31; exact Function.update_of_ne (StableHlo.devRef_ne_of_ne hb) _ _

/-! At the exit each array of the region holds what the pipeline leaves: an input what it held at entry, an output
    its write-backs folded. One window at a time, then all. -/

theorem hF15_0 (c : Dev nD) : (dat15 (Ven15 m) c).arrAt 0 cfg15.N = Vex15 m c (Pipeline.arrRef spec15 0) :=
  ((dat15 (Ven15 m) c).arrAt_in 0 rfl _).trans ((A_eq15 (Ven15 m) c 0).trans (Wex15_of_ne m c _ (by decide)).symm)
theorem hF15_1 (c : Dev nD) : (dat15 (Ven15 m) c).arrAt 1 cfg15.N = Vex15 m c (Pipeline.arrRef spec15 1) :=
  ((dat15 (Ven15 m) c).arrAt_in 1 rfl _).trans ((A_eq15 (Ven15 m) c 1).trans (Wex15_of_ne m c _ (by decide)).symm)
theorem hF15_2 (c : Dev nD) : (dat15 (Ven15 m) c).arrAt 2 cfg15.N = Vex15 m c (Pipeline.arrRef spec15 2) :=
  ((dat15 (Ven15 m) c).arrAt_in 2 rfl _).trans ((A_eq15 (Ven15 m) c 2).trans (Wex15_of_ne m c _ (by decide)).symm)
theorem hF15_3 (c : Dev nD) : (dat15 (Ven15 m) c).arrAt 3 cfg15.N = Vex15 m c (Pipeline.arrRef spec15 3) :=
  (Wex15_out0 m c).symm

theorem hF15 (c : Dev nD) : ∀ w : Fin cfg15.W, (dat15 (Ven15 m) c).arrAt w cfg15.N = Vex15 m c (Pipeline.arrRef spec15 w)
  | ⟨0, _⟩ => hF15_0 m c
  | ⟨1, _⟩ => hF15_1 m c
  | ⟨2, _⟩ => hF15_2 m c
  | ⟨3, _⟩ => hF15_3 m c
  | ⟨_ + 4, h⟩ => absurd h (Nat.not_lt.2 (Nat.le_add_left 4 _))

/-- Every buffer that is no array of the region holds at the exit what it held at entry. -/
theorem hrest15 (c : Dev nD) : ∀ b, b ∉ Finset.univ.image (Pipeline.arrRef spec15) → Vex15 m c b = Ven15 m c b :=
  fun b hb => Wex15_of_ne m c b fun e => hb (Finset.mem_image.mpr ⟨3, Finset.mem_univ _, e.symm⟩)

/-! ## The region as a segment -/

set_option backward.isDefEq.respectTransparency.types false in
def reg15 : Pipeline.RegionSeg (pcfgs (F := F)) GenP.adm (pdats m) () defs₀ Variants.none (fun _ => ∅) (fun _ _ => 0) 15 where
  win := launch15.win.to₀
  block_pos := launch15.block_pos
  stage_whole := launch15.stage_whole
  K := PEmpty
  osem k := k.elim
  ho := Pipeline.OwnSemFacts.none _
  hbody c := (body_obligation15 (Ven15 m) c).loose
  hwaits := Pipeline.hwaits_of_owed_zero _ _ _ _ (fun _ => ∅) (fun _ _ => 0) 15 fun _ _ => rfl
  pre c := iprop(StableHlo.held (c : Thread nD τ) (Pipeline.ucRefs τ sig) (W30 m c) ∗ R c)
  post c := iprop(StableHlo.held (c : Thread nD τ) (Pipeline.ucRefs τ sig) (W31 m c) ∗ R c)
  X c := iprop(∃ r, prngReg c r)
  Y c := iprop(∃ r, prngReg c r)
  Z c := Pipeline.unscopedRest (Ix := Unit) (Name := ℕ) (U := UR sig nD τ) (Lvl := ℕ) spec15 c (Ven15 m c)
  hentry c := by
    rw [Pipeline.ownSems0_none]
    have hsplit := Pipeline.arrays_of_unscopedBufs (p := 15) (pcfgs (F := F)) GenP.adm (pdats m) launch15.win launch15.arr_whole c
      ((pdats m 15 c).share_full fun _ => rfl) (Ven15 m c) fun w => A_eq15 (Ven15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin15 (Ven15 m) c)
    unfold Pipeline.ΦA
    iintro ⟨Hp, -, Hr⟩
    isplitl [Hr]; · iexact Hr
    iexact Hp
  hout c := by
    rw [Pipeline.ownSems0_none]
    refine (hout15 (Ven15 m) c).trans ?_
    unfold Pipeline.ΦA
    iintro ⟨Hr, Hp⟩
    isplitl [Hp]; · iexact Hp
    isplitr; · iempintro
    iexact Hr
  hexit c := by
    have hjoin := Pipeline.unscopedBufs_of_arrays (p := 15) (pcfgs (F := F)) GenP.adm (Ix := Unit) (Name := ℕ) (U := UR sig nD τ) (Lvl := ℕ)
      launch15.win launch15.arr_whole c (pdats m) ((pdats m 15 c).share_full fun _ => rfl)
      (Ven15 m c) (Vex15 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre15 (c : Dev nD) : iprop(StableHlo.held (c : Thread nD τ) (Pipeline.ucRefs τ sig) (GenP.V30 m (outs m) c) ∗ R c) ⊢ (reg15 m).pre c := by
  rw [Ven_eq15]; exact .rfl

theorem hpost15 (c : Dev nD) : (reg15 m).post c ⊢ iprop(StableHlo.held (c : Thread nD τ) (Pipeline.ucRefs τ sig) (GenP.V31 m (outs m) c) ∗ R c) := by
  rw [Vex_eq15]; exact .rfl

end Cert.KernelIdeal.Hand

end
-- ==== Proof.KernelIdeal.Seg16.lean ====
/- Region 16 as a segment of the program: entered from every unscoped buffer at the fold's contents before it, left at
   the contents after it; its arrays split out of the unscoped buffers at entry and put back at exit. -/
import proofs.«422469_j24000277250640_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The exit contents at region 16's arrays and off them -/

theorem Wex16_out0 (c : Dev nD) : Vex16 m c main_v185 = (dat16 (Ven16 m) c).arrAt 5 cfg16.N := by
  show W33 m c main_v185 = _
  unfold W33; exact Function.update_self _ _ _

theorem Wex16_of_ne (c : Dev nD) (b : Ref sig .tc) (hb : b ≠ main_v185) : Vex16 m c b = Ven16 m c b := by
  show W33 m c b = W32 m c b
  unfold W33; exact Function.update_of_ne (StableHlo.devRef_ne_of_ne hb) _ _

/-! At the exit each array of the region holds what the pipeline leaves: an input what it held at entry, an output
    its write-backs folded. One window at a time, then all. -/

theorem hF16_0 (c : Dev nD) : (dat16 (Ven16 m) c).arrAt 0 cfg16.N = Vex16 m c (Pipeline.arrRef spec16 0) :=
  ((dat16 (Ven16 m) c).arrAt_in 0 rfl _).trans ((A_eq16 (Ven16 m) c 0).trans (Wex16_of_ne m c _ (by decide)).symm)
theorem hF16_1 (c : Dev nD) : (dat16 (Ven16 m) c).arrAt 1 cfg16.N = Vex16 m c (Pipeline.arrRef spec16 1) :=
  ((dat16 (Ven16 m) c).arrAt_in 1 rfl _).trans ((A_eq16 (Ven16 m) c 1).trans (Wex16_of_ne m c _ (by decide)).symm)
theorem hF16_2 (c : Dev nD) : (dat16 (Ven16 m) c).arrAt 2 cfg16.N = Vex16 m c (Pipeline.arrRef spec16 2) :=
  ((dat16 (Ven16 m) c).arrAt_in 2 rfl _).trans ((A_eq16 (Ven16 m) c 2).trans (Wex16_of_ne m c _ (by decide)).symm)
theorem hF16_3 (c : Dev nD) : (dat16 (Ven16 m) c).arrAt 3 cfg16.N = Vex16 m c (Pipeline.arrRef spec16 3) :=
  ((dat16 (Ven16 m) c).arrAt_in 3 rfl _).trans ((A_eq16 (Ven16 m) c 3).trans (Wex16_of_ne m c _ (by decide)).symm)
theorem hF16_4 (c : Dev nD) : (dat16 (Ven16 m) c).arrAt 4 cfg16.N = Vex16 m c (Pipeline.arrRef spec16 4) :=
  ((dat16 (Ven16 m) c).arrAt_in 4 rfl _).trans ((A_eq16 (Ven16 m) c 4).trans (Wex16_of_ne m c _ (by decide)).symm)
theorem hF16_5 (c : Dev nD) : (dat16 (Ven16 m) c).arrAt 5 cfg16.N = Vex16 m c (Pipeline.arrRef spec16 5) :=
  (Wex16_out0 m c).symm

theorem hF16 (c : Dev nD) : ∀ w : Fin cfg16.W, (dat16 (Ven16 m) c).arrAt w cfg16.N = Vex16 m c (Pipeline.arrRef spec16 w)
  | ⟨0, _⟩ => hF16_0 m c
  | ⟨1, _⟩ => hF16_1 m c
  | ⟨2, _⟩ => hF16_2 m c
  | ⟨3, _⟩ => hF16_3 m c
  | ⟨4, _⟩ => hF16_4 m c
  | ⟨5, _⟩ => hF16_5 m c
  | ⟨_ + 6, h⟩ => absurd h (Nat.not_lt.2 (Nat.le_add_left 6 _))

/-- Every buffer that is no array of the region holds at the exit what it held at entry. -/
theorem hrest16 (c : Dev nD) : ∀ b, b ∉ Finset.univ.image (Pipeline.arrRef spec16) → Vex16 m c b = Ven16 m c b :=
  fun b hb => Wex16_of_ne m c b fun e => hb (Finset.mem_image.mpr ⟨5, Finset.mem_univ _, e.symm⟩)

/-! ## The region as a segment -/

set_option backward.isDefEq.respectTransparency.types false in
def reg16 : Pipeline.RegionSeg (pcfgs (F := F)) GenP.adm (pdats m) () defs₀ Variants.none (fun _ => ∅) (fun _ _ => 0) 16 where
  win := launch16.win.to₀
  block_pos := launch16.block_pos
  stage_whole := launch16.stage_whole
  K := PEmpty
  osem k := k.elim
  ho := Pipeline.OwnSemFacts.none _
  hbody c := (body_obligation16 (Ven16 m) c).loose
  hwaits := Pipeline.hwaits_of_owed_zero _ _ _ _ (fun _ => ∅) (fun _ _ => 0) 16 fun _ _ => rfl
  pre c := iprop(StableHlo.held (c : Thread nD τ) (Pipeline.ucRefs τ sig) (W32 m c) ∗ R c)
  post c := iprop(StableHlo.held (c : Thread nD τ) (Pipeline.ucRefs τ sig) (W33 m c) ∗ R c)
  X c := iprop(∃ r, prngReg c r)
  Y c := iprop(∃ r, prngReg c r)
  Z c := Pipeline.unscopedRest (Ix := Unit) (Name := ℕ) (U := UR sig nD τ) (Lvl := ℕ) spec16 c (Ven16 m c)
  hentry c := by
    rw [Pipeline.ownSems0_none]
    have hsplit := Pipeline.arrays_of_unscopedBufs (p := 16) (pcfgs (F := F)) GenP.adm (pdats m) launch16.win launch16.arr_whole c
      ((pdats m 16 c).share_full fun _ => rfl) (Ven16 m c) fun w => A_eq16 (Ven16 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin16 (Ven16 m) c)
    unfold Pipeline.ΦA
    iintro ⟨Hp, -, Hr⟩
    isplitl [Hr]; · iexact Hr
    iexact Hp
  hout c := by
    rw [Pipeline.ownSems0_none]
    refine (hout16 (Ven16 m) c).trans ?_
    unfold Pipeline.ΦA
    iintro ⟨Hr, Hp⟩
    isplitl [Hp]; · iexact Hp
    isplitr; · iempintro
    iexact Hr
  hexit c := by
    have hjoin := Pipeline.unscopedBufs_of_arrays (p := 16) (pcfgs (F := F)) GenP.adm (Ix := Unit) (Name := ℕ) (U := UR sig nD τ) (Lvl := ℕ)
      launch16.win launch16.arr_whole c (pdats m) ((pdats m 16 c).share_full fun _ => rfl)
      (Ven16 m c) (Vex16 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Entry and exit against the conditional frame's valuations -/

theorem hpre16 (c : Dev nD) : iprop(StableHlo.held (c : Thread nD τ) (Pipeline.ucRefs τ sig) (GenP.V32 m (outs m) c) ∗ R c) ⊢ (reg16 m).pre c := by
  rw [Ven_eq16]; exact .rfl

theorem hpost16 (c : Dev nD) : (reg16 m).post c ⊢ iprop(StableHlo.held (c : Thread nD τ) (Pipeline.ucRefs τ sig) (GenP.V33 m (outs m) c) ∗ R c) := by
  rw [Vex_eq16]; exact .rfl

end Cert.KernelIdeal.Hand

end
-- ==== Proof.KernelIdeal.Frame.lean ====
/- The frame of the program: from any memory with zero counters, every weakly fair execution terminates and every
   final memory holds each argument array as launched. The conditional frame, at the fold's contents and the seventeen
   regions' segment records. -/
import proofs.«422469_j24000277250640_1_alg».proof.Proof.KernelIdeal.Fold
import proofs.«422469_j24000277250640_1_alg».proof.Proof.KernelIdeal.RunCond
import proofs.«422469_j24000277250640_1_alg».proof.Proof.KernelIdeal.Seg0
import proofs.«422469_j24000277250640_1_alg».proof.Proof.KernelIdeal.Seg1
import proofs.«422469_j24000277250640_1_alg».proof.Proof.KernelIdeal.Seg2
import proofs.«422469_j24000277250640_1_alg».proof.Proof.KernelIdeal.Seg3
import proofs.«422469_j24000277250640_1_alg».proof.Proof.KernelIdeal.Seg4
import proofs.«422469_j24000277250640_1_alg».proof.Proof.KernelIdeal.Seg5
import proofs.«422469_j24000277250640_1_alg».proof.Proof.KernelIdeal.Seg6
import proofs.«422469_j24000277250640_1_alg».proof.Proof.KernelIdeal.Seg7
import proofs.«422469_j24000277250640_1_alg».proof.Proof.KernelIdeal.Seg8
import proofs.«422469_j24000277250640_1_alg».proof.Proof.KernelIdeal.Seg9
import proofs.«422469_j24000277250640_1_alg».proof.Proof.KernelIdeal.Seg10
import proofs.«422469_j24000277250640_1_alg».proof.Proof.KernelIdeal.Seg11
import proofs.«422469_j24000277250640_1_alg».proof.Proof.KernelIdeal.Seg12
import proofs.«422469_j24000277250640_1_alg».proof.Proof.KernelIdeal.Seg13
import proofs.«422469_j24000277250640_1_alg».proof.Proof.KernelIdeal.Seg14
import proofs.«422469_j24000277250640_1_alg».proof.Proof.KernelIdeal.Seg15
import proofs.«422469_j24000277250640_1_alg».proof.Proof.KernelIdeal.Seg16
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's user element yields the pipeline library's at every staging cell; no ghost resource beside it. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core, beside its buffers, makes the rest state on every core at once. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts (fun _ : GSem nD τ sig => (∅ : Finset Unit)) (fun _ _ => (0 : ℕ)))
    ⊢ (|={Set.univ}=> bigSep Finset.univ (fun c : Dev nD => R (F := F) c) : sProp 𝕄) := by
  refine Pipeline.initEach _ _ fun c => ?_
  iintro ⟨⟨-, HO, -, Hp, -⟩, -⟩
  imodintro
  isplitl [Hp]; · iexists _; iexact Hp
  iexists ∅; iexact HO

/-- The rest state ends owing nothing. -/
theorem hE17 (c : Dev nD) : R (F := F) c ⊢ (iprop(∃ W, owes (c : Thread nD τ) (0 : CellTallies nD τ sig Unit) W) : sProp 𝕄) := by
  iintro ⟨-, HO⟩; iexact HO

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  GenP.frame_cond m emb₁ () Variants.none (fun _ => ∅) (fun _ _ => 0) (fun _ _ => rfl) ρ (outs m) (pdats m)
    0 (fun _ => iprop(emp)) (initOf (Pipeline.cells cfgs cellOf_inj) (Pipeline.launchToks cfgs cellOf_inj)) hu₀
    (fun _ c => R c) (hE0 ρ) hE17
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
    (reg8 m) (hpre8 m) (hpost8 m)
    (reg9 m) (hpre9 m) (hpost9 m)
    (reg10 m) (hpre10 m) (hpost10 m)
    (reg11 m) (hpre11 m) (hpost11 m)
    (reg12 m) (hpre12 m) (hpost12 m)
    (reg13 m) (hpre13 m) (hpost13 m)
    (reg14 m) (hpre14 m) (hpost14 m)
    (reg15 m) (hpre15 m) (hpost15 m)
    (reg16 m) (hpre16 m) (hpost16 m)

/-- THE RUN WITH ITS RESULTS: as the frame, and every final memory holds in the two result arrays the fold's last
    contents — the conditional run at the same data, its last valuation read as the fold's. -/
theorem run_values : θ_run defs (onTc (τ := τ) (main (F := F))) ⟨m, fun _ => 0, ρ⟩ (fun r => ∀ c : Dev nD,
      r.2.mem ((c.tc : Thread nD τ).loc main_v180) = W33 m c main_v180
      ∧ r.2.mem ((c.tc : Thread nD τ).loc main_v185) = W33 m c main_v185
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  MeshRun.mono
    (fun s hs c => ⟨(hs c).1.trans (congrFun (V33_eq m c) (Proc.devRef .tc main_v180)),
      (hs c).2.1.trans (congrFun (V33_eq m c) (Proc.devRef .tc main_v185)), (hs c).2.2⟩)
    (run_cond m emb₁ () Variants.none (fun _ => ∅) (fun _ _ => 0) (fun _ _ => rfl) ρ (outs m) (pdats m)
      0 (fun _ => iprop(emp)) (initOf (Pipeline.cells cfgs cellOf_inj) (Pipeline.launchToks cfgs cellOf_inj)) hu₀
      (fun _ c => R c) (hE0 ρ) hE17
      (reg0 m) (hpre0 m) (hpost0 m)
      (reg1 m) (hpre1 m) (hpost1 m)
      (reg2 m) (hpre2 m) (hpost2 m)
      (reg3 m) (hpre3 m) (hpost3 m)
      (reg4 m) (hpre4 m) (hpost4 m)
      (reg5 m) (hpre5 m) (hpost5 m)
      (reg6 m) (hpre6 m) (hpost6 m)
      (reg7 m) (hpre7 m) (hpost7 m)
      (reg8 m) (hpre8 m) (hpost8 m)
      (reg9 m) (hpre9 m) (hpost9 m)
      (reg10 m) (hpre10 m) (hpost10 m)
      (reg11 m) (hpre11 m) (hpost11 m)
      (reg12 m) (hpre12 m) (hpost12 m)
      (reg13 m) (hpre13 m) (hpost13 m)
      (reg14 m) (hpre14 m) (hpost14 m)
      (reg15 m) (hpre15 m) (hpost15 m)
      (reg16 m) (hpre16 m) (hpost16 m))

end Cert.KernelIdeal.Hand

end
-- ==== Proof.KernelIdeal.Records.lean ====
import proofs.«422469_j24000277250640_1_alg».proof.KernelIdeal
import proofs.«422469_j24000277250640_1_alg».proof.ReferenceIdeal
import proofs.«422469_j24000277250640_1_alg».proof.Proof.Gen.KernelIdeal
import proofs.«422469_j24000277250640_1_alg».proof.Proof.Gen.ReferenceIdeal
import Idealize.ShloMosaic.Lib.Pipeline.Value

noncomputable section

namespace Cert.KernelIdeal.Hand

open Idealize.ShloMosaic

/-! ## The dimension records the two programs' host operations share

Each program states its own record of a gather's, a scatter's or a contraction's dimension numbers, over its own
copy of the shapes. The copies are the same shapes and the records have the same fields, so the records are equal. -/

theorem gather_S100000_S1300000x1_S1300000_n_0_n_n_0_1_1_eq : Cert.KernelIdeal.gather_S100000_S1300000x1_S1300000_n_0_n_n_0_1_1 = Cert.ReferenceIdeal.gather_S100000_S1300000x1_S1300000_n_0_n_n_0_1_1 := rfl
theorem gather_S100000x64_S1300000x1_S1300000x64_1_0_n_n_0_1_164_eq : Cert.KernelIdeal.gather_S100000x64_S1300000x1_S1300000x64_1_0_n_n_0_1_164 = Cert.ReferenceIdeal.gather_S100000x64_S1300000x1_S1300000x64_1_0_n_n_0_1_164 := rfl
theorem gather_S256x64_S100000x1_S100000x64_1_0_n_n_0_1_164_eq : Cert.KernelIdeal.gather_S256x64_S100000x1_S100000x64_1_0_n_n_0_1_164 = Cert.ReferenceIdeal.gather_S256x64_S100000x1_S100000x64_1_0_n_n_0_1_164 := rfl
theorem scatter_S100000_S1300000x1_S1300000_n_0_0_1_eq : Cert.KernelIdeal.scatter_S100000_S1300000x1_S1300000_n_0_0_1 = Cert.ReferenceIdeal.scatter_S100000_S1300000x1_S1300000_n_0_0_1 := rfl
theorem scatter_S100000x64_S1300000x1_S1300000x64_1_0_0_1_eq : Cert.KernelIdeal.scatter_S100000x64_S1300000x1_S1300000x64_1_0_0_1 = Cert.ReferenceIdeal.scatter_S100000x64_S1300000x1_S1300000x64_1_0_0_1 := rfl
theorem scatter_S256x1_S100000x1_S100000x1_1_0_0_1_eq : Cert.KernelIdeal.scatter_S256x1_S100000x1_S100000x1_1_0_0_1 = Cert.ReferenceIdeal.scatter_S256x1_S100000x1_S100000x1_1_0_0_1 := rfl

/-- The two contractions of the last kernel, which the reference performs on the host. -/
theorem dot_S256x192_S192x192_S256x192_1_0_0_1_n_n_eq : Cert.KernelIdeal.dot_S256x192_S192x192_S256x192_1_0_0_1_n_n = Cert.ReferenceIdeal.dot_S256x192_S192x192_S256x192_1_0_0_1_n_n := rfl
theorem dot_S256x192_S192x10_S256x10_1_0_0_1_n_n_eq : Cert.KernelIdeal.dot_S256x192_S192x10_S256x10_1_0_0_1_n_n = Cert.ReferenceIdeal.dot_S256x192_S192x10_S256x10_1_0_0_1_n_n := rfl

/-! ## A unit axis added by a shape cast is the same as added by a broadcast

Where one program reshapes a vector to a matrix with one unit axis, the other broadcasts it along the non-unit axis:
both read, at a matrix index, the vector at the coordinate on the non-unit axis. Stated at any element type. -/

section Layout
variable {α : Type}

/-- A length-100000 vector as a column: at `(i, 0)` both read the vector at `i`. -/
theorem shapeCast_S100000_S100000x1_eq (b : Cert.KernelIdeal.S100000.Idx → α) :
    shapeCast Cert.KernelIdeal.S100000x1 b Cert.KernelIdeal.Facts₀.shapeCasts_S100000_S100000x1
      = broadcastInDim Cert.ReferenceIdeal.S100000x1 ![0] Cert.ReferenceIdeal.Facts₀.bcast_S100000_S100000x1_0 b := by
  funext j
  have h1 : (j 1).val < 1 := (j 1).isLt
  let k : Cert.KernelIdeal.S100000.Idx := fun | ⟨0, _⟩ => ⟨(j 0).val, (j 0).isLt⟩
  have hk0 : (k 0).val = (j 0).val := rfl
  rw [shapeCast_apply b _ j k (by
      have e1 := Shape.rowMajor_val_one (d := ![100000]) k
      have e2 := Shape.rowMajor_val_two (d := ![100000, 1]) j
      have e3 : (![100000, 1] : Fin 2 → ℕ) 1 = 1 := rfl
      rw [e3] at e2
      rw [e1, e2, hk0]; omega),
    broadcastInDim_apply _ _ b j k (fun a => by
      match a with
      | ⟨0, _⟩ => rfl)]

/-- A length-192 vector as a row: at `(0, i)` both read the vector at `i`. -/
theorem shapeCast_S192_S1x192_eq (b : Cert.KernelIdeal.S192.Idx → α) :
    shapeCast Cert.KernelIdeal.S1x192 b Cert.KernelIdeal.Facts₀.shapeCasts_S192_S1x192
      = broadcastInDim Cert.ReferenceIdeal.S1x192 ![1] Cert.ReferenceIdeal.Facts₀.bcast_S192_S1x192_1 b := by
  funext j
  rw [shapeCast_addUnit_apply ![192] b _ j,
    broadcastInDim_apply _ _ b j (fun a => j a.succ) (fun a => by
      match a with
      | ⟨0, _⟩ => rfl)]

/-- A length-10 vector as a row: at `(0, i)` both read the vector at `i`. -/
theorem shapeCast_S10_S1x10_eq (b : Cert.KernelIdeal.S10.Idx → α) :
    shapeCast Cert.KernelIdeal.S1x10 b Cert.KernelIdeal.Facts₀.shapeCasts_S10_S1x10
      = broadcastInDim Cert.ReferenceIdeal.S1x10 ![1] Cert.ReferenceIdeal.Facts₀.bcast_S10_S1x10_1 b := by
  funext j
  rw [shapeCast_addUnit_apply ![10] b _ j,
    broadcastInDim_apply _ _ b j (fun a => j a.succ) (fun a => by
      match a with
      | ⟨0, _⟩ => rfl)]

/-- The same three, as equalities of functions of the vector. -/
theorem shapeCast_S100000_S100000x1_fun_eq :
    (fun b : Cert.KernelIdeal.S100000.Idx → α => shapeCast Cert.KernelIdeal.S100000x1 b Cert.KernelIdeal.Facts₀.shapeCasts_S100000_S100000x1)
      = broadcastInDim Cert.ReferenceIdeal.S100000x1 ![0] Cert.ReferenceIdeal.Facts₀.bcast_S100000_S100000x1_0 :=
  funext shapeCast_S100000_S100000x1_eq
theorem shapeCast_S192_S1x192_fun_eq :
    (fun b : Cert.KernelIdeal.S192.Idx → α => shapeCast Cert.KernelIdeal.S1x192 b Cert.KernelIdeal.Facts₀.shapeCasts_S192_S1x192)
      = broadcastInDim Cert.ReferenceIdeal.S1x192 ![1] Cert.ReferenceIdeal.Facts₀.bcast_S192_S1x192_1 :=
  funext shapeCast_S192_S1x192_eq
theorem shapeCast_S10_S1x10_fun_eq :
    (fun b : Cert.KernelIdeal.S10.Idx → α => shapeCast Cert.KernelIdeal.S1x10 b Cert.KernelIdeal.Facts₀.shapeCasts_S10_S1x10)
      = broadcastInDim Cert.ReferenceIdeal.S1x10 ![1] Cert.ReferenceIdeal.Facts₀.bcast_S10_S1x10_1 :=
  funext shapeCast_S10_S1x10_eq

end Layout

end Cert.KernelIdeal.Hand

end
-- ==== Proof.KernelIdeal.Keep.lean ====
/- Which buffers an item of the program leaves alone, read off the fold of buffer contents W0 to W33: a host stretch
   leaves every buffer outside its write list as it was, a kernel region every buffer but its output arrays. One
   row per boundary, then the rows chained from boundary 3 for the buffers the opening stretches compute and for the
   twelve arguments, which nothing later writes. -/
import proofs.«422469_j24000277250640_1_alg».proof.Proof.KernelIdeal.Fold

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

/-! ## One item -/

theorem W1_of (c : Dev nD) (r : Ref sig .tc) (h : r ∉ (GenP.hostOps0_W : List (Ref sig .tc))) : W1 m c r = W0 m c r :=
  (congrFun (V1_eq m c) r).symm.trans ((GenP.V1_of m c r h).trans (congrFun (V0_eq m c) r))
theorem W2_of (c : Dev nD) (r : Ref sig .tc) (h : r ∉ (GenP.hostOps0_1_W : List (Ref sig .tc))) : W2 m c r = W1 m c r :=
  (congrFun (V2_eq m c) r).symm.trans ((GenP.V2_of m c r h).trans (congrFun (V1_eq m c) r))
theorem W3_of (c : Dev nD) (r : Ref sig .tc) (h : r ∉ (GenP.hostOps0_2_W : List (Ref sig .tc))) : W3 m c r = W2 m c r :=
  (congrFun (V3_eq m c) r).symm.trans ((GenP.V3_of m c r h).trans (congrFun (V2_eq m c) r))
theorem W4_of (c : Dev nD) (r : Ref sig .tc) (h : r ∉ ([main_v39] : List (Ref sig .tc))) : W4 m c r = W3 m c r :=
  (congrFun (V4_eq m c) r).symm.trans ((GenP.V4_of m (outs m) c r h).trans (congrFun (V3_eq m c) r))
theorem W5_of (c : Dev nD) (r : Ref sig .tc) (h : r ∉ (GenP.hostOps1_W : List (Ref sig .tc))) : W5 m c r = W4 m c r :=
  (congrFun (V5_eq m c) r).symm.trans ((GenP.V5_of m (outs m) c r h).trans (congrFun (V4_eq m c) r))
theorem W6_of (c : Dev nD) (r : Ref sig .tc) (h : r ∉ ([main_v58] : List (Ref sig .tc))) : W6 m c r = W5 m c r :=
  (congrFun (V6_eq m c) r).symm.trans ((GenP.V6_of m (outs m) c r h).trans (congrFun (V5_eq m c) r))
theorem W7_of (c : Dev nD) (r : Ref sig .tc) (h : r ∉ (GenP.hostOps2_W : List (Ref sig .tc))) : W7 m c r = W6 m c r :=
  (congrFun (V7_eq m c) r).symm.trans ((GenP.V7_of m (outs m) c r h).trans (congrFun (V6_eq m c) r))
theorem W8_of (c : Dev nD) (r : Ref sig .tc) (h : r ∉ ([main_v69_0, main_v69_1] : List (Ref sig .tc))) : W8 m c r = W7 m c r :=
  (congrFun (V8_eq m c) r).symm.trans ((GenP.V8_of m (outs m) c r h).trans (congrFun (V7_eq m c) r))
theorem W9_of (c : Dev nD) (r : Ref sig .tc) (h : r ∉ ([main_v70] : List (Ref sig .tc))) : W9 m c r = W8 m c r :=
  (congrFun (V9_eq m c) r).symm.trans ((GenP.V9_of m (outs m) c r h).trans (congrFun (V8_eq m c) r))
theorem W10_of (c : Dev nD) (r : Ref sig .tc) (h : r ∉ (GenP.hostOps4_W : List (Ref sig .tc))) : W10 m c r = W9 m c r :=
  (congrFun (V10_eq m c) r).symm.trans ((GenP.V10_of m (outs m) c r h).trans (congrFun (V9_eq m c) r))
theorem W11_of (c : Dev nD) (r : Ref sig .tc) (h : r ∉ ([main_v84] : List (Ref sig .tc))) : W11 m c r = W10 m c r :=
  (congrFun (V11_eq m c) r).symm.trans ((GenP.V11_of m (outs m) c r h).trans (congrFun (V10_eq m c) r))
theorem W12_of (c : Dev nD) (r : Ref sig .tc) (h : r ∉ (GenP.hostOps5_W : List (Ref sig .tc))) : W12 m c r = W11 m c r :=
  (congrFun (V12_eq m c) r).symm.trans ((GenP.V12_of m (outs m) c r h).trans (congrFun (V11_eq m c) r))
theorem W13_of (c : Dev nD) (r : Ref sig .tc) (h : r ∉ ([main_v87] : List (Ref sig .tc))) : W13 m c r = W12 m c r :=
  (congrFun (V13_eq m c) r).symm.trans ((GenP.V13_of m (outs m) c r h).trans (congrFun (V12_eq m c) r))
theorem W14_of (c : Dev nD) (r : Ref sig .tc) (h : r ∉ (GenP.hostOps6_W : List (Ref sig .tc))) : W14 m c r = W13 m c r :=
  (congrFun (V14_eq m c) r).symm.trans ((GenP.V14_of m (outs m) c r h).trans (congrFun (V13_eq m c) r))
theorem W15_of (c : Dev nD) (r : Ref sig .tc) (h : r ∉ ([main_v106] : List (Ref sig .tc))) : W15 m c r = W14 m c r :=
  (congrFun (V15_eq m c) r).symm.trans ((GenP.V15_of m (outs m) c r h).trans (congrFun (V14_eq m c) r))
theorem W16_of (c : Dev nD) (r : Ref sig .tc) (h : r ∉ (GenP.hostOps7_W : List (Ref sig .tc))) : W16 m c r = W15 m c r :=
  (congrFun (V16_eq m c) r).symm.trans ((GenP.V16_of m (outs m) c r h).trans (congrFun (V15_eq m c) r))
theorem W17_of (c : Dev nD) (r : Ref sig .tc) (h : r ∉ ([main_v117_0, main_v117_1] : List (Ref sig .tc))) : W17 m c r = W16 m c r :=
  (congrFun (V17_eq m c) r).symm.trans ((GenP.V17_of m (outs m) c r h).trans (congrFun (V16_eq m c) r))
theorem W18_of (c : Dev nD) (r : Ref sig .tc) (h : r ∉ ([main_v118] : List (Ref sig .tc))) : W18 m c r = W17 m c r :=
  (congrFun (V18_eq m c) r).symm.trans ((GenP.V18_of m (outs m) c r h).trans (congrFun (V17_eq m c) r))
theorem W19_of (c : Dev nD) (r : Ref sig .tc) (h : r ∉ (GenP.hostOps9_W : List (Ref sig .tc))) : W19 m c r = W18 m c r :=
  (congrFun (V19_eq m c) r).symm.trans ((GenP.V19_of m (outs m) c r h).trans (congrFun (V18_eq m c) r))
theorem W20_of (c : Dev nD) (r : Ref sig .tc) (h : r ∉ ([main_v132] : List (Ref sig .tc))) : W20 m c r = W19 m c r :=
  (congrFun (V20_eq m c) r).symm.trans ((GenP.V20_of m (outs m) c r h).trans (congrFun (V19_eq m c) r))
theorem W21_of (c : Dev nD) (r : Ref sig .tc) (h : r ∉ (GenP.hostOps10_W : List (Ref sig .tc))) : W21 m c r = W20 m c r :=
  (congrFun (V21_eq m c) r).symm.trans ((GenP.V21_of m (outs m) c r h).trans (congrFun (V20_eq m c) r))
theorem W22_of (c : Dev nD) (r : Ref sig .tc) (h : r ∉ ([main_v135] : List (Ref sig .tc))) : W22 m c r = W21 m c r :=
  (congrFun (V22_eq m c) r).symm.trans ((GenP.V22_of m (outs m) c r h).trans (congrFun (V21_eq m c) r))
theorem W23_of (c : Dev nD) (r : Ref sig .tc) (h : r ∉ (GenP.hostOps11_W : List (Ref sig .tc))) : W23 m c r = W22 m c r :=
  (congrFun (V23_eq m c) r).symm.trans ((GenP.V23_of m (outs m) c r h).trans (congrFun (V22_eq m c) r))
theorem W24_of (c : Dev nD) (r : Ref sig .tc) (h : r ∉ ([main_v154] : List (Ref sig .tc))) : W24 m c r = W23 m c r :=
  (congrFun (V24_eq m c) r).symm.trans ((GenP.V24_of m (outs m) c r h).trans (congrFun (V23_eq m c) r))
theorem W25_of (c : Dev nD) (r : Ref sig .tc) (h : r ∉ (GenP.hostOps12_W : List (Ref sig .tc))) : W25 m c r = W24 m c r :=
  (congrFun (V25_eq m c) r).symm.trans ((GenP.V25_of m (outs m) c r h).trans (congrFun (V24_eq m c) r))
theorem W26_of (c : Dev nD) (r : Ref sig .tc) (h : r ∉ ([main_v165_0, main_v165_1] : List (Ref sig .tc))) : W26 m c r = W25 m c r :=
  (congrFun (V26_eq m c) r).symm.trans ((GenP.V26_of m (outs m) c r h).trans (congrFun (V25_eq m c) r))
theorem W27_of (c : Dev nD) (r : Ref sig .tc) (h : r ∉ ([main_v166] : List (Ref sig .tc))) : W27 m c r = W26 m c r :=
  (congrFun (V27_eq m c) r).symm.trans ((GenP.V27_of m (outs m) c r h).trans (congrFun (V26_eq m c) r))
theorem W28_of (c : Dev nD) (r : Ref sig .tc) (h : r ∉ (GenP.hostOps14_W : List (Ref sig .tc))) : W28 m c r = W27 m c r :=
  (congrFun (V28_eq m c) r).symm.trans ((GenP.V28_of m (outs m) c r h).trans (congrFun (V27_eq m c) r))
theorem W29_of (c : Dev nD) (r : Ref sig .tc) (h : r ∉ ([main_v180] : List (Ref sig .tc))) : W29 m c r = W28 m c r :=
  (congrFun (V29_eq m c) r).symm.trans ((GenP.V29_of m (outs m) c r h).trans (congrFun (V28_eq m c) r))
theorem W30_of (c : Dev nD) (r : Ref sig .tc) (h : r ∉ (GenP.hostOps15_W : List (Ref sig .tc))) : W30 m c r = W29 m c r :=
  (congrFun (V30_eq m c) r).symm.trans ((GenP.V30_of m (outs m) c r h).trans (congrFun (V29_eq m c) r))
theorem W31_of (c : Dev nD) (r : Ref sig .tc) (h : r ∉ ([main_v182] : List (Ref sig .tc))) : W31 m c r = W30 m c r :=
  (congrFun (V31_eq m c) r).symm.trans ((GenP.V31_of m (outs m) c r h).trans (congrFun (V30_eq m c) r))
theorem W32_of (c : Dev nD) (r : Ref sig .tc) (h : r ∉ (GenP.hostOps16_W : List (Ref sig .tc))) : W32 m c r = W31 m c r :=
  (congrFun (V32_eq m c) r).symm.trans ((GenP.V32_of m (outs m) c r h).trans (congrFun (V31_eq m c) r))
theorem W33_of (c : Dev nD) (r : Ref sig .tc) (h : r ∉ ([main_v185] : List (Ref sig .tc))) : W33 m c r = W32 m c r :=
  (congrFun (V33_eq m c) r).symm.trans ((GenP.V33_of m (outs m) c r h).trans (congrFun (V32_eq m c) r))

/-! ## From boundary 3 on -/

/-- The twelve arguments. -/
abbrev argSet : List (Ref sig .tc) :=
  [main_arg0, main_arg1, main_arg2, main_arg3, main_arg4, main_arg5, main_arg6, main_arg7, main_arg8, main_arg9, main_arg10, main_arg11]

/-- The buffers of the opening stretches that later items read, and the arguments. -/
abbrev keepSet : List (Ref sig .tc) :=
  [main_v3, main_v6, main_v29, main_v35, main_v36, main_v38, main_arg0, main_arg1, main_arg2, main_arg3, main_arg4, main_arg5,
   main_arg6, main_arg7, main_arg8, main_arg9, main_arg10, main_arg11]

/-- No opening stretch writes an argument. -/
theorem W3_arg (c : Dev nD) (r : Ref sig .tc) (hr : r ∈ argSet) : W3 m c r = W0 m c r :=
  (W3_of m c r ((by decide : ∀ x ∈ argSet, x ∉ (GenP.hostOps0_2_W : List (Ref sig .tc))) r hr)).trans
    ((W2_of m c r ((by decide : ∀ x ∈ argSet, x ∉ (GenP.hostOps0_1_W : List (Ref sig .tc))) r hr)).trans
      (W1_of m c r ((by decide : ∀ x ∈ argSet, x ∉ (GenP.hostOps0_W : List (Ref sig .tc))) r hr)))

theorem keep3_4 (c : Dev nD) (r : Ref sig .tc) (hr : r ∈ keepSet) : W4 m c r = W3 m c r :=
  W4_of m c r ((by decide : ∀ x ∈ keepSet, x ∉ ([main_v39] : List (Ref sig .tc))) r hr)
theorem keep3_5 (c : Dev nD) (r : Ref sig .tc) (hr : r ∈ keepSet) : W5 m c r = W3 m c r :=
  (W5_of m c r ((by decide : ∀ x ∈ keepSet, x ∉ (GenP.hostOps1_W : List (Ref sig .tc))) r hr)).trans (keep3_4 m c r hr)
theorem keep3_6 (c : Dev nD) (r : Ref sig .tc) (hr : r ∈ keepSet) : W6 m c r = W3 m c r :=
  (W6_of m c r ((by decide : ∀ x ∈ keepSet, x ∉ ([main_v58] : List (Ref sig .tc))) r hr)).trans (keep3_5 m c r hr)
theorem keep3_7 (c : Dev nD) (r : Ref sig .tc) (hr : r ∈ keepSet) : W7 m c r = W3 m c r :=
  (W7_of m c r ((by decide : ∀ x ∈ keepSet, x ∉ (GenP.hostOps2_W : List (Ref sig .tc))) r hr)).trans (keep3_6 m c r hr)
theorem keep3_8 (c : Dev nD) (r : Ref sig .tc) (hr : r ∈ keepSet) : W8 m c r = W3 m c r :=
  (W8_of m c r ((by decide : ∀ x ∈ keepSet, x ∉ ([main_v69_0, main_v69_1] : List (Ref sig .tc))) r hr)).trans (keep3_7 m c r hr)
theorem keep3_9 (c : Dev nD) (r : Ref sig .tc) (hr : r ∈ keepSet) : W9 m c r = W3 m c r :=
  (W9_of m c r ((by decide : ∀ x ∈ keepSet, x ∉ ([main_v70] : List (Ref sig .tc))) r hr)).trans (keep3_8 m c r hr)
theorem keep3_10 (c : Dev nD) (r : Ref sig .tc) (hr : r ∈ keepSet) : W10 m c r = W3 m c r :=
  (W10_of m c r ((by decide : ∀ x ∈ keepSet, x ∉ (GenP.hostOps4_W : List (Ref sig .tc))) r hr)).trans (keep3_9 m c r hr)
theorem keep3_11 (c : Dev nD) (r : Ref sig .tc) (hr : r ∈ keepSet) : W11 m c r = W3 m c r :=
  (W11_of m c r ((by decide : ∀ x ∈ keepSet, x ∉ ([main_v84] : List (Ref sig .tc))) r hr)).trans (keep3_10 m c r hr)
theorem keep3_12 (c : Dev nD) (r : Ref sig .tc) (hr : r ∈ keepSet) : W12 m c r = W3 m c r :=
  (W12_of m c r ((by decide : ∀ x ∈ keepSet, x ∉ (GenP.hostOps5_W : List (Ref sig .tc))) r hr)).trans (keep3_11 m c r hr)
theorem keep3_13 (c : Dev nD) (r : Ref sig .tc) (hr : r ∈ keepSet) : W13 m c r = W3 m c r :=
  (W13_of m c r ((by decide : ∀ x ∈ keepSet, x ∉ ([main_v87] : List (Ref sig .tc))) r hr)).trans (keep3_12 m c r hr)
theorem keep3_14 (c : Dev nD) (r : Ref sig .tc) (hr : r ∈ keepSet) : W14 m c r = W3 m c r :=
  (W14_of m c r ((by decide : ∀ x ∈ keepSet, x ∉ (GenP.hostOps6_W : List (Ref sig .tc))) r hr)).trans (keep3_13 m c r hr)
theorem keep3_15 (c : Dev nD) (r : Ref sig .tc) (hr : r ∈ keepSet) : W15 m c r = W3 m c r :=
  (W15_of m c r ((by decide : ∀ x ∈ keepSet, x ∉ ([main_v106] : List (Ref sig .tc))) r hr)).trans (keep3_14 m c r hr)
theorem keep3_16 (c : Dev nD) (r : Ref sig .tc) (hr : r ∈ keepSet) : W16 m c r = W3 m c r :=
  (W16_of m c r ((by decide : ∀ x ∈ keepSet, x ∉ (GenP.hostOps7_W : List (Ref sig .tc))) r hr)).trans (keep3_15 m c r hr)
theorem keep3_17 (c : Dev nD) (r : Ref sig .tc) (hr : r ∈ keepSet) : W17 m c r = W3 m c r :=
  (W17_of m c r ((by decide : ∀ x ∈ keepSet, x ∉ ([main_v117_0, main_v117_1] : List (Ref sig .tc))) r hr)).trans (keep3_16 m c r hr)
theorem keep3_18 (c : Dev nD) (r : Ref sig .tc) (hr : r ∈ keepSet) : W18 m c r = W3 m c r :=
  (W18_of m c r ((by decide : ∀ x ∈ keepSet, x ∉ ([main_v118] : List (Ref sig .tc))) r hr)).trans (keep3_17 m c r hr)
theorem keep3_19 (c : Dev nD) (r : Ref sig .tc) (hr : r ∈ keepSet) : W19 m c r = W3 m c r :=
  (W19_of m c r ((by decide : ∀ x ∈ keepSet, x ∉ (GenP.hostOps9_W : List (Ref sig .tc))) r hr)).trans (keep3_18 m c r hr)
theorem keep3_20 (c : Dev nD) (r : Ref sig .tc) (hr : r ∈ keepSet) : W20 m c r = W3 m c r :=
  (W20_of m c r ((by decide : ∀ x ∈ keepSet, x ∉ ([main_v132] : List (Ref sig .tc))) r hr)).trans (keep3_19 m c r hr)
theorem keep3_21 (c : Dev nD) (r : Ref sig .tc) (hr : r ∈ keepSet) : W21 m c r = W3 m c r :=
  (W21_of m c r ((by decide : ∀ x ∈ keepSet, x ∉ (GenP.hostOps10_W : List (Ref sig .tc))) r hr)).trans (keep3_20 m c r hr)
theorem keep3_22 (c : Dev nD) (r : Ref sig .tc) (hr : r ∈ keepSet) : W22 m c r = W3 m c r :=
  (W22_of m c r ((by decide : ∀ x ∈ keepSet, x ∉ ([main_v135] : List (Ref sig .tc))) r hr)).trans (keep3_21 m c r hr)
theorem keep3_23 (c : Dev nD) (r : Ref sig .tc) (hr : r ∈ keepSet) : W23 m c r = W3 m c r :=
  (W23_of m c r ((by decide : ∀ x ∈ keepSet, x ∉ (GenP.hostOps11_W : List (Ref sig .tc))) r hr)).trans (keep3_22 m c r hr)
theorem keep3_24 (c : Dev nD) (r : Ref sig .tc) (hr : r ∈ keepSet) : W24 m c r = W3 m c r :=
  (W24_of m c r ((by decide : ∀ x ∈ keepSet, x ∉ ([main_v154] : List (Ref sig .tc))) r hr)).trans (keep3_23 m c r hr)
theorem keep3_25 (c : Dev nD) (r : Ref sig .tc) (hr : r ∈ keepSet) : W25 m c r = W3 m c r :=
  (W25_of m c r ((by decide : ∀ x ∈ keepSet, x ∉ (GenP.hostOps12_W : List (Ref sig .tc))) r hr)).trans (keep3_24 m c r hr)
theorem keep3_26 (c : Dev nD) (r : Ref sig .tc) (hr : r ∈ keepSet) : W26 m c r = W3 m c r :=
  (W26_of m c r ((by decide : ∀ x ∈ keepSet, x ∉ ([main_v165_0, main_v165_1] : List (Ref sig .tc))) r hr)).trans (keep3_25 m c r hr)
theorem keep3_27 (c : Dev nD) (r : Ref sig .tc) (hr : r ∈ keepSet) : W27 m c r = W3 m c r :=
  (W27_of m c r ((by decide : ∀ x ∈ keepSet, x ∉ ([main_v166] : List (Ref sig .tc))) r hr)).trans (keep3_26 m c r hr)
theorem keep3_28 (c : Dev nD) (r : Ref sig .tc) (hr : r ∈ keepSet) : W28 m c r = W3 m c r :=
  (W28_of m c r ((by decide : ∀ x ∈ keepSet, x ∉ (GenP.hostOps14_W : List (Ref sig .tc))) r hr)).trans (keep3_27 m c r hr)
theorem keep3_29 (c : Dev nD) (r : Ref sig .tc) (hr : r ∈ keepSet) : W29 m c r = W3 m c r :=
  (W29_of m c r ((by decide : ∀ x ∈ keepSet, x ∉ ([main_v180] : List (Ref sig .tc))) r hr)).trans (keep3_28 m c r hr)
theorem keep3_30 (c : Dev nD) (r : Ref sig .tc) (hr : r ∈ keepSet) : W30 m c r = W3 m c r :=
  (W30_of m c r ((by decide : ∀ x ∈ keepSet, x ∉ (GenP.hostOps15_W : List (Ref sig .tc))) r hr)).trans (keep3_29 m c r hr)
theorem keep3_31 (c : Dev nD) (r : Ref sig .tc) (hr : r ∈ keepSet) : W31 m c r = W3 m c r :=
  (W31_of m c r ((by decide : ∀ x ∈ keepSet, x ∉ ([main_v182] : List (Ref sig .tc))) r hr)).trans (keep3_30 m c r hr)
theorem keep3_32 (c : Dev nD) (r : Ref sig .tc) (hr : r ∈ keepSet) : W32 m c r = W3 m c r :=
  (W32_of m c r ((by decide : ∀ x ∈ keepSet, x ∉ (GenP.hostOps16_W : List (Ref sig .tc))) r hr)).trans (keep3_31 m c r hr)
theorem keep3_33 (c : Dev nD) (r : Ref sig .tc) (hr : r ∈ keepSet) : W33 m c r = W3 m c r :=
  (W33_of m c r ((by decide : ∀ x ∈ keepSet, x ∉ ([main_v185] : List (Ref sig .tc))) r hr)).trans (keep3_32 m c r hr)

end Cert.KernelIdeal.Hand

end
-- ==== Proof.Spec.Ops.lean ====
/-
  What the two programs compute, region by region, as functions of whole arrays. Each function below is one
  stage of the graph network written with the operations of the plain program: a layer's projection (rows of the
  node features against a 64×64 weight matrix), the per-graph mean of node rows (the rows whose graph id is g,
  summed and divided by that graph's node count; a row whose id names no graph contributes nothing), the centring
  of node rows by a scaled per-graph mean together with its square, the normalisation by the root of the
  per-graph variance plus a small constant followed by an affine map and a clamp at zero, and the two-layer
  classifier head ending in a log-softmax over the ten classes.
-/
import proofs.«422469_j24000277250640_1_alg».proof.ReferenceIdeal

noncomputable section

namespace Cert.Spec

open Idealize.ShloMosaic Cert.ReferenceIdeal

variable {F : FTy → Type} [FloatOps F] [hR : Cert.ReferenceIdeal.Facts]

open Cert.ReferenceIdeal.Facts₀ Cert.ReferenceIdeal.Facts

/-- The all-zero array of a shape, as the plain program spells it: the zero word broadcast. -/
abbrev zeros64 : FVec F S256x64 .f32 := broadcastInDim S256x64 ![] bcast_S_S256x64 (constant S_ .f32 0x00000000#32)
abbrev zeros192 : FVec F S256x192 .f32 := broadcastInDim S256x192 ![] bcast_S_S256x192 (constant S_ .f32 0x00000000#32)

/-- A layer's projection: entry (n, j) is the sum over k of h (n, k) · w (k, j). -/
def mm (h : FVec F S100000x64 .f32) (w : FVec F S64x64 .f32) : FVec F S100000x64 .f32 :=
  Host.dotGeneral dot_S100000x64_S64x64_S100000x64_1_0_0_1_n_n none h w

/-- The per-graph mean of 64-wide node rows: row g is the sum of the rows n with b n = g, divided by cnt g. -/
def segMean64 (x : FVec F S100000x64 .f32) (b : IVec S100000x1 32) (cnt : FVec F S256x1 .f32) : FVec F S256x64 .f32 :=
  Host.divf (Host.scatterAdd scatter_S256x64_S100000x1_S100000x64_1_0_0_1 (zeros64 (F := F)) b x)
    (broadcastInDim S256x64 ![0, 1] bcast_S256x1_S256x64_0_1 cnt)

/-- The same mean over 192-wide rows (the three layers' features side by side). -/
def segMean192 (x : FVec F S100000x192 .f32) (b : IVec S100000x1 32) (cnt : FVec F S256x1 .f32) : FVec F S256x192 .f32 :=
  Host.divf (Host.scatterAdd scatter_S256x192_S100000x1_S100000x192_1_0_0_1 (zeros192 (F := F)) b x)
    (broadcastInDim S256x192 ![0, 1] bcast_S256x1_S256x192_0_1 cnt)

/-- A node row less its graph's mean row scaled feature by feature: x (n, j) − α j · μ (n, j). -/
def centered (x mu : FVec F S100000x64 .f32) (alpha : FVec F S1x64 .f32) : FVec F S100000x64 .f32 :=
  subf x (mulf (broadcastInDim S100000x64 ![0, 1] bcast_S1x64_S100000x64_0_1 alpha) mu)

/-- Its square, entry by entry. -/
def centeredSq (x mu : FVec F S100000x64 .f32) (alpha : FVec F S1x64 .f32) : FVec F S100000x64 .f32 :=
  mulf (centered x mu alpha) (centered x mu alpha)

/-- The normalised, shifted and clamped row: max (γ j · c (n, j) / √(v (n, j) + ε) + β j, 0). -/
def normed (c v : FVec F S100000x64 .f32) (gamma beta : FVec F S1x64 .f32) : FVec F S100000x64 .f32 :=
  maximumf
    (addf
      (Host.divf (mulf (broadcastInDim S100000x64 ![0, 1] bcast_S1x64_S100000x64_0_1 gamma) c)
        (Host.sqrt (addf v (broadcastInDim S100000x64 ![] bcast_S_S100000x64 (constant S_ .f32 0x3727C5AC#32)))))
      (broadcastInDim S100000x64 ![0, 1] bcast_S1x64_S100000x64_0_1 beta))
    (broadcastInDim S100000x64 ![] bcast_S_S100000x64 (constant S_ .f32 0x00000000#32))

/-- Log-softmax along the class axis: x − max − log Σ exp (x − max), the maximum taken against −∞. -/
def logSoftmax (x : FVec F S256x10 .f32) : FVec F S256x10 .f32 :=
  let mx : FVec F S256 .f32 := maximumf (broadcastInDim S256 ![] bcast_S_S256 (constant S_ .f32 0xFF800000#32))
    (Host.reduce FloatOps.maximumf x (constant S_ .f32 0xFF800000#32) reducesTo_S256x10_S256_d1 h_S_)
  let sh : FVec F S256x10 .f32 := subf x (broadcastInDim S256x10 ![0, 1] bcast_S256x1_S256x10_0_1 (broadcastInDim S256x1 ![0] bcast_S256_S256x1_0 mx))
  let s : FVec F S256 .f32 := Host.reduceAdd (Host.exp sh) (constant S_ .f32 0x00000000#32) reducesTo_S256x10_S256_d1 h_S_
  subf sh (broadcastInDim S256x10 ![0, 1] bcast_S256x1_S256x10_0_1 (Host.log (broadcastInDim S256x1 ![0] bcast_S256_S256x1_0 s)))

/-- The classifier head on pooled graph features: log-softmax ((max (p · w₁ + b₁, 0)) · w₂ + b₂). -/
def head (p : FVec F S256x192 .f32) (w1 : FVec F S192x192 .f32) (b1 : FVec F S1x192 .f32) (w2 : FVec F S192x10 .f32)
    (b2 : FVec F S1x10 .f32) : FVec F S256x10 .f32 :=
  logSoftmax
    (addf
      (Host.dotGeneral dot_S256x192_S192x10_S256x10_1_0_0_1_n_n none
        (maximumf
          (addf (Host.dotGeneral dot_S256x192_S192x192_S256x192_1_0_0_1_n_n none p w1)
            (broadcastInDim S256x192 ![0, 1] bcast_S1x192_S256x192_0_1 b1))
          (broadcastInDim S256x192 ![] bcast_S_S256x192 (constant S_ .f32 0x00000000#32)))
        w2)
      (broadcastInDim S256x10 ![0, 1] bcast_S1x10_S256x10_0_1 b2))

end Cert.Spec

end
-- ==== Proof.Spec.Forward.lean ====
/-
  The whole network as one function of its twelve argument arrays, built from the stages of Spec/Ops.

  Graph side. The edge list e has a row of sources and a row of targets; every node also gets a loop edge, so the
  1 300 000 edges are the 1 200 000 listed ones followed by (n, n) for each node n. The degree of a node is the
  number of edges that end in it; dinv is degree^(-1/2) where the degree is positive and 0 elsewhere; the weight
  of an edge (s, d) is dinv s · dinv d. A node or graph id is read the way an array index is read: a negative id
  counts from the end.

  One layer. Project the node rows (h · W), send each edge's weighted source row to its target and sum, add the
  bias row; then normalise per graph: subtract alpha times the graph's mean row, divide by the root of the graph's
  mean square of the centred rows plus a small constant, scale by gamma, shift by beta, clamp at zero.

  The network. Three layers in a row, parameters of layer k the k-th slices of the stacked parameter arrays; the
  three outputs side by side are averaged per graph and fed to the classifier head. The results are the third
  layer's node rows and the head's log-probabilities.
-/
import proofs.«422469_j24000277250640_1_alg».proof.Proof.Spec.Ops

noncomputable section

namespace Cert.Spec

open Idealize.ShloMosaic Cert.ReferenceIdeal

variable {F : FTy → Type} [FloatOps F] [hR : Cert.ReferenceIdeal.Facts]

open Cert.ReferenceIdeal.Facts₀ Cert.ReferenceIdeal.Facts

/-! ## The graph -/

/-- The node ids 0, 1, …, N − 1 in order: the loop edge of every node. -/
def loops : IVec S100000 32 := iotaInDim S100000 32 0

/-- The sources of all edges: row 0 of the edge list, then the loop edges. -/
def src (e : IVec S2x1200000 32) : IVec S1300000 32 :=
  concatenate S1300000 0
    [⟨S1200000, shapeCast S1200000 (extractStridedSlice S1x1200000 ![0, 0] e slices_S2x1200000_S1x1200000_0_0) shapeCasts_S1x1200000_S1200000⟩,
     ⟨S100000, loops⟩] concatenates_S1200000_S100000_S1300000_d0

/-- The targets of all edges: row 1 of the edge list, then the loop edges. -/
def dst (e : IVec S2x1200000 32) : IVec S1300000 32 :=
  concatenate S1300000 0
    [⟨S1200000, shapeCast S1200000 (extractStridedSlice S1x1200000 ![1, 0] e slices_S2x1200000_S1x1200000_1_0) shapeCasts_S1x1200000_S1200000⟩,
     ⟨S100000, loops⟩] concatenates_S1200000_S100000_S1300000_d0

/-- An edge-indexed vector as a one-column array. -/
def edgeCol {α : Type} (v : S1300000.Idx → α) : S1300000x1.Idx → α :=
  broadcastInDim S1300000x1 ![0] bcast_S1300000_S1300000x1_0 v

/-- A node-indexed vector of graph ids as a one-column array. -/
def batchCol (b : IVec S100000 32) : IVec S100000x1 32 :=
  broadcastInDim S100000x1 ![0] bcast_S100000_S100000x1_0 b

/-- A node id read as an index: i + N where i is negative, i otherwise. -/
def wrapNode (i : IVec S1300000 32) : IVec S1300000 32 :=
  select (cmpi .slt i (broadcastInDim S1300000 ![] bcast_S_S1300000 (constantI S_ 32 0#32)))
    (addi i (broadcastInDim S1300000 ![] bcast_S_S1300000 (constantI S_ 32 100000#32))) i

/-- A graph id read as an index: g + G where g is negative, g otherwise. -/
def wrapGraph (b : IVec S100000 32) : IVec S100000 32 :=
  select (cmpi .slt b (broadcastInDim S100000 ![] bcast_S_S100000 (constantI S_ 32 0#32)))
    (addi b (broadcastInDim S100000 ![] bcast_S_S100000 (constantI S_ 32 256#32))) b

/-- The degree of each node: the number of edges whose target d it is. -/
def deg (d : IVec S1300000 32) : FVec F S100000 .f32 :=
  Host.scatterAdd scatter_S100000_S1300000x1_S1300000_n_0_0_1
    (broadcastInDim S100000 ![] bcast_S_S100000 (constant S_ .f32 0x00000000#32)) (edgeCol d)
    (broadcastInDim S1300000 ![] bcast_S_S1300000 (constant S_ .f32 0x3F800000#32))

/-- degree^(-1/2) where the degree g is positive, 0 elsewhere. -/
def dinv (g : FVec F S100000 .f32) : FVec F S100000 .f32 :=
  select (cmpf .ogt g (broadcastInDim S100000 ![] bcast_S_S100000 (constant S_ .f32 0x00000000#32))) (Host.rsqrt g)
    (broadcastInDim S100000 ![] bcast_S_S100000 (constant S_ .f32 0x00000000#32))

/-- The weight of each edge (s, d): dv s · dv d. -/
def enorm (dv : FVec F S100000 .f32) (s d : IVec S1300000 32) : FVec F S1300000 .f32 :=
  mulf (Host.gather gather_S100000_S1300000x1_S1300000_n_0_n_n_0_1_1 dv (edgeCol (wrapNode s)))
    (Host.gather gather_S100000_S1300000x1_S1300000_n_0_n_n_0_1_1 dv (edgeCol (wrapNode d)))

/-- The number of nodes of each graph, at least 1. -/
def cnt (b : IVec S100000 32) : FVec F S256x1 .f32 :=
  maximumf
    (Host.scatterAdd scatter_S256x1_S100000x1_S100000x1_1_0_0_1
      (broadcastInDim S256x1 ![] bcast_S_S256x1 (constant S_ .f32 0x00000000#32)) (batchCol b)
      (broadcastInDim S100000x1 ![] bcast_S_S100000x1 (constant S_ .f32 0x3F800000#32)))
    (broadcastInDim S256x1 ![] bcast_S_S256x1 (constant S_ .f32 0x3F800000#32))

/-! ## One layer -/

/-- A feature vector as a one-row array. -/
def row64 (v : FVec F S64 .f32) : FVec F S1x64 .f32 := broadcastInDim S1x64 ![1] bcast_S64_S1x64_1 v

/-- The message passing step on projected rows hw: node n gets the sum over the edges (s, d) with d = n of
    en (s, d) · hw s, plus the bias row. -/
def aggregate (hw : FVec F S100000x64 .f32) (s d : IVec S1300000 32) (en : FVec F S1300000 .f32) (bias : FVec F S64 .f32) :
    FVec F S100000x64 .f32 :=
  addf
    (Host.scatterAdd scatter_S100000x64_S1300000x1_S1300000x64_1_0_0_1
      (broadcastInDim S100000x64 ![] bcast_S_S100000x64 (constant S_ .f32 0x00000000#32)) (edgeCol d)
      (mulf (Host.gather gather_S100000x64_S1300000x1_S1300000x64_1_0_n_n_0_1_164 hw (edgeCol (wrapNode s)))
        (broadcastInDim S1300000x64 ![0, 1] bcast_S1300000x1_S1300000x64_0_1 (edgeCol en))))
    (broadcastInDim S100000x64 ![0, 1] bcast_S1x64_S100000x64_0_1 (row64 bias))

/-- Each node's copy of its graph's row: row n is row (b n) of mu. -/
def gatherRows (mu : FVec F S256x64 .f32) (b : IVec S100000 32) : FVec F S100000x64 .f32 :=
  Host.gather gather_S256x64_S100000x1_S100000x64_1_0_n_n_0_1_164 mu (batchCol (wrapGraph b))

/-- The per-graph mean row of x, copied to every node of the graph. -/
def meanRows (x : FVec F S100000x64 .f32) (b : IVec S100000 32) (cn : FVec F S256x1 .f32) : FVec F S100000x64 .f32 :=
  gatherRows (segMean64 x (batchCol b) cn) b

/-- The per-graph normalisation followed by the clamp at zero. -/
def graphNorm (x : FVec F S100000x64 .f32) (b : IVec S100000 32) (cn : FVec F S256x1 .f32)
    (gamma beta alpha : FVec F S64 .f32) : FVec F S100000x64 .f32 :=
  normed (centered x (meanRows x b cn) (row64 alpha))
    (meanRows (centeredSq x (meanRows x b cn) (row64 alpha)) b cn)
    (row64 gamma) (row64 beta)

/-- One layer on node rows h: projection, message passing, normalisation, clamp. -/
def layer (h : FVec F S100000x64 .f32) (s d : IVec S1300000 32) (en : FVec F S1300000 .f32) (b : IVec S100000 32)
    (cn : FVec F S256x1 .f32) (w : FVec F S64x64 .f32) (bias gamma beta alpha : FVec F S64 .f32) : FVec F S100000x64 .f32 :=
  graphNorm (aggregate (mm h w) s d en bias) b cn gamma beta alpha

/-! ## The parameters of layer k: the k-th slices of the stacked arrays -/

def weight0 (cw : FVec F S3x64x64 .f32) : FVec F S64x64 .f32 :=
  shapeCast S64x64 (extractStridedSlice S1x64x64 ![0, 0, 0] cw slices_S3x64x64_S1x64x64_0_0_0) shapeCasts_S1x64x64_S64x64
def weight1 (cw : FVec F S3x64x64 .f32) : FVec F S64x64 .f32 :=
  shapeCast S64x64 (extractStridedSlice S1x64x64 ![1, 0, 0] cw slices_S3x64x64_S1x64x64_1_0_0) shapeCasts_S1x64x64_S64x64
def weight2 (cw : FVec F S3x64x64 .f32) : FVec F S64x64 .f32 :=
  shapeCast S64x64 (extractStridedSlice S1x64x64 ![2, 0, 0] cw slices_S3x64x64_S1x64x64_2_0_0) shapeCasts_S1x64x64_S64x64
def vec0 (p : FVec F S3x64 .f32) : FVec F S64 .f32 :=
  shapeCast S64 (extractStridedSlice S1x64 ![0, 0] p slices_S3x64_S1x64_0_0) shapeCasts_S1x64_S64
def vec1 (p : FVec F S3x64 .f32) : FVec F S64 .f32 :=
  shapeCast S64 (extractStridedSlice S1x64 ![1, 0] p slices_S3x64_S1x64_1_0) shapeCasts_S1x64_S64
def vec2 (p : FVec F S3x64 .f32) : FVec F S64 .f32 :=
  shapeCast S64 (extractStridedSlice S1x64 ![2, 0] p slices_S3x64_S1x64_2_0) shapeCasts_S1x64_S64

/-! ## The network

The arguments, in order: node features x, edge list e, graph ids b, projection weights cw and biases cb,
normalisation scales gw, shifts gb and mean scales gs (each stacked over the three layers), and the head's
w1, b1, w2, b2. -/

/-- The edge weights of the graph e. -/
def edgeNorm (e : IVec S2x1200000 32) : FVec F S1300000 .f32 := enorm (dinv (deg (dst e))) (src e) (dst e)

def h1 (x : FVec F S100000x64 .f32) (e : IVec S2x1200000 32) (b : IVec S100000 32) (cw : FVec F S3x64x64 .f32)
    (cb gw gb gs : FVec F S3x64 .f32) : FVec F S100000x64 .f32 :=
  layer x (src e) (dst e) (edgeNorm e) b (cnt b) (weight0 cw) (vec0 cb) (vec0 gw) (vec0 gb) (vec0 gs)

def h2 (x : FVec F S100000x64 .f32) (e : IVec S2x1200000 32) (b : IVec S100000 32) (cw : FVec F S3x64x64 .f32)
    (cb gw gb gs : FVec F S3x64 .f32) : FVec F S100000x64 .f32 :=
  layer (h1 x e b cw cb gw gb gs) (src e) (dst e) (edgeNorm e) b (cnt b) (weight1 cw) (vec1 cb) (vec1 gw) (vec1 gb) (vec1 gs)

def h3 (x : FVec F S100000x64 .f32) (e : IVec S2x1200000 32) (b : IVec S100000 32) (cw : FVec F S3x64x64 .f32)
    (cb gw gb gs : FVec F S3x64 .f32) : FVec F S100000x64 .f32 :=
  layer (h2 x e b cw cb gw gb gs) (src e) (dst e) (edgeNorm e) b (cnt b) (weight2 cw) (vec2 cb) (vec2 gw) (vec2 gb) (vec2 gs)

/-- Three layers' node rows side by side. -/
def feats (a b c : FVec F S100000x64 .f32) : FVec F S100000x192 .f32 :=
  concatenate S100000x192 1 [⟨S100000x64, a⟩, ⟨S100000x64, b⟩, ⟨S100000x64, c⟩]
    concatenates_S100000x64_S100000x64_S100000x64_S100000x192_d1

/-- The per-graph mean of the three layers' rows. -/
def pooled (x : FVec F S100000x64 .f32) (e : IVec S2x1200000 32) (b : IVec S100000 32) (cw : FVec F S3x64x64 .f32)
    (cb gw gb gs : FVec F S3x64 .f32) : FVec F S256x192 .f32 :=
  segMean192 (feats (h1 x e b cw cb gw gb gs) (h2 x e b cw cb gw gb gs) (h3 x e b cw cb gw gb gs)) (batchCol b) (cnt b)

/-- The first result: the third layer's node rows. -/
def out0 (x : FVec F S100000x64 .f32) (e : IVec S2x1200000 32) (b : IVec S100000 32) (cw : FVec F S3x64x64 .f32)
    (cb gw gb gs : FVec F S3x64 .f32) (w1 : FVec F S192x192 .f32) (b1 : FVec F S192 .f32) (w2 : FVec F S192x10 .f32)
    (b2 : FVec F S10 .f32) : FVec F S100000x64 .f32 :=
  h3 x e b cw cb gw gb gs

/-- The second result: the head's log-probabilities on the pooled rows. -/
def out1 (x : FVec F S100000x64 .f32) (e : IVec S2x1200000 32) (b : IVec S100000 32) (cw : FVec F S3x64x64 .f32)
    (cb gw gb gs : FVec F S3x64 .f32) (w1 : FVec F S192x192 .f32) (b1 : FVec F S192 .f32) (w2 : FVec F S192x10 .f32)
    (b2 : FVec F S10 .f32) : FVec F S256x10 .f32 :=
  head (pooled x e b cw cb gw gb gs) w1 (broadcastInDim S1x192 ![1] bcast_S192_S1x192_1 b1) w2
    (broadcastInDim S1x10 ![1] bcast_S10_S1x10_1 b2)

end Cert.Spec

end
-- ==== Proof.KernelIdeal.Stretch1.lean ====
/-
  The host stretches of the kernel program, read back: what each stretch leaves in the buffers the later items read,
  as the stages of the network (the graph's edge lists, degrees and edge weights, the per-graph counts, a layer's
  message passing, the copy of a graph's row to its nodes, the parameter rows), applied to what the stretch found
  in the buffers it reads. Each statement is over an arbitrary valuation of the buffers before the stretch.
-/
import proofs.«422469_j24000277250640_1_alg».proof.Proof.Gen.KernelIdeal.Launch
import proofs.«422469_j24000277250640_1_alg».proof.Proof.Spec.Forward

set_option maxRecDepth 16384
set_option maxHeartbeats 1000000

noncomputable section

namespace Cert.KernelIdeal.Hand

open Cert.KernelIdeal Cert.KernelIdeal.Gen
open Idealize.ShloMosaic Idealize.ShloMosaic.TcCoe

variable {F : FTy → Type} [FloatOps F] [hR : Cert.ReferenceIdeal.Facts]

/-! ## The graph -/

theorem st0_v3 (U : Valuation τ sig (Elt F)) :
    StableHlo.after hostOps0 U main_v3 = Cert.Spec.src (U main_arg1) := by
  after_results; rfl
theorem st0_v6 (U : Valuation τ sig (Elt F)) :
    StableHlo.after hostOps0 U main_v6 = Cert.Spec.dst (U main_arg1) := by
  after_results; rfl
theorem st0_v12 (U : Valuation τ sig (Elt F)) :
    StableHlo.after hostOps0 U main_v12 = cmpf .ogt (Cert.Spec.deg (F := F) (Cert.Spec.dst (U main_arg1))) (broadcastInDim Cert.ReferenceIdeal.S100000 ![] Cert.ReferenceIdeal.Facts₀.bcast_S_S100000 (constant Cert.ReferenceIdeal.S_ .f32 0x00000000#32)) := by
  after_results; rfl
theorem st0_v13 (U : Valuation τ sig (Elt F)) :
    StableHlo.after hostOps0 U main_v13 = Host.rsqrt (Cert.Spec.deg (F := F) (Cert.Spec.dst (U main_arg1))) := by
  after_results; rfl
theorem st0_cst_2 (U : Valuation τ sig (Elt F)) :
    StableHlo.after hostOps0 U main_cst_2 = constant Cert.ReferenceIdeal.S_ .f32 0x00000000#32 := by
  after_results
theorem st0_1_v14 (U : Valuation τ sig (Elt F)) :
    StableHlo.after hostOps0_1 U main_v14 = select (U main_v12) (U main_v13) (broadcastInDim Cert.ReferenceIdeal.S100000 ![] Cert.ReferenceIdeal.Facts₀.bcast_S_S100000 (U main_cst_2)) := by
  after_results
  simp only [StableHlo.TRef.ofBuf, StableHlo.TRef.toBuf, cast_eq]
  rfl
theorem st0_2_v29 (U : Valuation τ sig (Elt F)) :
    StableHlo.after hostOps0_2 U main_v29 = Cert.Spec.enorm (U main_v14) (U main_v3) (U main_v6) := by
  after_results_simp <;> rfl
theorem st0_2_v35 (U : Valuation τ sig (Elt F)) :
    StableHlo.after hostOps0_2 U main_v35 = Cert.Spec.cnt (F := F) (U main_arg2) := by
  after_results_simp <;> rfl
theorem st0_2_v36 (U : Valuation τ sig (Elt F)) :
    StableHlo.after hostOps0_2 U main_v36 = shapeCast S100000x1 (U main_arg2) shapeCasts_S100000_S100000x1 := by
  after_results_simp <;> rfl
theorem st0_2_v38 (U : Valuation τ sig (Elt F)) :
    StableHlo.after hostOps0_2 U main_v38 = Cert.Spec.weight0 (U main_arg3) := by
  after_results_simp <;> rfl
/-! ## Layer 0 -/

theorem st1_v57 (U : Valuation τ sig (Elt F)) :
    StableHlo.after hostOps1 U main_v57 = Cert.Spec.aggregate (U main_v39) (U main_v3) (U main_v6) (U main_v29) (Cert.Spec.vec0 (U main_arg4)) := by
  after_results_simp <;> rfl
theorem st2_v65 (U : Valuation τ sig (Elt F)) :
    StableHlo.after hostOps2 U main_v65 = Cert.Spec.gatherRows (U main_v58) (U main_arg2) := by
  after_results; rfl
theorem st2_v68 (U : Valuation τ sig (Elt F)) :
    StableHlo.after hostOps2 U main_v68 = Cert.Spec.row64 (Cert.Spec.vec0 (U main_arg7)) := by
  after_results; rfl
theorem st4_v77 (U : Valuation τ sig (Elt F)) :
    StableHlo.after hostOps4 U main_v77 = Cert.Spec.gatherRows (U main_v70) (U main_arg2) := by
  after_results; rfl
theorem st4_v80 (U : Valuation τ sig (Elt F)) :
    StableHlo.after hostOps4 U main_v80 = Cert.Spec.row64 (Cert.Spec.vec0 (U main_arg5)) := by
  after_results; rfl
theorem st4_v83 (U : Valuation τ sig (Elt F)) :
    StableHlo.after hostOps4 U main_v83 = Cert.Spec.row64 (Cert.Spec.vec0 (U main_arg6)) := by
  after_results; rfl
/-! ## Layer 1 -/

theorem st5_v86 (U : Valuation τ sig (Elt F)) :
    StableHlo.after hostOps5 U main_v86 = Cert.Spec.weight1 (U main_arg3) := by
  after_results; rfl
theorem st6_v105 (U : Valuation τ sig (Elt F)) :
    StableHlo.after hostOps6 U main_v105 = Cert.Spec.aggregate (U main_v87) (U main_v3) (U main_v6) (U main_v29) (Cert.Spec.vec1 (U main_arg4)) := by
  after_results_simp <;> rfl
theorem st7_v113 (U : Valuation τ sig (Elt F)) :
    StableHlo.after hostOps7 U main_v113 = Cert.Spec.gatherRows (U main_v106) (U main_arg2) := by
  after_results; rfl
theorem st7_v116 (U : Valuation τ sig (Elt F)) :
    StableHlo.after hostOps7 U main_v116 = Cert.Spec.row64 (Cert.Spec.vec1 (U main_arg7)) := by
  after_results; rfl
theorem st9_v125 (U : Valuation τ sig (Elt F)) :
    StableHlo.after hostOps9 U main_v125 = Cert.Spec.gatherRows (U main_v118) (U main_arg2) := by
  after_results; rfl
theorem st9_v128 (U : Valuation τ sig (Elt F)) :
    StableHlo.after hostOps9 U main_v128 = Cert.Spec.row64 (Cert.Spec.vec1 (U main_arg5)) := by
  after_results; rfl
theorem st9_v131 (U : Valuation τ sig (Elt F)) :
    StableHlo.after hostOps9 U main_v131 = Cert.Spec.row64 (Cert.Spec.vec1 (U main_arg6)) := by
  after_results; rfl
/-! ## Layer 2 -/

theorem st10_v134 (U : Valuation τ sig (Elt F)) :
    StableHlo.after hostOps10 U main_v134 = Cert.Spec.weight2 (U main_arg3) := by
  after_results; rfl
theorem st11_v153 (U : Valuation τ sig (Elt F)) :
    StableHlo.after hostOps11 U main_v153 = Cert.Spec.aggregate (U main_v135) (U main_v3) (U main_v6) (U main_v29) (Cert.Spec.vec2 (U main_arg4)) := by
  after_results_simp <;> rfl
theorem st12_v161 (U : Valuation τ sig (Elt F)) :
    StableHlo.after hostOps12 U main_v161 = Cert.Spec.gatherRows (U main_v154) (U main_arg2) := by
  after_results; rfl
theorem st12_v164 (U : Valuation τ sig (Elt F)) :
    StableHlo.after hostOps12 U main_v164 = Cert.Spec.row64 (Cert.Spec.vec2 (U main_arg7)) := by
  after_results; rfl
theorem st14_v173 (U : Valuation τ sig (Elt F)) :
    StableHlo.after hostOps14 U main_v173 = Cert.Spec.gatherRows (U main_v166) (U main_arg2) := by
  after_results; rfl
theorem st14_v176 (U : Valuation τ sig (Elt F)) :
    StableHlo.after hostOps14 U main_v176 = Cert.Spec.row64 (Cert.Spec.vec2 (U main_arg5)) := by
  after_results; rfl
theorem st14_v179 (U : Valuation τ sig (Elt F)) :
    StableHlo.after hostOps14 U main_v179 = Cert.Spec.row64 (Cert.Spec.vec2 (U main_arg6)) := by
  after_results; rfl
/-! ## The pooled rows and the head's bias rows -/

theorem st15_v181 (U : Valuation τ sig (Elt F)) :
    StableHlo.after hostOps15 U main_v181 = Cert.Spec.feats (U main_v84) (U main_v132) (U main_v180) := by
  after_results; rfl
theorem st16_v183 (U : Valuation τ sig (Elt F)) :
    StableHlo.after hostOps16 U main_v183 = shapeCast S1x192 (U main_arg9) shapeCasts_S192_S1x192 := by
  after_results; rfl
theorem st16_v184 (U : Valuation τ sig (Elt F)) :
    StableHlo.after hostOps16 U main_v184 = shapeCast S1x10 (U main_arg11) shapeCasts_S10_S1x10 := by
  after_results; rfl
end Cert.KernelIdeal.Hand

end
-- ==== Proof.KernelIdeal.Stretch2.lean ====
/-
  Signs at the extended reals, for the stages of the network as the plain program spells them. A square is
  nonnegative. A graph's node count clamped below by one is positive. A per-graph mean of nonnegative rows by
  positive counts is nonnegative: the zero start plus a sum of nonnegative rows, times the inverse of a positive
  count. A gathered array's entries are entries of its source.
-/
import proofs.«422469_j24000277250640_1_alg».proof.Proof.Spec.Forward
import Idealize.ShloMosaic.Lib.IdealHost

noncomputable section

namespace Cert.Spec

open Idealize.ShloMosaic Cert.ReferenceIdeal

variable [hR : Cert.ReferenceIdeal.Facts]

open Cert.ReferenceIdeal.Facts₀ Cert.ReferenceIdeal.Facts

/-- A product of an extended real with itself is nonnegative. -/
theorem mul_self_nonneg' (a : EReal) : (0 : EReal) ≤ a * a :=
  EReal.mul_nonneg_iff.2 ((le_total 0 a).imp (fun h => ⟨h, h⟩) (fun h => ⟨h, h⟩))

/-- Every entry of the squared centred rows is nonnegative. -/
theorem centeredSq_nonneg (x mu : FVec Ideal S100000x64 .f32) (al : FVec Ideal S1x64 .f32) (i : S100000x64.Idx) :
    (0 : EReal) ≤ centeredSq x mu al i :=
  mul_self_nonneg' (centered x mu al i)

/-- The word of the float one is the real one. -/
theorem one_pos_word : (0 : EReal) < Ideal.ofBits .f32 0x3F800000#32 := by
  rw [Idealize.ShloMosaic.Ideal.ofBits_one_f32]; exact zero_lt_one

/-- A count clamped below by one is positive at every graph. -/
theorem clamped_pos {s : Shape} (y : FVec Ideal s .f32) (h : S_.BroadcastsInDim s (![] : Fin 0 → Fin s.rank)) (i : s.Idx) :
    (0 : EReal) < maximumf y (broadcastInDim s ![] h (constant (F := Ideal) S_ .f32 0x3F800000#32)) i :=
  lt_of_lt_of_le one_pos_word (le_max_right _ _)

/-- The quotient of a nonnegative by a positive extended real is nonnegative. -/
theorem div_nonneg' {a b : EReal} (ha : 0 ≤ a) (hb : 0 < b) : (0 : EReal) ≤ Ideal.div a b := by
  unfold Ideal.div
  rw [if_neg hb.ne']
  exact EReal.mul_nonneg ha (EReal.inv_nonneg_of_nonneg hb.le)

/-- The word of the float zero is the real zero. -/
theorem zero_word : Ideal.ofBits .f32 0x00000000#32 = (0 : EReal) := by
  simp [Ideal.ofBits, Ideal.ieee]

/-- The per-graph mean of nonnegative 64-wide rows by positive counts is nonnegative. -/
theorem segMean64_nonneg (x : FVec Ideal S100000x64 .f32) (b : IVec S100000x1 32) (cnt : FVec Ideal S256x1 .f32)
    (hx : ∀ i, (0 : EReal) ≤ x i) (hc : ∀ i, (0 : EReal) < cnt i) (i : S256x64.Idx) :
    (0 : EReal) ≤ segMean64 x b cnt i := by
  refine div_nonneg' ?_ (hc _)
  show (0 : EReal) ≤ Ideal.ofBits .f32 0x00000000#32 + _
  rw [zero_word, zero_add]
  exact Finset.sum_nonneg fun j _ => hx j

/-- A graph's node count is positive. -/
theorem cnt_pos (b : IVec S100000 32) (i : S256x1.Idx) : (0 : EReal) < cnt (F := Ideal) b i :=
  clamped_pos _ _ i

/-- A graph's mean row of nonnegative rows, copied to its nodes, is nonnegative. -/
theorem meanRows_nonneg (x : FVec Ideal S100000x64 .f32) (b : IVec S100000 32) (hx : ∀ i, (0 : EReal) ≤ x i)
    (i : S100000x64.Idx) : (0 : EReal) ≤ meanRows x b (cnt (F := Ideal) b) i :=
  segMean64_nonneg x (batchCol b) (cnt (F := Ideal) b) hx (cnt_pos b) _

/-- The per-graph mean of the squared centred rows, copied to the nodes, is nonnegative. -/
theorem meanRows_centeredSq_nonneg' (x mu : FVec Ideal S100000x64 .f32) (al : FVec Ideal S1x64 .f32) (b : IVec S100000 32)
    (i : S100000x64.Idx) : (0 : EReal) ≤ meanRows (centeredSq x mu al) b (cnt (F := Ideal) b) i :=
  meanRows_nonneg _ b (centeredSq_nonneg x mu al) i

end Cert.Spec

end
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.KernelIdeal.Val0.lean ====
/-
  The first layer's projection, from blocks to the whole array, at the exact values.

  The region multiplies the array of node features, 100000 rows of 64, by a 64 × 64 weight matrix, twenty blocks
  of 5000 rows at a time: at grid point t the body loads rows 5000·t … 5000·t + 4999 and the whole weight matrix,
  and stores their product as block t of the output. At the exact values a change of float format is the identity
  and a product accumulated into zero is the bare sum, so entry (p, q) of that block is row 5000·t + p of the
  features against column q of the weights — the same sum over the 64 contraction indices that the plain program's
  matrix product has at (5000·t + p, q). Every point writes its block back and the twenty blocks fill the output,
  so after the region the output array is that product of the two arrays as the region found them.
-/
import proofs.«422469_j24000277250640_1_alg».proof.Proof.KernelIdeal.Reg0
import proofs.«422469_j24000277250640_1_alg».proof.Proof.Gen.ReferenceIdeal
import proofs.«422469_j24000277250640_1_alg».proof.Proof.Spec.Ops
import proofs.«422469_j24000277250640_1_alg».proof.Proof.LibRowDot
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.LibRowDot

/-- The zero offsets of a whole-buffer access, as the constant zero function. -/
theorem hz0 : (![0, 0] : Fin 2 → Nat) = fun _ => 0 := funext fun a => by fin_cases a <;> rfl

/-- The body's one payload at an entry: row p of the loaded block of node features against column q of
    the loaded weight matrix. The two changes of float format and the cast to the same shape do nothing to
    exact values, and the product accumulates into zero. -/
theorem k0_pay1_apply (x0 : FVec Ideal S5000x64 .f32) (x1 : FVec Ideal S64x64 .f32) (p : Fin 5000) (q : Fin 64) :
    k0_pay1 (F := Ideal) x0 x1 (ix2 p q) = rowDot x0 x1 p q := by
  unfold k0_pay1
  refine (matmul_zero_apply dot_S5000x64_S64x64_S5000x64_1_0_0_1_n_n rfl rfl rfl rfl rfl rfl none _ _ (ix2 p q)).trans ?_
  simp only [shapeCast_self]
  all_goals rfl

/-- The layer's projection of the plain program at an entry: row n of the node features against column j
    of the weight matrix. -/
theorem mm0_apply (h : FVec Ideal S100000x64 .f32) (w : FVec Ideal S64x64 .f32) (n : Fin 100000) (j : Fin 64) :
    Cert.Spec.mm (F := Ideal) h w (ix2 n j) = rowDot h w n j := by
  unfold Cert.Spec.mm
  exact dotGeneral_apply Cert.ReferenceIdeal.dot_S100000x64_S64x64_S100000x64_1_0_0_1_n_n rfl rfl rfl rfl rfl rfl none _ h w (ix2 n j)

/-- One entry of a block of the product. If row p of the loaded block is row n of the whole array of node
    features and the loaded weights are the whole weight matrix, the body's payload at (p, q) is the
    projection at (n, q): both are that row against column q. -/
theorem entry0_2 (A : FVec Ideal S100000x64 .f32) (Wt : FVec Ideal S64x64 .f32)
    (x0 : FVec Ideal S5000x64 .f32) (x1 : FVec Ideal S64x64 .f32) (n : Fin 100000) (p : Fin 5000) (q : Fin 64)
    (h0 : ∀ k : Fin 64, x0 (ix2 p k) = A (ix2 n k)) (h1 : ∀ k : Fin 64, x1 (ix2 k q) = Wt (ix2 k q)) :
    k0_pay1 (F := Ideal) x0 x1 (ix2 p q) = Cert.Spec.mm (F := Ideal) A Wt (ix2 n q) := by
  refine (k0_pay1_apply x0 x1 p q).trans ?_
  refine Eq.trans ?_ (mm0_apply A Wt n q).symm
  unfold rowDot
  exact Finset.sum_congr rfl fun k _ => by rw [h0 k, h1 k]

/-- The printed block index maps, decided over the twenty grid points: the block of node features and the
    output block both sit at block row t, column block 0; the weight matrix is its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- The grid has twenty points. -/
theorem lt_N0 (t : Fin cfg0.N) : t.val < 20 := lt_of_lt_of_eq t.isLt N_0

/-- What point t writes back is block t of the projection of the two arrays as the region finds them: entry
    (p, q) of the block the body leaves is row p of the loaded block of node features, which is row
    5000·t + p of the array, against column q of the loaded weights, which are the whole weight matrix. -/
theorem flushed0_2_eq (c : Dev nD) (t : Fin cfg0.N) :
    (dat0 (F := Ideal) V c).flushed 2 t
      = ((cfg0.win 2).blk t).view.read (Elt Ideal) (Cert.Spec.mm (F := Ideal) (V c main_arg0) (V c main_v38)) := by
  show (cfg0.win 2).cut (grid0.coords t) ((dat0 V c).after 2 t) = _
  rw [after0_2]
  unfold out0_2
  rw [View.canon_unit_zero hz0]
  simp only [View.ld_unit_zero (S := S5000x64) hz0, View.ld_unit_zero (S := S64x64) hz0]
  obtain ⟨e0, e1, e2, e3, e4, e5⟩ := idx_facts0 t
  have ht := lt_N0 t
  refine funext fun (j : S5000x64.Idx) => ?_
  obtain ⟨p, q, rfl⟩ : ∃ (p : Fin 5000) (q : Fin 64), j = ix2 p q := ⟨j 0, j 1, eq_ix2 j⟩
  have hp := p.isLt
  have hn : t.val * 5000 + p.val < 100000 := by omega
  show k0_pay1 (F := Ideal) (iblk0 V c 0 t) (iblk0 V c 1 t) (ix2 p q)
      = Cert.Spec.mm (F := Ideal) (V c main_arg0) (V c main_v38) (((cfg0.win 2).blk t).view.emb (ix2 p q))
  have hemb : ((cfg0.win 2).blk t).view.emb (ix2 p q) = ix2 (⟨t.val * 5000 + p.val, hn⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  refine Eq.trans ?_ (congrArg (Cert.Spec.mm (F := Ideal) (V c main_arg0) (V c main_v38)) hemb).symm
  refine entry0_2 (V c main_arg0) (V c main_v38) (iblk0 V c 0 t) (iblk0 V c 1 t) ⟨t.val * 5000 + p.val, hn⟩ p q (fun k => ?_) (fun k => ?_)
  · show V c main_arg0 (((cfg0.win 0).blk t).view.emb (ix2 p k)) = V c main_arg0 (ix2 (⟨t.val * 5000 + p.val, hn⟩ : Fin 100000) k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 64 + 1 * k.val = k.val; omega
  · show V c main_v38 (((cfg0.win 1).blk t).view.emb (ix2 k q)) = V c main_v38 (ix2 k q)
    refine congrArg (V c main_v38) ?_
    funext a; apply Fin.ext
    match a with
    | ⟨0, _⟩ => show win0_1.index t (0 : Fin 2) * 64 + 1 * k.val = k.val; omega
    | ⟨1, _⟩ => show win0_1.index t (1 : Fin 2) * 64 + 1 * q.val = q.val; omega

/-- An index of the output array is in point t's block iff each coordinate is in the block's range on its axis. -/
theorem mem_blk0_2 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v39).slice (win0_2.rect t)).set ↔ _
  rw [View.set_slice_whole, Rect.mem_set_unit]
  exact Iff.rfl

/-- Every entry of the output array is written back: row r lies in the block of point r / 5000. -/
theorem covered0_2 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨e0, e1, e2, e3, e4, e5⟩ := idx_facts0 t
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the projection of the node features by the weight matrix, both as the
    region finds them. Every point writes back its block of that one product, and the twenty blocks fill the array. -/
theorem out0_eq (c : Dev nD) :
    (dat0 (F := Ideal) V c).arrAt 2 cfg0.N = Cert.Spec.mm (F := Ideal) (V c main_arg0) (V c main_v38) :=
  (dat0 (F := Ideal) V c).arrAt_eq_of_cover 2 (Cert.Spec.mm (F := Ideal) (V c main_arg0) (V c main_v38))
    (fun t _ => flushed0_2_eq V c t) (fun i => covered0_2 i)

end

end Cert.KernelIdeal.Hand

end
-- ==== Proof.KernelIdeal.SegSum.lean ====
/-
  Sums of rows by segment. Rows of a matrix `x` (N rows, D columns) carry an integer id each, read signed
  off a 32-bit word; the sum of segment `g` in column `d` is the sum of `x (r, d)` over the rows `r` whose
  id is `g`. Four readings of that sum meet here:
    - a weight that is the word of a decided equality, widened and read as a signed integer, is 1 or 0,
      and on the extended reals 1 · x = x and 0 · x = 0 for EVERY x (infinite ones too), so a weighted sum
      over rows is the sum over the rows of the segment;
    - the rows taken R at a time: the sum over the first R · (n + 1) rows is the sum over the first R · n
      plus the sum over the next R; a row at or past N contributes nothing;
    - a contraction of two matrices along their FIRST axes ([R, G] against [R, D], giving [G, D]) read at an
      index is the sum over k of l (k, g) · r (k, d);
    - a scatter of whole rows with addition (row r of the updates added into the operand's row named by r's
      id, read signed; an id that is negative or too large names no row and the update is dropped) read at
      (g, d) is the operand there plus the sum of segment g in column d.
-/
import Idealize.ShloMosaic.Lib.ValueIdx
import Idealize.ShloMosaic.PureOps.Ideal.Laws

noncomputable section

open scoped BigOperators

namespace Cert.SegSum

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- A column of 32-bit words, one per row. -/
abbrev Ids (n : ℕ) : Type := (⟨2, ![n, 1]⟩ : Shape).Idx → BitVec 32

/-! ## The weight of a row -/

/-- The one-bit word of an equality of two words, widened to 32 bits and read signed, is 1 or 0. -/
theorem eqWord_toInt (a b : BitVec 32) :
    (((IntOp.cmpi .eq a b).setWidth 32).toInt : ℤ) = if a = b then 1 else 0 := by
  unfold IntOp.cmpi
  by_cases h : a = b
  · subst h; simp
  · have hb : (a == b) = false := by simpa using h
    rw [if_neg h]; simp [hb]

/-- A word equals the word of a small natural exactly when its signed reading is that natural. -/
theorem eq_ofNat_iff_toInt (a : BitVec 32) (g : ℕ) (hg : g < 2 ^ 31) :
    a = BitVec.ofNat 32 g ↔ a.toInt = (g : ℤ) := by
  have ha := a.isLt
  constructor
  · rintro rfl
    rw [BitVec.toInt_eq_toNat_cond, BitVec.toNat_ofNat]
    have : g % 2 ^ 32 = g := Nat.mod_eq_of_lt (by omega)
    rw [this, if_pos (by omega)]
  · intro h
    apply BitVec.eq_of_toNat_eq
    rw [BitVec.toNat_ofNat, Nat.mod_eq_of_lt (by omega)]
    rw [BitVec.toInt_eq_toNat_cond] at h
    split at h <;> omega

/-- The weight as an extended real times any extended real: the value itself or zero. -/
theorem weight_mul (a b : BitVec 32) (x : EReal) :
    (((((IntOp.cmpi .eq a b).setWidth 32).toInt : ℤ) : ℝ) : EReal) * x = if a = b then x else 0 := by
  rw [eqWord_toInt]
  by_cases h : a = b
  · rw [if_pos h, if_pos h]; simp
  · rw [if_neg h, if_neg h]; simp

/-! ## Rows of a segment, R at a time -/

section Rows
variable {N D : ℕ} (x : Mat N D) (b : Ids N) (g : ℕ) (d : Fin D)

/-- Row `r`'s contribution to segment `g` in column `d`: `x (r, d)` when the row's id is `g`, else zero; a row at or
    past `N` contributes nothing. -/
def rowTerm (r : ℕ) : EReal :=
  if h : r < N then (if (b (ix2 ⟨r, h⟩ 0)).toInt = (g : ℤ) then x (ix2 ⟨r, h⟩ d) else 0) else 0

/-- The sum of segment `g` in column `d`. -/
def segSum : EReal := ∑ r : Fin N, if (b (ix2 r 0)).toInt = (g : ℤ) then x (ix2 r d) else 0

theorem rowTerm_of_lt (r : ℕ) (h : r < N) :
    rowTerm x b g d r = if (b (ix2 ⟨r, h⟩ 0)).toInt = (g : ℤ) then x (ix2 ⟨r, h⟩ d) else 0 := by
  unfold rowTerm; rw [dif_pos h]

/-- All `N` rows: the segment's sum. -/
theorem sum_range_rowTerm : ∑ r ∈ Finset.range N, rowTerm x b g d r = segSum x b g d := by
  rw [Finset.sum_range]
  unfold segSum
  exact Finset.sum_congr rfl fun r _ => rowTerm_of_lt x b g d r.val r.isLt

/-- No rows: zero. -/
theorem sum_range_zero (R : ℕ) : ∑ r ∈ Finset.range (R * 0), rowTerm x b g d r = 0 := by
  rw [Nat.mul_zero, Finset.range_zero, Finset.sum_empty]

/-- The first `R · (n + 1)` rows are the first `R · n` and the next `R`. -/
theorem sum_range_tile (R n : ℕ) :
    ∑ r ∈ Finset.range (R * (n + 1)), rowTerm x b g d r
      = ∑ r ∈ Finset.range (R * n), rowTerm x b g d r + ∑ k : Fin R, rowTerm x b g d (R * n + k.val) := by
  rw [Nat.mul_succ, Finset.sum_range_add, Finset.sum_range (fun k => rowTerm x b g d (R * n + k))]

end Rows

/-! ## A contraction along the first axes, read at an index -/

section FirstAxes

variable {R G D : ℕ} (C : DotDims ⟨2, ![R, G]⟩ ⟨2, ![R, D]⟩ ⟨2, ![G, D]⟩)

/-- One contracting axis: the contraction shape has rank one. -/
theorem contr_rank (hlc : C.lhsContracting = [0]) : C.contr.rank = 1 := by
  rw [C.rank_contr, hlc]; rfl

/-- Its one axis has the operands' row count. -/
theorem contr_size (hlc : C.lhsContracting = [0]) :
    C.contr.size ⟨0, by rw [contr_rank C hlc]; exact Nat.one_pos⟩ = R := by
  have h := C.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the contraction index's one coordinate. -/
theorem lhs_row (hlc : C.lhsContracting = [0]) (j : (⟨2, ![G, D]⟩ : Shape).Idx) (k : C.contr.Idx) :
    (C.lhsIdx j k 0).val = (k ⟨0, by rw [contr_rank C hlc]; exact Nat.one_pos⟩).val :=
  C.lhsIdx_val_of_single hlc j k

/-- The left operand's column coordinate is the result's row coordinate. -/
theorem lhs_col (hln : C.lhsNonContracting = [1]) (hlb : C.lhsBatch = [])
    (j : (⟨2, ![G, D]⟩ : Shape).Idx) (k : C.contr.Idx) : (C.lhsIdx j k 1).val = (j 0).val := by
  have hb : (1 : Fin (⟨2, ![R, G]⟩ : Shape).rank) ∉ C.lhsBatch := by rw [hlb]; exact List.not_mem_nil
  have hn : (1 : Fin (⟨2, ![R, G]⟩ : Shape).rank) ∈ C.lhsNonContracting := by rw [hln]; exact List.mem_singleton.mpr rfl
  unfold DotDims.lhsIdx
  rw [dif_neg hb, dif_pos hn]
  simp only [Fin.val_cast]
  exact coord_congr j _ _ _ _ (by simp [hlb, hln])

/-- The right operand's row coordinate is the contraction index's one coordinate. -/
theorem rhs_row (hlc : C.lhsContracting = [0]) (hrc : C.rhsContracting = [0]) (j : (⟨2, ![G, D]⟩ : Shape).Idx)
    (k : C.contr.Idx) : (C.rhsIdx j k 0).val = (k ⟨0, by rw [contr_rank C hlc]; exact Nat.one_pos⟩).val :=
  C.rhsIdx_val_of_single hrc j k

/-- The right operand's column coordinate is the result's column coordinate. -/
theorem rhs_col (hln : C.lhsNonContracting = [1]) (hrn : C.rhsNonContracting = [1]) (hlb : C.lhsBatch = [])
    (hrb : C.rhsBatch = []) (j : (⟨2, ![G, D]⟩ : Shape).Idx) (k : C.contr.Idx) :
    (C.rhsIdx j k 1).val = (j 1).val := by
  have hb : (1 : Fin (⟨2, ![R, D]⟩ : Shape).rank) ∉ C.rhsBatch := by rw [hrb]; exact List.not_mem_nil
  have hn : (1 : Fin (⟨2, ![R, D]⟩ : Shape).rank) ∈ C.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- The contraction as a column against a column: the sum over the record's contraction index is the sum over the rows. -/
theorem sum_contr_eq (hlc : C.lhsContracting = [0]) (hrc : C.rhsContracting = [0])
    (hln : C.lhsNonContracting = [1]) (hrn : C.rhsNonContracting = [1]) (hlb : C.lhsBatch = [])
    (hrb : C.rhsBatch = []) (l : Mat R G) (r : Mat R D) (j : (⟨2, ![G, D]⟩ : Shape).Idx) :
    ∑ k : C.contr.Idx, l (C.lhsIdx j k) * r (C.rhsIdx j k) = ∑ k : Fin R, l (ix2 k (j 0)) * r (ix2 k (j 1)) := by
  rw [← Equiv.sum_comp (contrEquiv1 C R (contr_rank C hlc) (contr_size C hlc)).symm]
  refine Finset.sum_congr rfl fun k _ => ?_
  have hk := contrEquiv1_symm_val C R (contr_rank C hlc) (contr_size C hlc) k
  have el : C.lhsIdx j ((contrEquiv1 C R (contr_rank C hlc) (contr_size C hlc)).symm k) = ix2 k (j 0) := by
    funext a; apply Fin.ext
    match a with
    | ⟨0, _⟩ => exact (lhs_row C hlc _ _).trans hk
    | ⟨1, _⟩ => exact lhs_col C hln hlb _ _
  have er : C.rhsIdx j ((contrEquiv1 C R (contr_rank C hlc) (contr_size C hlc)).symm k) = ix2 k (j 1) := by
    funext a; apply Fin.ext
    match a with
    | ⟨0, _⟩ => exact (rhs_row C hlc hrc _ _).trans hk
    | ⟨1, _⟩ => exact rhs_col C hln hrn hlb hrb _ _
  exact congrArg₂ (· * ·) (congrArg l el) (congrArg r er)

/-- A product along the first axes into a zero accumulator, at the ideal values, read at an index. -/
theorem matmul_zero_apply (hlc : C.lhsContracting = [0]) (hrc : C.rhsContracting = [0])
    (hln : C.lhsNonContracting = [1]) (hrn : C.rhsNonContracting = [1]) (hlb : C.lhsBatch = [])
    (hrb : C.rhsBatch = []) (prec : Option ContractPrecision) {φ₁ φ₂ : FTy} (l : FVec Ideal ⟨2, ![R, G]⟩ φ₁)
    (r : FVec Ideal ⟨2, ![R, D]⟩ φ₂) (j : (⟨2, ![G, D]⟩ : Shape).Idx) :
    FloatOps.matmul C prec l r (constant ⟨2, ![G, D]⟩ .f32 0x00000000#32) j
      = ∑ k : Fin R, (l (ix2 k (j 0)) : EReal) * (r (ix2 k (j 1)) : EReal) := by
  rw [Ideal.matmul_constant_zero_apply]
  exact sum_contr_eq C hlc hrc hln hrn hlb hrb l r j

end FirstAxes

/-! ## A scatter of rows with addition, read at an index -/

private theorem mem0 : (0 : Fin 2) ∈ ([0] : List (Fin 2)) := by decide
private theorem nmem1 : (1 : Fin 2) ∉ ([0] : List (Fin 2)) := by decide
private theorem kept0 : (0 : Fin 2) ∉ (List.finRange 2).filter (fun x => decide (x ∉ ([0] : List (Fin 2)))) := by decide
private theorem kept1 : (1 : Fin 2) ∈ (List.finRange 2).filter (fun x => decide (x ∉ ([0] : List (Fin 2)))) := by decide

private theorem idx_ext2 {n0 n1 : ℕ} (x y : (⟨2, ![n0, n1]⟩ : Shape).Idx) (h0 : (x 0).val = (y 0).val)
    (h1 : (x 1).val = (y 1).val) : x = y := by
  funext a; apply Fin.ext
  match a with
  | ⟨0, _⟩ => exact h0
  | ⟨1, _⟩ => exact h1

section Scatter

/- The dimension numbers of a scatter of whole rows: the update's axis 1 is the window, the operand's axis 0 is
   the one the start index names, the index array's axis 1 holds the (one-component) start index. -/
variable {G D N : ℕ} (S : ScatterDims ⟨2, ![G, D]⟩ ⟨2, ![N, 1]⟩ ⟨2, ![N, D]⟩)

/-- The start on the operand's row axis is row `j 0`'s id, read signed. -/
theorem start_row (hu : S.updateWindowDims = [1]) (hi : S.insertedWindowDims = [0])
    (hs : S.scatterDimsToOperandDims = [0]) (hv : S.indexVectorDim = 1)
    (j : (⟨2, ![N, D]⟩ : Shape).Idx) (idx : Ids N) : S.start j idx 0 = (idx (ix2 (j 0) 0)).toInt := by
  obtain ⟨uw, iw, sd, iv, wf⟩ := S
  dsimp only at hu hi hs hv
  subst hu hi hs hv
  unfold ScatterDims.start
  rw [dif_pos mem0]
  refine congrArg (fun q => (idx q).toInt) ?_
  funext b
  apply Fin.ext
  match b with
  | ⟨0, _⟩ => rfl
  | ⟨1, _⟩ => rfl

/-- The start on the operand's column axis is zero. -/
theorem start_col (hu : S.updateWindowDims = [1]) (hi : S.insertedWindowDims = [0])
    (hs : S.scatterDimsToOperandDims = [0]) (hv : S.indexVectorDim = 1)
    (j : (⟨2, ![N, D]⟩ : Shape).Idx) (idx : Ids N) : S.start j idx 1 = 0 := by
  obtain ⟨uw, iw, sd, iv, wf⟩ := S
  dsimp only at hu hi hs hv
  subst hu hi hs hv
  unfold ScatterDims.start
  rw [dif_neg nmem1]

/-- The window coordinate on the row axis is zero. -/
theorem window_row (hu : S.updateWindowDims = [1]) (hi : S.insertedWindowDims = [0])
    (j : (⟨2, ![N, D]⟩ : Shape).Idx) : S.window j 0 = 0 := by
  obtain ⟨uw, iw, sd, iv, wf⟩ := S
  dsimp only at hu hi
  subst hu hi
  unfold ScatterDims.window
  exact dif_neg kept0

/-- The window coordinate on the column axis is the update's column. -/
theorem window_col (hu : S.updateWindowDims = [1]) (hi : S.insertedWindowDims = [0])
    (j : (⟨2, ![N, D]⟩ : Shape).Idx) : S.window j 1 = (j 1).val := by
  obtain ⟨uw, iw, sd, iv, wf⟩ := S
  dsimp only at hu hi
  subst hu hi
  unfold ScatterDims.window
  exact (dif_pos kept1).trans rfl

/-- Update element `j` lands at `i` exactly when row `j 0`'s id, read signed, is `i`'s row and the columns agree; an id
    that is negative or at least `G` lands nowhere. -/
theorem resultIdx?_eq_some_iff (hu : S.updateWindowDims = [1]) (hi : S.insertedWindowDims = [0])
    (hs : S.scatterDimsToOperandDims = [0]) (hv : S.indexVectorDim = 1)
    (j : (⟨2, ![N, D]⟩ : Shape).Idx) (idx : Ids N) (i : (⟨2, ![G, D]⟩ : Shape).Idx) :
    S.resultIdx? j idx = some i ↔ (idx (ix2 (j 0) 0)).toInt = ((i 0).val : ℤ) ∧ (j 1).val = (i 1).val := by
  have e0 := start_row S hu hi hs hv j idx
  have e1 := start_col S hu hi hs hv j idx
  have w0 := window_row S hu hi j
  have w1 := window_col S hu hi j
  have hi0 : (i 0).val < G := (i 0).isLt
  have hi1 : (i 1).val < D := (i 1).isLt
  have hj1 : (j 1).val < D := (j 1).isLt
  unfold ScatterDims.resultIdx?
  split
  · rename_i h
    rw [Option.some.injEq]
    constructor
    · intro hh
      subst hh
      refine ⟨?_, ?_⟩
      · have h0 := (h 0).1
        show _ = (((S.start j idx 0 + (S.window j 0 : ℕ)).toNat : ℕ) : ℤ)
        rw [e0, w0] at h0 ⊢
        omega
      · show _ = (S.start j idx 1 + (S.window j 1 : ℕ)).toNat
        rw [e1, w1]
        omega
    · rintro ⟨h0, h1⟩
      refine idx_ext2 _ _ ?_ ?_
      · show (S.start j idx 0 + (S.window j 0 : ℕ)).toNat = (i 0).val
        rw [e0, w0, h0]; omega
      · show (S.start j idx 1 + (S.window j 1 : ℕ)).toNat = (i 1).val
        rw [e1, w1, h1]; omega
  · rename_i h
    constructor
    · intro hh; exact absurd hh (by simp)
    · rintro ⟨h0, h1⟩
      exfalso
      apply h
      refine Fin.forall_fin_two.mpr ⟨?_, ?_⟩
      · show 0 ≤ S.start j idx 0 + (S.window j 0 : ℕ) ∧ S.start j idx 0 + (S.window j 0 : ℕ) < ((G : ℕ) : ℤ)
        rw [e0, w0, h0]; omega
      · show 0 ≤ S.start j idx 1 + (S.window j 1 : ℕ) ∧ S.start j idx 1 + (S.window j 1 : ℕ) < ((D : ℕ) : ℤ)
        rw [e1, w1]; omega

/-- The scatter with addition, at the ideal values, read at `(g, d)`: the operand there plus the sum of segment `g` in
    column `d` of the updates. -/
theorem scatterAdd_apply (hu : S.updateWindowDims = [1]) (hi : S.insertedWindowDims = [0])
    (hs : S.scatterDimsToOperandDims = [0]) (hv : S.indexVectorDim = 1)
    (x0 : Mat G D) (idx : Ids N) (u : Mat N D) (g : Fin G) (d : Fin D) :
    Ideal.hostScatterAdd S x0 idx u (ix2 g d) = x0 (ix2 g d) + segSum u idx g.val d := by
  unfold Ideal.hostScatterAdd
  refine congrArg (x0 (ix2 g d) + ·) ?_
  rw [Finset.sum_filter, sum_idx2]
  unfold segSum
  refine Finset.sum_congr rfl fun r _ => ?_
  by_cases hr : (idx (ix2 r 0)).toInt = (g.val : ℤ)
  · rw [if_pos hr, Finset.sum_eq_single d]
    · rw [if_pos ((resultIdx?_eq_some_iff S hu hi hs hv (ix2 r d) idx (ix2 g d)).mpr ⟨hr, rfl⟩)]
    · intro c _ hc
      rw [if_neg]
      intro h
      exact hc (Fin.ext ((resultIdx?_eq_some_iff S hu hi hs hv (ix2 r c) idx (ix2 g d)).mp h).2)
    · intro h; exact absurd (Finset.mem_univ d) h
  · rw [if_neg hr]
    refine Finset.sum_eq_zero fun c _ => ?_
    rw [if_neg]
    intro h
    exact hr ((resultIdx?_eq_some_iff S hu hi hs hv (ix2 r c) idx (ix2 g d)).mp h).1

end Scatter

end Cert.SegSum

end
-- ==== Proof.Spec.SegMean.lean ====
/-
  The per-graph mean read at an index. Row g, column d of the mean of node rows is the sum, over the nodes whose
  graph id (read signed) is g, of the node's entry in column d, divided by graph g's count: the scatter of rows with
  addition starts from zero, and a node whose id names no graph is dropped by the scatter as it is by the sum.
-/
import proofs.«422469_j24000277250640_1_alg».proof.Proof.Spec.Ops
import proofs.«422469_j24000277250640_1_alg».proof.Proof.KernelIdeal.SegSum
import Idealize.ShloMosaic.Lib.Pipeline.Value

noncomputable section

namespace Cert.Spec

open Idealize.ShloMosaic Idealize.ShloMosaic.ValueIdx Cert.ReferenceIdeal

variable [hR : Cert.ReferenceIdeal.Facts]

open Cert.ReferenceIdeal.Facts₀ Cert.ReferenceIdeal.Facts

/-- The mean of 64-wide rows at (g, d): segment g's sum in column d over graph g's count. -/
theorem segMean64_apply (x : FVec Ideal S100000x64 .f32) (b : IVec S100000x1 32) (cnt : FVec Ideal S256x1 .f32)
    (g : Fin 256) (d : Fin 64) :
    segMean64 x b cnt (ix2 g d) = Ideal.div (Cert.SegSum.segSum x b g.val d) (cnt (ix2 g 0)) := by
  unfold segMean64
  show Ideal.div (Ideal.hostScatterAdd scatter_S256x64_S100000x1_S100000x64_1_0_0_1 (zeros64 (F := Ideal)) b x (ix2 g d))
      (broadcastInDim S256x64 ![0, 1] bcast_S256x1_S256x64_0_1 cnt (ix2 g d)) = _
  rw [Cert.SegSum.scatterAdd_apply scatter_S256x64_S100000x1_S100000x64_1_0_0_1 rfl rfl rfl rfl]
  have hz : zeros64 (F := Ideal) (ix2 g d) = 0 := Ideal.ofBits_zero_f32
  have hc : broadcastInDim S256x64 ![0, 1] bcast_S256x1_S256x64_0_1 cnt (ix2 g d) = cnt (ix2 g 0) :=
    broadcastInDim_apply _ _ cnt (ix2 g d) (ix2 g 0) (fun a => by match a with | ⟨0, _⟩ => rfl | ⟨1, _⟩ => rfl)
  rw [hz, zero_add, hc]

/-- The mean of 192-wide rows at (g, d): the same. -/
theorem segMean192_apply (x : FVec Ideal S100000x192 .f32) (b : IVec S100000x1 32) (cnt : FVec Ideal S256x1 .f32)
    (g : Fin 256) (d : Fin 192) :
    segMean192 x b cnt (ix2 g d) = Ideal.div (Cert.SegSum.segSum x b g.val d) (cnt (ix2 g 0)) := by
  unfold segMean192
  show Ideal.div (Ideal.hostScatterAdd scatter_S256x192_S100000x1_S100000x192_1_0_0_1 (zeros192 (F := Ideal)) b x (ix2 g d))
      (broadcastInDim S256x192 ![0, 1] bcast_S256x1_S256x192_0_1 cnt (ix2 g d)) = _
  rw [Cert.SegSum.scatterAdd_apply scatter_S256x192_S100000x1_S100000x192_1_0_0_1 rfl rfl rfl rfl]
  have hz : zeros192 (F := Ideal) (ix2 g d) = 0 := Ideal.ofBits_zero_f32
  have hc : broadcastInDim S256x192 ![0, 1] bcast_S256x1_S256x192_0_1 cnt (ix2 g d) = cnt (ix2 g 0) :=
    broadcastInDim_apply _ _ cnt (ix2 g d) (ix2 g 0) (fun a => by match a with | ⟨0, _⟩ => rfl | ⟨1, _⟩ => rfl)
  rw [hz, zero_add, hc]

end Cert.Spec

end
-- ==== Proof.KernelIdeal.Val1.lean ====
/-
  The per-graph mean of 64-wide node rows, as the reduce region computes it. Over the grid's twenty points the
  region adds, into a carried [256, 64] accumulator that the first point zeroes, the product (contracted along the
  5000 rows of the point's block) of a one-hot matrix — entry (r, g) is 1 when row r's graph id is g, else 0 — with the
  block of rows; after the last point it writes the accumulator divided, row by row, by the graphs' counts. On the
  extended reals 1 · x = x and 0 · x = 0 for every x, so after point n the accumulator holds at (g, d) the sum of
  x (r, d) over the rows r < 5000 · (n + 1) whose id is g: by induction on the point. After the last point that is the
  sum over all rows of the segment, which is what a scatter of rows with addition into zeros gives; both sides then
  divide by the same count.
-/
import proofs.«422469_j24000277250640_1_alg».proof.Proof.KernelIdeal.Reg1
import proofs.«422469_j24000277250640_1_alg».proof.Proof.KernelIdeal.SegSum
import proofs.«422469_j24000277250640_1_alg».proof.Proof.Spec.SegMean
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)
open scoped BigOperators

/-! ## The three stored values, read at an index -/

/-- The reset stores zero everywhere. -/
theorem pay1_1_apply (j : S256x64.Idx) : k1_pay1 (F := Ideal) j = 0 := by
  unfold k1_pay1
  simp only [shapeCast_self]
  exact Ideal.ofBits_zero_f32

/-- The accumulation at (g, d): what was there plus the block's rows of segment g in column d. -/
theorem pay1_2_apply (v3 : Vec Ideal S5000x64 .f32) (v7 : Vec Ideal S5000x1 .i32) (v15 : Vec Ideal S256x64 .f32)
    (g : Fin 256) (d : Fin 64) :
    k1_pay2 v3 v7 v15 (ix2 g d)
      = v15 (ix2 g d) + ∑ k : Fin 5000, (if (v7 (ix2 k 0)).toInt = (g.val : ℤ) then v3 (ix2 k d) else 0) := by
  unfold k1_pay2
  simp only [shapeCast_self]
  refine (addf_apply _ _ _).trans ?_
  refine congrArg (v15 (ix2 g d) + ·) ?_
  refine (Cert.SegSum.matmul_zero_apply dot_S5000x256_S5000x64_S256x64_0_0_1_1_n_n rfl rfl rfl rfl rfl rfl none _ _ (ix2 g d)).trans ?_
  refine Finset.sum_congr rfl fun k _ => ?_
  have hb : broadcastTo S5000x256 v7 broadcasts_S5000x1_S5000x256 (ix2 k g) = v7 (ix2 k 0) :=
    broadcastTo_apply v7 _ (ix2 k g) (ix2 k 0) (fun a => by match a with | ⟨0, _⟩ => rfl | ⟨1, _⟩ => rfl)
  have hio : iota .tc S5000x256 32 [1] iota_S5000x256_d1_w32 (ix2 k g) = BitVec.ofNat 32 g.val :=
    iota_single_apply .tc S5000x256 32 1 _ (ix2 k g)
  show (((((IntOp.cmpi .eq (broadcastTo S5000x256 v7 broadcasts_S5000x1_S5000x256 (ix2 k g))
      (iota .tc S5000x256 32 [1] iota_S5000x256_d1_w32 (ix2 k g))).setWidth 32).toInt : ℤ) : ℝ) : EReal) * v3 (ix2 k d) = _
  rw [hb, hio, Cert.SegSum.weight_mul]
  have hw := Cert.SegSum.eq_ofNat_iff_toInt (v7 (ix2 k 0)) g.val (by have := g.isLt; omega)
  by_cases h : v7 (ix2 k 0) = BitVec.ofNat 32 g.val
  · rw [if_pos h, if_pos (hw.mp h)]
  · rw [if_neg h, if_neg (fun h' => h (hw.mpr h'))]

/-- The write-back at (g, d): the accumulated sum over the segment's count. -/
theorem pay1_3_apply (v23 : Vec Ideal S256x64 .f32) (v24 : Vec Ideal S256x1 .f32) (g : Fin 256) (d : Fin 64) :
    k1_pay3 v23 v24 (ix2 g d) = Ideal.div (v23 (ix2 g d)) (v24 (ix2 g 0)) := by
  unfold k1_pay3
  simp only [shapeCast_self]
  refine (divf_apply _ _ _).trans ?_
  refine congrArg (Ideal.div (v23 (ix2 g d))) ?_
  exact broadcastTo_apply v24 broadcasts_S256x1_S256x64 (ix2 g d) (ix2 g 0)
    (fun a => by match a with | ⟨0, _⟩ => rfl | ⟨1, _⟩ => rfl)

/-! ## One point's accumulation, over rows of the whole arrays -/

/-- If the block is rows 5000·n … 5000·n + 4999 of the whole arrays and the scratch holds the sum over the first
    5000·n rows, the accumulation leaves the sum over the first 5000·(n + 1) rows. -/
theorem step1 (X : Vec Ideal S100000x64 .f32) (B : Vec Ideal S100000x1 .i32) (xb : Vec Ideal S5000x64 .f32)
    (bb : Vec Ideal S5000x1 .i32) (acc : Vec Ideal S256x64 .f32) (n : ℕ) (hn : 5000 * n + 5000 ≤ 100000)
    (hx : ∀ (k : Fin 5000) (d : Fin 64), xb (ix2 k d) = X (ix2 ⟨5000 * n + k.val, by have := k.isLt; omega⟩ d))
    (hb : ∀ k : Fin 5000, bb (ix2 k 0) = B (ix2 ⟨5000 * n + k.val, by have := k.isLt; omega⟩ 0))
    (g : Fin 256) (d : Fin 64)
    (hacc : acc (ix2 g d) = ∑ r ∈ Finset.range (5000 * n), Cert.SegSum.rowTerm X B g.val d r) :
    k1_pay2 xb bb acc (ix2 g d) = ∑ r ∈ Finset.range (5000 * (n + 1)), Cert.SegSum.rowTerm X B g.val d r := by
  rw [pay1_2_apply xb bb acc g d, hacc, Cert.SegSum.sum_range_tile X B g.val d 5000 n]
  refine congrArg (_ + ·) (Finset.sum_congr rfl fun k _ => ?_)
  rw [Cert.SegSum.rowTerm_of_lt X B g.val d (5000 * n + k.val) (by have := k.isLt; omega), hb k, hx k d]

/-! ## The last point: the write-back is the per-graph mean -/

/-- If the block is the last 5000 rows, the scratch holds the sum over the rows before them and the counts' block is
    the counts, what the last point writes back is the per-graph mean of the whole array. -/
theorem last1 [hR : Cert.ReferenceIdeal.Facts] (X : Vec Ideal S100000x64 .f32) (B : Vec Ideal S100000x1 .i32)
    (Nn : Vec Ideal S256x1 .f32) (xb : Vec Ideal S5000x64 .f32) (bb : Vec Ideal S5000x1 .i32) (nb : Vec Ideal S256x1 .f32)
    (acc : Vec Ideal S256x64 .f32)
    (hx : ∀ (k : Fin 5000) (d : Fin 64), xb (ix2 k d) = X (ix2 ⟨5000 * 19 + k.val, by have := k.isLt; omega⟩ d))
    (hb : ∀ k : Fin 5000, bb (ix2 k 0) = B (ix2 ⟨5000 * 19 + k.val, by have := k.isLt; omega⟩ 0))
    (hn : ∀ g : Fin 256, nb (ix2 g 0) = Nn (ix2 g 0))
    (hacc : ∀ (g : Fin 256) (d : Fin 64), acc (ix2 g d) = ∑ r ∈ Finset.range (5000 * 19), Cert.SegSum.rowTerm X B g.val d r) :
    k1_pay3 (k1_pay2 xb bb acc) nb = Cert.Spec.segMean64 X B Nn := by
  funext j
  obtain ⟨g, d, rfl⟩ : ∃ (g : Fin 256) (d : Fin 64), j = ix2 g d := ⟨j 0, j 1, eq_ix2 j⟩
  rw [pay1_3_apply (k1_pay2 xb bb acc) nb g d, step1 X B xb bb acc 19 (by omega) hx hb g d (hacc g d), hn g,
    Cert.Spec.segMean64_apply X B Nn g d, ← Cert.SegSum.sum_range_rowTerm X B g.val d]

/-! ## What each case's stores leave, as the stored values -/

theorem hz1 : (![0, 0] : Fin 2 → Nat) = fun _ => 0 := funext fun a => by fin_cases a <;> rfl

/-- First point: the scratch is zeroed, read back, and accumulated into. -/
theorem sout1_A_eq (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond1_0 i) (hcl : ¬cond1_1 i)
    (xd : Vec Ideal S5000x64 .f32) (xb : Vec Ideal S5000x1 .i32) (xn : Vec Ideal S256x1 .f32) :
    sout1_A_0 c i arg1 harg1 arg2 harg2 arg3 harg3 arg4 harg4 arg5 harg5 hcz hcl xd xb xn = k1_pay2 xd xb (k1_pay1 (F := Ideal)) := by
  unfold sout1_A_0
  rw [View.read_writes_eq_canon _ _ _ (scover1_A_0 c i arg1 harg1 arg2 harg2 arg3 harg3 arg4 harg4 arg5 harg5 hcz hcl xd xb xn)]
  unfold kernelRun1_A
  dsimp only
  sl_unfold_words
  rw [View.canon_cons_unit_zero (S := S256x64) hz1, View.readCov_unit_zero (S := S256x64) _ hz1]
  simp only [View.readAt_eq_ld, harg1.read_unread, harg2.read_unread, View.ld_unit_zero (S := S5000x64) hz1,
    View.ld_unit_zero (S := S5000x1) hz1]

/-- A middle point: the scratch is accumulated into. -/
theorem sout1_B_eq (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : ¬cond1_1 i)
    (xd : Vec Ideal S5000x64 .f32) (xb : Vec Ideal S5000x1 .i32) (xn : Vec Ideal S256x1 .f32) (xs : Vec Ideal S256x64 .f32) :
    sout1_B_0 c i arg1 harg1 arg2 harg2 arg3 harg3 arg4 harg4 arg5 harg5 hcz hcl xd xb xn xs = k1_pay2 xd xb xs := by
  unfold sout1_B_0
  rw [View.read_writes_eq_canon _ _ _ (scover1_B_0 c i arg1 harg1 arg2 harg2 arg3 harg3 arg4 harg4 arg5 harg5 hcz hcl xd xb xn xs)]
  unfold kernelRun1_B
  dsimp only
  sl_unfold_words
  rw [View.canon_unit_zero hz1]
  simp only [View.readAt_eq_ld, harg1.read_unread, harg2.read_unread, harg5.read_unread, View.ld_unit_zero (S := S5000x64) hz1,
    View.ld_unit_zero (S := S5000x1) hz1, View.ld_unit_zero (S := S256x64) hz1]

/-- The last point: the scratch is accumulated into, -/
theorem sout1_C_eq (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : cond1_1 i)
    (xd : Vec Ideal S5000x64 .f32) (xb : Vec Ideal S5000x1 .i32) (xn : Vec Ideal S256x1 .f32) (xs : Vec Ideal S256x64 .f32) :
    sout1_C_0 c i arg1 harg1 arg2 harg2 arg3 harg3 arg4 harg4 arg5 harg5 hcz hcl xd xb xn xs = k1_pay2 xd xb xs := by
  unfold sout1_C_0
  rw [View.read_writes_eq_canon _ _ _ (scover1_C_0 c i arg1 harg1 arg2 harg2 arg3 harg3 arg4 harg4 arg5 harg5 hcz hcl xd xb xn xs)]
  unfold kernelRun1_C
  dsimp only
  sl_unfold_words
  rw [View.canon_unit_zero hz1]
  simp only [View.readAt_eq_ld, harg1.read_unread, harg2.read_unread, harg5.read_unread, View.ld_unit_zero (S := S5000x64) hz1,
    View.ld_unit_zero (S := S5000x1) hz1, View.ld_unit_zero (S := S256x64) hz1]

/-- and its quotient by the counts is stored into the output's block. -/
theorem out1_C_eq (c : Dev nD) (i : grid1.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond1_0 i) (hcl : cond1_1 i)
    (xd : Vec Ideal S5000x64 .f32) (xb : Vec Ideal S5000x1 .i32) (xn : Vec Ideal S256x1 .f32) (xs : Vec Ideal S256x64 .f32) :
    out1_C_3 c i arg1 harg1 arg2 harg2 arg3 harg3 arg4 harg4 arg5 harg5 hcz hcl xd xb xn xs = k1_pay3 (k1_pay2 xd xb xs) xn := by
  unfold out1_C_3
  rw [View.read_writes_eq_canon _ _ _ (cover1_C_3 c i arg1 harg1 arg2 harg2 arg3 harg3 arg4 harg4 arg5 harg5 hcz hcl xd xb xn xs)]
  unfold kernelRun1_C
  dsimp only
  sl_unfold_words
  rw [View.canon_unit_zero hz1]
  simp only [View.readAt_eq_ld, harg1.read_unread, harg2.read_unread, harg3.read_unread, harg5.read_unread,
    View.readCov_unit_zero (S := S256x64) _ hz1, View.ld_unit_zero (S := S5000x64) hz1,
    View.ld_unit_zero (S := S5000x1) hz1, View.ld_unit_zero (S := S256x64) hz1, View.ld_unit_zero (S := S256x1) hz1]

/-! ## The blocks are rows of the whole arrays -/

section
variable (V : (c : Dev nD) → (b : Ref sig .tc) → Buf (Elt Ideal) ((c : Thread nD τ).loc b))

/-- The three whole arrays the region reads, and each window's block at a point, by their literal types. -/
abbrev xarr1 (c : Dev nD) : Vec Ideal S100000x64 .f32 := V c main_v57
abbrev barr1 (c : Dev nD) : Vec Ideal S100000x1 .i32 := V c main_v36
abbrev narr1 (c : Dev nD) : Vec Ideal S256x1 .f32 := V c main_v35
abbrev xblk1 (c : Dev nD) (t : Fin cfg1.N) : Vec Ideal S5000x64 .f32 := iblk1 V c 0 t
abbrev bblk1 (c : Dev nD) (t : Fin cfg1.N) : Vec Ideal S5000x1 .i32 := iblk1 V c 1 t
abbrev nblk1 (c : Dev nD) (t : Fin cfg1.N) : Vec Ideal S256x1 .f32 := iblk1 V c 2 t

/-- Where the windows' blocks sit at point t: the two row windows at block t, the counts at block 0. -/
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)

theorem lt1 (t : Fin cfg1.N) (k : Fin 5000) : 5000 * t.val + k.val < 100000 := by
  have hN : cfg1.N = 20 := N_1
  have := t.isLt; have := k.isLt; omega

theorem xblk1_apply (c : Dev nD) (t : Fin cfg1.N) (k : Fin 5000) (d : Fin 64) :
    xblk1 V c t (ix2 k d) = xarr1 V c (ix2 ⟨5000 * t.val + k.val, lt1 t k⟩ d) := by
  have hi := idx1_0 t
  show iblk1 V c 0 t (ix2 k d) = V c main_v57 _
  unfold iblk1
  rw [View.read_apply]
  show V c main_v57 _ = V c main_v57 _
  congr 1
  funext a
  apply Fin.ext
  match a with
  | ⟨0, _⟩ => show win1_0.index t 0 * 5000 + 1 * k.val = 5000 * t.val + k.val; rw [hi.1]; omega
  | ⟨1, _⟩ => show win1_0.index t 1 * 64 + 1 * d.val = d.val; rw [hi.2]; omega

theorem bblk1_apply (c : Dev nD) (t : Fin cfg1.N) (k : Fin 5000) :
    bblk1 V c t (ix2 k 0) = barr1 V c (ix2 ⟨5000 * t.val + k.val, lt1 t k⟩ 0) := by
  have hi := idx1_1 t
  show iblk1 V c 1 t (ix2 k 0) = V c main_v36 _
  unfold iblk1
  rw [View.read_apply]
  show V c main_v36 _ = V c main_v36 _
  congr 1
  funext a
  apply Fin.ext
  match a with
  | ⟨0, _⟩ => show win1_1.index t 0 * 5000 + 1 * k.val = 5000 * t.val + k.val; rw [hi.1]; omega
  | ⟨1, _⟩ => show win1_1.index t 1 * 1 + 1 * 0 = 0; rw [hi.2]

theorem nblk1_apply (c : Dev nD) (t : Fin cfg1.N) (g : Fin 256) :
    nblk1 V c t (ix2 g 0) = narr1 V c (ix2 g 0) := by
  have hi := idx1_2 t
  show iblk1 V c 2 t (ix2 g 0) = V c main_v35 _
  unfold iblk1
  rw [View.read_apply]
  show V c main_v35 _ = V c main_v35 _
  congr 1
  funext a
  apply Fin.ext
  match a with
  | ⟨0, _⟩ => show win1_2.index t 0 * 256 + 1 * g.val = g.val; rw [hi.1]; omega
  | ⟨1, _⟩ => show win1_2.index t 1 * 1 + 1 * 0 = 0; rw [hi.2]

variable [hR : Cert.ReferenceIdeal.Facts]

/-! ## The scratch after each point, and the array after the last -/

/-- After point n the scratch holds, at (g, d), the sum over the first 5000·(n + 1) rows of segment g in column d. -/
theorem scratch1_apply (c : Dev nD) (g : Fin 256) (d : Fin 64) : ∀ (n : ℕ) (h : n < cfg1.N),
    (outsAt1 V c n h).2 (ix2 g d)
      = ∑ r ∈ Finset.range (5000 * (n + 1)), Cert.SegSum.rowTerm (xarr1 V c) (barr1 V c) g.val d r
  | 0, h => by
    have hN : cfg1.N = 20 := N_1
    rw [outsAt1_A V c ⟨0, h⟩ rfl (by dsimp only; omega)]
    dsimp only
    refine (congrFun (sout1_A_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) scM1_0 (Memref.isWhole_whole _) _ _ (xblk1 V c ⟨0, h⟩) (bblk1 V c ⟨0, h⟩) (nblk1 V c ⟨0, h⟩)) (ix2 g d)).trans ?_
    exact step1 (xarr1 V c) (barr1 V c) (xblk1 V c ⟨0, h⟩) (bblk1 V c ⟨0, h⟩) (k1_pay1 (F := Ideal)) 0 (by omega)
      (fun k d => xblk1_apply V c ⟨0, h⟩ k d) (fun k => bblk1_apply V c ⟨0, h⟩ k) g d
      (by rw [pay1_1_apply, Cert.SegSum.sum_range_zero])
  | n + 1, h => by
    have hN : cfg1.N = 20 := N_1
    have ih := scratch1_apply c g d n (Nat.lt_of_succ_lt h)
    have h0 : ¬(⟨n + 1, h⟩ : Fin cfg1.N).val % 20 = 0 := by dsimp only; omega
    by_cases h1 : (⟨n + 1, h⟩ : Fin cfg1.N).val % 20 = 19
    · rw [outsAt1_C V c ⟨n + 1, h⟩ h0 h1]
      dsimp only
      refine (congrFun (sout1_C_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) scM1_0 (Memref.isWhole_whole _) _ _ (xblk1 V c ⟨n + 1, h⟩) (bblk1 V c ⟨n + 1, h⟩) (nblk1 V c ⟨n + 1, h⟩)
        (outsAt1 V c n (Nat.lt_of_succ_lt h)).2) (ix2 g d)).trans ?_
      exact step1 (xarr1 V c) (barr1 V c) (xblk1 V c ⟨n + 1, h⟩) (bblk1 V c ⟨n + 1, h⟩) (outsAt1 V c n (Nat.lt_of_succ_lt h)).2 (n + 1)
        (by omega) (fun k d => xblk1_apply V c ⟨n + 1, h⟩ k d) (fun k => bblk1_apply V c ⟨n + 1, h⟩ k) g d ih
    · rw [outsAt1_B V c ⟨n + 1, h⟩ h0 h1]
      dsimp only
      refine (congrFun (sout1_B_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) scM1_0 (Memref.isWhole_whole _) _ _ (xblk1 V c ⟨n + 1, h⟩) (bblk1 V c ⟨n + 1, h⟩) (nblk1 V c ⟨n + 1, h⟩)
        (outsAt1 V c n (Nat.lt_of_succ_lt h)).2) (ix2 g d)).trans ?_
      exact step1 (xarr1 V c) (barr1 V c) (xblk1 V c ⟨n + 1, h⟩) (bblk1 V c ⟨n + 1, h⟩) (outsAt1 V c n (Nat.lt_of_succ_lt h)).2 (n + 1)
        (by omega) (fun k d => xblk1_apply V c ⟨n + 1, h⟩ k d) (fun k => bblk1_apply V c ⟨n + 1, h⟩ k) g d ih

/-- The last point of the grid. -/
abbrev t1_last : Fin cfg1.N := ⟨19, by decide⟩

/-- What the last point leaves in the output's block: the per-graph mean. -/
theorem out1_last (c : Dev nD) :
    (outsAt1 V c t1_last.val t1_last.isLt).1 = Cert.Spec.segMean64 (F := Ideal) (xarr1 V c) (barr1 V c) (narr1 V c) := by
  rw [outsAt1_C V c t1_last (by decide) rfl]
  dsimp only
  refine (out1_C_eq c (grid1.coords t1_last) (ms1_0 t1_last) (hs1_0 t1_last) (ms1_1 t1_last) (hs1_1 t1_last) (ms1_2 t1_last) (hs1_2 t1_last) (ms1_3 t1_last) (hs1_3 t1_last) scM1_0 (Memref.isWhole_whole _) _ _ (xblk1 V c t1_last) (bblk1 V c t1_last) (nblk1 V c t1_last)
    (outsAt1 V c 18 (by decide)).2).trans ?_
  exact last1 (xarr1 V c) (barr1 V c) (narr1 V c) (xblk1 V c t1_last) (bblk1 V c t1_last) (nblk1 V c t1_last)
    (outsAt1 V c 18 (by decide)).2 (fun k d => xblk1_apply V c t1_last k d) (fun k => bblk1_apply V c t1_last k)
    (fun g => nblk1_apply V c t1_last g) (fun g d => scratch1_apply V c g d 18 (by decide))

/-- The per-graph mean, as contents of the region's result array. -/
abbrev result1 (c : Dev nD) : Buf (Elt Ideal) ((c : Thread nD τ).loc main_v58) :=
  Cert.Spec.segMean64 (F := Ideal) (V c main_v57) (V c main_v36) (V c main_v35)

theorem idx1_3 : ∀ t : Fin cfg1.N, win1_3.index t 0 = 0 ∧ win1_3.index t 1 = 0 :=
  (by decide +kernel : ∀ t : Fin grid1.N, win1_3.index t 0 = 0 ∧ win1_3.index t 1 = 0)

/-- The one write-back, at the last point, writes it: the output's one block is the whole array. -/
theorem flushed1_eq (c : Dev nD) (t : Fin cfg1.N) (hf : (cfg1.win 3).flush t = true) :
    (dat1 V c).flushed 3 t = ((cfg1.win 3).blk t).view.read (Elt Ideal) (result1 V c) := by
  have hN : cfg1.N = 20 := N_1
  have h19 : t.val = 19 := by have := (flush1_3 t).mp hf; have := t.isLt; omega
  obtain rfl : t = t1_last := Fin.ext h19
  show (cfg1.win 3).cut (grid1.coords t1_last) ((dat1 V c).after 3 t1_last) = _
  rw [after1_3, out1_last]
  have hz' : (fun a => win1_3.index t1_last a * main_v58.ty.shape.size a) = fun _ => 0 :=
    funext fun a => by fin_cases a <;> decide +kernel
  exact (Memref.read_access_unit_zero (Elt Ideal) main_v58 hz' (fun a => by rw [congrFun hz' a]; simp) (result1 V c)).symm

/-- So the region's result array ends holding the per-graph mean of the rows it was given. -/
theorem out1_eq (c : Dev nD) :
    (dat1 V c).arrAt 3 cfg1.N = Cert.Spec.segMean64 (F := Ideal) (V c main_v57) (V c main_v36) (V c main_v35) :=
  (dat1 V c).arrAt_eq_of_cover 3 (result1 V c) (flushed1_eq V c) fun i =>
    ⟨t1_last, (flush1_3 t1_last).mpr rfl, by
      show i ∈ ((View.whole main_v58).slice (win1_3.rect t1_last)).set
      rw [View.set_slice_whole, Rect.mem_set_unit]
      intro a
      have h0 : (i 0 : Nat) < 256 := (i 0).isLt
      have h1 : (i 1 : Nat) < 64 := (i 1).isLt
      match a with
      | ⟨0, _⟩ =>
        show win1_3.index t1_last 0 * win1_3.size 0 ≤ (i 0 : Nat) ∧ (i 0 : Nat) < win1_3.index t1_last 0 * win1_3.size 0 + win1_3.xsize (grid1.coords t1_last) 0
        rw [show win1_3.index t1_last 0 * win1_3.size 0 = 0 from by decide +kernel, show win1_3.xsize (grid1.coords t1_last) 0 = 256 from by decide +kernel]; omega
      | ⟨1, _⟩ =>
        show win1_3.index t1_last 1 * win1_3.size 1 ≤ (i 1 : Nat) ∧ (i 1 : Nat) < win1_3.index t1_last 1 * win1_3.size 1 + win1_3.xsize (grid1.coords t1_last) 1
        rw [show win1_3.index t1_last 1 * win1_3.size 1 = 0 from by decide +kernel, show win1_3.xsize (grid1.coords t1_last) 1 = 64 from by decide +kernel]; omega⟩

end

end Cert.KernelIdeal.Hand

end
-- ==== Proof.KernelIdeal.Val2.lean ====
/-
  The centring stage, read as whole arrays. The stage walks the 100000 node rows in 20 tiles of 5000 rows; on each
  tile it forms, entry by entry, x (n, j) − α j · μ (n, j) and the square of that difference, and writes the two
  tiles back at the rows they came from. Since an entry of the result depends only on the same entry of x and μ and
  on α at the same feature j, and the 20 tiles cover every row exactly once, the two arrays the stage leaves are the
  centred rows and their squares of the whole input arrays, whatever the order of the tiles.
-/
import proofs.«422469_j24000277250640_1_alg».proof.Proof.KernelIdeal.Reg2
import proofs.«422469_j24000277250640_1_alg».proof.Proof.Gen.ReferenceIdeal
import proofs.«422469_j24000277250640_1_alg».proof.Proof.Spec.Ops
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable {F : FTy → Type} [FloatOps F]

/-! ## One entry of a tile -/

/-- The two zero offsets of a whole-tile access, as a constant function. -/
theorem hz2 : (![0, 0] : Fin 2 → Nat) = fun _ => 0 := funext fun a => by fin_cases a <;> rfl

/-- Entry (p, q) of the difference tile: x (p, q) − α (0, q) · μ (p, q); the row of α is repeated down the tile. -/
theorem k2_pay1_apply (x mu : Vec F S5000x64 .f32) (al : Vec F S1x64 .f32) (p : Fin 5000) (q : Fin 64) :
    k2_pay1 x al mu (ix2 p q) = FloatOps.subf (x (ix2 p q)) (FloatOps.mulf (al (ix2 (0 : Fin 1) q)) (mu (ix2 p q))) := by
  unfold k2_pay1
  rw [shapeCast_self, shapeCast_self, shapeCast_self]
  show FloatOps.subf (x (ix2 p q)) (FloatOps.mulf (broadcastTo S5000x64 al broadcasts_S1x64_S5000x64 (ix2 p q)) (mu (ix2 p q))) = _
  rw [broadcastTo_apply al broadcasts_S1x64_S5000x64 (ix2 p q) (ix2 (0 : Fin 1) q) (fun a => by
    match a with
    | ⟨0, _⟩ => rfl
    | ⟨1, _⟩ => rfl)]

/-- Entry (p, q) of the square tile is the product of the difference's entry with itself. -/
theorem k2_pay2_apply (x mu : Vec F S5000x64 .f32) (al : Vec F S1x64 .f32) (p : Fin 5000) (q : Fin 64) :
    k2_pay2 x al mu (ix2 p q) = FloatOps.mulf (k2_pay1 x al mu (ix2 p q)) (k2_pay1 x al mu (ix2 p q)) := rfl

/-! ## One entry of the whole-array functions -/

/-- Entry (n, q) of the centred array: x (n, q) − α (0, q) · μ (n, q). -/
theorem centered_apply2 (X M : FVec F Cert.ReferenceIdeal.S100000x64 .f32) (A : FVec F Cert.ReferenceIdeal.S1x64 .f32)
    (n : Fin 100000) (q : Fin 64) :
    Cert.Spec.centered X M A (ix2 n q) = FloatOps.subf (X (ix2 n q)) (FloatOps.mulf (A (ix2 (0 : Fin 1) q)) (M (ix2 n q))) := by
  unfold Cert.Spec.centered
  show FloatOps.subf (X (ix2 n q)) (FloatOps.mulf (broadcastInDim Cert.ReferenceIdeal.S100000x64 ![0, 1] Cert.ReferenceIdeal.Facts₀.bcast_S1x64_S100000x64_0_1 A (ix2 n q)) (M (ix2 n q))) = _
  rw [broadcastInDim_apply ![0, 1] Cert.ReferenceIdeal.Facts₀.bcast_S1x64_S100000x64_0_1 A (ix2 n q) (ix2 (0 : Fin 1) q) (fun a => by
    match a with
    | ⟨0, _⟩ => rfl
    | ⟨1, _⟩ => rfl)]

/-- Entry (n, q) of the squared array is the centred entry times itself. -/
theorem centeredSq_apply2 (X M : FVec F Cert.ReferenceIdeal.S100000x64 .f32) (A : FVec F Cert.ReferenceIdeal.S1x64 .f32)
    (n : Fin 100000) (q : Fin 64) :
    Cert.Spec.centeredSq X M A (ix2 n q) = FloatOps.mulf (Cert.Spec.centered X M A (ix2 n q)) (Cert.Spec.centered X M A (ix2 n q)) := rfl

/-! ## Where a tile sits -/

/-- At tile t the four row-tiled arrays are all at row block t and column block 0, and α at block (0, 0). -/
theorem idx_facts2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Every one of the 20 row blocks of either result is some tile's. -/
theorem idx_onto2 : ∀ (q0 : Fin 20), ∃ t : Fin cfg2.N, win2_3.index t = ![q0.val, 0] ∧ win2_4.index t = ![q0.val, 0] :=
  (by decide +kernel : ∀ (q0 : Fin 20), ∃ t : Fin grid2.N, win2_3.index t = ![q0.val, 0] ∧ win2_4.index t = ![q0.val, 0])

/-- Row p of tile t is row 5000 t + p of the array, below 100000. -/
theorem row_lt2 (t : Fin cfg2.N) (p : Fin 5000) : t.val * 5000 + p.val < 100000 := by
  have ht : t.val < 20 := lt_of_lt_of_eq t.isLt N_2
  omega

/-- Entry (p, q) of tile t of x is entry (5000 t + p, q) of x. -/
theorem emb2_0 (t : Fin cfg2.N) (p : Fin 5000) (q : Fin 64) :
    ((cfg2.win 0).blk t).view.emb (ix2 p q) = ix2 (⟨t.val * 5000 + p.val, row_lt2 t p⟩ : Fin 100000) q := by
  obtain ⟨e00, e01, e10, e11, e20, e21, e30, e31, e40, e41⟩ := idx_facts2 t
  funext a; apply Fin.ext
  match a with
  | ⟨0, _⟩ => show win2_0.index t (0 : Fin 2) * 5000 + 1 * p.val = t.val * 5000 + p.val; omega
  | ⟨1, _⟩ => show win2_0.index t (1 : Fin 2) * 64 + 1 * q.val = q.val; omega

/-- The same for μ. -/
theorem emb2_1 (t : Fin cfg2.N) (p : Fin 5000) (q : Fin 64) :
    ((cfg2.win 1).blk t).view.emb (ix2 p q) = ix2 (⟨t.val * 5000 + p.val, row_lt2 t p⟩ : Fin 100000) q := by
  obtain ⟨e00, e01, e10, e11, e20, e21, e30, e31, e40, e41⟩ := idx_facts2 t
  funext a; apply Fin.ext
  match a with
  | ⟨0, _⟩ => show win2_1.index t (0 : Fin 2) * 5000 + 1 * p.val = t.val * 5000 + p.val; omega
  | ⟨1, _⟩ => show win2_1.index t (1 : Fin 2) * 64 + 1 * q.val = q.val; omega

/-- Every tile sees the whole row α: entry (0, q) of its block is entry (0, q) of α. -/
theorem emb2_2 (t : Fin cfg2.N) (q : Fin 64) :
    ((cfg2.win 2).blk t).view.emb (ix2 (0 : Fin 1) q) = ix2 (0 : Fin 1) q := by
  obtain ⟨e00, e01, e10, e11, e20, e21, e30, e31, e40, e41⟩ := idx_facts2 t
  funext a; apply Fin.ext
  match a with
  | ⟨0, _⟩ => show win2_2.index t (0 : Fin 2) * 1 + 1 * 0 = 0; omega
  | ⟨1, _⟩ => show win2_2.index t (1 : Fin 2) * 64 + 1 * q.val = q.val; omega

/-- Entry (p, q) of tile t of the centred result is entry (5000 t + p, q) of that array. -/
theorem emb2_3 (t : Fin cfg2.N) (p : Fin 5000) (q : Fin 64) :
    ((cfg2.win 3).blk t).view.emb (ix2 p q) = ix2 (⟨t.val * 5000 + p.val, row_lt2 t p⟩ : Fin 100000) q := by
  obtain ⟨e00, e01, e10, e11, e20, e21, e30, e31, e40, e41⟩ := idx_facts2 t
  funext a; apply Fin.ext
  match a with
  | ⟨0, _⟩ => show win2_3.index t (0 : Fin 2) * 5000 + 1 * p.val = t.val * 5000 + p.val; omega
  | ⟨1, _⟩ => show win2_3.index t (1 : Fin 2) * 64 + 1 * q.val = q.val; omega

/-- The same for the squared result. -/
theorem emb2_4 (t : Fin cfg2.N) (p : Fin 5000) (q : Fin 64) :
    ((cfg2.win 4).blk t).view.emb (ix2 p q) = ix2 (⟨t.val * 5000 + p.val, row_lt2 t p⟩ : Fin 100000) q := by
  obtain ⟨e00, e01, e10, e11, e20, e21, e30, e31, e40, e41⟩ := idx_facts2 t
  funext a; apply Fin.ext
  match a with
  | ⟨0, _⟩ => show win2_4.index t (0 : Fin 2) * 5000 + 1 * p.val = t.val * 5000 + p.val; omega
  | ⟨1, _⟩ => show win2_4.index t (1 : Fin 2) * 64 + 1 * q.val = q.val; omega

section
variable (V : (c : Dev nD) → (b : Ref sig .tc) → Buf (Elt F) ((c : Thread nD τ).loc b))

/-! ## A tile of the result is a tile of the whole-array function -/

/-- The difference computed on tile t, at (p, q), is the centred array of the whole inputs at (5000 t + p, q). -/
theorem pay1_blk2 (c : Dev nD) (t : Fin cfg2.N) (p : Fin 5000) (q : Fin 64) :
    k2_pay1 (iblk2 V c 0 t) (iblk2 V c 2 t) (iblk2 V c 1 t) (ix2 p q)
      = Cert.Spec.centered (V c main_v57) (V c main_v65) (V c main_v68) (ix2 (⟨t.val * 5000 + p.val, row_lt2 t p⟩ : Fin 100000) q) := by
  refine (k2_pay1_apply (iblk2 V c 0 t) (iblk2 V c 1 t) (iblk2 V c 2 t) p q).trans ?_
  refine Eq.trans ?_ (centered_apply2 (V c main_v57) (V c main_v65) (V c main_v68) ⟨t.val * 5000 + p.val, row_lt2 t p⟩ q).symm
  show FloatOps.subf (V c main_v57 (((cfg2.win 0).blk t).view.emb (ix2 p q)))
      (FloatOps.mulf (V c main_v68 (((cfg2.win 2).blk t).view.emb (ix2 (0 : Fin 1) q))) (V c main_v65 (((cfg2.win 1).blk t).view.emb (ix2 p q)))) = _
  rw [emb2_0, emb2_1, emb2_2]

/-- The square computed on tile t, at (p, q), is the squared array of the whole inputs at (5000 t + p, q). -/
theorem pay2_blk2 (c : Dev nD) (t : Fin cfg2.N) (p : Fin 5000) (q : Fin 64) :
    k2_pay2 (iblk2 V c 0 t) (iblk2 V c 2 t) (iblk2 V c 1 t) (ix2 p q)
      = Cert.Spec.centeredSq (V c main_v57) (V c main_v65) (V c main_v68) (ix2 (⟨t.val * 5000 + p.val, row_lt2 t p⟩ : Fin 100000) q) := by
  refine (k2_pay2_apply (iblk2 V c 0 t) (iblk2 V c 1 t) (iblk2 V c 2 t) p q).trans ?_
  refine Eq.trans ?_ (centeredSq_apply2 (V c main_v57) (V c main_v65) (V c main_v68) ⟨t.val * 5000 + p.val, row_lt2 t p⟩ q).symm
  rw [pay1_blk2 V c t p q]

/-- What tile t writes back to the centred result is tile t of the centred array of the whole inputs. -/
theorem blk2_3 (c : Dev nD) (t : Fin cfg2.N) :
    (cfg2.win 3).cut (grid2.coords t) (out2_3 (iblk2 V c 0 t) (iblk2 V c 1 t) (iblk2 V c 2 t))
      = ((cfg2.win 3).blk t).view.read (Elt F) (Cert.Spec.centered (V c main_v57) (V c main_v65) (V c main_v68)) := by
  unfold out2_3
  rw [View.canon_unit_zero hz2]
  simp only [View.ld_unit_zero (S := S5000x64) hz2, View.ld_unit_zero (S := S1x64) hz2]
  funext j
  obtain ⟨p, q, rfl⟩ : ∃ (p : Fin 5000) (q : Fin 64), j = ix2 p q := ⟨j 0, j 1, eq_ix2 j⟩
  show _ = Cert.Spec.centered (V c main_v57) (V c main_v65) (V c main_v68) (((cfg2.win 3).blk t).view.emb (ix2 p q))
  rw [emb2_3]
  exact pay1_blk2 V c t p q

/-- What tile t writes back to the squared result is tile t of the squared array of the whole inputs. -/
theorem blk2_4 (c : Dev nD) (t : Fin cfg2.N) :
    (cfg2.win 4).cut (grid2.coords t) (out2_4 (iblk2 V c 0 t) (iblk2 V c 1 t) (iblk2 V c 2 t))
      = ((cfg2.win 4).blk t).view.read (Elt F) (Cert.Spec.centeredSq (V c main_v57) (V c main_v65) (V c main_v68)) := by
  unfold out2_4
  rw [View.canon_unit_zero hz2]
  simp only [View.ld_unit_zero (S := S5000x64) hz2, View.ld_unit_zero (S := S1x64) hz2]
  funext j
  obtain ⟨p, q, rfl⟩ : ∃ (p : Fin 5000) (q : Fin 64), j = ix2 p q := ⟨j 0, j 1, eq_ix2 j⟩
  show _ = Cert.Spec.centeredSq (V c main_v57) (V c main_v65) (V c main_v68) (((cfg2.win 4).blk t).view.emb (ix2 p q))
  rw [emb2_4]
  exact pay2_blk2 V c t p q

end

/-! ## The tiles cover every row -/

/-- An entry is in tile t of the centred result iff its row is in t's 5000 rows (and its column among the 64). -/
theorem mem_blk2_3 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v69_0).slice (win2_3.rect t)).set ↔ _
  rw [View.set_slice_whole, Rect.mem_set_unit]
  exact Iff.rfl

/-- The same for the squared result. -/
theorem mem_blk2_4 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v69_1).slice (win2_4.rect t)).set ↔ _
  rw [View.set_slice_whole, Rect.mem_set_unit]
  exact Iff.rfl

/-- Row n lies in tile n / 5000, which writes back: every entry of the centred result is written. -/
theorem rows2_3 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht, -⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2_3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The same for the squared result. -/
theorem rows2_4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, -, ht⟩ := idx_onto2 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-! ## The two arrays the stage leaves -/

section
variable (V : (c : Dev nD) → (b : Ref sig .tc) → Buf (Elt F) ((c : Thread nD τ).loc b))

/-- After the 20 tiles the first result holds x − α · μ of the whole arrays the stage found. -/
theorem out2_0_eq (c : Dev nD) :
    (dat2 V c).arrAt 3 cfg2.N = Cert.Spec.centered (V c main_v57) (V c main_v65) (V c main_v68) :=
  (dat2 V c).arrAt_eq_of_cover 3 _ (fun t _ => by
    show (cfg2.win 3).cut (grid2.coords t) ((dat2 V c).after 3 t) = _
    rw [after2_3]; exact blk2_3 V c t) rows2_3

/-- And the second holds its square, entry by entry. -/
theorem out2_1_eq (c : Dev nD) :
    (dat2 V c).arrAt 4 cfg2.N = Cert.Spec.centeredSq (V c main_v57) (V c main_v65) (V c main_v68) :=
  (dat2 V c).arrAt_eq_of_cover 4 _ (fun t _ => by
    show (cfg2.win 4).cut (grid2.coords t) ((dat2 V c).after 4 t) = _
    rw [after2_4]; exact blk2_4 V c t) rows2_4

end

end Cert.KernelIdeal.Hand

end
-- ==== Proof.KernelIdeal.Val3.lean ====
/-
  The per-graph mean of 64-wide node rows, as the reduce region computes it. Over the grid's twenty points the
  region adds, into a carried [256, 64] accumulator that the first point zeroes, the product (contracted along the
  5000 rows of the point's block) of a one-hot matrix — entry (r, g) is 1 when row r's graph id is g, else 0 — with the
  block of rows; after the last point it writes the accumulator divided, row by row, by the graphs' counts. On the
  extended reals 1 · x = x and 0 · x = 0 for every x, so after point n the accumulator holds at (g, d) the sum of
  x (r, d) over the rows r < 5000 · (n + 1) whose id is g: by induction on the point. After the last point that is the
  sum over all rows of the segment, which is what a scatter of rows with addition into zeros gives; both sides then
  divide by the same count.
-/
import proofs.«422469_j24000277250640_1_alg».proof.Proof.KernelIdeal.Reg3
import proofs.«422469_j24000277250640_1_alg».proof.Proof.KernelIdeal.SegSum
import proofs.«422469_j24000277250640_1_alg».proof.Proof.Spec.SegMean
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)
open scoped BigOperators

/-! ## The three stored values, read at an index -/

/-- The reset stores zero everywhere. -/
theorem pay3_1_apply (j : S256x64.Idx) : k3_pay1 (F := Ideal) j = 0 := by
  unfold k3_pay1
  simp only [shapeCast_self]
  exact Ideal.ofBits_zero_f32

/-- The accumulation at (g, d): what was there plus the block's rows of segment g in column d. -/
theorem pay3_2_apply (v3 : Vec Ideal S5000x64 .f32) (v7 : Vec Ideal S5000x1 .i32) (v15 : Vec Ideal S256x64 .f32)
    (g : Fin 256) (d : Fin 64) :
    k3_pay2 v3 v7 v15 (ix2 g d)
      = v15 (ix2 g d) + ∑ k : Fin 5000, (if (v7 (ix2 k 0)).toInt = (g.val : ℤ) then v3 (ix2 k d) else 0) := by
  unfold k3_pay2
  simp only [shapeCast_self]
  refine (addf_apply _ _ _).trans ?_
  refine congrArg (v15 (ix2 g d) + ·) ?_
  refine (Cert.SegSum.matmul_zero_apply dot_S5000x256_S5000x64_S256x64_0_0_1_1_n_n rfl rfl rfl rfl rfl rfl none _ _ (ix2 g d)).trans ?_
  refine Finset.sum_congr rfl fun k _ => ?_
  have hb : broadcastTo S5000x256 v7 broadcasts_S5000x1_S5000x256 (ix2 k g) = v7 (ix2 k 0) :=
    broadcastTo_apply v7 _ (ix2 k g) (ix2 k 0) (fun a => by match a with | ⟨0, _⟩ => rfl | ⟨1, _⟩ => rfl)
  have hio : iota .tc S5000x256 32 [1] iota_S5000x256_d1_w32 (ix2 k g) = BitVec.ofNat 32 g.val :=
    iota_single_apply .tc S5000x256 32 1 _ (ix2 k g)
  show (((((IntOp.cmpi .eq (broadcastTo S5000x256 v7 broadcasts_S5000x1_S5000x256 (ix2 k g))
      (iota .tc S5000x256 32 [1] iota_S5000x256_d1_w32 (ix2 k g))).setWidth 32).toInt : ℤ) : ℝ) : EReal) * v3 (ix2 k d) = _
  rw [hb, hio, Cert.SegSum.weight_mul]
  have hw := Cert.SegSum.eq_ofNat_iff_toInt (v7 (ix2 k 0)) g.val (by have := g.isLt; omega)
  by_cases h : v7 (ix2 k 0) = BitVec.ofNat 32 g.val
  · rw [if_pos h, if_pos (hw.mp h)]
  · rw [if_neg h, if_neg (fun h' => h (hw.mpr h'))]

/-- The write-back at (g, d): the accumulated sum over the segment's count. -/
theorem pay3_3_apply (v23 : Vec Ideal S256x64 .f32) (v24 : Vec Ideal S256x1 .f32) (g : Fin 256) (d : Fin 64) :
    k3_pay3 v23 v24 (ix2 g d) = Ideal.div (v23 (ix2 g d)) (v24 (ix2 g 0)) := by
  unfold k3_pay3
  simp only [shapeCast_self]
  refine (divf_apply _ _ _).trans ?_
  refine congrArg (Ideal.div (v23 (ix2 g d))) ?_
  exact broadcastTo_apply v24 broadcasts_S256x1_S256x64 (ix2 g d) (ix2 g 0)
    (fun a => by match a with | ⟨0, _⟩ => rfl | ⟨1, _⟩ => rfl)

/-! ## One point's accumulation, over rows of the whole arrays -/

/-- If the block is rows 5000·n … 5000·n + 4999 of the whole arrays and the scratch holds the sum over the first
    5000·n rows, the accumulation leaves the sum over the first 5000·(n + 1) rows. -/
theorem step3 (X : Vec Ideal S100000x64 .f32) (B : Vec Ideal S100000x1 .i32) (xb : Vec Ideal S5000x64 .f32)
    (bb : Vec Ideal S5000x1 .i32) (acc : Vec Ideal S256x64 .f32) (n : ℕ) (hn : 5000 * n + 5000 ≤ 100000)
    (hx : ∀ (k : Fin 5000) (d : Fin 64), xb (ix2 k d) = X (ix2 ⟨5000 * n + k.val, by have := k.isLt; omega⟩ d))
    (hb : ∀ k : Fin 5000, bb (ix2 k 0) = B (ix2 ⟨5000 * n + k.val, by have := k.isLt; omega⟩ 0))
    (g : Fin 256) (d : Fin 64)
    (hacc : acc (ix2 g d) = ∑ r ∈ Finset.range (5000 * n), Cert.SegSum.rowTerm X B g.val d r) :
    k3_pay2 xb bb acc (ix2 g d) = ∑ r ∈ Finset.range (5000 * (n + 1)), Cert.SegSum.rowTerm X B g.val d r := by
  rw [pay3_2_apply xb bb acc g d, hacc, Cert.SegSum.sum_range_tile X B g.val d 5000 n]
  refine congrArg (_ + ·) (Finset.sum_congr rfl fun k _ => ?_)
  rw [Cert.SegSum.rowTerm_of_lt X B g.val d (5000 * n + k.val) (by have := k.isLt; omega), hb k, hx k d]

/-! ## The last point: the write-back is the per-graph mean -/

/-- If the block is the last 5000 rows, the scratch holds the sum over the rows before them and the counts' block is
    the counts, what the last point writes back is the per-graph mean of the whole array. -/
theorem last3 [hR : Cert.ReferenceIdeal.Facts] (X : Vec Ideal S100000x64 .f32) (B : Vec Ideal S100000x1 .i32)
    (Nn : Vec Ideal S256x1 .f32) (xb : Vec Ideal S5000x64 .f32) (bb : Vec Ideal S5000x1 .i32) (nb : Vec Ideal S256x1 .f32)
    (acc : Vec Ideal S256x64 .f32)
    (hx : ∀ (k : Fin 5000) (d : Fin 64), xb (ix2 k d) = X (ix2 ⟨5000 * 19 + k.val, by have := k.isLt; omega⟩ d))
    (hb : ∀ k : Fin 5000, bb (ix2 k 0) = B (ix2 ⟨5000 * 19 + k.val, by have := k.isLt; omega⟩ 0))
    (hn : ∀ g : Fin 256, nb (ix2 g 0) = Nn (ix2 g 0))
    (hacc : ∀ (g : Fin 256) (d : Fin 64), acc (ix2 g d) = ∑ r ∈ Finset.range (5000 * 19), Cert.SegSum.rowTerm X B g.val d r) :
    k3_pay3 (k3_pay2 xb bb acc) nb = Cert.Spec.segMean64 X B Nn := by
  funext j
  obtain ⟨g, d, rfl⟩ : ∃ (g : Fin 256) (d : Fin 64), j = ix2 g d := ⟨j 0, j 1, eq_ix2 j⟩
  rw [pay3_3_apply (k3_pay2 xb bb acc) nb g d, step3 X B xb bb acc 19 (by omega) hx hb g d (hacc g d), hn g,
    Cert.Spec.segMean64_apply X B Nn g d, ← Cert.SegSum.sum_range_rowTerm X B g.val d]

/-! ## What each case's stores leave, as the stored values -/

theorem hz3 : (![0, 0] : Fin 2 → Nat) = fun _ => 0 := funext fun a => by fin_cases a <;> rfl

/-- First point: the scratch is zeroed, read back, and accumulated into. -/
theorem sout3_A_eq (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond3_0 i) (hcl : ¬cond3_1 i)
    (xd : Vec Ideal S5000x64 .f32) (xb : Vec Ideal S5000x1 .i32) (xn : Vec Ideal S256x1 .f32) :
    sout3_A_0 c i arg1 harg1 arg2 harg2 arg3 harg3 arg4 harg4 arg5 harg5 hcz hcl xd xb xn = k3_pay2 xd xb (k3_pay1 (F := Ideal)) := by
  unfold sout3_A_0
  rw [View.read_writes_eq_canon _ _ _ (scover3_A_0 c i arg1 harg1 arg2 harg2 arg3 harg3 arg4 harg4 arg5 harg5 hcz hcl xd xb xn)]
  unfold kernelRun3_A
  dsimp only
  sl_unfold_words
  rw [View.canon_cons_unit_zero (S := S256x64) hz3, View.readCov_unit_zero (S := S256x64) _ hz3]
  simp only [View.readAt_eq_ld, harg1.read_unread, harg2.read_unread, View.ld_unit_zero (S := S5000x64) hz3,
    View.ld_unit_zero (S := S5000x1) hz3]

/-- A middle point: the scratch is accumulated into. -/
theorem sout3_B_eq (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : ¬cond3_1 i)
    (xd : Vec Ideal S5000x64 .f32) (xb : Vec Ideal S5000x1 .i32) (xn : Vec Ideal S256x1 .f32) (xs : Vec Ideal S256x64 .f32) :
    sout3_B_0 c i arg1 harg1 arg2 harg2 arg3 harg3 arg4 harg4 arg5 harg5 hcz hcl xd xb xn xs = k3_pay2 xd xb xs := by
  unfold sout3_B_0
  rw [View.read_writes_eq_canon _ _ _ (scover3_B_0 c i arg1 harg1 arg2 harg2 arg3 harg3 arg4 harg4 arg5 harg5 hcz hcl xd xb xn xs)]
  unfold kernelRun3_B
  dsimp only
  sl_unfold_words
  rw [View.canon_unit_zero hz3]
  simp only [View.readAt_eq_ld, harg1.read_unread, harg2.read_unread, harg5.read_unread, View.ld_unit_zero (S := S5000x64) hz3,
    View.ld_unit_zero (S := S5000x1) hz3, View.ld_unit_zero (S := S256x64) hz3]

/-- The last point: the scratch is accumulated into, -/
theorem sout3_C_eq (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : cond3_1 i)
    (xd : Vec Ideal S5000x64 .f32) (xb : Vec Ideal S5000x1 .i32) (xn : Vec Ideal S256x1 .f32) (xs : Vec Ideal S256x64 .f32) :
    sout3_C_0 c i arg1 harg1 arg2 harg2 arg3 harg3 arg4 harg4 arg5 harg5 hcz hcl xd xb xn xs = k3_pay2 xd xb xs := by
  unfold sout3_C_0
  rw [View.read_writes_eq_canon _ _ _ (scover3_C_0 c i arg1 harg1 arg2 harg2 arg3 harg3 arg4 harg4 arg5 harg5 hcz hcl xd xb xn xs)]
  unfold kernelRun3_C
  dsimp only
  sl_unfold_words
  rw [View.canon_unit_zero hz3]
  simp only [View.readAt_eq_ld, harg1.read_unread, harg2.read_unread, harg5.read_unread, View.ld_unit_zero (S := S5000x64) hz3,
    View.ld_unit_zero (S := S5000x1) hz3, View.ld_unit_zero (S := S256x64) hz3]

/-- and its quotient by the counts is stored into the output's block. -/
theorem out3_C_eq (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond3_0 i) (hcl : cond3_1 i)
    (xd : Vec Ideal S5000x64 .f32) (xb : Vec Ideal S5000x1 .i32) (xn : Vec Ideal S256x1 .f32) (xs : Vec Ideal S256x64 .f32) :
    out3_C_3 c i arg1 harg1 arg2 harg2 arg3 harg3 arg4 harg4 arg5 harg5 hcz hcl xd xb xn xs = k3_pay3 (k3_pay2 xd xb xs) xn := by
  unfold out3_C_3
  rw [View.read_writes_eq_canon _ _ _ (cover3_C_3 c i arg1 harg1 arg2 harg2 arg3 harg3 arg4 harg4 arg5 harg5 hcz hcl xd xb xn xs)]
  unfold kernelRun3_C
  dsimp only
  sl_unfold_words
  rw [View.canon_unit_zero hz3]
  simp only [View.readAt_eq_ld, harg1.read_unread, harg2.read_unread, harg3.read_unread, harg5.read_unread,
    View.readCov_unit_zero (S := S256x64) _ hz3, View.ld_unit_zero (S := S5000x64) hz3,
    View.ld_unit_zero (S := S5000x1) hz3, View.ld_unit_zero (S := S256x64) hz3, View.ld_unit_zero (S := S256x1) hz3]

/-! ## The blocks are rows of the whole arrays -/

section
variable (V : (c : Dev nD) → (b : Ref sig .tc) → Buf (Elt Ideal) ((c : Thread nD τ).loc b))

/-- The three whole arrays the region reads, and each window's block at a point, by their literal types. -/
abbrev xarr3 (c : Dev nD) : Vec Ideal S100000x64 .f32 := V c main_v69_1
abbrev barr3 (c : Dev nD) : Vec Ideal S100000x1 .i32 := V c main_v36
abbrev narr3 (c : Dev nD) : Vec Ideal S256x1 .f32 := V c main_v35
abbrev xblk3 (c : Dev nD) (t : Fin cfg3.N) : Vec Ideal S5000x64 .f32 := iblk3 V c 0 t
abbrev bblk3 (c : Dev nD) (t : Fin cfg3.N) : Vec Ideal S5000x1 .i32 := iblk3 V c 1 t
abbrev nblk3 (c : Dev nD) (t : Fin cfg3.N) : Vec Ideal S256x1 .f32 := iblk3 V c 2 t

/-- Where the windows' blocks sit at point t: the two row windows at block t, the counts at block 0. -/
theorem idx3_0 : ∀ t : Fin cfg3.N, win3_0.index t 0 = t.val ∧ win3_0.index t 1 = 0 :=
  (by decide +kernel : ∀ t : Fin grid3.N, win3_0.index t 0 = t.val ∧ win3_0.index t 1 = 0)
theorem idx3_1 : ∀ t : Fin cfg3.N, win3_1.index t 0 = t.val ∧ win3_1.index t 1 = 0 :=
  (by decide +kernel : ∀ t : Fin grid3.N, win3_1.index t 0 = t.val ∧ win3_1.index t 1 = 0)
theorem idx3_2 : ∀ t : Fin cfg3.N, win3_2.index t 0 = 0 ∧ win3_2.index t 1 = 0 :=
  (by decide +kernel : ∀ t : Fin grid3.N, win3_2.index t 0 = 0 ∧ win3_2.index t 1 = 0)

theorem lt3 (t : Fin cfg3.N) (k : Fin 5000) : 5000 * t.val + k.val < 100000 := by
  have hN : cfg3.N = 20 := N_3
  have := t.isLt; have := k.isLt; omega

theorem xblk3_apply (c : Dev nD) (t : Fin cfg3.N) (k : Fin 5000) (d : Fin 64) :
    xblk3 V c t (ix2 k d) = xarr3 V c (ix2 ⟨5000 * t.val + k.val, lt3 t k⟩ d) := by
  have hi := idx3_0 t
  show iblk3 V c 0 t (ix2 k d) = V c main_v69_1 _
  unfold iblk3
  rw [View.read_apply]
  show V c main_v69_1 _ = V c main_v69_1 _
  congr 1
  funext a
  apply Fin.ext
  match a with
  | ⟨0, _⟩ => show win3_0.index t 0 * 5000 + 1 * k.val = 5000 * t.val + k.val; rw [hi.1]; omega
  | ⟨1, _⟩ => show win3_0.index t 1 * 64 + 1 * d.val = d.val; rw [hi.2]; omega

theorem bblk3_apply (c : Dev nD) (t : Fin cfg3.N) (k : Fin 5000) :
    bblk3 V c t (ix2 k 0) = barr3 V c (ix2 ⟨5000 * t.val + k.val, lt3 t k⟩ 0) := by
  have hi := idx3_1 t
  show iblk3 V c 1 t (ix2 k 0) = V c main_v36 _
  unfold iblk3
  rw [View.read_apply]
  show V c main_v36 _ = V c main_v36 _
  congr 1
  funext a
  apply Fin.ext
  match a with
  | ⟨0, _⟩ => show win3_1.index t 0 * 5000 + 1 * k.val = 5000 * t.val + k.val; rw [hi.1]; omega
  | ⟨1, _⟩ => show win3_1.index t 1 * 1 + 1 * 0 = 0; rw [hi.2]

theorem nblk3_apply (c : Dev nD) (t : Fin cfg3.N) (g : Fin 256) :
    nblk3 V c t (ix2 g 0) = narr3 V c (ix2 g 0) := by
  have hi := idx3_2 t
  show iblk3 V c 2 t (ix2 g 0) = V c main_v35 _
  unfold iblk3
  rw [View.read_apply]
  show V c main_v35 _ = V c main_v35 _
  congr 1
  funext a
  apply Fin.ext
  match a with
  | ⟨0, _⟩ => show win3_2.index t 0 * 256 + 1 * g.val = g.val; rw [hi.1]; omega
  | ⟨1, _⟩ => show win3_2.index t 1 * 1 + 1 * 0 = 0; rw [hi.2]

variable [hR : Cert.ReferenceIdeal.Facts]

/-! ## The scratch after each point, and the array after the last -/

/-- After point n the scratch holds, at (g, d), the sum over the first 5000·(n + 1) rows of segment g in column d. -/
theorem scratch3_apply (c : Dev nD) (g : Fin 256) (d : Fin 64) : ∀ (n : ℕ) (h : n < cfg3.N),
    (outsAt3 V c n h).2 (ix2 g d)
      = ∑ r ∈ Finset.range (5000 * (n + 1)), Cert.SegSum.rowTerm (xarr3 V c) (barr3 V c) g.val d r
  | 0, h => by
    have hN : cfg3.N = 20 := N_3
    rw [outsAt3_A V c ⟨0, h⟩ rfl (by dsimp only; omega)]
    dsimp only
    refine (congrFun (sout3_A_eq c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) scM3_0 (Memref.isWhole_whole _) _ _ (xblk3 V c ⟨0, h⟩) (bblk3 V c ⟨0, h⟩) (nblk3 V c ⟨0, h⟩)) (ix2 g d)).trans ?_
    exact step3 (xarr3 V c) (barr3 V c) (xblk3 V c ⟨0, h⟩) (bblk3 V c ⟨0, h⟩) (k3_pay1 (F := Ideal)) 0 (by omega)
      (fun k d => xblk3_apply V c ⟨0, h⟩ k d) (fun k => bblk3_apply V c ⟨0, h⟩ k) g d
      (by rw [pay3_1_apply, Cert.SegSum.sum_range_zero])
  | n + 1, h => by
    have hN : cfg3.N = 20 := N_3
    have ih := scratch3_apply c g d n (Nat.lt_of_succ_lt h)
    have h0 : ¬(⟨n + 1, h⟩ : Fin cfg3.N).val % 20 = 0 := by dsimp only; omega
    by_cases h1 : (⟨n + 1, h⟩ : Fin cfg3.N).val % 20 = 19
    · rw [outsAt3_C V c ⟨n + 1, h⟩ h0 h1]
      dsimp only
      refine (congrFun (sout3_C_eq c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) scM3_0 (Memref.isWhole_whole _) _ _ (xblk3 V c ⟨n + 1, h⟩) (bblk3 V c ⟨n + 1, h⟩) (nblk3 V c ⟨n + 1, h⟩)
        (outsAt3 V c n (Nat.lt_of_succ_lt h)).2) (ix2 g d)).trans ?_
      exact step3 (xarr3 V c) (barr3 V c) (xblk3 V c ⟨n + 1, h⟩) (bblk3 V c ⟨n + 1, h⟩) (outsAt3 V c n (Nat.lt_of_succ_lt h)).2 (n + 1)
        (by omega) (fun k d => xblk3_apply V c ⟨n + 1, h⟩ k d) (fun k => bblk3_apply V c ⟨n + 1, h⟩ k) g d ih
    · rw [outsAt3_B V c ⟨n + 1, h⟩ h0 h1]
      dsimp only
      refine (congrFun (sout3_B_eq c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) scM3_0 (Memref.isWhole_whole _) _ _ (xblk3 V c ⟨n + 1, h⟩) (bblk3 V c ⟨n + 1, h⟩) (nblk3 V c ⟨n + 1, h⟩)
        (outsAt3 V c n (Nat.lt_of_succ_lt h)).2) (ix2 g d)).trans ?_
      exact step3 (xarr3 V c) (barr3 V c) (xblk3 V c ⟨n + 1, h⟩) (bblk3 V c ⟨n + 1, h⟩) (outsAt3 V c n (Nat.lt_of_succ_lt h)).2 (n + 1)
        (by omega) (fun k d => xblk3_apply V c ⟨n + 1, h⟩ k d) (fun k => bblk3_apply V c ⟨n + 1, h⟩ k) g d ih

/-- The last point of the grid. -/
abbrev t3_last : Fin cfg3.N := ⟨19, by decide⟩

/-- What the last point leaves in the output's block: the per-graph mean. -/
theorem out3_last (c : Dev nD) :
    (outsAt3 V c t3_last.val t3_last.isLt).1 = Cert.Spec.segMean64 (F := Ideal) (xarr3 V c) (barr3 V c) (narr3 V c) := by
  rw [outsAt3_C V c t3_last (by decide) rfl]
  dsimp only
  refine (out3_C_eq c (grid3.coords t3_last) (ms3_0 t3_last) (hs3_0 t3_last) (ms3_1 t3_last) (hs3_1 t3_last) (ms3_2 t3_last) (hs3_2 t3_last) (ms3_3 t3_last) (hs3_3 t3_last) scM3_0 (Memref.isWhole_whole _) _ _ (xblk3 V c t3_last) (bblk3 V c t3_last) (nblk3 V c t3_last)
    (outsAt3 V c 18 (by decide)).2).trans ?_
  exact last3 (xarr3 V c) (barr3 V c) (narr3 V c) (xblk3 V c t3_last) (bblk3 V c t3_last) (nblk3 V c t3_last)
    (outsAt3 V c 18 (by decide)).2 (fun k d => xblk3_apply V c t3_last k d) (fun k => bblk3_apply V c t3_last k)
    (fun g => nblk3_apply V c t3_last g) (fun g d => scratch3_apply V c g d 18 (by decide))

/-- The per-graph mean, as contents of the region's result array. -/
abbrev result3 (c : Dev nD) : Buf (Elt Ideal) ((c : Thread nD τ).loc main_v70) :=
  Cert.Spec.segMean64 (F := Ideal) (V c main_v69_1) (V c main_v36) (V c main_v35)

theorem idx3_3 : ∀ t : Fin cfg3.N, win3_3.index t 0 = 0 ∧ win3_3.index t 1 = 0 :=
  (by decide +kernel : ∀ t : Fin grid3.N, win3_3.index t 0 = 0 ∧ win3_3.index t 1 = 0)

/-- The one write-back, at the last point, writes it: the output's one block is the whole array. -/
theorem flushed3_eq (c : Dev nD) (t : Fin cfg3.N) (hf : (cfg3.win 3).flush t = true) :
    (dat3 V c).flushed 3 t = ((cfg3.win 3).blk t).view.read (Elt Ideal) (result3 V c) := by
  have hN : cfg3.N = 20 := N_3
  have h19 : t.val = 19 := by have := (flush3_3 t).mp hf; have := t.isLt; omega
  obtain rfl : t = t3_last := Fin.ext h19
  show (cfg3.win 3).cut (grid3.coords t3_last) ((dat3 V c).after 3 t3_last) = _
  rw [after3_3, out3_last]
  have hz' : (fun a => win3_3.index t3_last a * main_v70.ty.shape.size a) = fun _ => 0 :=
    funext fun a => by fin_cases a <;> decide +kernel
  exact (Memref.read_access_unit_zero (Elt Ideal) main_v70 hz' (fun a => by rw [congrFun hz' a]; simp) (result3 V c)).symm

/-- So the region's result array ends holding the per-graph mean of the rows it was given. -/
theorem out3_eq (c : Dev nD) :
    (dat3 V c).arrAt 3 cfg3.N = Cert.Spec.segMean64 (F := Ideal) (V c main_v69_1) (V c main_v36) (V c main_v35) :=
  (dat3 V c).arrAt_eq_of_cover 3 (result3 V c) (flushed3_eq V c) fun i =>
    ⟨t3_last, (flush3_3 t3_last).mpr rfl, by
      show i ∈ ((View.whole main_v70).slice (win3_3.rect t3_last)).set
      rw [View.set_slice_whole, Rect.mem_set_unit]
      intro a
      have h0 : (i 0 : Nat) < 256 := (i 0).isLt
      have h1 : (i 1 : Nat) < 64 := (i 1).isLt
      match a with
      | ⟨0, _⟩ =>
        show win3_3.index t3_last 0 * win3_3.size 0 ≤ (i 0 : Nat) ∧ (i 0 : Nat) < win3_3.index t3_last 0 * win3_3.size 0 + win3_3.xsize (grid3.coords t3_last) 0
        rw [show win3_3.index t3_last 0 * win3_3.size 0 = 0 from by decide +kernel, show win3_3.xsize (grid3.coords t3_last) 0 = 256 from by decide +kernel]; omega
      | ⟨1, _⟩ =>
        show win3_3.index t3_last 1 * win3_3.size 1 ≤ (i 1 : Nat) ∧ (i 1 : Nat) < win3_3.index t3_last 1 * win3_3.size 1 + win3_3.xsize (grid3.coords t3_last) 1
        rw [show win3_3.index t3_last 1 * win3_3.size 1 = 0 from by decide +kernel, show win3_3.xsize (grid3.coords t3_last) 1 = 64 from by decide +kernel]; omega⟩

end

end Cert.KernelIdeal.Hand

end
-- ==== Proof.KernelIdeal.Val4.lean ====
/-
  The normalising stage, read as a whole array. The stage walks the 100000 node rows in 20 tiles of 5000 rows; on
  each tile it forms, entry by entry, max (γ j · c (n, j) · rsqrt (v (n, j) + ε) + β j, 0), where c is the centred row,
  v the variance of the row's graph at feature j, and ε a small positive constant, and writes the tile back at the rows
  it came from. The plain program writes the same entry as max (γ j · c (n, j) / √(v (n, j) + ε) + β j, 0). On the
  extended reals a · rsqrt (s) = a / √s whenever s = v + ε with v ≥ 0: s is then a positive real or +∞, and in both cases
  the reciprocal root is the inverse of the root. An entry depends only on the same entry of c and v and on γ, β at
  the same feature, and the 20 tiles cover every row once, so the array the stage leaves is the normalised array of the
  whole inputs, provided no variance entry is negative.
-/
import proofs.«422469_j24000277250640_1_alg».proof.Proof.KernelIdeal.Reg4
import proofs.«422469_j24000277250640_1_alg».proof.Proof.Gen.ReferenceIdeal
import proofs.«422469_j24000277250640_1_alg».proof.Proof.Spec.Ops
import Idealize.ShloMosaic.Lib.Pipeline.Value
import Idealize.ShloMosaic.Lib.ValueIdx
import Idealize.ShloMosaic.Lib.IdealHost

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable {F : FTy → Type} [FloatOps F]

/-! ## One entry of a tile -/

/-- The two zero offsets of a whole-tile access, as a constant function. -/
theorem hz4 : (![0, 0] : Fin 2 → Nat) = fun _ => 0 := funext fun a => by fin_cases a <;> rfl

/-- Entry (p, q) of the result tile: max (γ (0, q) · c (p, q) · rsqrt (v (p, q) + ε) + β (0, q), 0); the rows γ and β are
    repeated down the tile, ε and 0 are the same constants everywhere. -/
theorem k4_pay1_apply (va hc : Vec F S5000x64 .f32) (ga be : Vec F S1x64 .f32) (p : Fin 5000) (q : Fin 64) :
    k4_pay1 va ga hc be (ix2 p q) =
      FloatOps.maximumf (FloatOps.addf (FloatOps.mulf (FloatOps.mulf (ga (ix2 (0 : Fin 1) q)) (hc (ix2 p q)))
          (FloatOps.rsqrt (FloatOps.addf (va (ix2 p q)) (FloatOps.ofBits (F := F) .f32 0x3727C5AC#32)))) (be (ix2 (0 : Fin 1) q)))
        (FloatOps.ofBits (F := F) .f32 0x00000000#32) := by
  unfold k4_pay1
  rw [shapeCast_self, shapeCast_self, shapeCast_self, shapeCast_self]
  show FloatOps.maximumf (FloatOps.addf (FloatOps.mulf (FloatOps.mulf (broadcastTo S5000x64 ga broadcasts_S1x64_S5000x64 (ix2 p q)) (hc (ix2 p q)))
          (FloatOps.rsqrt (FloatOps.addf (va (ix2 p q)) (FloatOps.ofBits (F := F) .f32 0x3727C5AC#32)))) (broadcastTo S5000x64 be broadcasts_S1x64_S5000x64 (ix2 p q)))
        (FloatOps.ofBits (F := F) .f32 0x00000000#32) = _
  rw [broadcastTo_apply ga broadcasts_S1x64_S5000x64 (ix2 p q) (ix2 (0 : Fin 1) q) (fun a => by
      match a with
      | ⟨0, _⟩ => rfl
      | ⟨1, _⟩ => rfl),
    broadcastTo_apply be broadcasts_S1x64_S5000x64 (ix2 p q) (ix2 (0 : Fin 1) q) (fun a => by
      match a with
      | ⟨0, _⟩ => rfl
      | ⟨1, _⟩ => rfl)]

/-! ## One entry of the whole-array function -/

/-- Entry (n, q) of the normalised array: max (γ (0, q) · c (n, q) / √(v (n, q) + ε) + β (0, q), 0). -/
theorem normed_apply4 (C Vr : FVec F Cert.ReferenceIdeal.S100000x64 .f32) (G B : FVec F Cert.ReferenceIdeal.S1x64 .f32)
    (n : Fin 100000) (q : Fin 64) :
    Cert.Spec.normed C Vr G B (ix2 n q) =
      FloatOps.maximumf (FloatOps.addf (FloatOps.hostDivf (FloatOps.mulf (G (ix2 (0 : Fin 1) q)) (C (ix2 n q)))
          (FloatOps.hostUnary .sqrt (FloatOps.addf (Vr (ix2 n q)) (FloatOps.ofBits (F := F) .f32 0x3727C5AC#32)))) (B (ix2 (0 : Fin 1) q)))
        (FloatOps.ofBits (F := F) .f32 0x00000000#32) := by
  unfold Cert.Spec.normed
  show FloatOps.maximumf (FloatOps.addf (FloatOps.hostDivf (FloatOps.mulf (broadcastInDim Cert.ReferenceIdeal.S100000x64 ![0, 1] Cert.ReferenceIdeal.Facts₀.bcast_S1x64_S100000x64_0_1 G (ix2 n q)) (C (ix2 n q)))
          (FloatOps.hostUnary .sqrt (FloatOps.addf (Vr (ix2 n q)) (FloatOps.ofBits (F := F) .f32 0x3727C5AC#32)))) (broadcastInDim Cert.ReferenceIdeal.S100000x64 ![0, 1] Cert.ReferenceIdeal.Facts₀.bcast_S1x64_S100000x64_0_1 B (ix2 n q)))
        (FloatOps.ofBits (F := F) .f32 0x00000000#32) = _
  rw [broadcastInDim_apply ![0, 1] Cert.ReferenceIdeal.Facts₀.bcast_S1x64_S100000x64_0_1 G (ix2 n q) (ix2 (0 : Fin 1) q) (fun a => by
      match a with
      | ⟨0, _⟩ => rfl
      | ⟨1, _⟩ => rfl),
    broadcastInDim_apply ![0, 1] Cert.ReferenceIdeal.Facts₀.bcast_S1x64_S100000x64_0_1 B (ix2 n q) (ix2 (0 : Fin 1) q) (fun a => by
      match a with
      | ⟨0, _⟩ => rfl
      | ⟨1, _⟩ => rfl)]

/-! ## The one law: a reciprocal root against a division by the root, on the extended reals -/

/-- The constant ε is the positive real 10995116 · 2⁻⁴⁰ (about 10⁻⁵). -/
theorem eps_eq4 : Ideal.ofBits .f32 0x3727C5AC#32 = (((10995116 : ℝ) * (2 : ℝ) ^ (-40 : ℤ) : ℝ) : EReal) := by
  simp [Ideal.ofBits, Ideal.ieee, -EReal.coe_mul]

theorem eps_pos4 : (0 : ℝ) < (10995116 : ℝ) * (2 : ℝ) ^ (-40 : ℤ) := by positivity

/-- For v ≥ 0 and a real e > 0: a · rsqrt (v + e) = a / √(v + e). At v = +∞ both sides are a · 0 (the reciprocal root of
    +∞ is 0, and so is the inverse of √(+∞) = +∞); at a real v the sum v + e is a positive real s, the reciprocal root is
    the real (√s)⁻¹ and the division by the nonzero √s multiplies by the same inverse. No bound on a is used. -/
theorem mul_rsqrt4 (a v : EReal) (e : ℝ) (he : 0 < e) (hv : 0 ≤ v) :
    a * Ideal.rsqrt (v + (e : EReal)) = Ideal.div a (Ideal.sqrt (v + (e : EReal))) := by
  induction v using EReal.rec with
  | bot => exact absurd hv (by simp)
  | top =>
    rw [EReal.top_add_coe]
    simp [Ideal.div]
  | coe r =>
    have hr : 0 ≤ r := by exact_mod_cast hv
    have hs : 0 < r + e := by linarith
    rw [← EReal.coe_add]
    rw [Ideal.rsqrt_coe, Ideal.sqrt_coe, if_neg (not_lt.mpr hs.le), if_neg hs.ne', if_neg (not_lt.mpr hs.le)]
    have hq : Real.sqrt (r + e) ≠ 0 := (Real.sqrt_pos.mpr hs).ne'
    rw [Ideal.div, if_neg (by exact_mod_cast hq), EReal.coe_inv]

/-- The same law in the operations' own spelling, at the constant ε. -/
theorem law4 (a v : Ideal .f32) (hv : (0 : EReal) ≤ v) :
    FloatOps.mulf a (FloatOps.rsqrt (FloatOps.addf v (FloatOps.ofBits (F := Ideal) .f32 0x3727C5AC#32)))
      = FloatOps.hostDivf a (FloatOps.hostUnary .sqrt (FloatOps.addf v (FloatOps.ofBits (F := Ideal) .f32 0x3727C5AC#32))) := by
  show a * Ideal.rsqrt (v + Ideal.ofBits .f32 0x3727C5AC#32) = Ideal.div a (Ideal.sqrt (v + Ideal.ofBits .f32 0x3727C5AC#32))
  rw [eps_eq4]
  exact mul_rsqrt4 a v _ eps_pos4 hv

/-! ## Where a tile sits -/

/-- At tile t the three row-tiled arrays are at row block t and column block 0, and γ, β at block (0, 0). -/
theorem idx_facts4 : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Every one of the 20 row blocks of the result is some tile's. -/
theorem idx_onto4 : ∀ (q0 : Fin 20), ∃ t : Fin cfg4.N, win4_4.index t = ![q0.val, 0] :=
  (by decide +kernel : ∀ (q0 : Fin 20), ∃ t : Fin grid4.N, win4_4.index t = ![q0.val, 0])

/-- Row p of tile t is row 5000 t + p of the array, below 100000. -/
theorem row_lt4 (t : Fin cfg4.N) (p : Fin 5000) : t.val * 5000 + p.val < 100000 := by
  have ht : t.val < 20 := lt_of_lt_of_eq t.isLt N_4
  omega

/-- Entry (p, q) of tile t of the centred rows is entry (5000 t + p, q) of that array. -/
theorem emb4_0 (t : Fin cfg4.N) (p : Fin 5000) (q : Fin 64) :
    ((cfg4.win 0).blk t).view.emb (ix2 p q) = ix2 (⟨t.val * 5000 + p.val, row_lt4 t p⟩ : Fin 100000) q := by
  obtain ⟨e00, e01, e10, e11, e20, e21, e30, e31, e40, e41⟩ := idx_facts4 t
  funext a; apply Fin.ext
  match a with
  | ⟨0, _⟩ => show win4_0.index t (0 : Fin 2) * 5000 + 1 * p.val = t.val * 5000 + p.val; omega
  | ⟨1, _⟩ => show win4_0.index t (1 : Fin 2) * 64 + 1 * q.val = q.val; omega

/-- The same for the variances. -/
theorem emb4_1 (t : Fin cfg4.N) (p : Fin 5000) (q : Fin 64) :
    ((cfg4.win 1).blk t).view.emb (ix2 p q) = ix2 (⟨t.val * 5000 + p.val, row_lt4 t p⟩ : Fin 100000) q := by
  obtain ⟨e00, e01, e10, e11, e20, e21, e30, e31, e40, e41⟩ := idx_facts4 t
  funext a; apply Fin.ext
  match a with
  | ⟨0, _⟩ => show win4_1.index t (0 : Fin 2) * 5000 + 1 * p.val = t.val * 5000 + p.val; omega
  | ⟨1, _⟩ => show win4_1.index t (1 : Fin 2) * 64 + 1 * q.val = q.val; omega

/-- Every tile sees the whole row γ. -/
theorem emb4_2 (t : Fin cfg4.N) (q : Fin 64) :
    ((cfg4.win 2).blk t).view.emb (ix2 (0 : Fin 1) q) = ix2 (0 : Fin 1) q := by
  obtain ⟨e00, e01, e10, e11, e20, e21, e30, e31, e40, e41⟩ := idx_facts4 t
  funext a; apply Fin.ext
  match a with
  | ⟨0, _⟩ => show win4_2.index t (0 : Fin 2) * 1 + 1 * 0 = 0; omega
  | ⟨1, _⟩ => show win4_2.index t (1 : Fin 2) * 64 + 1 * q.val = q.val; omega

/-- And the whole row β. -/
theorem emb4_3 (t : Fin cfg4.N) (q : Fin 64) :
    ((cfg4.win 3).blk t).view.emb (ix2 (0 : Fin 1) q) = ix2 (0 : Fin 1) q := by
  obtain ⟨e00, e01, e10, e11, e20, e21, e30, e31, e40, e41⟩ := idx_facts4 t
  funext a; apply Fin.ext
  match a with
  | ⟨0, _⟩ => show win4_3.index t (0 : Fin 2) * 1 + 1 * 0 = 0; omega
  | ⟨1, _⟩ => show win4_3.index t (1 : Fin 2) * 64 + 1 * q.val = q.val; omega

/-- Entry (p, q) of tile t of the result is entry (5000 t + p, q) of the result array. -/
theorem emb4_4 (t : Fin cfg4.N) (p : Fin 5000) (q : Fin 64) :
    ((cfg4.win 4).blk t).view.emb (ix2 p q) = ix2 (⟨t.val * 5000 + p.val, row_lt4 t p⟩ : Fin 100000) q := by
  obtain ⟨e00, e01, e10, e11, e20, e21, e30, e31, e40, e41⟩ := idx_facts4 t
  funext a; apply Fin.ext
  match a with
  | ⟨0, _⟩ => show win4_4.index t (0 : Fin 2) * 5000 + 1 * p.val = t.val * 5000 + p.val; omega
  | ⟨1, _⟩ => show win4_4.index t (1 : Fin 2) * 64 + 1 * q.val = q.val; omega

/-! ## The tiles cover every row -/

/-- An entry is in tile t of the result iff its row is in t's 5000 rows (and its column among the 64). -/
theorem mem_blk4_4 (t : Fin cfg4.N) (i : S100000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v84).slice (win4_4.rect t)).set ↔ _
  rw [View.set_slice_whole, Rect.mem_set_unit]
  exact Iff.rfl

/-- Row n lies in tile n / 5000, which writes back: every entry of the result is written. -/
theorem rows4_4 (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  obtain ⟨t, ht⟩ := idx_onto4 ⟨(i 0).val / 5000, by omega⟩
  have q0 : win4_4.index t (0 : Fin 2) = (i 0).val / 5000 := congrFun ht 0
  have q1 : win4_4.index t (1 : Fin 2) = 0 := congrFun ht 1
  refine ⟨t, flush4_4 t, ?_⟩
  rw [mem_blk4_4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

/-! ## A tile of the result is a tile of the whole-array function, and the array the stage leaves -/

section
variable (V : (c : Dev nD) → (b : Ref sig .tc) → Buf (Elt Ideal) ((c : Thread nD τ).loc b))

/-- The value computed on tile t, at (p, q), is the normalised array of the whole inputs at (5000 t + p, q): the two
    spellings differ only in a · rsqrt (v + ε) against a / √(v + ε), equal since the variance entry is not negative. -/
theorem pay1_blk4 (c : Dev nD) (hv : ∀ i, (0 : EReal) ≤ V c main_v77 i) (t : Fin cfg4.N) (p : Fin 5000) (q : Fin 64) :
    k4_pay1 (F := Ideal) (iblk4 V c 1 t) (iblk4 V c 2 t) (iblk4 V c 0 t) (iblk4 V c 3 t) (ix2 p q)
      = Cert.Spec.normed (F := Ideal) (V c main_v69_0) (V c main_v77) (V c main_v80) (V c main_v83) (ix2 (⟨t.val * 5000 + p.val, row_lt4 t p⟩ : Fin 100000) q) := by
  refine (k4_pay1_apply (F := Ideal) (iblk4 V c 1 t) (iblk4 V c 0 t) (iblk4 V c 2 t) (iblk4 V c 3 t) p q).trans ?_
  refine Eq.trans ?_ (normed_apply4 (F := Ideal) (V c main_v69_0) (V c main_v77) (V c main_v80) (V c main_v83) ⟨t.val * 5000 + p.val, row_lt4 t p⟩ q).symm
  show FloatOps.maximumf (FloatOps.addf (FloatOps.mulf (FloatOps.mulf (V c main_v80 (((cfg4.win 2).blk t).view.emb (ix2 (0 : Fin 1) q))) (V c main_v69_0 (((cfg4.win 0).blk t).view.emb (ix2 p q))))
          (FloatOps.rsqrt (FloatOps.addf (V c main_v77 (((cfg4.win 1).blk t).view.emb (ix2 p q))) (FloatOps.ofBits (F := Ideal) .f32 0x3727C5AC#32)))) (V c main_v83 (((cfg4.win 3).blk t).view.emb (ix2 (0 : Fin 1) q))))
        (FloatOps.ofBits (F := Ideal) .f32 0x00000000#32) = _
  rw [emb4_0, emb4_1, emb4_2, emb4_3]
  rw [law4 _ _ (hv _)]

/-- What tile t writes back is tile t of the normalised array of the whole inputs. -/
theorem blk4_4 (c : Dev nD) (hv : ∀ i, (0 : EReal) ≤ V c main_v77 i) (t : Fin cfg4.N) :
    (cfg4.win 4).cut (grid4.coords t) (out4_4 (F := Ideal) (iblk4 V c 0 t) (iblk4 V c 1 t) (iblk4 V c 2 t) (iblk4 V c 3 t))
      = ((cfg4.win 4).blk t).view.read (Elt Ideal) (Cert.Spec.normed (F := Ideal) (V c main_v69_0) (V c main_v77) (V c main_v80) (V c main_v83)) := by
  unfold out4_4
  rw [View.canon_unit_zero hz4]
  simp only [View.ld_unit_zero (S := S5000x64) hz4, View.ld_unit_zero (S := S1x64) hz4]
  funext j
  obtain ⟨p, q, rfl⟩ : ∃ (p : Fin 5000) (q : Fin 64), j = ix2 p q := ⟨j 0, j 1, eq_ix2 j⟩
  show _ = Cert.Spec.normed (F := Ideal) (V c main_v69_0) (V c main_v77) (V c main_v80) (V c main_v83) (((cfg4.win 4).blk t).view.emb (ix2 p q))
  rw [emb4_4]
  exact pay1_blk4 V c hv t p q

/-- After the 20 tiles the result holds max (γ · c / √(v + ε) + β, 0) of the whole arrays the stage found, when no entry of
    v is negative. -/
theorem out4_eq (c : Dev nD) (hv : ∀ i, (0 : EReal) ≤ V c main_v77 i) :
    (dat4 (F := Ideal) V c).arrAt 4 cfg4.N = Cert.Spec.normed (F := Ideal) (V c main_v69_0) (V c main_v77) (V c main_v80) (V c main_v83) :=
  (dat4 (F := Ideal) V c).arrAt_eq_of_cover 4 _ (fun t _ => by
    show (cfg4.win 4).cut (grid4.coords t) ((dat4 (F := Ideal) V c).after 4 t) = _
    rw [after4_4]; exact blk4_4 V c hv t) rows4_4

end

end Cert.KernelIdeal.Hand

end
-- ==== Proof.KernelIdeal.Val5.lean ====
/-
  The first layer's projection, from blocks to the whole array, at the exact values.

  The region multiplies the array of node features, 100000 rows of 64, by a 64 × 64 weight matrix, twenty blocks
  of 5000 rows at a time: at grid point t the body loads rows 5000·t … 5000·t + 4999 and the whole weight matrix,
  and stores their product as block t of the output. At the exact values a change of float format is the identity
  and a product accumulated into zero is the bare sum, so entry (p, q) of that block is row 5000·t + p of the
  features against column q of the weights — the same sum over the 64 contraction indices that the plain program's
  matrix product has at (5000·t + p, q). Every point writes its block back and the twenty blocks fill the output,
  so after the region the output array is that product of the two arrays as the region found them.
-/
import proofs.«422469_j24000277250640_1_alg».proof.Proof.KernelIdeal.Reg5
import proofs.«422469_j24000277250640_1_alg».proof.Proof.Gen.ReferenceIdeal
import proofs.«422469_j24000277250640_1_alg».proof.Proof.Spec.Ops
import proofs.«422469_j24000277250640_1_alg».proof.Proof.LibRowDot
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.LibRowDot

/-- The zero offsets of a whole-buffer access, as the constant zero function. -/
theorem hz5 : (![0, 0] : Fin 2 → Nat) = fun _ => 0 := funext fun a => by fin_cases a <;> rfl

/-- The body's one payload at an entry: row p of the loaded block of node features against column q of
    the loaded weight matrix. The two changes of float format and the cast to the same shape do nothing to
    exact values, and the product accumulates into zero. -/
theorem k5_pay1_apply (x0 : FVec Ideal S5000x64 .f32) (x1 : FVec Ideal S64x64 .f32) (p : Fin 5000) (q : Fin 64) :
    k5_pay1 (F := Ideal) x0 x1 (ix2 p q) = rowDot x0 x1 p q := by
  unfold k5_pay1
  refine (matmul_zero_apply dot_S5000x64_S64x64_S5000x64_1_0_0_1_n_n rfl rfl rfl rfl rfl rfl none _ _ (ix2 p q)).trans ?_
  simp only [shapeCast_self]
  all_goals rfl

/-- The layer's projection of the plain program at an entry: row n of the node features against column j
    of the weight matrix. -/
theorem mm5_apply (h : FVec Ideal S100000x64 .f32) (w : FVec Ideal S64x64 .f32) (n : Fin 100000) (j : Fin 64) :
    Cert.Spec.mm (F := Ideal) h w (ix2 n j) = rowDot h w n j := by
  unfold Cert.Spec.mm
  exact dotGeneral_apply Cert.ReferenceIdeal.dot_S100000x64_S64x64_S100000x64_1_0_0_1_n_n rfl rfl rfl rfl rfl rfl none _ h w (ix2 n j)

/-- One entry of a block of the product. If row p of the loaded block is row n of the whole array of node
    features and the loaded weights are the whole weight matrix, the body's payload at (p, q) is the
    projection at (n, q): both are that row against column q. -/
theorem entry5_2 (A : FVec Ideal S100000x64 .f32) (Wt : FVec Ideal S64x64 .f32)
    (x0 : FVec Ideal S5000x64 .f32) (x1 : FVec Ideal S64x64 .f32) (n : Fin 100000) (p : Fin 5000) (q : Fin 64)
    (h0 : ∀ k : Fin 64, x0 (ix2 p k) = A (ix2 n k)) (h1 : ∀ k : Fin 64, x1 (ix2 k q) = Wt (ix2 k q)) :
    k5_pay1 (F := Ideal) x0 x1 (ix2 p q) = Cert.Spec.mm (F := Ideal) A Wt (ix2 n q) := by
  refine (k5_pay1_apply x0 x1 p q).trans ?_
  refine Eq.trans ?_ (mm5_apply A Wt n q).symm
  unfold rowDot
  exact Finset.sum_congr rfl fun k _ => by rw [h0 k, h1 k]

/-- The printed block index maps, decided over the twenty grid points: the block of node features and the
    output block both sit at block row t, column block 0; the weight matrix is its one block. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

section
variable (V : (c : Dev nD) → (b : Ref sig .tc) → Buf (Elt Ideal) ((c : Thread nD τ).loc b))

/-- The grid has twenty points. -/
theorem lt_N5 (t : Fin cfg5.N) : t.val < 20 := lt_of_lt_of_eq t.isLt N_5

/-- What point t writes back is block t of the projection of the two arrays as the region finds them: entry
    (p, q) of the block the body leaves is row p of the loaded block of node features, which is row
    5000·t + p of the array, against column q of the loaded weights, which are the whole weight matrix. -/
theorem flushed5_2_eq (c : Dev nD) (t : Fin cfg5.N) :
    (dat5 (F := Ideal) V c).flushed 2 t
      = ((cfg5.win 2).blk t).view.read (Elt Ideal) (Cert.Spec.mm (F := Ideal) (V c main_v84) (V c main_v86)) := by
  show (cfg5.win 2).cut (grid5.coords t) ((dat5 V c).after 2 t) = _
  rw [after5_2]
  unfold out5_2
  rw [View.canon_unit_zero hz5]
  simp only [View.ld_unit_zero (S := S5000x64) hz5, View.ld_unit_zero (S := S64x64) hz5]
  obtain ⟨e0, e1, e2, e3, e4, e5⟩ := idx_facts5 t
  have ht := lt_N5 t
  refine funext fun (j : S5000x64.Idx) => ?_
  obtain ⟨p, q, rfl⟩ : ∃ (p : Fin 5000) (q : Fin 64), j = ix2 p q := ⟨j 0, j 1, eq_ix2 j⟩
  have hp := p.isLt
  have hn : t.val * 5000 + p.val < 100000 := by omega
  show k5_pay1 (F := Ideal) (iblk5 V c 0 t) (iblk5 V c 1 t) (ix2 p q)
      = Cert.Spec.mm (F := Ideal) (V c main_v84) (V c main_v86) (((cfg5.win 2).blk t).view.emb (ix2 p q))
  have hemb : ((cfg5.win 2).blk t).view.emb (ix2 p q) = ix2 (⟨t.val * 5000 + p.val, hn⟩ : Fin 100000) q := by
    funext a; apply Fin.ext
    match a with
    | ⟨0, _⟩ => show win5_2.index t (0 : Fin 2) * 5000 + 1 * p.val = t.val * 5000 + p.val; omega
    | ⟨1, _⟩ => show win5_2.index t (1 : Fin 2) * 64 + 1 * q.val = q.val; omega
  refine Eq.trans ?_ (congrArg (Cert.Spec.mm (F := Ideal) (V c main_v84) (V c main_v86)) hemb).symm
  refine entry5_2 (V c main_v84) (V c main_v86) (iblk5 V c 0 t) (iblk5 V c 1 t) ⟨t.val * 5000 + p.val, hn⟩ p q (fun k => ?_) (fun k => ?_)
  · show V c main_v84 (((cfg5.win 0).blk t).view.emb (ix2 p k)) = V c main_v84 (ix2 (⟨t.val * 5000 + p.val, hn⟩ : Fin 100000) k)
    refine congrArg (V c main_v84) ?_
    funext a; apply Fin.ext
    match a with
    | ⟨0, _⟩ => show win5_0.index t (0 : Fin 2) * 5000 + 1 * p.val = t.val * 5000 + p.val; omega
    | ⟨1, _⟩ => show win5_0.index t (1 : Fin 2) * 64 + 1 * k.val = k.val; omega
  · show V c main_v86 (((cfg5.win 1).blk t).view.emb (ix2 k q)) = V c main_v86 (ix2 k q)
    refine congrArg (V c main_v86) ?_
    funext a; apply Fin.ext
    match a with
    | ⟨0, _⟩ => show win5_1.index t (0 : Fin 2) * 64 + 1 * k.val = k.val; omega
    | ⟨1, _⟩ => show win5_1.index t (1 : Fin 2) * 64 + 1 * q.val = q.val; omega

/-- An index of the output array is in point t's block iff each coordinate is in the block's range on its axis. -/
theorem mem_blk5_2 (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v87).slice (win5_2.rect t)).set ↔ _
  rw [View.set_slice_whole, Rect.mem_set_unit]
  exact Iff.rfl

/-- Every entry of the output array is written back: row r lies in the block of point r / 5000. -/
theorem covered5_2 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ : ∃ t : Fin cfg5.N, t.val = (i 0).val / 5000 :=
    ⟨⟨(i 0).val / 5000, lt_of_lt_of_eq (by omega : (i 0).val / 5000 < 20) N_5.symm⟩, rfl⟩
  obtain ⟨e0, e1, e2, e3, e4, e5⟩ := idx_facts5 t
  refine ⟨t, flush5_2 t, ?_⟩
  rw [mem_blk5_2]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The output array after the region: the projection of the node features by the weight matrix, both as the
    region finds them. Every point writes back its block of that one product, and the twenty blocks fill the array. -/
theorem out5_eq (c : Dev nD) :
    (dat5 (F := Ideal) V c).arrAt 2 cfg5.N = Cert.Spec.mm (F := Ideal) (V c main_v84) (V c main_v86) :=
  (dat5 (F := Ideal) V c).arrAt_eq_of_cover 2 (Cert.Spec.mm (F := Ideal) (V c main_v84) (V c main_v86))
    (fun t _ => flushed5_2_eq V c t) (fun i => covered5_2 i)

end

end Cert.KernelIdeal.Hand

end
-- ==== Proof.KernelIdeal.Val6.lean ====
/-
  The per-graph mean of 64-wide node rows, as the reduce region computes it. Over the grid's twenty points the
  region adds, into a carried [256, 64] accumulator that the first point zeroes, the product (contracted along the
  5000 rows of the point's block) of a one-hot matrix — entry (r, g) is 1 when row r's graph id is g, else 0 — with the
  block of rows; after the last point it writes the accumulator divided, row by row, by the graphs' counts. On the
  extended reals 1 · x = x and 0 · x = 0 for every x, so after point n the accumulator holds at (g, d) the sum of
  x (r, d) over the rows r < 5000 · (n + 1) whose id is g: by induction on the point. After the last point that is the
  sum over all rows of the segment, which is what a scatter of rows with addition into zeros gives; both sides then
  divide by the same count.
-/
import proofs.«422469_j24000277250640_1_alg».proof.Proof.KernelIdeal.Reg6
import proofs.«422469_j24000277250640_1_alg».proof.Proof.KernelIdeal.SegSum
import proofs.«422469_j24000277250640_1_alg».proof.Proof.Spec.SegMean
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)
open scoped BigOperators

/-! ## The three stored values, read at an index -/

/-- The reset stores zero everywhere. -/
theorem pay6_1_apply (j : S256x64.Idx) : k6_pay1 (F := Ideal) j = 0 := by
  unfold k6_pay1
  simp only [shapeCast_self]
  exact Ideal.ofBits_zero_f32

/-- The accumulation at (g, d): what was there plus the block's rows of segment g in column d. -/
theorem pay6_2_apply (v3 : Vec Ideal S5000x64 .f32) (v7 : Vec Ideal S5000x1 .i32) (v15 : Vec Ideal S256x64 .f32)
    (g : Fin 256) (d : Fin 64) :
    k6_pay2 v3 v7 v15 (ix2 g d)
      = v15 (ix2 g d) + ∑ k : Fin 5000, (if (v7 (ix2 k 0)).toInt = (g.val : ℤ) then v3 (ix2 k d) else 0) := by
  unfold k6_pay2
  simp only [shapeCast_self]
  refine (addf_apply _ _ _).trans ?_
  refine congrArg (v15 (ix2 g d) + ·) ?_
  refine (Cert.SegSum.matmul_zero_apply dot_S5000x256_S5000x64_S256x64_0_0_1_1_n_n rfl rfl rfl rfl rfl rfl none _ _ (ix2 g d)).trans ?_
  refine Finset.sum_congr rfl fun k _ => ?_
  have hb : broadcastTo S5000x256 v7 broadcasts_S5000x1_S5000x256 (ix2 k g) = v7 (ix2 k 0) :=
    broadcastTo_apply v7 _ (ix2 k g) (ix2 k 0) (fun a => by match a with | ⟨0, _⟩ => rfl | ⟨1, _⟩ => rfl)
  have hio : iota .tc S5000x256 32 [1] iota_S5000x256_d1_w32 (ix2 k g) = BitVec.ofNat 32 g.val :=
    iota_single_apply .tc S5000x256 32 1 _ (ix2 k g)
  show (((((IntOp.cmpi .eq (broadcastTo S5000x256 v7 broadcasts_S5000x1_S5000x256 (ix2 k g))
      (iota .tc S5000x256 32 [1] iota_S5000x256_d1_w32 (ix2 k g))).setWidth 32).toInt : ℤ) : ℝ) : EReal) * v3 (ix2 k d) = _
  rw [hb, hio, Cert.SegSum.weight_mul]
  have hw := Cert.SegSum.eq_ofNat_iff_toInt (v7 (ix2 k 0)) g.val (by have := g.isLt; omega)
  by_cases h : v7 (ix2 k 0) = BitVec.ofNat 32 g.val
  · rw [if_pos h, if_pos (hw.mp h)]
  · rw [if_neg h, if_neg (fun h' => h (hw.mpr h'))]

/-- The write-back at (g, d): the accumulated sum over the segment's count. -/
theorem pay6_3_apply (v23 : Vec Ideal S256x64 .f32) (v24 : Vec Ideal S256x1 .f32) (g : Fin 256) (d : Fin 64) :
    k6_pay3 v23 v24 (ix2 g d) = Ideal.div (v23 (ix2 g d)) (v24 (ix2 g 0)) := by
  unfold k6_pay3
  simp only [shapeCast_self]
  refine (divf_apply _ _ _).trans ?_
  refine congrArg (Ideal.div (v23 (ix2 g d))) ?_
  exact broadcastTo_apply v24 broadcasts_S256x1_S256x64 (ix2 g d) (ix2 g 0)
    (fun a => by match a with | ⟨0, _⟩ => rfl | ⟨1, _⟩ => rfl)

/-! ## One point's accumulation, over rows of the whole arrays -/

/-- If the block is rows 5000·n … 5000·n + 4999 of the whole arrays and the scratch holds the sum over the first
    5000·n rows, the accumulation leaves the sum over the first 5000·(n + 1) rows. -/
theorem step6 (X : Vec Ideal S100000x64 .f32) (B : Vec Ideal S100000x1 .i32) (xb : Vec Ideal S5000x64 .f32)
    (bb : Vec Ideal S5000x1 .i32) (acc : Vec Ideal S256x64 .f32) (n : ℕ) (hn : 5000 * n + 5000 ≤ 100000)
    (hx : ∀ (k : Fin 5000) (d : Fin 64), xb (ix2 k d) = X (ix2 ⟨5000 * n + k.val, by have := k.isLt; omega⟩ d))
    (hb : ∀ k : Fin 5000, bb (ix2 k 0) = B (ix2 ⟨5000 * n + k.val, by have := k.isLt; omega⟩ 0))
    (g : Fin 256) (d : Fin 64)
    (hacc : acc (ix2 g d) = ∑ r ∈ Finset.range (5000 * n), Cert.SegSum.rowTerm X B g.val d r) :
    k6_pay2 xb bb acc (ix2 g d) = ∑ r ∈ Finset.range (5000 * (n + 1)), Cert.SegSum.rowTerm X B g.val d r := by
  rw [pay6_2_apply xb bb acc g d, hacc, Cert.SegSum.sum_range_tile X B g.val d 5000 n]
  refine congrArg (_ + ·) (Finset.sum_congr rfl fun k _ => ?_)
  rw [Cert.SegSum.rowTerm_of_lt X B g.val d (5000 * n + k.val) (by have := k.isLt; omega), hb k, hx k d]

/-! ## The last point: the write-back is the per-graph mean -/

/-- If the block is the last 5000 rows, the scratch holds the sum over the rows before them and the counts' block is
    the counts, what the last point writes back is the per-graph mean of the whole array. -/
theorem last6 [hR : Cert.ReferenceIdeal.Facts] (X : Vec Ideal S100000x64 .f32) (B : Vec Ideal S100000x1 .i32)
    (Nn : Vec Ideal S256x1 .f32) (xb : Vec Ideal S5000x64 .f32) (bb : Vec Ideal S5000x1 .i32) (nb : Vec Ideal S256x1 .f32)
    (acc : Vec Ideal S256x64 .f32)
    (hx : ∀ (k : Fin 5000) (d : Fin 64), xb (ix2 k d) = X (ix2 ⟨5000 * 19 + k.val, by have := k.isLt; omega⟩ d))
    (hb : ∀ k : Fin 5000, bb (ix2 k 0) = B (ix2 ⟨5000 * 19 + k.val, by have := k.isLt; omega⟩ 0))
    (hn : ∀ g : Fin 256, nb (ix2 g 0) = Nn (ix2 g 0))
    (hacc : ∀ (g : Fin 256) (d : Fin 64), acc (ix2 g d) = ∑ r ∈ Finset.range (5000 * 19), Cert.SegSum.rowTerm X B g.val d r) :
    k6_pay3 (k6_pay2 xb bb acc) nb = Cert.Spec.segMean64 X B Nn := by
  funext j
  obtain ⟨g, d, rfl⟩ : ∃ (g : Fin 256) (d : Fin 64), j = ix2 g d := ⟨j 0, j 1, eq_ix2 j⟩
  rw [pay6_3_apply (k6_pay2 xb bb acc) nb g d, step6 X B xb bb acc 19 (by omega) hx hb g d (hacc g d), hn g,
    Cert.Spec.segMean64_apply X B Nn g d, ← Cert.SegSum.sum_range_rowTerm X B g.val d]

/-! ## What each case's stores leave, as the stored values -/

theorem hz6 : (![0, 0] : Fin 2 → Nat) = fun _ => 0 := funext fun a => by fin_cases a <;> rfl

/-- First point: the scratch is zeroed, read back, and accumulated into. -/
theorem sout6_A_eq (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond6_0 i) (hcl : ¬cond6_1 i)
    (xd : Vec Ideal S5000x64 .f32) (xb : Vec Ideal S5000x1 .i32) (xn : Vec Ideal S256x1 .f32) :
    sout6_A_0 c i arg1 harg1 arg2 harg2 arg3 harg3 arg4 harg4 arg5 harg5 hcz hcl xd xb xn = k6_pay2 xd xb (k6_pay1 (F := Ideal)) := by
  unfold sout6_A_0
  rw [View.read_writes_eq_canon _ _ _ (scover6_A_0 c i arg1 harg1 arg2 harg2 arg3 harg3 arg4 harg4 arg5 harg5 hcz hcl xd xb xn)]
  unfold kernelRun6_A
  dsimp only
  sl_unfold_words
  rw [View.canon_cons_unit_zero (S := S256x64) hz6, View.readCov_unit_zero (S := S256x64) _ hz6]
  simp only [View.readAt_eq_ld, harg1.read_unread, harg2.read_unread, View.ld_unit_zero (S := S5000x64) hz6,
    View.ld_unit_zero (S := S5000x1) hz6]

/-- A middle point: the scratch is accumulated into. -/
theorem sout6_B_eq (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : ¬cond6_1 i)
    (xd : Vec Ideal S5000x64 .f32) (xb : Vec Ideal S5000x1 .i32) (xn : Vec Ideal S256x1 .f32) (xs : Vec Ideal S256x64 .f32) :
    sout6_B_0 c i arg1 harg1 arg2 harg2 arg3 harg3 arg4 harg4 arg5 harg5 hcz hcl xd xb xn xs = k6_pay2 xd xb xs := by
  unfold sout6_B_0
  rw [View.read_writes_eq_canon _ _ _ (scover6_B_0 c i arg1 harg1 arg2 harg2 arg3 harg3 arg4 harg4 arg5 harg5 hcz hcl xd xb xn xs)]
  unfold kernelRun6_B
  dsimp only
  sl_unfold_words
  rw [View.canon_unit_zero hz6]
  simp only [View.readAt_eq_ld, harg1.read_unread, harg2.read_unread, harg5.read_unread, View.ld_unit_zero (S := S5000x64) hz6,
    View.ld_unit_zero (S := S5000x1) hz6, View.ld_unit_zero (S := S256x64) hz6]

/-- The last point: the scratch is accumulated into, -/
theorem sout6_C_eq (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : cond6_1 i)
    (xd : Vec Ideal S5000x64 .f32) (xb : Vec Ideal S5000x1 .i32) (xn : Vec Ideal S256x1 .f32) (xs : Vec Ideal S256x64 .f32) :
    sout6_C_0 c i arg1 harg1 arg2 harg2 arg3 harg3 arg4 harg4 arg5 harg5 hcz hcl xd xb xn xs = k6_pay2 xd xb xs := by
  unfold sout6_C_0
  rw [View.read_writes_eq_canon _ _ _ (scover6_C_0 c i arg1 harg1 arg2 harg2 arg3 harg3 arg4 harg4 arg5 harg5 hcz hcl xd xb xn xs)]
  unfold kernelRun6_C
  dsimp only
  sl_unfold_words
  rw [View.canon_unit_zero hz6]
  simp only [View.readAt_eq_ld, harg1.read_unread, harg2.read_unread, harg5.read_unread, View.ld_unit_zero (S := S5000x64) hz6,
    View.ld_unit_zero (S := S5000x1) hz6, View.ld_unit_zero (S := S256x64) hz6]

/-- and its quotient by the counts is stored into the output's block. -/
theorem out6_C_eq (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond6_0 i) (hcl : cond6_1 i)
    (xd : Vec Ideal S5000x64 .f32) (xb : Vec Ideal S5000x1 .i32) (xn : Vec Ideal S256x1 .f32) (xs : Vec Ideal S256x64 .f32) :
    out6_C_3 c i arg1 harg1 arg2 harg2 arg3 harg3 arg4 harg4 arg5 harg5 hcz hcl xd xb xn xs = k6_pay3 (k6_pay2 xd xb xs) xn := by
  unfold out6_C_3
  rw [View.read_writes_eq_canon _ _ _ (cover6_C_3 c i arg1 harg1 arg2 harg2 arg3 harg3 arg4 harg4 arg5 harg5 hcz hcl xd xb xn xs)]
  unfold kernelRun6_C
  dsimp only
  sl_unfold_words
  rw [View.canon_unit_zero hz6]
  simp only [View.readAt_eq_ld, harg1.read_unread, harg2.read_unread, harg3.read_unread, harg5.read_unread,
    View.readCov_unit_zero (S := S256x64) _ hz6, View.ld_unit_zero (S := S5000x64) hz6,
    View.ld_unit_zero (S := S5000x1) hz6, View.ld_unit_zero (S := S256x64) hz6, View.ld_unit_zero (S := S256x1) hz6]

/-! ## The blocks are rows of the whole arrays -/

section
variable (V : (c : Dev nD) → (b : Ref sig .tc) → Buf (Elt Ideal) ((c : Thread nD τ).loc b))

/-- The three whole arrays the region reads, and each window's block at a point, by their literal types. -/
abbrev xarr6 (c : Dev nD) : Vec Ideal S100000x64 .f32 := V c main_v105
abbrev barr6 (c : Dev nD) : Vec Ideal S100000x1 .i32 := V c main_v36
abbrev narr6 (c : Dev nD) : Vec Ideal S256x1 .f32 := V c main_v35
abbrev xblk6 (c : Dev nD) (t : Fin cfg6.N) : Vec Ideal S5000x64 .f32 := iblk6 V c 0 t
abbrev bblk6 (c : Dev nD) (t : Fin cfg6.N) : Vec Ideal S5000x1 .i32 := iblk6 V c 1 t
abbrev nblk6 (c : Dev nD) (t : Fin cfg6.N) : Vec Ideal S256x1 .f32 := iblk6 V c 2 t

/-- Where the windows' blocks sit at point t: the two row windows at block t, the counts at block 0. -/
theorem idx6_0 : ∀ t : Fin cfg6.N, win6_0.index t 0 = t.val ∧ win6_0.index t 1 = 0 :=
  (by decide +kernel : ∀ t : Fin grid6.N, win6_0.index t 0 = t.val ∧ win6_0.index t 1 = 0)
theorem idx6_1 : ∀ t : Fin cfg6.N, win6_1.index t 0 = t.val ∧ win6_1.index t 1 = 0 :=
  (by decide +kernel : ∀ t : Fin grid6.N, win6_1.index t 0 = t.val ∧ win6_1.index t 1 = 0)
theorem idx6_2 : ∀ t : Fin cfg6.N, win6_2.index t 0 = 0 ∧ win6_2.index t 1 = 0 :=
  (by decide +kernel : ∀ t : Fin grid6.N, win6_2.index t 0 = 0 ∧ win6_2.index t 1 = 0)

theorem lt6 (t : Fin cfg6.N) (k : Fin 5000) : 5000 * t.val + k.val < 100000 := by
  have hN : cfg6.N = 20 := N_6
  have := t.isLt; have := k.isLt; omega

theorem xblk6_apply (c : Dev nD) (t : Fin cfg6.N) (k : Fin 5000) (d : Fin 64) :
    xblk6 V c t (ix2 k d) = xarr6 V c (ix2 ⟨5000 * t.val + k.val, lt6 t k⟩ d) := by
  have hi := idx6_0 t
  show iblk6 V c 0 t (ix2 k d) = V c main_v105 _
  unfold iblk6
  rw [View.read_apply]
  show V c main_v105 _ = V c main_v105 _
  congr 1
  funext a
  apply Fin.ext
  match a with
  | ⟨0, _⟩ => show win6_0.index t 0 * 5000 + 1 * k.val = 5000 * t.val + k.val; rw [hi.1]; omega
  | ⟨1, _⟩ => show win6_0.index t 1 * 64 + 1 * d.val = d.val; rw [hi.2]; omega

theorem bblk6_apply (c : Dev nD) (t : Fin cfg6.N) (k : Fin 5000) :
    bblk6 V c t (ix2 k 0) = barr6 V c (ix2 ⟨5000 * t.val + k.val, lt6 t k⟩ 0) := by
  have hi := idx6_1 t
  show iblk6 V c 1 t (ix2 k 0) = V c main_v36 _
  unfold iblk6
  rw [View.read_apply]
  show V c main_v36 _ = V c main_v36 _
  congr 1
  funext a
  apply Fin.ext
  match a with
  | ⟨0, _⟩ => show win6_1.index t 0 * 5000 + 1 * k.val = 5000 * t.val + k.val; rw [hi.1]; omega
  | ⟨1, _⟩ => show win6_1.index t 1 * 1 + 1 * 0 = 0; rw [hi.2]

theorem nblk6_apply (c : Dev nD) (t : Fin cfg6.N) (g : Fin 256) :
    nblk6 V c t (ix2 g 0) = narr6 V c (ix2 g 0) := by
  have hi := idx6_2 t
  show iblk6 V c 2 t (ix2 g 0) = V c main_v35 _
  unfold iblk6
  rw [View.read_apply]
  show V c main_v35 _ = V c main_v35 _
  congr 1
  funext a
  apply Fin.ext
  match a with
  | ⟨0, _⟩ => show win6_2.index t 0 * 256 + 1 * g.val = g.val; rw [hi.1]; omega
  | ⟨1, _⟩ => show win6_2.index t 1 * 1 + 1 * 0 = 0; rw [hi.2]

variable [hR : Cert.ReferenceIdeal.Facts]

/-! ## The scratch after each point, and the array after the last -/

/-- After point n the scratch holds, at (g, d), the sum over the first 5000·(n + 1) rows of segment g in column d. -/
theorem scratch6_apply (c : Dev nD) (g : Fin 256) (d : Fin 64) : ∀ (n : ℕ) (h : n < cfg6.N),
    (outsAt6 V c n h).2 (ix2 g d)
      = ∑ r ∈ Finset.range (5000 * (n + 1)), Cert.SegSum.rowTerm (xarr6 V c) (barr6 V c) g.val d r
  | 0, h => by
    have hN : cfg6.N = 20 := N_6
    rw [outsAt6_A V c ⟨0, h⟩ rfl (by dsimp only; omega)]
    dsimp only
    refine (congrFun (sout6_A_eq c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) scM6_0 (Memref.isWhole_whole _) _ _ (xblk6 V c ⟨0, h⟩) (bblk6 V c ⟨0, h⟩) (nblk6 V c ⟨0, h⟩)) (ix2 g d)).trans ?_
    exact step6 (xarr6 V c) (barr6 V c) (xblk6 V c ⟨0, h⟩) (bblk6 V c ⟨0, h⟩) (k6_pay1 (F := Ideal)) 0 (by omega)
      (fun k d => xblk6_apply V c ⟨0, h⟩ k d) (fun k => bblk6_apply V c ⟨0, h⟩ k) g d
      (by rw [pay6_1_apply, Cert.SegSum.sum_range_zero])
  | n + 1, h => by
    have hN : cfg6.N = 20 := N_6
    have ih := scratch6_apply c g d n (Nat.lt_of_succ_lt h)
    have h0 : ¬(⟨n + 1, h⟩ : Fin cfg6.N).val % 20 = 0 := by dsimp only; omega
    by_cases h1 : (⟨n + 1, h⟩ : Fin cfg6.N).val % 20 = 19
    · rw [outsAt6_C V c ⟨n + 1, h⟩ h0 h1]
      dsimp only
      refine (congrFun (sout6_C_eq c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) scM6_0 (Memref.isWhole_whole _) _ _ (xblk6 V c ⟨n + 1, h⟩) (bblk6 V c ⟨n + 1, h⟩) (nblk6 V c ⟨n + 1, h⟩)
        (outsAt6 V c n (Nat.lt_of_succ_lt h)).2) (ix2 g d)).trans ?_
      exact step6 (xarr6 V c) (barr6 V c) (xblk6 V c ⟨n + 1, h⟩) (bblk6 V c ⟨n + 1, h⟩) (outsAt6 V c n (Nat.lt_of_succ_lt h)).2 (n + 1)
        (by omega) (fun k d => xblk6_apply V c ⟨n + 1, h⟩ k d) (fun k => bblk6_apply V c ⟨n + 1, h⟩ k) g d ih
    · rw [outsAt6_B V c ⟨n + 1, h⟩ h0 h1]
      dsimp only
      refine (congrFun (sout6_B_eq c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) scM6_0 (Memref.isWhole_whole _) _ _ (xblk6 V c ⟨n + 1, h⟩) (bblk6 V c ⟨n + 1, h⟩) (nblk6 V c ⟨n + 1, h⟩)
        (outsAt6 V c n (Nat.lt_of_succ_lt h)).2) (ix2 g d)).trans ?_
      exact step6 (xarr6 V c) (barr6 V c) (xblk6 V c ⟨n + 1, h⟩) (bblk6 V c ⟨n + 1, h⟩) (outsAt6 V c n (Nat.lt_of_succ_lt h)).2 (n + 1)
        (by omega) (fun k d => xblk6_apply V c ⟨n + 1, h⟩ k d) (fun k => bblk6_apply V c ⟨n + 1, h⟩ k) g d ih

/-- The last point of the grid. -/
abbrev t6_last : Fin cfg6.N := ⟨19, by decide⟩

/-- What the last point leaves in the output's block: the per-graph mean. -/
theorem out6_last (c : Dev nD) :
    (outsAt6 V c t6_last.val t6_last.isLt).1 = Cert.Spec.segMean64 (F := Ideal) (xarr6 V c) (barr6 V c) (narr6 V c) := by
  rw [outsAt6_C V c t6_last (by decide) rfl]
  dsimp only
  refine (out6_C_eq c (grid6.coords t6_last) (ms6_0 t6_last) (hs6_0 t6_last) (ms6_1 t6_last) (hs6_1 t6_last) (ms6_2 t6_last) (hs6_2 t6_last) (ms6_3 t6_last) (hs6_3 t6_last) scM6_0 (Memref.isWhole_whole _) _ _ (xblk6 V c t6_last) (bblk6 V c t6_last) (nblk6 V c t6_last)
    (outsAt6 V c 18 (by decide)).2).trans ?_
  exact last6 (xarr6 V c) (barr6 V c) (narr6 V c) (xblk6 V c t6_last) (bblk6 V c t6_last) (nblk6 V c t6_last)
    (outsAt6 V c 18 (by decide)).2 (fun k d => xblk6_apply V c t6_last k d) (fun k => bblk6_apply V c t6_last k)
    (fun g => nblk6_apply V c t6_last g) (fun g d => scratch6_apply V c g d 18 (by decide))

/-- The per-graph mean, as contents of the region's result array. -/
abbrev result6 (c : Dev nD) : Buf (Elt Ideal) ((c : Thread nD τ).loc main_v106) :=
  Cert.Spec.segMean64 (F := Ideal) (V c main_v105) (V c main_v36) (V c main_v35)

theorem idx6_3 : ∀ t : Fin cfg6.N, win6_3.index t 0 = 0 ∧ win6_3.index t 1 = 0 :=
  (by decide +kernel : ∀ t : Fin grid6.N, win6_3.index t 0 = 0 ∧ win6_3.index t 1 = 0)

/-- The one write-back, at the last point, writes it: the output's one block is the whole array. -/
theorem flushed6_eq (c : Dev nD) (t : Fin cfg6.N) (hf : (cfg6.win 3).flush t = true) :
    (dat6 V c).flushed 3 t = ((cfg6.win 3).blk t).view.read (Elt Ideal) (result6 V c) := by
  have hN : cfg6.N = 20 := N_6
  have h19 : t.val = 19 := by have := (flush6_3 t).mp hf; have := t.isLt; omega
  obtain rfl : t = t6_last := Fin.ext h19
  show (cfg6.win 3).cut (grid6.coords t6_last) ((dat6 V c).after 3 t6_last) = _
  rw [after6_3, out6_last]
  have hz' : (fun a => win6_3.index t6_last a * main_v106.ty.shape.size a) = fun _ => 0 :=
    funext fun a => by fin_cases a <;> decide +kernel
  exact (Memref.read_access_unit_zero (Elt Ideal) main_v106 hz' (fun a => by rw [congrFun hz' a]; simp) (result6 V c)).symm

/-- So the region's result array ends holding the per-graph mean of the rows it was given. -/
theorem out6_eq (c : Dev nD) :
    (dat6 V c).arrAt 3 cfg6.N = Cert.Spec.segMean64 (F := Ideal) (V c main_v105) (V c main_v36) (V c main_v35) :=
  (dat6 V c).arrAt_eq_of_cover 3 (result6 V c) (flushed6_eq V c) fun i =>
    ⟨t6_last, (flush6_3 t6_last).mpr rfl, by
      show i ∈ ((View.whole main_v106).slice (win6_3.rect t6_last)).set
      rw [View.set_slice_whole, Rect.mem_set_unit]
      intro a
      have h0 : (i 0 : Nat) < 256 := (i 0).isLt
      have h1 : (i 1 : Nat) < 64 := (i 1).isLt
      match a with
      | ⟨0, _⟩ =>
        show win6_3.index t6_last 0 * win6_3.size 0 ≤ (i 0 : Nat) ∧ (i 0 : Nat) < win6_3.index t6_last 0 * win6_3.size 0 + win6_3.xsize (grid6.coords t6_last) 0
        rw [show win6_3.index t6_last 0 * win6_3.size 0 = 0 from by decide +kernel, show win6_3.xsize (grid6.coords t6_last) 0 = 256 from by decide +kernel]; omega
      | ⟨1, _⟩ =>
        show win6_3.index t6_last 1 * win6_3.size 1 ≤ (i 1 : Nat) ∧ (i 1 : Nat) < win6_3.index t6_last 1 * win6_3.size 1 + win6_3.xsize (grid6.coords t6_last) 1
        rw [show win6_3.index t6_last 1 * win6_3.size 1 = 0 from by decide +kernel, show win6_3.xsize (grid6.coords t6_last) 1 = 64 from by decide +kernel]; omega⟩

end

end Cert.KernelIdeal.Hand

end
-- ==== Proof.KernelIdeal.Val7.lean ====
/-
  The centring stage, read as whole arrays. The stage walks the 100000 node rows in 20 tiles of 5000 rows; on each
  tile it forms, entry by entry, x (n, j) − α j · μ (n, j) and the square of that difference, and writes the two
  tiles back at the rows they came from. Since an entry of the result depends only on the same entry of x and μ and
  on α at the same feature j, and the 20 tiles cover every row exactly once, the two arrays the stage leaves are the
  centred rows and their squares of the whole input arrays, whatever the order of the tiles.
-/
import proofs.«422469_j24000277250640_1_alg».proof.Proof.KernelIdeal.Reg7
import proofs.«422469_j24000277250640_1_alg».proof.Proof.Gen.ReferenceIdeal
import proofs.«422469_j24000277250640_1_alg».proof.Proof.Spec.Ops
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable {F : FTy → Type} [FloatOps F]

/-! ## One entry of a tile -/

/-- The two zero offsets of a whole-tile access, as a constant function. -/
theorem hz7 : (![0, 0] : Fin 2 → Nat) = fun _ => 0 := funext fun a => by fin_cases a <;> rfl

/-- Entry (p, q) of the difference tile: x (p, q) − α (0, q) · μ (p, q); the row of α is repeated down the tile. -/
theorem k7_pay1_apply (x mu : Vec F S5000x64 .f32) (al : Vec F S1x64 .f32) (p : Fin 5000) (q : Fin 64) :
    k7_pay1 x al mu (ix2 p q) = FloatOps.subf (x (ix2 p q)) (FloatOps.mulf (al (ix2 (0 : Fin 1) q)) (mu (ix2 p q))) := by
  unfold k7_pay1
  rw [shapeCast_self, shapeCast_self, shapeCast_self]
  show FloatOps.subf (x (ix2 p q)) (FloatOps.mulf (broadcastTo S5000x64 al broadcasts_S1x64_S5000x64 (ix2 p q)) (mu (ix2 p q))) = _
  rw [broadcastTo_apply al broadcasts_S1x64_S5000x64 (ix2 p q) (ix2 (0 : Fin 1) q) (fun a => by
    match a with
    | ⟨0, _⟩ => rfl
    | ⟨1, _⟩ => rfl)]

/-- Entry (p, q) of the square tile is the product of the difference's entry with itself. -/
theorem k7_pay2_apply (x mu : Vec F S5000x64 .f32) (al : Vec F S1x64 .f32) (p : Fin 5000) (q : Fin 64) :
    k7_pay2 x al mu (ix2 p q) = FloatOps.mulf (k7_pay1 x al mu (ix2 p q)) (k7_pay1 x al mu (ix2 p q)) := rfl

/-! ## One entry of the whole-array functions -/

/-- Entry (n, q) of the centred array: x (n, q) − α (0, q) · μ (n, q). -/
theorem centered_apply7 (X M : FVec F Cert.ReferenceIdeal.S100000x64 .f32) (A : FVec F Cert.ReferenceIdeal.S1x64 .f32)
    (n : Fin 100000) (q : Fin 64) :
    Cert.Spec.centered X M A (ix2 n q) = FloatOps.subf (X (ix2 n q)) (FloatOps.mulf (A (ix2 (0 : Fin 1) q)) (M (ix2 n q))) := by
  unfold Cert.Spec.centered
  show FloatOps.subf (X (ix2 n q)) (FloatOps.mulf (broadcastInDim Cert.ReferenceIdeal.S100000x64 ![0, 1] Cert.ReferenceIdeal.Facts₀.bcast_S1x64_S100000x64_0_1 A (ix2 n q)) (M (ix2 n q))) = _
  rw [broadcastInDim_apply ![0, 1] Cert.ReferenceIdeal.Facts₀.bcast_S1x64_S100000x64_0_1 A (ix2 n q) (ix2 (0 : Fin 1) q) (fun a => by
    match a with
    | ⟨0, _⟩ => rfl
    | ⟨1, _⟩ => rfl)]

/-- Entry (n, q) of the squared array is the centred entry times itself. -/
theorem centeredSq_apply7 (X M : FVec F Cert.ReferenceIdeal.S100000x64 .f32) (A : FVec F Cert.ReferenceIdeal.S1x64 .f32)
    (n : Fin 100000) (q : Fin 64) :
    Cert.Spec.centeredSq X M A (ix2 n q) = FloatOps.mulf (Cert.Spec.centered X M A (ix2 n q)) (Cert.Spec.centered X M A (ix2 n q)) := rfl

/-! ## Where a tile sits -/

/-- At tile t the four row-tiled arrays are all at row block t and column block 0, and α at block (0, 0). -/
theorem idx_facts7 : ∀ t : Fin cfg7.N,
      win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- Every one of the 20 row blocks of either result is some tile's. -/
theorem idx_onto7 : ∀ (q0 : Fin 20), ∃ t : Fin cfg7.N, win7_3.index t = ![q0.val, 0] ∧ win7_4.index t = ![q0.val, 0] :=
  (by decide +kernel : ∀ (q0 : Fin 20), ∃ t : Fin grid7.N, win7_3.index t = ![q0.val, 0] ∧ win7_4.index t = ![q0.val, 0])

/-- Row p of tile t is row 5000 t + p of the array, below 100000. -/
theorem row_lt7 (t : Fin cfg7.N) (p : Fin 5000) : t.val * 5000 + p.val < 100000 := by
  have ht : t.val < 20 := lt_of_lt_of_eq t.isLt N_7
  omega

/-- Entry (p, q) of tile t of x is entry (5000 t + p, q) of x. -/
theorem emb7_0 (t : Fin cfg7.N) (p : Fin 5000) (q : Fin 64) :
    ((cfg7.win 0).blk t).view.emb (ix2 p q) = ix2 (⟨t.val * 5000 + p.val, row_lt7 t p⟩ : Fin 100000) q := by
  obtain ⟨e00, e01, e10, e11, e20, e21, e30, e31, e40, e41⟩ := idx_facts7 t
  funext a; apply Fin.ext
  match a with
  | ⟨0, _⟩ => show win7_0.index t (0 : Fin 2) * 5000 + 1 * p.val = t.val * 5000 + p.val; omega
  | ⟨1, _⟩ => show win7_0.index t (1 : Fin 2) * 64 + 1 * q.val = q.val; omega

/-- The same for μ. -/
theorem emb7_1 (t : Fin cfg7.N) (p : Fin 5000) (q : Fin 64) :
    ((cfg7.win 1).blk t).view.emb (ix2 p q) = ix2 (⟨t.val * 5000 + p.val, row_lt7 t p⟩ : Fin 100000) q := by
  obtain ⟨e00, e01, e10, e11, e20, e21, e30, e31, e40, e41⟩ := idx_facts7 t
  funext a; apply Fin.ext
  match a with
  | ⟨0, _⟩ => show win7_1.index t (0 : Fin 2) * 5000 + 1 * p.val = t.val * 5000 + p.val; omega
  | ⟨1, _⟩ => show win7_1.index t (1 : Fin 2) * 64 + 1 * q.val = q.val; omega

/-- Every tile sees the whole row α: entry (0, q) of its block is entry (0, q) of α. -/
theorem emb7_2 (t : Fin cfg7.N) (q : Fin 64) :
    ((cfg7.win 2).blk t).view.emb (ix2 (0 : Fin 1) q) = ix2 (0 : Fin 1) q := by
  obtain ⟨e00, e01, e10, e11, e20, e21, e30, e31, e40, e41⟩ := idx_facts7 t
  funext a; apply Fin.ext
  match a with
  | ⟨0, _⟩ => show win7_2.index t (0 : Fin 2) * 1 + 1 * 0 = 0; omega
  | ⟨1, _⟩ => show win7_2.index t (1 : Fin 2) * 64 + 1 * q.val = q.val; omega

/-- Entry (p, q) of tile t of the centred result is entry (5000 t + p, q) of that array. -/
theorem emb7_3 (t : Fin cfg7.N) (p : Fin 5000) (q : Fin 64) :
    ((cfg7.win 3).blk t).view.emb (ix2 p q) = ix2 (⟨t.val * 5000 + p.val, row_lt7 t p⟩ : Fin 100000) q := by
  obtain ⟨e00, e01, e10, e11, e20, e21, e30, e31, e40, e41⟩ := idx_facts7 t
  funext a; apply Fin.ext
  match a with
  | ⟨0, _⟩ => show win7_3.index t (0 : Fin 2) * 5000 + 1 * p.val = t.val * 5000 + p.val; omega
  | ⟨1, _⟩ => show win7_3.index t (1 : Fin 2) * 64 + 1 * q.val = q.val; omega

/-- The same for the squared result. -/
theorem emb7_4 (t : Fin cfg7.N) (p : Fin 5000) (q : Fin 64) :
    ((cfg7.win 4).blk t).view.emb (ix2 p q) = ix2 (⟨t.val * 5000 + p.val, row_lt7 t p⟩ : Fin 100000) q := by
  obtain ⟨e00, e01, e10, e11, e20, e21, e30, e31, e40, e41⟩ := idx_facts7 t
  funext a; apply Fin.ext
  match a with
  | ⟨0, _⟩ => show win7_4.index t (0 : Fin 2) * 5000 + 1 * p.val = t.val * 5000 + p.val; omega
  | ⟨1, _⟩ => show win7_4.index t (1 : Fin 2) * 64 + 1 * q.val = q.val; omega

section
variable (V : (c : Dev nD) → (b : Ref sig .tc) → Buf (Elt F) ((c : Thread nD τ).loc b))

/-! ## A tile of the result is a tile of the whole-array function -/

/-- The difference computed on tile t, at (p, q), is the centred array of the whole inputs at (5000 t + p, q). -/
theorem pay1_blk7 (c : Dev nD) (t : Fin cfg7.N) (p : Fin 5000) (q : Fin 64) :
    k7_pay1 (iblk7 V c 0 t) (iblk7 V c 2 t) (iblk7 V c 1 t) (ix2 p q)
      = Cert.Spec.centered (V c main_v105) (V c main_v113) (V c main_v116) (ix2 (⟨t.val * 5000 + p.val, row_lt7 t p⟩ : Fin 100000) q) := by
  refine (k7_pay1_apply (iblk7 V c 0 t) (iblk7 V c 1 t) (iblk7 V c 2 t) p q).trans ?_
  refine Eq.trans ?_ (centered_apply7 (V c main_v105) (V c main_v113) (V c main_v116) ⟨t.val * 5000 + p.val, row_lt7 t p⟩ q).symm
  show FloatOps.subf (V c main_v105 (((cfg7.win 0).blk t).view.emb (ix2 p q)))
      (FloatOps.mulf (V c main_v116 (((cfg7.win 2).blk t).view.emb (ix2 (0 : Fin 1) q))) (V c main_v113 (((cfg7.win 1).blk t).view.emb (ix2 p q)))) = _
  rw [emb7_0, emb7_1, emb7_2]

/-- The square computed on tile t, at (p, q), is the squared array of the whole inputs at (5000 t + p, q). -/
theorem pay2_blk7 (c : Dev nD) (t : Fin cfg7.N) (p : Fin 5000) (q : Fin 64) :
    k7_pay2 (iblk7 V c 0 t) (iblk7 V c 2 t) (iblk7 V c 1 t) (ix2 p q)
      = Cert.Spec.centeredSq (V c main_v105) (V c main_v113) (V c main_v116) (ix2 (⟨t.val * 5000 + p.val, row_lt7 t p⟩ : Fin 100000) q) := by
  refine (k7_pay2_apply (iblk7 V c 0 t) (iblk7 V c 1 t) (iblk7 V c 2 t) p q).trans ?_
  refine Eq.trans ?_ (centeredSq_apply7 (V c main_v105) (V c main_v113) (V c main_v116) ⟨t.val * 5000 + p.val, row_lt7 t p⟩ q).symm
  rw [pay1_blk7 V c t p q]

/-- What tile t writes back to the centred result is tile t of the centred array of the whole inputs. -/
theorem blk7_3 (c : Dev nD) (t : Fin cfg7.N) :
    (cfg7.win 3).cut (grid7.coords t) (out7_3 (iblk7 V c 0 t) (iblk7 V c 1 t) (iblk7 V c 2 t))
      = ((cfg7.win 3).blk t).view.read (Elt F) (Cert.Spec.centered (V c main_v105) (V c main_v113) (V c main_v116)) := by
  unfold out7_3
  rw [View.canon_unit_zero hz7]
  simp only [View.ld_unit_zero (S := S5000x64) hz7, View.ld_unit_zero (S := S1x64) hz7]
  funext j
  obtain ⟨p, q, rfl⟩ : ∃ (p : Fin 5000) (q : Fin 64), j = ix2 p q := ⟨j 0, j 1, eq_ix2 j⟩
  show _ = Cert.Spec.centered (V c main_v105) (V c main_v113) (V c main_v116) (((cfg7.win 3).blk t).view.emb (ix2 p q))
  rw [emb7_3]
  exact pay1_blk7 V c t p q

/-- What tile t writes back to the squared result is tile t of the squared array of the whole inputs. -/
theorem blk7_4 (c : Dev nD) (t : Fin cfg7.N) :
    (cfg7.win 4).cut (grid7.coords t) (out7_4 (iblk7 V c 0 t) (iblk7 V c 1 t) (iblk7 V c 2 t))
      = ((cfg7.win 4).blk t).view.read (Elt F) (Cert.Spec.centeredSq (V c main_v105) (V c main_v113) (V c main_v116)) := by
  unfold out7_4
  rw [View.canon_unit_zero hz7]
  simp only [View.ld_unit_zero (S := S5000x64) hz7, View.ld_unit_zero (S := S1x64) hz7]
  funext j
  obtain ⟨p, q, rfl⟩ : ∃ (p : Fin 5000) (q : Fin 64), j = ix2 p q := ⟨j 0, j 1, eq_ix2 j⟩
  show _ = Cert.Spec.centeredSq (V c main_v105) (V c main_v113) (V c main_v116) (((cfg7.win 4).blk t).view.emb (ix2 p q))
  rw [emb7_4]
  exact pay2_blk7 V c t p q

end

/-! ## The tiles cover every row -/

/-- An entry is in tile t of the centred result iff its row is in t's 5000 rows (and its column among the 64). -/
theorem mem_blk7_3 (t : Fin cfg7.N) (i : S100000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v117_0).slice (win7_3.rect t)).set ↔ _
  rw [View.set_slice_whole, Rect.mem_set_unit]
  exact Iff.rfl

/-- The same for the squared result. -/
theorem mem_blk7_4 (t : Fin cfg7.N) (i : S100000x64.Idx) :
    i ∈ ((cfg7.win 4).blk t).view.set ↔ ∀ a : Fin 2, win7_4.index t a * S5000x64.size a ≤ (i a).val ∧ (i a).val < win7_4.index t a * S5000x64.size a + S5000x64.size a := by
  show i ∈ ((View.whole main_v117_1).slice (win7_4.rect t)).set ↔ _
  rw [View.set_slice_whole, Rect.mem_set_unit]
  exact Iff.rfl

/-- Row n lies in tile n / 5000, which writes back: every entry of the centred result is written. -/
theorem rows7_3 (i : S100000x64.Idx) : ∃ t : Fin cfg7.N, (cfg7.win 3).flush t = true ∧ i ∈ ((cfg7.win 3).blk t).view.set := by
  have hi0 : (i 0).val < 100000 := (i 0).isLt
  have hi1 : (i 1).val < 64 := (i 1).isLt
  obtain ⟨t, ht, -⟩ := idx_onto7 ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk7_3]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 64 ≤ (i 1).val ∧ (i 1).val < win7_3.index t (1 : Fin 2) * 64 + 64; omega

/-- The same for the squared result. -/
theorem rows7_4 (i : S100000x64.Idx) : ∃ t : Fin cfg7.N, (cfg7.win 4).flush t = true ∧ i ∈ ((cfg7.win 4).blk t).view.set := by
  have hi0 : (i 0).val < 100000 := (i 0).isLt
  have hi1 : (i 1).val < 64 := (i 1).isLt
  obtain ⟨t, -, ht⟩ := idx_onto7 ⟨(i 0).val / 5000, by omega⟩
  have q0 : win7_4.index t (0 : Fin 2) = (i 0).val / 5000 := congrFun ht 0
  have q1 : win7_4.index t (1 : Fin 2) = 0 := congrFun ht 1
  refine ⟨t, flush7_4 t, ?_⟩
  rw [mem_blk7_4]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 64 ≤ (i 1).val ∧ (i 1).val < win7_4.index t (1 : Fin 2) * 64 + 64; omega

/-! ## The two arrays the stage leaves -/

section
variable (V : (c : Dev nD) → (b : Ref sig .tc) → Buf (Elt F) ((c : Thread nD τ).loc b))

/-- After the 20 tiles the first result holds x − α · μ of the whole arrays the stage found. -/
theorem out7_0_eq (c : Dev nD) :
    (dat7 V c).arrAt 3 cfg7.N = Cert.Spec.centered (V c main_v105) (V c main_v113) (V c main_v116) :=
  (dat7 V c).arrAt_eq_of_cover 3 _ (fun t _ => by
    show (cfg7.win 3).cut (grid7.coords t) ((dat7 V c).after 3 t) = _
    rw [after7_3]; exact blk7_3 V c t) rows7_3

/-- And the second holds its square, entry by entry. -/
theorem out7_1_eq (c : Dev nD) :
    (dat7 V c).arrAt 4 cfg7.N = Cert.Spec.centeredSq (V c main_v105) (V c main_v113) (V c main_v116) :=
  (dat7 V c).arrAt_eq_of_cover 4 _ (fun t _ => by
    show (cfg7.win 4).cut (grid7.coords t) ((dat7 V c).after 4 t) = _
    rw [after7_4]; exact blk7_4 V c t) rows7_4

end

end Cert.KernelIdeal.Hand

end
-- ==== Proof.KernelIdeal.Val8.lean ====
/-
  The per-graph mean of 64-wide node rows, as the reduce region computes it. Over the grid's twenty points the
  region adds, into a carried [256, 64] accumulator that the first point zeroes, the product (contracted along the
  5000 rows of the point's block) of a one-hot matrix — entry (r, g) is 1 when row r's graph id is g, else 0 — with the
  block of rows; after the last point it writes the accumulator divided, row by row, by the graphs' counts. On the
  extended reals 1 · x = x and 0 · x = 0 for every x, so after point n the accumulator holds at (g, d) the sum of
  x (r, d) over the rows r < 5000 · (n + 1) whose id is g: by induction on the point. After the last point that is the
  sum over all rows of the segment, which is what a scatter of rows with addition into zeros gives; both sides then
  divide by the same count.
-/
import proofs.«422469_j24000277250640_1_alg».proof.Proof.KernelIdeal.Reg8
import proofs.«422469_j24000277250640_1_alg».proof.Proof.KernelIdeal.SegSum
import proofs.«422469_j24000277250640_1_alg».proof.Proof.Spec.SegMean
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)
open scoped BigOperators

/-! ## The three stored values, read at an index -/

/-- The reset stores zero everywhere. -/
theorem pay8_1_apply (j : S256x64.Idx) : k8_pay1 (F := Ideal) j = 0 := by
  unfold k8_pay1
  simp only [shapeCast_self]
  exact Ideal.ofBits_zero_f32

/-- The accumulation at (g, d): what was there plus the block's rows of segment g in column d. -/
theorem pay8_2_apply (v3 : Vec Ideal S5000x64 .f32) (v7 : Vec Ideal S5000x1 .i32) (v15 : Vec Ideal S256x64 .f32)
    (g : Fin 256) (d : Fin 64) :
    k8_pay2 v3 v7 v15 (ix2 g d)
      = v15 (ix2 g d) + ∑ k : Fin 5000, (if (v7 (ix2 k 0)).toInt = (g.val : ℤ) then v3 (ix2 k d) else 0) := by
  unfold k8_pay2
  simp only [shapeCast_self]
  refine (addf_apply _ _ _).trans ?_
  refine congrArg (v15 (ix2 g d) + ·) ?_
  refine (Cert.SegSum.matmul_zero_apply dot_S5000x256_S5000x64_S256x64_0_0_1_1_n_n rfl rfl rfl rfl rfl rfl none _ _ (ix2 g d)).trans ?_
  refine Finset.sum_congr rfl fun k _ => ?_
  have hb : broadcastTo S5000x256 v7 broadcasts_S5000x1_S5000x256 (ix2 k g) = v7 (ix2 k 0) :=
    broadcastTo_apply v7 _ (ix2 k g) (ix2 k 0) (fun a => by match a with | ⟨0, _⟩ => rfl | ⟨1, _⟩ => rfl)
  have hio : iota .tc S5000x256 32 [1] iota_S5000x256_d1_w32 (ix2 k g) = BitVec.ofNat 32 g.val :=
    iota_single_apply .tc S5000x256 32 1 _ (ix2 k g)
  show (((((IntOp.cmpi .eq (broadcastTo S5000x256 v7 broadcasts_S5000x1_S5000x256 (ix2 k g))
      (iota .tc S5000x256 32 [1] iota_S5000x256_d1_w32 (ix2 k g))).setWidth 32).toInt : ℤ) : ℝ) : EReal) * v3 (ix2 k d) = _
  rw [hb, hio, Cert.SegSum.weight_mul]
  have hw := Cert.SegSum.eq_ofNat_iff_toInt (v7 (ix2 k 0)) g.val (by have := g.isLt; omega)
  by_cases h : v7 (ix2 k 0) = BitVec.ofNat 32 g.val
  · rw [if_pos h, if_pos (hw.mp h)]
  · rw [if_neg h, if_neg (fun h' => h (hw.mpr h'))]

/-- The write-back at (g, d): the accumulated sum over the segment's count. -/
theorem pay8_3_apply (v23 : Vec Ideal S256x64 .f32) (v24 : Vec Ideal S256x1 .f32) (g : Fin 256) (d : Fin 64) :
    k8_pay3 v23 v24 (ix2 g d) = Ideal.div (v23 (ix2 g d)) (v24 (ix2 g 0)) := by
  unfold k8_pay3
  simp only [shapeCast_self]
  refine (divf_apply _ _ _).trans ?_
  refine congrArg (Ideal.div (v23 (ix2 g d))) ?_
  exact broadcastTo_apply v24 broadcasts_S256x1_S256x64 (ix2 g d) (ix2 g 0)
    (fun a => by match a with | ⟨0, _⟩ => rfl | ⟨1, _⟩ => rfl)

/-! ## One point's accumulation, over rows of the whole arrays -/

/-- If the block is rows 5000·n … 5000·n + 4999 of the whole arrays and the scratch holds the sum over the first
    5000·n rows, the accumulation leaves the sum over the first 5000·(n + 1) rows. -/
theorem step8 (X : Vec Ideal S100000x64 .f32) (B : Vec Ideal S100000x1 .i32) (xb : Vec Ideal S5000x64 .f32)
    (bb : Vec Ideal S5000x1 .i32) (acc : Vec Ideal S256x64 .f32) (n : ℕ) (hn : 5000 * n + 5000 ≤ 100000)
    (hx : ∀ (k : Fin 5000) (d : Fin 64), xb (ix2 k d) = X (ix2 ⟨5000 * n + k.val, by have := k.isLt; omega⟩ d))
    (hb : ∀ k : Fin 5000, bb (ix2 k 0) = B (ix2 ⟨5000 * n + k.val, by have := k.isLt; omega⟩ 0))
    (g : Fin 256) (d : Fin 64)
    (hacc : acc (ix2 g d) = ∑ r ∈ Finset.range (5000 * n), Cert.SegSum.rowTerm X B g.val d r) :
    k8_pay2 xb bb acc (ix2 g d) = ∑ r ∈ Finset.range (5000 * (n + 1)), Cert.SegSum.rowTerm X B g.val d r := by
  rw [pay8_2_apply xb bb acc g d, hacc, Cert.SegSum.sum_range_tile X B g.val d 5000 n]
  refine congrArg (_ + ·) (Finset.sum_congr rfl fun k _ => ?_)
  rw [Cert.SegSum.rowTerm_of_lt X B g.val d (5000 * n + k.val) (by have := k.isLt; omega), hb k, hx k d]

/-! ## The last point: the write-back is the per-graph mean -/

/-- If the block is the last 5000 rows, the scratch holds the sum over the rows before them and the counts' block is
    the counts, what the last point writes back is the per-graph mean of the whole array. -/
theorem last8 [hR : Cert.ReferenceIdeal.Facts] (X : Vec Ideal S100000x64 .f32) (B : Vec Ideal S100000x1 .i32)
    (Nn : Vec Ideal S256x1 .f32) (xb : Vec Ideal S5000x64 .f32) (bb : Vec Ideal S5000x1 .i32) (nb : Vec Ideal S256x1 .f32)
    (acc : Vec Ideal S256x64 .f32)
    (hx : ∀ (k : Fin 5000) (d : Fin 64), xb (ix2 k d) = X (ix2 ⟨5000 * 19 + k.val, by have := k.isLt; omega⟩ d))
    (hb : ∀ k : Fin 5000, bb (ix2 k 0) = B (ix2 ⟨5000 * 19 + k.val, by have := k.isLt; omega⟩ 0))
    (hn : ∀ g : Fin 256, nb (ix2 g 0) = Nn (ix2 g 0))
    (hacc : ∀ (g : Fin 256) (d : Fin 64), acc (ix2 g d) = ∑ r ∈ Finset.range (5000 * 19), Cert.SegSum.rowTerm X B g.val d r) :
    k8_pay3 (k8_pay2 xb bb acc) nb = Cert.Spec.segMean64 X B Nn := by
  funext j
  obtain ⟨g, d, rfl⟩ : ∃ (g : Fin 256) (d : Fin 64), j = ix2 g d := ⟨j 0, j 1, eq_ix2 j⟩
  rw [pay8_3_apply (k8_pay2 xb bb acc) nb g d, step8 X B xb bb acc 19 (by omega) hx hb g d (hacc g d), hn g,
    Cert.Spec.segMean64_apply X B Nn g d, ← Cert.SegSum.sum_range_rowTerm X B g.val d]

/-! ## What each case's stores leave, as the stored values -/

theorem hz8 : (![0, 0] : Fin 2 → Nat) = fun _ => 0 := funext fun a => by fin_cases a <;> rfl

/-- First point: the scratch is zeroed, read back, and accumulated into. -/
theorem sout8_A_eq (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond8_0 i) (hcl : ¬cond8_1 i)
    (xd : Vec Ideal S5000x64 .f32) (xb : Vec Ideal S5000x1 .i32) (xn : Vec Ideal S256x1 .f32) :
    sout8_A_0 c i arg1 harg1 arg2 harg2 arg3 harg3 arg4 harg4 arg5 harg5 hcz hcl xd xb xn = k8_pay2 xd xb (k8_pay1 (F := Ideal)) := by
  unfold sout8_A_0
  rw [View.read_writes_eq_canon _ _ _ (scover8_A_0 c i arg1 harg1 arg2 harg2 arg3 harg3 arg4 harg4 arg5 harg5 hcz hcl xd xb xn)]
  unfold kernelRun8_A
  dsimp only
  sl_unfold_words
  rw [View.canon_cons_unit_zero (S := S256x64) hz8, View.readCov_unit_zero (S := S256x64) _ hz8]
  simp only [View.readAt_eq_ld, harg1.read_unread, harg2.read_unread, View.ld_unit_zero (S := S5000x64) hz8,
    View.ld_unit_zero (S := S5000x1) hz8]

/-- A middle point: the scratch is accumulated into. -/
theorem sout8_B_eq (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : ¬cond8_1 i)
    (xd : Vec Ideal S5000x64 .f32) (xb : Vec Ideal S5000x1 .i32) (xn : Vec Ideal S256x1 .f32) (xs : Vec Ideal S256x64 .f32) :
    sout8_B_0 c i arg1 harg1 arg2 harg2 arg3 harg3 arg4 harg4 arg5 harg5 hcz hcl xd xb xn xs = k8_pay2 xd xb xs := by
  unfold sout8_B_0
  rw [View.read_writes_eq_canon _ _ _ (scover8_B_0 c i arg1 harg1 arg2 harg2 arg3 harg3 arg4 harg4 arg5 harg5 hcz hcl xd xb xn xs)]
  unfold kernelRun8_B
  dsimp only
  sl_unfold_words
  rw [View.canon_unit_zero hz8]
  simp only [View.readAt_eq_ld, harg1.read_unread, harg2.read_unread, harg5.read_unread, View.ld_unit_zero (S := S5000x64) hz8,
    View.ld_unit_zero (S := S5000x1) hz8, View.ld_unit_zero (S := S256x64) hz8]

/-- The last point: the scratch is accumulated into, -/
theorem sout8_C_eq (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : cond8_1 i)
    (xd : Vec Ideal S5000x64 .f32) (xb : Vec Ideal S5000x1 .i32) (xn : Vec Ideal S256x1 .f32) (xs : Vec Ideal S256x64 .f32) :
    sout8_C_0 c i arg1 harg1 arg2 harg2 arg3 harg3 arg4 harg4 arg5 harg5 hcz hcl xd xb xn xs = k8_pay2 xd xb xs := by
  unfold sout8_C_0
  rw [View.read_writes_eq_canon _ _ _ (scover8_C_0 c i arg1 harg1 arg2 harg2 arg3 harg3 arg4 harg4 arg5 harg5 hcz hcl xd xb xn xs)]
  unfold kernelRun8_C
  dsimp only
  sl_unfold_words
  rw [View.canon_unit_zero hz8]
  simp only [View.readAt_eq_ld, harg1.read_unread, harg2.read_unread, harg5.read_unread, View.ld_unit_zero (S := S5000x64) hz8,
    View.ld_unit_zero (S := S5000x1) hz8, View.ld_unit_zero (S := S256x64) hz8]

/-- and its quotient by the counts is stored into the output's block. -/
theorem out8_C_eq (c : Dev nD) (i : grid8.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond8_0 i) (hcl : cond8_1 i)
    (xd : Vec Ideal S5000x64 .f32) (xb : Vec Ideal S5000x1 .i32) (xn : Vec Ideal S256x1 .f32) (xs : Vec Ideal S256x64 .f32) :
    out8_C_3 c i arg1 harg1 arg2 harg2 arg3 harg3 arg4 harg4 arg5 harg5 hcz hcl xd xb xn xs = k8_pay3 (k8_pay2 xd xb xs) xn := by
  unfold out8_C_3
  rw [View.read_writes_eq_canon _ _ _ (cover8_C_3 c i arg1 harg1 arg2 harg2 arg3 harg3 arg4 harg4 arg5 harg5 hcz hcl xd xb xn xs)]
  unfold kernelRun8_C
  dsimp only
  sl_unfold_words
  rw [View.canon_unit_zero hz8]
  simp only [View.readAt_eq_ld, harg1.read_unread, harg2.read_unread, harg3.read_unread, harg5.read_unread,
    View.readCov_unit_zero (S := S256x64) _ hz8, View.ld_unit_zero (S := S5000x64) hz8,
    View.ld_unit_zero (S := S5000x1) hz8, View.ld_unit_zero (S := S256x64) hz8, View.ld_unit_zero (S := S256x1) hz8]

/-! ## The blocks are rows of the whole arrays -/

section
variable (V : (c : Dev nD) → (b : Ref sig .tc) → Buf (Elt Ideal) ((c : Thread nD τ).loc b))

/-- The three whole arrays the region reads, and each window's block at a point, by their literal types. -/
abbrev xarr8 (c : Dev nD) : Vec Ideal S100000x64 .f32 := V c main_v117_1
abbrev barr8 (c : Dev nD) : Vec Ideal S100000x1 .i32 := V c main_v36
abbrev narr8 (c : Dev nD) : Vec Ideal S256x1 .f32 := V c main_v35
abbrev xblk8 (c : Dev nD) (t : Fin cfg8.N) : Vec Ideal S5000x64 .f32 := iblk8 V c 0 t
abbrev bblk8 (c : Dev nD) (t : Fin cfg8.N) : Vec Ideal S5000x1 .i32 := iblk8 V c 1 t
abbrev nblk8 (c : Dev nD) (t : Fin cfg8.N) : Vec Ideal S256x1 .f32 := iblk8 V c 2 t

/-- Where the windows' blocks sit at point t: the two row windows at block t, the counts at block 0. -/
theorem idx8_0 : ∀ t : Fin cfg8.N, win8_0.index t 0 = t.val ∧ win8_0.index t 1 = 0 :=
  (by decide +kernel : ∀ t : Fin grid8.N, win8_0.index t 0 = t.val ∧ win8_0.index t 1 = 0)
theorem idx8_1 : ∀ t : Fin cfg8.N, win8_1.index t 0 = t.val ∧ win8_1.index t 1 = 0 :=
  (by decide +kernel : ∀ t : Fin grid8.N, win8_1.index t 0 = t.val ∧ win8_1.index t 1 = 0)
theorem idx8_2 : ∀ t : Fin cfg8.N, win8_2.index t 0 = 0 ∧ win8_2.index t 1 = 0 :=
  (by decide +kernel : ∀ t : Fin grid8.N, win8_2.index t 0 = 0 ∧ win8_2.index t 1 = 0)

theorem lt8 (t : Fin cfg8.N) (k : Fin 5000) : 5000 * t.val + k.val < 100000 := by
  have hN : cfg8.N = 20 := N_8
  have := t.isLt; have := k.isLt; omega

theorem xblk8_apply (c : Dev nD) (t : Fin cfg8.N) (k : Fin 5000) (d : Fin 64) :
    xblk8 V c t (ix2 k d) = xarr8 V c (ix2 ⟨5000 * t.val + k.val, lt8 t k⟩ d) := by
  have hi := idx8_0 t
  show iblk8 V c 0 t (ix2 k d) = V c main_v117_1 _
  unfold iblk8
  rw [View.read_apply]
  show V c main_v117_1 _ = V c main_v117_1 _
  congr 1
  funext a
  apply Fin.ext
  match a with
  | ⟨0, _⟩ => show win8_0.index t 0 * 5000 + 1 * k.val = 5000 * t.val + k.val; rw [hi.1]; omega
  | ⟨1, _⟩ => show win8_0.index t 1 * 64 + 1 * d.val = d.val; rw [hi.2]; omega

theorem bblk8_apply (c : Dev nD) (t : Fin cfg8.N) (k : Fin 5000) :
    bblk8 V c t (ix2 k 0) = barr8 V c (ix2 ⟨5000 * t.val + k.val, lt8 t k⟩ 0) := by
  have hi := idx8_1 t
  show iblk8 V c 1 t (ix2 k 0) = V c main_v36 _
  unfold iblk8
  rw [View.read_apply]
  show V c main_v36 _ = V c main_v36 _
  congr 1
  funext a
  apply Fin.ext
  match a with
  | ⟨0, _⟩ => show win8_1.index t 0 * 5000 + 1 * k.val = 5000 * t.val + k.val; rw [hi.1]; omega
  | ⟨1, _⟩ => show win8_1.index t 1 * 1 + 1 * 0 = 0; rw [hi.2]

theorem nblk8_apply (c : Dev nD) (t : Fin cfg8.N) (g : Fin 256) :
    nblk8 V c t (ix2 g 0) = narr8 V c (ix2 g 0) := by
  have hi := idx8_2 t
  show iblk8 V c 2 t (ix2 g 0) = V c main_v35 _
  unfold iblk8
  rw [View.read_apply]
  show V c main_v35 _ = V c main_v35 _
  congr 1
  funext a
  apply Fin.ext
  match a with
  | ⟨0, _⟩ => show win8_2.index t 0 * 256 + 1 * g.val = g.val; rw [hi.1]; omega
  | ⟨1, _⟩ => show win8_2.index t 1 * 1 + 1 * 0 = 0; rw [hi.2]

variable [hR : Cert.ReferenceIdeal.Facts]

/-! ## The scratch after each point, and the array after the last -/

/-- After point n the scratch holds, at (g, d), the sum over the first 5000·(n + 1) rows of segment g in column d. -/
theorem scratch8_apply (c : Dev nD) (g : Fin 256) (d : Fin 64) : ∀ (n : ℕ) (h : n < cfg8.N),
    (outsAt8 V c n h).2 (ix2 g d)
      = ∑ r ∈ Finset.range (5000 * (n + 1)), Cert.SegSum.rowTerm (xarr8 V c) (barr8 V c) g.val d r
  | 0, h => by
    have hN : cfg8.N = 20 := N_8
    rw [outsAt8_A V c ⟨0, h⟩ rfl (by dsimp only; omega)]
    dsimp only
    refine (congrFun (sout8_A_eq c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) (ms8_3 ⟨0, h⟩) (hs8_3 ⟨0, h⟩) scM8_0 (Memref.isWhole_whole _) _ _ (xblk8 V c ⟨0, h⟩) (bblk8 V c ⟨0, h⟩) (nblk8 V c ⟨0, h⟩)) (ix2 g d)).trans ?_
    exact step8 (xarr8 V c) (barr8 V c) (xblk8 V c ⟨0, h⟩) (bblk8 V c ⟨0, h⟩) (k8_pay1 (F := Ideal)) 0 (by omega)
      (fun k d => xblk8_apply V c ⟨0, h⟩ k d) (fun k => bblk8_apply V c ⟨0, h⟩ k) g d
      (by rw [pay8_1_apply, Cert.SegSum.sum_range_zero])
  | n + 1, h => by
    have hN : cfg8.N = 20 := N_8
    have ih := scratch8_apply c g d n (Nat.lt_of_succ_lt h)
    have h0 : ¬(⟨n + 1, h⟩ : Fin cfg8.N).val % 20 = 0 := by dsimp only; omega
    by_cases h1 : (⟨n + 1, h⟩ : Fin cfg8.N).val % 20 = 19
    · rw [outsAt8_C V c ⟨n + 1, h⟩ h0 h1]
      dsimp only
      refine (congrFun (sout8_C_eq c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) scM8_0 (Memref.isWhole_whole _) _ _ (xblk8 V c ⟨n + 1, h⟩) (bblk8 V c ⟨n + 1, h⟩) (nblk8 V c ⟨n + 1, h⟩)
        (outsAt8 V c n (Nat.lt_of_succ_lt h)).2) (ix2 g d)).trans ?_
      exact step8 (xarr8 V c) (barr8 V c) (xblk8 V c ⟨n + 1, h⟩) (bblk8 V c ⟨n + 1, h⟩) (outsAt8 V c n (Nat.lt_of_succ_lt h)).2 (n + 1)
        (by omega) (fun k d => xblk8_apply V c ⟨n + 1, h⟩ k d) (fun k => bblk8_apply V c ⟨n + 1, h⟩ k) g d ih
    · rw [outsAt8_B V c ⟨n + 1, h⟩ h0 h1]
      dsimp only
      refine (congrFun (sout8_B_eq c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) scM8_0 (Memref.isWhole_whole _) _ _ (xblk8 V c ⟨n + 1, h⟩) (bblk8 V c ⟨n + 1, h⟩) (nblk8 V c ⟨n + 1, h⟩)
        (outsAt8 V c n (Nat.lt_of_succ_lt h)).2) (ix2 g d)).trans ?_
      exact step8 (xarr8 V c) (barr8 V c) (xblk8 V c ⟨n + 1, h⟩) (bblk8 V c ⟨n + 1, h⟩) (outsAt8 V c n (Nat.lt_of_succ_lt h)).2 (n + 1)
        (by omega) (fun k d => xblk8_apply V c ⟨n + 1, h⟩ k d) (fun k => bblk8_apply V c ⟨n + 1, h⟩ k) g d ih

/-- The last point of the grid. -/
abbrev t8_last : Fin cfg8.N := ⟨19, by decide⟩

/-- What the last point leaves in the output's block: the per-graph mean. -/
theorem out8_last (c : Dev nD) :
    (outsAt8 V c t8_last.val t8_last.isLt).1 = Cert.Spec.segMean64 (F := Ideal) (xarr8 V c) (barr8 V c) (narr8 V c) := by
  rw [outsAt8_C V c t8_last (by decide) rfl]
  dsimp only
  refine (out8_C_eq c (grid8.coords t8_last) (ms8_0 t8_last) (hs8_0 t8_last) (ms8_1 t8_last) (hs8_1 t8_last) (ms8_2 t8_last) (hs8_2 t8_last) (ms8_3 t8_last) (hs8_3 t8_last) scM8_0 (Memref.isWhole_whole _) _ _ (xblk8 V c t8_last) (bblk8 V c t8_last) (nblk8 V c t8_last)
    (outsAt8 V c 18 (by decide)).2).trans ?_
  exact last8 (xarr8 V c) (barr8 V c) (narr8 V c) (xblk8 V c t8_last) (bblk8 V c t8_last) (nblk8 V c t8_last)
    (outsAt8 V c 18 (by decide)).2 (fun k d => xblk8_apply V c t8_last k d) (fun k => bblk8_apply V c t8_last k)
    (fun g => nblk8_apply V c t8_last g) (fun g d => scratch8_apply V c g d 18 (by decide))

/-- The per-graph mean, as contents of the region's result array. -/
abbrev result8 (c : Dev nD) : Buf (Elt Ideal) ((c : Thread nD τ).loc main_v118) :=
  Cert.Spec.segMean64 (F := Ideal) (V c main_v117_1) (V c main_v36) (V c main_v35)

theorem idx8_3 : ∀ t : Fin cfg8.N, win8_3.index t 0 = 0 ∧ win8_3.index t 1 = 0 :=
  (by decide +kernel : ∀ t : Fin grid8.N, win8_3.index t 0 = 0 ∧ win8_3.index t 1 = 0)

/-- The one write-back, at the last point, writes it: the output's one block is the whole array. -/
theorem flushed8_eq (c : Dev nD) (t : Fin cfg8.N) (hf : (cfg8.win 3).flush t = true) :
    (dat8 V c).flushed 3 t = ((cfg8.win 3).blk t).view.read (Elt Ideal) (result8 V c) := by
  have hN : cfg8.N = 20 := N_8
  have h19 : t.val = 19 := by have := (flush8_3 t).mp hf; have := t.isLt; omega
  obtain rfl : t = t8_last := Fin.ext h19
  show (cfg8.win 3).cut (grid8.coords t8_last) ((dat8 V c).after 3 t8_last) = _
  rw [after8_3, out8_last]
  have hz' : (fun a => win8_3.index t8_last a * main_v118.ty.shape.size a) = fun _ => 0 :=
    funext fun a => by fin_cases a <;> decide +kernel
  exact (Memref.read_access_unit_zero (Elt Ideal) main_v118 hz' (fun a => by rw [congrFun hz' a]; simp) (result8 V c)).symm

/-- So the region's result array ends holding the per-graph mean of the rows it was given. -/
theorem out8_eq (c : Dev nD) :
    (dat8 V c).arrAt 3 cfg8.N = Cert.Spec.segMean64 (F := Ideal) (V c main_v117_1) (V c main_v36) (V c main_v35) :=
  (dat8 V c).arrAt_eq_of_cover 3 (result8 V c) (flushed8_eq V c) fun i =>
    ⟨t8_last, (flush8_3 t8_last).mpr rfl, by
      show i ∈ ((View.whole main_v118).slice (win8_3.rect t8_last)).set
      rw [View.set_slice_whole, Rect.mem_set_unit]
      intro a
      have h0 : (i 0 : Nat) < 256 := (i 0).isLt
      have h1 : (i 1 : Nat) < 64 := (i 1).isLt
      match a with
      | ⟨0, _⟩ =>
        show win8_3.index t8_last 0 * win8_3.size 0 ≤ (i 0 : Nat) ∧ (i 0 : Nat) < win8_3.index t8_last 0 * win8_3.size 0 + win8_3.xsize (grid8.coords t8_last) 0
        rw [show win8_3.index t8_last 0 * win8_3.size 0 = 0 from by decide +kernel, show win8_3.xsize (grid8.coords t8_last) 0 = 256 from by decide +kernel]; omega
      | ⟨1, _⟩ =>
        show win8_3.index t8_last 1 * win8_3.size 1 ≤ (i 1 : Nat) ∧ (i 1 : Nat) < win8_3.index t8_last 1 * win8_3.size 1 + win8_3.xsize (grid8.coords t8_last) 1
        rw [show win8_3.index t8_last 1 * win8_3.size 1 = 0 from by decide +kernel, show win8_3.xsize (grid8.coords t8_last) 1 = 64 from by decide +kernel]; omega⟩

end

end Cert.KernelIdeal.Hand

end
-- ==== Proof.KernelIdeal.Val9.lean ====
/-
  The normalising stage, read as a whole array. The stage walks the 100000 node rows in 20 tiles of 5000 rows; on
  each tile it forms, entry by entry, max (γ j · c (n, j) · rsqrt (v (n, j) + ε) + β j, 0), where c is the centred row,
  v the variance of the row's graph at feature j, and ε a small positive constant, and writes the tile back at the rows
  it came from. The plain program writes the same entry as max (γ j · c (n, j) / √(v (n, j) + ε) + β j, 0). On the
  extended reals a · rsqrt (s) = a / √s whenever s = v + ε with v ≥ 0: s is then a positive real or +∞, and in both cases
  the reciprocal root is the inverse of the root. An entry depends only on the same entry of c and v and on γ, β at
  the same feature, and the 20 tiles cover every row once, so the array the stage leaves is the normalised array of the
  whole inputs, provided no variance entry is negative.
-/
import proofs.«422469_j24000277250640_1_alg».proof.Proof.KernelIdeal.Reg9
import proofs.«422469_j24000277250640_1_alg».proof.Proof.Gen.ReferenceIdeal
import proofs.«422469_j24000277250640_1_alg».proof.Proof.Spec.Ops
import Idealize.ShloMosaic.Lib.Pipeline.Value
import Idealize.ShloMosaic.Lib.ValueIdx
import Idealize.ShloMosaic.Lib.IdealHost

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable {F : FTy → Type} [FloatOps F]

/-! ## One entry of a tile -/

/-- The two zero offsets of a whole-tile access, as a constant function. -/
theorem hz9 : (![0, 0] : Fin 2 → Nat) = fun _ => 0 := funext fun a => by fin_cases a <;> rfl

/-- Entry (p, q) of the result tile: max (γ (0, q) · c (p, q) · rsqrt (v (p, q) + ε) + β (0, q), 0); the rows γ and β are
    repeated down the tile, ε and 0 are the same constants everywhere. -/
theorem k9_pay1_apply (va hc : Vec F S5000x64 .f32) (ga be : Vec F S1x64 .f32) (p : Fin 5000) (q : Fin 64) :
    k9_pay1 va ga hc be (ix2 p q) =
      FloatOps.maximumf (FloatOps.addf (FloatOps.mulf (FloatOps.mulf (ga (ix2 (0 : Fin 1) q)) (hc (ix2 p q)))
          (FloatOps.rsqrt (FloatOps.addf (va (ix2 p q)) (FloatOps.ofBits (F := F) .f32 0x3727C5AC#32)))) (be (ix2 (0 : Fin 1) q)))
        (FloatOps.ofBits (F := F) .f32 0x00000000#32) := by
  unfold k9_pay1
  rw [shapeCast_self, shapeCast_self, shapeCast_self, shapeCast_self]
  show FloatOps.maximumf (FloatOps.addf (FloatOps.mulf (FloatOps.mulf (broadcastTo S5000x64 ga broadcasts_S1x64_S5000x64 (ix2 p q)) (hc (ix2 p q)))
          (FloatOps.rsqrt (FloatOps.addf (va (ix2 p q)) (FloatOps.ofBits (F := F) .f32 0x3727C5AC#32)))) (broadcastTo S5000x64 be broadcasts_S1x64_S5000x64 (ix2 p q)))
        (FloatOps.ofBits (F := F) .f32 0x00000000#32) = _
  rw [broadcastTo_apply ga broadcasts_S1x64_S5000x64 (ix2 p q) (ix2 (0 : Fin 1) q) (fun a => by
      match a with
      | ⟨0, _⟩ => rfl
      | ⟨1, _⟩ => rfl),
    broadcastTo_apply be broadcasts_S1x64_S5000x64 (ix2 p q) (ix2 (0 : Fin 1) q) (fun a => by
      match a with
      | ⟨0, _⟩ => rfl
      | ⟨1, _⟩ => rfl)]

/-! ## One entry of the whole-array function -/

/-- Entry (n, q) of the normalised array: max (γ (0, q) · c (n, q) / √(v (n, q) + ε) + β (0, q), 0). -/
theorem normed_apply9 (C Vr : FVec F Cert.ReferenceIdeal.S100000x64 .f32) (G B : FVec F Cert.ReferenceIdeal.S1x64 .f32)
    (n : Fin 100000) (q : Fin 64) :
    Cert.Spec.normed C Vr G B (ix2 n q) =
      FloatOps.maximumf (FloatOps.addf (FloatOps.hostDivf (FloatOps.mulf (G (ix2 (0 : Fin 1) q)) (C (ix2 n q)))
          (FloatOps.hostUnary .sqrt (FloatOps.addf (Vr (ix2 n q)) (FloatOps.ofBits (F := F) .f32 0x3727C5AC#32)))) (B (ix2 (0 : Fin 1) q)))
        (FloatOps.ofBits (F := F) .f32 0x00000000#32) := by
  unfold Cert.Spec.normed
  show FloatOps.maximumf (FloatOps.addf (FloatOps.hostDivf (FloatOps.mulf (broadcastInDim Cert.ReferenceIdeal.S100000x64 ![0, 1] Cert.ReferenceIdeal.Facts₀.bcast_S1x64_S100000x64_0_1 G (ix2 n q)) (C (ix2 n q)))
          (FloatOps.hostUnary .sqrt (FloatOps.addf (Vr (ix2 n q)) (FloatOps.ofBits (F := F) .f32 0x3727C5AC#32)))) (broadcastInDim Cert.ReferenceIdeal.S100000x64 ![0, 1] Cert.ReferenceIdeal.Facts₀.bcast_S1x64_S100000x64_0_1 B (ix2 n q)))
        (FloatOps.ofBits (F := F) .f32 0x00000000#32) = _
  rw [broadcastInDim_apply ![0, 1] Cert.ReferenceIdeal.Facts₀.bcast_S1x64_S100000x64_0_1 G (ix2 n q) (ix2 (0 : Fin 1) q) (fun a => by
      match a with
      | ⟨0, _⟩ => rfl
      | ⟨1, _⟩ => rfl),
    broadcastInDim_apply ![0, 1] Cert.ReferenceIdeal.Facts₀.bcast_S1x64_S100000x64_0_1 B (ix2 n q) (ix2 (0 : Fin 1) q) (fun a => by
      match a with
      | ⟨0, _⟩ => rfl
      | ⟨1, _⟩ => rfl)]

/-! ## The one law: a reciprocal root against a division by the root, on the extended reals -/

/-- The constant ε is the positive real 10995116 · 2⁻⁴⁰ (about 10⁻⁵). -/
theorem eps_eq9 : Ideal.ofBits .f32 0x3727C5AC#32 = (((10995116 : ℝ) * (2 : ℝ) ^ (-40 : ℤ) : ℝ) : EReal) := by
  simp [Ideal.ofBits, Ideal.ieee, -EReal.coe_mul]

theorem eps_pos9 : (0 : ℝ) < (10995116 : ℝ) * (2 : ℝ) ^ (-40 : ℤ) := by positivity

/-- For v ≥ 0 and a real e > 0: a · rsqrt (v + e) = a / √(v + e). At v = +∞ both sides are a · 0 (the reciprocal root of
    +∞ is 0, and so is the inverse of √(+∞) = +∞); at a real v the sum v + e is a positive real s, the reciprocal root is
    the real (√s)⁻¹ and the division by the nonzero √s multiplies by the same inverse. No bound on a is used. -/
theorem mul_rsqrt9 (a v : EReal) (e : ℝ) (he : 0 < e) (hv : 0 ≤ v) :
    a * Ideal.rsqrt (v + (e : EReal)) = Ideal.div a (Ideal.sqrt (v + (e : EReal))) := by
  induction v using EReal.rec with
  | bot => exact absurd hv (by simp)
  | top =>
    rw [EReal.top_add_coe]
    simp [Ideal.div]
  | coe r =>
    have hr : 0 ≤ r := by exact_mod_cast hv
    have hs : 0 < r + e := by linarith
    rw [← EReal.coe_add]
    rw [Ideal.rsqrt_coe, Ideal.sqrt_coe, if_neg (not_lt.mpr hs.le), if_neg hs.ne', if_neg (not_lt.mpr hs.le)]
    have hq : Real.sqrt (r + e) ≠ 0 := (Real.sqrt_pos.mpr hs).ne'
    rw [Ideal.div, if_neg (by exact_mod_cast hq), EReal.coe_inv]

/-- The same law in the operations' own spelling, at the constant ε. -/
theorem law9 (a v : Ideal .f32) (hv : (0 : EReal) ≤ v) :
    FloatOps.mulf a (FloatOps.rsqrt (FloatOps.addf v (FloatOps.ofBits (F := Ideal) .f32 0x3727C5AC#32)))
      = FloatOps.hostDivf a (FloatOps.hostUnary .sqrt (FloatOps.addf v (FloatOps.ofBits (F := Ideal) .f32 0x3727C5AC#32))) := by
  show a * Ideal.rsqrt (v + Ideal.ofBits .f32 0x3727C5AC#32) = Ideal.div a (Ideal.sqrt (v + Ideal.ofBits .f32 0x3727C5AC#32))
  rw [eps_eq9]
  exact mul_rsqrt9 a v _ eps_pos9 hv

/-! ## Where a tile sits -/

/-- At tile t the three row-tiled arrays are at row block t and column block 0, and γ, β at block (0, 0). -/
theorem idx_facts9 : ∀ t : Fin cfg9.N,
      win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

/-- Every one of the 20 row blocks of the result is some tile's. -/
theorem idx_onto9 : ∀ (q0 : Fin 20), ∃ t : Fin cfg9.N, win9_4.index t = ![q0.val, 0] :=
  (by decide +kernel : ∀ (q0 : Fin 20), ∃ t : Fin grid9.N, win9_4.index t = ![q0.val, 0])

/-- Row p of tile t is row 5000 t + p of the array, below 100000. -/
theorem row_lt9 (t : Fin cfg9.N) (p : Fin 5000) : t.val * 5000 + p.val < 100000 := by
  have ht : t.val < 20 := lt_of_lt_of_eq t.isLt N_9
  omega

/-- Entry (p, q) of tile t of the centred rows is entry (5000 t + p, q) of that array. -/
theorem emb9_0 (t : Fin cfg9.N) (p : Fin 5000) (q : Fin 64) :
    ((cfg9.win 0).blk t).view.emb (ix2 p q) = ix2 (⟨t.val * 5000 + p.val, row_lt9 t p⟩ : Fin 100000) q := by
  obtain ⟨e00, e01, e10, e11, e20, e21, e30, e31, e40, e41⟩ := idx_facts9 t
  funext a; apply Fin.ext
  match a with
  | ⟨0, _⟩ => show win9_0.index t (0 : Fin 2) * 5000 + 1 * p.val = t.val * 5000 + p.val; omega
  | ⟨1, _⟩ => show win9_0.index t (1 : Fin 2) * 64 + 1 * q.val = q.val; omega

/-- The same for the variances. -/
theorem emb9_1 (t : Fin cfg9.N) (p : Fin 5000) (q : Fin 64) :
    ((cfg9.win 1).blk t).view.emb (ix2 p q) = ix2 (⟨t.val * 5000 + p.val, row_lt9 t p⟩ : Fin 100000) q := by
  obtain ⟨e00, e01, e10, e11, e20, e21, e30, e31, e40, e41⟩ := idx_facts9 t
  funext a; apply Fin.ext
  match a with
  | ⟨0, _⟩ => show win9_1.index t (0 : Fin 2) * 5000 + 1 * p.val = t.val * 5000 + p.val; omega
  | ⟨1, _⟩ => show win9_1.index t (1 : Fin 2) * 64 + 1 * q.val = q.val; omega

/-- Every tile sees the whole row γ. -/
theorem emb9_2 (t : Fin cfg9.N) (q : Fin 64) :
    ((cfg9.win 2).blk t).view.emb (ix2 (0 : Fin 1) q) = ix2 (0 : Fin 1) q := by
  obtain ⟨e00, e01, e10, e11, e20, e21, e30, e31, e40, e41⟩ := idx_facts9 t
  funext a; apply Fin.ext
  match a with
  | ⟨0, _⟩ => show win9_2.index t (0 : Fin 2) * 1 + 1 * 0 = 0; omega
  | ⟨1, _⟩ => show win9_2.index t (1 : Fin 2) * 64 + 1 * q.val = q.val; omega

/-- And the whole row β. -/
theorem emb9_3 (t : Fin cfg9.N) (q : Fin 64) :
    ((cfg9.win 3).blk t).view.emb (ix2 (0 : Fin 1) q) = ix2 (0 : Fin 1) q := by
  obtain ⟨e00, e01, e10, e11, e20, e21, e30, e31, e40, e41⟩ := idx_facts9 t
  funext a; apply Fin.ext
  match a with
  | ⟨0, _⟩ => show win9_3.index t (0 : Fin 2) * 1 + 1 * 0 = 0; omega
  | ⟨1, _⟩ => show win9_3.index t (1 : Fin 2) * 64 + 1 * q.val = q.val; omega

/-- Entry (p, q) of tile t of the result is entry (5000 t + p, q) of the result array. -/
theorem emb9_4 (t : Fin cfg9.N) (p : Fin 5000) (q : Fin 64) :
    ((cfg9.win 4).blk t).view.emb (ix2 p q) = ix2 (⟨t.val * 5000 + p.val, row_lt9 t p⟩ : Fin 100000) q := by
  obtain ⟨e00, e01, e10, e11, e20, e21, e30, e31, e40, e41⟩ := idx_facts9 t
  funext a; apply Fin.ext
  match a with
  | ⟨0, _⟩ => show win9_4.index t (0 : Fin 2) * 5000 + 1 * p.val = t.val * 5000 + p.val; omega
  | ⟨1, _⟩ => show win9_4.index t (1 : Fin 2) * 64 + 1 * q.val = q.val; omega

/-! ## The tiles cover every row -/

/-- An entry is in tile t of the result iff its row is in t's 5000 rows (and its column among the 64). -/
theorem mem_blk9_4 (t : Fin cfg9.N) (i : S100000x64.Idx) :
    i ∈ ((cfg9.win 4).blk t).view.set ↔ ∀ a : Fin 2, win9_4.index t a * S5000x64.size a ≤ (i a).val ∧ (i a).val < win9_4.index t a * S5000x64.size a + S5000x64.size a := by
  show i ∈ ((View.whole main_v132).slice (win9_4.rect t)).set ↔ _
  rw [View.set_slice_whole, Rect.mem_set_unit]
  exact Iff.rfl

/-- Row n lies in tile n / 5000, which writes back: every entry of the result is written. -/
theorem rows9_4 (i : S100000x64.Idx) : ∃ t : Fin cfg9.N, (cfg9.win 4).flush t = true ∧ i ∈ ((cfg9.win 4).blk t).view.set := by
  have hi0 : (i 0).val < 100000 := (i 0).isLt
  have hi1 : (i 1).val < 64 := (i 1).isLt
  obtain ⟨t, ht⟩ := idx_onto9 ⟨(i 0).val / 5000, by omega⟩
  have q0 : win9_4.index t (0 : Fin 2) = (i 0).val / 5000 := congrFun ht 0
  have q1 : win9_4.index t (1 : Fin 2) = 0 := congrFun ht 1
  refine ⟨t, flush9_4 t, ?_⟩
  rw [mem_blk9_4]
  intro a
  match a with
  | ⟨0, _⟩ => show win9_4.index t (0 : Fin 2) * 5000 ≤ (i 0).val ∧ (i 0).val < win9_4.index t (0 : Fin 2) * 5000 + 5000; omega
  | ⟨1, _⟩ => show win9_4.index t (1 : Fin 2) * 64 ≤ (i 1).val ∧ (i 1).val < win9_4.index t (1 : Fin 2) * 64 + 64; omega

/-! ## A tile of the result is a tile of the whole-array function, and the array the stage leaves -/

section
variable (V : (c : Dev nD) → (b : Ref sig .tc) → Buf (Elt Ideal) ((c : Thread nD τ).loc b))

/-- The value computed on tile t, at (p, q), is the normalised array of the whole inputs at (5000 t + p, q): the two
    spellings differ only in a · rsqrt (v + ε) against a / √(v + ε), equal since the variance entry is not negative. -/
theorem pay1_blk9 (c : Dev nD) (hv : ∀ i, (0 : EReal) ≤ V c main_v125 i) (t : Fin cfg9.N) (p : Fin 5000) (q : Fin 64) :
    k9_pay1 (F := Ideal) (iblk9 V c 1 t) (iblk9 V c 2 t) (iblk9 V c 0 t) (iblk9 V c 3 t) (ix2 p q)
      = Cert.Spec.normed (F := Ideal) (V c main_v117_0) (V c main_v125) (V c main_v128) (V c main_v131) (ix2 (⟨t.val * 5000 + p.val, row_lt9 t p⟩ : Fin 100000) q) := by
  refine (k9_pay1_apply (F := Ideal) (iblk9 V c 1 t) (iblk9 V c 0 t) (iblk9 V c 2 t) (iblk9 V c 3 t) p q).trans ?_
  refine Eq.trans ?_ (normed_apply9 (F := Ideal) (V c main_v117_0) (V c main_v125) (V c main_v128) (V c main_v131) ⟨t.val * 5000 + p.val, row_lt9 t p⟩ q).symm
  show FloatOps.maximumf (FloatOps.addf (FloatOps.mulf (FloatOps.mulf (V c main_v128 (((cfg9.win 2).blk t).view.emb (ix2 (0 : Fin 1) q))) (V c main_v117_0 (((cfg9.win 0).blk t).view.emb (ix2 p q))))
          (FloatOps.rsqrt (FloatOps.addf (V c main_v125 (((cfg9.win 1).blk t).view.emb (ix2 p q))) (FloatOps.ofBits (F := Ideal) .f32 0x3727C5AC#32)))) (V c main_v131 (((cfg9.win 3).blk t).view.emb (ix2 (0 : Fin 1) q))))
        (FloatOps.ofBits (F := Ideal) .f32 0x00000000#32) = _
  rw [emb9_0, emb9_1, emb9_2, emb9_3]
  rw [law9 _ _ (hv _)]

/-- What tile t writes back is tile t of the normalised array of the whole inputs. -/
theorem blk9_4 (c : Dev nD) (hv : ∀ i, (0 : EReal) ≤ V c main_v125 i) (t : Fin cfg9.N) :
    (cfg9.win 4).cut (grid9.coords t) (out9_4 (F := Ideal) (iblk9 V c 0 t) (iblk9 V c 1 t) (iblk9 V c 2 t) (iblk9 V c 3 t))
      = ((cfg9.win 4).blk t).view.read (Elt Ideal) (Cert.Spec.normed (F := Ideal) (V c main_v117_0) (V c main_v125) (V c main_v128) (V c main_v131)) := by
  unfold out9_4
  rw [View.canon_unit_zero hz9]
  simp only [View.ld_unit_zero (S := S5000x64) hz9, View.ld_unit_zero (S := S1x64) hz9]
  funext j
  obtain ⟨p, q, rfl⟩ : ∃ (p : Fin 5000) (q : Fin 64), j = ix2 p q := ⟨j 0, j 1, eq_ix2 j⟩
  show _ = Cert.Spec.normed (F := Ideal) (V c main_v117_0) (V c main_v125) (V c main_v128) (V c main_v131) (((cfg9.win 4).blk t).view.emb (ix2 p q))
  rw [emb9_4]
  exact pay1_blk9 V c hv t p q

/-- After the 20 tiles the result holds max (γ · c / √(v + ε) + β, 0) of the whole arrays the stage found, when no entry of
    v is negative. -/
theorem out9_eq (c : Dev nD) (hv : ∀ i, (0 : EReal) ≤ V c main_v125 i) :
    (dat9 (F := Ideal) V c).arrAt 4 cfg9.N = Cert.Spec.normed (F := Ideal) (V c main_v117_0) (V c main_v125) (V c main_v128) (V c main_v131) :=
  (dat9 (F := Ideal) V c).arrAt_eq_of_cover 4 _ (fun t _ => by
    show (cfg9.win 4).cut (grid9.coords t) ((dat9 (F := Ideal) V c).after 4 t) = _
    rw [after9_4]; exact blk9_4 V c hv t) rows9_4

end

end Cert.KernelIdeal.Hand

end
-- ==== Proof.KernelIdeal.Val10.lean ====
/-
  The first layer's projection, from blocks to the whole array, at the exact values.

  The region multiplies the array of node features, 100000 rows of 64, by a 64 × 64 weight matrix, twenty blocks
  of 5000 rows at a time: at grid point t the body loads rows 5000·t … 5000·t + 4999 and the whole weight matrix,
  and stores their product as block t of the output. At the exact values a change of float format is the identity
  and a product accumulated into zero is the bare sum, so entry (p, q) of that block is row 5000·t + p of the
  features against column q of the weights — the same sum over the 64 contraction indices that the plain program's
  matrix product has at (5000·t + p, q). Every point writes its block back and the twenty blocks fill the output,
  so after the region the output array is that product of the two arrays as the region found them.
-/
import proofs.«422469_j24000277250640_1_alg».proof.Proof.KernelIdeal.Reg10
import proofs.«422469_j24000277250640_1_alg».proof.Proof.Gen.ReferenceIdeal
import proofs.«422469_j24000277250640_1_alg».proof.Proof.Spec.Ops
import proofs.«422469_j24000277250640_1_alg».proof.Proof.LibRowDot
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.LibRowDot

/-- The zero offsets of a whole-buffer access, as the constant zero function. -/
theorem hz10 : (![0, 0] : Fin 2 → Nat) = fun _ => 0 := funext fun a => by fin_cases a <;> rfl

/-- The body's one payload at an entry: row p of the loaded block of node features against column q of
    the loaded weight matrix. The two changes of float format and the cast to the same shape do nothing to
    exact values, and the product accumulates into zero. -/
theorem k10_pay1_apply (x0 : FVec Ideal S5000x64 .f32) (x1 : FVec Ideal S64x64 .f32) (p : Fin 5000) (q : Fin 64) :
    k10_pay1 (F := Ideal) x0 x1 (ix2 p q) = rowDot x0 x1 p q := by
  unfold k10_pay1
  refine (matmul_zero_apply dot_S5000x64_S64x64_S5000x64_1_0_0_1_n_n rfl rfl rfl rfl rfl rfl none _ _ (ix2 p q)).trans ?_
  simp only [shapeCast_self]
  all_goals rfl

/-- The layer's projection of the plain program at an entry: row n of the node features against column j
    of the weight matrix. -/
theorem mm10_apply (h : FVec Ideal S100000x64 .f32) (w : FVec Ideal S64x64 .f32) (n : Fin 100000) (j : Fin 64) :
    Cert.Spec.mm (F := Ideal) h w (ix2 n j) = rowDot h w n j := by
  unfold Cert.Spec.mm
  exact dotGeneral_apply Cert.ReferenceIdeal.dot_S100000x64_S64x64_S100000x64_1_0_0_1_n_n rfl rfl rfl rfl rfl rfl none _ h w (ix2 n j)

/-- One entry of a block of the product. If row p of the loaded block is row n of the whole array of node
    features and the loaded weights are the whole weight matrix, the body's payload at (p, q) is the
    projection at (n, q): both are that row against column q. -/
theorem entry10_2 (A : FVec Ideal S100000x64 .f32) (Wt : FVec Ideal S64x64 .f32)
    (x0 : FVec Ideal S5000x64 .f32) (x1 : FVec Ideal S64x64 .f32) (n : Fin 100000) (p : Fin 5000) (q : Fin 64)
    (h0 : ∀ k : Fin 64, x0 (ix2 p k) = A (ix2 n k)) (h1 : ∀ k : Fin 64, x1 (ix2 k q) = Wt (ix2 k q)) :
    k10_pay1 (F := Ideal) x0 x1 (ix2 p q) = Cert.Spec.mm (F := Ideal) A Wt (ix2 n q) := by
  refine (k10_pay1_apply x0 x1 p q).trans ?_
  refine Eq.trans ?_ (mm10_apply A Wt n q).symm
  unfold rowDot
  exact Finset.sum_congr rfl fun k _ => by rw [h0 k, h1 k]

/-- The printed block index maps, decided over the twenty grid points: the block of node features and the
    output block both sit at block row t, column block 0; the weight matrix is its one block. -/
theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

section
variable (V : (c : Dev nD) → (b : Ref sig .tc) → Buf (Elt Ideal) ((c : Thread nD τ).loc b))

/-- The grid has twenty points. -/
theorem lt_N10 (t : Fin cfg10.N) : t.val < 20 := lt_of_lt_of_eq t.isLt N_10

/-- What point t writes back is block t of the projection of the two arrays as the region finds them: entry
    (p, q) of the block the body leaves is row p of the loaded block of node features, which is row
    5000·t + p of the array, against column q of the loaded weights, which are the whole weight matrix. -/
theorem flushed10_2_eq (c : Dev nD) (t : Fin cfg10.N) :
    (dat10 (F := Ideal) V c).flushed 2 t
      = ((cfg10.win 2).blk t).view.read (Elt Ideal) (Cert.Spec.mm (F := Ideal) (V c main_v132) (V c main_v134)) := by
  show (cfg10.win 2).cut (grid10.coords t) ((dat10 V c).after 2 t) = _
  rw [after10_2]
  unfold out10_2
  rw [View.canon_unit_zero hz10]
  simp only [View.ld_unit_zero (S := S5000x64) hz10, View.ld_unit_zero (S := S64x64) hz10]
  obtain ⟨e0, e1, e2, e3, e4, e5⟩ := idx_facts10 t
  have ht := lt_N10 t
  refine funext fun (j : S5000x64.Idx) => ?_
  obtain ⟨p, q, rfl⟩ : ∃ (p : Fin 5000) (q : Fin 64), j = ix2 p q := ⟨j 0, j 1, eq_ix2 j⟩
  have hp := p.isLt
  have hn : t.val * 5000 + p.val < 100000 := by omega
  show k10_pay1 (F := Ideal) (iblk10 V c 0 t) (iblk10 V c 1 t) (ix2 p q)
      = Cert.Spec.mm (F := Ideal) (V c main_v132) (V c main_v134) (((cfg10.win 2).blk t).view.emb (ix2 p q))
  have hemb : ((cfg10.win 2).blk t).view.emb (ix2 p q) = ix2 (⟨t.val * 5000 + p.val, hn⟩ : Fin 100000) q := by
    funext a; apply Fin.ext
    match a with
    | ⟨0, _⟩ => show win10_2.index t (0 : Fin 2) * 5000 + 1 * p.val = t.val * 5000 + p.val; omega
    | ⟨1, _⟩ => show win10_2.index t (1 : Fin 2) * 64 + 1 * q.val = q.val; omega
  refine Eq.trans ?_ (congrArg (Cert.Spec.mm (F := Ideal) (V c main_v132) (V c main_v134)) hemb).symm
  refine entry10_2 (V c main_v132) (V c main_v134) (iblk10 V c 0 t) (iblk10 V c 1 t) ⟨t.val * 5000 + p.val, hn⟩ p q (fun k => ?_) (fun k => ?_)
  · show V c main_v132 (((cfg10.win 0).blk t).view.emb (ix2 p k)) = V c main_v132 (ix2 (⟨t.val * 5000 + p.val, hn⟩ : Fin 100000) k)
    refine congrArg (V c main_v132) ?_
    funext a; apply Fin.ext
    match a with
    | ⟨0, _⟩ => show win10_0.index t (0 : Fin 2) * 5000 + 1 * p.val = t.val * 5000 + p.val; omega
    | ⟨1, _⟩ => show win10_0.index t (1 : Fin 2) * 64 + 1 * k.val = k.val; omega
  · show V c main_v134 (((cfg10.win 1).blk t).view.emb (ix2 k q)) = V c main_v134 (ix2 k q)
    refine congrArg (V c main_v134) ?_
    funext a; apply Fin.ext
    match a with
    | ⟨0, _⟩ => show win10_1.index t (0 : Fin 2) * 64 + 1 * k.val = k.val; omega
    | ⟨1, _⟩ => show win10_1.index t (1 : Fin 2) * 64 + 1 * q.val = q.val; omega

/-- An index of the output array is in point t's block iff each coordinate is in the block's range on its axis. -/
theorem mem_blk10_2 (t : Fin cfg10.N) (i : S100000x64.Idx) :
    i ∈ ((cfg10.win 2).blk t).view.set ↔ ∀ a : Fin 2, win10_2.index t a * S5000x64.size a ≤ (i a).val ∧ (i a).val < win10_2.index t a * S5000x64.size a + S5000x64.size a := by
  show i ∈ ((View.whole main_v135).slice (win10_2.rect t)).set ↔ _
  rw [View.set_slice_whole, Rect.mem_set_unit]
  exact Iff.rfl

/-- Every entry of the output array is written back: row r lies in the block of point r / 5000. -/
theorem covered10_2 (i : S100000x64.Idx) :
    ∃ t : Fin cfg10.N, (cfg10.win 2).flush t = true ∧ i ∈ ((cfg10.win 2).blk t).view.set := by
  have hi0 : (i 0).val < 100000 := (i 0).isLt
  have hi1 : (i 1).val < 64 := (i 1).isLt
  obtain ⟨t, ht⟩ : ∃ t : Fin cfg10.N, t.val = (i 0).val / 5000 :=
    ⟨⟨(i 0).val / 5000, lt_of_lt_of_eq (by omega : (i 0).val / 5000 < 20) N_10.symm⟩, rfl⟩
  obtain ⟨e0, e1, e2, e3, e4, e5⟩ := idx_facts10 t
  refine ⟨t, flush10_2 t, ?_⟩
  rw [mem_blk10_2]
  intro a
  match a with
  | ⟨0, _⟩ => show win10_2.index t (0 : Fin 2) * 5000 ≤ (i 0).val ∧ (i 0).val < win10_2.index t (0 : Fin 2) * 5000 + 5000; omega
  | ⟨1, _⟩ => show win10_2.index t (1 : Fin 2) * 64 ≤ (i 1).val ∧ (i 1).val < win10_2.index t (1 : Fin 2) * 64 + 64; omega

/-- The output array after the region: the projection of the node features by the weight matrix, both as the
    region finds them. Every point writes back its block of that one product, and the twenty blocks fill the array. -/
theorem out10_eq (c : Dev nD) :
    (dat10 (F := Ideal) V c).arrAt 2 cfg10.N = Cert.Spec.mm (F := Ideal) (V c main_v132) (V c main_v134) :=
  (dat10 (F := Ideal) V c).arrAt_eq_of_cover 2 (Cert.Spec.mm (F := Ideal) (V c main_v132) (V c main_v134))
    (fun t _ => flushed10_2_eq V c t) (fun i => covered10_2 i)

end

end Cert.KernelIdeal.Hand

end
-- ==== Proof.KernelIdeal.Val11.lean ====
/-
  The per-graph mean of 64-wide node rows, as the reduce region computes it. Over the grid's twenty points the
  region adds, into a carried [256, 64] accumulator that the first point zeroes, the product (contracted along the
  5000 rows of the point's block) of a one-hot matrix — entry (r, g) is 1 when row r's graph id is g, else 0 — with the
  block of rows; after the last point it writes the accumulator divided, row by row, by the graphs' counts. On the
  extended reals 1 · x = x and 0 · x = 0 for every x, so after point n the accumulator holds at (g, d) the sum of
  x (r, d) over the rows r < 5000 · (n + 1) whose id is g: by induction on the point. After the last point that is the
  sum over all rows of the segment, which is what a scatter of rows with addition into zeros gives; both sides then
  divide by the same count.
-/
import proofs.«422469_j24000277250640_1_alg».proof.Proof.KernelIdeal.Reg11
import proofs.«422469_j24000277250640_1_alg».proof.Proof.KernelIdeal.SegSum
import proofs.«422469_j24000277250640_1_alg».proof.Proof.Spec.SegMean
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)
open scoped BigOperators

/-! ## The three stored values, read at an index -/

/-- The reset stores zero everywhere. -/
theorem pay11_1_apply (j : S256x64.Idx) : k11_pay1 (F := Ideal) j = 0 := by
  unfold k11_pay1
  simp only [shapeCast_self]
  exact Ideal.ofBits_zero_f32

/-- The accumulation at (g, d): what was there plus the block's rows of segment g in column d. -/
theorem pay11_2_apply (v3 : Vec Ideal S5000x64 .f32) (v7 : Vec Ideal S5000x1 .i32) (v15 : Vec Ideal S256x64 .f32)
    (g : Fin 256) (d : Fin 64) :
    k11_pay2 v3 v7 v15 (ix2 g d)
      = v15 (ix2 g d) + ∑ k : Fin 5000, (if (v7 (ix2 k 0)).toInt = (g.val : ℤ) then v3 (ix2 k d) else 0) := by
  unfold k11_pay2
  simp only [shapeCast_self]
  refine (addf_apply _ _ _).trans ?_
  refine congrArg (v15 (ix2 g d) + ·) ?_
  refine (Cert.SegSum.matmul_zero_apply dot_S5000x256_S5000x64_S256x64_0_0_1_1_n_n rfl rfl rfl rfl rfl rfl none _ _ (ix2 g d)).trans ?_
  refine Finset.sum_congr rfl fun k _ => ?_
  have hb : broadcastTo S5000x256 v7 broadcasts_S5000x1_S5000x256 (ix2 k g) = v7 (ix2 k 0) :=
    broadcastTo_apply v7 _ (ix2 k g) (ix2 k 0) (fun a => by match a with | ⟨0, _⟩ => rfl | ⟨1, _⟩ => rfl)
  have hio : iota .tc S5000x256 32 [1] iota_S5000x256_d1_w32 (ix2 k g) = BitVec.ofNat 32 g.val :=
    iota_single_apply .tc S5000x256 32 1 _ (ix2 k g)
  show (((((IntOp.cmpi .eq (broadcastTo S5000x256 v7 broadcasts_S5000x1_S5000x256 (ix2 k g))
      (iota .tc S5000x256 32 [1] iota_S5000x256_d1_w32 (ix2 k g))).setWidth 32).toInt : ℤ) : ℝ) : EReal) * v3 (ix2 k d) = _
  rw [hb, hio, Cert.SegSum.weight_mul]
  have hw := Cert.SegSum.eq_ofNat_iff_toInt (v7 (ix2 k 0)) g.val (by have := g.isLt; omega)
  by_cases h : v7 (ix2 k 0) = BitVec.ofNat 32 g.val
  · rw [if_pos h, if_pos (hw.mp h)]
  · rw [if_neg h, if_neg (fun h' => h (hw.mpr h'))]

/-- The write-back at (g, d): the accumulated sum over the segment's count. -/
theorem pay11_3_apply (v23 : Vec Ideal S256x64 .f32) (v24 : Vec Ideal S256x1 .f32) (g : Fin 256) (d : Fin 64) :
    k11_pay3 v23 v24 (ix2 g d) = Ideal.div (v23 (ix2 g d)) (v24 (ix2 g 0)) := by
  unfold k11_pay3
  simp only [shapeCast_self]
  refine (divf_apply _ _ _).trans ?_
  refine congrArg (Ideal.div (v23 (ix2 g d))) ?_
  exact broadcastTo_apply v24 broadcasts_S256x1_S256x64 (ix2 g d) (ix2 g 0)
    (fun a => by match a with | ⟨0, _⟩ => rfl | ⟨1, _⟩ => rfl)

/-! ## One point's accumulation, over rows of the whole arrays -/

/-- If the block is rows 5000·n … 5000·n + 4999 of the whole arrays and the scratch holds the sum over the first
    5000·n rows, the accumulation leaves the sum over the first 5000·(n + 1) rows. -/
theorem step11 (X : Vec Ideal S100000x64 .f32) (B : Vec Ideal S100000x1 .i32) (xb : Vec Ideal S5000x64 .f32)
    (bb : Vec Ideal S5000x1 .i32) (acc : Vec Ideal S256x64 .f32) (n : ℕ) (hn : 5000 * n + 5000 ≤ 100000)
    (hx : ∀ (k : Fin 5000) (d : Fin 64), xb (ix2 k d) = X (ix2 ⟨5000 * n + k.val, by have := k.isLt; omega⟩ d))
    (hb : ∀ k : Fin 5000, bb (ix2 k 0) = B (ix2 ⟨5000 * n + k.val, by have := k.isLt; omega⟩ 0))
    (g : Fin 256) (d : Fin 64)
    (hacc : acc (ix2 g d) = ∑ r ∈ Finset.range (5000 * n), Cert.SegSum.rowTerm X B g.val d r) :
    k11_pay2 xb bb acc (ix2 g d) = ∑ r ∈ Finset.range (5000 * (n + 1)), Cert.SegSum.rowTerm X B g.val d r := by
  rw [pay11_2_apply xb bb acc g d, hacc, Cert.SegSum.sum_range_tile X B g.val d 5000 n]
  refine congrArg (_ + ·) (Finset.sum_congr rfl fun k _ => ?_)
  rw [Cert.SegSum.rowTerm_of_lt X B g.val d (5000 * n + k.val) (by have := k.isLt; omega), hb k, hx k d]

/-! ## The last point: the write-back is the per-graph mean -/

/-- If the block is the last 5000 rows, the scratch holds the sum over the rows before them and the counts' block is
    the counts, what the last point writes back is the per-graph mean of the whole array. -/
theorem last11 [hR : Cert.ReferenceIdeal.Facts] (X : Vec Ideal S100000x64 .f32) (B : Vec Ideal S100000x1 .i32)
    (Nn : Vec Ideal S256x1 .f32) (xb : Vec Ideal S5000x64 .f32) (bb : Vec Ideal S5000x1 .i32) (nb : Vec Ideal S256x1 .f32)
    (acc : Vec Ideal S256x64 .f32)
    (hx : ∀ (k : Fin 5000) (d : Fin 64), xb (ix2 k d) = X (ix2 ⟨5000 * 19 + k.val, by have := k.isLt; omega⟩ d))
    (hb : ∀ k : Fin 5000, bb (ix2 k 0) = B (ix2 ⟨5000 * 19 + k.val, by have := k.isLt; omega⟩ 0))
    (hn : ∀ g : Fin 256, nb (ix2 g 0) = Nn (ix2 g 0))
    (hacc : ∀ (g : Fin 256) (d : Fin 64), acc (ix2 g d) = ∑ r ∈ Finset.range (5000 * 19), Cert.SegSum.rowTerm X B g.val d r) :
    k11_pay3 (k11_pay2 xb bb acc) nb = Cert.Spec.segMean64 X B Nn := by
  funext j
  obtain ⟨g, d, rfl⟩ : ∃ (g : Fin 256) (d : Fin 64), j = ix2 g d := ⟨j 0, j 1, eq_ix2 j⟩
  rw [pay11_3_apply (k11_pay2 xb bb acc) nb g d, step11 X B xb bb acc 19 (by omega) hx hb g d (hacc g d), hn g,
    Cert.Spec.segMean64_apply X B Nn g d, ← Cert.SegSum.sum_range_rowTerm X B g.val d]

/-! ## What each case's stores leave, as the stored values -/

theorem hz11 : (![0, 0] : Fin 2 → Nat) = fun _ => 0 := funext fun a => by fin_cases a <;> rfl

/-- First point: the scratch is zeroed, read back, and accumulated into. -/
theorem sout11_A_eq (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond11_0 i) (hcl : ¬cond11_1 i)
    (xd : Vec Ideal S5000x64 .f32) (xb : Vec Ideal S5000x1 .i32) (xn : Vec Ideal S256x1 .f32) :
    sout11_A_0 c i arg1 harg1 arg2 harg2 arg3 harg3 arg4 harg4 arg5 harg5 hcz hcl xd xb xn = k11_pay2 xd xb (k11_pay1 (F := Ideal)) := by
  unfold sout11_A_0
  rw [View.read_writes_eq_canon _ _ _ (scover11_A_0 c i arg1 harg1 arg2 harg2 arg3 harg3 arg4 harg4 arg5 harg5 hcz hcl xd xb xn)]
  unfold kernelRun11_A
  dsimp only
  sl_unfold_words
  rw [View.canon_cons_unit_zero (S := S256x64) hz11, View.readCov_unit_zero (S := S256x64) _ hz11]
  simp only [View.readAt_eq_ld, harg1.read_unread, harg2.read_unread, View.ld_unit_zero (S := S5000x64) hz11,
    View.ld_unit_zero (S := S5000x1) hz11]

/-- A middle point: the scratch is accumulated into. -/
theorem sout11_B_eq (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : ¬cond11_1 i)
    (xd : Vec Ideal S5000x64 .f32) (xb : Vec Ideal S5000x1 .i32) (xn : Vec Ideal S256x1 .f32) (xs : Vec Ideal S256x64 .f32) :
    sout11_B_0 c i arg1 harg1 arg2 harg2 arg3 harg3 arg4 harg4 arg5 harg5 hcz hcl xd xb xn xs = k11_pay2 xd xb xs := by
  unfold sout11_B_0
  rw [View.read_writes_eq_canon _ _ _ (scover11_B_0 c i arg1 harg1 arg2 harg2 arg3 harg3 arg4 harg4 arg5 harg5 hcz hcl xd xb xn xs)]
  unfold kernelRun11_B
  dsimp only
  sl_unfold_words
  rw [View.canon_unit_zero hz11]
  simp only [View.readAt_eq_ld, harg1.read_unread, harg2.read_unread, harg5.read_unread, View.ld_unit_zero (S := S5000x64) hz11,
    View.ld_unit_zero (S := S5000x1) hz11, View.ld_unit_zero (S := S256x64) hz11]

/-- The last point: the scratch is accumulated into, -/
theorem sout11_C_eq (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : cond11_1 i)
    (xd : Vec Ideal S5000x64 .f32) (xb : Vec Ideal S5000x1 .i32) (xn : Vec Ideal S256x1 .f32) (xs : Vec Ideal S256x64 .f32) :
    sout11_C_0 c i arg1 harg1 arg2 harg2 arg3 harg3 arg4 harg4 arg5 harg5 hcz hcl xd xb xn xs = k11_pay2 xd xb xs := by
  unfold sout11_C_0
  rw [View.read_writes_eq_canon _ _ _ (scover11_C_0 c i arg1 harg1 arg2 harg2 arg3 harg3 arg4 harg4 arg5 harg5 hcz hcl xd xb xn xs)]
  unfold kernelRun11_C
  dsimp only
  sl_unfold_words
  rw [View.canon_unit_zero hz11]
  simp only [View.readAt_eq_ld, harg1.read_unread, harg2.read_unread, harg5.read_unread, View.ld_unit_zero (S := S5000x64) hz11,
    View.ld_unit_zero (S := S5000x1) hz11, View.ld_unit_zero (S := S256x64) hz11]

/-- and its quotient by the counts is stored into the output's block. -/
theorem out11_C_eq (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond11_0 i) (hcl : cond11_1 i)
    (xd : Vec Ideal S5000x64 .f32) (xb : Vec Ideal S5000x1 .i32) (xn : Vec Ideal S256x1 .f32) (xs : Vec Ideal S256x64 .f32) :
    out11_C_3 c i arg1 harg1 arg2 harg2 arg3 harg3 arg4 harg4 arg5 harg5 hcz hcl xd xb xn xs = k11_pay3 (k11_pay2 xd xb xs) xn := by
  unfold out11_C_3
  rw [View.read_writes_eq_canon _ _ _ (cover11_C_3 c i arg1 harg1 arg2 harg2 arg3 harg3 arg4 harg4 arg5 harg5 hcz hcl xd xb xn xs)]
  unfold kernelRun11_C
  dsimp only
  sl_unfold_words
  rw [View.canon_unit_zero hz11]
  simp only [View.readAt_eq_ld, harg1.read_unread, harg2.read_unread, harg3.read_unread, harg5.read_unread,
    View.readCov_unit_zero (S := S256x64) _ hz11, View.ld_unit_zero (S := S5000x64) hz11,
    View.ld_unit_zero (S := S5000x1) hz11, View.ld_unit_zero (S := S256x64) hz11, View.ld_unit_zero (S := S256x1) hz11]

/-! ## The blocks are rows of the whole arrays -/

section
variable (V : (c : Dev nD) → (b : Ref sig .tc) → Buf (Elt Ideal) ((c : Thread nD τ).loc b))

/-- The three whole arrays the region reads, and each window's block at a point, by their literal types. -/
abbrev xarr11 (c : Dev nD) : Vec Ideal S100000x64 .f32 := V c main_v153
abbrev barr11 (c : Dev nD) : Vec Ideal S100000x1 .i32 := V c main_v36
abbrev narr11 (c : Dev nD) : Vec Ideal S256x1 .f32 := V c main_v35
abbrev xblk11 (c : Dev nD) (t : Fin cfg11.N) : Vec Ideal S5000x64 .f32 := iblk11 V c 0 t
abbrev bblk11 (c : Dev nD) (t : Fin cfg11.N) : Vec Ideal S5000x1 .i32 := iblk11 V c 1 t
abbrev nblk11 (c : Dev nD) (t : Fin cfg11.N) : Vec Ideal S256x1 .f32 := iblk11 V c 2 t

/-- Where the windows' blocks sit at point t: the two row windows at block t, the counts at block 0. -/
theorem idx11_0 : ∀ t : Fin cfg11.N, win11_0.index t 0 = t.val ∧ win11_0.index t 1 = 0 :=
  (by decide +kernel : ∀ t : Fin grid11.N, win11_0.index t 0 = t.val ∧ win11_0.index t 1 = 0)
theorem idx11_1 : ∀ t : Fin cfg11.N, win11_1.index t 0 = t.val ∧ win11_1.index t 1 = 0 :=
  (by decide +kernel : ∀ t : Fin grid11.N, win11_1.index t 0 = t.val ∧ win11_1.index t 1 = 0)
theorem idx11_2 : ∀ t : Fin cfg11.N, win11_2.index t 0 = 0 ∧ win11_2.index t 1 = 0 :=
  (by decide +kernel : ∀ t : Fin grid11.N, win11_2.index t 0 = 0 ∧ win11_2.index t 1 = 0)

theorem lt11 (t : Fin cfg11.N) (k : Fin 5000) : 5000 * t.val + k.val < 100000 := by
  have hN : cfg11.N = 20 := N_11
  have := t.isLt; have := k.isLt; omega

theorem xblk11_apply (c : Dev nD) (t : Fin cfg11.N) (k : Fin 5000) (d : Fin 64) :
    xblk11 V c t (ix2 k d) = xarr11 V c (ix2 ⟨5000 * t.val + k.val, lt11 t k⟩ d) := by
  have hi := idx11_0 t
  show iblk11 V c 0 t (ix2 k d) = V c main_v153 _
  unfold iblk11
  rw [View.read_apply]
  show V c main_v153 _ = V c main_v153 _
  congr 1
  funext a
  apply Fin.ext
  match a with
  | ⟨0, _⟩ => show win11_0.index t 0 * 5000 + 1 * k.val = 5000 * t.val + k.val; rw [hi.1]; omega
  | ⟨1, _⟩ => show win11_0.index t 1 * 64 + 1 * d.val = d.val; rw [hi.2]; omega

theorem bblk11_apply (c : Dev nD) (t : Fin cfg11.N) (k : Fin 5000) :
    bblk11 V c t (ix2 k 0) = barr11 V c (ix2 ⟨5000 * t.val + k.val, lt11 t k⟩ 0) := by
  have hi := idx11_1 t
  show iblk11 V c 1 t (ix2 k 0) = V c main_v36 _
  unfold iblk11
  rw [View.read_apply]
  show V c main_v36 _ = V c main_v36 _
  congr 1
  funext a
  apply Fin.ext
  match a with
  | ⟨0, _⟩ => show win11_1.index t 0 * 5000 + 1 * k.val = 5000 * t.val + k.val; rw [hi.1]; omega
  | ⟨1, _⟩ => show win11_1.index t 1 * 1 + 1 * 0 = 0; rw [hi.2]

theorem nblk11_apply (c : Dev nD) (t : Fin cfg11.N) (g : Fin 256) :
    nblk11 V c t (ix2 g 0) = narr11 V c (ix2 g 0) := by
  have hi := idx11_2 t
  show iblk11 V c 2 t (ix2 g 0) = V c main_v35 _
  unfold iblk11
  rw [View.read_apply]
  show V c main_v35 _ = V c main_v35 _
  congr 1
  funext a
  apply Fin.ext
  match a with
  | ⟨0, _⟩ => show win11_2.index t 0 * 256 + 1 * g.val = g.val; rw [hi.1]; omega
  | ⟨1, _⟩ => show win11_2.index t 1 * 1 + 1 * 0 = 0; rw [hi.2]

variable [hR : Cert.ReferenceIdeal.Facts]

/-! ## The scratch after each point, and the array after the last -/

/-- After point n the scratch holds, at (g, d), the sum over the first 5000·(n + 1) rows of segment g in column d. -/
theorem scratch11_apply (c : Dev nD) (g : Fin 256) (d : Fin 64) : ∀ (n : ℕ) (h : n < cfg11.N),
    (outsAt11 V c n h).2 (ix2 g d)
      = ∑ r ∈ Finset.range (5000 * (n + 1)), Cert.SegSum.rowTerm (xarr11 V c) (barr11 V c) g.val d r
  | 0, h => by
    have hN : cfg11.N = 20 := N_11
    rw [outsAt11_A V c ⟨0, h⟩ rfl (by dsimp only; omega)]
    dsimp only
    refine (congrFun (sout11_A_eq c (grid11.coords ⟨0, h⟩) (ms11_0 ⟨0, h⟩) (hs11_0 ⟨0, h⟩) (ms11_1 ⟨0, h⟩) (hs11_1 ⟨0, h⟩) (ms11_2 ⟨0, h⟩) (hs11_2 ⟨0, h⟩) (ms11_3 ⟨0, h⟩) (hs11_3 ⟨0, h⟩) scM11_0 (Memref.isWhole_whole _) _ _ (xblk11 V c ⟨0, h⟩) (bblk11 V c ⟨0, h⟩) (nblk11 V c ⟨0, h⟩)) (ix2 g d)).trans ?_
    exact step11 (xarr11 V c) (barr11 V c) (xblk11 V c ⟨0, h⟩) (bblk11 V c ⟨0, h⟩) (k11_pay1 (F := Ideal)) 0 (by omega)
      (fun k d => xblk11_apply V c ⟨0, h⟩ k d) (fun k => bblk11_apply V c ⟨0, h⟩ k) g d
      (by rw [pay11_1_apply, Cert.SegSum.sum_range_zero])
  | n + 1, h => by
    have hN : cfg11.N = 20 := N_11
    have ih := scratch11_apply c g d n (Nat.lt_of_succ_lt h)
    have h0 : ¬(⟨n + 1, h⟩ : Fin cfg11.N).val % 20 = 0 := by dsimp only; omega
    by_cases h1 : (⟨n + 1, h⟩ : Fin cfg11.N).val % 20 = 19
    · rw [outsAt11_C V c ⟨n + 1, h⟩ h0 h1]
      dsimp only
      refine (congrFun (sout11_C_eq c (grid11.coords ⟨n + 1, h⟩) (ms11_0 ⟨n + 1, h⟩) (hs11_0 ⟨n + 1, h⟩) (ms11_1 ⟨n + 1, h⟩) (hs11_1 ⟨n + 1, h⟩) (ms11_2 ⟨n + 1, h⟩) (hs11_2 ⟨n + 1, h⟩) (ms11_3 ⟨n + 1, h⟩) (hs11_3 ⟨n + 1, h⟩) scM11_0 (Memref.isWhole_whole _) _ _ (xblk11 V c ⟨n + 1, h⟩) (bblk11 V c ⟨n + 1, h⟩) (nblk11 V c ⟨n + 1, h⟩)
        (outsAt11 V c n (Nat.lt_of_succ_lt h)).2) (ix2 g d)).trans ?_
      exact step11 (xarr11 V c) (barr11 V c) (xblk11 V c ⟨n + 1, h⟩) (bblk11 V c ⟨n + 1, h⟩) (outsAt11 V c n (Nat.lt_of_succ_lt h)).2 (n + 1)
        (by omega) (fun k d => xblk11_apply V c ⟨n + 1, h⟩ k d) (fun k => bblk11_apply V c ⟨n + 1, h⟩ k) g d ih
    · rw [outsAt11_B V c ⟨n + 1, h⟩ h0 h1]
      dsimp only
      refine (congrFun (sout11_B_eq c (grid11.coords ⟨n + 1, h⟩) (ms11_0 ⟨n + 1, h⟩) (hs11_0 ⟨n + 1, h⟩) (ms11_1 ⟨n + 1, h⟩) (hs11_1 ⟨n + 1, h⟩) (ms11_2 ⟨n + 1, h⟩) (hs11_2 ⟨n + 1, h⟩) (ms11_3 ⟨n + 1, h⟩) (hs11_3 ⟨n + 1, h⟩) scM11_0 (Memref.isWhole_whole _) _ _ (xblk11 V c ⟨n + 1, h⟩) (bblk11 V c ⟨n + 1, h⟩) (nblk11 V c ⟨n + 1, h⟩)
        (outsAt11 V c n (Nat.lt_of_succ_lt h)).2) (ix2 g d)).trans ?_
      exact step11 (xarr11 V c) (barr11 V c) (xblk11 V c ⟨n + 1, h⟩) (bblk11 V c ⟨n + 1, h⟩) (outsAt11 V c n (Nat.lt_of_succ_lt h)).2 (n + 1)
        (by omega) (fun k d => xblk11_apply V c ⟨n + 1, h⟩ k d) (fun k => bblk11_apply V c ⟨n + 1, h⟩ k) g d ih

/-- The last point of the grid. -/
abbrev t11_last : Fin cfg11.N := ⟨19, by decide⟩

/-- What the last point leaves in the output's block: the per-graph mean. -/
theorem out11_last (c : Dev nD) :
    (outsAt11 V c t11_last.val t11_last.isLt).1 = Cert.Spec.segMean64 (F := Ideal) (xarr11 V c) (barr11 V c) (narr11 V c) := by
  rw [outsAt11_C V c t11_last (by decide) rfl]
  dsimp only
  refine (out11_C_eq c (grid11.coords t11_last) (ms11_0 t11_last) (hs11_0 t11_last) (ms11_1 t11_last) (hs11_1 t11_last) (ms11_2 t11_last) (hs11_2 t11_last) (ms11_3 t11_last) (hs11_3 t11_last) scM11_0 (Memref.isWhole_whole _) _ _ (xblk11 V c t11_last) (bblk11 V c t11_last) (nblk11 V c t11_last)
    (outsAt11 V c 18 (by decide)).2).trans ?_
  exact last11 (xarr11 V c) (barr11 V c) (narr11 V c) (xblk11 V c t11_last) (bblk11 V c t11_last) (nblk11 V c t11_last)
    (outsAt11 V c 18 (by decide)).2 (fun k d => xblk11_apply V c t11_last k d) (fun k => bblk11_apply V c t11_last k)
    (fun g => nblk11_apply V c t11_last g) (fun g d => scratch11_apply V c g d 18 (by decide))

/-- The per-graph mean, as contents of the region's result array. -/
abbrev result11 (c : Dev nD) : Buf (Elt Ideal) ((c : Thread nD τ).loc main_v154) :=
  Cert.Spec.segMean64 (F := Ideal) (V c main_v153) (V c main_v36) (V c main_v35)

theorem idx11_3 : ∀ t : Fin cfg11.N, win11_3.index t 0 = 0 ∧ win11_3.index t 1 = 0 :=
  (by decide +kernel : ∀ t : Fin grid11.N, win11_3.index t 0 = 0 ∧ win11_3.index t 1 = 0)

/-- The one write-back, at the last point, writes it: the output's one block is the whole array. -/
theorem flushed11_eq (c : Dev nD) (t : Fin cfg11.N) (hf : (cfg11.win 3).flush t = true) :
    (dat11 V c).flushed 3 t = ((cfg11.win 3).blk t).view.read (Elt Ideal) (result11 V c) := by
  have hN : cfg11.N = 20 := N_11
  have h19 : t.val = 19 := by have := (flush11_3 t).mp hf; have := t.isLt; omega
  obtain rfl : t = t11_last := Fin.ext h19
  show (cfg11.win 3).cut (grid11.coords t11_last) ((dat11 V c).after 3 t11_last) = _
  rw [after11_3, out11_last]
  have hz' : (fun a => win11_3.index t11_last a * main_v154.ty.shape.size a) = fun _ => 0 :=
    funext fun a => by fin_cases a <;> decide +kernel
  exact (Memref.read_access_unit_zero (Elt Ideal) main_v154 hz' (fun a => by rw [congrFun hz' a]; simp) (result11 V c)).symm

/-- So the region's result array ends holding the per-graph mean of the rows it was given. -/
theorem out11_eq (c : Dev nD) :
    (dat11 V c).arrAt 3 cfg11.N = Cert.Spec.segMean64 (F := Ideal) (V c main_v153) (V c main_v36) (V c main_v35) :=
  (dat11 V c).arrAt_eq_of_cover 3 (result11 V c) (flushed11_eq V c) fun i =>
    ⟨t11_last, (flush11_3 t11_last).mpr rfl, by
      show i ∈ ((View.whole main_v154).slice (win11_3.rect t11_last)).set
      rw [View.set_slice_whole, Rect.mem_set_unit]
      intro a
      have h0 : (i 0 : Nat) < 256 := (i 0).isLt
      have h1 : (i 1 : Nat) < 64 := (i 1).isLt
      match a with
      | ⟨0, _⟩ =>
        show win11_3.index t11_last 0 * win11_3.size 0 ≤ (i 0 : Nat) ∧ (i 0 : Nat) < win11_3.index t11_last 0 * win11_3.size 0 + win11_3.xsize (grid11.coords t11_last) 0
        rw [show win11_3.index t11_last 0 * win11_3.size 0 = 0 from by decide +kernel, show win11_3.xsize (grid11.coords t11_last) 0 = 256 from by decide +kernel]; omega
      | ⟨1, _⟩ =>
        show win11_3.index t11_last 1 * win11_3.size 1 ≤ (i 1 : Nat) ∧ (i 1 : Nat) < win11_3.index t11_last 1 * win11_3.size 1 + win11_3.xsize (grid11.coords t11_last) 1
        rw [show win11_3.index t11_last 1 * win11_3.size 1 = 0 from by decide +kernel, show win11_3.xsize (grid11.coords t11_last) 1 = 64 from by decide +kernel]; omega⟩

end

end Cert.KernelIdeal.Hand

end
-- ==== Proof.KernelIdeal.Val12.lean ====
/-
  The centring stage, read as whole arrays. The stage walks the 100000 node rows in 20 tiles of 5000 rows; on each
  tile it forms, entry by entry, x (n, j) − α j · μ (n, j) and the square of that difference, and writes the two
  tiles back at the rows they came from. Since an entry of the result depends only on the same entry of x and μ and
  on α at the same feature j, and the 20 tiles cover every row exactly once, the two arrays the stage leaves are the
  centred rows and their squares of the whole input arrays, whatever the order of the tiles.
-/
import proofs.«422469_j24000277250640_1_alg».proof.Proof.KernelIdeal.Reg12
import proofs.«422469_j24000277250640_1_alg».proof.Proof.Gen.ReferenceIdeal
import proofs.«422469_j24000277250640_1_alg».proof.Proof.Spec.Ops
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable {F : FTy → Type} [FloatOps F]

/-! ## One entry of a tile -/

/-- The two zero offsets of a whole-tile access, as a constant function. -/
theorem hz12 : (![0, 0] : Fin 2 → Nat) = fun _ => 0 := funext fun a => by fin_cases a <;> rfl

/-- Entry (p, q) of the difference tile: x (p, q) − α (0, q) · μ (p, q); the row of α is repeated down the tile. -/
theorem k12_pay1_apply (x mu : Vec F S5000x64 .f32) (al : Vec F S1x64 .f32) (p : Fin 5000) (q : Fin 64) :
    k12_pay1 x al mu (ix2 p q) = FloatOps.subf (x (ix2 p q)) (FloatOps.mulf (al (ix2 (0 : Fin 1) q)) (mu (ix2 p q))) := by
  unfold k12_pay1
  rw [shapeCast_self, shapeCast_self, shapeCast_self]
  show FloatOps.subf (x (ix2 p q)) (FloatOps.mulf (broadcastTo S5000x64 al broadcasts_S1x64_S5000x64 (ix2 p q)) (mu (ix2 p q))) = _
  rw [broadcastTo_apply al broadcasts_S1x64_S5000x64 (ix2 p q) (ix2 (0 : Fin 1) q) (fun a => by
    match a with
    | ⟨0, _⟩ => rfl
    | ⟨1, _⟩ => rfl)]

/-- Entry (p, q) of the square tile is the product of the difference's entry with itself. -/
theorem k12_pay2_apply (x mu : Vec F S5000x64 .f32) (al : Vec F S1x64 .f32) (p : Fin 5000) (q : Fin 64) :
    k12_pay2 x al mu (ix2 p q) = FloatOps.mulf (k12_pay1 x al mu (ix2 p q)) (k12_pay1 x al mu (ix2 p q)) := rfl

/-! ## One entry of the whole-array functions -/

/-- Entry (n, q) of the centred array: x (n, q) − α (0, q) · μ (n, q). -/
theorem centered_apply12 (X M : FVec F Cert.ReferenceIdeal.S100000x64 .f32) (A : FVec F Cert.ReferenceIdeal.S1x64 .f32)
    (n : Fin 100000) (q : Fin 64) :
    Cert.Spec.centered X M A (ix2 n q) = FloatOps.subf (X (ix2 n q)) (FloatOps.mulf (A (ix2 (0 : Fin 1) q)) (M (ix2 n q))) := by
  unfold Cert.Spec.centered
  show FloatOps.subf (X (ix2 n q)) (FloatOps.mulf (broadcastInDim Cert.ReferenceIdeal.S100000x64 ![0, 1] Cert.ReferenceIdeal.Facts₀.bcast_S1x64_S100000x64_0_1 A (ix2 n q)) (M (ix2 n q))) = _
  rw [broadcastInDim_apply ![0, 1] Cert.ReferenceIdeal.Facts₀.bcast_S1x64_S100000x64_0_1 A (ix2 n q) (ix2 (0 : Fin 1) q) (fun a => by
    match a with
    | ⟨0, _⟩ => rfl
    | ⟨1, _⟩ => rfl)]

/-- Entry (n, q) of the squared array is the centred entry times itself. -/
theorem centeredSq_apply12 (X M : FVec F Cert.ReferenceIdeal.S100000x64 .f32) (A : FVec F Cert.ReferenceIdeal.S1x64 .f32)
    (n : Fin 100000) (q : Fin 64) :
    Cert.Spec.centeredSq X M A (ix2 n q) = FloatOps.mulf (Cert.Spec.centered X M A (ix2 n q)) (Cert.Spec.centered X M A (ix2 n q)) := rfl

/-! ## Where a tile sits -/

/-- At tile t the four row-tiled arrays are all at row block t and column block 0, and α at block (0, 0). -/
theorem idx_facts12 : ∀ t : Fin cfg12.N,
      win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0
    ∧ win12_4.index t (0 : Fin 2) = t.val ∧ win12_4.index t (1 : Fin 2) = 0 :=
  (by decide +kernel : ∀ t : Fin grid12.N, _)

/-- Every one of the 20 row blocks of either result is some tile's. -/
theorem idx_onto12 : ∀ (q0 : Fin 20), ∃ t : Fin cfg12.N, win12_3.index t = ![q0.val, 0] ∧ win12_4.index t = ![q0.val, 0] :=
  (by decide +kernel : ∀ (q0 : Fin 20), ∃ t : Fin grid12.N, win12_3.index t = ![q0.val, 0] ∧ win12_4.index t = ![q0.val, 0])

/-- Row p of tile t is row 5000 t + p of the array, below 100000. -/
theorem row_lt12 (t : Fin cfg12.N) (p : Fin 5000) : t.val * 5000 + p.val < 100000 := by
  have ht : t.val < 20 := lt_of_lt_of_eq t.isLt N_12
  omega

/-- Entry (p, q) of tile t of x is entry (5000 t + p, q) of x. -/
theorem emb12_0 (t : Fin cfg12.N) (p : Fin 5000) (q : Fin 64) :
    ((cfg12.win 0).blk t).view.emb (ix2 p q) = ix2 (⟨t.val * 5000 + p.val, row_lt12 t p⟩ : Fin 100000) q := by
  obtain ⟨e00, e01, e10, e11, e20, e21, e30, e31, e40, e41⟩ := idx_facts12 t
  funext a; apply Fin.ext
  match a with
  | ⟨0, _⟩ => show win12_0.index t (0 : Fin 2) * 5000 + 1 * p.val = t.val * 5000 + p.val; omega
  | ⟨1, _⟩ => show win12_0.index t (1 : Fin 2) * 64 + 1 * q.val = q.val; omega

/-- The same for μ. -/
theorem emb12_1 (t : Fin cfg12.N) (p : Fin 5000) (q : Fin 64) :
    ((cfg12.win 1).blk t).view.emb (ix2 p q) = ix2 (⟨t.val * 5000 + p.val, row_lt12 t p⟩ : Fin 100000) q := by
  obtain ⟨e00, e01, e10, e11, e20, e21, e30, e31, e40, e41⟩ := idx_facts12 t
  funext a; apply Fin.ext
  match a with
  | ⟨0, _⟩ => show win12_1.index t (0 : Fin 2) * 5000 + 1 * p.val = t.val * 5000 + p.val; omega
  | ⟨1, _⟩ => show win12_1.index t (1 : Fin 2) * 64 + 1 * q.val = q.val; omega

/-- Every tile sees the whole row α: entry (0, q) of its block is entry (0, q) of α. -/
theorem emb12_2 (t : Fin cfg12.N) (q : Fin 64) :
    ((cfg12.win 2).blk t).view.emb (ix2 (0 : Fin 1) q) = ix2 (0 : Fin 1) q := by
  obtain ⟨e00, e01, e10, e11, e20, e21, e30, e31, e40, e41⟩ := idx_facts12 t
  funext a; apply Fin.ext
  match a with
  | ⟨0, _⟩ => show win12_2.index t (0 : Fin 2) * 1 + 1 * 0 = 0; omega
  | ⟨1, _⟩ => show win12_2.index t (1 : Fin 2) * 64 + 1 * q.val = q.val; omega

/-- Entry (p, q) of tile t of the centred result is entry (5000 t + p, q) of that array. -/
theorem emb12_3 (t : Fin cfg12.N) (p : Fin 5000) (q : Fin 64) :
    ((cfg12.win 3).blk t).view.emb (ix2 p q) = ix2 (⟨t.val * 5000 + p.val, row_lt12 t p⟩ : Fin 100000) q := by
  obtain ⟨e00, e01, e10, e11, e20, e21, e30, e31, e40, e41⟩ := idx_facts12 t
  funext a; apply Fin.ext
  match a with
  | ⟨0, _⟩ => show win12_3.index t (0 : Fin 2) * 5000 + 1 * p.val = t.val * 5000 + p.val; omega
  | ⟨1, _⟩ => show win12_3.index t (1 : Fin 2) * 64 + 1 * q.val = q.val; omega

/-- The same for the squared result. -/
theorem emb12_4 (t : Fin cfg12.N) (p : Fin 5000) (q : Fin 64) :
    ((cfg12.win 4).blk t).view.emb (ix2 p q) = ix2 (⟨t.val * 5000 + p.val, row_lt12 t p⟩ : Fin 100000) q := by
  obtain ⟨e00, e01, e10, e11, e20, e21, e30, e31, e40, e41⟩ := idx_facts12 t
  funext a; apply Fin.ext
  match a with
  | ⟨0, _⟩ => show win12_4.index t (0 : Fin 2) * 5000 + 1 * p.val = t.val * 5000 + p.val; omega
  | ⟨1, _⟩ => show win12_4.index t (1 : Fin 2) * 64 + 1 * q.val = q.val; omega

section
variable (V : (c : Dev nD) → (b : Ref sig .tc) → Buf (Elt F) ((c : Thread nD τ).loc b))

/-! ## A tile of the result is a tile of the whole-array function -/

/-- The difference computed on tile t, at (p, q), is the centred array of the whole inputs at (5000 t + p, q). -/
theorem pay1_blk12 (c : Dev nD) (t : Fin cfg12.N) (p : Fin 5000) (q : Fin 64) :
    k12_pay1 (iblk12 V c 0 t) (iblk12 V c 2 t) (iblk12 V c 1 t) (ix2 p q)
      = Cert.Spec.centered (V c main_v153) (V c main_v161) (V c main_v164) (ix2 (⟨t.val * 5000 + p.val, row_lt12 t p⟩ : Fin 100000) q) := by
  refine (k12_pay1_apply (iblk12 V c 0 t) (iblk12 V c 1 t) (iblk12 V c 2 t) p q).trans ?_
  refine Eq.trans ?_ (centered_apply12 (V c main_v153) (V c main_v161) (V c main_v164) ⟨t.val * 5000 + p.val, row_lt12 t p⟩ q).symm
  show FloatOps.subf (V c main_v153 (((cfg12.win 0).blk t).view.emb (ix2 p q)))
      (FloatOps.mulf (V c main_v164 (((cfg12.win 2).blk t).view.emb (ix2 (0 : Fin 1) q))) (V c main_v161 (((cfg12.win 1).blk t).view.emb (ix2 p q)))) = _
  rw [emb12_0, emb12_1, emb12_2]

/-- The square computed on tile t, at (p, q), is the squared array of the whole inputs at (5000 t + p, q). -/
theorem pay2_blk12 (c : Dev nD) (t : Fin cfg12.N) (p : Fin 5000) (q : Fin 64) :
    k12_pay2 (iblk12 V c 0 t) (iblk12 V c 2 t) (iblk12 V c 1 t) (ix2 p q)
      = Cert.Spec.centeredSq (V c main_v153) (V c main_v161) (V c main_v164) (ix2 (⟨t.val * 5000 + p.val, row_lt12 t p⟩ : Fin 100000) q) := by
  refine (k12_pay2_apply (iblk12 V c 0 t) (iblk12 V c 1 t) (iblk12 V c 2 t) p q).trans ?_
  refine Eq.trans ?_ (centeredSq_apply12 (V c main_v153) (V c main_v161) (V c main_v164) ⟨t.val * 5000 + p.val, row_lt12 t p⟩ q).symm
  rw [pay1_blk12 V c t p q]

/-- What tile t writes back to the centred result is tile t of the centred array of the whole inputs. -/
theorem blk12_3 (c : Dev nD) (t : Fin cfg12.N) :
    (cfg12.win 3).cut (grid12.coords t) (out12_3 (iblk12 V c 0 t) (iblk12 V c 1 t) (iblk12 V c 2 t))
      = ((cfg12.win 3).blk t).view.read (Elt F) (Cert.Spec.centered (V c main_v153) (V c main_v161) (V c main_v164)) := by
  unfold out12_3
  rw [View.canon_unit_zero hz12]
  simp only [View.ld_unit_zero (S := S5000x64) hz12, View.ld_unit_zero (S := S1x64) hz12]
  funext j
  obtain ⟨p, q, rfl⟩ : ∃ (p : Fin 5000) (q : Fin 64), j = ix2 p q := ⟨j 0, j 1, eq_ix2 j⟩
  show _ = Cert.Spec.centered (V c main_v153) (V c main_v161) (V c main_v164) (((cfg12.win 3).blk t).view.emb (ix2 p q))
  rw [emb12_3]
  exact pay1_blk12 V c t p q

/-- What tile t writes back to the squared result is tile t of the squared array of the whole inputs. -/
theorem blk12_4 (c : Dev nD) (t : Fin cfg12.N) :
    (cfg12.win 4).cut (grid12.coords t) (out12_4 (iblk12 V c 0 t) (iblk12 V c 1 t) (iblk12 V c 2 t))
      = ((cfg12.win 4).blk t).view.read (Elt F) (Cert.Spec.centeredSq (V c main_v153) (V c main_v161) (V c main_v164)) := by
  unfold out12_4
  rw [View.canon_unit_zero hz12]
  simp only [View.ld_unit_zero (S := S5000x64) hz12, View.ld_unit_zero (S := S1x64) hz12]
  funext j
  obtain ⟨p, q, rfl⟩ : ∃ (p : Fin 5000) (q : Fin 64), j = ix2 p q := ⟨j 0, j 1, eq_ix2 j⟩
  show _ = Cert.Spec.centeredSq (V c main_v153) (V c main_v161) (V c main_v164) (((cfg12.win 4).blk t).view.emb (ix2 p q))
  rw [emb12_4]
  exact pay2_blk12 V c t p q

end

/-! ## The tiles cover every row -/

/-- An entry is in tile t of the centred result iff its row is in t's 5000 rows (and its column among the 64). -/
theorem mem_blk12_3 (t : Fin cfg12.N) (i : S100000x64.Idx) :
    i ∈ ((cfg12.win 3).blk t).view.set ↔ ∀ a : Fin 2, win12_3.index t a * S5000x64.size a ≤ (i a).val ∧ (i a).val < win12_3.index t a * S5000x64.size a + S5000x64.size a := by
  show i ∈ ((View.whole main_v165_0).slice (win12_3.rect t)).set ↔ _
  rw [View.set_slice_whole, Rect.mem_set_unit]
  exact Iff.rfl

/-- The same for the squared result. -/
theorem mem_blk12_4 (t : Fin cfg12.N) (i : S100000x64.Idx) :
    i ∈ ((cfg12.win 4).blk t).view.set ↔ ∀ a : Fin 2, win12_4.index t a * S5000x64.size a ≤ (i a).val ∧ (i a).val < win12_4.index t a * S5000x64.size a + S5000x64.size a := by
  show i ∈ ((View.whole main_v165_1).slice (win12_4.rect t)).set ↔ _
  rw [View.set_slice_whole, Rect.mem_set_unit]
  exact Iff.rfl

/-- Row n lies in tile n / 5000, which writes back: every entry of the centred result is written. -/
theorem rows12_3 (i : S100000x64.Idx) : ∃ t : Fin cfg12.N, (cfg12.win 3).flush t = true ∧ i ∈ ((cfg12.win 3).blk t).view.set := by
  have hi0 : (i 0).val < 100000 := (i 0).isLt
  have hi1 : (i 1).val < 64 := (i 1).isLt
  obtain ⟨t, ht, -⟩ := idx_onto12 ⟨(i 0).val / 5000, by omega⟩
  have q0 : win12_3.index t (0 : Fin 2) = (i 0).val / 5000 := congrFun ht 0
  have q1 : win12_3.index t (1 : Fin 2) = 0 := congrFun ht 1
  refine ⟨t, flush12_3 t, ?_⟩
  rw [mem_blk12_3]
  intro a
  match a with
  | ⟨0, _⟩ => show win12_3.index t (0 : Fin 2) * 5000 ≤ (i 0).val ∧ (i 0).val < win12_3.index t (0 : Fin 2) * 5000 + 5000; omega
  | ⟨1, _⟩ => show win12_3.index t (1 : Fin 2) * 64 ≤ (i 1).val ∧ (i 1).val < win12_3.index t (1 : Fin 2) * 64 + 64; omega

/-- The same for the squared result. -/
theorem rows12_4 (i : S100000x64.Idx) : ∃ t : Fin cfg12.N, (cfg12.win 4).flush t = true ∧ i ∈ ((cfg12.win 4).blk t).view.set := by
  have hi0 : (i 0).val < 100000 := (i 0).isLt
  have hi1 : (i 1).val < 64 := (i 1).isLt
  obtain ⟨t, -, ht⟩ := idx_onto12 ⟨(i 0).val / 5000, by omega⟩
  have q0 : win12_4.index t (0 : Fin 2) = (i 0).val / 5000 := congrFun ht 0
  have q1 : win12_4.index t (1 : Fin 2) = 0 := congrFun ht 1
  refine ⟨t, flush12_4 t, ?_⟩
  rw [mem_blk12_4]
  intro a
  match a with
  | ⟨0, _⟩ => show win12_4.index t (0 : Fin 2) * 5000 ≤ (i 0).val ∧ (i 0).val < win12_4.index t (0 : Fin 2) * 5000 + 5000; omega
  | ⟨1, _⟩ => show win12_4.index t (1 : Fin 2) * 64 ≤ (i 1).val ∧ (i 1).val < win12_4.index t (1 : Fin 2) * 64 + 64; omega

/-! ## The two arrays the stage leaves -/

section
variable (V : (c : Dev nD) → (b : Ref sig .tc) → Buf (Elt F) ((c : Thread nD τ).loc b))

/-- After the 20 tiles the first result holds x − α · μ of the whole arrays the stage found. -/
theorem out12_0_eq (c : Dev nD) :
    (dat12 V c).arrAt 3 cfg12.N = Cert.Spec.centered (V c main_v153) (V c main_v161) (V c main_v164) :=
  (dat12 V c).arrAt_eq_of_cover 3 _ (fun t _ => by
    show (cfg12.win 3).cut (grid12.coords t) ((dat12 V c).after 3 t) = _
    rw [after12_3]; exact blk12_3 V c t) rows12_3

/-- And the second holds its square, entry by entry. -/
theorem out12_1_eq (c : Dev nD) :
    (dat12 V c).arrAt 4 cfg12.N = Cert.Spec.centeredSq (V c main_v153) (V c main_v161) (V c main_v164) :=
  (dat12 V c).arrAt_eq_of_cover 4 _ (fun t _ => by
    show (cfg12.win 4).cut (grid12.coords t) ((dat12 V c).after 4 t) = _
    rw [after12_4]; exact blk12_4 V c t) rows12_4

end

end Cert.KernelIdeal.Hand

end
-- ==== Proof.KernelIdeal.Val13.lean ====
/-
  The per-graph mean of 64-wide node rows, as the reduce region computes it. Over the grid's twenty points the
  region adds, into a carried [256, 64] accumulator that the first point zeroes, the product (contracted along the
  5000 rows of the point's block) of a one-hot matrix — entry (r, g) is 1 when row r's graph id is g, else 0 — with the
  block of rows; after the last point it writes the accumulator divided, row by row, by the graphs' counts. On the
  extended reals 1 · x = x and 0 · x = 0 for every x, so after point n the accumulator holds at (g, d) the sum of
  x (r, d) over the rows r < 5000 · (n + 1) whose id is g: by induction on the point. After the last point that is the
  sum over all rows of the segment, which is what a scatter of rows with addition into zeros gives; both sides then
  divide by the same count.
-/
import proofs.«422469_j24000277250640_1_alg».proof.Proof.KernelIdeal.Reg13
import proofs.«422469_j24000277250640_1_alg».proof.Proof.KernelIdeal.SegSum
import proofs.«422469_j24000277250640_1_alg».proof.Proof.Spec.SegMean
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)
open scoped BigOperators

/-! ## The three stored values, read at an index -/

/-- The reset stores zero everywhere. -/
theorem pay13_1_apply (j : S256x64.Idx) : k13_pay1 (F := Ideal) j = 0 := by
  unfold k13_pay1
  simp only [shapeCast_self]
  exact Ideal.ofBits_zero_f32

/-- The accumulation at (g, d): what was there plus the block's rows of segment g in column d. -/
theorem pay13_2_apply (v3 : Vec Ideal S5000x64 .f32) (v7 : Vec Ideal S5000x1 .i32) (v15 : Vec Ideal S256x64 .f32)
    (g : Fin 256) (d : Fin 64) :
    k13_pay2 v3 v7 v15 (ix2 g d)
      = v15 (ix2 g d) + ∑ k : Fin 5000, (if (v7 (ix2 k 0)).toInt = (g.val : ℤ) then v3 (ix2 k d) else 0) := by
  unfold k13_pay2
  simp only [shapeCast_self]
  refine (addf_apply _ _ _).trans ?_
  refine congrArg (v15 (ix2 g d) + ·) ?_
  refine (Cert.SegSum.matmul_zero_apply dot_S5000x256_S5000x64_S256x64_0_0_1_1_n_n rfl rfl rfl rfl rfl rfl none _ _ (ix2 g d)).trans ?_
  refine Finset.sum_congr rfl fun k _ => ?_
  have hb : broadcastTo S5000x256 v7 broadcasts_S5000x1_S5000x256 (ix2 k g) = v7 (ix2 k 0) :=
    broadcastTo_apply v7 _ (ix2 k g) (ix2 k 0) (fun a => by match a with | ⟨0, _⟩ => rfl | ⟨1, _⟩ => rfl)
  have hio : iota .tc S5000x256 32 [1] iota_S5000x256_d1_w32 (ix2 k g) = BitVec.ofNat 32 g.val :=
    iota_single_apply .tc S5000x256 32 1 _ (ix2 k g)
  show (((((IntOp.cmpi .eq (broadcastTo S5000x256 v7 broadcasts_S5000x1_S5000x256 (ix2 k g))
      (iota .tc S5000x256 32 [1] iota_S5000x256_d1_w32 (ix2 k g))).setWidth 32).toInt : ℤ) : ℝ) : EReal) * v3 (ix2 k d) = _
  rw [hb, hio, Cert.SegSum.weight_mul]
  have hw := Cert.SegSum.eq_ofNat_iff_toInt (v7 (ix2 k 0)) g.val (by have := g.isLt; omega)
  by_cases h : v7 (ix2 k 0) = BitVec.ofNat 32 g.val
  · rw [if_pos h, if_pos (hw.mp h)]
  · rw [if_neg h, if_neg (fun h' => h (hw.mpr h'))]

/-- The write-back at (g, d): the accumulated sum over the segment's count. -/
theorem pay13_3_apply (v23 : Vec Ideal S256x64 .f32) (v24 : Vec Ideal S256x1 .f32) (g : Fin 256) (d : Fin 64) :
    k13_pay3 v23 v24 (ix2 g d) = Ideal.div (v23 (ix2 g d)) (v24 (ix2 g 0)) := by
  unfold k13_pay3
  simp only [shapeCast_self]
  refine (divf_apply _ _ _).trans ?_
  refine congrArg (Ideal.div (v23 (ix2 g d))) ?_
  exact broadcastTo_apply v24 broadcasts_S256x1_S256x64 (ix2 g d) (ix2 g 0)
    (fun a => by match a with | ⟨0, _⟩ => rfl | ⟨1, _⟩ => rfl)

/-! ## One point's accumulation, over rows of the whole arrays -/

/-- If the block is rows 5000·n … 5000·n + 4999 of the whole arrays and the scratch holds the sum over the first
    5000·n rows, the accumulation leaves the sum over the first 5000·(n + 1) rows. -/
theorem step13 (X : Vec Ideal S100000x64 .f32) (B : Vec Ideal S100000x1 .i32) (xb : Vec Ideal S5000x64 .f32)
    (bb : Vec Ideal S5000x1 .i32) (acc : Vec Ideal S256x64 .f32) (n : ℕ) (hn : 5000 * n + 5000 ≤ 100000)
    (hx : ∀ (k : Fin 5000) (d : Fin 64), xb (ix2 k d) = X (ix2 ⟨5000 * n + k.val, by have := k.isLt; omega⟩ d))
    (hb : ∀ k : Fin 5000, bb (ix2 k 0) = B (ix2 ⟨5000 * n + k.val, by have := k.isLt; omega⟩ 0))
    (g : Fin 256) (d : Fin 64)
    (hacc : acc (ix2 g d) = ∑ r ∈ Finset.range (5000 * n), Cert.SegSum.rowTerm X B g.val d r) :
    k13_pay2 xb bb acc (ix2 g d) = ∑ r ∈ Finset.range (5000 * (n + 1)), Cert.SegSum.rowTerm X B g.val d r := by
  rw [pay13_2_apply xb bb acc g d, hacc, Cert.SegSum.sum_range_tile X B g.val d 5000 n]
  refine congrArg (_ + ·) (Finset.sum_congr rfl fun k _ => ?_)
  rw [Cert.SegSum.rowTerm_of_lt X B g.val d (5000 * n + k.val) (by have := k.isLt; omega), hb k, hx k d]

/-! ## The last point: the write-back is the per-graph mean -/

/-- If the block is the last 5000 rows, the scratch holds the sum over the rows before them and the counts' block is
    the counts, what the last point writes back is the per-graph mean of the whole array. -/
theorem last13 [hR : Cert.ReferenceIdeal.Facts] (X : Vec Ideal S100000x64 .f32) (B : Vec Ideal S100000x1 .i32)
    (Nn : Vec Ideal S256x1 .f32) (xb : Vec Ideal S5000x64 .f32) (bb : Vec Ideal S5000x1 .i32) (nb : Vec Ideal S256x1 .f32)
    (acc : Vec Ideal S256x64 .f32)
    (hx : ∀ (k : Fin 5000) (d : Fin 64), xb (ix2 k d) = X (ix2 ⟨5000 * 19 + k.val, by have := k.isLt; omega⟩ d))
    (hb : ∀ k : Fin 5000, bb (ix2 k 0) = B (ix2 ⟨5000 * 19 + k.val, by have := k.isLt; omega⟩ 0))
    (hn : ∀ g : Fin 256, nb (ix2 g 0) = Nn (ix2 g 0))
    (hacc : ∀ (g : Fin 256) (d : Fin 64), acc (ix2 g d) = ∑ r ∈ Finset.range (5000 * 19), Cert.SegSum.rowTerm X B g.val d r) :
    k13_pay3 (k13_pay2 xb bb acc) nb = Cert.Spec.segMean64 X B Nn := by
  funext j
  obtain ⟨g, d, rfl⟩ : ∃ (g : Fin 256) (d : Fin 64), j = ix2 g d := ⟨j 0, j 1, eq_ix2 j⟩
  rw [pay13_3_apply (k13_pay2 xb bb acc) nb g d, step13 X B xb bb acc 19 (by omega) hx hb g d (hacc g d), hn g,
    Cert.Spec.segMean64_apply X B Nn g d, ← Cert.SegSum.sum_range_rowTerm X B g.val d]

/-! ## What each case's stores leave, as the stored values -/

theorem hz13 : (![0, 0] : Fin 2 → Nat) = fun _ => 0 := funext fun a => by fin_cases a <;> rfl

/-- First point: the scratch is zeroed, read back, and accumulated into. -/
theorem sout13_A_eq (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : cond13_0 i) (hcl : ¬cond13_1 i)
    (xd : Vec Ideal S5000x64 .f32) (xb : Vec Ideal S5000x1 .i32) (xn : Vec Ideal S256x1 .f32) :
    sout13_A_0 c i arg1 harg1 arg2 harg2 arg3 harg3 arg4 harg4 arg5 harg5 hcz hcl xd xb xn = k13_pay2 xd xb (k13_pay1 (F := Ideal)) := by
  unfold sout13_A_0
  rw [View.read_writes_eq_canon _ _ _ (scover13_A_0 c i arg1 harg1 arg2 harg2 arg3 harg3 arg4 harg4 arg5 harg5 hcz hcl xd xb xn)]
  unfold kernelRun13_A
  dsimp only
  sl_unfold_words
  rw [View.canon_cons_unit_zero (S := S256x64) hz13, View.readCov_unit_zero (S := S256x64) _ hz13]
  simp only [View.readAt_eq_ld, harg1.read_unread, harg2.read_unread, View.ld_unit_zero (S := S5000x64) hz13,
    View.ld_unit_zero (S := S5000x1) hz13]

/-- A middle point: the scratch is accumulated into. -/
theorem sout13_B_eq (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : ¬cond13_1 i)
    (xd : Vec Ideal S5000x64 .f32) (xb : Vec Ideal S5000x1 .i32) (xn : Vec Ideal S256x1 .f32) (xs : Vec Ideal S256x64 .f32) :
    sout13_B_0 c i arg1 harg1 arg2 harg2 arg3 harg3 arg4 harg4 arg5 harg5 hcz hcl xd xb xn xs = k13_pay2 xd xb xs := by
  unfold sout13_B_0
  rw [View.read_writes_eq_canon _ _ _ (scover13_B_0 c i arg1 harg1 arg2 harg2 arg3 harg3 arg4 harg4 arg5 harg5 hcz hcl xd xb xn xs)]
  unfold kernelRun13_B
  dsimp only
  sl_unfold_words
  rw [View.canon_unit_zero hz13]
  simp only [View.readAt_eq_ld, harg1.read_unread, harg2.read_unread, harg5.read_unread, View.ld_unit_zero (S := S5000x64) hz13,
    View.ld_unit_zero (S := S5000x1) hz13, View.ld_unit_zero (S := S256x64) hz13]

/-- The last point: the scratch is accumulated into, -/
theorem sout13_C_eq (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : cond13_1 i)
    (xd : Vec Ideal S5000x64 .f32) (xb : Vec Ideal S5000x1 .i32) (xn : Vec Ideal S256x1 .f32) (xs : Vec Ideal S256x64 .f32) :
    sout13_C_0 c i arg1 harg1 arg2 harg2 arg3 harg3 arg4 harg4 arg5 harg5 hcz hcl xd xb xn xs = k13_pay2 xd xb xs := by
  unfold sout13_C_0
  rw [View.read_writes_eq_canon _ _ _ (scover13_C_0 c i arg1 harg1 arg2 harg2 arg3 harg3 arg4 harg4 arg5 harg5 hcz hcl xd xb xn xs)]
  unfold kernelRun13_C
  dsimp only
  sl_unfold_words
  rw [View.canon_unit_zero hz13]
  simp only [View.readAt_eq_ld, harg1.read_unread, harg2.read_unread, harg5.read_unread, View.ld_unit_zero (S := S5000x64) hz13,
    View.ld_unit_zero (S := S5000x1) hz13, View.ld_unit_zero (S := S256x64) hz13]

/-- and its quotient by the counts is stored into the output's block. -/
theorem out13_C_eq (c : Dev nD) (i : grid13.Coords) (arg1 : Memref sig .tc .vmem S5000x64 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x64 .f32) (harg4 : arg4.IsWhole) (arg5 : Memref sig .tc .vmem S256x64 .f32) (harg5 : arg5.IsWhole) (hcz : ¬cond13_0 i) (hcl : cond13_1 i)
    (xd : Vec Ideal S5000x64 .f32) (xb : Vec Ideal S5000x1 .i32) (xn : Vec Ideal S256x1 .f32) (xs : Vec Ideal S256x64 .f32) :
    out13_C_3 c i arg1 harg1 arg2 harg2 arg3 harg3 arg4 harg4 arg5 harg5 hcz hcl xd xb xn xs = k13_pay3 (k13_pay2 xd xb xs) xn := by
  unfold out13_C_3
  rw [View.read_writes_eq_canon _ _ _ (cover13_C_3 c i arg1 harg1 arg2 harg2 arg3 harg3 arg4 harg4 arg5 harg5 hcz hcl xd xb xn xs)]
  unfold kernelRun13_C
  dsimp only
  sl_unfold_words
  rw [View.canon_unit_zero hz13]
  simp only [View.readAt_eq_ld, harg1.read_unread, harg2.read_unread, harg3.read_unread, harg5.read_unread,
    View.readCov_unit_zero (S := S256x64) _ hz13, View.ld_unit_zero (S := S5000x64) hz13,
    View.ld_unit_zero (S := S5000x1) hz13, View.ld_unit_zero (S := S256x64) hz13, View.ld_unit_zero (S := S256x1) hz13]

/-! ## The blocks are rows of the whole arrays -/

section
variable (V : (c : Dev nD) → (b : Ref sig .tc) → Buf (Elt Ideal) ((c : Thread nD τ).loc b))

/-- The three whole arrays the region reads, and each window's block at a point, by their literal types. -/
abbrev xarr13 (c : Dev nD) : Vec Ideal S100000x64 .f32 := V c main_v165_1
abbrev barr13 (c : Dev nD) : Vec Ideal S100000x1 .i32 := V c main_v36
abbrev narr13 (c : Dev nD) : Vec Ideal S256x1 .f32 := V c main_v35
abbrev xblk13 (c : Dev nD) (t : Fin cfg13.N) : Vec Ideal S5000x64 .f32 := iblk13 V c 0 t
abbrev bblk13 (c : Dev nD) (t : Fin cfg13.N) : Vec Ideal S5000x1 .i32 := iblk13 V c 1 t
abbrev nblk13 (c : Dev nD) (t : Fin cfg13.N) : Vec Ideal S256x1 .f32 := iblk13 V c 2 t

/-- Where the windows' blocks sit at point t: the two row windows at block t, the counts at block 0. -/
theorem idx13_0 : ∀ t : Fin cfg13.N, win13_0.index t 0 = t.val ∧ win13_0.index t 1 = 0 :=
  (by decide +kernel : ∀ t : Fin grid13.N, win13_0.index t 0 = t.val ∧ win13_0.index t 1 = 0)
theorem idx13_1 : ∀ t : Fin cfg13.N, win13_1.index t 0 = t.val ∧ win13_1.index t 1 = 0 :=
  (by decide +kernel : ∀ t : Fin grid13.N, win13_1.index t 0 = t.val ∧ win13_1.index t 1 = 0)
theorem idx13_2 : ∀ t : Fin cfg13.N, win13_2.index t 0 = 0 ∧ win13_2.index t 1 = 0 :=
  (by decide +kernel : ∀ t : Fin grid13.N, win13_2.index t 0 = 0 ∧ win13_2.index t 1 = 0)

theorem lt13 (t : Fin cfg13.N) (k : Fin 5000) : 5000 * t.val + k.val < 100000 := by
  have hN : cfg13.N = 20 := N_13
  have := t.isLt; have := k.isLt; omega

theorem xblk13_apply (c : Dev nD) (t : Fin cfg13.N) (k : Fin 5000) (d : Fin 64) :
    xblk13 V c t (ix2 k d) = xarr13 V c (ix2 ⟨5000 * t.val + k.val, lt13 t k⟩ d) := by
  have hi := idx13_0 t
  show iblk13 V c 0 t (ix2 k d) = V c main_v165_1 _
  unfold iblk13
  rw [View.read_apply]
  show V c main_v165_1 _ = V c main_v165_1 _
  congr 1
  funext a
  apply Fin.ext
  match a with
  | ⟨0, _⟩ => show win13_0.index t 0 * 5000 + 1 * k.val = 5000 * t.val + k.val; rw [hi.1]; omega
  | ⟨1, _⟩ => show win13_0.index t 1 * 64 + 1 * d.val = d.val; rw [hi.2]; omega

theorem bblk13_apply (c : Dev nD) (t : Fin cfg13.N) (k : Fin 5000) :
    bblk13 V c t (ix2 k 0) = barr13 V c (ix2 ⟨5000 * t.val + k.val, lt13 t k⟩ 0) := by
  have hi := idx13_1 t
  show iblk13 V c 1 t (ix2 k 0) = V c main_v36 _
  unfold iblk13
  rw [View.read_apply]
  show V c main_v36 _ = V c main_v36 _
  congr 1
  funext a
  apply Fin.ext
  match a with
  | ⟨0, _⟩ => show win13_1.index t 0 * 5000 + 1 * k.val = 5000 * t.val + k.val; rw [hi.1]; omega
  | ⟨1, _⟩ => show win13_1.index t 1 * 1 + 1 * 0 = 0; rw [hi.2]

theorem nblk13_apply (c : Dev nD) (t : Fin cfg13.N) (g : Fin 256) :
    nblk13 V c t (ix2 g 0) = narr13 V c (ix2 g 0) := by
  have hi := idx13_2 t
  show iblk13 V c 2 t (ix2 g 0) = V c main_v35 _
  unfold iblk13
  rw [View.read_apply]
  show V c main_v35 _ = V c main_v35 _
  congr 1
  funext a
  apply Fin.ext
  match a with
  | ⟨0, _⟩ => show win13_2.index t 0 * 256 + 1 * g.val = g.val; rw [hi.1]; omega
  | ⟨1, _⟩ => show win13_2.index t 1 * 1 + 1 * 0 = 0; rw [hi.2]

variable [hR : Cert.ReferenceIdeal.Facts]

/-! ## The scratch after each point, and the array after the last -/

/-- After point n the scratch holds, at (g, d), the sum over the first 5000·(n + 1) rows of segment g in column d. -/
theorem scratch13_apply (c : Dev nD) (g : Fin 256) (d : Fin 64) : ∀ (n : ℕ) (h : n < cfg13.N),
    (outsAt13 V c n h).2 (ix2 g d)
      = ∑ r ∈ Finset.range (5000 * (n + 1)), Cert.SegSum.rowTerm (xarr13 V c) (barr13 V c) g.val d r
  | 0, h => by
    have hN : cfg13.N = 20 := N_13
    rw [outsAt13_A V c ⟨0, h⟩ rfl (by dsimp only; omega)]
    dsimp only
    refine (congrFun (sout13_A_eq c (grid13.coords ⟨0, h⟩) (ms13_0 ⟨0, h⟩) (hs13_0 ⟨0, h⟩) (ms13_1 ⟨0, h⟩) (hs13_1 ⟨0, h⟩) (ms13_2 ⟨0, h⟩) (hs13_2 ⟨0, h⟩) (ms13_3 ⟨0, h⟩) (hs13_3 ⟨0, h⟩) scM13_0 (Memref.isWhole_whole _) _ _ (xblk13 V c ⟨0, h⟩) (bblk13 V c ⟨0, h⟩) (nblk13 V c ⟨0, h⟩)) (ix2 g d)).trans ?_
    exact step13 (xarr13 V c) (barr13 V c) (xblk13 V c ⟨0, h⟩) (bblk13 V c ⟨0, h⟩) (k13_pay1 (F := Ideal)) 0 (by omega)
      (fun k d => xblk13_apply V c ⟨0, h⟩ k d) (fun k => bblk13_apply V c ⟨0, h⟩ k) g d
      (by rw [pay13_1_apply, Cert.SegSum.sum_range_zero])
  | n + 1, h => by
    have hN : cfg13.N = 20 := N_13
    have ih := scratch13_apply c g d n (Nat.lt_of_succ_lt h)
    have h0 : ¬(⟨n + 1, h⟩ : Fin cfg13.N).val % 20 = 0 := by dsimp only; omega
    by_cases h1 : (⟨n + 1, h⟩ : Fin cfg13.N).val % 20 = 19
    · rw [outsAt13_C V c ⟨n + 1, h⟩ h0 h1]
      dsimp only
      refine (congrFun (sout13_C_eq c (grid13.coords ⟨n + 1, h⟩) (ms13_0 ⟨n + 1, h⟩) (hs13_0 ⟨n + 1, h⟩) (ms13_1 ⟨n + 1, h⟩) (hs13_1 ⟨n + 1, h⟩) (ms13_2 ⟨n + 1, h⟩) (hs13_2 ⟨n + 1, h⟩) (ms13_3 ⟨n + 1, h⟩) (hs13_3 ⟨n + 1, h⟩) scM13_0 (Memref.isWhole_whole _) _ _ (xblk13 V c ⟨n + 1, h⟩) (bblk13 V c ⟨n + 1, h⟩) (nblk13 V c ⟨n + 1, h⟩)
        (outsAt13 V c n (Nat.lt_of_succ_lt h)).2) (ix2 g d)).trans ?_
      exact step13 (xarr13 V c) (barr13 V c) (xblk13 V c ⟨n + 1, h⟩) (bblk13 V c ⟨n + 1, h⟩) (outsAt13 V c n (Nat.lt_of_succ_lt h)).2 (n + 1)
        (by omega) (fun k d => xblk13_apply V c ⟨n + 1, h⟩ k d) (fun k => bblk13_apply V c ⟨n + 1, h⟩ k) g d ih
    · rw [outsAt13_B V c ⟨n + 1, h⟩ h0 h1]
      dsimp only
      refine (congrFun (sout13_B_eq c (grid13.coords ⟨n + 1, h⟩) (ms13_0 ⟨n + 1, h⟩) (hs13_0 ⟨n + 1, h⟩) (ms13_1 ⟨n + 1, h⟩) (hs13_1 ⟨n + 1, h⟩) (ms13_2 ⟨n + 1, h⟩) (hs13_2 ⟨n + 1, h⟩) (ms13_3 ⟨n + 1, h⟩) (hs13_3 ⟨n + 1, h⟩) scM13_0 (Memref.isWhole_whole _) _ _ (xblk13 V c ⟨n + 1, h⟩) (bblk13 V c ⟨n + 1, h⟩) (nblk13 V c ⟨n + 1, h⟩)
        (outsAt13 V c n (Nat.lt_of_succ_lt h)).2) (ix2 g d)).trans ?_
      exact step13 (xarr13 V c) (barr13 V c) (xblk13 V c ⟨n + 1, h⟩) (bblk13 V c ⟨n + 1, h⟩) (outsAt13 V c n (Nat.lt_of_succ_lt h)).2 (n + 1)
        (by omega) (fun k d => xblk13_apply V c ⟨n + 1, h⟩ k d) (fun k => bblk13_apply V c ⟨n + 1, h⟩ k) g d ih

/-- The last point of the grid. -/
abbrev t13_last : Fin cfg13.N := ⟨19, by decide⟩

/-- What the last point leaves in the output's block: the per-graph mean. -/
theorem out13_last (c : Dev nD) :
    (outsAt13 V c t13_last.val t13_last.isLt).1 = Cert.Spec.segMean64 (F := Ideal) (xarr13 V c) (barr13 V c) (narr13 V c) := by
  rw [outsAt13_C V c t13_last (by decide) rfl]
  dsimp only
  refine (out13_C_eq c (grid13.coords t13_last) (ms13_0 t13_last) (hs13_0 t13_last) (ms13_1 t13_last) (hs13_1 t13_last) (ms13_2 t13_last) (hs13_2 t13_last) (ms13_3 t13_last) (hs13_3 t13_last) scM13_0 (Memref.isWhole_whole _) _ _ (xblk13 V c t13_last) (bblk13 V c t13_last) (nblk13 V c t13_last)
    (outsAt13 V c 18 (by decide)).2).trans ?_
  exact last13 (xarr13 V c) (barr13 V c) (narr13 V c) (xblk13 V c t13_last) (bblk13 V c t13_last) (nblk13 V c t13_last)
    (outsAt13 V c 18 (by decide)).2 (fun k d => xblk13_apply V c t13_last k d) (fun k => bblk13_apply V c t13_last k)
    (fun g => nblk13_apply V c t13_last g) (fun g d => scratch13_apply V c g d 18 (by decide))

/-- The per-graph mean, as contents of the region's result array. -/
abbrev result13 (c : Dev nD) : Buf (Elt Ideal) ((c : Thread nD τ).loc main_v166) :=
  Cert.Spec.segMean64 (F := Ideal) (V c main_v165_1) (V c main_v36) (V c main_v35)

theorem idx13_3 : ∀ t : Fin cfg13.N, win13_3.index t 0 = 0 ∧ win13_3.index t 1 = 0 :=
  (by decide +kernel : ∀ t : Fin grid13.N, win13_3.index t 0 = 0 ∧ win13_3.index t 1 = 0)

/-- The one write-back, at the last point, writes it: the output's one block is the whole array. -/
theorem flushed13_eq (c : Dev nD) (t : Fin cfg13.N) (hf : (cfg13.win 3).flush t = true) :
    (dat13 V c).flushed 3 t = ((cfg13.win 3).blk t).view.read (Elt Ideal) (result13 V c) := by
  have hN : cfg13.N = 20 := N_13
  have h19 : t.val = 19 := by have := (flush13_3 t).mp hf; have := t.isLt; omega
  obtain rfl : t = t13_last := Fin.ext h19
  show (cfg13.win 3).cut (grid13.coords t13_last) ((dat13 V c).after 3 t13_last) = _
  rw [after13_3, out13_last]
  have hz' : (fun a => win13_3.index t13_last a * main_v166.ty.shape.size a) = fun _ => 0 :=
    funext fun a => by fin_cases a <;> decide +kernel
  exact (Memref.read_access_unit_zero (Elt Ideal) main_v166 hz' (fun a => by rw [congrFun hz' a]; simp) (result13 V c)).symm

/-- So the region's result array ends holding the per-graph mean of the rows it was given. -/
theorem out13_eq (c : Dev nD) :
    (dat13 V c).arrAt 3 cfg13.N = Cert.Spec.segMean64 (F := Ideal) (V c main_v165_1) (V c main_v36) (V c main_v35) :=
  (dat13 V c).arrAt_eq_of_cover 3 (result13 V c) (flushed13_eq V c) fun i =>
    ⟨t13_last, (flush13_3 t13_last).mpr rfl, by
      show i ∈ ((View.whole main_v166).slice (win13_3.rect t13_last)).set
      rw [View.set_slice_whole, Rect.mem_set_unit]
      intro a
      have h0 : (i 0 : Nat) < 256 := (i 0).isLt
      have h1 : (i 1 : Nat) < 64 := (i 1).isLt
      match a with
      | ⟨0, _⟩ =>
        show win13_3.index t13_last 0 * win13_3.size 0 ≤ (i 0 : Nat) ∧ (i 0 : Nat) < win13_3.index t13_last 0 * win13_3.size 0 + win13_3.xsize (grid13.coords t13_last) 0
        rw [show win13_3.index t13_last 0 * win13_3.size 0 = 0 from by decide +kernel, show win13_3.xsize (grid13.coords t13_last) 0 = 256 from by decide +kernel]; omega
      | ⟨1, _⟩ =>
        show win13_3.index t13_last 1 * win13_3.size 1 ≤ (i 1 : Nat) ∧ (i 1 : Nat) < win13_3.index t13_last 1 * win13_3.size 1 + win13_3.xsize (grid13.coords t13_last) 1
        rw [show win13_3.index t13_last 1 * win13_3.size 1 = 0 from by decide +kernel, show win13_3.xsize (grid13.coords t13_last) 1 = 64 from by decide +kernel]; omega⟩

end

end Cert.KernelIdeal.Hand

end
-- ==== Proof.KernelIdeal.Val14.lean ====
/-
  The normalising stage, read as a whole array. The stage walks the 100000 node rows in 20 tiles of 5000 rows; on
  each tile it forms, entry by entry, max (γ j · c (n, j) · rsqrt (v (n, j) + ε) + β j, 0), where c is the centred row,
  v the variance of the row's graph at feature j, and ε a small positive constant, and writes the tile back at the rows
  it came from. The plain program writes the same entry as max (γ j · c (n, j) / √(v (n, j) + ε) + β j, 0). On the
  extended reals a · rsqrt (s) = a / √s whenever s = v + ε with v ≥ 0: s is then a positive real or +∞, and in both cases
  the reciprocal root is the inverse of the root. An entry depends only on the same entry of c and v and on γ, β at
  the same feature, and the 20 tiles cover every row once, so the array the stage leaves is the normalised array of the
  whole inputs, provided no variance entry is negative.
-/
import proofs.«422469_j24000277250640_1_alg».proof.Proof.KernelIdeal.Reg14
import proofs.«422469_j24000277250640_1_alg».proof.Proof.Gen.ReferenceIdeal
import proofs.«422469_j24000277250640_1_alg».proof.Proof.Spec.Ops
import Idealize.ShloMosaic.Lib.Pipeline.Value
import Idealize.ShloMosaic.Lib.ValueIdx
import Idealize.ShloMosaic.Lib.IdealHost

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable {F : FTy → Type} [FloatOps F]

/-! ## One entry of a tile -/

/-- The two zero offsets of a whole-tile access, as a constant function. -/
theorem hz14 : (![0, 0] : Fin 2 → Nat) = fun _ => 0 := funext fun a => by fin_cases a <;> rfl

/-- Entry (p, q) of the result tile: max (γ (0, q) · c (p, q) · rsqrt (v (p, q) + ε) + β (0, q), 0); the rows γ and β are
    repeated down the tile, ε and 0 are the same constants everywhere. -/
theorem k14_pay1_apply (va hc : Vec F S5000x64 .f32) (ga be : Vec F S1x64 .f32) (p : Fin 5000) (q : Fin 64) :
    k14_pay1 va ga hc be (ix2 p q) =
      FloatOps.maximumf (FloatOps.addf (FloatOps.mulf (FloatOps.mulf (ga (ix2 (0 : Fin 1) q)) (hc (ix2 p q)))
          (FloatOps.rsqrt (FloatOps.addf (va (ix2 p q)) (FloatOps.ofBits (F := F) .f32 0x3727C5AC#32)))) (be (ix2 (0 : Fin 1) q)))
        (FloatOps.ofBits (F := F) .f32 0x00000000#32) := by
  unfold k14_pay1
  rw [shapeCast_self, shapeCast_self, shapeCast_self, shapeCast_self]
  show FloatOps.maximumf (FloatOps.addf (FloatOps.mulf (FloatOps.mulf (broadcastTo S5000x64 ga broadcasts_S1x64_S5000x64 (ix2 p q)) (hc (ix2 p q)))
          (FloatOps.rsqrt (FloatOps.addf (va (ix2 p q)) (FloatOps.ofBits (F := F) .f32 0x3727C5AC#32)))) (broadcastTo S5000x64 be broadcasts_S1x64_S5000x64 (ix2 p q)))
        (FloatOps.ofBits (F := F) .f32 0x00000000#32) = _
  rw [broadcastTo_apply ga broadcasts_S1x64_S5000x64 (ix2 p q) (ix2 (0 : Fin 1) q) (fun a => by
      match a with
      | ⟨0, _⟩ => rfl
      | ⟨1, _⟩ => rfl),
    broadcastTo_apply be broadcasts_S1x64_S5000x64 (ix2 p q) (ix2 (0 : Fin 1) q) (fun a => by
      match a with
      | ⟨0, _⟩ => rfl
      | ⟨1, _⟩ => rfl)]

/-! ## One entry of the whole-array function -/

/-- Entry (n, q) of the normalised array: max (γ (0, q) · c (n, q) / √(v (n, q) + ε) + β (0, q), 0). -/
theorem normed_apply14 (C Vr : FVec F Cert.ReferenceIdeal.S100000x64 .f32) (G B : FVec F Cert.ReferenceIdeal.S1x64 .f32)
    (n : Fin 100000) (q : Fin 64) :
    Cert.Spec.normed C Vr G B (ix2 n q) =
      FloatOps.maximumf (FloatOps.addf (FloatOps.hostDivf (FloatOps.mulf (G (ix2 (0 : Fin 1) q)) (C (ix2 n q)))
          (FloatOps.hostUnary .sqrt (FloatOps.addf (Vr (ix2 n q)) (FloatOps.ofBits (F := F) .f32 0x3727C5AC#32)))) (B (ix2 (0 : Fin 1) q)))
        (FloatOps.ofBits (F := F) .f32 0x00000000#32) := by
  unfold Cert.Spec.normed
  show FloatOps.maximumf (FloatOps.addf (FloatOps.hostDivf (FloatOps.mulf (broadcastInDim Cert.ReferenceIdeal.S100000x64 ![0, 1] Cert.ReferenceIdeal.Facts₀.bcast_S1x64_S100000x64_0_1 G (ix2 n q)) (C (ix2 n q)))
          (FloatOps.hostUnary .sqrt (FloatOps.addf (Vr (ix2 n q)) (FloatOps.ofBits (F := F) .f32 0x3727C5AC#32)))) (broadcastInDim Cert.ReferenceIdeal.S100000x64 ![0, 1] Cert.ReferenceIdeal.Facts₀.bcast_S1x64_S100000x64_0_1 B (ix2 n q)))
        (FloatOps.ofBits (F := F) .f32 0x00000000#32) = _
  rw [broadcastInDim_apply ![0, 1] Cert.ReferenceIdeal.Facts₀.bcast_S1x64_S100000x64_0_1 G (ix2 n q) (ix2 (0 : Fin 1) q) (fun a => by
      match a with
      | ⟨0, _⟩ => rfl
      | ⟨1, _⟩ => rfl),
    broadcastInDim_apply ![0, 1] Cert.ReferenceIdeal.Facts₀.bcast_S1x64_S100000x64_0_1 B (ix2 n q) (ix2 (0 : Fin 1) q) (fun a => by
      match a with
      | ⟨0, _⟩ => rfl
      | ⟨1, _⟩ => rfl)]

/-! ## The one law: a reciprocal root against a division by the root, on the extended reals -/

/-- The constant ε is the positive real 10995116 · 2⁻⁴⁰ (about 10⁻⁵). -/
theorem eps_eq14 : Ideal.ofBits .f32 0x3727C5AC#32 = (((10995116 : ℝ) * (2 : ℝ) ^ (-40 : ℤ) : ℝ) : EReal) := by
  simp [Ideal.ofBits, Ideal.ieee, -EReal.coe_mul]

theorem eps_pos14 : (0 : ℝ) < (10995116 : ℝ) * (2 : ℝ) ^ (-40 : ℤ) := by positivity

/-- For v ≥ 0 and a real e > 0: a · rsqrt (v + e) = a / √(v + e). At v = +∞ both sides are a · 0 (the reciprocal root of
    +∞ is 0, and so is the inverse of √(+∞) = +∞); at a real v the sum v + e is a positive real s, the reciprocal root is
    the real (√s)⁻¹ and the division by the nonzero √s multiplies by the same inverse. No bound on a is used. -/
theorem mul_rsqrt14 (a v : EReal) (e : ℝ) (he : 0 < e) (hv : 0 ≤ v) :
    a * Ideal.rsqrt (v + (e : EReal)) = Ideal.div a (Ideal.sqrt (v + (e : EReal))) := by
  induction v using EReal.rec with
  | bot => exact absurd hv (by simp)
  | top =>
    rw [EReal.top_add_coe]
    simp [Ideal.div]
  | coe r =>
    have hr : 0 ≤ r := by exact_mod_cast hv
    have hs : 0 < r + e := by linarith
    rw [← EReal.coe_add]
    rw [Ideal.rsqrt_coe, Ideal.sqrt_coe, if_neg (not_lt.mpr hs.le), if_neg hs.ne', if_neg (not_lt.mpr hs.le)]
    have hq : Real.sqrt (r + e) ≠ 0 := (Real.sqrt_pos.mpr hs).ne'
    rw [Ideal.div, if_neg (by exact_mod_cast hq), EReal.coe_inv]

/-- The same law in the operations' own spelling, at the constant ε. -/
theorem law14 (a v : Ideal .f32) (hv : (0 : EReal) ≤ v) :
    FloatOps.mulf a (FloatOps.rsqrt (FloatOps.addf v (FloatOps.ofBits (F := Ideal) .f32 0x3727C5AC#32)))
      = FloatOps.hostDivf a (FloatOps.hostUnary .sqrt (FloatOps.addf v (FloatOps.ofBits (F := Ideal) .f32 0x3727C5AC#32))) := by
  show a * Ideal.rsqrt (v + Ideal.ofBits .f32 0x3727C5AC#32) = Ideal.div a (Ideal.sqrt (v + Ideal.ofBits .f32 0x3727C5AC#32))
  rw [eps_eq14]
  exact mul_rsqrt14 a v _ eps_pos14 hv

/-! ## Where a tile sits -/

/-- At tile t the three row-tiled arrays are at row block t and column block 0, and γ, β at block (0, 0). -/
theorem idx_facts14 : ∀ t : Fin cfg14.N,
      win14_0.index t (0 : Fin 2) = t.val ∧ win14_0.index t (1 : Fin 2) = 0
    ∧ win14_1.index t (0 : Fin 2) = t.val ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = t.val ∧ win14_4.index t (1 : Fin 2) = 0 :=
  (by decide +kernel : ∀ t : Fin grid14.N, _)

/-- Every one of the 20 row blocks of the result is some tile's. -/
theorem idx_onto14 : ∀ (q0 : Fin 20), ∃ t : Fin cfg14.N, win14_4.index t = ![q0.val, 0] :=
  (by decide +kernel : ∀ (q0 : Fin 20), ∃ t : Fin grid14.N, win14_4.index t = ![q0.val, 0])

/-- Row p of tile t is row 5000 t + p of the array, below 100000. -/
theorem row_lt14 (t : Fin cfg14.N) (p : Fin 5000) : t.val * 5000 + p.val < 100000 := by
  have ht : t.val < 20 := lt_of_lt_of_eq t.isLt N_14
  omega

/-- Entry (p, q) of tile t of the centred rows is entry (5000 t + p, q) of that array. -/
theorem emb14_0 (t : Fin cfg14.N) (p : Fin 5000) (q : Fin 64) :
    ((cfg14.win 0).blk t).view.emb (ix2 p q) = ix2 (⟨t.val * 5000 + p.val, row_lt14 t p⟩ : Fin 100000) q := by
  obtain ⟨e00, e01, e10, e11, e20, e21, e30, e31, e40, e41⟩ := idx_facts14 t
  funext a; apply Fin.ext
  match a with
  | ⟨0, _⟩ => show win14_0.index t (0 : Fin 2) * 5000 + 1 * p.val = t.val * 5000 + p.val; omega
  | ⟨1, _⟩ => show win14_0.index t (1 : Fin 2) * 64 + 1 * q.val = q.val; omega

/-- The same for the variances. -/
theorem emb14_1 (t : Fin cfg14.N) (p : Fin 5000) (q : Fin 64) :
    ((cfg14.win 1).blk t).view.emb (ix2 p q) = ix2 (⟨t.val * 5000 + p.val, row_lt14 t p⟩ : Fin 100000) q := by
  obtain ⟨e00, e01, e10, e11, e20, e21, e30, e31, e40, e41⟩ := idx_facts14 t
  funext a; apply Fin.ext
  match a with
  | ⟨0, _⟩ => show win14_1.index t (0 : Fin 2) * 5000 + 1 * p.val = t.val * 5000 + p.val; omega
  | ⟨1, _⟩ => show win14_1.index t (1 : Fin 2) * 64 + 1 * q.val = q.val; omega

/-- Every tile sees the whole row γ. -/
theorem emb14_2 (t : Fin cfg14.N) (q : Fin 64) :
    ((cfg14.win 2).blk t).view.emb (ix2 (0 : Fin 1) q) = ix2 (0 : Fin 1) q := by
  obtain ⟨e00, e01, e10, e11, e20, e21, e30, e31, e40, e41⟩ := idx_facts14 t
  funext a; apply Fin.ext
  match a with
  | ⟨0, _⟩ => show win14_2.index t (0 : Fin 2) * 1 + 1 * 0 = 0; omega
  | ⟨1, _⟩ => show win14_2.index t (1 : Fin 2) * 64 + 1 * q.val = q.val; omega

/-- And the whole row β. -/
theorem emb14_3 (t : Fin cfg14.N) (q : Fin 64) :
    ((cfg14.win 3).blk t).view.emb (ix2 (0 : Fin 1) q) = ix2 (0 : Fin 1) q := by
  obtain ⟨e00, e01, e10, e11, e20, e21, e30, e31, e40, e41⟩ := idx_facts14 t
  funext a; apply Fin.ext
  match a with
  | ⟨0, _⟩ => show win14_3.index t (0 : Fin 2) * 1 + 1 * 0 = 0; omega
  | ⟨1, _⟩ => show win14_3.index t (1 : Fin 2) * 64 + 1 * q.val = q.val; omega

/-- Entry (p, q) of tile t of the result is entry (5000 t + p, q) of the result array. -/
theorem emb14_4 (t : Fin cfg14.N) (p : Fin 5000) (q : Fin 64) :
    ((cfg14.win 4).blk t).view.emb (ix2 p q) = ix2 (⟨t.val * 5000 + p.val, row_lt14 t p⟩ : Fin 100000) q := by
  obtain ⟨e00, e01, e10, e11, e20, e21, e30, e31, e40, e41⟩ := idx_facts14 t
  funext a; apply Fin.ext
  match a with
  | ⟨0, _⟩ => show win14_4.index t (0 : Fin 2) * 5000 + 1 * p.val = t.val * 5000 + p.val; omega
  | ⟨1, _⟩ => show win14_4.index t (1 : Fin 2) * 64 + 1 * q.val = q.val; omega

/-! ## The tiles cover every row -/

/-- An entry is in tile t of the result iff its row is in t's 5000 rows (and its column among the 64). -/
theorem mem_blk14_4 (t : Fin cfg14.N) (i : S100000x64.Idx) :
    i ∈ ((cfg14.win 4).blk t).view.set ↔ ∀ a : Fin 2, win14_4.index t a * S5000x64.size a ≤ (i a).val ∧ (i a).val < win14_4.index t a * S5000x64.size a + S5000x64.size a := by
  show i ∈ ((View.whole main_v180).slice (win14_4.rect t)).set ↔ _
  rw [View.set_slice_whole, Rect.mem_set_unit]
  exact Iff.rfl

/-- Row n lies in tile n / 5000, which writes back: every entry of the result is written. -/
theorem rows14_4 (i : S100000x64.Idx) : ∃ t : Fin cfg14.N, (cfg14.win 4).flush t = true ∧ i ∈ ((cfg14.win 4).blk t).view.set := by
  have hi0 : (i 0).val < 100000 := (i 0).isLt
  have hi1 : (i 1).val < 64 := (i 1).isLt
  obtain ⟨t, ht⟩ := idx_onto14 ⟨(i 0).val / 5000, by omega⟩
  have q0 : win14_4.index t (0 : Fin 2) = (i 0).val / 5000 := congrFun ht 0
  have q1 : win14_4.index t (1 : Fin 2) = 0 := congrFun ht 1
  refine ⟨t, flush14_4 t, ?_⟩
  rw [mem_blk14_4]
  intro a
  match a with
  | ⟨0, _⟩ => show win14_4.index t (0 : Fin 2) * 5000 ≤ (i 0).val ∧ (i 0).val < win14_4.index t (0 : Fin 2) * 5000 + 5000; omega
  | ⟨1, _⟩ => show win14_4.index t (1 : Fin 2) * 64 ≤ (i 1).val ∧ (i 1).val < win14_4.index t (1 : Fin 2) * 64 + 64; omega

/-! ## A tile of the result is a tile of the whole-array function, and the array the stage leaves -/

section
variable (V : (c : Dev nD) → (b : Ref sig .tc) → Buf (Elt Ideal) ((c : Thread nD τ).loc b))

/-- The value computed on tile t, at (p, q), is the normalised array of the whole inputs at (5000 t + p, q): the two
    spellings differ only in a · rsqrt (v + ε) against a / √(v + ε), equal since the variance entry is not negative. -/
theorem pay1_blk14 (c : Dev nD) (hv : ∀ i, (0 : EReal) ≤ V c main_v173 i) (t : Fin cfg14.N) (p : Fin 5000) (q : Fin 64) :
    k14_pay1 (F := Ideal) (iblk14 V c 1 t) (iblk14 V c 2 t) (iblk14 V c 0 t) (iblk14 V c 3 t) (ix2 p q)
      = Cert.Spec.normed (F := Ideal) (V c main_v165_0) (V c main_v173) (V c main_v176) (V c main_v179) (ix2 (⟨t.val * 5000 + p.val, row_lt14 t p⟩ : Fin 100000) q) := by
  refine (k14_pay1_apply (F := Ideal) (iblk14 V c 1 t) (iblk14 V c 0 t) (iblk14 V c 2 t) (iblk14 V c 3 t) p q).trans ?_
  refine Eq.trans ?_ (normed_apply14 (F := Ideal) (V c main_v165_0) (V c main_v173) (V c main_v176) (V c main_v179) ⟨t.val * 5000 + p.val, row_lt14 t p⟩ q).symm
  show FloatOps.maximumf (FloatOps.addf (FloatOps.mulf (FloatOps.mulf (V c main_v176 (((cfg14.win 2).blk t).view.emb (ix2 (0 : Fin 1) q))) (V c main_v165_0 (((cfg14.win 0).blk t).view.emb (ix2 p q))))
          (FloatOps.rsqrt (FloatOps.addf (V c main_v173 (((cfg14.win 1).blk t).view.emb (ix2 p q))) (FloatOps.ofBits (F := Ideal) .f32 0x3727C5AC#32)))) (V c main_v179 (((cfg14.win 3).blk t).view.emb (ix2 (0 : Fin 1) q))))
        (FloatOps.ofBits (F := Ideal) .f32 0x00000000#32) = _
  rw [emb14_0, emb14_1, emb14_2, emb14_3]
  rw [law14 _ _ (hv _)]

/-- What tile t writes back is tile t of the normalised array of the whole inputs. -/
theorem blk14_4 (c : Dev nD) (hv : ∀ i, (0 : EReal) ≤ V c main_v173 i) (t : Fin cfg14.N) :
    (cfg14.win 4).cut (grid14.coords t) (out14_4 (F := Ideal) (iblk14 V c 0 t) (iblk14 V c 1 t) (iblk14 V c 2 t) (iblk14 V c 3 t))
      = ((cfg14.win 4).blk t).view.read (Elt Ideal) (Cert.Spec.normed (F := Ideal) (V c main_v165_0) (V c main_v173) (V c main_v176) (V c main_v179)) := by
  unfold out14_4
  rw [View.canon_unit_zero hz14]
  simp only [View.ld_unit_zero (S := S5000x64) hz14, View.ld_unit_zero (S := S1x64) hz14]
  funext j
  obtain ⟨p, q, rfl⟩ : ∃ (p : Fin 5000) (q : Fin 64), j = ix2 p q := ⟨j 0, j 1, eq_ix2 j⟩
  show _ = Cert.Spec.normed (F := Ideal) (V c main_v165_0) (V c main_v173) (V c main_v176) (V c main_v179) (((cfg14.win 4).blk t).view.emb (ix2 p q))
  rw [emb14_4]
  exact pay1_blk14 V c hv t p q

/-- After the 20 tiles the result holds max (γ · c / √(v + ε) + β, 0) of the whole arrays the stage found, when no entry of
    v is negative. -/
theorem out14_eq (c : Dev nD) (hv : ∀ i, (0 : EReal) ≤ V c main_v173 i) :
    (dat14 (F := Ideal) V c).arrAt 4 cfg14.N = Cert.Spec.normed (F := Ideal) (V c main_v165_0) (V c main_v173) (V c main_v176) (V c main_v179) :=
  (dat14 (F := Ideal) V c).arrAt_eq_of_cover 4 _ (fun t _ => by
    show (cfg14.win 4).cut (grid14.coords t) ((dat14 (F := Ideal) V c).after 4 t) = _
    rw [after14_4]; exact blk14_4 V c hv t) rows14_4

end

end Cert.KernelIdeal.Hand

end
-- ==== Proof.KernelIdeal.Val15.lean ====
/-
  The per-graph mean of 192-wide node rows, as the reduce region computes it. Over the grid's twenty points the
  region adds, into a carried [256, 192] accumulator that the first point zeroes, the product (contracted along the
  5000 rows of the point's block) of a one-hot matrix — entry (r, g) is 1 when row r's graph id is g, else 0 — with the
  block of rows; after the last point it writes the accumulator divided, row by row, by the graphs' counts. On the
  extended reals 1 · x = x and 0 · x = 0 for every x, so after point n the accumulator holds at (g, d) the sum of
  x (r, d) over the rows r < 5000 · (n + 1) whose id is g: by induction on the point. After the last point that is the
  sum over all rows of the segment, which is what a scatter of rows with addition into zeros gives; both sides then
  divide by the same count.
-/
import proofs.«422469_j24000277250640_1_alg».proof.Proof.KernelIdeal.Reg15
import proofs.«422469_j24000277250640_1_alg».proof.Proof.KernelIdeal.SegSum
import proofs.«422469_j24000277250640_1_alg».proof.Proof.Spec.SegMean
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)
open scoped BigOperators

/-! ## The three stored values, read at an index -/

/-- The reset stores zero everywhere. -/
theorem pay15_1_apply (j : S256x192.Idx) : k15_pay1 (F := Ideal) j = 0 := by
  unfold k15_pay1
  simp only [shapeCast_self]
  exact Ideal.ofBits_zero_f32

/-- The accumulation at (g, d): what was there plus the block's rows of segment g in column d. -/
theorem pay15_2_apply (v3 : Vec Ideal S5000x192 .f32) (v7 : Vec Ideal S5000x1 .i32) (v15 : Vec Ideal S256x192 .f32)
    (g : Fin 256) (d : Fin 192) :
    k15_pay2 v3 v7 v15 (ix2 g d)
      = v15 (ix2 g d) + ∑ k : Fin 5000, (if (v7 (ix2 k 0)).toInt = (g.val : ℤ) then v3 (ix2 k d) else 0) := by
  unfold k15_pay2
  simp only [shapeCast_self]
  refine (addf_apply _ _ _).trans ?_
  refine congrArg (v15 (ix2 g d) + ·) ?_
  refine (Cert.SegSum.matmul_zero_apply dot_S5000x256_S5000x192_S256x192_0_0_1_1_n_n rfl rfl rfl rfl rfl rfl none _ _ (ix2 g d)).trans ?_
  refine Finset.sum_congr rfl fun k _ => ?_
  have hb : broadcastTo S5000x256 v7 broadcasts_S5000x1_S5000x256 (ix2 k g) = v7 (ix2 k 0) :=
    broadcastTo_apply v7 _ (ix2 k g) (ix2 k 0) (fun a => by match a with | ⟨0, _⟩ => rfl | ⟨1, _⟩ => rfl)
  have hio : iota .tc S5000x256 32 [1] iota_S5000x256_d1_w32 (ix2 k g) = BitVec.ofNat 32 g.val :=
    iota_single_apply .tc S5000x256 32 1 _ (ix2 k g)
  show (((((IntOp.cmpi .eq (broadcastTo S5000x256 v7 broadcasts_S5000x1_S5000x256 (ix2 k g))
      (iota .tc S5000x256 32 [1] iota_S5000x256_d1_w32 (ix2 k g))).setWidth 32).toInt : ℤ) : ℝ) : EReal) * v3 (ix2 k d) = _
  rw [hb, hio, Cert.SegSum.weight_mul]
  have hw := Cert.SegSum.eq_ofNat_iff_toInt (v7 (ix2 k 0)) g.val (by have := g.isLt; omega)
  by_cases h : v7 (ix2 k 0) = BitVec.ofNat 32 g.val
  · rw [if_pos h, if_pos (hw.mp h)]
  · rw [if_neg h, if_neg (fun h' => h (hw.mpr h'))]

/-- The write-back at (g, d): the accumulated sum over the segment's count. -/
theorem pay15_3_apply (v23 : Vec Ideal S256x192 .f32) (v24 : Vec Ideal S256x1 .f32) (g : Fin 256) (d : Fin 192) :
    k15_pay3 v23 v24 (ix2 g d) = Ideal.div (v23 (ix2 g d)) (v24 (ix2 g 0)) := by
  unfold k15_pay3
  simp only [shapeCast_self]
  refine (divf_apply _ _ _).trans ?_
  refine congrArg (Ideal.div (v23 (ix2 g d))) ?_
  exact broadcastTo_apply v24 broadcasts_S256x1_S256x192 (ix2 g d) (ix2 g 0)
    (fun a => by match a with | ⟨0, _⟩ => rfl | ⟨1, _⟩ => rfl)

/-! ## One point's accumulation, over rows of the whole arrays -/

/-- If the block is rows 5000·n … 5000·n + 4999 of the whole arrays and the scratch holds the sum over the first
    5000·n rows, the accumulation leaves the sum over the first 5000·(n + 1) rows. -/
theorem step15 (X : Vec Ideal S100000x192 .f32) (B : Vec Ideal S100000x1 .i32) (xb : Vec Ideal S5000x192 .f32)
    (bb : Vec Ideal S5000x1 .i32) (acc : Vec Ideal S256x192 .f32) (n : ℕ) (hn : 5000 * n + 5000 ≤ 100000)
    (hx : ∀ (k : Fin 5000) (d : Fin 192), xb (ix2 k d) = X (ix2 ⟨5000 * n + k.val, by have := k.isLt; omega⟩ d))
    (hb : ∀ k : Fin 5000, bb (ix2 k 0) = B (ix2 ⟨5000 * n + k.val, by have := k.isLt; omega⟩ 0))
    (g : Fin 256) (d : Fin 192)
    (hacc : acc (ix2 g d) = ∑ r ∈ Finset.range (5000 * n), Cert.SegSum.rowTerm X B g.val d r) :
    k15_pay2 xb bb acc (ix2 g d) = ∑ r ∈ Finset.range (5000 * (n + 1)), Cert.SegSum.rowTerm X B g.val d r := by
  rw [pay15_2_apply xb bb acc g d, hacc, Cert.SegSum.sum_range_tile X B g.val d 5000 n]
  refine congrArg (_ + ·) (Finset.sum_congr rfl fun k _ => ?_)
  rw [Cert.SegSum.rowTerm_of_lt X B g.val d (5000 * n + k.val) (by have := k.isLt; omega), hb k, hx k d]

/-! ## The last point: the write-back is the per-graph mean -/

/-- If the block is the last 5000 rows, the scratch holds the sum over the rows before them and the counts' block is
    the counts, what the last point writes back is the per-graph mean of the whole array. -/
theorem last15 [hR : Cert.ReferenceIdeal.Facts] (X : Vec Ideal S100000x192 .f32) (B : Vec Ideal S100000x1 .i32)
    (Nn : Vec Ideal S256x1 .f32) (xb : Vec Ideal S5000x192 .f32) (bb : Vec Ideal S5000x1 .i32) (nb : Vec Ideal S256x1 .f32)
    (acc : Vec Ideal S256x192 .f32)
    (hx : ∀ (k : Fin 5000) (d : Fin 192), xb (ix2 k d) = X (ix2 ⟨5000 * 19 + k.val, by have := k.isLt; omega⟩ d))
    (hb : ∀ k : Fin 5000, bb (ix2 k 0) = B (ix2 ⟨5000 * 19 + k.val, by have := k.isLt; omega⟩ 0))
    (hn : ∀ g : Fin 256, nb (ix2 g 0) = Nn (ix2 g 0))
    (hacc : ∀ (g : Fin 256) (d : Fin 192), acc (ix2 g d) = ∑ r ∈ Finset.range (5000 * 19), Cert.SegSum.rowTerm X B g.val d r) :
    k15_pay3 (k15_pay2 xb bb acc) nb = Cert.Spec.segMean192 X B Nn := by
  funext j
  obtain ⟨g, d, rfl⟩ : ∃ (g : Fin 256) (d : Fin 192), j = ix2 g d := ⟨j 0, j 1, eq_ix2 j⟩
  rw [pay15_3_apply (k15_pay2 xb bb acc) nb g d, step15 X B xb bb acc 19 (by omega) hx hb g d (hacc g d), hn g,
    Cert.Spec.segMean192_apply X B Nn g d, ← Cert.SegSum.sum_range_rowTerm X B g.val d]

/-! ## What each case's stores leave, as the stored values -/

theorem hz15 : (![0, 0] : Fin 2 → Nat) = fun _ => 0 := funext fun a => by fin_cases a <;> rfl

/-- First point: the scratch is zeroed, read back, and accumulated into. -/
theorem sout15_A_eq (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : cond15_0 i) (hcl : ¬cond15_1 i)
    (xd : Vec Ideal S5000x192 .f32) (xb : Vec Ideal S5000x1 .i32) (xn : Vec Ideal S256x1 .f32) :
    sout15_A_0 c i arg1 harg1 arg2 harg2 arg3 harg3 arg4 harg4 arg5 harg5 hcz hcl xd xb xn = k15_pay2 xd xb (k15_pay1 (F := Ideal)) := by
  unfold sout15_A_0
  rw [View.read_writes_eq_canon _ _ _ (scover15_A_0 c i arg1 harg1 arg2 harg2 arg3 harg3 arg4 harg4 arg5 harg5 hcz hcl xd xb xn)]
  unfold kernelRun15_A
  dsimp only
  sl_unfold_words
  rw [View.canon_cons_unit_zero (S := S256x192) hz15, View.readCov_unit_zero (S := S256x192) _ hz15]
  simp only [View.readAt_eq_ld, harg1.read_unread, harg2.read_unread, View.ld_unit_zero (S := S5000x192) hz15,
    View.ld_unit_zero (S := S5000x1) hz15]

/-- A middle point: the scratch is accumulated into. -/
theorem sout15_B_eq (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : ¬cond15_1 i)
    (xd : Vec Ideal S5000x192 .f32) (xb : Vec Ideal S5000x1 .i32) (xn : Vec Ideal S256x1 .f32) (xs : Vec Ideal S256x192 .f32) :
    sout15_B_0 c i arg1 harg1 arg2 harg2 arg3 harg3 arg4 harg4 arg5 harg5 hcz hcl xd xb xn xs = k15_pay2 xd xb xs := by
  unfold sout15_B_0
  rw [View.read_writes_eq_canon _ _ _ (scover15_B_0 c i arg1 harg1 arg2 harg2 arg3 harg3 arg4 harg4 arg5 harg5 hcz hcl xd xb xn xs)]
  unfold kernelRun15_B
  dsimp only
  sl_unfold_words
  rw [View.canon_unit_zero hz15]
  simp only [View.readAt_eq_ld, harg1.read_unread, harg2.read_unread, harg5.read_unread, View.ld_unit_zero (S := S5000x192) hz15,
    View.ld_unit_zero (S := S5000x1) hz15, View.ld_unit_zero (S := S256x192) hz15]

/-- The last point: the scratch is accumulated into, -/
theorem sout15_C_eq (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : cond15_1 i)
    (xd : Vec Ideal S5000x192 .f32) (xb : Vec Ideal S5000x1 .i32) (xn : Vec Ideal S256x1 .f32) (xs : Vec Ideal S256x192 .f32) :
    sout15_C_0 c i arg1 harg1 arg2 harg2 arg3 harg3 arg4 harg4 arg5 harg5 hcz hcl xd xb xn xs = k15_pay2 xd xb xs := by
  unfold sout15_C_0
  rw [View.read_writes_eq_canon _ _ _ (scover15_C_0 c i arg1 harg1 arg2 harg2 arg3 harg3 arg4 harg4 arg5 harg5 hcz hcl xd xb xn xs)]
  unfold kernelRun15_C
  dsimp only
  sl_unfold_words
  rw [View.canon_unit_zero hz15]
  simp only [View.readAt_eq_ld, harg1.read_unread, harg2.read_unread, harg5.read_unread, View.ld_unit_zero (S := S5000x192) hz15,
    View.ld_unit_zero (S := S5000x1) hz15, View.ld_unit_zero (S := S256x192) hz15]

/-- and its quotient by the counts is stored into the output's block. -/
theorem out15_C_eq (c : Dev nD) (i : grid15.Coords) (arg1 : Memref sig .tc .vmem S5000x192 .f32) (harg1 : arg1.IsWhole) (arg2 : Memref sig .tc .vmem S5000x1 .i32) (harg2 : arg2.IsWhole) (arg3 : Memref sig .tc .vmem S256x1 .f32) (harg3 : arg3.IsWhole) (arg4 : Memref sig .tc .vmem S256x192 .f32) (harg4 : arg4.IsWhole) (arg5 : Memref sig .tc .vmem S256x192 .f32) (harg5 : arg5.IsWhole) (hcz : ¬cond15_0 i) (hcl : cond15_1 i)
    (xd : Vec Ideal S5000x192 .f32) (xb : Vec Ideal S5000x1 .i32) (xn : Vec Ideal S256x1 .f32) (xs : Vec Ideal S256x192 .f32) :
    out15_C_3 c i arg1 harg1 arg2 harg2 arg3 harg3 arg4 harg4 arg5 harg5 hcz hcl xd xb xn xs = k15_pay3 (k15_pay2 xd xb xs) xn := by
  unfold out15_C_3
  rw [View.read_writes_eq_canon _ _ _ (cover15_C_3 c i arg1 harg1 arg2 harg2 arg3 harg3 arg4 harg4 arg5 harg5 hcz hcl xd xb xn xs)]
  unfold kernelRun15_C
  dsimp only
  sl_unfold_words
  rw [View.canon_unit_zero hz15]
  simp only [View.readAt_eq_ld, harg1.read_unread, harg2.read_unread, harg3.read_unread, harg5.read_unread,
    View.readCov_unit_zero (S := S256x192) _ hz15, View.ld_unit_zero (S := S5000x192) hz15,
    View.ld_unit_zero (S := S5000x1) hz15, View.ld_unit_zero (S := S256x192) hz15, View.ld_unit_zero (S := S256x1) hz15]

/-! ## The blocks are rows of the whole arrays -/

section
variable (V : (c : Dev nD) → (b : Ref sig .tc) → Buf (Elt Ideal) ((c : Thread nD τ).loc b))

/-- The three whole arrays the region reads, and each window's block at a point, by their literal types. -/
abbrev xarr15 (c : Dev nD) : Vec Ideal S100000x192 .f32 := V c main_v181
abbrev barr15 (c : Dev nD) : Vec Ideal S100000x1 .i32 := V c main_v36
abbrev narr15 (c : Dev nD) : Vec Ideal S256x1 .f32 := V c main_v35
abbrev xblk15 (c : Dev nD) (t : Fin cfg15.N) : Vec Ideal S5000x192 .f32 := iblk15 V c 0 t
abbrev bblk15 (c : Dev nD) (t : Fin cfg15.N) : Vec Ideal S5000x1 .i32 := iblk15 V c 1 t
abbrev nblk15 (c : Dev nD) (t : Fin cfg15.N) : Vec Ideal S256x1 .f32 := iblk15 V c 2 t

/-- Where the windows' blocks sit at point t: the two row windows at block t, the counts at block 0. -/
theorem idx15_0 : ∀ t : Fin cfg15.N, win15_0.index t 0 = t.val ∧ win15_0.index t 1 = 0 :=
  (by decide +kernel : ∀ t : Fin grid15.N, win15_0.index t 0 = t.val ∧ win15_0.index t 1 = 0)
theorem idx15_1 : ∀ t : Fin cfg15.N, win15_1.index t 0 = t.val ∧ win15_1.index t 1 = 0 :=
  (by decide +kernel : ∀ t : Fin grid15.N, win15_1.index t 0 = t.val ∧ win15_1.index t 1 = 0)
theorem idx15_2 : ∀ t : Fin cfg15.N, win15_2.index t 0 = 0 ∧ win15_2.index t 1 = 0 :=
  (by decide +kernel : ∀ t : Fin grid15.N, win15_2.index t 0 = 0 ∧ win15_2.index t 1 = 0)

theorem lt15 (t : Fin cfg15.N) (k : Fin 5000) : 5000 * t.val + k.val < 100000 := by
  have hN : cfg15.N = 20 := N_15
  have := t.isLt; have := k.isLt; omega

theorem xblk15_apply (c : Dev nD) (t : Fin cfg15.N) (k : Fin 5000) (d : Fin 192) :
    xblk15 V c t (ix2 k d) = xarr15 V c (ix2 ⟨5000 * t.val + k.val, lt15 t k⟩ d) := by
  have hi := idx15_0 t
  show iblk15 V c 0 t (ix2 k d) = V c main_v181 _
  unfold iblk15
  rw [View.read_apply]
  show V c main_v181 _ = V c main_v181 _
  congr 1
  funext a
  apply Fin.ext
  match a with
  | ⟨0, _⟩ => show win15_0.index t 0 * 5000 + 1 * k.val = 5000 * t.val + k.val; rw [hi.1]; omega
  | ⟨1, _⟩ => show win15_0.index t 1 * 192 + 1 * d.val = d.val; rw [hi.2]; omega

theorem bblk15_apply (c : Dev nD) (t : Fin cfg15.N) (k : Fin 5000) :
    bblk15 V c t (ix2 k 0) = barr15 V c (ix2 ⟨5000 * t.val + k.val, lt15 t k⟩ 0) := by
  have hi := idx15_1 t
  show iblk15 V c 1 t (ix2 k 0) = V c main_v36 _
  unfold iblk15
  rw [View.read_apply]
  show V c main_v36 _ = V c main_v36 _
  congr 1
  funext a
  apply Fin.ext
  match a with
  | ⟨0, _⟩ => show win15_1.index t 0 * 5000 + 1 * k.val = 5000 * t.val + k.val; rw [hi.1]; omega
  | ⟨1, _⟩ => show win15_1.index t 1 * 1 + 1 * 0 = 0; rw [hi.2]

theorem nblk15_apply (c : Dev nD) (t : Fin cfg15.N) (g : Fin 256) :
    nblk15 V c t (ix2 g 0) = narr15 V c (ix2 g 0) := by
  have hi := idx15_2 t
  show iblk15 V c 2 t (ix2 g 0) = V c main_v35 _
  unfold iblk15
  rw [View.read_apply]
  show V c main_v35 _ = V c main_v35 _
  congr 1
  funext a
  apply Fin.ext
  match a with
  | ⟨0, _⟩ => show win15_2.index t 0 * 256 + 1 * g.val = g.val; rw [hi.1]; omega
  | ⟨1, _⟩ => show win15_2.index t 1 * 1 + 1 * 0 = 0; rw [hi.2]

variable [hR : Cert.ReferenceIdeal.Facts]

/-! ## The scratch after each point, and the array after the last -/

/-- After point n the scratch holds, at (g, d), the sum over the first 5000·(n + 1) rows of segment g in column d. -/
theorem scratch15_apply (c : Dev nD) (g : Fin 256) (d : Fin 192) : ∀ (n : ℕ) (h : n < cfg15.N),
    (outsAt15 V c n h).2 (ix2 g d)
      = ∑ r ∈ Finset.range (5000 * (n + 1)), Cert.SegSum.rowTerm (xarr15 V c) (barr15 V c) g.val d r
  | 0, h => by
    have hN : cfg15.N = 20 := N_15
    rw [outsAt15_A V c ⟨0, h⟩ rfl (by dsimp only; omega)]
    dsimp only
    refine (congrFun (sout15_A_eq c (grid15.coords ⟨0, h⟩) (ms15_0 ⟨0, h⟩) (hs15_0 ⟨0, h⟩) (ms15_1 ⟨0, h⟩) (hs15_1 ⟨0, h⟩) (ms15_2 ⟨0, h⟩) (hs15_2 ⟨0, h⟩) (ms15_3 ⟨0, h⟩) (hs15_3 ⟨0, h⟩) scM15_0 (Memref.isWhole_whole _) _ _ (xblk15 V c ⟨0, h⟩) (bblk15 V c ⟨0, h⟩) (nblk15 V c ⟨0, h⟩)) (ix2 g d)).trans ?_
    exact step15 (xarr15 V c) (barr15 V c) (xblk15 V c ⟨0, h⟩) (bblk15 V c ⟨0, h⟩) (k15_pay1 (F := Ideal)) 0 (by omega)
      (fun k d => xblk15_apply V c ⟨0, h⟩ k d) (fun k => bblk15_apply V c ⟨0, h⟩ k) g d
      (by rw [pay15_1_apply, Cert.SegSum.sum_range_zero])
  | n + 1, h => by
    have hN : cfg15.N = 20 := N_15
    have ih := scratch15_apply c g d n (Nat.lt_of_succ_lt h)
    have h0 : ¬(⟨n + 1, h⟩ : Fin cfg15.N).val % 20 = 0 := by dsimp only; omega
    by_cases h1 : (⟨n + 1, h⟩ : Fin cfg15.N).val % 20 = 19
    · rw [outsAt15_C V c ⟨n + 1, h⟩ h0 h1]
      dsimp only
      refine (congrFun (sout15_C_eq c (grid15.coords ⟨n + 1, h⟩) (ms15_0 ⟨n + 1, h⟩) (hs15_0 ⟨n + 1, h⟩) (ms15_1 ⟨n + 1, h⟩) (hs15_1 ⟨n + 1, h⟩) (ms15_2 ⟨n + 1, h⟩) (hs15_2 ⟨n + 1, h⟩) (ms15_3 ⟨n + 1, h⟩) (hs15_3 ⟨n + 1, h⟩) scM15_0 (Memref.isWhole_whole _) _ _ (xblk15 V c ⟨n + 1, h⟩) (bblk15 V c ⟨n + 1, h⟩) (nblk15 V c ⟨n + 1, h⟩)
        (outsAt15 V c n (Nat.lt_of_succ_lt h)).2) (ix2 g d)).trans ?_
      exact step15 (xarr15 V c) (barr15 V c) (xblk15 V c ⟨n + 1, h⟩) (bblk15 V c ⟨n + 1, h⟩) (outsAt15 V c n (Nat.lt_of_succ_lt h)).2 (n + 1)
        (by omega) (fun k d => xblk15_apply V c ⟨n + 1, h⟩ k d) (fun k => bblk15_apply V c ⟨n + 1, h⟩ k) g d ih
    · rw [outsAt15_B V c ⟨n + 1, h⟩ h0 h1]
      dsimp only
      refine (congrFun (sout15_B_eq c (grid15.coords ⟨n + 1, h⟩) (ms15_0 ⟨n + 1, h⟩) (hs15_0 ⟨n + 1, h⟩) (ms15_1 ⟨n + 1, h⟩) (hs15_1 ⟨n + 1, h⟩) (ms15_2 ⟨n + 1, h⟩) (hs15_2 ⟨n + 1, h⟩) (ms15_3 ⟨n + 1, h⟩) (hs15_3 ⟨n + 1, h⟩) scM15_0 (Memref.isWhole_whole _) _ _ (xblk15 V c ⟨n + 1, h⟩) (bblk15 V c ⟨n + 1, h⟩) (nblk15 V c ⟨n + 1, h⟩)
        (outsAt15 V c n (Nat.lt_of_succ_lt h)).2) (ix2 g d)).trans ?_
      exact step15 (xarr15 V c) (barr15 V c) (xblk15 V c ⟨n + 1, h⟩) (bblk15 V c ⟨n + 1, h⟩) (outsAt15 V c n (Nat.lt_of_succ_lt h)).2 (n + 1)
        (by omega) (fun k d => xblk15_apply V c ⟨n + 1, h⟩ k d) (fun k => bblk15_apply V c ⟨n + 1, h⟩ k) g d ih

/-- The last point of the grid. -/
abbrev t15_last : Fin cfg15.N := ⟨19, by decide⟩

/-- What the last point leaves in the output's block: the per-graph mean. -/
theorem out15_last (c : Dev nD) :
    (outsAt15 V c t15_last.val t15_last.isLt).1 = Cert.Spec.segMean192 (F := Ideal) (xarr15 V c) (barr15 V c) (narr15 V c) := by
  rw [outsAt15_C V c t15_last (by decide) rfl]
  dsimp only
  refine (out15_C_eq c (grid15.coords t15_last) (ms15_0 t15_last) (hs15_0 t15_last) (ms15_1 t15_last) (hs15_1 t15_last) (ms15_2 t15_last) (hs15_2 t15_last) (ms15_3 t15_last) (hs15_3 t15_last) scM15_0 (Memref.isWhole_whole _) _ _ (xblk15 V c t15_last) (bblk15 V c t15_last) (nblk15 V c t15_last)
    (outsAt15 V c 18 (by decide)).2).trans ?_
  exact last15 (xarr15 V c) (barr15 V c) (narr15 V c) (xblk15 V c t15_last) (bblk15 V c t15_last) (nblk15 V c t15_last)
    (outsAt15 V c 18 (by decide)).2 (fun k d => xblk15_apply V c t15_last k d) (fun k => bblk15_apply V c t15_last k)
    (fun g => nblk15_apply V c t15_last g) (fun g d => scratch15_apply V c g d 18 (by decide))

/-- The per-graph mean, as contents of the region's result array. -/
abbrev result15 (c : Dev nD) : Buf (Elt Ideal) ((c : Thread nD τ).loc main_v182) :=
  Cert.Spec.segMean192 (F := Ideal) (V c main_v181) (V c main_v36) (V c main_v35)

theorem idx15_3 : ∀ t : Fin cfg15.N, win15_3.index t 0 = 0 ∧ win15_3.index t 1 = 0 :=
  (by decide +kernel : ∀ t : Fin grid15.N, win15_3.index t 0 = 0 ∧ win15_3.index t 1 = 0)

/-- The one write-back, at the last point, writes it: the output's one block is the whole array. -/
theorem flushed15_eq (c : Dev nD) (t : Fin cfg15.N) (hf : (cfg15.win 3).flush t = true) :
    (dat15 V c).flushed 3 t = ((cfg15.win 3).blk t).view.read (Elt Ideal) (result15 V c) := by
  have hN : cfg15.N = 20 := N_15
  have h19 : t.val = 19 := by have := (flush15_3 t).mp hf; have := t.isLt; omega
  obtain rfl : t = t15_last := Fin.ext h19
  show (cfg15.win 3).cut (grid15.coords t15_last) ((dat15 V c).after 3 t15_last) = _
  rw [after15_3, out15_last]
  have hz' : (fun a => win15_3.index t15_last a * main_v182.ty.shape.size a) = fun _ => 0 :=
    funext fun a => by fin_cases a <;> decide +kernel
  exact (Memref.read_access_unit_zero (Elt Ideal) main_v182 hz' (fun a => by rw [congrFun hz' a]; simp) (result15 V c)).symm

/-- So the region's result array ends holding the per-graph mean of the rows it was given. -/
theorem out15_eq (c : Dev nD) :
    (dat15 V c).arrAt 3 cfg15.N = Cert.Spec.segMean192 (F := Ideal) (V c main_v181) (V c main_v36) (V c main_v35) :=
  (dat15 V c).arrAt_eq_of_cover 3 (result15 V c) (flushed15_eq V c) fun i =>
    ⟨t15_last, (flush15_3 t15_last).mpr rfl, by
      show i ∈ ((View.whole main_v182).slice (win15_3.rect t15_last)).set
      rw [View.set_slice_whole, Rect.mem_set_unit]
      intro a
      have h0 : (i 0 : Nat) < 256 := (i 0).isLt
      have h1 : (i 1 : Nat) < 192 := (i 1).isLt
      match a with
      | ⟨0, _⟩ =>
        show win15_3.index t15_last 0 * win15_3.size 0 ≤ (i 0 : Nat) ∧ (i 0 : Nat) < win15_3.index t15_last 0 * win15_3.size 0 + win15_3.xsize (grid15.coords t15_last) 0
        rw [show win15_3.index t15_last 0 * win15_3.size 0 = 0 from by decide +kernel, show win15_3.xsize (grid15.coords t15_last) 0 = 256 from by decide +kernel]; omega
      | ⟨1, _⟩ =>
        show win15_3.index t15_last 1 * win15_3.size 1 ≤ (i 1 : Nat) ∧ (i 1 : Nat) < win15_3.index t15_last 1 * win15_3.size 1 + win15_3.xsize (grid15.coords t15_last) 1
        rw [show win15_3.index t15_last 1 * win15_3.size 1 = 0 from by decide +kernel, show win15_3.xsize (grid15.coords t15_last) 1 = 192 from by decide +kernel]; omega⟩

end

end Cert.KernelIdeal.Hand

end
-- ==== Proof.KernelIdeal.Val16.lean ====
/-
  The classifier head, from the region's one block to the whole array, at the exact values.

  The last region runs once, on whole arrays: the 256 × 192 matrix of pooled graph features p, a 192 × 192 and a
  192 × 10 weight matrix w₁ and w₂, and two bias rows b₁ and b₂. Its body computes
      log-softmax ((max (p · w₁ + b₁, 0)) · w₂ + b₂),
  each product with its factors rounded to a narrower format and accumulated into zero, each bias row laid down the 256
  rows, and the log-softmax along the ten classes as x − m − log Σ exp (x − m) with m the row's maximum taken from −∞.
  At the exact values the roundings are the identity and the zero accumulator adds nothing, so each product is the plain
  program's; a row laid down the rows, and a vector of row maxima or row sums stood up as a column and laid across the
  row, are the plain program's broadcasts along named axes; the kernel's lane maximum from −∞ is the plain program's
  reduction from −∞ joined with −∞ once more, and its lane sum from zero is the plain program's sum from zero. So the
  body's payload is the plain program's head of the same five arrays, and since the one grid point's blocks are the
  whole arrays and its write-back fills the output, the output array after the region is that head.
-/
import proofs.«422469_j24000277250640_1_alg».proof.Proof.KernelIdeal.Reg16
import proofs.«422469_j24000277250640_1_alg».proof.Proof.Gen.ReferenceIdeal
import proofs.«422469_j24000277250640_1_alg».proof.Proof.Spec.Ops
import proofs.«422469_j24000277250640_1_alg».proof.Proof.LibRowDot
import Idealize.ShloMosaic.Lib.Pipeline.Value
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.LibRowDot

/-! ## A row or a column laid across a matrix: the kernel's spelling and the plain program's -/

section Layout
variable {α : Type}

/-- A one-row matrix laid down m rows: the kernel's broadcast of it is the plain program's broadcast along both axes. -/
theorem broadcastTo_oneRow16 {m n : Nat} (y : (⟨2, ![1, n]⟩ : Shape).Idx → α)
    (hb : (⟨2, ![1, n]⟩ : Shape).Broadcasts ⟨2, ![m, n]⟩)
    (hbc : (⟨2, ![1, n]⟩ : Shape).BroadcastsInDim ⟨2, ![m, n]⟩ ![0, 1]) :
    broadcastTo ⟨2, ![m, n]⟩ y hb = broadcastInDim ⟨2, ![m, n]⟩ ![0, 1] hbc y := by
  funext i
  obtain ⟨r, t, rfl⟩ : ∃ (r : Fin m) (t : Fin n), i = ix2 r t := ⟨i 0, i 1, eq_ix2 i⟩
  refine Eq.trans ?_ (broadcastInDim_oneRow_apply hbc y r t).symm
  refine broadcastTo_apply y hb (ix2 r t) (ix2 (0 : Fin 1) t) ?_
  intro a
  fin_cases a
  · show (0 : ℕ) = if (1 : ℕ) = 1 then 0 else _
    simp
  · show t.val = if n = 1 then 0 else t.val
    split_ifs with hn
    · have := t.isLt; omega
    · rfl

/-- A vector of m entries stood up as a column: the kernel's cast of it is the plain program's broadcast along axis 0. -/
theorem shapeCast_col16 {m : Nat} (v : (⟨1, ![m]⟩ : Shape).Idx → α)
    (hc : (⟨1, ![m]⟩ : Shape).ShapeCasts ⟨2, ![m, 1]⟩)
    (hd : (⟨1, ![m]⟩ : Shape).BroadcastsInDim ⟨2, ![m, 1]⟩ ![0]) :
    shapeCast ⟨2, ![m, 1]⟩ v hc = broadcastInDim ⟨2, ![m, 1]⟩ ![0] hd v := by
  funext i
  obtain ⟨r, z, rfl⟩ : ∃ (r : Fin m) (z : Fin 1), i = ix2 r z := ⟨i 0, i 1, eq_ix2 i⟩
  have hz : z.val = 0 := by have := z.isLt; omega
  have e1 := shapeCast_apply v hc (ix2 r z) (ix1 r) (by
    rw [Shape.rowMajor_val_two, Shape.rowMajor_val_one]; show r.val = r.val * 1 + z.val; omega)
  have e2 := broadcastInDim_apply ![0] hd v (ix2 r z) (ix1 r) (by
    intro a
    fin_cases a
    show r.val = if m = 1 then 0 else r.val
    split_ifs with hm
    · have := r.isLt; omega
    · rfl)
  exact e1.trans e2.symm

/-- A one-column matrix laid across n columns: the kernel's broadcast of it is the plain program's along both axes. -/
theorem broadcastTo_oneCol16 {m n : Nat} (y : (⟨2, ![m, 1]⟩ : Shape).Idx → α)
    (hb : (⟨2, ![m, 1]⟩ : Shape).Broadcasts ⟨2, ![m, n]⟩)
    (hbc : (⟨2, ![m, 1]⟩ : Shape).BroadcastsInDim ⟨2, ![m, n]⟩ ![0, 1]) :
    broadcastTo ⟨2, ![m, n]⟩ y hb = broadcastInDim ⟨2, ![m, n]⟩ ![0, 1] hbc y := by
  funext i
  obtain ⟨r, t, rfl⟩ : ∃ (r : Fin m) (t : Fin n), i = ix2 r t := ⟨i 0, i 1, eq_ix2 i⟩
  have hk : ∀ a : Fin 2, ((ix2 r (0 : Fin 1) : (⟨2, ![m, 1]⟩ : Shape).Idx) a).val
      = if (⟨2, ![m, 1]⟩ : Shape).size a = 1 then 0 else ((ix2 r t : (⟨2, ![m, n]⟩ : Shape).Idx) a).val := by
    intro a
    fin_cases a
    · show r.val = if m = 1 then 0 else r.val
      split_ifs with hm
      · have := r.isLt; omega
      · rfl
    · show (0 : ℕ) = if (1 : ℕ) = 1 then 0 else _
      simp
  have e1 := broadcastTo_apply y hb (ix2 r t) (ix2 r (0 : Fin 1)) hk
  have e2 := broadcastInDim_apply ![0, 1] hbc y (ix2 r t) (ix2 r (0 : Fin 1)) (by
    intro a
    fin_cases a
    · show r.val = if m = 1 then 0 else r.val
      split_ifs with hm
      · have := r.isLt; omega
      · rfl
    · show (0 : ℕ) = if (1 : ℕ) = 1 then 0 else _
      simp)
  exact e1.trans e2.symm

end Layout

/-! ## The log-softmax stage -/

/-- A row's maximum taken from −∞. The kernel folds the maximum over the row from −∞; the plain program reduces
    the row from −∞ and joins the result with −∞ once more, which changes nothing: the fold is already above its start. -/
theorem rowMax16 (z : FVec Ideal S256x10 .f32) (hr : S256x10.Reduces [1] S256) (hφ : FKind.Formats .f32)
    (hmax : (0xFF800000#32 : BitVec 32) = FKind.maximumf.neutral .f32 hφ)
    (hr' : S256x10.ReducesTo [1] S256) (hu : 0 < S_.numel) (hb0 : S_.BroadcastsInDim S256 ![]) :
    multiReduction .maximumf [1] S256 z 0xFF800000#32 hr hφ hmax
      = maximumf (broadcastInDim S256 ![] hb0 (constant (F := Ideal) S_ .f32 0xFF800000#32))
          (Host.reduce FloatOps.maximumf z (constant (F := Ideal) S_ .f32 0xFF800000#32) hr' hu) := by
  funext j
  refine (Ideal.multiReduction_maximumf_single z 0xFF800000#32 hr hφ hmax j).trans ?_
  refine Eq.trans ?_ (congrArg (max (Ideal.ofBits .f32 0xFF800000#32))
    (Host.reduce_eq_fold_single FloatOps.maximumf z (constant (F := Ideal) S_ .f32 0xFF800000#32) hr' hr hu j)).symm
  exact (max_eq_right ((Finset.le_fold_max _).mpr (Or.inl le_rfl))).symm

/-- The zero word is the number zero, at the one index of the rank-0 shape. -/
theorem zero_first16 (hu : 0 < S_.numel) : (constant (F := Ideal) S_ .f32 0x00000000#32) (Shape.Idx.first hu) = 0 :=
  Ideal.ofBits_zero_f32

/-- The log-softmax of a matrix of logits, row by row: x − max − log Σ exp (x − max). The kernel takes the row
    maximum and the row sum as lane reductions and lays each back across the row as a cast to a column followed by a
    broadcast; the plain program reduces on the host and broadcasts along named axes. Same values at every entry. -/
theorem logSoftmax16 (z : FVec Ideal S256x10 .f32) (hr : S256x10.Reduces [1] S256) (hφ : FKind.Formats .f32)
    (hmax : (0xFF800000#32 : BitVec 32) = FKind.maximumf.neutral .f32 hφ)
    (hadd : (0x00000000#32 : BitVec 32) = FKind.add.neutral .f32 hφ)
    (hc : S256.ShapeCasts S256x1) (hb : S256x1.Broadcasts S256x10) :
    subf (subf z (broadcastTo S256x10 (shapeCast S256x1 (multiReduction .maximumf [1] S256 z 0xFF800000#32 hr hφ hmax) hc) hb))
        (broadcastTo S256x10 (log (shapeCast S256x1 (multiReduction .add [1] S256
          (exp (subf z (broadcastTo S256x10 (shapeCast S256x1 (multiReduction .maximumf [1] S256 z 0xFF800000#32 hr hφ hmax) hc) hb)))
          0x00000000#32 hr hφ hadd) hc)) hb)
      = Cert.Spec.logSoftmax (F := Ideal) z := by
  unfold Cert.Spec.logSoftmax
  dsimp only
  rw [rowMax16 z hr hφ hmax _ _ _]
  rw [shapeCast_col16 _ hc Cert.ReferenceIdeal.Facts₀.bcast_S256_S256x1_0,
    broadcastTo_oneCol16 _ hb Cert.ReferenceIdeal.Facts₀.bcast_S256x1_S256x10_0_1]
  rw [multiReduction_add_eq_hostReduceAdd _ 0x00000000#32 hr hφ hadd (constant (F := Ideal) S_ .f32 0x00000000#32)
    Cert.ReferenceIdeal.Facts₀.reducesTo_S256x10_S256_d1 Cert.ReferenceIdeal.Facts₀.h_S_ (zero_first16 _)]
  rw [shapeCast_col16 _ hc Cert.ReferenceIdeal.Facts₀.bcast_S256_S256x1_0,
    broadcastTo_oneCol16 _ hb Cert.ReferenceIdeal.Facts₀.bcast_S256x1_S256x10_0_1]
  rfl

/-! ## The two matrix products and the whole head -/

/-- A product of two matrices rounded to a narrower format and accumulated into zero, at the exact values: the
    rounding is the identity and the zero adds nothing, so it is the plain program's product of the two matrices. -/
theorem matmul16 {sl sr so : Shape} (d : DotDims sl sr so) (prec : Option ContractPrecision)
    (l : FVec Ideal sl .f32) (r : FVec Ideal sr .f32) (h1 : FTy.bits .bf16 < FTy.bits .f32) (h2 : FTy.bits .bf16 < FTy.bits .f32) :
    matmul d prec (truncf .bf16 l h1) (truncf .bf16 r h2) (constant so .f32 0x00000000#32) = Host.dotGeneral d prec l r := by
  funext j
  show FloatOps.matmul d prec (truncf .bf16 l h1) (truncf .bf16 r h2) (constant so .f32 0x00000000#32) j = FloatOps.dotGeneral d prec _ l r j
  rw [Ideal.matmul_constant_zero_apply, Ideal.dotGeneral_apply]
  rfl

/-- The two programs name the same two contractions: rows of a 256 × 192 matrix against columns of a 192 × 192
    one, and against columns of a 192 × 10 one. -/
theorem dot16_a : dot_S256x192_S192x192_S256x192_1_0_0_1_n_n = Cert.ReferenceIdeal.dot_S256x192_S192x192_S256x192_1_0_0_1_n_n := rfl
theorem dot16_b : dot_S256x192_S192x10_S256x10_1_0_0_1_n_n = Cert.ReferenceIdeal.dot_S256x192_S192x10_S256x10_1_0_0_1_n_n := rfl

/-- THE BODY'S PAYLOAD IS THE HEAD: log-softmax ((max (p · w₁ + b₁, 0)) · w₂ + b₂), the bias rows laid down the 256
    rows, as the plain program computes it from the same five arrays. -/
theorem k16_pay1_eq (x : FVec Ideal S256x192 .f32) (w1 : FVec Ideal S192x192 .f32) (b1 : FVec Ideal S1x192 .f32)
    (w2 : FVec Ideal S192x10 .f32) (b2 : FVec Ideal S1x10 .f32) :
    k16_pay1 (F := Ideal) x w1 b1 w2 b2 = Cert.Spec.head (F := Ideal) x w1 b1 w2 b2 := by
  unfold k16_pay1 Cert.Spec.head
  refine (logSoftmax16 _ _ _ _ _ _ _).trans ?_
  refine congrArg (Cert.Spec.logSoftmax (F := Ideal)) ?_
  simp only [shapeCast_self, matmul16,
    broadcastTo_oneRow16 _ _ Cert.ReferenceIdeal.Facts₀.bcast_S1x192_S256x192_0_1,
    broadcastTo_oneRow16 _ _ Cert.ReferenceIdeal.Facts₀.bcast_S1x10_S256x10_0_1,
    broadcastInDim_constant, dot16_a, dot16_b]

/-! ## From the one block to the array -/

theorem hz16 : (![0, 0] : Fin 2 → Nat) = fun _ => 0 := funext fun a => by fin_cases a <;> rfl

/-- The printed block index maps at the grid's one point: every window's block is its whole array. -/
theorem idx_facts16 : ∀ t : Fin cfg16.N,
    win16_0.index t (0 : Fin 2) = 0 ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0 :=
  (by decide +kernel : ∀ t : Fin grid16.N, _)

section
variable (V : (c : Dev nD) → (b : Ref sig .tc) → Buf (Elt Ideal) ((c : Thread nD τ).loc b))

/-- Each input window's one block is its array as the region finds it. -/
theorem iblk16_0_eq (c : Dev nD) (t : Fin cfg16.N) : iblk16 V c 0 t = V c main_v182 := by
  obtain ⟨e00, e01, -⟩ := idx_facts16 t
  refine funext fun (y : S256x192.Idx) => ?_
  show V c main_v182 (((cfg16.win 0).blk t).view.emb y) = V c main_v182 y
  refine congrArg (V c main_v182) ?_
  funext a; apply Fin.ext
  match a with
  | ⟨0, _⟩ => show win16_0.index t (0 : Fin 2) * 256 + 1 * (y 0).val = (y 0).val; omega
  | ⟨1, _⟩ => show win16_0.index t (1 : Fin 2) * 192 + 1 * (y 1).val = (y 1).val; omega

theorem iblk16_1_eq (c : Dev nD) (t : Fin cfg16.N) : iblk16 V c 1 t = V c main_arg8 := by
  obtain ⟨-, -, e10, e11, -⟩ := idx_facts16 t
  refine funext fun (y : S192x192.Idx) => ?_
  show V c main_arg8 (((cfg16.win 1).blk t).view.emb y) = V c main_arg8 y
  refine congrArg (V c main_arg8) ?_
  funext a; apply Fin.ext
  match a with
  | ⟨0, _⟩ => show win16_1.index t (0 : Fin 2) * 192 + 1 * (y 0).val = (y 0).val; omega
  | ⟨1, _⟩ => show win16_1.index t (1 : Fin 2) * 192 + 1 * (y 1).val = (y 1).val; omega

theorem iblk16_2_eq (c : Dev nD) (t : Fin cfg16.N) : iblk16 V c 2 t = V c main_v183 := by
  obtain ⟨-, -, -, -, e20, e21, -⟩ := idx_facts16 t
  refine funext fun (y : S1x192.Idx) => ?_
  show V c main_v183 (((cfg16.win 2).blk t).view.emb y) = V c main_v183 y
  refine congrArg (V c main_v183) ?_
  funext a; apply Fin.ext
  match a with
  | ⟨0, _⟩ => show win16_2.index t (0 : Fin 2) * 1 + 1 * (y 0).val = (y 0).val; omega
  | ⟨1, _⟩ => show win16_2.index t (1 : Fin 2) * 192 + 1 * (y 1).val = (y 1).val; omega

theorem iblk16_3_eq (c : Dev nD) (t : Fin cfg16.N) : iblk16 V c 3 t = V c main_arg10 := by
  obtain ⟨-, -, -, -, -, -, e30, e31, -⟩ := idx_facts16 t
  refine funext fun (y : S192x10.Idx) => ?_
  show V c main_arg10 (((cfg16.win 3).blk t).view.emb y) = V c main_arg10 y
  refine congrArg (V c main_arg10) ?_
  funext a; apply Fin.ext
  match a with
  | ⟨0, _⟩ => show win16_3.index t (0 : Fin 2) * 192 + 1 * (y 0).val = (y 0).val; omega
  | ⟨1, _⟩ => show win16_3.index t (1 : Fin 2) * 10 + 1 * (y 1).val = (y 1).val; omega

theorem iblk16_4_eq (c : Dev nD) (t : Fin cfg16.N) : iblk16 V c 4 t = V c main_v184 := by
  obtain ⟨-, -, -, -, -, -, -, -, e40, e41, -⟩ := idx_facts16 t
  refine funext fun (y : S1x10.Idx) => ?_
  show V c main_v184 (((cfg16.win 4).blk t).view.emb y) = V c main_v184 y
  refine congrArg (V c main_v184) ?_
  funext a; apply Fin.ext
  match a with
  | ⟨0, _⟩ => show win16_4.index t (0 : Fin 2) * 1 + 1 * (y 0).val = (y 0).val; omega
  | ⟨1, _⟩ => show win16_4.index t (1 : Fin 2) * 10 + 1 * (y 1).val = (y 1).val; omega

/-- What the one point writes back is the head of the five arrays as the region finds them. -/
theorem flushed16_5_eq (c : Dev nD) (t : Fin cfg16.N) :
    (dat16 (F := Ideal) V c).flushed 5 t
      = ((cfg16.win 5).blk t).view.read (Elt Ideal)
          (Cert.Spec.head (F := Ideal) (V c main_v182) (V c main_arg8) (V c main_v183) (V c main_arg10) (V c main_v184)) := by
  show (cfg16.win 5).cut (grid16.coords t) ((dat16 V c).after 5 t) = _
  rw [after16_5]
  unfold out16_5
  rw [View.canon_unit_zero hz16]
  simp only [View.ld_unit_zero (S := S256x192) hz16, View.ld_unit_zero (S := S192x192) hz16,
    View.ld_unit_zero (S := S1x192) hz16, View.ld_unit_zero (S := S192x10) hz16, View.ld_unit_zero (S := S1x10) hz16]
  rw [iblk16_0_eq V c t, iblk16_1_eq V c t, iblk16_2_eq V c t, iblk16_3_eq V c t, iblk16_4_eq V c t]
  obtain ⟨-, -, -, -, -, -, -, -, -, -, e50, e51⟩ := idx_facts16 t
  refine funext fun (j : S256x10.Idx) => ?_
  show k16_pay1 (F := Ideal) (V c main_v182) (V c main_arg8) (V c main_v183) (V c main_arg10) (V c main_v184) j
      = Cert.Spec.head (F := Ideal) (V c main_v182) (V c main_arg8) (V c main_v183) (V c main_arg10) (V c main_v184)
          (((cfg16.win 5).blk t).view.emb j)
  refine (congrFun (k16_pay1_eq (V c main_v182) (V c main_arg8) (V c main_v183) (V c main_arg10) (V c main_v184)) j).trans ?_
  refine congrArg (Cert.Spec.head (F := Ideal) (V c main_v182) (V c main_arg8) (V c main_v183) (V c main_arg10) (V c main_v184)) ?_
  funext a; apply Fin.ext
  match a with
  | ⟨0, _⟩ => show (j 0).val = win16_5.index t (0 : Fin 2) * 256 + 1 * (j 0).val; omega
  | ⟨1, _⟩ => show (j 1).val = win16_5.index t (1 : Fin 2) * 10 + 1 * (j 1).val; omega

/-- An index of the output array is in the point's block iff each coordinate is in the block's range on its axis. -/
theorem mem_blk16_5 (t : Fin cfg16.N) (i : S256x10.Idx) :
    i ∈ ((cfg16.win 5).blk t).view.set ↔ ∀ a : Fin 2, win16_5.index t a * S256x10.size a ≤ (i a).val ∧ (i a).val < win16_5.index t a * S256x10.size a + S256x10.size a := by
  show i ∈ ((View.whole main_v185).slice (win16_5.rect t)).set ↔ _
  rw [View.set_slice_whole, Rect.mem_set_unit]
  exact Iff.rfl

/-- Every entry of the output array is written back, by the one point. -/
theorem covered16_5 (i : S256x10.Idx) :
    ∃ t : Fin cfg16.N, (cfg16.win 5).flush t = true ∧ i ∈ ((cfg16.win 5).blk t).view.set := by
  have hi0 : (i 0).val < 256 := (i 0).isLt
  have hi1 : (i 1).val < 10 := (i 1).isLt
  obtain ⟨-, -, -, -, -, -, -, -, -, -, e50, e51⟩ := idx_facts16 t16_0
  refine ⟨t16_0, flush16_5 t16_0, ?_⟩
  rw [mem_blk16_5]
  intro a
  match a with
  | ⟨0, _⟩ => show win16_5.index t16_0 (0 : Fin 2) * 256 ≤ (i 0).val ∧ (i 0).val < win16_5.index t16_0 (0 : Fin 2) * 256 + 256; omega
  | ⟨1, _⟩ => show win16_5.index t16_0 (1 : Fin 2) * 10 ≤ (i 1).val ∧ (i 1).val < win16_5.index t16_0 (1 : Fin 2) * 10 + 10; omega

/-- The output array after the region: the classifier head of the pooled features, the two weight matrices and the
    two bias rows, all as the region finds them. -/
theorem out16_eq (c : Dev nD) :
    (dat16 (F := Ideal) V c).arrAt 5 cfg16.N
      = Cert.Spec.head (F := Ideal) (V c main_v182) (V c main_arg8) (V c main_v183) (V c main_arg10) (V c main_v184) :=
  (dat16 (F := Ideal) V c).arrAt_eq_of_cover 5
    (Cert.Spec.head (F := Ideal) (V c main_v182) (V c main_arg8) (V c main_v183) (V c main_arg10) (V c main_v184))
    (fun t _ => flushed16_5_eq V c t) (fun i => covered16_5 i)

end

end Cert.KernelIdeal.Hand

end
-- ==== Proof.KernelIdeal.Value.lean ====
/-
  The contents of the kernel program's buffers along its items, at the extended reals, as the stages of the network
  applied to the twelve argument arrays: the graph's edge lists, weights and counts after the first host stretches;
  then, layer by layer, the projection, the message passing, the per-graph mean, the centred rows and their squares,
  the per-graph mean square, and the normalised, shifted and clamped rows; then the three layers' rows side by side,
  their per-graph mean and the classifier head. The two result arrays at the end are the network's two results.
-/
import proofs.«422469_j24000277250640_1_alg».proof.Proof.KernelIdeal.Fold
import proofs.«422469_j24000277250640_1_alg».proof.Proof.KernelIdeal.Records
import proofs.«422469_j24000277250640_1_alg».proof.Proof.KernelIdeal.Keep
import proofs.«422469_j24000277250640_1_alg».proof.Proof.KernelIdeal.Stretch1
import proofs.«422469_j24000277250640_1_alg».proof.Proof.KernelIdeal.Stretch2
import proofs.«422469_j24000277250640_1_alg».proof.Proof.Spec.Forward
import proofs.«422469_j24000277250640_1_alg».proof.Proof.KernelIdeal.Val0
import proofs.«422469_j24000277250640_1_alg».proof.Proof.KernelIdeal.Val1
import proofs.«422469_j24000277250640_1_alg».proof.Proof.KernelIdeal.Val2
import proofs.«422469_j24000277250640_1_alg».proof.Proof.KernelIdeal.Val3
import proofs.«422469_j24000277250640_1_alg».proof.Proof.KernelIdeal.Val4
import proofs.«422469_j24000277250640_1_alg».proof.Proof.KernelIdeal.Val5
import proofs.«422469_j24000277250640_1_alg».proof.Proof.KernelIdeal.Val6
import proofs.«422469_j24000277250640_1_alg».proof.Proof.KernelIdeal.Val7
import proofs.«422469_j24000277250640_1_alg».proof.Proof.KernelIdeal.Val8
import proofs.«422469_j24000277250640_1_alg».proof.Proof.KernelIdeal.Val9
import proofs.«422469_j24000277250640_1_alg».proof.Proof.KernelIdeal.Val10
import proofs.«422469_j24000277250640_1_alg».proof.Proof.KernelIdeal.Val11
import proofs.«422469_j24000277250640_1_alg».proof.Proof.KernelIdeal.Val12
import proofs.«422469_j24000277250640_1_alg».proof.Proof.KernelIdeal.Val13
import proofs.«422469_j24000277250640_1_alg».proof.Proof.KernelIdeal.Val14
import proofs.«422469_j24000277250640_1_alg».proof.Proof.KernelIdeal.Val15
import proofs.«422469_j24000277250640_1_alg».proof.Proof.KernelIdeal.Val16

set_option maxRecDepth 16384
set_option maxHeartbeats 1000000

noncomputable section

namespace Cert.KernelIdeal.Hand

open Cert.KernelIdeal Cert.KernelIdeal.Gen
open Idealize.ShloMosaic Idealize.ShloMosaic.TcCoe

variable [hR : Cert.ReferenceIdeal.Facts]
variable (m : (ℓ : Loc nD τ sig) → Buf (Elt Ideal) ℓ) (c : Dev nD)

set_option quotPrecheck false

local notation "𝐚0" => m ((c : Thread nD τ).loc main_arg0)
local notation "𝐚1" => m ((c : Thread nD τ).loc main_arg1)
local notation "𝐚2" => m ((c : Thread nD τ).loc main_arg2)
local notation "𝐚3" => m ((c : Thread nD τ).loc main_arg3)
local notation "𝐚4" => m ((c : Thread nD τ).loc main_arg4)
local notation "𝐚5" => m ((c : Thread nD τ).loc main_arg5)
local notation "𝐚6" => m ((c : Thread nD τ).loc main_arg6)
local notation "𝐚7" => m ((c : Thread nD τ).loc main_arg7)
local notation "𝐚8" => m ((c : Thread nD τ).loc main_arg8)
local notation "𝐚9" => m ((c : Thread nD τ).loc main_arg9)
local notation "𝐚10" => m ((c : Thread nD τ).loc main_arg10)
local notation "𝐚11" => m ((c : Thread nD τ).loc main_arg11)

/-! ## The arguments at launch -/

theorem val0_arg0 : W0 m c main_arg0 = 𝐚0 := rfl
theorem val0_arg1 : W0 m c main_arg1 = 𝐚1 := rfl
theorem val0_arg2 : W0 m c main_arg2 = 𝐚2 := rfl
theorem val0_arg3 : W0 m c main_arg3 = 𝐚3 := rfl
theorem val0_arg4 : W0 m c main_arg4 = 𝐚4 := rfl
theorem val0_arg5 : W0 m c main_arg5 = 𝐚5 := rfl
theorem val0_arg6 : W0 m c main_arg6 = 𝐚6 := rfl
theorem val0_arg7 : W0 m c main_arg7 = 𝐚7 := rfl
theorem val0_arg8 : W0 m c main_arg8 = 𝐚8 := rfl
theorem val0_arg9 : W0 m c main_arg9 = 𝐚9 := rfl
theorem val0_arg10 : W0 m c main_arg10 = 𝐚10 := rfl
theorem val0_arg11 : W0 m c main_arg11 = 𝐚11 := rfl

/-! ## The graph -/

theorem val1_v3 : W1 m c main_v3 = Cert.Spec.src 𝐚1 := by
  refine (st0_v3 (W0 m c)).trans ?_
  rfl
theorem val1_v6 : W1 m c main_v6 = Cert.Spec.dst 𝐚1 := by
  refine (st0_v6 (W0 m c)).trans ?_
  rfl
theorem val1_v12 : W1 m c main_v12 = cmpf .ogt (Cert.Spec.deg (F := Ideal) (Cert.Spec.dst 𝐚1)) (broadcastInDim Cert.ReferenceIdeal.S100000 ![] Cert.ReferenceIdeal.Facts₀.bcast_S_S100000 (constant Cert.ReferenceIdeal.S_ .f32 0x00000000#32)) := by
  refine (st0_v12 (W0 m c)).trans ?_
  rfl
theorem val1_v13 : W1 m c main_v13 = Host.rsqrt (Cert.Spec.deg (F := Ideal) (Cert.Spec.dst 𝐚1)) := by
  refine (st0_v13 (W0 m c)).trans ?_
  rfl
theorem val1_cst_2 : W1 m c main_cst_2 = constant (F := Ideal) Cert.ReferenceIdeal.S_ .f32 0x00000000#32 := by
  refine (st0_cst_2 (W0 m c)).trans ?_
  rfl
theorem val2_v14 : W2 m c main_v14 = Cert.Spec.dinv (Cert.Spec.deg (F := Ideal) (Cert.Spec.dst 𝐚1)) := by
  refine (st0_1_v14 (W1 m c)).trans ?_
  rw [val1_v12 m c, val1_v13 m c, val1_cst_2 m c]
  rfl
theorem val2_v3 : W2 m c main_v3 = Cert.Spec.src 𝐚1 :=
  (W2_of m c main_v3 (by decide)).trans (val1_v3 m c)
theorem val2_v6 : W2 m c main_v6 = Cert.Spec.dst 𝐚1 :=
  (W2_of m c main_v6 (by decide)).trans (val1_v6 m c)
theorem val3_v29 : W3 m c main_v29 = Cert.Spec.edgeNorm (F := Ideal) 𝐚1 := by
  refine (st0_2_v29 (W2 m c)).trans ?_
  rw [val2_v14 m c, val2_v3 m c, val2_v6 m c]
  rfl
theorem val2_arg2 : W2 m c main_arg2 = 𝐚2 :=
  (W2_of m c main_arg2 (by decide)).trans ((W1_of m c main_arg2 (by decide)).trans (val0_arg2 m c))
theorem val3_v35 : W3 m c main_v35 = Cert.Spec.cnt (F := Ideal) 𝐚2 := by
  refine (st0_2_v35 (W2 m c)).trans ?_
  rw [val2_arg2 m c]
theorem val3_v36 : W3 m c main_v36 = Cert.Spec.batchCol 𝐚2 := by
  refine (st0_2_v36 (W2 m c)).trans ?_
  rw [val2_arg2 m c]
  exact shapeCast_S100000_S100000x1_eq _
theorem val2_arg3 : W2 m c main_arg3 = 𝐚3 :=
  (W2_of m c main_arg3 (by decide)).trans ((W1_of m c main_arg3 (by decide)).trans (val0_arg3 m c))
theorem val3_v38 : W3 m c main_v38 = Cert.Spec.weight0 (F := Ideal) 𝐚3 := by
  refine (st0_2_v38 (W2 m c)).trans ?_
  rw [val2_arg3 m c]

/-! ## Layer 0 -/

/-- Layer 0's rows after projection and message passing. -/
def agg0 : FVec Ideal Cert.ReferenceIdeal.S100000x64 .f32 :=
  Cert.Spec.aggregate (F := Ideal) (Cert.Spec.mm (F := Ideal) (𝐚0) (Cert.Spec.weight0 (F := Ideal) 𝐚3)) (Cert.Spec.src 𝐚1) (Cert.Spec.dst 𝐚1) (Cert.Spec.edgeNorm (F := Ideal) 𝐚1) (Cert.Spec.vec0 (F := Ideal) 𝐚4)

/-- Layer 0's result rows. -/
def hh1 : FVec Ideal Cert.ReferenceIdeal.S100000x64 .f32 := Cert.Spec.h1 (F := Ideal) 𝐚0 𝐚1 𝐚2 𝐚3 𝐚4 𝐚5 𝐚6 𝐚7

theorem val3_arg0 : W3 m c main_arg0 = 𝐚0 :=
  (W3_of m c main_arg0 (by decide)).trans ((W2_of m c main_arg0 (by decide)).trans ((W1_of m c main_arg0 (by decide)).trans (val0_arg0 m c)))
theorem val4_v39 : W4 m c main_v39 = Cert.Spec.mm (F := Ideal) (𝐚0) (Cert.Spec.weight0 (F := Ideal) 𝐚3) := by
  have e : W4 m c main_v39 = (dat0 (Ven0 m) c).arrAt 2 cfg0.N := by unfold W4; exact Function.update_self _ _ _
  refine e.trans ((out0_eq (Ven0 m) c).trans ?_)
  show Cert.Spec.mm (F := Ideal) (W3 m c main_arg0) (W3 m c main_v38) = _
  rw [val3_arg0 m c, val3_v38 m c]
theorem val4_v3 : W4 m c main_v3 = Cert.Spec.src 𝐚1 :=
  (W4_of m c main_v3 (by decide)).trans ((W3_of m c main_v3 (by decide)).trans (val2_v3 m c))
theorem val4_v6 : W4 m c main_v6 = Cert.Spec.dst 𝐚1 :=
  (W4_of m c main_v6 (by decide)).trans ((W3_of m c main_v6 (by decide)).trans (val2_v6 m c))
theorem val4_v29 : W4 m c main_v29 = Cert.Spec.edgeNorm (F := Ideal) 𝐚1 :=
  (W4_of m c main_v29 (by decide)).trans (val3_v29 m c)
theorem val4_arg4 : W4 m c main_arg4 = 𝐚4 :=
  (W4_of m c main_arg4 (by decide)).trans ((W3_of m c main_arg4 (by decide)).trans ((W2_of m c main_arg4 (by decide)).trans ((W1_of m c main_arg4 (by decide)).trans (val0_arg4 m c))))
theorem val5_v57 : W5 m c main_v57 = agg0 m c := by
  refine (st1_v57 (W4 m c)).trans ?_
  rw [val4_v39 m c, val4_v3 m c, val4_v6 m c, val4_v29 m c, val4_arg4 m c]
  rfl
theorem val5_v36 : W5 m c main_v36 = Cert.Spec.batchCol 𝐚2 :=
  (W5_of m c main_v36 (by decide)).trans ((W4_of m c main_v36 (by decide)).trans (val3_v36 m c))
theorem val5_v35 : W5 m c main_v35 = Cert.Spec.cnt (F := Ideal) 𝐚2 :=
  (W5_of m c main_v35 (by decide)).trans ((W4_of m c main_v35 (by decide)).trans (val3_v35 m c))
theorem val6_v58 : W6 m c main_v58 = Cert.Spec.segMean64 (F := Ideal) (agg0 m c) (Cert.Spec.batchCol 𝐚2) (Cert.Spec.cnt (F := Ideal) 𝐚2) := by
  have e : W6 m c main_v58 = (dat1 (Ven1 m) c).arrAt 3 cfg1.N := by unfold W6; exact Function.update_self _ _ _
  refine e.trans ((out1_eq (Ven1 m) c).trans ?_)
  show Cert.Spec.segMean64 (F := Ideal) (W5 m c main_v57) (W5 m c main_v36) (W5 m c main_v35) = _
  rw [val5_v57 m c, val5_v36 m c, val5_v35 m c]
theorem val6_arg2 : W6 m c main_arg2 = 𝐚2 :=
  (W6_of m c main_arg2 (by decide)).trans ((W5_of m c main_arg2 (by decide)).trans ((W4_of m c main_arg2 (by decide)).trans ((W3_of m c main_arg2 (by decide)).trans (val2_arg2 m c))))
theorem val7_v65 : W7 m c main_v65 = Cert.Spec.meanRows (F := Ideal) (agg0 m c) 𝐚2 (Cert.Spec.cnt (F := Ideal) 𝐚2) := by
  refine (st2_v65 (W6 m c)).trans ?_
  rw [val6_v58 m c, val6_arg2 m c]
  rfl
theorem val6_arg7 : W6 m c main_arg7 = 𝐚7 :=
  (W6_of m c main_arg7 (by decide)).trans ((W5_of m c main_arg7 (by decide)).trans ((W4_of m c main_arg7 (by decide)).trans ((W3_of m c main_arg7 (by decide)).trans ((W2_of m c main_arg7 (by decide)).trans ((W1_of m c main_arg7 (by decide)).trans (val0_arg7 m c))))))
theorem val7_v68 : W7 m c main_v68 = Cert.Spec.row64 (F := Ideal) (Cert.Spec.vec0 (F := Ideal) 𝐚7) := by
  refine (st2_v68 (W6 m c)).trans ?_
  rw [val6_arg7 m c]
theorem val7_v57 : W7 m c main_v57 = agg0 m c :=
  (W7_of m c main_v57 (by decide)).trans ((W6_of m c main_v57 (by decide)).trans (val5_v57 m c))
theorem val8_v69_0 : W8 m c main_v69_0 = Cert.Spec.centered (F := Ideal) (agg0 m c) (Cert.Spec.meanRows (F := Ideal) (agg0 m c) 𝐚2 (Cert.Spec.cnt (F := Ideal) 𝐚2)) (Cert.Spec.row64 (F := Ideal) (Cert.Spec.vec0 (F := Ideal) 𝐚7)) := by
  have e : W8 m c main_v69_0 = (dat2 (Ven2 m) c).arrAt 3 cfg2.N := by
    unfold W8
    rw [Function.update_of_ne (StableHlo.devRef_ne_of_ne (by decide) : (Proc.devRef .tc main_v69_0 : DevRef τ sig) ≠ Proc.devRef .tc main_v69_1), Function.update_self]
  refine e.trans ((out2_0_eq (Ven2 m) c).trans ?_)
  show Cert.Spec.centered (F := Ideal) (W7 m c main_v57) (W7 m c main_v65) (W7 m c main_v68) = _
  rw [val7_v57 m c, val7_v65 m c, val7_v68 m c]
theorem val8_v69_1 : W8 m c main_v69_1 = Cert.Spec.centeredSq (F := Ideal) (agg0 m c) (Cert.Spec.meanRows (F := Ideal) (agg0 m c) 𝐚2 (Cert.Spec.cnt (F := Ideal) 𝐚2)) (Cert.Spec.row64 (F := Ideal) (Cert.Spec.vec0 (F := Ideal) 𝐚7)) := by
  have e : W8 m c main_v69_1 = (dat2 (Ven2 m) c).arrAt 4 cfg2.N := by unfold W8; exact Function.update_self _ _ _
  refine e.trans ((out2_1_eq (Ven2 m) c).trans ?_)
  show Cert.Spec.centeredSq (F := Ideal) (W7 m c main_v57) (W7 m c main_v65) (W7 m c main_v68) = _
  rw [val7_v57 m c, val7_v65 m c, val7_v68 m c]
theorem val8_v36 : W8 m c main_v36 = Cert.Spec.batchCol 𝐚2 :=
  (W8_of m c main_v36 (by decide)).trans ((W7_of m c main_v36 (by decide)).trans ((W6_of m c main_v36 (by decide)).trans (val5_v36 m c)))
theorem val8_v35 : W8 m c main_v35 = Cert.Spec.cnt (F := Ideal) 𝐚2 :=
  (W8_of m c main_v35 (by decide)).trans ((W7_of m c main_v35 (by decide)).trans ((W6_of m c main_v35 (by decide)).trans (val5_v35 m c)))
theorem val9_v70 : W9 m c main_v70 = Cert.Spec.segMean64 (F := Ideal) (Cert.Spec.centeredSq (F := Ideal) (agg0 m c) (Cert.Spec.meanRows (F := Ideal) (agg0 m c) 𝐚2 (Cert.Spec.cnt (F := Ideal) 𝐚2)) (Cert.Spec.row64 (F := Ideal) (Cert.Spec.vec0 (F := Ideal) 𝐚7))) (Cert.Spec.batchCol 𝐚2) (Cert.Spec.cnt (F := Ideal) 𝐚2) := by
  have e : W9 m c main_v70 = (dat3 (Ven3 m) c).arrAt 3 cfg3.N := by unfold W9; exact Function.update_self _ _ _
  refine e.trans ((out3_eq (Ven3 m) c).trans ?_)
  show Cert.Spec.segMean64 (F := Ideal) (W8 m c main_v69_1) (W8 m c main_v36) (W8 m c main_v35) = _
  rw [val8_v69_1 m c, val8_v36 m c, val8_v35 m c]
theorem val9_arg2 : W9 m c main_arg2 = 𝐚2 :=
  (W9_of m c main_arg2 (by decide)).trans ((W8_of m c main_arg2 (by decide)).trans ((W7_of m c main_arg2 (by decide)).trans (val6_arg2 m c)))
theorem val10_v77 : W10 m c main_v77 = Cert.Spec.meanRows (F := Ideal) (Cert.Spec.centeredSq (F := Ideal) (agg0 m c) (Cert.Spec.meanRows (F := Ideal) (agg0 m c) 𝐚2 (Cert.Spec.cnt (F := Ideal) 𝐚2)) (Cert.Spec.row64 (F := Ideal) (Cert.Spec.vec0 (F := Ideal) 𝐚7))) 𝐚2 (Cert.Spec.cnt (F := Ideal) 𝐚2) := by
  refine (st4_v77 (W9 m c)).trans ?_
  rw [val9_v70 m c, val9_arg2 m c]
  rfl
theorem val9_arg5 : W9 m c main_arg5 = 𝐚5 :=
  (W9_of m c main_arg5 (by decide)).trans ((W8_of m c main_arg5 (by decide)).trans ((W7_of m c main_arg5 (by decide)).trans ((W6_of m c main_arg5 (by decide)).trans ((W5_of m c main_arg5 (by decide)).trans ((W4_of m c main_arg5 (by decide)).trans ((W3_of m c main_arg5 (by decide)).trans ((W2_of m c main_arg5 (by decide)).trans ((W1_of m c main_arg5 (by decide)).trans (val0_arg5 m c)))))))))
theorem val10_v80 : W10 m c main_v80 = Cert.Spec.row64 (F := Ideal) (Cert.Spec.vec0 (F := Ideal) 𝐚5) := by
  refine (st4_v80 (W9 m c)).trans ?_
  rw [val9_arg5 m c]
theorem val9_arg6 : W9 m c main_arg6 = 𝐚6 :=
  (W9_of m c main_arg6 (by decide)).trans ((W8_of m c main_arg6 (by decide)).trans ((W7_of m c main_arg6 (by decide)).trans ((W6_of m c main_arg6 (by decide)).trans ((W5_of m c main_arg6 (by decide)).trans ((W4_of m c main_arg6 (by decide)).trans ((W3_of m c main_arg6 (by decide)).trans ((W2_of m c main_arg6 (by decide)).trans ((W1_of m c main_arg6 (by decide)).trans (val0_arg6 m c)))))))))
theorem val10_v83 : W10 m c main_v83 = Cert.Spec.row64 (F := Ideal) (Cert.Spec.vec0 (F := Ideal) 𝐚6) := by
  refine (st4_v83 (W9 m c)).trans ?_
  rw [val9_arg6 m c]
theorem val10_v69_0 : W10 m c main_v69_0 = Cert.Spec.centered (F := Ideal) (agg0 m c) (Cert.Spec.meanRows (F := Ideal) (agg0 m c) 𝐚2 (Cert.Spec.cnt (F := Ideal) 𝐚2)) (Cert.Spec.row64 (F := Ideal) (Cert.Spec.vec0 (F := Ideal) 𝐚7)) :=
  (W10_of m c main_v69_0 (by decide)).trans ((W9_of m c main_v69_0 (by decide)).trans (val8_v69_0 m c))
theorem val11_v84 : W11 m c main_v84 = hh1 m c := by
  have e : W11 m c main_v84 = (dat4 (Ven4 m) c).arrAt 4 cfg4.N := by unfold W11; exact Function.update_self _ _ _
  refine e.trans ((out4_eq (Ven4 m) c ?_).trans ?_)
  · intro i
    show (0 : EReal) ≤ W10 m c main_v77 i
    rw [val10_v77 m c]
    exact Cert.Spec.meanRows_centeredSq_nonneg' _ _ _ _ i
  · show Cert.Spec.normed (F := Ideal) (W10 m c main_v69_0) (W10 m c main_v77) (W10 m c main_v80) (W10 m c main_v83) = _
    rw [val10_v69_0 m c, val10_v77 m c, val10_v80 m c, val10_v83 m c]
    rfl

/-! ## Layer 1 -/

/-- Layer 1's rows after projection and message passing. -/
def agg1 : FVec Ideal Cert.ReferenceIdeal.S100000x64 .f32 :=
  Cert.Spec.aggregate (F := Ideal) (Cert.Spec.mm (F := Ideal) (hh1 m c) (Cert.Spec.weight1 (F := Ideal) 𝐚3)) (Cert.Spec.src 𝐚1) (Cert.Spec.dst 𝐚1) (Cert.Spec.edgeNorm (F := Ideal) 𝐚1) (Cert.Spec.vec1 (F := Ideal) 𝐚4)

/-- Layer 1's result rows. -/
def hh2 : FVec Ideal Cert.ReferenceIdeal.S100000x64 .f32 := Cert.Spec.h2 (F := Ideal) 𝐚0 𝐚1 𝐚2 𝐚3 𝐚4 𝐚5 𝐚6 𝐚7

theorem val11_arg3 : W11 m c main_arg3 = 𝐚3 :=
  (W11_of m c main_arg3 (by decide)).trans ((W10_of m c main_arg3 (by decide)).trans ((W9_of m c main_arg3 (by decide)).trans ((W8_of m c main_arg3 (by decide)).trans ((W7_of m c main_arg3 (by decide)).trans ((W6_of m c main_arg3 (by decide)).trans ((W5_of m c main_arg3 (by decide)).trans ((W4_of m c main_arg3 (by decide)).trans ((W3_of m c main_arg3 (by decide)).trans (val2_arg3 m c)))))))))
theorem val12_v86 : W12 m c main_v86 = Cert.Spec.weight1 (F := Ideal) 𝐚3 := by
  refine (st5_v86 (W11 m c)).trans ?_
  rw [val11_arg3 m c]
theorem val12_v84 : W12 m c main_v84 = hh1 m c :=
  (W12_of m c main_v84 (by decide)).trans (val11_v84 m c)
theorem val13_v87 : W13 m c main_v87 = Cert.Spec.mm (F := Ideal) (hh1 m c) (Cert.Spec.weight1 (F := Ideal) 𝐚3) := by
  have e : W13 m c main_v87 = (dat5 (Ven5 m) c).arrAt 2 cfg5.N := by unfold W13; exact Function.update_self _ _ _
  refine e.trans ((out5_eq (Ven5 m) c).trans ?_)
  show Cert.Spec.mm (F := Ideal) (W12 m c main_v84) (W12 m c main_v86) = _
  rw [val12_v84 m c, val12_v86 m c]
theorem val13_v3 : W13 m c main_v3 = Cert.Spec.src 𝐚1 :=
  (W13_of m c main_v3 (by decide)).trans ((W12_of m c main_v3 (by decide)).trans ((W11_of m c main_v3 (by decide)).trans ((W10_of m c main_v3 (by decide)).trans ((W9_of m c main_v3 (by decide)).trans ((W8_of m c main_v3 (by decide)).trans ((W7_of m c main_v3 (by decide)).trans ((W6_of m c main_v3 (by decide)).trans ((W5_of m c main_v3 (by decide)).trans (val4_v3 m c)))))))))
theorem val13_v6 : W13 m c main_v6 = Cert.Spec.dst 𝐚1 :=
  (W13_of m c main_v6 (by decide)).trans ((W12_of m c main_v6 (by decide)).trans ((W11_of m c main_v6 (by decide)).trans ((W10_of m c main_v6 (by decide)).trans ((W9_of m c main_v6 (by decide)).trans ((W8_of m c main_v6 (by decide)).trans ((W7_of m c main_v6 (by decide)).trans ((W6_of m c main_v6 (by decide)).trans ((W5_of m c main_v6 (by decide)).trans (val4_v6 m c)))))))))
theorem val13_v29 : W13 m c main_v29 = Cert.Spec.edgeNorm (F := Ideal) 𝐚1 :=
  (W13_of m c main_v29 (by decide)).trans ((W12_of m c main_v29 (by decide)).trans ((W11_of m c main_v29 (by decide)).trans ((W10_of m c main_v29 (by decide)).trans ((W9_of m c main_v29 (by decide)).trans ((W8_of m c main_v29 (by decide)).trans ((W7_of m c main_v29 (by decide)).trans ((W6_of m c main_v29 (by decide)).trans ((W5_of m c main_v29 (by decide)).trans (val4_v29 m c)))))))))
theorem val13_arg4 : W13 m c main_arg4 = 𝐚4 :=
  (W13_of m c main_arg4 (by decide)).trans ((W12_of m c main_arg4 (by decide)).trans ((W11_of m c main_arg4 (by decide)).trans ((W10_of m c main_arg4 (by decide)).trans ((W9_of m c main_arg4 (by decide)).trans ((W8_of m c main_arg4 (by decide)).trans ((W7_of m c main_arg4 (by decide)).trans ((W6_of m c main_arg4 (by decide)).trans ((W5_of m c main_arg4 (by decide)).trans (val4_arg4 m c)))))))))
theorem val14_v105 : W14 m c main_v105 = agg1 m c := by
  refine (st6_v105 (W13 m c)).trans ?_
  rw [val13_v87 m c, val13_v3 m c, val13_v6 m c, val13_v29 m c, val13_arg4 m c]
  rfl
theorem val14_v36 : W14 m c main_v36 = Cert.Spec.batchCol 𝐚2 :=
  (W14_of m c main_v36 (by decide)).trans ((W13_of m c main_v36 (by decide)).trans ((W12_of m c main_v36 (by decide)).trans ((W11_of m c main_v36 (by decide)).trans ((W10_of m c main_v36 (by decide)).trans ((W9_of m c main_v36 (by decide)).trans (val8_v36 m c))))))
theorem val14_v35 : W14 m c main_v35 = Cert.Spec.cnt (F := Ideal) 𝐚2 :=
  (W14_of m c main_v35 (by decide)).trans ((W13_of m c main_v35 (by decide)).trans ((W12_of m c main_v35 (by decide)).trans ((W11_of m c main_v35 (by decide)).trans ((W10_of m c main_v35 (by decide)).trans ((W9_of m c main_v35 (by decide)).trans (val8_v35 m c))))))
theorem val15_v106 : W15 m c main_v106 = Cert.Spec.segMean64 (F := Ideal) (agg1 m c) (Cert.Spec.batchCol 𝐚2) (Cert.Spec.cnt (F := Ideal) 𝐚2) := by
  have e : W15 m c main_v106 = (dat6 (Ven6 m) c).arrAt 3 cfg6.N := by unfold W15; exact Function.update_self _ _ _
  refine e.trans ((out6_eq (Ven6 m) c).trans ?_)
  show Cert.Spec.segMean64 (F := Ideal) (W14 m c main_v105) (W14 m c main_v36) (W14 m c main_v35) = _
  rw [val14_v105 m c, val14_v36 m c, val14_v35 m c]
theorem val15_arg2 : W15 m c main_arg2 = 𝐚2 :=
  (W15_of m c main_arg2 (by decide)).trans ((W14_of m c main_arg2 (by decide)).trans ((W13_of m c main_arg2 (by decide)).trans ((W12_of m c main_arg2 (by decide)).trans ((W11_of m c main_arg2 (by decide)).trans ((W10_of m c main_arg2 (by decide)).trans (val9_arg2 m c))))))
theorem val16_v113 : W16 m c main_v113 = Cert.Spec.meanRows (F := Ideal) (agg1 m c) 𝐚2 (Cert.Spec.cnt (F := Ideal) 𝐚2) := by
  refine (st7_v113 (W15 m c)).trans ?_
  rw [val15_v106 m c, val15_arg2 m c]
  rfl
theorem val15_arg7 : W15 m c main_arg7 = 𝐚7 :=
  (W15_of m c main_arg7 (by decide)).trans ((W14_of m c main_arg7 (by decide)).trans ((W13_of m c main_arg7 (by decide)).trans ((W12_of m c main_arg7 (by decide)).trans ((W11_of m c main_arg7 (by decide)).trans ((W10_of m c main_arg7 (by decide)).trans ((W9_of m c main_arg7 (by decide)).trans ((W8_of m c main_arg7 (by decide)).trans ((W7_of m c main_arg7 (by decide)).trans (val6_arg7 m c)))))))))
theorem val16_v116 : W16 m c main_v116 = Cert.Spec.row64 (F := Ideal) (Cert.Spec.vec1 (F := Ideal) 𝐚7) := by
  refine (st7_v116 (W15 m c)).trans ?_
  rw [val15_arg7 m c]
theorem val16_v105 : W16 m c main_v105 = agg1 m c :=
  (W16_of m c main_v105 (by decide)).trans ((W15_of m c main_v105 (by decide)).trans (val14_v105 m c))
theorem val17_v117_0 : W17 m c main_v117_0 = Cert.Spec.centered (F := Ideal) (agg1 m c) (Cert.Spec.meanRows (F := Ideal) (agg1 m c) 𝐚2 (Cert.Spec.cnt (F := Ideal) 𝐚2)) (Cert.Spec.row64 (F := Ideal) (Cert.Spec.vec1 (F := Ideal) 𝐚7)) := by
  have e : W17 m c main_v117_0 = (dat7 (Ven7 m) c).arrAt 3 cfg7.N := by
    unfold W17
    rw [Function.update_of_ne (StableHlo.devRef_ne_of_ne (by decide) : (Proc.devRef .tc main_v117_0 : DevRef τ sig) ≠ Proc.devRef .tc main_v117_1), Function.update_self]
  refine e.trans ((out7_0_eq (Ven7 m) c).trans ?_)
  show Cert.Spec.centered (F := Ideal) (W16 m c main_v105) (W16 m c main_v113) (W16 m c main_v116) = _
  rw [val16_v105 m c, val16_v113 m c, val16_v116 m c]
theorem val17_v117_1 : W17 m c main_v117_1 = Cert.Spec.centeredSq (F := Ideal) (agg1 m c) (Cert.Spec.meanRows (F := Ideal) (agg1 m c) 𝐚2 (Cert.Spec.cnt (F := Ideal) 𝐚2)) (Cert.Spec.row64 (F := Ideal) (Cert.Spec.vec1 (F := Ideal) 𝐚7)) := by
  have e : W17 m c main_v117_1 = (dat7 (Ven7 m) c).arrAt 4 cfg7.N := by unfold W17; exact Function.update_self _ _ _
  refine e.trans ((out7_1_eq (Ven7 m) c).trans ?_)
  show Cert.Spec.centeredSq (F := Ideal) (W16 m c main_v105) (W16 m c main_v113) (W16 m c main_v116) = _
  rw [val16_v105 m c, val16_v113 m c, val16_v116 m c]
theorem val17_v36 : W17 m c main_v36 = Cert.Spec.batchCol 𝐚2 :=
  (W17_of m c main_v36 (by decide)).trans ((W16_of m c main_v36 (by decide)).trans ((W15_of m c main_v36 (by decide)).trans (val14_v36 m c)))
theorem val17_v35 : W17 m c main_v35 = Cert.Spec.cnt (F := Ideal) 𝐚2 :=
  (W17_of m c main_v35 (by decide)).trans ((W16_of m c main_v35 (by decide)).trans ((W15_of m c main_v35 (by decide)).trans (val14_v35 m c)))
theorem val18_v118 : W18 m c main_v118 = Cert.Spec.segMean64 (F := Ideal) (Cert.Spec.centeredSq (F := Ideal) (agg1 m c) (Cert.Spec.meanRows (F := Ideal) (agg1 m c) 𝐚2 (Cert.Spec.cnt (F := Ideal) 𝐚2)) (Cert.Spec.row64 (F := Ideal) (Cert.Spec.vec1 (F := Ideal) 𝐚7))) (Cert.Spec.batchCol 𝐚2) (Cert.Spec.cnt (F := Ideal) 𝐚2) := by
  have e : W18 m c main_v118 = (dat8 (Ven8 m) c).arrAt 3 cfg8.N := by unfold W18; exact Function.update_self _ _ _
  refine e.trans ((out8_eq (Ven8 m) c).trans ?_)
  show Cert.Spec.segMean64 (F := Ideal) (W17 m c main_v117_1) (W17 m c main_v36) (W17 m c main_v35) = _
  rw [val17_v117_1 m c, val17_v36 m c, val17_v35 m c]
theorem val18_arg2 : W18 m c main_arg2 = 𝐚2 :=
  (W18_of m c main_arg2 (by decide)).trans ((W17_of m c main_arg2 (by decide)).trans ((W16_of m c main_arg2 (by decide)).trans (val15_arg2 m c)))
theorem val19_v125 : W19 m c main_v125 = Cert.Spec.meanRows (F := Ideal) (Cert.Spec.centeredSq (F := Ideal) (agg1 m c) (Cert.Spec.meanRows (F := Ideal) (agg1 m c) 𝐚2 (Cert.Spec.cnt (F := Ideal) 𝐚2)) (Cert.Spec.row64 (F := Ideal) (Cert.Spec.vec1 (F := Ideal) 𝐚7))) 𝐚2 (Cert.Spec.cnt (F := Ideal) 𝐚2) := by
  refine (st9_v125 (W18 m c)).trans ?_
  rw [val18_v118 m c, val18_arg2 m c]
  rfl
theorem val18_arg5 : W18 m c main_arg5 = 𝐚5 :=
  (W18_of m c main_arg5 (by decide)).trans ((W17_of m c main_arg5 (by decide)).trans ((W16_of m c main_arg5 (by decide)).trans ((W15_of m c main_arg5 (by decide)).trans ((W14_of m c main_arg5 (by decide)).trans ((W13_of m c main_arg5 (by decide)).trans ((W12_of m c main_arg5 (by decide)).trans ((W11_of m c main_arg5 (by decide)).trans ((W10_of m c main_arg5 (by decide)).trans (val9_arg5 m c)))))))))
theorem val19_v128 : W19 m c main_v128 = Cert.Spec.row64 (F := Ideal) (Cert.Spec.vec1 (F := Ideal) 𝐚5) := by
  refine (st9_v128 (W18 m c)).trans ?_
  rw [val18_arg5 m c]
theorem val18_arg6 : W18 m c main_arg6 = 𝐚6 :=
  (W18_of m c main_arg6 (by decide)).trans ((W17_of m c main_arg6 (by decide)).trans ((W16_of m c main_arg6 (by decide)).trans ((W15_of m c main_arg6 (by decide)).trans ((W14_of m c main_arg6 (by decide)).trans ((W13_of m c main_arg6 (by decide)).trans ((W12_of m c main_arg6 (by decide)).trans ((W11_of m c main_arg6 (by decide)).trans ((W10_of m c main_arg6 (by decide)).trans (val9_arg6 m c)))))))))
theorem val19_v131 : W19 m c main_v131 = Cert.Spec.row64 (F := Ideal) (Cert.Spec.vec1 (F := Ideal) 𝐚6) := by
  refine (st9_v131 (W18 m c)).trans ?_
  rw [val18_arg6 m c]
theorem val19_v117_0 : W19 m c main_v117_0 = Cert.Spec.centered (F := Ideal) (agg1 m c) (Cert.Spec.meanRows (F := Ideal) (agg1 m c) 𝐚2 (Cert.Spec.cnt (F := Ideal) 𝐚2)) (Cert.Spec.row64 (F := Ideal) (Cert.Spec.vec1 (F := Ideal) 𝐚7)) :=
  (W19_of m c main_v117_0 (by decide)).trans ((W18_of m c main_v117_0 (by decide)).trans (val17_v117_0 m c))
theorem val20_v132 : W20 m c main_v132 = hh2 m c := by
  have e : W20 m c main_v132 = (dat9 (Ven9 m) c).arrAt 4 cfg9.N := by unfold W20; exact Function.update_self _ _ _
  refine e.trans ((out9_eq (Ven9 m) c ?_).trans ?_)
  · intro i
    show (0 : EReal) ≤ W19 m c main_v125 i
    rw [val19_v125 m c]
    exact Cert.Spec.meanRows_centeredSq_nonneg' _ _ _ _ i
  · show Cert.Spec.normed (F := Ideal) (W19 m c main_v117_0) (W19 m c main_v125) (W19 m c main_v128) (W19 m c main_v131) = _
    rw [val19_v117_0 m c, val19_v125 m c, val19_v128 m c, val19_v131 m c]
    rfl

/-! ## Layer 2 -/

/-- Layer 2's rows after projection and message passing. -/
def agg2 : FVec Ideal Cert.ReferenceIdeal.S100000x64 .f32 :=
  Cert.Spec.aggregate (F := Ideal) (Cert.Spec.mm (F := Ideal) (hh2 m c) (Cert.Spec.weight2 (F := Ideal) 𝐚3)) (Cert.Spec.src 𝐚1) (Cert.Spec.dst 𝐚1) (Cert.Spec.edgeNorm (F := Ideal) 𝐚1) (Cert.Spec.vec2 (F := Ideal) 𝐚4)

/-- Layer 2's result rows. -/
def hh3 : FVec Ideal Cert.ReferenceIdeal.S100000x64 .f32 := Cert.Spec.h3 (F := Ideal) 𝐚0 𝐚1 𝐚2 𝐚3 𝐚4 𝐚5 𝐚6 𝐚7

theorem val20_arg3 : W20 m c main_arg3 = 𝐚3 :=
  (W20_of m c main_arg3 (by decide)).trans ((W19_of m c main_arg3 (by decide)).trans ((W18_of m c main_arg3 (by decide)).trans ((W17_of m c main_arg3 (by decide)).trans ((W16_of m c main_arg3 (by decide)).trans ((W15_of m c main_arg3 (by decide)).trans ((W14_of m c main_arg3 (by decide)).trans ((W13_of m c main_arg3 (by decide)).trans ((W12_of m c main_arg3 (by decide)).trans (val11_arg3 m c)))))))))
theorem val21_v134 : W21 m c main_v134 = Cert.Spec.weight2 (F := Ideal) 𝐚3 := by
  refine (st10_v134 (W20 m c)).trans ?_
  rw [val20_arg3 m c]
theorem val21_v132 : W21 m c main_v132 = hh2 m c :=
  (W21_of m c main_v132 (by decide)).trans (val20_v132 m c)
theorem val22_v135 : W22 m c main_v135 = Cert.Spec.mm (F := Ideal) (hh2 m c) (Cert.Spec.weight2 (F := Ideal) 𝐚3) := by
  have e : W22 m c main_v135 = (dat10 (Ven10 m) c).arrAt 2 cfg10.N := by unfold W22; exact Function.update_self _ _ _
  refine e.trans ((out10_eq (Ven10 m) c).trans ?_)
  show Cert.Spec.mm (F := Ideal) (W21 m c main_v132) (W21 m c main_v134) = _
  rw [val21_v132 m c, val21_v134 m c]
theorem val22_v3 : W22 m c main_v3 = Cert.Spec.src 𝐚1 :=
  (W22_of m c main_v3 (by decide)).trans ((W21_of m c main_v3 (by decide)).trans ((W20_of m c main_v3 (by decide)).trans ((W19_of m c main_v3 (by decide)).trans ((W18_of m c main_v3 (by decide)).trans ((W17_of m c main_v3 (by decide)).trans ((W16_of m c main_v3 (by decide)).trans ((W15_of m c main_v3 (by decide)).trans ((W14_of m c main_v3 (by decide)).trans (val13_v3 m c)))))))))
theorem val22_v6 : W22 m c main_v6 = Cert.Spec.dst 𝐚1 :=
  (W22_of m c main_v6 (by decide)).trans ((W21_of m c main_v6 (by decide)).trans ((W20_of m c main_v6 (by decide)).trans ((W19_of m c main_v6 (by decide)).trans ((W18_of m c main_v6 (by decide)).trans ((W17_of m c main_v6 (by decide)).trans ((W16_of m c main_v6 (by decide)).trans ((W15_of m c main_v6 (by decide)).trans ((W14_of m c main_v6 (by decide)).trans (val13_v6 m c)))))))))
theorem val22_v29 : W22 m c main_v29 = Cert.Spec.edgeNorm (F := Ideal) 𝐚1 :=
  (W22_of m c main_v29 (by decide)).trans ((W21_of m c main_v29 (by decide)).trans ((W20_of m c main_v29 (by decide)).trans ((W19_of m c main_v29 (by decide)).trans ((W18_of m c main_v29 (by decide)).trans ((W17_of m c main_v29 (by decide)).trans ((W16_of m c main_v29 (by decide)).trans ((W15_of m c main_v29 (by decide)).trans ((W14_of m c main_v29 (by decide)).trans (val13_v29 m c)))))))))
theorem val22_arg4 : W22 m c main_arg4 = 𝐚4 :=
  (W22_of m c main_arg4 (by decide)).trans ((W21_of m c main_arg4 (by decide)).trans ((W20_of m c main_arg4 (by decide)).trans ((W19_of m c main_arg4 (by decide)).trans ((W18_of m c main_arg4 (by decide)).trans ((W17_of m c main_arg4 (by decide)).trans ((W16_of m c main_arg4 (by decide)).trans ((W15_of m c main_arg4 (by decide)).trans ((W14_of m c main_arg4 (by decide)).trans (val13_arg4 m c)))))))))
theorem val23_v153 : W23 m c main_v153 = agg2 m c := by
  refine (st11_v153 (W22 m c)).trans ?_
  rw [val22_v135 m c, val22_v3 m c, val22_v6 m c, val22_v29 m c, val22_arg4 m c]
  rfl
theorem val23_v36 : W23 m c main_v36 = Cert.Spec.batchCol 𝐚2 :=
  (W23_of m c main_v36 (by decide)).trans ((W22_of m c main_v36 (by decide)).trans ((W21_of m c main_v36 (by decide)).trans ((W20_of m c main_v36 (by decide)).trans ((W19_of m c main_v36 (by decide)).trans ((W18_of m c main_v36 (by decide)).trans (val17_v36 m c))))))
theorem val23_v35 : W23 m c main_v35 = Cert.Spec.cnt (F := Ideal) 𝐚2 :=
  (W23_of m c main_v35 (by decide)).trans ((W22_of m c main_v35 (by decide)).trans ((W21_of m c main_v35 (by decide)).trans ((W20_of m c main_v35 (by decide)).trans ((W19_of m c main_v35 (by decide)).trans ((W18_of m c main_v35 (by decide)).trans (val17_v35 m c))))))
theorem val24_v154 : W24 m c main_v154 = Cert.Spec.segMean64 (F := Ideal) (agg2 m c) (Cert.Spec.batchCol 𝐚2) (Cert.Spec.cnt (F := Ideal) 𝐚2) := by
  have e : W24 m c main_v154 = (dat11 (Ven11 m) c).arrAt 3 cfg11.N := by unfold W24; exact Function.update_self _ _ _
  refine e.trans ((out11_eq (Ven11 m) c).trans ?_)
  show Cert.Spec.segMean64 (F := Ideal) (W23 m c main_v153) (W23 m c main_v36) (W23 m c main_v35) = _
  rw [val23_v153 m c, val23_v36 m c, val23_v35 m c]
theorem val24_arg2 : W24 m c main_arg2 = 𝐚2 :=
  (W24_of m c main_arg2 (by decide)).trans ((W23_of m c main_arg2 (by decide)).trans ((W22_of m c main_arg2 (by decide)).trans ((W21_of m c main_arg2 (by decide)).trans ((W20_of m c main_arg2 (by decide)).trans ((W19_of m c main_arg2 (by decide)).trans (val18_arg2 m c))))))
theorem val25_v161 : W25 m c main_v161 = Cert.Spec.meanRows (F := Ideal) (agg2 m c) 𝐚2 (Cert.Spec.cnt (F := Ideal) 𝐚2) := by
  refine (st12_v161 (W24 m c)).trans ?_
  rw [val24_v154 m c, val24_arg2 m c]
  rfl
theorem val24_arg7 : W24 m c main_arg7 = 𝐚7 :=
  (W24_of m c main_arg7 (by decide)).trans ((W23_of m c main_arg7 (by decide)).trans ((W22_of m c main_arg7 (by decide)).trans ((W21_of m c main_arg7 (by decide)).trans ((W20_of m c main_arg7 (by decide)).trans ((W19_of m c main_arg7 (by decide)).trans ((W18_of m c main_arg7 (by decide)).trans ((W17_of m c main_arg7 (by decide)).trans ((W16_of m c main_arg7 (by decide)).trans (val15_arg7 m c)))))))))
theorem val25_v164 : W25 m c main_v164 = Cert.Spec.row64 (F := Ideal) (Cert.Spec.vec2 (F := Ideal) 𝐚7) := by
  refine (st12_v164 (W24 m c)).trans ?_
  rw [val24_arg7 m c]
theorem val25_v153 : W25 m c main_v153 = agg2 m c :=
  (W25_of m c main_v153 (by decide)).trans ((W24_of m c main_v153 (by decide)).trans (val23_v153 m c))
theorem val26_v165_0 : W26 m c main_v165_0 = Cert.Spec.centered (F := Ideal) (agg2 m c) (Cert.Spec.meanRows (F := Ideal) (agg2 m c) 𝐚2 (Cert.Spec.cnt (F := Ideal) 𝐚2)) (Cert.Spec.row64 (F := Ideal) (Cert.Spec.vec2 (F := Ideal) 𝐚7)) := by
  have e : W26 m c main_v165_0 = (dat12 (Ven12 m) c).arrAt 3 cfg12.N := by
    unfold W26
    rw [Function.update_of_ne (StableHlo.devRef_ne_of_ne (by decide) : (Proc.devRef .tc main_v165_0 : DevRef τ sig) ≠ Proc.devRef .tc main_v165_1), Function.update_self]
  refine e.trans ((out12_0_eq (Ven12 m) c).trans ?_)
  show Cert.Spec.centered (F := Ideal) (W25 m c main_v153) (W25 m c main_v161) (W25 m c main_v164) = _
  rw [val25_v153 m c, val25_v161 m c, val25_v164 m c]
theorem val26_v165_1 : W26 m c main_v165_1 = Cert.Spec.centeredSq (F := Ideal) (agg2 m c) (Cert.Spec.meanRows (F := Ideal) (agg2 m c) 𝐚2 (Cert.Spec.cnt (F := Ideal) 𝐚2)) (Cert.Spec.row64 (F := Ideal) (Cert.Spec.vec2 (F := Ideal) 𝐚7)) := by
  have e : W26 m c main_v165_1 = (dat12 (Ven12 m) c).arrAt 4 cfg12.N := by unfold W26; exact Function.update_self _ _ _
  refine e.trans ((out12_1_eq (Ven12 m) c).trans ?_)
  show Cert.Spec.centeredSq (F := Ideal) (W25 m c main_v153) (W25 m c main_v161) (W25 m c main_v164) = _
  rw [val25_v153 m c, val25_v161 m c, val25_v164 m c]
theorem val26_v36 : W26 m c main_v36 = Cert.Spec.batchCol 𝐚2 :=
  (W26_of m c main_v36 (by decide)).trans ((W25_of m c main_v36 (by decide)).trans ((W24_of m c main_v36 (by decide)).trans (val23_v36 m c)))
theorem val26_v35 : W26 m c main_v35 = Cert.Spec.cnt (F := Ideal) 𝐚2 :=
  (W26_of m c main_v35 (by decide)).trans ((W25_of m c main_v35 (by decide)).trans ((W24_of m c main_v35 (by decide)).trans (val23_v35 m c)))
theorem val27_v166 : W27 m c main_v166 = Cert.Spec.segMean64 (F := Ideal) (Cert.Spec.centeredSq (F := Ideal) (agg2 m c) (Cert.Spec.meanRows (F := Ideal) (agg2 m c) 𝐚2 (Cert.Spec.cnt (F := Ideal) 𝐚2)) (Cert.Spec.row64 (F := Ideal) (Cert.Spec.vec2 (F := Ideal) 𝐚7))) (Cert.Spec.batchCol 𝐚2) (Cert.Spec.cnt (F := Ideal) 𝐚2) := by
  have e : W27 m c main_v166 = (dat13 (Ven13 m) c).arrAt 3 cfg13.N := by unfold W27; exact Function.update_self _ _ _
  refine e.trans ((out13_eq (Ven13 m) c).trans ?_)
  show Cert.Spec.segMean64 (F := Ideal) (W26 m c main_v165_1) (W26 m c main_v36) (W26 m c main_v35) = _
  rw [val26_v165_1 m c, val26_v36 m c, val26_v35 m c]
theorem val27_arg2 : W27 m c main_arg2 = 𝐚2 :=
  (W27_of m c main_arg2 (by decide)).trans ((W26_of m c main_arg2 (by decide)).trans ((W25_of m c main_arg2 (by decide)).trans (val24_arg2 m c)))
theorem val28_v173 : W28 m c main_v173 = Cert.Spec.meanRows (F := Ideal) (Cert.Spec.centeredSq (F := Ideal) (agg2 m c) (Cert.Spec.meanRows (F := Ideal) (agg2 m c) 𝐚2 (Cert.Spec.cnt (F := Ideal) 𝐚2)) (Cert.Spec.row64 (F := Ideal) (Cert.Spec.vec2 (F := Ideal) 𝐚7))) 𝐚2 (Cert.Spec.cnt (F := Ideal) 𝐚2) := by
  refine (st14_v173 (W27 m c)).trans ?_
  rw [val27_v166 m c, val27_arg2 m c]
  rfl
theorem val27_arg5 : W27 m c main_arg5 = 𝐚5 :=
  (W27_of m c main_arg5 (by decide)).trans ((W26_of m c main_arg5 (by decide)).trans ((W25_of m c main_arg5 (by decide)).trans ((W24_of m c main_arg5 (by decide)).trans ((W23_of m c main_arg5 (by decide)).trans ((W22_of m c main_arg5 (by decide)).trans ((W21_of m c main_arg5 (by decide)).trans ((W20_of m c main_arg5 (by decide)).trans ((W19_of m c main_arg5 (by decide)).trans (val18_arg5 m c)))))))))
theorem val28_v176 : W28 m c main_v176 = Cert.Spec.row64 (F := Ideal) (Cert.Spec.vec2 (F := Ideal) 𝐚5) := by
  refine (st14_v176 (W27 m c)).trans ?_
  rw [val27_arg5 m c]
theorem val27_arg6 : W27 m c main_arg6 = 𝐚6 :=
  (W27_of m c main_arg6 (by decide)).trans ((W26_of m c main_arg6 (by decide)).trans ((W25_of m c main_arg6 (by decide)).trans ((W24_of m c main_arg6 (by decide)).trans ((W23_of m c main_arg6 (by decide)).trans ((W22_of m c main_arg6 (by decide)).trans ((W21_of m c main_arg6 (by decide)).trans ((W20_of m c main_arg6 (by decide)).trans ((W19_of m c main_arg6 (by decide)).trans (val18_arg6 m c)))))))))
theorem val28_v179 : W28 m c main_v179 = Cert.Spec.row64 (F := Ideal) (Cert.Spec.vec2 (F := Ideal) 𝐚6) := by
  refine (st14_v179 (W27 m c)).trans ?_
  rw [val27_arg6 m c]
theorem val28_v165_0 : W28 m c main_v165_0 = Cert.Spec.centered (F := Ideal) (agg2 m c) (Cert.Spec.meanRows (F := Ideal) (agg2 m c) 𝐚2 (Cert.Spec.cnt (F := Ideal) 𝐚2)) (Cert.Spec.row64 (F := Ideal) (Cert.Spec.vec2 (F := Ideal) 𝐚7)) :=
  (W28_of m c main_v165_0 (by decide)).trans ((W27_of m c main_v165_0 (by decide)).trans (val26_v165_0 m c))
theorem val29_v180 : W29 m c main_v180 = hh3 m c := by
  have e : W29 m c main_v180 = (dat14 (Ven14 m) c).arrAt 4 cfg14.N := by unfold W29; exact Function.update_self _ _ _
  refine e.trans ((out14_eq (Ven14 m) c ?_).trans ?_)
  · intro i
    show (0 : EReal) ≤ W28 m c main_v173 i
    rw [val28_v173 m c]
    exact Cert.Spec.meanRows_centeredSq_nonneg' _ _ _ _ i
  · show Cert.Spec.normed (F := Ideal) (W28 m c main_v165_0) (W28 m c main_v173) (W28 m c main_v176) (W28 m c main_v179) = _
    rw [val28_v165_0 m c, val28_v173 m c, val28_v176 m c, val28_v179 m c]
    rfl

/-! ## The pooled rows and the head -/

theorem val29_v84 : W29 m c main_v84 = hh1 m c :=
  (W29_of m c main_v84 (by decide)).trans ((W28_of m c main_v84 (by decide)).trans ((W27_of m c main_v84 (by decide)).trans ((W26_of m c main_v84 (by decide)).trans ((W25_of m c main_v84 (by decide)).trans ((W24_of m c main_v84 (by decide)).trans ((W23_of m c main_v84 (by decide)).trans ((W22_of m c main_v84 (by decide)).trans ((W21_of m c main_v84 (by decide)).trans ((W20_of m c main_v84 (by decide)).trans ((W19_of m c main_v84 (by decide)).trans ((W18_of m c main_v84 (by decide)).trans ((W17_of m c main_v84 (by decide)).trans ((W16_of m c main_v84 (by decide)).trans ((W15_of m c main_v84 (by decide)).trans ((W14_of m c main_v84 (by decide)).trans ((W13_of m c main_v84 (by decide)).trans (val12_v84 m c)))))))))))))))))
theorem val29_v132 : W29 m c main_v132 = hh2 m c :=
  (W29_of m c main_v132 (by decide)).trans ((W28_of m c main_v132 (by decide)).trans ((W27_of m c main_v132 (by decide)).trans ((W26_of m c main_v132 (by decide)).trans ((W25_of m c main_v132 (by decide)).trans ((W24_of m c main_v132 (by decide)).trans ((W23_of m c main_v132 (by decide)).trans ((W22_of m c main_v132 (by decide)).trans (val21_v132 m c))))))))
theorem val30_v181 : W30 m c main_v181 = Cert.Spec.feats (F := Ideal) (hh1 m c) (hh2 m c) (hh3 m c) := by
  refine (st15_v181 (W29 m c)).trans ?_
  rw [val29_v84 m c, val29_v132 m c, val29_v180 m c]
theorem val30_v36 : W30 m c main_v36 = Cert.Spec.batchCol 𝐚2 :=
  (W30_of m c main_v36 (by decide)).trans ((W29_of m c main_v36 (by decide)).trans ((W28_of m c main_v36 (by decide)).trans ((W27_of m c main_v36 (by decide)).trans (val26_v36 m c))))
theorem val30_v35 : W30 m c main_v35 = Cert.Spec.cnt (F := Ideal) 𝐚2 :=
  (W30_of m c main_v35 (by decide)).trans ((W29_of m c main_v35 (by decide)).trans ((W28_of m c main_v35 (by decide)).trans ((W27_of m c main_v35 (by decide)).trans (val26_v35 m c))))
theorem val31_v182 : W31 m c main_v182 = Cert.Spec.segMean192 (F := Ideal) (Cert.Spec.feats (F := Ideal) (hh1 m c) (hh2 m c) (hh3 m c)) (Cert.Spec.batchCol 𝐚2) (Cert.Spec.cnt (F := Ideal) 𝐚2) := by
  have e : W31 m c main_v182 = (dat15 (Ven15 m) c).arrAt 3 cfg15.N := by unfold W31; exact Function.update_self _ _ _
  refine e.trans ((out15_eq (Ven15 m) c).trans ?_)
  show Cert.Spec.segMean192 (F := Ideal) (W30 m c main_v181) (W30 m c main_v36) (W30 m c main_v35) = _
  rw [val30_v181 m c, val30_v36 m c, val30_v35 m c]
theorem val31_arg9 : W31 m c main_arg9 = 𝐚9 :=
  (W31_of m c main_arg9 (by decide)).trans ((W30_of m c main_arg9 (by decide)).trans ((W29_of m c main_arg9 (by decide)).trans ((W28_of m c main_arg9 (by decide)).trans ((W27_of m c main_arg9 (by decide)).trans ((W26_of m c main_arg9 (by decide)).trans ((W25_of m c main_arg9 (by decide)).trans ((W24_of m c main_arg9 (by decide)).trans ((W23_of m c main_arg9 (by decide)).trans ((W22_of m c main_arg9 (by decide)).trans ((W21_of m c main_arg9 (by decide)).trans ((W20_of m c main_arg9 (by decide)).trans ((W19_of m c main_arg9 (by decide)).trans ((W18_of m c main_arg9 (by decide)).trans ((W17_of m c main_arg9 (by decide)).trans ((W16_of m c main_arg9 (by decide)).trans ((W15_of m c main_arg9 (by decide)).trans ((W14_of m c main_arg9 (by decide)).trans ((W13_of m c main_arg9 (by decide)).trans ((W12_of m c main_arg9 (by decide)).trans ((W11_of m c main_arg9 (by decide)).trans ((W10_of m c main_arg9 (by decide)).trans ((W9_of m c main_arg9 (by decide)).trans ((W8_of m c main_arg9 (by decide)).trans ((W7_of m c main_arg9 (by decide)).trans ((W6_of m c main_arg9 (by decide)).trans ((W5_of m c main_arg9 (by decide)).trans ((W4_of m c main_arg9 (by decide)).trans ((W3_of m c main_arg9 (by decide)).trans ((W2_of m c main_arg9 (by decide)).trans ((W1_of m c main_arg9 (by decide)).trans (val0_arg9 m c)))))))))))))))))))))))))))))))
theorem val32_v183 : W32 m c main_v183 = broadcastInDim Cert.ReferenceIdeal.S1x192 ![1] Cert.ReferenceIdeal.Facts₀.bcast_S192_S1x192_1 𝐚9 := by
  refine (st16_v183 (W31 m c)).trans ?_
  rw [val31_arg9 m c]
  exact shapeCast_S192_S1x192_eq _
theorem val31_arg11 : W31 m c main_arg11 = 𝐚11 :=
  (W31_of m c main_arg11 (by decide)).trans ((W30_of m c main_arg11 (by decide)).trans ((W29_of m c main_arg11 (by decide)).trans ((W28_of m c main_arg11 (by decide)).trans ((W27_of m c main_arg11 (by decide)).trans ((W26_of m c main_arg11 (by decide)).trans ((W25_of m c main_arg11 (by decide)).trans ((W24_of m c main_arg11 (by decide)).trans ((W23_of m c main_arg11 (by decide)).trans ((W22_of m c main_arg11 (by decide)).trans ((W21_of m c main_arg11 (by decide)).trans ((W20_of m c main_arg11 (by decide)).trans ((W19_of m c main_arg11 (by decide)).trans ((W18_of m c main_arg11 (by decide)).trans ((W17_of m c main_arg11 (by decide)).trans ((W16_of m c main_arg11 (by decide)).trans ((W15_of m c main_arg11 (by decide)).trans ((W14_of m c main_arg11 (by decide)).trans ((W13_of m c main_arg11 (by decide)).trans ((W12_of m c main_arg11 (by decide)).trans ((W11_of m c main_arg11 (by decide)).trans ((W10_of m c main_arg11 (by decide)).trans ((W9_of m c main_arg11 (by decide)).trans ((W8_of m c main_arg11 (by decide)).trans ((W7_of m c main_arg11 (by decide)).trans ((W6_of m c main_arg11 (by decide)).trans ((W5_of m c main_arg11 (by decide)).trans ((W4_of m c main_arg11 (by decide)).trans ((W3_of m c main_arg11 (by decide)).trans ((W2_of m c main_arg11 (by decide)).trans ((W1_of m c main_arg11 (by decide)).trans (val0_arg11 m c)))))))))))))))))))))))))))))))
theorem val32_v184 : W32 m c main_v184 = broadcastInDim Cert.ReferenceIdeal.S1x10 ![1] Cert.ReferenceIdeal.Facts₀.bcast_S10_S1x10_1 𝐚11 := by
  refine (st16_v184 (W31 m c)).trans ?_
  rw [val31_arg11 m c]
  exact shapeCast_S10_S1x10_eq _
theorem val32_v182 : W32 m c main_v182 = Cert.Spec.segMean192 (F := Ideal) (Cert.Spec.feats (F := Ideal) (hh1 m c) (hh2 m c) (hh3 m c)) (Cert.Spec.batchCol 𝐚2) (Cert.Spec.cnt (F := Ideal) 𝐚2) :=
  (W32_of m c main_v182 (by decide)).trans (val31_v182 m c)
theorem val32_arg8 : W32 m c main_arg8 = 𝐚8 :=
  (W32_of m c main_arg8 (by decide)).trans ((W31_of m c main_arg8 (by decide)).trans ((W30_of m c main_arg8 (by decide)).trans ((W29_of m c main_arg8 (by decide)).trans ((W28_of m c main_arg8 (by decide)).trans ((W27_of m c main_arg8 (by decide)).trans ((W26_of m c main_arg8 (by decide)).trans ((W25_of m c main_arg8 (by decide)).trans ((W24_of m c main_arg8 (by decide)).trans ((W23_of m c main_arg8 (by decide)).trans ((W22_of m c main_arg8 (by decide)).trans ((W21_of m c main_arg8 (by decide)).trans ((W20_of m c main_arg8 (by decide)).trans ((W19_of m c main_arg8 (by decide)).trans ((W18_of m c main_arg8 (by decide)).trans ((W17_of m c main_arg8 (by decide)).trans ((W16_of m c main_arg8 (by decide)).trans ((W15_of m c main_arg8 (by decide)).trans ((W14_of m c main_arg8 (by decide)).trans ((W13_of m c main_arg8 (by decide)).trans ((W12_of m c main_arg8 (by decide)).trans ((W11_of m c main_arg8 (by decide)).trans ((W10_of m c main_arg8 (by decide)).trans ((W9_of m c main_arg8 (by decide)).trans ((W8_of m c main_arg8 (by decide)).trans ((W7_of m c main_arg8 (by decide)).trans ((W6_of m c main_arg8 (by decide)).trans ((W5_of m c main_arg8 (by decide)).trans ((W4_of m c main_arg8 (by decide)).trans ((W3_of m c main_arg8 (by decide)).trans ((W2_of m c main_arg8 (by decide)).trans ((W1_of m c main_arg8 (by decide)).trans (val0_arg8 m c))))))))))))))))))))))))))))))))
theorem val32_arg10 : W32 m c main_arg10 = 𝐚10 :=
  (W32_of m c main_arg10 (by decide)).trans ((W31_of m c main_arg10 (by decide)).trans ((W30_of m c main_arg10 (by decide)).trans ((W29_of m c main_arg10 (by decide)).trans ((W28_of m c main_arg10 (by decide)).trans ((W27_of m c main_arg10 (by decide)).trans ((W26_of m c main_arg10 (by decide)).trans ((W25_of m c main_arg10 (by decide)).trans ((W24_of m c main_arg10 (by decide)).trans ((W23_of m c main_arg10 (by decide)).trans ((W22_of m c main_arg10 (by decide)).trans ((W21_of m c main_arg10 (by decide)).trans ((W20_of m c main_arg10 (by decide)).trans ((W19_of m c main_arg10 (by decide)).trans ((W18_of m c main_arg10 (by decide)).trans ((W17_of m c main_arg10 (by decide)).trans ((W16_of m c main_arg10 (by decide)).trans ((W15_of m c main_arg10 (by decide)).trans ((W14_of m c main_arg10 (by decide)).trans ((W13_of m c main_arg10 (by decide)).trans ((W12_of m c main_arg10 (by decide)).trans ((W11_of m c main_arg10 (by decide)).trans ((W10_of m c main_arg10 (by decide)).trans ((W9_of m c main_arg10 (by decide)).trans ((W8_of m c main_arg10 (by decide)).trans ((W7_of m c main_arg10 (by decide)).trans ((W6_of m c main_arg10 (by decide)).trans ((W5_of m c main_arg10 (by decide)).trans ((W4_of m c main_arg10 (by decide)).trans ((W3_of m c main_arg10 (by decide)).trans ((W2_of m c main_arg10 (by decide)).trans ((W1_of m c main_arg10 (by decide)).trans (val0_arg10 m c))))))))))))))))))))))))))))))))
theorem val33_v185 : W33 m c main_v185 = Cert.Spec.out1 (F := Ideal) 𝐚0 𝐚1 𝐚2 𝐚3 𝐚4 𝐚5 𝐚6 𝐚7 𝐚8 𝐚9 𝐚10 𝐚11 := by
  have e : W33 m c main_v185 = (dat16 (Ven16 m) c).arrAt 5 cfg16.N := by unfold W33; exact Function.update_self _ _ _
  refine e.trans ((out16_eq (Ven16 m) c).trans ?_)
  show Cert.Spec.head (F := Ideal) (W32 m c main_v182) (W32 m c main_arg8) (W32 m c main_v183) (W32 m c main_arg10) (W32 m c main_v184) = _
  rw [val32_v182 m c, val32_arg8 m c, val32_v183 m c, val32_arg10 m c, val32_v184 m c]
  rfl

/-! ## The two results -/

theorem val33_v180 : W33 m c main_v180 = hh3 m c :=
  (W33_of m c main_v180 (by decide)).trans ((W32_of m c main_v180 (by decide)).trans ((W31_of m c main_v180 (by decide)).trans ((W30_of m c main_v180 (by decide)).trans (val29_v180 m c))))
/-- The first result array at the end of the fold: the third layer's node rows. -/
theorem value_v180 : W33 m c main_v180 = Cert.Spec.out0 (F := Ideal) 𝐚0 𝐚1 𝐚2 𝐚3 𝐚4 𝐚5 𝐚6 𝐚7 𝐚8 𝐚9 𝐚10 𝐚11 :=
  (val33_v180 m c).trans rfl

/-- The second result array at the end of the fold: the head's log-probabilities. -/
theorem value_v185 : W33 m c main_v185 = Cert.Spec.out1 (F := Ideal) 𝐚0 𝐚1 𝐚2 𝐚3 𝐚4 𝐚5 𝐚6 𝐚7 𝐚8 𝐚9 𝐚10 𝐚11 :=
  val33_v185 m c

end Cert.KernelIdeal.Hand

end
-- ==== Proof.Ref.Ops.lean ====
/-
  The plain program's @main as a list of host operations, cut into five consecutive lists: the prologue, the three
  layers and the epilogue. A called function's operations stand in its call's place. Every operation touches only
  TensorCore references and determines what it writes; @main is the run of the five lists one after the other.
-/
import proofs.«422469_j24000277250640_1_alg».proof.Proof.Gen.ReferenceIdeal
import Idealize.ShloMosaic.Lib.StableHlo.Run

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
set_option maxRecDepth 8192 in
/-- The prologue: the edge lists with the self loops appended, the degrees, the edge weights and the per-graph node counts (through `main_v35`). -/
abbrev opsP : List (HloOp τ sig (Elt F)) :=
  [ nullary main_v0 (iotaInDim S100000 32 0),
    unary main_arg1 main_v1 ((extractStridedSlice S1x1200000 ![0, 0] · slices_S2x1200000_S1x1200000_0_0) : (⟨S2x1200000, .i32⟩ : BufTy).Contents (Elt F) → (⟨S1x1200000, .i32⟩ : BufTy).Contents (Elt F)),
    reshape main_v1 main_v2 rfl shapeCasts_S1x1200000_S1200000,
    binary main_v2 main_v0 main_v3 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    unary main_arg1 main_v4 ((extractStridedSlice S1x1200000 ![1, 0] · slices_S2x1200000_S1x1200000_1_0) : (⟨S2x1200000, .i32⟩ : BufTy).Contents (Elt F) → (⟨S1x1200000, .i32⟩ : BufTy).Contents (Elt F)),
    reshape main_v4 main_v5 rfl shapeCasts_S1x1200000_S1200000,
    binary main_v5 main_v0 main_v6 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    nullary main_cst (constant S_ .f32 0x3F800000#32),
    unary main_cst main_v7 (broadcastInDim S1300000 ![] bcast_S_S1300000 : (⟨S_, .f32⟩ : BufTy).Contents (Elt F) → (⟨S1300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1300000x1 ![0] bcast_S1300000_S1300000x1_0 : (⟨S1300000, .i32⟩ : BufTy).Contents (Elt F) → (⟨S1300000x1, .i32⟩ : BufTy).Contents (Elt F)),
    ternary main_v8 main_v9 main_v7 main_v10 ((fun x i u => Host.scatterAdd scatter_S100000_S1300000x1_S1300000_n_0_0_1 x i u) : (⟨S100000, .f32⟩ : BufTy).Contents (Elt F) → (⟨S1300000x1, .i32⟩ : BufTy).Contents (Elt F) → (⟨S1300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1300000 ![] bcast_S_S1300000 : (⟨S_, .i32⟩ : BufTy).Contents (Elt F) → (⟨S1300000, .i32⟩ : BufTy).Contents (Elt F)),
    binary main_v3 main_v15 main_v16 (cmpi .slt : (⟨S1300000, .i32⟩ : BufTy).Contents (Elt F) → (⟨S1300000, .i32⟩ : BufTy).Contents (Elt F) → (⟨S1300000, .i1⟩ : BufTy).Contents (Elt F)),
    nullary main_c_3 (constantI S_ 32 100000#32),
    unary main_c_3 main_v17 (broadcastInDim S1300000 ![] bcast_S_S1300000 : (⟨S_, .i32⟩ : BufTy).Contents (Elt F) → (⟨S1300000, .i32⟩ : BufTy).Contents (Elt F)),
    binary main_v3 main_v17 main_v18 (addi : (⟨S1300000, .i32⟩ : BufTy).Contents (Elt F) → (⟨S1300000, .i32⟩ : BufTy).Contents (Elt F) → (⟨S1300000, .i32⟩ : BufTy).Contents (Elt F)),
    ternary main_v16 main_v18 main_v3 main_v19 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v19 main_v20 (broadcastInDim S1300000x1 ![0] bcast_S1300000_S1300000x1_0 : (⟨S1300000, .i32⟩ : BufTy).Contents (Elt F) → (⟨S1300000x1, .i32⟩ : BufTy).Contents (Elt F)),
    binary main_v14 main_v20 main_v21 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    nullary main_c_4 (constantI S_ 32 0#32),
    unary main_c_4 main_v22 (broadcastInDim S1300000 ![] bcast_S_S1300000 : (⟨S_, .i32⟩ : BufTy).Contents (Elt F) → (⟨S1300000, .i32⟩ : BufTy).Contents (Elt F)),
    binary main_v6 main_v22 main_v23 (cmpi .slt : (⟨S1300000, .i32⟩ : BufTy).Contents (Elt F) → (⟨S1300000, .i32⟩ : BufTy).Contents (Elt F) → (⟨S1300000, .i1⟩ : BufTy).Contents (Elt F)),
    nullary main_c_5 (constantI S_ 32 100000#32),
    unary main_c_5 main_v24 (broadcastInDim S1300000 ![] bcast_S_S1300000 : (⟨S_, .i32⟩ : BufTy).Contents (Elt F) → (⟨S1300000, .i32⟩ : BufTy).Contents (Elt F)),
    binary main_v6 main_v24 main_v25 (addi : (⟨S1300000, .i32⟩ : BufTy).Contents (Elt F) → (⟨S1300000, .i32⟩ : BufTy).Contents (Elt F) → (⟨S1300000, .i32⟩ : BufTy).Contents (Elt F)),
    ternary main_v23 main_v25 main_v6 main_v26 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v26 main_v27 (broadcastInDim S1300000x1 ![0] bcast_S1300000_S1300000x1_0 : (⟨S1300000, .i32⟩ : BufTy).Contents (Elt F) → (⟨S1300000x1, .i32⟩ : BufTy).Contents (Elt F)),
    binary main_v14 main_v27 main_v28 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    binary main_v21 main_v28 main_v29 (mulf : (⟨S1300000, .f32⟩ : BufTy).Contents (Elt F) → (⟨S1300000, .f32⟩ : BufTy).Contents (Elt F) → (⟨S1300000, .f32⟩ : BufTy).Contents (Elt F)),
    nullary main_cst_6 (constant S_ .f32 0x3F800000#32),
    unary main_cst_6 main_v30 (broadcastInDim S100000x1 ![] bcast_S_S100000x1 : (⟨S_, .f32⟩ : BufTy).Contents (Elt F) → (⟨S100000x1, .f32⟩ : BufTy).Contents (Elt F)),
    nullary main_cst_7 (constant S_ .f32 0x00000000#32),
    unary main_cst_7 main_v31 (broadcastInDim S256x1 ![] bcast_S_S256x1 : (⟨S_, .f32⟩ : BufTy).Contents (Elt F) → (⟨S256x1, .f32⟩ : BufTy).Contents (Elt F)),
    unary main_arg2 main_v32 (broadcastInDim S100000x1 ![0] bcast_S100000_S100000x1_0 : (⟨S100000, .i32⟩ : BufTy).Contents (Elt F) → (⟨S100000x1, .i32⟩ : BufTy).Contents (Elt F)),
    ternary main_v31 main_v32 main_v30 main_v33 ((fun x i u => Host.scatterAdd scatter_S256x1_S100000x1_S100000x1_1_0_0_1 x i u) : (⟨S256x1, .f32⟩ : BufTy).Contents (Elt F) → (⟨S100000x1, .i32⟩ : BufTy).Contents (Elt F) → (⟨S100000x1, .f32⟩ : BufTy).Contents (Elt F) → (⟨S256x1, .f32⟩ : BufTy).Contents (Elt F)),
    nullary main_cst_8 (constant S_ .f32 0x3F800000#32),
    unary main_cst_8 main_v34 (broadcastInDim S256x1 ![] bcast_S_S256x1 : (⟨S_, .f32⟩ : BufTy).Contents (Elt F) → (⟨S256x1, .f32⟩ : BufTy).Contents (Elt F)),
    binary main_v33 main_v34 main_v35 (maximumf : (⟨S256x1, .f32⟩ : BufTy).Contents (Elt F) → (⟨S256x1, .f32⟩ : BufTy).Contents (Elt F) → (⟨S256x1, .f32⟩ : BufTy).Contents (Elt F)) ]

set_option maxHeartbeats 4000000 in
set_option maxRecDepth 8192 in
theorem opsP_sub : (opsP : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub ..⟩

set_option maxHeartbeats 4000000 in
set_option maxRecDepth 8192 in
theorem opsP_fresh : (opsP : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
set_option maxRecDepth 8192 in
/-- Layer 0: its parameter slices, the product with the weight matrix, the weighted neighbour sum, the per-graph centring and scaling, the maximum with zero (through `main_v102`). -/
abbrev opsL0 : List (HloOp τ sig (Elt F)) :=
  [ unary main_arg3 main_v36 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v36 main_v37 rfl shapeCasts_S1x64x64_S64x64,
    unary main_arg4 main_v38 ((extractStridedSlice S1x64 ![0, 0] · slices_S3x64_S1x64_0_0) : (⟨S3x64, .f32⟩ : BufTy).Contents (Elt F) → (⟨S1x64, .f32⟩ : BufTy).Contents (Elt F)),
    reshape main_v38 main_v39 rfl shapeCasts_S1x64_S64,
    binary main_arg0 main_v37 main_v40 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_9 (constantI S_ 32 0#32),
    unary main_c_9 main_v41 (broadcastInDim S1300000 ![] bcast_S_S1300000 : (⟨S_, .i32⟩ : BufTy).Contents (Elt F) → (⟨S1300000, .i32⟩ : BufTy).Contents (Elt F)),
    binary main_v3 main_v41 main_v42 (cmpi .slt : (⟨S1300000, .i32⟩ : BufTy).Contents (Elt F) → (⟨S1300000, .i32⟩ : BufTy).Contents (Elt F) → (⟨S1300000, .i1⟩ : BufTy).Contents (Elt F)),
    nullary main_c_10 (constantI S_ 32 100000#32),
    unary main_c_10 main_v43 (broadcastInDim S1300000 ![] bcast_S_S1300000 : (⟨S_, .i32⟩ : BufTy).Contents (Elt F) → (⟨S1300000, .i32⟩ : BufTy).Contents (Elt F)),
    binary main_v3 main_v43 main_v44 (addi : (⟨S1300000, .i32⟩ : BufTy).Contents (Elt F) → (⟨S1300000, .i32⟩ : BufTy).Contents (Elt F) → (⟨S1300000, .i32⟩ : BufTy).Contents (Elt F)),
    ternary main_v42 main_v44 main_v3 main_v45 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v45 main_v46 (broadcastInDim S1300000x1 ![0] bcast_S1300000_S1300000x1_0 : (⟨S1300000, .i32⟩ : BufTy).Contents (Elt F) → (⟨S1300000x1, .i32⟩ : BufTy).Contents (Elt F)),
    binary main_v40 main_v46 main_v47 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v29 main_v48 (broadcastInDim S1300000x1 ![0] bcast_S1300000_S1300000x1_0 : (⟨S1300000, .f32⟩ : BufTy).Contents (Elt F) → (⟨S1300000x1, .f32⟩ : BufTy).Contents (Elt F)),
    unary main_v48 main_v49 (broadcastInDim S1300000x64 ![0, 1] bcast_S1300000x1_S1300000x64_0_1 : (⟨S1300000x1, .f32⟩ : BufTy).Contents (Elt F) → (⟨S1300000x64, .f32⟩ : BufTy).Contents (Elt F)),
    binary main_v47 main_v49 main_v50 (mulf : (⟨S1300000x64, .f32⟩ : BufTy).Contents (Elt F) → (⟨S1300000x64, .f32⟩ : BufTy).Contents (Elt F) → (⟨S1300000x64, .f32⟩ : BufTy).Contents (Elt F)),
    nullary main_cst_11 (constant S_ .f32 0x00000000#32),
    unary main_cst_11 main_v51 (broadcastInDim S100000x64 ![] bcast_S_S100000x64 : (⟨S_, .f32⟩ : BufTy).Contents (Elt F) → (⟨S100000x64, .f32⟩ : BufTy).Contents (Elt F)),
    unary main_v6 main_v52 (broadcastInDim S1300000x1 ![0] bcast_S1300000_S1300000x1_0 : (⟨S1300000, .i32⟩ : BufTy).Contents (Elt F) → (⟨S1300000x1, .i32⟩ : BufTy).Contents (Elt F)),
    ternary main_v51 main_v52 main_v50 main_v53 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    unary main_v39 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v53 main_v55 main_v56 (addf : (⟨S100000x64, .f32⟩ : BufTy).Contents (Elt F) → (⟨S100000x64, .f32⟩ : BufTy).Contents (Elt F) → (⟨S100000x64, .f32⟩ : BufTy).Contents (Elt F)),
    unary main_arg5 main_v57 ((extractStridedSlice S1x64 ![0, 0] · slices_S3x64_S1x64_0_0) : (⟨S3x64, .f32⟩ : BufTy).Contents (Elt F) → (⟨S1x64, .f32⟩ : BufTy).Contents (Elt F)),
    reshape main_v57 main_v58 rfl shapeCasts_S1x64_S64,
    unary main_arg6 main_v59 ((extractStridedSlice S1x64 ![0, 0] · slices_S3x64_S1x64_0_0) : (⟨S3x64, .f32⟩ : BufTy).Contents (Elt F) → (⟨S1x64, .f32⟩ : BufTy).Contents (Elt F)),
    reshape main_v59 main_v60 rfl shapeCasts_S1x64_S64,
    unary main_arg7 main_v61 ((extractStridedSlice S1x64 ![0, 0] · slices_S3x64_S1x64_0_0) : (⟨S3x64, .f32⟩ : BufTy).Contents (Elt F) → (⟨S1x64, .f32⟩ : BufTy).Contents (Elt F)),
    reshape main_v61 main_v62 rfl shapeCasts_S1x64_S64,
    nullary main_cst_12 (constant S_ .f32 0x00000000#32),
    unary main_cst_12 main_v63 (broadcastInDim S256x64 ![] bcast_S_S256x64 : (⟨S_, .f32⟩ : BufTy).Contents (Elt F) → (⟨S256x64, .f32⟩ : BufTy).Contents (Elt F)),
    unary main_arg2 main_v64 (broadcastInDim S100000x1 ![0] bcast_S100000_S100000x1_0 : (⟨S100000, .i32⟩ : BufTy).Contents (Elt F) → (⟨S100000x1, .i32⟩ : BufTy).Contents (Elt F)),
    ternary main_v63 main_v64 main_v56 main_v65 ((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)),
    unary main_v35 main_v66 (broadcastInDim S256x64 ![0, 1] bcast_S256x1_S256x64_0_1 : (⟨S256x1, .f32⟩ : BufTy).Contents (Elt F) → (⟨S256x64, .f32⟩ : BufTy).Contents (Elt F)),
    binary main_v65 main_v66 main_v67 (Host.divf : (⟨S256x64, .f32⟩ : BufTy).Contents (Elt F) → (⟨S256x64, .f32⟩ : BufTy).Contents (Elt F) → (⟨S256x64, .f32⟩ : BufTy).Contents (Elt F)),
    nullary main_c_13 (constantI S_ 32 0#32),
    unary main_c_13 main_v68 (broadcastInDim S100000 ![] bcast_S_S100000 : (⟨S_, .i32⟩ : BufTy).Contents (Elt F) → (⟨S100000, .i32⟩ : BufTy).Contents (Elt F)),
    binary main_arg2 main_v68 main_v69 (cmpi .slt : (⟨S100000, .i32⟩ : BufTy).Contents (Elt F) → (⟨S100000, .i32⟩ : BufTy).Contents (Elt F) → (⟨S100000, .i1⟩ : BufTy).Contents (Elt F)),
    nullary main_c_14 (constantI S_ 32 256#32),
    unary main_c_14 main_v70 (broadcastInDim S100000 ![] bcast_S_S100000 : (⟨S_, .i32⟩ : BufTy).Contents (Elt F) → (⟨S100000, .i32⟩ : BufTy).Contents (Elt F)),
    binary main_arg2 main_v70 main_v71 (addi : (⟨S100000, .i32⟩ : BufTy).Contents (Elt F) → (⟨S100000, .i32⟩ : BufTy).Contents (Elt F) → (⟨S100000, .i32⟩ : BufTy).Contents (Elt F)),
    ternary main_v69 main_v71 main_arg2 main_v72 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v72 main_v73 (broadcastInDim S100000x1 ![0] bcast_S100000_S100000x1_0 : (⟨S100000, .i32⟩ : BufTy).Contents (Elt F) → (⟨S100000x1, .i32⟩ : BufTy).Contents (Elt F)),
    binary main_v67 main_v73 main_v74 ((fun x i => Host.gather gather_S256x64_S100000x1_S100000x64_1_0_n_n_0_1_164 x i) : (⟨S256x64, .f32⟩ : BufTy).Contents (Elt F) → (⟨S100000x1, .i32⟩ : BufTy).Contents (Elt F) → (⟨S100000x64, .f32⟩ : BufTy).Contents (Elt F)),
    unary main_v62 main_v75 (broadcastInDim S1x64 ![1] bcast_S64_S1x64_1 : (⟨S64, .f32⟩ : BufTy).Contents (Elt F) → (⟨S1x64, .f32⟩ : BufTy).Contents (Elt F)),
    unary main_v75 main_v76 (broadcastInDim S100000x64 ![0, 1] bcast_S1x64_S100000x64_0_1 : (⟨S1x64, .f32⟩ : BufTy).Contents (Elt F) → (⟨S100000x64, .f32⟩ : BufTy).Contents (Elt F)),
    binary main_v76 main_v74 main_v77 (mulf : (⟨S100000x64, .f32⟩ : BufTy).Contents (Elt F) → (⟨S100000x64, .f32⟩ : BufTy).Contents (Elt F) → (⟨S100000x64, .f32⟩ : BufTy).Contents (Elt F)),
    binary main_v56 main_v77 main_v78 (subf : (⟨S100000x64, .f32⟩ : BufTy).Contents (Elt F) → (⟨S100000x64, .f32⟩ : BufTy).Contents (Elt F) → (⟨S100000x64, .f32⟩ : BufTy).Contents (Elt F)),
    binary main_v78 main_v78 main_v79 (mulf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x00000000#32),
    unary main_cst_15 main_v80 (broadcastInDim S256x64 ![] bcast_S_S256x64 : (⟨S_, .f32⟩ : BufTy).Contents (Elt F) → (⟨S256x64, .f32⟩ : BufTy).Contents (Elt F)),
    unary main_arg2 main_v81 (broadcastInDim S100000x1 ![0] bcast_S100000_S100000x1_0 : (⟨S100000, .i32⟩ : BufTy).Contents (Elt F) → (⟨S100000x1, .i32⟩ : BufTy).Contents (Elt F)),
    ternary main_v80 main_v81 main_v79 main_v82 ((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)),
    unary main_v35 main_v83 (broadcastInDim S256x64 ![0, 1] bcast_S256x1_S256x64_0_1 : (⟨S256x1, .f32⟩ : BufTy).Contents (Elt F) → (⟨S256x64, .f32⟩ : BufTy).Contents (Elt F)),
    binary main_v82 main_v83 main_v84 (Host.divf : (⟨S256x64, .f32⟩ : BufTy).Contents (Elt F) → (⟨S256x64, .f32⟩ : BufTy).Contents (Elt F) → (⟨S256x64, .f32⟩ : BufTy).Contents (Elt F)),
    unary main_v58 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v86 main_v78 main_v87 (mulf : (⟨S100000x64, .f32⟩ : BufTy).Contents (Elt F) → (⟨S100000x64, .f32⟩ : BufTy).Contents (Elt F) → (⟨S100000x64, .f32⟩ : BufTy).Contents (Elt F)),
    nullary main_c_16 (constantI S_ 32 0#32),
    unary main_c_16 main_v88 (broadcastInDim S100000 ![] bcast_S_S100000 : (⟨S_, .i32⟩ : BufTy).Contents (Elt F) → (⟨S100000, .i32⟩ : BufTy).Contents (Elt F)),
    binary main_arg2 main_v88 main_v89 (cmpi .slt : (⟨S100000, .i32⟩ : BufTy).Contents (Elt F) → (⟨S100000, .i32⟩ : BufTy).Contents (Elt F) → (⟨S100000, .i1⟩ : BufTy).Contents (Elt F)),
    nullary main_c_17 (constantI S_ 32 256#32),
    unary main_c_17 main_v90 (broadcastInDim S100000 ![] bcast_S_S100000 : (⟨S_, .i32⟩ : BufTy).Contents (Elt F) → (⟨S100000, .i32⟩ : BufTy).Contents (Elt F)),
    binary main_arg2 main_v90 main_v91 (addi : (⟨S100000, .i32⟩ : BufTy).Contents (Elt F) → (⟨S100000, .i32⟩ : BufTy).Contents (Elt F) → (⟨S100000, .i32⟩ : BufTy).Contents (Elt F)),
    ternary main_v89 main_v91 main_arg2 main_v92 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v92 main_v93 (broadcastInDim S100000x1 ![0] bcast_S100000_S100000x1_0 : (⟨S100000, .i32⟩ : BufTy).Contents (Elt F) → (⟨S100000x1, .i32⟩ : BufTy).Contents (Elt F)),
    binary main_v84 main_v93 main_v94 ((fun x i => Host.gather gather_S256x64_S100000x1_S100000x64_1_0_n_n_0_1_164 x i) : (⟨S256x64, .f32⟩ : BufTy).Contents (Elt F) → (⟨S100000x1, .i32⟩ : BufTy).Contents (Elt F) → (⟨S100000x64, .f32⟩ : BufTy).Contents (Elt F)),
    nullary main_cst_18 (constant S_ .f32 0x3727C5AC#32),
    unary main_cst_18 main_v95 (broadcastInDim S100000x64 ![] bcast_S_S100000x64 : (⟨S_, .f32⟩ : BufTy).Contents (Elt F) → (⟨S100000x64, .f32⟩ : BufTy).Contents (Elt F)),
    binary main_v94 main_v95 main_v96 (addf : (⟨S100000x64, .f32⟩ : BufTy).Contents (Elt F) → (⟨S100000x64, .f32⟩ : BufTy).Contents (Elt F) → (⟨S100000x64, .f32⟩ : BufTy).Contents (Elt F)),
    unary main_v96 main_v97 (Host.sqrt : (⟨S100000x64, .f32⟩ : BufTy).Contents (Elt F) → (⟨S100000x64, .f32⟩ : BufTy).Contents (Elt F)),
    binary main_v87 main_v97 main_v98 (Host.divf : (⟨S100000x64, .f32⟩ : BufTy).Contents (Elt F) → (⟨S100000x64, .f32⟩ : BufTy).Contents (Elt F) → (⟨S100000x64, .f32⟩ : BufTy).Contents (Elt F)),
    unary main_v60 main_v99 (broadcastInDim S1x64 ![1] bcast_S64_S1x64_1 : (⟨S64, .f32⟩ : BufTy).Contents (Elt F) → (⟨S1x64, .f32⟩ : BufTy).Contents (Elt F)),
    unary main_v99 main_v100 (broadcastInDim S100000x64 ![0, 1] bcast_S1x64_S100000x64_0_1 : (⟨S1x64, .f32⟩ : BufTy).Contents (Elt F) → (⟨S100000x64, .f32⟩ : BufTy).Contents (Elt F)),
    binary main_v98 main_v100 main_v101 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v101) (TRef.of (T := ⟨S100000x64, .f32⟩) main_call1_v0) (TRef.of (T := ⟨S100000x64, .f32⟩) main_v102) maximumf ]

set_option maxHeartbeats 4000000 in
set_option maxRecDepth 8192 in
theorem opsL0_sub : (opsL0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., reshape_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩

set_option maxHeartbeats 4000000 in
set_option maxRecDepth 8192 in
theorem opsL0_fresh : (opsL0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
set_option maxRecDepth 8192 in
/-- Layer 1, the same operations on layer 0's result (through `main_v169`). -/
abbrev opsL1 : List (HloOp τ sig (Elt F)) :=
  [ unary main_arg3 main_v103 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v103 main_v104 rfl shapeCasts_S1x64x64_S64x64,
    unary main_arg4 main_v105 ((extractStridedSlice S1x64 ![1, 0] · slices_S3x64_S1x64_1_0) : (⟨S3x64, .f32⟩ : BufTy).Contents (Elt F) → (⟨S1x64, .f32⟩ : BufTy).Contents (Elt F)),
    reshape main_v105 main_v106 rfl shapeCasts_S1x64_S64,
    binary main_v102 main_v104 main_v107 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_19 (constantI S_ 32 0#32),
    unary main_c_19 main_v108 (broadcastInDim S1300000 ![] bcast_S_S1300000 : (⟨S_, .i32⟩ : BufTy).Contents (Elt F) → (⟨S1300000, .i32⟩ : BufTy).Contents (Elt F)),
    binary main_v3 main_v108 main_v109 (cmpi .slt : (⟨S1300000, .i32⟩ : BufTy).Contents (Elt F) → (⟨S1300000, .i32⟩ : BufTy).Contents (Elt F) → (⟨S1300000, .i1⟩ : BufTy).Contents (Elt F)),
    nullary main_c_20 (constantI S_ 32 100000#32),
    unary main_c_20 main_v110 (broadcastInDim S1300000 ![] bcast_S_S1300000 : (⟨S_, .i32⟩ : BufTy).Contents (Elt F) → (⟨S1300000, .i32⟩ : BufTy).Contents (Elt F)),
    binary main_v3 main_v110 main_v111 (addi : (⟨S1300000, .i32⟩ : BufTy).Contents (Elt F) → (⟨S1300000, .i32⟩ : BufTy).Contents (Elt F) → (⟨S1300000, .i32⟩ : BufTy).Contents (Elt F)),
    ternary main_v109 main_v111 main_v3 main_v112 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v112 main_v113 (broadcastInDim S1300000x1 ![0] bcast_S1300000_S1300000x1_0 : (⟨S1300000, .i32⟩ : BufTy).Contents (Elt F) → (⟨S1300000x1, .i32⟩ : BufTy).Contents (Elt F)),
    binary main_v107 main_v113 main_v114 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v29 main_v115 (broadcastInDim S1300000x1 ![0] bcast_S1300000_S1300000x1_0 : (⟨S1300000, .f32⟩ : BufTy).Contents (Elt F) → (⟨S1300000x1, .f32⟩ : BufTy).Contents (Elt F)),
    unary main_v115 main_v116 (broadcastInDim S1300000x64 ![0, 1] bcast_S1300000x1_S1300000x64_0_1 : (⟨S1300000x1, .f32⟩ : BufTy).Contents (Elt F) → (⟨S1300000x64, .f32⟩ : BufTy).Contents (Elt F)),
    binary main_v114 main_v116 main_v117 (mulf : (⟨S1300000x64, .f32⟩ : BufTy).Contents (Elt F) → (⟨S1300000x64, .f32⟩ : BufTy).Contents (Elt F) → (⟨S1300000x64, .f32⟩ : BufTy).Contents (Elt F)),
    nullary main_cst_21 (constant S_ .f32 0x00000000#32),
    unary main_cst_21 main_v118 (broadcastInDim S100000x64 ![] bcast_S_S100000x64 : (⟨S_, .f32⟩ : BufTy).Contents (Elt F) → (⟨S100000x64, .f32⟩ : BufTy).Contents (Elt F)),
    unary main_v6 main_v119 (broadcastInDim S1300000x1 ![0] bcast_S1300000_S1300000x1_0 : (⟨S1300000, .i32⟩ : BufTy).Contents (Elt F) → (⟨S1300000x1, .i32⟩ : BufTy).Contents (Elt F)),
    ternary main_v118 main_v119 main_v117 main_v120 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    unary main_v106 main_v121 (broadcastInDim S1x64 ![1] bcast_S64_S1x64_1 : (⟨S64, .f32⟩ : BufTy).Contents (Elt F) → (⟨S1x64, .f32⟩ : BufTy).Contents (Elt F)),
    unary main_v121 main_v122 (broadcastInDim S100000x64 ![0, 1] bcast_S1x64_S100000x64_0_1 : (⟨S1x64, .f32⟩ : BufTy).Contents (Elt F) → (⟨S100000x64, .f32⟩ : BufTy).Contents (Elt F)),
    binary main_v120 main_v122 main_v123 (addf : (⟨S100000x64, .f32⟩ : BufTy).Contents (Elt F) → (⟨S100000x64, .f32⟩ : BufTy).Contents (Elt F) → (⟨S100000x64, .f32⟩ : BufTy).Contents (Elt F)),
    unary main_arg5 main_v124 ((extractStridedSlice S1x64 ![1, 0] · slices_S3x64_S1x64_1_0) : (⟨S3x64, .f32⟩ : BufTy).Contents (Elt F) → (⟨S1x64, .f32⟩ : BufTy).Contents (Elt F)),
    reshape main_v124 main_v125 rfl shapeCasts_S1x64_S64,
    unary main_arg6 main_v126 ((extractStridedSlice S1x64 ![1, 0] · slices_S3x64_S1x64_1_0) : (⟨S3x64, .f32⟩ : BufTy).Contents (Elt F) → (⟨S1x64, .f32⟩ : BufTy).Contents (Elt F)),
    reshape main_v126 main_v127 rfl shapeCasts_S1x64_S64,
    unary main_arg7 main_v128 ((extractStridedSlice S1x64 ![1, 0] · slices_S3x64_S1x64_1_0) : (⟨S3x64, .f32⟩ : BufTy).Contents (Elt F) → (⟨S1x64, .f32⟩ : BufTy).Contents (Elt F)),
    reshape main_v128 main_v129 rfl shapeCasts_S1x64_S64,
    nullary main_cst_22 (constant S_ .f32 0x00000000#32),
    unary main_cst_22 main_v130 (broadcastInDim S256x64 ![] bcast_S_S256x64 : (⟨S_, .f32⟩ : BufTy).Contents (Elt F) → (⟨S256x64, .f32⟩ : BufTy).Contents (Elt F)),
    unary main_arg2 main_v131 (broadcastInDim S100000x1 ![0] bcast_S100000_S100000x1_0 : (⟨S100000, .i32⟩ : BufTy).Contents (Elt F) → (⟨S100000x1, .i32⟩ : BufTy).Contents (Elt F)),
    ternary main_v130 main_v131 main_v123 main_v132 ((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)),
    unary main_v35 main_v133 (broadcastInDim S256x64 ![0, 1] bcast_S256x1_S256x64_0_1 : (⟨S256x1, .f32⟩ : BufTy).Contents (Elt F) → (⟨S256x64, .f32⟩ : BufTy).Contents (Elt F)),
    binary main_v132 main_v133 main_v134 (Host.divf : (⟨S256x64, .f32⟩ : BufTy).Contents (Elt F) → (⟨S256x64, .f32⟩ : BufTy).Contents (Elt F) → (⟨S256x64, .f32⟩ : BufTy).Contents (Elt F)),
    nullary main_c_23 (constantI S_ 32 0#32),
    unary main_c_23 main_v135 (broadcastInDim S100000 ![] bcast_S_S100000 : (⟨S_, .i32⟩ : BufTy).Contents (Elt F) → (⟨S100000, .i32⟩ : BufTy).Contents (Elt F)),
    binary main_arg2 main_v135 main_v136 (cmpi .slt : (⟨S100000, .i32⟩ : BufTy).Contents (Elt F) → (⟨S100000, .i32⟩ : BufTy).Contents (Elt F) → (⟨S100000, .i1⟩ : BufTy).Contents (Elt F)),
    nullary main_c_24 (constantI S_ 32 256#32),
    unary main_c_24 main_v137 (broadcastInDim S100000 ![] bcast_S_S100000 : (⟨S_, .i32⟩ : BufTy).Contents (Elt F) → (⟨S100000, .i32⟩ : BufTy).Contents (Elt F)),
    binary main_arg2 main_v137 main_v138 (addi : (⟨S100000, .i32⟩ : BufTy).Contents (Elt F) → (⟨S100000, .i32⟩ : BufTy).Contents (Elt F) → (⟨S100000, .i32⟩ : BufTy).Contents (Elt F)),
    ternary main_v136 main_v138 main_arg2 main_v139 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v139 main_v140 (broadcastInDim S100000x1 ![0] bcast_S100000_S100000x1_0 : (⟨S100000, .i32⟩ : BufTy).Contents (Elt F) → (⟨S100000x1, .i32⟩ : BufTy).Contents (Elt F)),
    binary main_v134 main_v140 main_v141 ((fun x i => Host.gather gather_S256x64_S100000x1_S100000x64_1_0_n_n_0_1_164 x i) : (⟨S256x64, .f32⟩ : BufTy).Contents (Elt F) → (⟨S100000x1, .i32⟩ : BufTy).Contents (Elt F) → (⟨S100000x64, .f32⟩ : BufTy).Contents (Elt F)),
    unary main_v129 main_v142 (broadcastInDim S1x64 ![1] bcast_S64_S1x64_1 : (⟨S64, .f32⟩ : BufTy).Contents (Elt F) → (⟨S1x64, .f32⟩ : BufTy).Contents (Elt F)),
    unary main_v142 main_v143 (broadcastInDim S100000x64 ![0, 1] bcast_S1x64_S100000x64_0_1 : (⟨S1x64, .f32⟩ : BufTy).Contents (Elt F) → (⟨S100000x64, .f32⟩ : BufTy).Contents (Elt F)),
    binary main_v143 main_v141 main_v144 (mulf : (⟨S100000x64, .f32⟩ : BufTy).Contents (Elt F) → (⟨S100000x64, .f32⟩ : BufTy).Contents (Elt F) → (⟨S100000x64, .f32⟩ : BufTy).Contents (Elt F)),
    binary main_v123 main_v144 main_v145 (subf : (⟨S100000x64, .f32⟩ : BufTy).Contents (Elt F) → (⟨S100000x64, .f32⟩ : BufTy).Contents (Elt F) → (⟨S100000x64, .f32⟩ : BufTy).Contents (Elt F)),
    binary main_v145 main_v145 main_v146 (mulf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x00000000#32),
    unary main_cst_25 main_v147 (broadcastInDim S256x64 ![] bcast_S_S256x64 : (⟨S_, .f32⟩ : BufTy).Contents (Elt F) → (⟨S256x64, .f32⟩ : BufTy).Contents (Elt F)),
    unary main_arg2 main_v148 (broadcastInDim S100000x1 ![0] bcast_S100000_S100000x1_0 : (⟨S100000, .i32⟩ : BufTy).Contents (Elt F) → (⟨S100000x1, .i32⟩ : BufTy).Contents (Elt F)),
    ternary main_v147 main_v148 main_v146 main_v149 ((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)),
    unary main_v35 main_v150 (broadcastInDim S256x64 ![0, 1] bcast_S256x1_S256x64_0_1 : (⟨S256x1, .f32⟩ : BufTy).Contents (Elt F) → (⟨S256x64, .f32⟩ : BufTy).Contents (Elt F)),
    binary main_v149 main_v150 main_v151 (Host.divf : (⟨S256x64, .f32⟩ : BufTy).Contents (Elt F) → (⟨S256x64, .f32⟩ : BufTy).Contents (Elt F) → (⟨S256x64, .f32⟩ : BufTy).Contents (Elt F)),
    unary main_v125 main_v152 (broadcastInDim S1x64 ![1] bcast_S64_S1x64_1 : (⟨S64, .f32⟩ : BufTy).Contents (Elt F) → (⟨S1x64, .f32⟩ : BufTy).Contents (Elt F)),
    unary main_v152 main_v153 (broadcastInDim S100000x64 ![0, 1] bcast_S1x64_S100000x64_0_1 : (⟨S1x64, .f32⟩ : BufTy).Contents (Elt F) → (⟨S100000x64, .f32⟩ : BufTy).Contents (Elt F)),
    binary main_v153 main_v145 main_v154 (mulf : (⟨S100000x64, .f32⟩ : BufTy).Contents (Elt F) → (⟨S100000x64, .f32⟩ : BufTy).Contents (Elt F) → (⟨S100000x64, .f32⟩ : BufTy).Contents (Elt F)),
    nullary main_c_26 (constantI S_ 32 0#32),
    unary main_c_26 main_v155 (broadcastInDim S100000 ![] bcast_S_S100000 : (⟨S_, .i32⟩ : BufTy).Contents (Elt F) → (⟨S100000, .i32⟩ : BufTy).Contents (Elt F)),
    binary main_arg2 main_v155 main_v156 (cmpi .slt : (⟨S100000, .i32⟩ : BufTy).Contents (Elt F) → (⟨S100000, .i32⟩ : BufTy).Contents (Elt F) → (⟨S100000, .i1⟩ : BufTy).Contents (Elt F)),
    nullary main_c_27 (constantI S_ 32 256#32),
    unary main_c_27 main_v157 (broadcastInDim S100000 ![] bcast_S_S100000 : (⟨S_, .i32⟩ : BufTy).Contents (Elt F) → (⟨S100000, .i32⟩ : BufTy).Contents (Elt F)),
    binary main_arg2 main_v157 main_v158 (addi : (⟨S100000, .i32⟩ : BufTy).Contents (Elt F) → (⟨S100000, .i32⟩ : BufTy).Contents (Elt F) → (⟨S100000, .i32⟩ : BufTy).Contents (Elt F)),
    ternary main_v156 main_v158 main_arg2 main_v159 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v159 main_v160 (broadcastInDim S100000x1 ![0] bcast_S100000_S100000x1_0 : (⟨S100000, .i32⟩ : BufTy).Contents (Elt F) → (⟨S100000x1, .i32⟩ : BufTy).Contents (Elt F)),
    binary main_v151 main_v160 main_v161 ((fun x i => Host.gather gather_S256x64_S100000x1_S100000x64_1_0_n_n_0_1_164 x i) : (⟨S256x64, .f32⟩ : BufTy).Contents (Elt F) → (⟨S100000x1, .i32⟩ : BufTy).Contents (Elt F) → (⟨S100000x64, .f32⟩ : BufTy).Contents (Elt F)),
    nullary main_cst_28 (constant S_ .f32 0x3727C5AC#32),
    unary main_cst_28 main_v162 (broadcastInDim S100000x64 ![] bcast_S_S100000x64 : (⟨S_, .f32⟩ : BufTy).Contents (Elt F) → (⟨S100000x64, .f32⟩ : BufTy).Contents (Elt F)),
    binary main_v161 main_v162 main_v163 (addf : (⟨S100000x64, .f32⟩ : BufTy).Contents (Elt F) → (⟨S100000x64, .f32⟩ : BufTy).Contents (Elt F) → (⟨S100000x64, .f32⟩ : BufTy).Contents (Elt F)),
    unary main_v163 main_v164 (Host.sqrt : (⟨S100000x64, .f32⟩ : BufTy).Contents (Elt F) → (⟨S100000x64, .f32⟩ : BufTy).Contents (Elt F)),
    binary main_v154 main_v164 main_v165 (Host.divf : (⟨S100000x64, .f32⟩ : BufTy).Contents (Elt F) → (⟨S100000x64, .f32⟩ : BufTy).Contents (Elt F) → (⟨S100000x64, .f32⟩ : BufTy).Contents (Elt F)),
    unary main_v127 main_v166 (broadcastInDim S1x64 ![1] bcast_S64_S1x64_1 : (⟨S64, .f32⟩ : BufTy).Contents (Elt F) → (⟨S1x64, .f32⟩ : BufTy).Contents (Elt F)),
    unary main_v166 main_v167 (broadcastInDim S100000x64 ![0, 1] bcast_S1x64_S100000x64_0_1 : (⟨S1x64, .f32⟩ : BufTy).Contents (Elt F) → (⟨S100000x64, .f32⟩ : BufTy).Contents (Elt F)),
    binary main_v165 main_v167 main_v168 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v168) (TRef.of (T := ⟨S100000x64, .f32⟩) main_call2_v0) (TRef.of (T := ⟨S100000x64, .f32⟩) main_v169) maximumf ]

set_option maxHeartbeats 4000000 in
set_option maxRecDepth 8192 in
theorem opsL1_sub : (opsL1 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., reshape_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩

set_option maxHeartbeats 4000000 in
set_option maxRecDepth 8192 in
theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
set_option maxRecDepth 8192 in
/-- Layer 2, the same operations on layer 1's result (through `main_v236`). -/
abbrev opsL2 : List (HloOp τ sig (Elt F)) :=
  [ unary main_arg3 main_v170 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v170 main_v171 rfl shapeCasts_S1x64x64_S64x64,
    unary main_arg4 main_v172 ((extractStridedSlice S1x64 ![2, 0] · slices_S3x64_S1x64_2_0) : (⟨S3x64, .f32⟩ : BufTy).Contents (Elt F) → (⟨S1x64, .f32⟩ : BufTy).Contents (Elt F)),
    reshape main_v172 main_v173 rfl shapeCasts_S1x64_S64,
    binary main_v169 main_v171 main_v174 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_29 (constantI S_ 32 0#32),
    unary main_c_29 main_v175 (broadcastInDim S1300000 ![] bcast_S_S1300000 : (⟨S_, .i32⟩ : BufTy).Contents (Elt F) → (⟨S1300000, .i32⟩ : BufTy).Contents (Elt F)),
    binary main_v3 main_v175 main_v176 (cmpi .slt : (⟨S1300000, .i32⟩ : BufTy).Contents (Elt F) → (⟨S1300000, .i32⟩ : BufTy).Contents (Elt F) → (⟨S1300000, .i1⟩ : BufTy).Contents (Elt F)),
    nullary main_c_30 (constantI S_ 32 100000#32),
    unary main_c_30 main_v177 (broadcastInDim S1300000 ![] bcast_S_S1300000 : (⟨S_, .i32⟩ : BufTy).Contents (Elt F) → (⟨S1300000, .i32⟩ : BufTy).Contents (Elt F)),
    binary main_v3 main_v177 main_v178 (addi : (⟨S1300000, .i32⟩ : BufTy).Contents (Elt F) → (⟨S1300000, .i32⟩ : BufTy).Contents (Elt F) → (⟨S1300000, .i32⟩ : BufTy).Contents (Elt F)),
    ternary main_v176 main_v178 main_v3 main_v179 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v179 main_v180 (broadcastInDim S1300000x1 ![0] bcast_S1300000_S1300000x1_0 : (⟨S1300000, .i32⟩ : BufTy).Contents (Elt F) → (⟨S1300000x1, .i32⟩ : BufTy).Contents (Elt F)),
    binary main_v174 main_v180 main_v181 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v29 main_v182 (broadcastInDim S1300000x1 ![0] bcast_S1300000_S1300000x1_0 : (⟨S1300000, .f32⟩ : BufTy).Contents (Elt F) → (⟨S1300000x1, .f32⟩ : BufTy).Contents (Elt F)),
    unary main_v182 main_v183 (broadcastInDim S1300000x64 ![0, 1] bcast_S1300000x1_S1300000x64_0_1 : (⟨S1300000x1, .f32⟩ : BufTy).Contents (Elt F) → (⟨S1300000x64, .f32⟩ : BufTy).Contents (Elt F)),
    binary main_v181 main_v183 main_v184 (mulf : (⟨S1300000x64, .f32⟩ : BufTy).Contents (Elt F) → (⟨S1300000x64, .f32⟩ : BufTy).Contents (Elt F) → (⟨S1300000x64, .f32⟩ : BufTy).Contents (Elt F)),
    nullary main_cst_31 (constant S_ .f32 0x00000000#32),
    unary main_cst_31 main_v185 (broadcastInDim S100000x64 ![] bcast_S_S100000x64 : (⟨S_, .f32⟩ : BufTy).Contents (Elt F) → (⟨S100000x64, .f32⟩ : BufTy).Contents (Elt F)),
    unary main_v6 main_v186 (broadcastInDim S1300000x1 ![0] bcast_S1300000_S1300000x1_0 : (⟨S1300000, .i32⟩ : BufTy).Contents (Elt F) → (⟨S1300000x1, .i32⟩ : BufTy).Contents (Elt F)),
    ternary main_v185 main_v186 main_v184 main_v187 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    unary main_v173 main_v188 (broadcastInDim S1x64 ![1] bcast_S64_S1x64_1 : (⟨S64, .f32⟩ : BufTy).Contents (Elt F) → (⟨S1x64, .f32⟩ : BufTy).Contents (Elt F)),
    unary main_v188 main_v189 (broadcastInDim S100000x64 ![0, 1] bcast_S1x64_S100000x64_0_1 : (⟨S1x64, .f32⟩ : BufTy).Contents (Elt F) → (⟨S100000x64, .f32⟩ : BufTy).Contents (Elt F)),
    binary main_v187 main_v189 main_v190 (addf : (⟨S100000x64, .f32⟩ : BufTy).Contents (Elt F) → (⟨S100000x64, .f32⟩ : BufTy).Contents (Elt F) → (⟨S100000x64, .f32⟩ : BufTy).Contents (Elt F)),
    unary main_arg5 main_v191 ((extractStridedSlice S1x64 ![2, 0] · slices_S3x64_S1x64_2_0) : (⟨S3x64, .f32⟩ : BufTy).Contents (Elt F) → (⟨S1x64, .f32⟩ : BufTy).Contents (Elt F)),
    reshape main_v191 main_v192 rfl shapeCasts_S1x64_S64,
    unary main_arg6 main_v193 ((extractStridedSlice S1x64 ![2, 0] · slices_S3x64_S1x64_2_0) : (⟨S3x64, .f32⟩ : BufTy).Contents (Elt F) → (⟨S1x64, .f32⟩ : BufTy).Contents (Elt F)),
    reshape main_v193 main_v194 rfl shapeCasts_S1x64_S64,
    unary main_arg7 main_v195 ((extractStridedSlice S1x64 ![2, 0] · slices_S3x64_S1x64_2_0) : (⟨S3x64, .f32⟩ : BufTy).Contents (Elt F) → (⟨S1x64, .f32⟩ : BufTy).Contents (Elt F)),
    reshape main_v195 main_v196 rfl shapeCasts_S1x64_S64,
    nullary main_cst_32 (constant S_ .f32 0x00000000#32),
    unary main_cst_32 main_v197 (broadcastInDim S256x64 ![] bcast_S_S256x64 : (⟨S_, .f32⟩ : BufTy).Contents (Elt F) → (⟨S256x64, .f32⟩ : BufTy).Contents (Elt F)),
    unary main_arg2 main_v198 (broadcastInDim S100000x1 ![0] bcast_S100000_S100000x1_0 : (⟨S100000, .i32⟩ : BufTy).Contents (Elt F) → (⟨S100000x1, .i32⟩ : BufTy).Contents (Elt F)),
    ternary main_v197 main_v198 main_v190 main_v199 ((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)),
    unary main_v35 main_v200 (broadcastInDim S256x64 ![0, 1] bcast_S256x1_S256x64_0_1 : (⟨S256x1, .f32⟩ : BufTy).Contents (Elt F) → (⟨S256x64, .f32⟩ : BufTy).Contents (Elt F)),
    binary main_v199 main_v200 main_v201 (Host.divf : (⟨S256x64, .f32⟩ : BufTy).Contents (Elt F) → (⟨S256x64, .f32⟩ : BufTy).Contents (Elt F) → (⟨S256x64, .f32⟩ : BufTy).Contents (Elt F)),
    nullary main_c_33 (constantI S_ 32 0#32),
    unary main_c_33 main_v202 (broadcastInDim S100000 ![] bcast_S_S100000 : (⟨S_, .i32⟩ : BufTy).Contents (Elt F) → (⟨S100000, .i32⟩ : BufTy).Contents (Elt F)),
    binary main_arg2 main_v202 main_v203 (cmpi .slt : (⟨S100000, .i32⟩ : BufTy).Contents (Elt F) → (⟨S100000, .i32⟩ : BufTy).Contents (Elt F) → (⟨S100000, .i1⟩ : BufTy).Contents (Elt F)),
    nullary main_c_34 (constantI S_ 32 256#32),
    unary main_c_34 main_v204 (broadcastInDim S100000 ![] bcast_S_S100000 : (⟨S_, .i32⟩ : BufTy).Contents (Elt F) → (⟨S100000, .i32⟩ : BufTy).Contents (Elt F)),
    binary main_arg2 main_v204 main_v205 (addi : (⟨S100000, .i32⟩ : BufTy).Contents (Elt F) → (⟨S100000, .i32⟩ : BufTy).Contents (Elt F) → (⟨S100000, .i32⟩ : BufTy).Contents (Elt F)),
    ternary main_v203 main_v205 main_arg2 main_v206 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v206 main_v207 (broadcastInDim S100000x1 ![0] bcast_S100000_S100000x1_0 : (⟨S100000, .i32⟩ : BufTy).Contents (Elt F) → (⟨S100000x1, .i32⟩ : BufTy).Contents (Elt F)),
    binary main_v201 main_v207 main_v208 ((fun x i => Host.gather gather_S256x64_S100000x1_S100000x64_1_0_n_n_0_1_164 x i) : (⟨S256x64, .f32⟩ : BufTy).Contents (Elt F) → (⟨S100000x1, .i32⟩ : BufTy).Contents (Elt F) → (⟨S100000x64, .f32⟩ : BufTy).Contents (Elt F)),
    unary main_v196 main_v209 (broadcastInDim S1x64 ![1] bcast_S64_S1x64_1 : (⟨S64, .f32⟩ : BufTy).Contents (Elt F) → (⟨S1x64, .f32⟩ : BufTy).Contents (Elt F)),
    unary main_v209 main_v210 (broadcastInDim S100000x64 ![0, 1] bcast_S1x64_S100000x64_0_1 : (⟨S1x64, .f32⟩ : BufTy).Contents (Elt F) → (⟨S100000x64, .f32⟩ : BufTy).Contents (Elt F)),
    binary main_v210 main_v208 main_v211 (mulf : (⟨S100000x64, .f32⟩ : BufTy).Contents (Elt F) → (⟨S100000x64, .f32⟩ : BufTy).Contents (Elt F) → (⟨S100000x64, .f32⟩ : BufTy).Contents (Elt F)),
    binary main_v190 main_v211 main_v212 (subf : (⟨S100000x64, .f32⟩ : BufTy).Contents (Elt F) → (⟨S100000x64, .f32⟩ : BufTy).Contents (Elt F) → (⟨S100000x64, .f32⟩ : BufTy).Contents (Elt F)),
    binary main_v212 main_v212 main_v213 (mulf : (⟨S100000x64, .f32⟩ : BufTy).Contents (Elt F) → (⟨S100000x64, .f32⟩ : BufTy).Contents (Elt F) → (⟨S100000x64, .f32⟩ : BufTy).Contents (Elt F)),
    nullary main_cst_35 (constant S_ .f32 0x00000000#32),
    unary main_cst_35 main_v214 (broadcastInDim S256x64 ![] bcast_S_S256x64 : (⟨S_, .f32⟩ : BufTy).Contents (Elt F) → (⟨S256x64, .f32⟩ : BufTy).Contents (Elt F)),
    unary main_arg2 main_v215 (broadcastInDim S100000x1 ![0] bcast_S100000_S100000x1_0 : (⟨S100000, .i32⟩ : BufTy).Contents (Elt F) → (⟨S100000x1, .i32⟩ : BufTy).Contents (Elt F)),
    ternary main_v214 main_v215 main_v213 main_v216 ((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)),
    unary main_v35 main_v217 (broadcastInDim S256x64 ![0, 1] bcast_S256x1_S256x64_0_1 : (⟨S256x1, .f32⟩ : BufTy).Contents (Elt F) → (⟨S256x64, .f32⟩ : BufTy).Contents (Elt F)),
    binary main_v216 main_v217 main_v218 (Host.divf : (⟨S256x64, .f32⟩ : BufTy).Contents (Elt F) → (⟨S256x64, .f32⟩ : BufTy).Contents (Elt F) → (⟨S256x64, .f32⟩ : BufTy).Contents (Elt F)),
    unary main_v192 main_v219 (broadcastInDim S1x64 ![1] bcast_S64_S1x64_1 : (⟨S64, .f32⟩ : BufTy).Contents (Elt F) → (⟨S1x64, .f32⟩ : BufTy).Contents (Elt F)),
    unary main_v219 main_v220 (broadcastInDim S100000x64 ![0, 1] bcast_S1x64_S100000x64_0_1 : (⟨S1x64, .f32⟩ : BufTy).Contents (Elt F) → (⟨S100000x64, .f32⟩ : BufTy).Contents (Elt F)),
    binary main_v220 main_v212 main_v221 (mulf : (⟨S100000x64, .f32⟩ : BufTy).Contents (Elt F) → (⟨S100000x64, .f32⟩ : BufTy).Contents (Elt F) → (⟨S100000x64, .f32⟩ : BufTy).Contents (Elt F)),
    nullary main_c_36 (constantI S_ 32 0#32),
    unary main_c_36 main_v222 (broadcastInDim S100000 ![] bcast_S_S100000 : (⟨S_, .i32⟩ : BufTy).Contents (Elt F) → (⟨S100000, .i32⟩ : BufTy).Contents (Elt F)),
    binary main_arg2 main_v222 main_v223 (cmpi .slt : (⟨S100000, .i32⟩ : BufTy).Contents (Elt F) → (⟨S100000, .i32⟩ : BufTy).Contents (Elt F) → (⟨S100000, .i1⟩ : BufTy).Contents (Elt F)),
    nullary main_c_37 (constantI S_ 32 256#32),
    unary main_c_37 main_v224 (broadcastInDim S100000 ![] bcast_S_S100000 : (⟨S_, .i32⟩ : BufTy).Contents (Elt F) → (⟨S100000, .i32⟩ : BufTy).Contents (Elt F)),
    binary main_arg2 main_v224 main_v225 (addi : (⟨S100000, .i32⟩ : BufTy).Contents (Elt F) → (⟨S100000, .i32⟩ : BufTy).Contents (Elt F) → (⟨S100000, .i32⟩ : BufTy).Contents (Elt F)),
    ternary main_v223 main_v225 main_arg2 main_v226 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v226 main_v227 (broadcastInDim S100000x1 ![0] bcast_S100000_S100000x1_0 : (⟨S100000, .i32⟩ : BufTy).Contents (Elt F) → (⟨S100000x1, .i32⟩ : BufTy).Contents (Elt F)),
    binary main_v218 main_v227 main_v228 ((fun x i => Host.gather gather_S256x64_S100000x1_S100000x64_1_0_n_n_0_1_164 x i) : (⟨S256x64, .f32⟩ : BufTy).Contents (Elt F) → (⟨S100000x1, .i32⟩ : BufTy).Contents (Elt F) → (⟨S100000x64, .f32⟩ : BufTy).Contents (Elt F)),
    nullary main_cst_38 (constant S_ .f32 0x3727C5AC#32),
    unary main_cst_38 main_v229 (broadcastInDim S100000x64 ![] bcast_S_S100000x64 : (⟨S_, .f32⟩ : BufTy).Contents (Elt F) → (⟨S100000x64, .f32⟩ : BufTy).Contents (Elt F)),
    binary main_v228 main_v229 main_v230 (addf : (⟨S100000x64, .f32⟩ : BufTy).Contents (Elt F) → (⟨S100000x64, .f32⟩ : BufTy).Contents (Elt F) → (⟨S100000x64, .f32⟩ : BufTy).Contents (Elt F)),
    unary main_v230 main_v231 (Host.sqrt : (⟨S100000x64, .f32⟩ : BufTy).Contents (Elt F) → (⟨S100000x64, .f32⟩ : BufTy).Contents (Elt F)),
    binary main_v221 main_v231 main_v232 (Host.divf : (⟨S100000x64, .f32⟩ : BufTy).Contents (Elt F) → (⟨S100000x64, .f32⟩ : BufTy).Contents (Elt F) → (⟨S100000x64, .f32⟩ : BufTy).Contents (Elt F)),
    unary main_v194 main_v233 (broadcastInDim S1x64 ![1] bcast_S64_S1x64_1 : (⟨S64, .f32⟩ : BufTy).Contents (Elt F) → (⟨S1x64, .f32⟩ : BufTy).Contents (Elt F)),
    unary main_v233 main_v234 (broadcastInDim S100000x64 ![0, 1] bcast_S1x64_S100000x64_0_1 : (⟨S1x64, .f32⟩ : BufTy).Contents (Elt F) → (⟨S100000x64, .f32⟩ : BufTy).Contents (Elt F)),
    binary main_v232 main_v234 main_v235 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v235) (TRef.of (T := ⟨S100000x64, .f32⟩) main_call3_v0) (TRef.of (T := ⟨S100000x64, .f32⟩) main_v236) maximumf ]

set_option maxHeartbeats 4000000 in
set_option maxRecDepth 8192 in
theorem opsL2_sub : (opsL2 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., unary_bufs_sub .., reshape_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩

set_option maxHeartbeats 4000000 in
set_option maxRecDepth 8192 in
theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
set_option maxRecDepth 8192 in
/-- The epilogue: the three layers' results side by side, their per-graph means, the two dense layers and the logarithm of the soft maximum (through `main_v252`). -/
abbrev opsE : List (HloOp τ sig (Elt F)) :=
  [ nary ![main_v102, main_v169, main_v236] main_v237 (fun u => concatenate S100000x192 1 [⟨S100000x64, u 0⟩, ⟨S100000x64, u 1⟩, ⟨S100000x64, u 2⟩] concatenates_S100000x64_S100000x64_S100000x64_S100000x192_d1),
    nullary main_cst_39 (constant S_ .f32 0x00000000#32),
    unary main_cst_39 main_v238 (broadcastInDim S256x192 ![] bcast_S_S256x192 : (⟨S_, .f32⟩ : BufTy).Contents (Elt F) → (⟨S256x192, .f32⟩ : BufTy).Contents (Elt F)),
    unary main_arg2 main_v239 (broadcastInDim S100000x1 ![0] bcast_S100000_S100000x1_0 : (⟨S100000, .i32⟩ : BufTy).Contents (Elt F) → (⟨S100000x1, .i32⟩ : BufTy).Contents (Elt F)),
    ternary main_v238 main_v239 main_v237 main_v240 ((fun x i u => Host.scatterAdd scatter_S256x192_S100000x1_S100000x192_1_0_0_1 x i u) : (⟨S256x192, .f32⟩ : BufTy).Contents (Elt F) → (⟨S100000x1, .i32⟩ : BufTy).Contents (Elt F) → (⟨S100000x192, .f32⟩ : BufTy).Contents (Elt F) → (⟨S256x192, .f32⟩ : BufTy).Contents (Elt F)),
    unary main_v35 main_v241 (broadcastInDim S256x192 ![0, 1] bcast_S256x1_S256x192_0_1 : (⟨S256x1, .f32⟩ : BufTy).Contents (Elt F) → (⟨S256x192, .f32⟩ : BufTy).Contents (Elt F)),
    binary main_v240 main_v241 main_v242 (Host.divf : (⟨S256x192, .f32⟩ : BufTy).Contents (Elt F) → (⟨S256x192, .f32⟩ : BufTy).Contents (Elt F) → (⟨S256x192, .f32⟩ : BufTy).Contents (Elt F)),
    binary main_v242 main_arg8 main_v243 ((fun l r => Host.dotGeneral dot_S256x192_S192x192_S256x192_1_0_0_1_n_n none l r) : (⟨S256x192, .f32⟩ : BufTy).Contents (Elt F) → (⟨S192x192, .f32⟩ : BufTy).Contents (Elt F) → (⟨S256x192, .f32⟩ : BufTy).Contents (Elt F)),
    unary main_arg9 main_v244 (broadcastInDim S1x192 ![1] bcast_S192_S1x192_1 : (⟨S192, .f32⟩ : BufTy).Contents (Elt F) → (⟨S1x192, .f32⟩ : BufTy).Contents (Elt F)),
    unary main_v244 main_v245 (broadcastInDim S256x192 ![0, 1] bcast_S1x192_S256x192_0_1 : (⟨S1x192, .f32⟩ : BufTy).Contents (Elt F) → (⟨S256x192, .f32⟩ : BufTy).Contents (Elt F)),
    binary main_v243 main_v245 main_v246 (addf : (⟨S256x192, .f32⟩ : BufTy).Contents (Elt F) → (⟨S256x192, .f32⟩ : BufTy).Contents (Elt F) → (⟨S256x192, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S256x192, .f32⟩) main_call4_v0) (broadcastInDim S256x192 ![] bcast_S_S256x192),
    TRef.binary (TRef.of (T := ⟨S256x192, .f32⟩) main_v246) (TRef.of (T := ⟨S256x192, .f32⟩) main_call4_v0) (TRef.of (T := ⟨S256x192, .f32⟩) main_v247) maximumf,
    binary main_v247 main_arg10 main_v248 ((fun l r => Host.dotGeneral dot_S256x192_S192x10_S256x10_1_0_0_1_n_n none l r) : (⟨S256x192, .f32⟩ : BufTy).Contents (Elt F) → (⟨S192x10, .f32⟩ : BufTy).Contents (Elt F) → (⟨S256x10, .f32⟩ : BufTy).Contents (Elt F)),
    unary main_arg11 main_v249 (broadcastInDim S1x10 ![1] bcast_S10_S1x10_1 : (⟨S10, .f32⟩ : BufTy).Contents (Elt F) → (⟨S1x10, .f32⟩ : BufTy).Contents (Elt F)),
    unary main_v249 main_v250 (broadcastInDim S256x10 ![0, 1] bcast_S1x10_S256x10_0_1 : (⟨S1x10, .f32⟩ : BufTy).Contents (Elt F) → (⟨S256x10, .f32⟩ : BufTy).Contents (Elt F)),
    binary main_v248 main_v250 main_v251 (addf : (⟨S256x10, .f32⟩ : BufTy).Contents (Elt F) → (⟨S256x10, .f32⟩ : BufTy).Contents (Elt F) → (⟨S256x10, .f32⟩ : BufTy).Contents (Elt F)),
    TRef.nullary (TRef.of (T := ⟨S_, .f32⟩) main_call5_cst) (constant S_ .f32 0xFF800000#32),
    TRef.binary (TRef.of (T := ⟨S256x10, .f32⟩) main_v251) (TRef.of (T := ⟨S_, .f32⟩) main_call5_cst) (TRef.of (T := ⟨S256, .f32⟩) main_call5_v0) (fun x v => Host.reduce FloatOps.maximumf x v reducesTo_S256x10_S256_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S256, .f32⟩) main_call5_v1) (broadcastInDim S256 ![] bcast_S_S256),
    TRef.binary (TRef.of (T := ⟨S256, .f32⟩) main_call5_v1) (TRef.of (T := ⟨S256, .f32⟩) main_call5_v0) (TRef.of (T := ⟨S256, .f32⟩) main_call5_v2) maximumf,
    TRef.unary (TRef.of (T := ⟨S256, .f32⟩) main_call5_v2) (TRef.of (T := ⟨S256x1, .f32⟩) main_call5_v3) (broadcastInDim S256x1 ![0] bcast_S256_S256x1_0),
    TRef.unary (TRef.of (T := ⟨S256x1, .f32⟩) main_call5_v3) (TRef.of (T := ⟨S256x10, .f32⟩) main_call5_v4) (broadcastInDim S256x10 ![0, 1] bcast_S256x1_S256x10_0_1),
    TRef.binary (TRef.of (T := ⟨S256x10, .f32⟩) main_v251) (TRef.of (T := ⟨S256x10, .f32⟩) main_call5_v4) (TRef.of (T := ⟨S256x10, .f32⟩) main_call5_v5) subf,
    TRef.unary (TRef.of (T := ⟨S256x10, .f32⟩) main_call5_v5) (TRef.of (T := ⟨S256x10, .f32⟩) main_call5_v6) Host.exp,
    TRef.nullary (TRef.of (T := ⟨S_, .f32⟩) main_call5_cst_1) (constant S_ .f32 0x00000000#32),
    TRef.binary (TRef.of (T := ⟨S256x10, .f32⟩) main_call5_v6) (TRef.of (T := ⟨S_, .f32⟩) main_call5_cst_1) (TRef.of (T := ⟨S256, .f32⟩) main_call5_v7) (fun x v => Host.reduceAdd x v reducesTo_S256x10_S256_d1 h_S_),
    TRef.unary (TRef.of (T := ⟨S256, .f32⟩) main_call5_v7) (TRef.of (T := ⟨S256x1, .f32⟩) main_call5_v8) (broadcastInDim S256x1 ![0] bcast_S256_S256x1_0),
    TRef.unary (TRef.of (T := ⟨S256x1, .f32⟩) main_call5_v8) (TRef.of (T := ⟨S256x1, .f32⟩) main_call5_v9) Host.log,
    TRef.unary (TRef.of (T := ⟨S256x1, .f32⟩) main_call5_v9) (TRef.of (T := ⟨S256x10, .f32⟩) main_call5_v10) (broadcastInDim S256x10 ![0, 1] bcast_S256x1_S256x10_0_1),
    TRef.binary (TRef.of (T := ⟨S256x10, .f32⟩) main_call5_v5) (TRef.of (T := ⟨S256x10, .f32⟩) main_call5_v10) (TRef.of (T := ⟨S256x10, .f32⟩) main_v252) subf ]

set_option maxHeartbeats 4000000 in
set_option maxRecDepth 8192 in
theorem opsE_sub : (opsE : List (HloOp τ sig (Elt F))).Forall fun op => op.bufs ⊆ tcRefs τ sig :=
  ⟨nary_bufs_sub .., nullary_bufs_sub .., unary_bufs_sub .., unary_bufs_sub .., ternary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxHeartbeats 4000000 in
set_option maxRecDepth 8192 in
theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's operations, in order. -/
abbrev ops : List (HloOp τ sig (Elt F)) := opsP ++ opsL0 ++ opsL1 ++ opsL2 ++ opsE

theorem ops_sub : (ops : List (HloOp τ sig (Elt F))).Forall fun op => op.bufs ⊆ tcRefs τ sig :=
  List.forall_append.2 ⟨List.forall_append.2 ⟨List.forall_append.2 ⟨List.forall_append.2 ⟨opsP_sub, opsL0_sub⟩, opsL1_sub⟩, opsL2_sub⟩, opsE_sub⟩

theorem ops_fresh : ∀ op ∈ (ops : List (HloOp τ sig (Elt F))), op.fresh = ∅ :=
  List.forall_iff_forall_mem.1
    (List.forall_append.2 ⟨List.forall_append.2 ⟨List.forall_append.2 ⟨List.forall_append.2 ⟨opsP_fresh, opsL0_fresh⟩, opsL1_fresh⟩, opsL2_fresh⟩, opsE_fresh⟩)

theorem scopedRefs_eq : (Finset.univ.filter fun b : Ref sig .tc => b.isScoped) = ∅ := by decide
theorem scopedSems_eq : (Finset.univ.filter fun sm : SemLoc sig => sm.isScoped .tc) = ∅ := by decide

/-- Five consecutive lists cut again at four places: the same concatenation, grouped by the cuts. -/
theorem split5 {α : Type _} (P L0 L1 L2 E : List α) (a b c d : Nat) :
    P ++ L0 ++ L1 ++ L2 ++ E
      = (P ++ L0.take a) ++ ((L0.drop a).take b ++ (((L0.drop a).drop b ++ L1.take c)
          ++ ((L1.drop c ++ L2.take d) ++ (L2.drop d ++ E)))) := by
  conv_lhs =>
    rw [← List.take_append_drop a L0, ← List.take_append_drop b (L0.drop a),
      ← List.take_append_drop c L1, ← List.take_append_drop d L2]
  simp only [List.append_assoc]

/-! @main runs five windows of statements in order; each window is the run of a stretch of the list. -/

set_option maxHeartbeats 4000000 in
set_option maxRecDepth 8192 in
theorem part0_eq (c : Dev nD) : main_part0 (F := F) c = seq (opsP ++ opsL0.take 13) := rfl

set_option maxHeartbeats 4000000 in
set_option maxRecDepth 8192 in
theorem part1_eq (c : Dev nD) : main_part1 (F := F) c = seq ((opsL0.drop 13).take 60) := rfl

set_option maxHeartbeats 4000000 in
set_option maxRecDepth 8192 in
theorem part2_eq (c : Dev nD) : main_part2 (F := F) c = seq ((opsL0.drop 13).drop 60 ++ opsL1.take 56) := rfl

set_option maxHeartbeats 4000000 in
set_option maxRecDepth 8192 in
theorem part3_eq (c : Dev nD) : main_part3 (F := F) c = seq (opsL1.drop 56 ++ opsL2.take 39) := rfl

set_option maxHeartbeats 4000000 in
set_option maxRecDepth 8192 in
theorem part4_eq (c : Dev nD) : main_part4 (F := F) c = seq (opsL2.drop 39 ++ opsE) := rfl

/-- @main is the run of its operations. -/
theorem main_eq (c : Dev nD) : main (F := F) c = seq ops := by
  rw [show (ops : List (HloOp τ sig (Elt F))) = _ from split5 opsP opsL0 opsL1 opsL2 opsE 13 60 56 39,
    seq_append (opsP ++ opsL0.take 13), seq_append ((opsL0.drop 13).take 60),
    seq_append ((opsL0.drop 13).drop 60 ++ opsL1.take 56), seq_append (opsL1.drop 56 ++ opsL2.take 39),
    ← part0_eq c, ← part1_eq c, ← part2_eq c, ← part3_eq c, ← part4_eq c]
  rfl

end Cert.Ref

end
-- ==== Proof.Ref.Run.lean ====
/-
  The plain program's run: on every device, from any memory with zero counters, every weakly fair execution of @main
  terminates, and every final state has each TensorCore buffer at the fold of the operations' results, in order,
  over the buffers' contents at launch.
-/
import proofs.«422469_j24000277250640_1_alg».proof.Proof.Ref.Ops

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.Ref

end
-- ==== Proof.Ref.Keep.lean ====
/-
  What @main's operations leave alone: each of the five lists writes only the references listed for it, so a
  reference outside the five lists, in particular each of the twelve arguments, ends as it started; hence every
  execution of @main ends with the arguments as launched.
-/
import proofs.«422469_j24000277250640_1_alg».proof.Proof.Ref.Run
import Idealize.ShloMosaic.Lib.Pipeline.Frame

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- An operation that writes the one reference `y`, a member of the list `W`, writes inside `W`. -/
theorem writes_sub_of_mem {W : List (Ref sig .tc)} {op : HloOp τ sig (Elt F)} (y : Ref sig .tc)
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map_of_mem hy

/-- The references `opsP`'s operations write, in order. -/
abbrev opsP_W : List (Ref sig .tc) :=
  [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_cst_6, main_v30, main_cst_7, main_v31, main_v32, main_v33, main_cst_8, main_v34, main_v35]

set_option maxHeartbeats 4000000 in
set_option maxRecDepth 8192 in
theorem opsP_writes : (opsP : List (HloOp τ sig (Elt F))).Forall fun op => op.writes ⊆ (opsP_W.map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_v4 rfl (by decide),
   writes_sub_of_mem main_v5 rfl (by decide),
   writes_sub_of_mem main_v6 rfl (by decide),
   writes_sub_of_mem main_cst rfl (by decide),
   writes_sub_of_mem main_v7 rfl (by decide),
   writes_sub_of_mem main_cst_0 rfl (by decide),
   writes_sub_of_mem main_v8 rfl (by decide),
   writes_sub_of_mem main_v9 rfl (by decide),
   writes_sub_of_mem main_v10 rfl (by decide),
   writes_sub_of_mem main_cst_1 rfl (by decide),
   writes_sub_of_mem main_v11 rfl (by decide),
   writes_sub_of_mem main_v12 rfl (by decide),
   writes_sub_of_mem main_v13 rfl (by decide),
   writes_sub_of_mem main_cst_2 rfl (by decide),
   writes_sub_of_mem main_call0_v0 rfl (by decide),
   writes_sub_of_mem main_call0_v1 rfl (by decide),
   writes_sub_of_mem main_v14 rfl (by decide),
   writes_sub_of_mem main_c rfl (by decide),
   writes_sub_of_mem main_v15 rfl (by decide),
   writes_sub_of_mem main_v16 rfl (by decide),
   writes_sub_of_mem main_c_3 rfl (by decide),
   writes_sub_of_mem main_v17 rfl (by decide),
   writes_sub_of_mem main_v18 rfl (by decide),
   writes_sub_of_mem main_v19 rfl (by decide),
   writes_sub_of_mem main_v20 rfl (by decide),
   writes_sub_of_mem main_v21 rfl (by decide),
   writes_sub_of_mem main_c_4 rfl (by decide),
   writes_sub_of_mem main_v22 rfl (by decide),
   writes_sub_of_mem main_v23 rfl (by decide),
   writes_sub_of_mem main_c_5 rfl (by decide),
   writes_sub_of_mem main_v24 rfl (by decide),
   writes_sub_of_mem main_v25 rfl (by decide),
   writes_sub_of_mem main_v26 rfl (by decide),
   writes_sub_of_mem main_v27 rfl (by decide),
   writes_sub_of_mem main_v28 rfl (by decide),
   writes_sub_of_mem main_v29 rfl (by decide),
   writes_sub_of_mem main_cst_6 rfl (by decide),
   writes_sub_of_mem main_v30 rfl (by decide),
   writes_sub_of_mem main_cst_7 rfl (by decide),
   writes_sub_of_mem main_v31 rfl (by decide),
   writes_sub_of_mem main_v32 rfl (by decide),
   writes_sub_of_mem main_v33 rfl (by decide),
   writes_sub_of_mem main_cst_8 rfl (by decide),
   writes_sub_of_mem main_v34 rfl (by decide),
   writes_sub_of_mem main_v35 rfl (by decide)⟩

/-- The references `opsL0`'s operations write, in order. -/
abbrev opsL0_W : List (Ref sig .tc) :=
  [main_v36, main_v37, main_v38, main_v39, main_v40, main_c_9, main_v41, main_v42, main_c_10, main_v43, main_v44, main_v45, main_v46, main_v47, main_v48, main_v49, main_v50, main_cst_11, main_v51, main_v52, main_v53, main_v54, main_v55, main_v56, main_v57, main_v58, main_v59, main_v60, main_v61, main_v62, main_cst_12, main_v63, main_v64, main_v65, main_v66, main_v67, main_c_13, main_v68, main_v69, main_c_14, main_v70, main_v71, main_v72, main_v73, main_v74, main_v75, main_v76, main_v77, main_v78, main_v79, main_cst_15, main_v80, main_v81, main_v82, main_v83, main_v84, main_v85, main_v86, main_v87, main_c_16, main_v88, main_v89, main_c_17, main_v90, main_v91, main_v92, main_v93, main_v94, main_cst_18, main_v95, main_v96, main_v97, main_v98, main_v99, main_v100, main_v101, main_call1_cst, main_call1_v0, main_v102]

set_option maxHeartbeats 4000000 in
set_option maxRecDepth 8192 in
theorem opsL0_writes : (opsL0 : List (HloOp τ sig (Elt F))).Forall fun op => op.writes ⊆ (opsL0_W.map (Proc.devRef (τ := τ) .tc)).toFinset :=
  ⟨writes_sub_of_mem main_v36 rfl (by decide),
   writes_sub_of_mem main_v37 rfl (by decide),
   writes_sub_of_mem main_v38 rfl (by decide),
   writes_sub_of_mem main_v39 rfl (by decide),
   writes_sub_of_mem main_v40 rfl (by decide),
   writes_sub_of_mem main_c_9 rfl (by decide),
   writes_sub_of_mem main_v41 rfl (by decide),
   writes_sub_of_mem main_v42 rfl (by decide),
   writes_sub_of_mem main_c_10 rfl (by decide),
   writes_sub_of_mem main_v43 rfl (by decide),
   writes_sub_of_mem main_v44 rfl (by decide),
   writes_sub_of_mem main_v45 rfl (by decide),
   writes_sub_of_mem main_v46 rfl (by decide),
   writes_sub_of_mem main_v47 rfl (by decide),
   writes_sub_of_mem main_v48 rfl (by decide),
   writes_sub_of_mem main_v49 rfl (by decide),
   writes_sub_of_mem main_v50 rfl (by decide),
   writes_sub_of_mem main_cst_11 rfl (by decide),
   writes_sub_of_mem main_v51 rfl (by decide),
   writes_sub_of_mem main_v52 rfl (by decide),
   writes_sub_of_mem main_v53 rfl (by decide),
   writes_sub_of_mem main_v54 rfl (by decide),
   writes_sub_of_mem main_v55 rfl (by decide),
   writes_sub_of_mem main_v56 rfl (by decide),
   writes_sub_of_mem main_v57 rfl (by decide),
   writes_sub_of_mem main_v58 rfl (by decide),
   writes_sub_of_mem main_v59 rfl (by decide),
   writes_sub_of_mem main_v60 rfl (by decide),
   writes_sub_of_mem main_v61 rfl (by decide),
   writes_sub_of_mem main_v62 rfl (by decide),
   writes_sub_of_mem main_cst_12 rfl (by decide),
   writes_sub_of_mem main_v63 rfl (by decide),
   writes_sub_of_mem main_v64 rfl (by decide),
   writes_sub_of_mem main_v65 rfl (by decide),
   writes_sub_of_mem main_v66 rfl (by decide),
   writes_sub_of_mem main_v67 rfl (by decide),
   writes_sub_of_mem main_c_13 rfl (by decide),
   writes_sub_of_mem main_v68 rfl (by decide),
   writes_sub_of_mem main_v69 rfl (by decide),
   writes_sub_of_mem main_c_14 rfl (by decide),
   writes_sub_of_mem main_v70 rfl (by decide),
   writes_sub_of_mem main_v71 rfl (by decide),
   writes_sub_of_mem main_v72 rfl (by decide),
   writes_sub_of_mem main_v73 rfl (by decide),
   writes_sub_of_mem main_v74 rfl (by decide),
   writes_sub_of_mem main_v75 rfl (by decide),
   writes_sub_of_mem main_v76 rfl (by decide),
   writes_sub_of_mem main_v77 rfl (by decide),
   writes_sub_of_mem main_v78 rfl (by decide),
   writes_sub_of_mem main_v79 rfl (by decide),
   writes_sub_of_mem main_cst_15 rfl (by decide),
   writes_sub_of_mem main_v80 rfl (by decide),
   writes_sub_of_mem main_v81 rfl (by decide),
   writes_sub_of_mem main_v82 rfl (by decide),
   writes_sub_of_mem main_v83 rfl (by decide),
   writes_sub_of_mem main_v84 rfl (by decide),
   writes_sub_of_mem main_v85 rfl (by decide),
   writes_sub_of_mem main_v86 rfl (by decide),
   writes_sub_of_mem main_v87 rfl (by decide),
   writes_sub_of_mem main_c_16 rfl (by decide),
   writes_sub_of_mem main_v88 rfl (by decide),
   writes_sub_of_mem main_v89 rfl (by decide),
   writes_sub_of_mem main_c_17 rfl (by decide),
   writes_sub_of_mem main_v90 rfl (by decide),
   writes_sub_of_mem main_v91 rfl (by decide),
   writes_sub_of_mem main_v92 rfl (by decide),
   writes_sub_of_mem main_v93 rfl (by decide),
   writes_sub_of_mem main_v94 rfl (by decide),
   writes_sub_of_mem main_cst_18 rfl (by decide),
   writes_sub_of_mem main_v95 rfl (by decide),
   writes_sub_of_mem main_v96 rfl (by decide),
   writes_sub_of_mem main_v97 rfl (by decide),
   writes_sub_of_mem main_v98 rfl (by decide),
   writes_sub_of_mem main_v99 rfl (by decide),
   writes_sub_of_mem main_v100 rfl (by decide),
   writes_sub_of_mem main_v101 rfl (by decide),
   writes_sub_of_mem main_call1_cst rfl (by decide),
   writes_sub_of_mem main_call1_v0 rfl (by decide),
   writes_sub_of_mem main_v102 rfl (by decide)⟩

/-- The references `opsL1`'s operations write, in order. -/
abbrev opsL1_W : List (Ref sig .tc) :=
  [main_v103, main_v104, main_v105, main_v106, main_v107, main_c_19, main_v108, main_v109, main_c_20, main_v110, main_v111, main_v112, main_v113, main_v114, main_v115, main_v116, main_v117, main_cst_21, main_v118, main_v119, main_v120, main_v121, main_v122, main_v123, main_v124, main_v125, main_v126, main_v127, main_v128, main_v129, main_cst_22, main_v130, main_v131, main_v132, main_v133, main_v134, main_c_23, main_v135, main_v136, main_c_24, main_v137, main_v138, main_v139, main_v140, main_v141, main_v142, main_v143, main_v144, main_v145, main_v146, main_cst_25, main_v147, main_v148, main_v149, main_v150, main_v151, main_v152, main_v153, main_v154, main_c_26, main_v155, main_v156, main_c_27, main_v157, main_v158, main_v159, main_v160, main_v161, main_cst_28, main_v162, main_v163, main_v164, main_v165, main_v166, main_v167, main_v168, main_call2_cst, main_call2_v0, main_v169]

set_option maxHeartbeats 4000000 in
set_option maxRecDepth 8192 in
theorem opsL1_writes : (opsL1 : List (HloOp τ sig (Elt F))).Forall fun op => op.writes ⊆ (opsL1_W.map (Proc.devRef (τ := τ) .tc)).toFinset :=
  ⟨writes_sub_of_mem main_v103 rfl (by decide),
   writes_sub_of_mem main_v104 rfl (by decide),
   writes_sub_of_mem main_v105 rfl (by decide),
   writes_sub_of_mem main_v106 rfl (by decide),
   writes_sub_of_mem main_v107 rfl (by decide),
   writes_sub_of_mem main_c_19 rfl (by decide),
   writes_sub_of_mem main_v108 rfl (by decide),
   writes_sub_of_mem main_v109 rfl (by decide),
   writes_sub_of_mem main_c_20 rfl (by decide),
   writes_sub_of_mem main_v110 rfl (by decide),
   writes_sub_of_mem main_v111 rfl (by decide),
   writes_sub_of_mem main_v112 rfl (by decide),
   writes_sub_of_mem main_v113 rfl (by decide),
   writes_sub_of_mem main_v114 rfl (by decide),
   writes_sub_of_mem main_v115 rfl (by decide),
   writes_sub_of_mem main_v116 rfl (by decide),
   writes_sub_of_mem main_v117 rfl (by decide),
   writes_sub_of_mem main_cst_21 rfl (by decide),
   writes_sub_of_mem main_v118 rfl (by decide),
   writes_sub_of_mem main_v119 rfl (by decide),
   writes_sub_of_mem main_v120 rfl (by decide),
   writes_sub_of_mem main_v121 rfl (by decide),
   writes_sub_of_mem main_v122 rfl (by decide),
   writes_sub_of_mem main_v123 rfl (by decide),
   writes_sub_of_mem main_v124 rfl (by decide),
   writes_sub_of_mem main_v125 rfl (by decide),
   writes_sub_of_mem main_v126 rfl (by decide),
   writes_sub_of_mem main_v127 rfl (by decide),
   writes_sub_of_mem main_v128 rfl (by decide),
   writes_sub_of_mem main_v129 rfl (by decide),
   writes_sub_of_mem main_cst_22 rfl (by decide),
   writes_sub_of_mem main_v130 rfl (by decide),
   writes_sub_of_mem main_v131 rfl (by decide),
   writes_sub_of_mem main_v132 rfl (by decide),
   writes_sub_of_mem main_v133 rfl (by decide),
   writes_sub_of_mem main_v134 rfl (by decide),
   writes_sub_of_mem main_c_23 rfl (by decide),
   writes_sub_of_mem main_v135 rfl (by decide),
   writes_sub_of_mem main_v136 rfl (by decide),
   writes_sub_of_mem main_c_24 rfl (by decide),
   writes_sub_of_mem main_v137 rfl (by decide),
   writes_sub_of_mem main_v138 rfl (by decide),
   writes_sub_of_mem main_v139 rfl (by decide),
   writes_sub_of_mem main_v140 rfl (by decide),
   writes_sub_of_mem main_v141 rfl (by decide),
   writes_sub_of_mem main_v142 rfl (by decide),
   writes_sub_of_mem main_v143 rfl (by decide),
   writes_sub_of_mem main_v144 rfl (by decide),
   writes_sub_of_mem main_v145 rfl (by decide),
   writes_sub_of_mem main_v146 rfl (by decide),
   writes_sub_of_mem main_cst_25 rfl (by decide),
   writes_sub_of_mem main_v147 rfl (by decide),
   writes_sub_of_mem main_v148 rfl (by decide),
   writes_sub_of_mem main_v149 rfl (by decide),
   writes_sub_of_mem main_v150 rfl (by decide),
   writes_sub_of_mem main_v151 rfl (by decide),
   writes_sub_of_mem main_v152 rfl (by decide),
   writes_sub_of_mem main_v153 rfl (by decide),
   writes_sub_of_mem main_v154 rfl (by decide),
   writes_sub_of_mem main_c_26 rfl (by decide),
   writes_sub_of_mem main_v155 rfl (by decide),
   writes_sub_of_mem main_v156 rfl (by decide),
   writes_sub_of_mem main_c_27 rfl (by decide),
   writes_sub_of_mem main_v157 rfl (by decide),
   writes_sub_of_mem main_v158 rfl (by decide),
   writes_sub_of_mem main_v159 rfl (by decide),
   writes_sub_of_mem main_v160 rfl (by decide),
   writes_sub_of_mem main_v161 rfl (by decide),
   writes_sub_of_mem main_cst_28 rfl (by decide),
   writes_sub_of_mem main_v162 rfl (by decide),
   writes_sub_of_mem main_v163 rfl (by decide),
   writes_sub_of_mem main_v164 rfl (by decide),
   writes_sub_of_mem main_v165 rfl (by decide),
   writes_sub_of_mem main_v166 rfl (by decide),
   writes_sub_of_mem main_v167 rfl (by decide),
   writes_sub_of_mem main_v168 rfl (by decide),
   writes_sub_of_mem main_call2_cst rfl (by decide),
   writes_sub_of_mem main_call2_v0 rfl (by decide),
   writes_sub_of_mem main_v169 rfl (by decide)⟩

/-- The references `opsL2`'s operations write, in order. -/
abbrev opsL2_W : List (Ref sig .tc) :=
  [main_v170, main_v171, main_v172, main_v173, main_v174, main_c_29, main_v175, main_v176, main_c_30, main_v177, main_v178, main_v179, main_v180, main_v181, main_v182, main_v183, main_v184, main_cst_31, main_v185, main_v186, main_v187, main_v188, main_v189, main_v190, main_v191, main_v192, main_v193, main_v194, main_v195, main_v196, main_cst_32, main_v197, main_v198, main_v199, main_v200, main_v201, main_c_33, main_v202, main_v203, main_c_34, main_v204, main_v205, main_v206, main_v207, main_v208, main_v209, main_v210, main_v211, main_v212, main_v213, main_cst_35, main_v214, main_v215, main_v216, main_v217, main_v218, main_v219, main_v220, main_v221, main_c_36, main_v222, main_v223, main_c_37, main_v224, main_v225, main_v226, main_v227, main_v228, main_cst_38, main_v229, main_v230, main_v231, main_v232, main_v233, main_v234, main_v235, main_call3_cst, main_call3_v0, main_v236]

set_option maxHeartbeats 4000000 in
set_option maxRecDepth 8192 in
theorem opsL2_writes : (opsL2 : List (HloOp τ sig (Elt F))).Forall fun op => op.writes ⊆ (opsL2_W.map (Proc.devRef (τ := τ) .tc)).toFinset :=
  ⟨writes_sub_of_mem main_v170 rfl (by decide),
   writes_sub_of_mem main_v171 rfl (by decide),
   writes_sub_of_mem main_v172 rfl (by decide),
   writes_sub_of_mem main_v173 rfl (by decide),
   writes_sub_of_mem main_v174 rfl (by decide),
   writes_sub_of_mem main_c_29 rfl (by decide),
   writes_sub_of_mem main_v175 rfl (by decide),
   writes_sub_of_mem main_v176 rfl (by decide),
   writes_sub_of_mem main_c_30 rfl (by decide),
   writes_sub_of_mem main_v177 rfl (by decide),
   writes_sub_of_mem main_v178 rfl (by decide),
   writes_sub_of_mem main_v179 rfl (by decide),
   writes_sub_of_mem main_v180 rfl (by decide),
   writes_sub_of_mem main_v181 rfl (by decide),
   writes_sub_of_mem main_v182 rfl (by decide),
   writes_sub_of_mem main_v183 rfl (by decide),
   writes_sub_of_mem main_v184 rfl (by decide),
   writes_sub_of_mem main_cst_31 rfl (by decide),
   writes_sub_of_mem main_v185 rfl (by decide),
   writes_sub_of_mem main_v186 rfl (by decide),
   writes_sub_of_mem main_v187 rfl (by decide),
   writes_sub_of_mem main_v188 rfl (by decide),
   writes_sub_of_mem main_v189 rfl (by decide),
   writes_sub_of_mem main_v190 rfl (by decide),
   writes_sub_of_mem main_v191 rfl (by decide),
   writes_sub_of_mem main_v192 rfl (by decide),
   writes_sub_of_mem main_v193 rfl (by decide),
   writes_sub_of_mem main_v194 rfl (by decide),
   writes_sub_of_mem main_v195 rfl (by decide),
   writes_sub_of_mem main_v196 rfl (by decide),
   writes_sub_of_mem main_cst_32 rfl (by decide),
   writes_sub_of_mem main_v197 rfl (by decide),
   writes_sub_of_mem main_v198 rfl (by decide),
   writes_sub_of_mem main_v199 rfl (by decide),
   writes_sub_of_mem main_v200 rfl (by decide),
   writes_sub_of_mem main_v201 rfl (by decide),
   writes_sub_of_mem main_c_33 rfl (by decide),
   writes_sub_of_mem main_v202 rfl (by decide),
   writes_sub_of_mem main_v203 rfl (by decide),
   writes_sub_of_mem main_c_34 rfl (by decide),
   writes_sub_of_mem main_v204 rfl (by decide),
   writes_sub_of_mem main_v205 rfl (by decide),
   writes_sub_of_mem main_v206 rfl (by decide),
   writes_sub_of_mem main_v207 rfl (by decide),
   writes_sub_of_mem main_v208 rfl (by decide),
   writes_sub_of_mem main_v209 rfl (by decide),
   writes_sub_of_mem main_v210 rfl (by decide),
   writes_sub_of_mem main_v211 rfl (by decide),
   writes_sub_of_mem main_v212 rfl (by decide),
   writes_sub_of_mem main_v213 rfl (by decide),
   writes_sub_of_mem main_cst_35 rfl (by decide),
   writes_sub_of_mem main_v214 rfl (by decide),
   writes_sub_of_mem main_v215 rfl (by decide),
   writes_sub_of_mem main_v216 rfl (by decide),
   writes_sub_of_mem main_v217 rfl (by decide),
   writes_sub_of_mem main_v218 rfl (by decide),
   writes_sub_of_mem main_v219 rfl (by decide),
   writes_sub_of_mem main_v220 rfl (by decide),
   writes_sub_of_mem main_v221 rfl (by decide),
   writes_sub_of_mem main_c_36 rfl (by decide),
   writes_sub_of_mem main_v222 rfl (by decide),
   writes_sub_of_mem main_v223 rfl (by decide),
   writes_sub_of_mem main_c_37 rfl (by decide),
   writes_sub_of_mem main_v224 rfl (by decide),
   writes_sub_of_mem main_v225 rfl (by decide),
   writes_sub_of_mem main_v226 rfl (by decide),
   writes_sub_of_mem main_v227 rfl (by decide),
   writes_sub_of_mem main_v228 rfl (by decide),
   writes_sub_of_mem main_cst_38 rfl (by decide),
   writes_sub_of_mem main_v229 rfl (by decide),
   writes_sub_of_mem main_v230 rfl (by decide),
   writes_sub_of_mem main_v231 rfl (by decide),
   writes_sub_of_mem main_v232 rfl (by decide),
   writes_sub_of_mem main_v233 rfl (by decide),
   writes_sub_of_mem main_v234 rfl (by decide),
   writes_sub_of_mem main_v235 rfl (by decide),
   writes_sub_of_mem main_call3_cst rfl (by decide),
   writes_sub_of_mem main_call3_v0 rfl (by decide),
   writes_sub_of_mem main_v236 rfl (by decide)⟩

/-- The references `opsE`'s operations write, in order. -/
abbrev opsE_W : List (Ref sig .tc) :=
  [main_v237, main_cst_39, main_v238, main_v239, main_v240, main_v241, main_v242, main_v243, main_v244, main_v245, main_v246, main_call4_cst, main_call4_v0, main_v247, main_v248, main_v249, main_v250, main_v251, main_call5_cst, main_call5_v0, main_call5_cst_0, main_call5_v1, main_call5_v2, main_call5_v3, main_call5_v4, main_call5_v5, main_call5_v6, main_call5_cst_1, main_call5_v7, main_call5_v8, main_call5_v9, main_call5_v10, main_v252]

set_option maxHeartbeats 4000000 in
set_option maxRecDepth 8192 in
theorem opsE_writes : (opsE : List (HloOp τ sig (Elt F))).Forall fun op => op.writes ⊆ (opsE_W.map (Proc.devRef (τ := τ) .tc)).toFinset :=
  ⟨writes_sub_of_mem main_v237 rfl (by decide),
   writes_sub_of_mem main_cst_39 rfl (by decide),
   writes_sub_of_mem main_v238 rfl (by decide),
   writes_sub_of_mem main_v239 rfl (by decide),
   writes_sub_of_mem main_v240 rfl (by decide),
   writes_sub_of_mem main_v241 rfl (by decide),
   writes_sub_of_mem main_v242 rfl (by decide),
   writes_sub_of_mem main_v243 rfl (by decide),
   writes_sub_of_mem main_v244 rfl (by decide),
   writes_sub_of_mem main_v245 rfl (by decide),
   writes_sub_of_mem main_v246 rfl (by decide),
   writes_sub_of_mem main_call4_cst rfl (by decide),
   writes_sub_of_mem main_call4_v0 rfl (by decide),
   writes_sub_of_mem main_v247 rfl (by decide),
   writes_sub_of_mem main_v248 rfl (by decide),
   writes_sub_of_mem main_v249 rfl (by decide),
   writes_sub_of_mem main_v250 rfl (by decide),
   writes_sub_of_mem main_v251 rfl (by decide),
   writes_sub_of_mem main_call5_cst rfl (by decide),
   writes_sub_of_mem main_call5_v0 rfl (by decide),
   writes_sub_of_mem main_call5_cst_0 rfl (by decide),
   writes_sub_of_mem main_call5_v1 rfl (by decide),
   writes_sub_of_mem main_call5_v2 rfl (by decide),
   writes_sub_of_mem main_call5_v3 rfl (by decide),
   writes_sub_of_mem main_call5_v4 rfl (by decide),
   writes_sub_of_mem main_call5_v5 rfl (by decide),
   writes_sub_of_mem main_call5_v6 rfl (by decide),
   writes_sub_of_mem main_call5_cst_1 rfl (by decide),
   writes_sub_of_mem main_call5_v7 rfl (by decide),
   writes_sub_of_mem main_call5_v8 rfl (by decide),
   writes_sub_of_mem main_call5_v9 rfl (by decide),
   writes_sub_of_mem main_call5_v10 rfl (by decide),
   writes_sub_of_mem main_v252 rfl (by decide)⟩

/-- A reference none of the five lists writes holds after @main's operations what it held before them. -/
theorem after_ops_keep (U : Valuation τ sig (Elt F)) {r : Ref sig .tc}
    (hP : r ∉ opsP_W) (h0 : r ∉ opsL0_W) (h1 : r ∉ opsL1_W) (h2 : r ∉ opsL2_W) (hE : r ∉ opsE_W) :
    after ops U (Proc.devRef .tc r) = U (Proc.devRef .tc r) := by
  show after (opsP ++ opsL0 ++ opsL1 ++ opsL2 ++ opsE) U (Proc.devRef .tc r) = _
  rw [StableHlo.after_append, StableHlo.after_append, StableHlo.after_append, StableHlo.after_append,
    after_of_writes_sub opsE _ opsE_writes hE, after_of_writes_sub opsL2 _ opsL2_writes h2,
    after_of_writes_sub opsL1 _ opsL1_writes h1, after_of_writes_sub opsL0 _ opsL0_writes h0,
    after_of_writes_sub opsP _ opsP_writes hP]

/-! No operation of @main writes an argument. -/

theorem after_ops_arg0 (U : Valuation τ sig (Elt F)) :
    after ops U (Proc.devRef .tc main_arg0) = U (Proc.devRef .tc main_arg0) :=
  after_ops_keep U (by decide) (by decide) (by decide) (by decide) (by decide)

theorem after_ops_arg1 (U : Valuation τ sig (Elt F)) :
    after ops U (Proc.devRef .tc main_arg1) = U (Proc.devRef .tc main_arg1) :=
  after_ops_keep U (by decide) (by decide) (by decide) (by decide) (by decide)

theorem after_ops_arg2 (U : Valuation τ sig (Elt F)) :
    after ops U (Proc.devRef .tc main_arg2) = U (Proc.devRef .tc main_arg2) :=
  after_ops_keep U (by decide) (by decide) (by decide) (by decide) (by decide)

theorem after_ops_arg3 (U : Valuation τ sig (Elt F)) :
    after ops U (Proc.devRef .tc main_arg3) = U (Proc.devRef .tc main_arg3) :=
  after_ops_keep U (by decide) (by decide) (by decide) (by decide) (by decide)

theorem after_ops_arg4 (U : Valuation τ sig (Elt F)) :
    after ops U (Proc.devRef .tc main_arg4) = U (Proc.devRef .tc main_arg4) :=
  after_ops_keep U (by decide) (by decide) (by decide) (by decide) (by decide)

theorem after_ops_arg5 (U : Valuation τ sig (Elt F)) :
    after ops U (Proc.devRef .tc main_arg5) = U (Proc.devRef .tc main_arg5) :=
  after_ops_keep U (by decide) (by decide) (by decide) (by decide) (by decide)

theorem after_ops_arg6 (U : Valuation τ sig (Elt F)) :
    after ops U (Proc.devRef .tc main_arg6) = U (Proc.devRef .tc main_arg6) :=
  after_ops_keep U (by decide) (by decide) (by decide) (by decide) (by decide)

theorem after_ops_arg7 (U : Valuation τ sig (Elt F)) :
    after ops U (Proc.devRef .tc main_arg7) = U (Proc.devRef .tc main_arg7) :=
  after_ops_keep U (by decide) (by decide) (by decide) (by decide) (by decide)

theorem after_ops_arg8 (U : Valuation τ sig (Elt F)) :
    after ops U (Proc.devRef .tc main_arg8) = U (Proc.devRef .tc main_arg8) :=
  after_ops_keep U (by decide) (by decide) (by decide) (by decide) (by decide)

theorem after_ops_arg9 (U : Valuation τ sig (Elt F)) :
    after ops U (Proc.devRef .tc main_arg9) = U (Proc.devRef .tc main_arg9) :=
  after_ops_keep U (by decide) (by decide) (by decide) (by decide) (by decide)

theorem after_ops_arg10 (U : Valuation τ sig (Elt F)) :
    after ops U (Proc.devRef .tc main_arg10) = U (Proc.devRef .tc main_arg10) :=
  after_ops_keep U (by decide) (by decide) (by decide) (by decide) (by decide)

theorem after_ops_arg11 (U : Valuation τ sig (Elt F)) :
    after ops U (Proc.devRef .tc main_arg11) = U (Proc.devRef .tc main_arg11) :=
  after_ops_keep U (by decide) (by decide) (by decide) (by decide) (by decide)

/-- On every device, from any memory with zero counters, every weakly fair execution of @main terminates with the
    twelve arguments as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _),
      (h c main_arg7).trans (after_ops_arg7 _),
      (h c main_arg8).trans (after_ops_arg8 _),
      (h c main_arg9).trans (after_ops_arg9 _),
      (h c main_arg10).trans (after_ops_arg10 _),
      (h c main_arg11).trans (after_ops_arg11 _)⟩)
    (run_after m ρ)

end Cert.Ref

end
-- ==== Proof.Ref.Value.lean ====
/-
  The plain program's two results as the network of Spec/Forward on its twelve argument arrays.

  The operations are read stretch by stretch (the opening one, the three layers, the closing one). For each stretch
  and ANY contents U of the arrays, the arrays it writes hold the corresponding stage of the network applied to the
  arrays it reads, and every array it does not write is as in U. Carried from stretch to stretch: the arguments as
  at launch, and the graph data (edge sources, targets and weights, node counts) at their values on the arguments.
  Five such steps in a row give the results after all the operations; the run of the program ends there.
-/
import proofs.«422469_j24000277250640_1_alg».proof.Proof.Spec.Forward
import proofs.«422469_j24000277250640_1_alg».proof.Proof.Ref.Run
import proofs.«422469_j24000277250640_1_alg».proof.Proof.Ref.Keep

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-! ## Every stretch leaves the arrays it does not write as they were -/

theorem keepP (U : Valuation τ sig (Elt F)) {r : Ref sig .tc} (h : r ∉ opsP_W) : after opsP U r = U r :=
  after_of_writes_sub opsP U opsP_writes h
theorem keepL0 (U : Valuation τ sig (Elt F)) {r : Ref sig .tc} (h : r ∉ opsL0_W) : after opsL0 U r = U r :=
  after_of_writes_sub opsL0 U opsL0_writes h
theorem keepL1 (U : Valuation τ sig (Elt F)) {r : Ref sig .tc} (h : r ∉ opsL1_W) : after opsL1 U r = U r :=
  after_of_writes_sub opsL1 U opsL1_writes h
theorem keepL2 (U : Valuation τ sig (Elt F)) {r : Ref sig .tc} (h : r ∉ opsL2_W) : after opsL2 U r = U r :=
  after_of_writes_sub opsL2 U opsL2_writes h
theorem keepE (U : Valuation τ sig (Elt F)) {r : Ref sig .tc} (h : r ∉ opsE_W) : after opsE U r = U r :=
  after_of_writes_sub opsE U opsE_writes h

/-! ## Each stretch's results, from ANY contents U of the arrays it reads -/

set_option maxRecDepth 8192 in
set_option maxHeartbeats 4000000 in
/-- The opening stretch leaves the edge sources. -/
theorem pro_v3 (U : Valuation τ sig (Elt F)) : after opsP U main_v3 = Cert.Spec.src (U main_arg1) := by
  after_results_simp
  rfl
set_option maxRecDepth 8192 in
set_option maxHeartbeats 4000000 in
/-- The opening stretch leaves the edge targets. -/
theorem pro_v6 (U : Valuation τ sig (Elt F)) : after opsP U main_v6 = Cert.Spec.dst (U main_arg1) := by
  after_results_simp
  rfl
set_option maxRecDepth 8192 in
set_option maxHeartbeats 4000000 in
/-- The opening stretch leaves the edge weights. -/
theorem pro_v29 (U : Valuation τ sig (Elt F)) : after opsP U main_v29 = Cert.Spec.edgeNorm (U main_arg1) := by
  after_results_simp
  rfl
set_option maxRecDepth 8192 in
set_option maxHeartbeats 4000000 in
/-- The opening stretch leaves the graphs' node counts. -/
theorem pro_v35 (U : Valuation τ sig (Elt F)) : after opsP U main_v35 = Cert.Spec.cnt (U main_arg2) := by
  after_results_simp
  rfl

set_option maxRecDepth 8192 in
set_option maxHeartbeats 4000000 in
/-- The first layer's stretch computes one layer on the node features, with the first slices of the parameters. -/
theorem l0_v102 (U : Valuation τ sig (Elt F)) :
    after opsL0 U main_v102 =
      Cert.Spec.layer (U main_arg0) (U main_v3) (U main_v6) (U main_v29) (U main_arg2) (U main_v35)
        (Cert.Spec.weight0 (U main_arg3)) (Cert.Spec.vec0 (U main_arg4)) (Cert.Spec.vec0 (U main_arg5))
        (Cert.Spec.vec0 (U main_arg6)) (Cert.Spec.vec0 (U main_arg7)) := by
  after_results_simp
  rfl
set_option maxRecDepth 8192 in
set_option maxHeartbeats 4000000 in
/-- The second layer's stretch computes one layer on the first layer's rows, with the second slices. -/
theorem l1_v169 (U : Valuation τ sig (Elt F)) :
    after opsL1 U main_v169 =
      Cert.Spec.layer (U main_v102) (U main_v3) (U main_v6) (U main_v29) (U main_arg2) (U main_v35)
        (Cert.Spec.weight1 (U main_arg3)) (Cert.Spec.vec1 (U main_arg4)) (Cert.Spec.vec1 (U main_arg5))
        (Cert.Spec.vec1 (U main_arg6)) (Cert.Spec.vec1 (U main_arg7)) := by
  after_results_simp
  rfl
set_option maxRecDepth 8192 in
set_option maxHeartbeats 4000000 in
/-- The third layer's stretch computes one layer on the second layer's rows, with the third slices. -/
theorem l2_v236 (U : Valuation τ sig (Elt F)) :
    after opsL2 U main_v236 =
      Cert.Spec.layer (U main_v169) (U main_v3) (U main_v6) (U main_v29) (U main_arg2) (U main_v35)
        (Cert.Spec.weight2 (U main_arg3)) (Cert.Spec.vec2 (U main_arg4)) (Cert.Spec.vec2 (U main_arg5))
        (Cert.Spec.vec2 (U main_arg6)) (Cert.Spec.vec2 (U main_arg7)) := by
  after_results_simp
  rfl
set_option maxRecDepth 8192 in
set_option maxHeartbeats 4000000 in
/-- The closing stretch pools the three layers' rows per graph and applies the classifier head. -/
theorem e_v252 (U : Valuation τ sig (Elt F)) :
    after opsE U main_v252 =
      Cert.Spec.head
        (Cert.Spec.segMean192 (Cert.Spec.feats (U main_v102) (U main_v169) (U main_v236)) (Cert.Spec.batchCol (U main_arg2)) (U main_v35))
        (U main_arg8) (broadcastInDim S1x192 ![1] bcast_S192_S1x192_1 (U main_arg9)) (U main_arg10)
        (broadcastInDim S1x10 ![1] bcast_S10_S1x10_1 (U main_arg11)) := by
  after_results
  rfl

/-! ## What is carried from stretch to stretch

Contents U reached from launch contents V: the twelve arguments as at launch, and the graph data (edge sources,
targets, weights and the node counts) at their values on V's arguments. -/

/-- The twelve argument arrays. -/
abbrev argRefs : List (Ref sig .tc) :=
  [main_arg0, main_arg1, main_arg2, main_arg3, main_arg4, main_arg5, main_arg6, main_arg7, main_arg8, main_arg9, main_arg10, main_arg11]

structure Carried (U V : Valuation τ sig (Elt F)) : Prop where
  args : ∀ r ∈ argRefs, U r = V r
  v3 : U main_v3 = Cert.Spec.src (V main_arg1)
  v6 : U main_v6 = Cert.Spec.dst (V main_arg1)
  v29 : U main_v29 = Cert.Spec.edgeNorm (V main_arg1)
  v35 : U main_v35 = Cert.Spec.cnt (V main_arg2)

/-- A stretch that writes none of the carried arrays carries them on. -/
theorem Carried.step {U U' V : Valuation τ sig (Elt F)} (h : Carried U V) {W : List (Ref sig .tc)}
    (hk : ∀ {r : Ref sig .tc}, r ∉ W → U' r = U r)
    (hW : ∀ r ∈ argRefs ++ [main_v3, main_v6, main_v29, main_v35], r ∉ W) : Carried U' V where
  args r hr := (hk (hW r (List.mem_append_left _ hr))).trans (h.args r hr)
  v3 := (hk (hW main_v3 (by decide))).trans h.v3
  v6 := (hk (hW main_v6 (by decide))).trans h.v6
  v29 := (hk (hW main_v29 (by decide))).trans h.v29
  v35 := (hk (hW main_v35 (by decide))).trans h.v35

/-- After the opening stretch. -/
theorem carried_P (V : Valuation τ sig (Elt F)) : Carried (after opsP V) V where
  args r hr := keepP V ((by decide : ∀ r ∈ argRefs, r ∉ opsP_W) r hr)
  v3 := (pro_v3 V)
  v6 := (pro_v6 V)
  v29 := (pro_v29 V)
  v35 := (pro_v35 V)

theorem h1_of {U V : Valuation τ sig (Elt F)} (h : Carried U V) :
    after opsL0 U main_v102 = Cert.Spec.h1 (V main_arg0) (V main_arg1) (V main_arg2) (V main_arg3) (V main_arg4) (V main_arg5) (V main_arg6) (V main_arg7) := by
  rw [l0_v102, h.v3, h.v6, h.v29, h.v35, h.args main_arg0 (by decide), h.args main_arg2 (by decide), h.args main_arg3 (by decide),
    h.args main_arg4 (by decide), h.args main_arg5 (by decide), h.args main_arg6 (by decide), h.args main_arg7 (by decide)]
  rfl

theorem h2_of {U V : Valuation τ sig (Elt F)} (h : Carried U V)
    (hv : U main_v102 = Cert.Spec.h1 (V main_arg0) (V main_arg1) (V main_arg2) (V main_arg3) (V main_arg4) (V main_arg5) (V main_arg6) (V main_arg7)) :
    after opsL1 U main_v169 = Cert.Spec.h2 (V main_arg0) (V main_arg1) (V main_arg2) (V main_arg3) (V main_arg4) (V main_arg5) (V main_arg6) (V main_arg7) := by
  rw [l1_v169, hv, h.v3, h.v6, h.v29, h.v35, h.args main_arg2 (by decide), h.args main_arg3 (by decide),
    h.args main_arg4 (by decide), h.args main_arg5 (by decide), h.args main_arg6 (by decide), h.args main_arg7 (by decide)]
  rfl

theorem h3_of {U V : Valuation τ sig (Elt F)} (h : Carried U V)
    (hv : U main_v169 = Cert.Spec.h2 (V main_arg0) (V main_arg1) (V main_arg2) (V main_arg3) (V main_arg4) (V main_arg5) (V main_arg6) (V main_arg7)) :
    after opsL2 U main_v236 = Cert.Spec.h3 (V main_arg0) (V main_arg1) (V main_arg2) (V main_arg3) (V main_arg4) (V main_arg5) (V main_arg6) (V main_arg7) := by
  rw [l2_v236, hv, h.v3, h.v6, h.v29, h.v35, h.args main_arg2 (by decide), h.args main_arg3 (by decide),
    h.args main_arg4 (by decide), h.args main_arg5 (by decide), h.args main_arg6 (by decide), h.args main_arg7 (by decide)]
  rfl

theorem out1_of {U V : Valuation τ sig (Elt F)} (h : Carried U V)
    (hv1 : U main_v102 = Cert.Spec.h1 (V main_arg0) (V main_arg1) (V main_arg2) (V main_arg3) (V main_arg4) (V main_arg5) (V main_arg6) (V main_arg7))
    (hv2 : U main_v169 = Cert.Spec.h2 (V main_arg0) (V main_arg1) (V main_arg2) (V main_arg3) (V main_arg4) (V main_arg5) (V main_arg6) (V main_arg7))
    (hv3 : U main_v236 = Cert.Spec.h3 (V main_arg0) (V main_arg1) (V main_arg2) (V main_arg3) (V main_arg4) (V main_arg5) (V main_arg6) (V main_arg7)) :
    after opsE U main_v252 = Cert.Spec.out1 (V main_arg0) (V main_arg1) (V main_arg2) (V main_arg3) (V main_arg4) (V main_arg5) (V main_arg6) (V main_arg7) (V main_arg8) (V main_arg9) (V main_arg10) (V main_arg11) := by
  rw [e_v252, hv1, hv2, hv3, h.v35, h.args main_arg2 (by decide), h.args main_arg8 (by decide), h.args main_arg9 (by decide),
    h.args main_arg10 (by decide), h.args main_arg11 (by decide)]
  rfl

/-! ## The five stretches in a row -/

/-- From any launch contents V: the two results at the network's values on V's arguments. -/
theorem values (V : Valuation τ sig (Elt F)) :
    after opsE (after opsL2 (after opsL1 (after opsL0 (after opsP V)))) main_v236 = Cert.Spec.out0 (V main_arg0) (V main_arg1) (V main_arg2) (V main_arg3) (V main_arg4) (V main_arg5) (V main_arg6) (V main_arg7) (V main_arg8) (V main_arg9) (V main_arg10) (V main_arg11)
    ∧ after opsE (after opsL2 (after opsL1 (after opsL0 (after opsP V)))) main_v252 = Cert.Spec.out1 (V main_arg0) (V main_arg1) (V main_arg2) (V main_arg3) (V main_arg4) (V main_arg5) (V main_arg6) (V main_arg7) (V main_arg8) (V main_arg9) (V main_arg10) (V main_arg11) := by
  have c1 : Carried (after opsP V) V := carried_P V
  have a1 := h1_of c1
  have c2 : Carried (after opsL0 (after opsP V)) V := c1.step (fun hr => keepL0 _ hr) (by decide)
  have a2 := h2_of c2 a1
  have c3 : Carried (after opsL1 (after opsL0 (after opsP V))) V := c2.step (fun hr => keepL1 _ hr) (by decide)
  have b2 : after opsL1 (after opsL0 (after opsP V)) main_v102 = _ := (keepL1 _ (by decide)).trans a1
  have a3 := h3_of c3 a2
  have c4 : Carried (after opsL2 (after opsL1 (after opsL0 (after opsP V)))) V := c3.step (fun hr => keepL2 _ hr) (by decide)
  have b3 : after opsL2 (after opsL1 (after opsL0 (after opsP V))) main_v102 = _ := (keepL2 _ (by decide)).trans b2
  have b3' : after opsL2 (after opsL1 (after opsL0 (after opsP V))) main_v169 = _ := (keepL2 _ (by decide)).trans a2
  exact ⟨(keepE _ (by decide)).trans a3, out1_of c4 b3 b3' a3⟩

/-! ## The whole list of operations -/

/-- The contents after two lists of operations in a row: the second list's, from the first list's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The whole list is the five stretches in a row. -/
theorem after_ops_eq (V : Valuation τ sig (Elt F)) :
    after ops V = after opsE (after opsL2 (after opsL1 (after opsL0 (after opsP V)))) := by
  unfold ops
  rw [after_app, after_app, after_app, after_app]

/-- From any launch contents V, after all the operations: the two results at the network's values on V's arguments. -/
theorem values_ops (V : Valuation τ sig (Elt F)) :
    after ops V main_v236 = Cert.Spec.out0 (V main_arg0) (V main_arg1) (V main_arg2) (V main_arg3) (V main_arg4) (V main_arg5) (V main_arg6) (V main_arg7) (V main_arg8) (V main_arg9) (V main_arg10) (V main_arg11)
    ∧ after ops V main_v252 = Cert.Spec.out1 (V main_arg0) (V main_arg1) (V main_arg2) (V main_arg3) (V main_arg4) (V main_arg5) (V main_arg6) (V main_arg7) (V main_arg8) (V main_arg9) (V main_arg10) (V main_arg11) := by
  rw [after_ops_eq]
  exact values V

/-- On every device, for any float values, from any memory with zero counters: every weakly fair execution of the
    plain program terminates with its first result the third layer's node rows and its second result the classifier's
    log-probabilities, as functions of the twelve argument arrays at launch, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v236) =
        Cert.Spec.out0 (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v252) =
        Cert.Spec.out1 (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
      obtain ⟨h0, h1⟩ := values_ops (F := F) (launchContents m c)
      exact ⟨(h c main_v236).trans h0, (h c main_v252).trans h1,
        (h c main_arg0).trans (after_ops_arg0 _), (h c main_arg1).trans (after_ops_arg1 _),
        (h c main_arg2).trans (after_ops_arg2 _), (h c main_arg3).trans (after_ops_arg3 _),
        (h c main_arg4).trans (after_ops_arg4 _), (h c main_arg5).trans (after_ops_arg5 _),
        (h c main_arg6).trans (after_ops_arg6 _), (h c main_arg7).trans (after_ops_arg7 _),
        (h c main_arg8).trans (after_ops_arg8 _), (h c main_arg9).trans (after_ops_arg9 _),
        (h c main_arg10).trans (after_ops_arg10 _), (h c main_arg11).trans (after_ops_arg11 _)⟩)
    (run_after m ρ)

end Cert.Ref

end
-- ==== Proof.lean ====
/-
  The proof of `Cert.Claim` for the three-layer graph network (graph convolution, per-graph normalisation and clamp,
  three times; the three layers' node rows side by side averaged per graph; a two-layer classifier ending in a
  log-softmax), computed once as seventeen tiled kernels among whole-array operations and once by whole-array
  operations alone. The claim is a conjunction of five statements.

  * The three frames. Each program, from any launch memory, runs to the end without fault and leaves its twelve
    argument arrays as launched. For the tiled program this is one statement at every float model (so both at the
    bit patterns and at the extended reals): every kernel region, entered with its operand arrays at given
    contents, leaves its result arrays at the contents its tiles compute and touches nothing else, and the regions
    and the whole-array stretches between them compose along the program (Kernel/Frame, KernelIdeal/Frame). For the
    whole-array program no operation writes an argument array (Ref/Keep).
  * `preserves`. The idealised tiled program is the tiled program's own text read at the extended reals, no
    operation rewritten: the statement is `True`.
  * `algebraic`. At the extended reals (sum and product exact, commutative and associative, 0 · x = 0, every format
    change the identity) and from memories that agree on the twelve arguments, both programs end with the same two
    results. Both are shown equal to ONE pair of functions of the argument arrays, `Spec.out0` (the third layer's
    node rows) and `Spec.out1` (the class log-probabilities) of Spec/Forward:
      - the tiled program's two result arrays end at the last boundary's contents (`run_values`, KernelIdeal/Frame),
        and those contents are `Spec.out0`, `Spec.out1` of the launch arguments (KernelIdeal/Value: a projection tile
        is rows against a matrix; a per-graph tile sum of one-hot products is the scatter-sum over the graph's nodes,
        divided by the node count; centring and its square are pointwise; for a nonnegative variance v,
        a · (v + ε)^(-1/2) = a / √(v + ε); the classifier tile is the whole-array classifier);
      - the whole-array program's run ends at the same two functions of ITS arguments (Ref/Value), which are the
        tiled program's arguments by hypothesis.
-/
import proofs.«422469_j24000277250640_1_alg».proof.Defs
import proofs.«422469_j24000277250640_1_alg».proof.Proof.Gen.Kernel
import proofs.«422469_j24000277250640_1_alg».proof.Proof.Gen.KernelIdeal
import proofs.«422469_j24000277250640_1_alg».proof.Proof.Gen.ReferenceIdeal
import proofs.«422469_j24000277250640_1_alg».proof.Proof.Gen.Pre_finite_inputs
import proofs.«422469_j24000277250640_1_alg».proof.Proof.Kernel.Frame
import proofs.«422469_j24000277250640_1_alg».proof.Proof.KernelIdeal.Frame
import proofs.«422469_j24000277250640_1_alg».proof.Proof.KernelIdeal.Value
import proofs.«422469_j24000277250640_1_alg».proof.Proof.Ref.Keep
import proofs.«422469_j24000277250640_1_alg».proof.Proof.Ref.Value
import Idealize.ShloMosaic.Adequacy
import Idealize.ShloMosaic.Init

noncomputable section
namespace Cert.Proof

open Idealize.ShloMosaic Idealize.SL.Sem

/-- The tiled program at the bit patterns runs and leaves its arguments as launched. -/
theorem frame_Kernel : Cert.frame_Kernel := fun m ρ _ => Cert.Kernel.Hand.frame m ρ

/-- The tiled program at the extended reals runs and leaves its arguments as launched. -/
theorem frame_KernelIdeal : Cert.frame_KernelIdeal := fun m ρ _ => Cert.KernelIdeal.Hand.frame m ρ

/-- The whole-array program at the extended reals runs and leaves its arguments as launched: the last part of what
    its run ends with. -/
theorem frame_ReferenceIdeal : Cert.frame_ReferenceIdeal := fun m ρ _ => Cert.Ref.frame (F := Ideal) m ρ

/-- No operation was rewritten between the tiled program and its reading at the extended reals. -/
theorem preserves : Cert.preserves_Kernel_KernelIdeal := trivial

/-- At the extended reals, from memories agreeing on the twelve arguments, both programs end with the network's two
    results as functions of those arguments: the tiled program's last boundary holds them, the whole-array program's
    run ends at them on its own arguments, which are the same arrays. -/
theorem algebraic : Cert.algebraic_KernelIdeal_ReferenceIdeal := by
  intro m ρ m' ρ' _ hagree
  refine ⟨fun c => Cert.Spec.out0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Spec.out1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Hand.value_v180 m c), (h c).2.1.trans (Cert.KernelIdeal.Hand.value_v185 m c), (h c).2.2⟩)
      (Cert.KernelIdeal.Hand.run_values (F := Ideal) m ρ)
  · refine (θ_run Cert.ReferenceIdeal.defs _ _).mono (fun _ h c => ?_) (Cert.Ref.run (F := Ideal) m' ρ')
    obtain ⟨e0, e1, e2, e3, e4, e5, e6, e7, e8, e9, e10, e11⟩ := hagree c
    refine ⟨?_, ?_, (h c).2.2⟩
    · rw [(h c).1, e0, e1, e2, e3, e4, e5, e6, e7, e8, e9, e10, e11]
    · rw [(h c).2.1, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
